-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S50000x64 : Shape := ⟨2, ![50000, 64]⟩
abbrev S2400000 : Shape := ⟨1, ![2400000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S2400000 : S_.BroadcastsInDim S2400000 (![] : Fin 0 → Fin S2400000.rank)
  reducesTo_S2400000_S_d0 : S2400000.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : IVec S4096 32) (main_arg6 : IVec S4096 32) (main_v13 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v13 main_v16
  let main_c_6 : IVec S_ 32 := constantI S_ 32 100000#32
  let main_v18 : IVec S4096 32 := broadcastInDim S4096 ![] bcast_S_S4096 main_c_6
  let main_v19 : IVec S4096 1 := cmpi .slt main_arg5 main_v18
  let main_c_7 : IVec S_ 1 := constantI S_ 1 1#1
  let main_v20 : IVec S_ 1 := (fun x v => Host.reduce IntOp.andi x v reducesTo_S4096_S_d0 h_S_) main_v19 main_c_7
  let main_v21 : IVec S_ 1 := andi main_v17 main_v20
  let main_c_8 : IVec S_ 32 := constantI S_ 32 0#32
  let main_v22 : IVec S4096 32 := broadcastInDim S4096 ![] bcast_S_S4096 main_c_8
  let main_v23 : IVec S4096 1 := cmpi .sge main_arg6 main_v22
  let main_c_9 : IVec S_ 1 := constantI S_ 1 1#1
  let main_v24 : IVec S_ 1 := (fun x v => Host.reduce IntOp.andi x v reducesTo_S4096_S_d0 h_S_) main_v23 main_c_9
  let main_v25 : IVec S_ 1 := andi main_v21 main_v24
  let main_c_10 : IVec S_ 32 := constantI S_ 32 50000#32
  let main_v26 : IVec S4096 32 := broadcastInDim S4096 ![] bcast_S_S4096 main_c_10
  let main_v27 : IVec S4096 1 := cmpi .slt main_arg6 main_v26
  let main_c_11 : IVec S_ 1 := constantI S_ 1 1#1
  let main_v28 : IVec S_ 1 := (fun x v => Host.reduce IntOp.andi x v reducesTo_S4096_S_d0 h_S_) main_v27 main_c_11
  let main_v29 : IVec S_ 1 := andi main_v25 main_v28
  main_v29

def fn {F : FTy → Type} [FloatOps F] (main_arg0 : FVec F S100000x64 .f32) (main_arg1 : FVec F S50000x64 .f32) (main_arg2 : FVec F S2400000 .f32) (main_arg3 : IVec S2400000 32) (main_arg4 : IVec S2400000 32) (main_arg5 : IVec S4096 32) (main_arg6 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S2400000 .f32 := Host.absf main_arg2
  let main_cst_2 : FVec F S_ .f32 := constant S_ .f32 0x7F800000#32
  let main_v10 : FVec F S2400000 .f32 := broadcastInDim S2400000 ![] bcast_S_S2400000 main_cst_2
  let main_v11 : IVec S2400000 1 := cmpf .olt main_v9 main_v10
  let main_c_3 : IVec S_ 1 := constantI S_ 1 1#1
  let main_v12 : IVec S_ 1 := (fun x v => Host.reduce IntOp.andi x v reducesTo_S2400000_S_d0 h_S_) main_v11 main_c_3
  let main_v13 : IVec S_ 1 := andi main_v8 main_v12
  let main_c_4 : IVec S_ 32 := constantI S_ 32 0#32
  let main_v14 : IVec S4096 32 := broadcastInDim S4096 ![] bcast_S_S4096 main_c_4
  let main_v15 : IVec S4096 1 := cmpi .sge main_arg5 main_v14
  let main_c_5 : IVec S_ 1 := constantI S_ 1 1#1
  fn_part1 (F := F) main_arg5 main_arg6 main_v13 main_v15 main_c_5
-- ==== Kernel.lean ====
abbrev S100000x64 : Shape := ⟨2, ![100000, 64]⟩
abbrev S50000x64 : Shape := ⟨2, ![50000, 64]⟩
abbrev S2400000 : Shape := ⟨1, ![2400000]⟩
abbrev S4096 : Shape := ⟨1, ![4096]⟩
abbrev S150000x64 : Shape := ⟨2, ![150000, 64]⟩
abbrev S_ : Shape := ⟨0, ![]⟩
abbrev S2400000x1 : Shape := ⟨2, ![2400000, 1]⟩
abbrev S2400000x64 : Shape := ⟨2, ![2400000, 64]⟩
abbrev S75000x128 : Shape := ⟨2, ![75000, 128]⟩
abbrev S3000x128 : Shape := ⟨2, ![3000, 128]⟩
abbrev S4096x64 : Shape := ⟨2, ![4096, 64]⟩
abbrev S128x64 : Shape := ⟨2, ![128, 64]⟩
abbrev S128 : Shape := ⟨1, ![128]⟩
abbrev S1 : Shape := ⟨1, ![1]⟩
abbrev S1x64 : Shape := ⟨2, ![1, 64]⟩
abbrev S64 : Shape := ⟨1, ![64]⟩

abbrev nBuf : Space → Nat
  | .hbm => 86
  | .vmem => 22
  | .smem => 2
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2400000, .f32⟩
  | .hbm, ⟨3, _⟩ => ⟨S2400000, .i32⟩
  | .hbm, ⟨4, _⟩ => ⟨S2400000, .i32⟩
  | .hbm, ⟨5, _⟩ => ⟨S4096, .i32⟩
  | .hbm, ⟨6, _⟩ => ⟨S4096, .i32⟩
  | .hbm, ⟨7, _⟩ => ⟨S150000x64, .f32⟩
  | .hbm, ⟨8, _⟩ => ⟨S_, .i32⟩
  | .hbm, ⟨9, _⟩ => ⟨S2400000, .i32⟩
  | .hbm, ⟨10, _⟩ => ⟨S2400000, .i1⟩
  | .hbm, ⟨11, _⟩ => ⟨S_, .i32⟩
  | .hbm, ⟨12, _⟩ => ⟨S2400000, .i32⟩
  | .hbm, ⟨13, _⟩ => ⟨S2400000, .i32⟩
  | .hbm, ⟨14, _⟩ => ⟨S2400000, .i32⟩
  | .hbm, ⟨15, _⟩ => ⟨S2400000x1, .i32⟩
  | .hbm, ⟨16, _⟩ => ⟨S2400000x64, .f32⟩
  | .hbm, ⟨17, _⟩ => ⟨S2400000x1, .f32⟩
  | .hbm, ⟨18, _⟩ => ⟨S2400000x64, .f32⟩
  | .hbm, ⟨19, _⟩ => ⟨S2400000x64, .f32⟩
  | .hbm, ⟨20, _⟩ => ⟨S_, .f32⟩
  | .hbm, ⟨21, _⟩ => ⟨S150000x64, .f32⟩
  | .hbm, ⟨22, _⟩ => ⟨S2400000x1, .i32⟩
  | .hbm, ⟨23, _⟩ => ⟨S150000x64, .f32⟩
  | .hbm, ⟨24, _⟩ => ⟨S75000x128, .f32⟩
  | .hbm, ⟨25, _⟩ => ⟨S75000x128, .f32⟩
  | .hbm, ⟨26, _⟩ => ⟨S75000x128, .f32⟩
  | .hbm, ⟨27, _⟩ => ⟨S150000x64, .f32⟩
  | .hbm, ⟨28, _⟩ => ⟨S_, .i32⟩
  | .hbm, ⟨29, _⟩ => ⟨S2400000, .i32⟩
  | .hbm, ⟨30, _⟩ => ⟨S2400000, .i1⟩
  | .hbm, ⟨31, _⟩ => ⟨S_, .i32⟩
  | .hbm, ⟨32, _⟩ => ⟨S2400000, .i32⟩
  | .hbm, ⟨33, _⟩ => ⟨S2400000, .i32⟩
  | .hbm, ⟨34, _⟩ => ⟨S2400000, .i32⟩
  | .hbm, ⟨35, _⟩ => ⟨S2400000x1, .i32⟩
  | .hbm, ⟨36, _⟩ => ⟨S2400000x64, .f32⟩
  | .hbm, ⟨37, _⟩ => ⟨S2400000x1, .f32⟩
  | .hbm, ⟨38, _⟩ => ⟨S2400000x64, .f32⟩
  | .hbm, ⟨39, _⟩ => ⟨S2400000x64, .f32⟩
  | .hbm, ⟨40, _⟩ => ⟨S_, .f32⟩
  | .hbm, ⟨41, _⟩ => ⟨S150000x64, .f32⟩
  | .hbm, ⟨42, _⟩ => ⟨S2400000x1, .i32⟩
  | .hbm, ⟨43, _⟩ => ⟨S150000x64, .f32⟩
  | .hbm, ⟨44, _⟩ => ⟨S75000x128, .f32⟩
  | .hbm, ⟨45, _⟩ => ⟨S75000x128, .f32⟩
  | .hbm, ⟨46, _⟩ => ⟨S75000x128, .f32⟩
  | .hbm, ⟨47, _⟩ => ⟨S150000x64, .f32⟩
  | .hbm, ⟨48, _⟩ => ⟨S_, .i32⟩
  | .hbm, ⟨49, _⟩ => ⟨S2400000, .i32⟩
  | .hbm, ⟨50, _⟩ => ⟨S2400000, .i1⟩
  | .hbm, ⟨51, _⟩ => ⟨S_, .i32⟩
  | .hbm, ⟨52, _⟩ => ⟨S2400000, .i32⟩
  | .hbm, ⟨53, _⟩ => ⟨S2400000, .i32⟩
  | .hbm, ⟨54, _⟩ => ⟨S2400000, .i32⟩
  | .hbm, ⟨55, _⟩ => ⟨S2400000x1, .i32⟩
  | .hbm, ⟨56, _⟩ => ⟨S2400000x64, .f32⟩
  | .hbm, ⟨57, _⟩ => ⟨S2400000x1, .f32⟩
  | .hbm, ⟨58, _⟩ => ⟨S2400000x64, .f32⟩
  | .hbm, ⟨59, _⟩ => ⟨S2400000x64, .f32⟩
  | .hbm, ⟨60, _⟩ => ⟨S_, .f32⟩
  | .hbm, ⟨61, _⟩ => ⟨S150000x64, .f32⟩
  | .hbm, ⟨62, _⟩ => ⟨S2400000x1, .i32⟩
  | .hbm, ⟨63, _⟩ => ⟨S150000x64, .f32⟩
  | .hbm, ⟨64, _⟩ => ⟨S75000x128, .f32⟩
  | .hbm, ⟨65, _⟩ => ⟨S75000x128, .f32⟩
  | .hbm, ⟨66, _⟩ => ⟨S75000x128, .f32⟩
  | .hbm, ⟨67, _⟩ => ⟨S150000x64, .f32⟩
  | .hbm, ⟨68, _⟩ => ⟨S100000x64, .f32⟩
  | .hbm, ⟨69, _⟩ => ⟨S50000x64, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S4096, .i32⟩
  | .hbm, ⟨74, _⟩ => ⟨S4096, .i32⟩
  | .hbm, ⟨75, _⟩ => ⟨S_, .i32⟩
  | .hbm, ⟨76, _⟩ => ⟨S4096, .i32⟩
  | .hbm, ⟨77, _⟩ => ⟨S4096x64, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S4096, .i32⟩
  | .hbm, ⟨82, _⟩ => ⟨S4096, .i32⟩
  | .hbm, ⟨83, _⟩ => ⟨S_, .i32⟩
  | .hbm, ⟨84, _⟩ => ⟨S4096, .i32⟩
  | .hbm, ⟨85, _⟩ => ⟨S4096x64, .f32⟩
  | .local _ .vmem, ⟨0, _⟩ => ⟨S3000x128, .f32⟩
  | .local _ .vmem, ⟨1, _⟩ => ⟨S3000x128, .f32⟩
  | .local _ .vmem, ⟨2, _⟩ => ⟨S3000x128, .f32⟩
  | .local _ .vmem, ⟨3, _⟩ => ⟨S3000x128, .f32⟩
  | .local _ .vmem, ⟨4, _⟩ => ⟨S3000x128, .f32⟩
  | .local _ .vmem, ⟨5, _⟩ => ⟨S3000x128, .f32⟩
  | .local _ .vmem, ⟨6, _⟩ => ⟨S3000x128, .f32⟩
  | .local _ .vmem, ⟨7, _⟩ => ⟨S3000x128, .f32⟩
  | .local _ .vmem, ⟨8, _⟩ => ⟨S3000x128, .f32⟩
  | .local _ .vmem, ⟨9, _⟩ => ⟨S3000x128, .f32⟩
  | .local _ .vmem, ⟨10, _⟩ => ⟨S3000x128, .f32⟩
  | .local _ .vmem, ⟨11, _⟩ => ⟨S3000x128, .f32⟩
  | .local _ .vmem, ⟨12, _⟩ => ⟨S3000x128, .f32⟩
  | .local _ .vmem, ⟨13, _⟩ => ⟨S3000x128, .f32⟩
  | .local _ .vmem, ⟨14, _⟩ => ⟨S3000x128, .f32⟩
  | .local _ .vmem, ⟨15, _⟩ => ⟨S3000x128, .f32⟩
  | .local _ .vmem, ⟨16, _⟩ => ⟨S3000x128, .f32⟩
  | .local _ .vmem, ⟨17, _⟩ => ⟨S3000x128, .f32⟩
  | .local _ .vmem, ⟨18, _⟩ => ⟨S128x64, .f32⟩
  | .local _ .vmem, ⟨19, _⟩ => ⟨S128x64, .f32⟩
  | .local _ .vmem, ⟨20, _⟩ => ⟨S128x64, .f32⟩
  | .local _ .vmem, ⟨21, _⟩ => ⟨S128x64, .f32⟩
  | .local _ .smem, ⟨0, _⟩ => ⟨S4096, .i32⟩
  | .local _ .smem, ⟨1, _⟩ => ⟨S4096, .i32⟩
  | _, _ => ⟨S100000x64, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 278 → Bool
  | ⟨i, _⟩ => dmaSemScopedAt i

abbrev sig : RefSig :=
  ofTc nBuf bufTy 0 278 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c_4 : Ref sig .tc := ⟨.hbm, 48, rfl⟩
abbrev main_v35 : Ref sig .tc := ⟨.hbm, 49, rfl⟩
abbrev main_v36 : Ref sig .tc := ⟨.hbm, 50, rfl⟩
abbrev main_c_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_c_7 : Ref sig .tc := ⟨.hbm, 70, rfl⟩
abbrev main_c_8 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v55 : Ref sig .tc := ⟨.hbm, 77, rfl⟩
abbrev main_c_9 : Ref sig .tc := ⟨.hbm, 78, rfl⟩
abbrev main_c_10 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_v57 : Ref sig .tc := ⟨.hbm, 85, rfl⟩
abbrev main_v54 : Ref sig .tc := ⟨.smem, 0, rfl⟩
abbrev main_v56 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc4_stg0_0 : Ref sig .tc := ⟨.vmem, 20, rfl⟩
abbrev cc4_stg0_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc4_sem0_0 : DmaSem sig := 148
abbrev cc4_sem0_1 : DmaSem sig := 149

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S3000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S3000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S3000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![32], ![false]⟩

abbrev pre3 : Pipeline.Prefetch sig := ⟨1, ![main_v54.idx], fun | 0 => main_v54.names | ⟨_ + 1, h⟩ => absurd h (Nat.not_lt.2 (Nat.le_add_left _ _)), fun | 0 => rfl | ⟨_ + 1, h⟩ => absurd h (Nat.not_lt.2 (Nat.le_add_left _ _))⟩

def k3_off1 (i : grid3.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k3_off2 (v3 : BitVec 32) : Fin 2 → Nat :=
  let c0_i32_3 : BitVec 32 := 0#32
  ![v3.toNat, 0]

def k3_off3 (i : grid3.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v10 : BitVec 32 := Scalar.addi v0 c1_i32
  let v11 : Index := Scalar.indexCast v10
  ![v11.toNat]
def k3_off4 (v12 : BitVec 32) : Fin 2 → Nat :=
  let c0_i32_7 : BitVec 32 := 0#32
  ![v12.toNat, 0]

def k3_off5 (i : grid3.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v19 : BitVec 32 := Scalar.addi v0 c2_i32
  let v20 : Index := Scalar.indexCast v19
  ![v20.toNat]
def k3_off6 (v21 : BitVec 32) : Fin 2 → Nat :=
  let c0_i32_11 : BitVec 32 := 0#32
  ![v21.toNat, 0]

def k3_off7 (i : grid3.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v28 : BitVec 32 := Scalar.addi v0 c3_i32
  let v29 : Index := Scalar.indexCast v28
  ![v29.toNat]
def k3_off8 (v30 : BitVec 32) : Fin 2 → Nat :=
  let c0_i32_15 : BitVec 32 := 0#32
  ![v30.toNat, 0]

def k3_off9 (i : grid3.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v37 : BitVec 32 := Scalar.addi v0 c4_i32
  let v38 : Index := Scalar.indexCast v37
  ![v38.toNat]
def k3_off10 (v39 : BitVec 32) : Fin 2 → Nat :=
  let c0_i32_19 : BitVec 32 := 0#32
  ![v39.toNat, 0]

def k3_off11 (i : grid3.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v46 : BitVec 32 := Scalar.addi v0 c5_i32
  let v47 : Index := Scalar.indexCast v46
  ![v47.toNat]
def k3_off12 (v48 : BitVec 32) : Fin 2 → Nat :=
  let c0_i32_23 : BitVec 32 := 0#32
  ![v48.toNat, 0]

def k3_off13 (i : grid3.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v55 : BitVec 32 := Scalar.addi v0 c6_i32
  let v56 : Index := Scalar.indexCast v55
  ![v56.toNat]
def k3_off14 (v57 : BitVec 32) : Fin 2 → Nat :=
  let c0_i32_27 : BitVec 32 := 0#32
  ![v57.toNat, 0]

def k3_off15 (i : grid3.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v64 : BitVec 32 := Scalar.addi v0 c7_i32
  let v65 : Index := Scalar.indexCast v64
  ![v65.toNat]
def k3_off16 (v66 : BitVec 32) : Fin 2 → Nat :=
  let c0_i32_31 : BitVec 32 := 0#32
  ![v66.toNat, 0]

def k3_off17 (i : grid3.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v73 : BitVec 32 := Scalar.addi v0 c8_i32
  let v74 : Index := Scalar.indexCast v73
  ![v74.toNat]
def k3_off18 (v75 : BitVec 32) : Fin 2 → Nat :=
  let c0_i32_35 : BitVec 32 := 0#32
  ![v75.toNat, 0]

def k3_off19 (i : grid3.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v82 : BitVec 32 := Scalar.addi v0 c9_i32
  let v83 : Index := Scalar.indexCast v82
  ![v83.toNat]
def k3_off20 (v84 : BitVec 32) : Fin 2 → Nat :=
  let c0_i32_39 : BitVec 32 := 0#32
  ![v84.toNat, 0]

def k3_off21 (i : grid3.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v91 : BitVec 32 := Scalar.addi v0 c10_i32
  let v92 : Index := Scalar.indexCast v91
  ![v92.toNat]
def k3_off22 (v93 : BitVec 32) : Fin 2 → Nat :=
  let c0_i32_43 : BitVec 32 := 0#32
  ![v93.toNat, 0]

def k3_off23 (i : grid3.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v100 : BitVec 32 := Scalar.addi v0 c11_i32
  let v101 : Index := Scalar.indexCast v100
  ![v101.toNat]
def k3_off24 (v102 : BitVec 32) : Fin 2 → Nat :=
  let c0_i32_47 : BitVec 32 := 0#32
  ![v102.toNat, 0]

def k3_off25 (i : grid3.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v109 : BitVec 32 := Scalar.addi v0 c12_i32
  let v110 : Index := Scalar.indexCast v109
  ![v110.toNat]
def k3_off26 (v111 : BitVec 32) : Fin 2 → Nat :=
  let c0_i32_51 : BitVec 32 := 0#32
  ![v111.toNat, 0]

def k3_off27 (i : grid3.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v118 : BitVec 32 := Scalar.addi v0 c13_i32
  let v119 : Index := Scalar.indexCast v118
  ![v119.toNat]
def k3_off28 (v120 : BitVec 32) : Fin 2 → Nat :=
  let c0_i32_55 : BitVec 32 := 0#32
  ![v120.toNat, 0]

def k3_off29 (i : grid3.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v127 : BitVec 32 := Scalar.addi v0 c14_i32
  let v128 : Index := Scalar.indexCast v127
  ![v128.toNat]
def k3_off30 (v129 : BitVec 32) : Fin 2 → Nat :=
  let c0_i32_59 : BitVec 32 := 0#32
  ![v129.toNat, 0]

def k3_off31 (i : grid3.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v136 : BitVec 32 := Scalar.addi v0 c15_i32
  let v137 : Index := Scalar.indexCast v136
  ![v137.toNat]
def k3_off32 (v138 : BitVec 32) : Fin 2 → Nat :=
  let c0_i32_63 : BitVec 32 := 0#32
  ![v138.toNat, 0]

def k3_off33 (i : grid3.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v145 : BitVec 32 := Scalar.addi v0 c16_i32
  let v146 : Index := Scalar.indexCast v145
  ![v146.toNat]
def k3_off34 (v147 : BitVec 32) : Fin 2 → Nat :=
  let c0_i32_67 : BitVec 32 := 0#32
  ![v147.toNat, 0]

def k3_off35 (i : grid3.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v154 : BitVec 32 := Scalar.addi v0 c17_i32
  let v155 : Index := Scalar.indexCast v154
  ![v155.toNat]
def k3_off36 (v156 : BitVec 32) : Fin 2 → Nat :=
  let c0_i32_71 : BitVec 32 := 0#32
  ![v156.toNat, 0]

def k3_off37 (i : grid3.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v163 : BitVec 32 := Scalar.addi v0 c18_i32
  let v164 : Index := Scalar.indexCast v163
  ![v164.toNat]
def k3_off38 (v165 : BitVec 32) : Fin 2 → Nat :=
  let c0_i32_75 : BitVec 32 := 0#32
  ![v165.toNat, 0]

def k3_off39 (i : grid3.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v172 : BitVec 32 := Scalar.addi v0 c19_i32
  let v173 : Index := Scalar.indexCast v172
  ![v173.toNat]
def k3_off40 (v174 : BitVec 32) : Fin 2 → Nat :=
  let c0_i32_79 : BitVec 32 := 0#32
  ![v174.toNat, 0]

def k3_off41 (i : grid3.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v181 : BitVec 32 := Scalar.addi v0 c20_i32
  let v182 : Index := Scalar.indexCast v181
  ![v182.toNat]
def k3_off42 (v183 : BitVec 32) : Fin 2 → Nat :=
  let c0_i32_83 : BitVec 32 := 0#32
  ![v183.toNat, 0]

def k3_off43 (i : grid3.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v190 : BitVec 32 := Scalar.addi v0 c21_i32
  let v191 : Index := Scalar.indexCast v190
  ![v191.toNat]
def k3_off44 (v192 : BitVec 32) : Fin 2 → Nat :=
  let c0_i32_87 : BitVec 32 := 0#32
  ![v192.toNat, 0]

def k3_off45 (i : grid3.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v199 : BitVec 32 := Scalar.addi v0 c22_i32
  let v200 : Index := Scalar.indexCast v199
  ![v200.toNat]
def k3_off46 (v201 : BitVec 32) : Fin 2 → Nat :=
  let c0_i32_91 : BitVec 32 := 0#32
  ![v201.toNat, 0]

def k3_off47 (i : grid3.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v208 : BitVec 32 := Scalar.addi v0 c23_i32
  let v209 : Index := Scalar.indexCast v208
  ![v209.toNat]
def k3_off48 (v210 : BitVec 32) : Fin 2 → Nat :=
  let c0_i32_95 : BitVec 32 := 0#32
  ![v210.toNat, 0]

def k3_off49 (i : grid3.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v217 : BitVec 32 := Scalar.addi v0 c24_i32
  let v218 : Index := Scalar.indexCast v217
  ![v218.toNat]
def k3_off50 (v219 : BitVec 32) : Fin 2 → Nat :=
  let c0_i32_99 : BitVec 32 := 0#32
  ![v219.toNat, 0]

def k3_off51 (i : grid3.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v226 : BitVec 32 := Scalar.addi v0 c25_i32
  let v227 : Index := Scalar.indexCast v226
  ![v227.toNat]
def k3_off52 (v228 : BitVec 32) : Fin 2 → Nat :=
  let c0_i32_103 : BitVec 32 := 0#32
  ![v228.toNat, 0]

def k3_off53 (i : grid3.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v235 : BitVec 32 := Scalar.addi v0 c26_i32
  let v236 : Index := Scalar.indexCast v235
  ![v236.toNat]
def k3_off54 (v237 : BitVec 32) : Fin 2 → Nat :=
  let c0_i32_107 : BitVec 32 := 0#32
  ![v237.toNat, 0]

def k3_off55 (i : grid3.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v244 : BitVec 32 := Scalar.addi v0 c27_i32
  let v245 : Index := Scalar.indexCast v244
  ![v245.toNat]
def k3_off56 (v246 : BitVec 32) : Fin 2 → Nat :=
  let c0_i32_111 : BitVec 32 := 0#32
  ![v246.toNat, 0]

def k3_off57 (i : grid3.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v253 : BitVec 32 := Scalar.addi v0 c28_i32
  let v254 : Index := Scalar.indexCast v253
  ![v254.toNat]
def k3_off58 (v255 : BitVec 32) : Fin 2 → Nat :=
  let c0_i32_115 : BitVec 32 := 0#32
  ![v255.toNat, 0]

def k3_off59 (i : grid3.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v262 : BitVec 32 := Scalar.addi v0 c29_i32
  let v263 : Index := Scalar.indexCast v262
  ![v263.toNat]
def k3_off60 (v264 : BitVec 32) : Fin 2 → Nat :=
  let c0_i32_119 : BitVec 32 := 0#32
  ![v264.toNat, 0]

def k3_off61 (i : grid3.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v271 : BitVec 32 := Scalar.addi v0 c30_i32
  let v272 : Index := Scalar.indexCast v271
  ![v272.toNat]
def k3_off62 (v273 : BitVec 32) : Fin 2 → Nat :=
  let c0_i32_123 : BitVec 32 := 0#32
  ![v273.toNat, 0]

def k3_off63 (i : grid3.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v280 : BitVec 32 := Scalar.addi v0 c31_i32
  let v281 : Index := Scalar.indexCast v280
  ![v281.toNat]
def k3_off64 (v282 : BitVec 32) : Fin 2 → Nat :=
  let c0_i32_127 : BitVec 32 := 0#32
  ![v282.toNat, 0]

def k3_off65 (i : grid3.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v289 : BitVec 32 := Scalar.addi v0 c32_i32
  let v290 : Index := Scalar.indexCast v289
  ![v290.toNat]
def k3_off66 (v291 : BitVec 32) : Fin 2 → Nat :=
  let c0_i32_131 : BitVec 32 := 0#32
  ![v291.toNat, 0]

def k3_off67 (i : grid3.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v298 : BitVec 32 := Scalar.addi v0 c33_i32
  let v299 : Index := Scalar.indexCast v298
  ![v299.toNat]
def k3_off68 (v300 : BitVec 32) : Fin 2 → Nat :=
  let c0_i32_135 : BitVec 32 := 0#32
  ![v300.toNat, 0]

def k3_off69 (i : grid3.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v307 : BitVec 32 := Scalar.addi v0 c34_i32
  let v308 : Index := Scalar.indexCast v307
  ![v308.toNat]
def k3_off70 (v309 : BitVec 32) : Fin 2 → Nat :=
  let c0_i32_139 : BitVec 32 := 0#32
  ![v309.toNat, 0]

def k3_off71 (i : grid3.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v316 : BitVec 32 := Scalar.addi v0 c35_i32
  let v317 : Index := Scalar.indexCast v316
  ![v317.toNat]
def k3_off72 (v318 : BitVec 32) : Fin 2 → Nat :=
  let c0_i32_143 : BitVec 32 := 0#32
  ![v318.toNat, 0]

def k3_off73 (i : grid3.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v325 : BitVec 32 := Scalar.addi v0 c36_i32
  let v326 : Index := Scalar.indexCast v325
  ![v326.toNat]
def k3_off74 (v327 : BitVec 32) : Fin 2 → Nat :=
  let c0_i32_147 : BitVec 32 := 0#32
  ![v327.toNat, 0]

def k3_off75 (i : grid3.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v334 : BitVec 32 := Scalar.addi v0 c37_i32
  let v335 : Index := Scalar.indexCast v334
  ![v335.toNat]
def k3_off76 (v336 : BitVec 32) : Fin 2 → Nat :=
  let c0_i32_151 : BitVec 32 := 0#32
  ![v336.toNat, 0]

def k3_off77 (i : grid3.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v343 : BitVec 32 := Scalar.addi v0 c38_i32
  let v344 : Index := Scalar.indexCast v343
  ![v344.toNat]
def k3_off78 (v345 : BitVec 32) : Fin 2 → Nat :=
  let c0_i32_155 : BitVec 32 := 0#32
  ![v345.toNat, 0]

def k3_off79 (i : grid3.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v352 : BitVec 32 := Scalar.addi v0 c39_i32
  let v353 : Index := Scalar.indexCast v352
  ![v353.toNat]
def k3_off80 (v354 : BitVec 32) : Fin 2 → Nat :=
  let c0_i32_159 : BitVec 32 := 0#32
  ![v354.toNat, 0]

def k3_off81 (i : grid3.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v361 : BitVec 32 := Scalar.addi v0 c40_i32
  let v362 : Index := Scalar.indexCast v361
  ![v362.toNat]
def k3_off82 (v363 : BitVec 32) : Fin 2 → Nat :=
  let c0_i32_163 : BitVec 32 := 0#32
  ![v363.toNat, 0]

def k3_off83 (i : grid3.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v370 : BitVec 32 := Scalar.addi v0 c41_i32
  let v371 : Index := Scalar.indexCast v370
  ![v371.toNat]
def k3_off84 (v372 : BitVec 32) : Fin 2 → Nat :=
  let c0_i32_167 : BitVec 32 := 0#32
  ![v372.toNat, 0]

def k3_off85 (i : grid3.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v379 : BitVec 32 := Scalar.addi v0 c42_i32
  let v380 : Index := Scalar.indexCast v379
  ![v380.toNat]
def k3_off86 (v381 : BitVec 32) : Fin 2 → Nat :=
  let c0_i32_171 : BitVec 32 := 0#32
  ![v381.toNat, 0]

def k3_off87 (i : grid3.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v388 : BitVec 32 := Scalar.addi v0 c43_i32
  let v389 : Index := Scalar.indexCast v388
  ![v389.toNat]
def k3_off88 (v390 : BitVec 32) : Fin 2 → Nat :=
  let c0_i32_175 : BitVec 32 := 0#32
  ![v390.toNat, 0]

def k3_off89 (i : grid3.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v397 : BitVec 32 := Scalar.addi v0 c44_i32
  let v398 : Index := Scalar.indexCast v397
  ![v398.toNat]
def k3_off90 (v399 : BitVec 32) : Fin 2 → Nat :=
  let c0_i32_179 : BitVec 32 := 0#32
  ![v399.toNat, 0]

def k3_off91 (i : grid3.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v406 : BitVec 32 := Scalar.addi v0 c45_i32
  let v407 : Index := Scalar.indexCast v406
  ![v407.toNat]
def k3_off92 (v408 : BitVec 32) : Fin 2 → Nat :=
  let c0_i32_183 : BitVec 32 := 0#32
  ![v408.toNat, 0]

def k3_off93 (i : grid3.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v415 : BitVec 32 := Scalar.addi v0 c46_i32
  let v416 : Index := Scalar.indexCast v415
  ![v416.toNat]
def k3_off94 (v417 : BitVec 32) : Fin 2 → Nat :=
  let c0_i32_187 : BitVec 32 := 0#32
  ![v417.toNat, 0]

def k3_off95 (i : grid3.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v424 : BitVec 32 := Scalar.addi v0 c47_i32
  let v425 : Index := Scalar.indexCast v424
  ![v425.toNat]
def k3_off96 (v426 : BitVec 32) : Fin 2 → Nat :=
  let c0_i32_191 : BitVec 32 := 0#32
  ![v426.toNat, 0]

def k3_off97 (i : grid3.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v433 : BitVec 32 := Scalar.addi v0 c48_i32
  let v434 : Index := Scalar.indexCast v433
  ![v434.toNat]
def k3_off98 (v435 : BitVec 32) : Fin 2 → Nat :=
  let c0_i32_195 : BitVec 32 := 0#32
  ![v435.toNat, 0]

def k3_off99 (i : grid3.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v442 : BitVec 32 := Scalar.addi v0 c49_i32
  let v443 : Index := Scalar.indexCast v442
  ![v443.toNat]
def k3_off100 (v444 : BitVec 32) : Fin 2 → Nat :=
  let c0_i32_199 : BitVec 32 := 0#32
  ![v444.toNat, 0]

def k3_off101 (i : grid3.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v451 : BitVec 32 := Scalar.addi v0 c50_i32
  let v452 : Index := Scalar.indexCast v451
  ![v452.toNat]
def k3_off102 (v453 : BitVec 32) : Fin 2 → Nat :=
  let c0_i32_203 : BitVec 32 := 0#32
  ![v453.toNat, 0]

def k3_off103 (i : grid3.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v460 : BitVec 32 := Scalar.addi v0 c51_i32
  let v461 : Index := Scalar.indexCast v460
  ![v461.toNat]
def k3_off104 (v462 : BitVec 32) : Fin 2 → Nat :=
  let c0_i32_207 : BitVec 32 := 0#32
  ![v462.toNat, 0]

def k3_off105 (i : grid3.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v469 : BitVec 32 := Scalar.addi v0 c52_i32
  let v470 : Index := Scalar.indexCast v469
  ![v470.toNat]
def k3_off106 (v471 : BitVec 32) : Fin 2 → Nat :=
  let c0_i32_211 : BitVec 32 := 0#32
  ![v471.toNat, 0]

def k3_off107 (i : grid3.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v478 : BitVec 32 := Scalar.addi v0 c53_i32
  let v479 : Index := Scalar.indexCast v478
  ![v479.toNat]
def k3_off108 (v480 : BitVec 32) : Fin 2 → Nat :=
  let c0_i32_215 : BitVec 32 := 0#32
  ![v480.toNat, 0]

def k3_off109 (i : grid3.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v487 : BitVec 32 := Scalar.addi v0 c54_i32
  let v488 : Index := Scalar.indexCast v487
  ![v488.toNat]
def k3_off110 (v489 : BitVec 32) : Fin 2 → Nat :=
  let c0_i32_219 : BitVec 32 := 0#32
  ![v489.toNat, 0]

def k3_off111 (i : grid3.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v496 : BitVec 32 := Scalar.addi v0 c55_i32
  let v497 : Index := Scalar.indexCast v496
  ![v497.toNat]
def k3_off112 (v498 : BitVec 32) : Fin 2 → Nat :=
  let c0_i32_223 : BitVec 32 := 0#32
  ![v498.toNat, 0]

def k3_off113 (i : grid3.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v505 : BitVec 32 := Scalar.addi v0 c56_i32
  let v506 : Index := Scalar.indexCast v505
  ![v506.toNat]
def k3_off114 (v507 : BitVec 32) : Fin 2 → Nat :=
  let c0_i32_227 : BitVec 32 := 0#32
  ![v507.toNat, 0]

def k3_off115 (i : grid3.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v514 : BitVec 32 := Scalar.addi v0 c57_i32
  let v515 : Index := Scalar.indexCast v514
  ![v515.toNat]
def k3_off116 (v516 : BitVec 32) : Fin 2 → Nat :=
  let c0_i32_231 : BitVec 32 := 0#32
  ![v516.toNat, 0]

def k3_off117 (i : grid3.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v523 : BitVec 32 := Scalar.addi v0 c58_i32
  let v524 : Index := Scalar.indexCast v523
  ![v524.toNat]
def k3_off118 (v525 : BitVec 32) : Fin 2 → Nat :=
  let c0_i32_235 : BitVec 32 := 0#32
  ![v525.toNat, 0]

def k3_off119 (i : grid3.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v532 : BitVec 32 := Scalar.addi v0 c59_i32
  let v533 : Index := Scalar.indexCast v532
  ![v533.toNat]
def k3_off120 (v534 : BitVec 32) : Fin 2 → Nat :=
  let c0_i32_239 : BitVec 32 := 0#32
  ![v534.toNat, 0]

def k3_off121 (i : grid3.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v541 : BitVec 32 := Scalar.addi v0 c60_i32
  let v542 : Index := Scalar.indexCast v541
  ![v542.toNat]
def k3_off122 (v543 : BitVec 32) : Fin 2 → Nat :=
  let c0_i32_243 : BitVec 32 := 0#32
  ![v543.toNat, 0]

def k3_off123 (i : grid3.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v550 : BitVec 32 := Scalar.addi v0 c61_i32
  let v551 : Index := Scalar.indexCast v550
  ![v551.toNat]
def k3_off124 (v552 : BitVec 32) : Fin 2 → Nat :=
  let c0_i32_247 : BitVec 32 := 0#32
  ![v552.toNat, 0]

def k3_off125 (i : grid3.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v559 : BitVec 32 := Scalar.addi v0 c62_i32
  let v560 : Index := Scalar.indexCast v559
  ![v560.toNat]
def k3_off126 (v561 : BitVec 32) : Fin 2 → Nat :=
  let c0_i32_251 : BitVec 32 := 0#32
  ![v561.toNat, 0]

def k3_off127 (i : grid3.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v568 : BitVec 32 := Scalar.addi v0 c63_i32
  let v569 : Index := Scalar.indexCast v568
  ![v569.toNat]
def k3_off128 (v570 : BitVec 32) : Fin 2 → Nat :=
  let c0_i32_255 : BitVec 32 := 0#32
  ![v570.toNat, 0]

def k3_off129 (i : grid3.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v577 : BitVec 32 := Scalar.addi v0 c64_i32
  let v578 : Index := Scalar.indexCast v577
  ![v578.toNat]
def k3_off130 (v579 : BitVec 32) : Fin 2 → Nat :=
  let c0_i32_259 : BitVec 32 := 0#32
  ![v579.toNat, 0]

def k3_off131 (i : grid3.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v586 : BitVec 32 := Scalar.addi v0 c65_i32
  let v587 : Index := Scalar.indexCast v586
  ![v587.toNat]
def k3_off132 (v588 : BitVec 32) : Fin 2 → Nat :=
  let c0_i32_263 : BitVec 32 := 0#32
  ![v588.toNat, 0]

def k3_off133 (i : grid3.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v595 : BitVec 32 := Scalar.addi v0 c66_i32
  let v596 : Index := Scalar.indexCast v595
  ![v596.toNat]
def k3_off134 (v597 : BitVec 32) : Fin 2 → Nat :=
  let c0_i32_267 : BitVec 32 := 0#32
  ![v597.toNat, 0]

def k3_off135 (i : grid3.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v604 : BitVec 32 := Scalar.addi v0 c67_i32
  let v605 : Index := Scalar.indexCast v604
  ![v605.toNat]
def k3_off136 (v606 : BitVec 32) : Fin 2 → Nat :=
  let c0_i32_271 : BitVec 32 := 0#32
  ![v606.toNat, 0]

def k3_off137 (i : grid3.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v613 : BitVec 32 := Scalar.addi v0 c68_i32
  let v614 : Index := Scalar.indexCast v613
  ![v614.toNat]
def k3_off138 (v615 : BitVec 32) : Fin 2 → Nat :=
  let c0_i32_275 : BitVec 32 := 0#32
  ![v615.toNat, 0]

def k3_off139 (i : grid3.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v622 : BitVec 32 := Scalar.addi v0 c69_i32
  let v623 : Index := Scalar.indexCast v622
  ![v623.toNat]
def k3_off140 (v624 : BitVec 32) : Fin 2 → Nat :=
  let c0_i32_279 : BitVec 32 := 0#32
  ![v624.toNat, 0]

def k3_off141 (i : grid3.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v631 : BitVec 32 := Scalar.addi v0 c70_i32
  let v632 : Index := Scalar.indexCast v631
  ![v632.toNat]
def k3_off142 (v633 : BitVec 32) : Fin 2 → Nat :=
  let c0_i32_283 : BitVec 32 := 0#32
  ![v633.toNat, 0]

def k3_off143 (i : grid3.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v640 : BitVec 32 := Scalar.addi v0 c71_i32
  let v641 : Index := Scalar.indexCast v640
  ![v641.toNat]
def k3_off144 (v642 : BitVec 32) : Fin 2 → Nat :=
  let c0_i32_287 : BitVec 32 := 0#32
  ![v642.toNat, 0]

def k3_off145 (i : grid3.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v649 : BitVec 32 := Scalar.addi v0 c72_i32
  let v650 : Index := Scalar.indexCast v649
  ![v650.toNat]
def k3_off146 (v651 : BitVec 32) : Fin 2 → Nat :=
  let c0_i32_291 : BitVec 32 := 0#32
  ![v651.toNat, 0]

def k3_off147 (i : grid3.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v658 : BitVec 32 := Scalar.addi v0 c73_i32
  let v659 : Index := Scalar.indexCast v658
  ![v659.toNat]
def k3_off148 (v660 : BitVec 32) : Fin 2 → Nat :=
  let c0_i32_295 : BitVec 32 := 0#32
  ![v660.toNat, 0]

def k3_off149 (i : grid3.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v667 : BitVec 32 := Scalar.addi v0 c74_i32
  let v668 : Index := Scalar.indexCast v667
  ![v668.toNat]
def k3_off150 (v669 : BitVec 32) : Fin 2 → Nat :=
  let c0_i32_299 : BitVec 32 := 0#32
  ![v669.toNat, 0]

def k3_off151 (i : grid3.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v676 : BitVec 32 := Scalar.addi v0 c75_i32
  let v677 : Index := Scalar.indexCast v676
  ![v677.toNat]
def k3_off152 (v678 : BitVec 32) : Fin 2 → Nat :=
  let c0_i32_303 : BitVec 32 := 0#32
  ![v678.toNat, 0]

def k3_off153 (i : grid3.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v685 : BitVec 32 := Scalar.addi v0 c76_i32
  let v686 : Index := Scalar.indexCast v685
  ![v686.toNat]
def k3_off154 (v687 : BitVec 32) : Fin 2 → Nat :=
  let c0_i32_307 : BitVec 32 := 0#32
  ![v687.toNat, 0]

def k3_off155 (i : grid3.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v694 : BitVec 32 := Scalar.addi v0 c77_i32
  let v695 : Index := Scalar.indexCast v694
  ![v695.toNat]
def k3_off156 (v696 : BitVec 32) : Fin 2 → Nat :=
  let c0_i32_311 : BitVec 32 := 0#32
  ![v696.toNat, 0]

def k3_off157 (i : grid3.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v703 : BitVec 32 := Scalar.addi v0 c78_i32
  let v704 : Index := Scalar.indexCast v703
  ![v704.toNat]
def k3_off158 (v705 : BitVec 32) : Fin 2 → Nat :=
  let c0_i32_315 : BitVec 32 := 0#32
  ![v705.toNat, 0]

def k3_off159 (i : grid3.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v712 : BitVec 32 := Scalar.addi v0 c79_i32
  let v713 : Index := Scalar.indexCast v712
  ![v713.toNat]
def k3_off160 (v714 : BitVec 32) : Fin 2 → Nat :=
  let c0_i32_319 : BitVec 32 := 0#32
  ![v714.toNat, 0]

def k3_off161 (i : grid3.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v721 : BitVec 32 := Scalar.addi v0 c80_i32
  let v722 : Index := Scalar.indexCast v721
  ![v722.toNat]
def k3_off162 (v723 : BitVec 32) : Fin 2 → Nat :=
  let c0_i32_323 : BitVec 32 := 0#32
  ![v723.toNat, 0]

def k3_off163 (i : grid3.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v730 : BitVec 32 := Scalar.addi v0 c81_i32
  let v731 : Index := Scalar.indexCast v730
  ![v731.toNat]
def k3_off164 (v732 : BitVec 32) : Fin 2 → Nat :=
  let c0_i32_327 : BitVec 32 := 0#32
  ![v732.toNat, 0]

def k3_off165 (i : grid3.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v739 : BitVec 32 := Scalar.addi v0 c82_i32
  let v740 : Index := Scalar.indexCast v739
  ![v740.toNat]
def k3_off166 (v741 : BitVec 32) : Fin 2 → Nat :=
  let c0_i32_331 : BitVec 32 := 0#32
  ![v741.toNat, 0]

def k3_off167 (i : grid3.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v748 : BitVec 32 := Scalar.addi v0 c83_i32
  let v749 : Index := Scalar.indexCast v748
  ![v749.toNat]
def k3_off168 (v750 : BitVec 32) : Fin 2 → Nat :=
  let c0_i32_335 : BitVec 32 := 0#32
  ![v750.toNat, 0]

def k3_off169 (i : grid3.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v757 : BitVec 32 := Scalar.addi v0 c84_i32
  let v758 : Index := Scalar.indexCast v757
  ![v758.toNat]
def k3_off170 (v759 : BitVec 32) : Fin 2 → Nat :=
  let c0_i32_339 : BitVec 32 := 0#32
  ![v759.toNat, 0]

def k3_off171 (i : grid3.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v766 : BitVec 32 := Scalar.addi v0 c85_i32
  let v767 : Index := Scalar.indexCast v766
  ![v767.toNat]
def k3_off172 (v768 : BitVec 32) : Fin 2 → Nat :=
  let c0_i32_343 : BitVec 32 := 0#32
  ![v768.toNat, 0]

def k3_off173 (i : grid3.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v775 : BitVec 32 := Scalar.addi v0 c86_i32
  let v776 : Index := Scalar.indexCast v775
  ![v776.toNat]
def k3_off174 (v777 : BitVec 32) : Fin 2 → Nat :=
  let c0_i32_347 : BitVec 32 := 0#32
  ![v777.toNat, 0]

def k3_off175 (i : grid3.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v784 : BitVec 32 := Scalar.addi v0 c87_i32
  let v785 : Index := Scalar.indexCast v784
  ![v785.toNat]
def k3_off176 (v786 : BitVec 32) : Fin 2 → Nat :=
  let c0_i32_351 : BitVec 32 := 0#32
  ![v786.toNat, 0]

def k3_off177 (i : grid3.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v793 : BitVec 32 := Scalar.addi v0 c88_i32
  let v794 : Index := Scalar.indexCast v793
  ![v794.toNat]
def k3_off178 (v795 : BitVec 32) : Fin 2 → Nat :=
  let c0_i32_355 : BitVec 32 := 0#32
  ![v795.toNat, 0]

def k3_off179 (i : grid3.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v802 : BitVec 32 := Scalar.addi v0 c89_i32
  let v803 : Index := Scalar.indexCast v802
  ![v803.toNat]
def k3_off180 (v804 : BitVec 32) : Fin 2 → Nat :=
  let c0_i32_359 : BitVec 32 := 0#32
  ![v804.toNat, 0]

def k3_off181 (i : grid3.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v811 : BitVec 32 := Scalar.addi v0 c90_i32
  let v812 : Index := Scalar.indexCast v811
  ![v812.toNat]
def k3_off182 (v813 : BitVec 32) : Fin 2 → Nat :=
  let c0_i32_363 : BitVec 32 := 0#32
  ![v813.toNat, 0]

def k3_off183 (i : grid3.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v820 : BitVec 32 := Scalar.addi v0 c91_i32
  let v821 : Index := Scalar.indexCast v820
  ![v821.toNat]
def k3_off184 (v822 : BitVec 32) : Fin 2 → Nat :=
  let c0_i32_367 : BitVec 32 := 0#32
  ![v822.toNat, 0]

def k3_off185 (i : grid3.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v829 : BitVec 32 := Scalar.addi v0 c92_i32
  let v830 : Index := Scalar.indexCast v829
  ![v830.toNat]
def k3_off186 (v831 : BitVec 32) : Fin 2 → Nat :=
  let c0_i32_371 : BitVec 32 := 0#32
  ![v831.toNat, 0]

def k3_off187 (i : grid3.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v838 : BitVec 32 := Scalar.addi v0 c93_i32
  let v839 : Index := Scalar.indexCast v838
  ![v839.toNat]
def k3_off188 (v840 : BitVec 32) : Fin 2 → Nat :=
  let c0_i32_375 : BitVec 32 := 0#32
  ![v840.toNat, 0]

def k3_off189 (i : grid3.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v847 : BitVec 32 := Scalar.addi v0 c94_i32
  let v848 : Index := Scalar.indexCast v847
  ![v848.toNat]
def k3_off190 (v849 : BitVec 32) : Fin 2 → Nat :=
  let c0_i32_379 : BitVec 32 := 0#32
  ![v849.toNat, 0]

def k3_off191 (i : grid3.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v856 : BitVec 32 := Scalar.addi v0 c95_i32
  let v857 : Index := Scalar.indexCast v856
  ![v857.toNat]
def k3_off192 (v858 : BitVec 32) : Fin 2 → Nat :=
  let c0_i32_383 : BitVec 32 := 0#32
  ![v858.toNat, 0]

def k3_off193 (i : grid3.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v865 : BitVec 32 := Scalar.addi v0 c96_i32
  let v866 : Index := Scalar.indexCast v865
  ![v866.toNat]
def k3_off194 (v867 : BitVec 32) : Fin 2 → Nat :=
  let c0_i32_387 : BitVec 32 := 0#32
  ![v867.toNat, 0]

def k3_off195 (i : grid3.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v874 : BitVec 32 := Scalar.addi v0 c97_i32
  let v875 : Index := Scalar.indexCast v874
  ![v875.toNat]
def k3_off196 (v876 : BitVec 32) : Fin 2 → Nat :=
  let c0_i32_391 : BitVec 32 := 0#32
  ![v876.toNat, 0]

def k3_off197 (i : grid3.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v883 : BitVec 32 := Scalar.addi v0 c98_i32
  let v884 : Index := Scalar.indexCast v883
  ![v884.toNat]
def k3_off198 (v885 : BitVec 32) : Fin 2 → Nat :=
  let c0_i32_395 : BitVec 32 := 0#32
  ![v885.toNat, 0]

def k3_off199 (i : grid3.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v892 : BitVec 32 := Scalar.addi v0 c99_i32
  let v893 : Index := Scalar.indexCast v892
  ![v893.toNat]
def k3_off200 (v894 : BitVec 32) : Fin 2 → Nat :=
  let c0_i32_399 : BitVec 32 := 0#32
  ![v894.toNat, 0]

def k3_off201 (i : grid3.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v901 : BitVec 32 := Scalar.addi v0 c100_i32
  let v902 : Index := Scalar.indexCast v901
  ![v902.toNat]
def k3_off202 (v903 : BitVec 32) : Fin 2 → Nat :=
  let c0_i32_403 : BitVec 32 := 0#32
  ![v903.toNat, 0]

def k3_off203 (i : grid3.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v910 : BitVec 32 := Scalar.addi v0 c101_i32
  let v911 : Index := Scalar.indexCast v910
  ![v911.toNat]
def k3_off204 (v912 : BitVec 32) : Fin 2 → Nat :=
  let c0_i32_407 : BitVec 32 := 0#32
  ![v912.toNat, 0]

def k3_off205 (i : grid3.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v919 : BitVec 32 := Scalar.addi v0 c102_i32
  let v920 : Index := Scalar.indexCast v919
  ![v920.toNat]
def k3_off206 (v921 : BitVec 32) : Fin 2 → Nat :=
  let c0_i32_411 : BitVec 32 := 0#32
  ![v921.toNat, 0]

def k3_off207 (i : grid3.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v928 : BitVec 32 := Scalar.addi v0 c103_i32
  let v929 : Index := Scalar.indexCast v928
  ![v929.toNat]
def k3_off208 (v930 : BitVec 32) : Fin 2 → Nat :=
  let c0_i32_415 : BitVec 32 := 0#32
  ![v930.toNat, 0]

def k3_off209 (i : grid3.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v937 : BitVec 32 := Scalar.addi v0 c104_i32
  let v938 : Index := Scalar.indexCast v937
  ![v938.toNat]
def k3_off210 (v939 : BitVec 32) : Fin 2 → Nat :=
  let c0_i32_419 : BitVec 32 := 0#32
  ![v939.toNat, 0]

def k3_off211 (i : grid3.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v946 : BitVec 32 := Scalar.addi v0 c105_i32
  let v947 : Index := Scalar.indexCast v946
  ![v947.toNat]
def k3_off212 (v948 : BitVec 32) : Fin 2 → Nat :=
  let c0_i32_423 : BitVec 32 := 0#32
  ![v948.toNat, 0]

def k3_off213 (i : grid3.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v955 : BitVec 32 := Scalar.addi v0 c106_i32
  let v956 : Index := Scalar.indexCast v955
  ![v956.toNat]
def k3_off214 (v957 : BitVec 32) : Fin 2 → Nat :=
  let c0_i32_427 : BitVec 32 := 0#32
  ![v957.toNat, 0]

def k3_off215 (i : grid3.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v964 : BitVec 32 := Scalar.addi v0 c107_i32
  let v965 : Index := Scalar.indexCast v964
  ![v965.toNat]
def k3_off216 (v966 : BitVec 32) : Fin 2 → Nat :=
  let c0_i32_431 : BitVec 32 := 0#32
  ![v966.toNat, 0]

def k3_off217 (i : grid3.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v973 : BitVec 32 := Scalar.addi v0 c108_i32
  let v974 : Index := Scalar.indexCast v973
  ![v974.toNat]
def k3_off218 (v975 : BitVec 32) : Fin 2 → Nat :=
  let c0_i32_435 : BitVec 32 := 0#32
  ![v975.toNat, 0]

def k3_off219 (i : grid3.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v982 : BitVec 32 := Scalar.addi v0 c109_i32
  let v983 : Index := Scalar.indexCast v982
  ![v983.toNat]
def k3_off220 (v984 : BitVec 32) : Fin 2 → Nat :=
  let c0_i32_439 : BitVec 32 := 0#32
  ![v984.toNat, 0]

def k3_off221 (i : grid3.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v991 : BitVec 32 := Scalar.addi v0 c110_i32
  let v992 : Index := Scalar.indexCast v991
  ![v992.toNat]
def k3_off222 (v993 : BitVec 32) : Fin 2 → Nat :=
  let c0_i32_443 : BitVec 32 := 0#32
  ![v993.toNat, 0]

def k3_off223 (i : grid3.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1000 : BitVec 32 := Scalar.addi v0 c111_i32
  let v1001 : Index := Scalar.indexCast v1000
  ![v1001.toNat]
def k3_off224 (v1002 : BitVec 32) : Fin 2 → Nat :=
  let c0_i32_447 : BitVec 32 := 0#32
  ![v1002.toNat, 0]

def k3_off225 (i : grid3.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1009 : BitVec 32 := Scalar.addi v0 c112_i32
  let v1010 : Index := Scalar.indexCast v1009
  ![v1010.toNat]
def k3_off226 (v1011 : BitVec 32) : Fin 2 → Nat :=
  let c0_i32_451 : BitVec 32 := 0#32
  ![v1011.toNat, 0]

def k3_off227 (i : grid3.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1018 : BitVec 32 := Scalar.addi v0 c113_i32
  let v1019 : Index := Scalar.indexCast v1018
  ![v1019.toNat]
def k3_off228 (v1020 : BitVec 32) : Fin 2 → Nat :=
  let c0_i32_455 : BitVec 32 := 0#32
  ![v1020.toNat, 0]

def k3_off229 (i : grid3.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1027 : BitVec 32 := Scalar.addi v0 c114_i32
  let v1028 : Index := Scalar.indexCast v1027
  ![v1028.toNat]
def k3_off230 (v1029 : BitVec 32) : Fin 2 → Nat :=
  let c0_i32_459 : BitVec 32 := 0#32
  ![v1029.toNat, 0]

def k3_off231 (i : grid3.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1036 : BitVec 32 := Scalar.addi v0 c115_i32
  let v1037 : Index := Scalar.indexCast v1036
  ![v1037.toNat]
def k3_off232 (v1038 : BitVec 32) : Fin 2 → Nat :=
  let c0_i32_463 : BitVec 32 := 0#32
  ![v1038.toNat, 0]

def k3_off233 (i : grid3.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1045 : BitVec 32 := Scalar.addi v0 c116_i32
  let v1046 : Index := Scalar.indexCast v1045
  ![v1046.toNat]
def k3_off234 (v1047 : BitVec 32) : Fin 2 → Nat :=
  let c0_i32_467 : BitVec 32 := 0#32
  ![v1047.toNat, 0]

def k3_off235 (i : grid3.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1054 : BitVec 32 := Scalar.addi v0 c117_i32
  let v1055 : Index := Scalar.indexCast v1054
  ![v1055.toNat]
def k3_off236 (v1056 : BitVec 32) : Fin 2 → Nat :=
  let c0_i32_471 : BitVec 32 := 0#32
  ![v1056.toNat, 0]

def k3_off237 (i : grid3.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1063 : BitVec 32 := Scalar.addi v0 c118_i32
  let v1064 : Index := Scalar.indexCast v1063
  ![v1064.toNat]
def k3_off238 (v1065 : BitVec 32) : Fin 2 → Nat :=
  let c0_i32_475 : BitVec 32 := 0#32
  ![v1065.toNat, 0]

def k3_off239 (i : grid3.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1072 : BitVec 32 := Scalar.addi v0 c119_i32
  let v1073 : Index := Scalar.indexCast v1072
  ![v1073.toNat]
def k3_off240 (v1074 : BitVec 32) : Fin 2 → Nat :=
  let c0_i32_479 : BitVec 32 := 0#32
  ![v1074.toNat, 0]

def k3_off241 (i : grid3.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1081 : BitVec 32 := Scalar.addi v0 c120_i32
  let v1082 : Index := Scalar.indexCast v1081
  ![v1082.toNat]
def k3_off242 (v1083 : BitVec 32) : Fin 2 → Nat :=
  let c0_i32_483 : BitVec 32 := 0#32
  ![v1083.toNat, 0]

def k3_off243 (i : grid3.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1090 : BitVec 32 := Scalar.addi v0 c121_i32
  let v1091 : Index := Scalar.indexCast v1090
  ![v1091.toNat]
def k3_off244 (v1092 : BitVec 32) : Fin 2 → Nat :=
  let c0_i32_487 : BitVec 32 := 0#32
  ![v1092.toNat, 0]

def k3_off245 (i : grid3.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1099 : BitVec 32 := Scalar.addi v0 c122_i32
  let v1100 : Index := Scalar.indexCast v1099
  ![v1100.toNat]
def k3_off246 (v1101 : BitVec 32) : Fin 2 → Nat :=
  let c0_i32_491 : BitVec 32 := 0#32
  ![v1101.toNat, 0]

def k3_off247 (i : grid3.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1108 : BitVec 32 := Scalar.addi v0 c123_i32
  let v1109 : Index := Scalar.indexCast v1108
  ![v1109.toNat]
def k3_off248 (v1110 : BitVec 32) : Fin 2 → Nat :=
  let c0_i32_495 : BitVec 32 := 0#32
  ![v1110.toNat, 0]

def k3_off249 (i : grid3.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1117 : BitVec 32 := Scalar.addi v0 c124_i32
  let v1118 : Index := Scalar.indexCast v1117
  ![v1118.toNat]
def k3_off250 (v1119 : BitVec 32) : Fin 2 → Nat :=
  let c0_i32_499 : BitVec 32 := 0#32
  ![v1119.toNat, 0]

def k3_off251 (i : grid3.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1126 : BitVec 32 := Scalar.addi v0 c125_i32
  let v1127 : Index := Scalar.indexCast v1126
  ![v1127.toNat]
def k3_off252 (v1128 : BitVec 32) : Fin 2 → Nat :=
  let c0_i32_503 : BitVec 32 := 0#32
  ![v1128.toNat, 0]

def k3_off253 (i : grid3.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1135 : BitVec 32 := Scalar.addi v0 c126_i32
  let v1136 : Index := Scalar.indexCast v1135
  ![v1136.toNat]
def k3_off254 (v1137 : BitVec 32) : Fin 2 → Nat :=
  let c0_i32_507 : BitVec 32 := 0#32
  ![v1137.toNat, 0]

def k3_off255 (i : grid3.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1144 : BitVec 32 := Scalar.addi v0 c127_i32
  let v1145 : Index := Scalar.indexCast v1144
  ![v1145.toNat]
def k3_off256 (v1146 : BitVec 32) : Fin 2 → Nat :=
  let c0_i32_511 : BitVec 32 := 0#32
  ![v1146.toNat, 0]

def k3_chk128 (v1146 : BitVec 32) : Prop :=
  (∀ a, (k3_off256 v1146) a + S1x64.size a ≤ S100000x64.size a)
instance k3_chk128.dec : ∀ (v1146 : BitVec 32), Decidable (k3_chk128 v1146) := fun v1146 => decidable_of_iff' _ (Iff.of_eq (k3_chk128.eq_1 v1146))
theorem k3_off256_inb : ∀ (v1146 : BitVec 32) (k3_hw128 : k3_chk128 v1146), ∀ a, (k3_off256 v1146) a + S1x64.size a ≤ S100000x64.size a := fun v1146 k3_hw128 => k3_hw128

def k3_off257 (v3 : BitVec 32) : Fin 2 → Nat :=
  let c0_i32_515 : BitVec 32 := 0#32
  ![v3.toNat, 0]

def k3_chk1 (v3 : BitVec 32) : Prop :=
  (∀ a, (k3_off2 v3) a + S1x64.size a ≤ S100000x64.size a) ∧
  (∀ a, (k3_off257 v3) a + S1x64.size a ≤ S100000x64.size a)
instance k3_chk1.dec : ∀ (v3 : BitVec 32), Decidable (k3_chk1 v3) := fun v3 => decidable_of_iff' _ (Iff.of_eq (k3_chk1.eq_1 v3))
theorem k3_off2_inb : ∀ (v3 : BitVec 32) (k3_hw1 : k3_chk1 v3), ∀ a, (k3_off2 v3) a + S1x64.size a ≤ S100000x64.size a := fun v3 k3_hw1 => k3_hw1.1
theorem k3_off257_inb : ∀ (v3 : BitVec 32) (k3_hw1 : k3_chk1 v3), ∀ a, (k3_off257 v3) a + S1x64.size a ≤ S100000x64.size a := fun v3 k3_hw1 => k3_hw1.2

def k3_off258 (v12 : BitVec 32) : Fin 2 → Nat :=
  let c0_i32_519 : BitVec 32 := 0#32
  ![v12.toNat, 0]

def k3_chk2 (v12 : BitVec 32) : Prop :=
  (∀ a, (k3_off4 v12) a + S1x64.size a ≤ S100000x64.size a) ∧
  (∀ a, (k3_off258 v12) a + S1x64.size a ≤ S100000x64.size a)
instance k3_chk2.dec : ∀ (v12 : BitVec 32), Decidable (k3_chk2 v12) := fun v12 => decidable_of_iff' _ (Iff.of_eq (k3_chk2.eq_1 v12))
theorem k3_off4_inb : ∀ (v12 : BitVec 32) (k3_hw2 : k3_chk2 v12), ∀ a, (k3_off4 v12) a + S1x64.size a ≤ S100000x64.size a := fun v12 k3_hw2 => k3_hw2.1
theorem k3_off258_inb : ∀ (v12 : BitVec 32) (k3_hw2 : k3_chk2 v12), ∀ a, (k3_off258 v12) a + S1x64.size a ≤ S100000x64.size a := fun v12 k3_hw2 => k3_hw2.2

def k3_off259 (v21 : BitVec 32) : Fin 2 → Nat :=
  let c0_i32_523 : BitVec 32 := 0#32
  ![v21.toNat, 0]

def k3_chk3 (v21 : BitVec 32) : Prop :=
  (∀ a, (k3_off6 v21) a + S1x64.size a ≤ S100000x64.size a) ∧
  (∀ a, (k3_off259 v21) a + S1x64.size a ≤ S100000x64.size a)
instance k3_chk3.dec : ∀ (v21 : BitVec 32), Decidable (k3_chk3 v21) := fun v21 => decidable_of_iff' _ (Iff.of_eq (k3_chk3.eq_1 v21))
theorem k3_off6_inb : ∀ (v21 : BitVec 32) (k3_hw3 : k3_chk3 v21), ∀ a, (k3_off6 v21) a + S1x64.size a ≤ S100000x64.size a := fun v21 k3_hw3 => k3_hw3.1
theorem k3_off259_inb : ∀ (v21 : BitVec 32) (k3_hw3 : k3_chk3 v21), ∀ a, (k3_off259 v21) a + S1x64.size a ≤ S100000x64.size a := fun v21 k3_hw3 => k3_hw3.2

def k3_off260 (v30 : BitVec 32) : Fin 2 → Nat :=
  let c0_i32_527 : BitVec 32 := 0#32
  ![v30.toNat, 0]

def k3_chk4 (v30 : BitVec 32) : Prop :=
  (∀ a, (k3_off8 v30) a + S1x64.size a ≤ S100000x64.size a) ∧
  (∀ a, (k3_off260 v30) a + S1x64.size a ≤ S100000x64.size a)
instance k3_chk4.dec : ∀ (v30 : BitVec 32), Decidable (k3_chk4 v30) := fun v30 => decidable_of_iff' _ (Iff.of_eq (k3_chk4.eq_1 v30))
theorem k3_off8_inb : ∀ (v30 : BitVec 32) (k3_hw4 : k3_chk4 v30), ∀ a, (k3_off8 v30) a + S1x64.size a ≤ S100000x64.size a := fun v30 k3_hw4 => k3_hw4.1
theorem k3_off260_inb : ∀ (v30 : BitVec 32) (k3_hw4 : k3_chk4 v30), ∀ a, (k3_off260 v30) a + S1x64.size a ≤ S100000x64.size a := fun v30 k3_hw4 => k3_hw4.2

def k3_off261 (v39 : BitVec 32) : Fin 2 → Nat :=
  let c0_i32_531 : BitVec 32 := 0#32
  ![v39.toNat, 0]

def k3_chk5 (v39 : BitVec 32) : Prop :=
  (∀ a, (k3_off10 v39) a + S1x64.size a ≤ S100000x64.size a) ∧
  (∀ a, (k3_off261 v39) a + S1x64.size a ≤ S100000x64.size a)
instance k3_chk5.dec : ∀ (v39 : BitVec 32), Decidable (k3_chk5 v39) := fun v39 => decidable_of_iff' _ (Iff.of_eq (k3_chk5.eq_1 v39))
theorem k3_off10_inb : ∀ (v39 : BitVec 32) (k3_hw5 : k3_chk5 v39), ∀ a, (k3_off10 v39) a + S1x64.size a ≤ S100000x64.size a := fun v39 k3_hw5 => k3_hw5.1
theorem k3_off261_inb : ∀ (v39 : BitVec 32) (k3_hw5 : k3_chk5 v39), ∀ a, (k3_off261 v39) a + S1x64.size a ≤ S100000x64.size a := fun v39 k3_hw5 => k3_hw5.2

def k3_off262 (v48 : BitVec 32) : Fin 2 → Nat :=
  let c0_i32_535 : BitVec 32 := 0#32
  ![v48.toNat, 0]

def k3_chk6 (v48 : BitVec 32) : Prop :=
  (∀ a, (k3_off12 v48) a + S1x64.size a ≤ S100000x64.size a) ∧
  (∀ a, (k3_off262 v48) a + S1x64.size a ≤ S100000x64.size a)
instance k3_chk6.dec : ∀ (v48 : BitVec 32), Decidable (k3_chk6 v48) := fun v48 => decidable_of_iff' _ (Iff.of_eq (k3_chk6.eq_1 v48))
theorem k3_off12_inb : ∀ (v48 : BitVec 32) (k3_hw6 : k3_chk6 v48), ∀ a, (k3_off12 v48) a + S1x64.size a ≤ S100000x64.size a := fun v48 k3_hw6 => k3_hw6.1
theorem k3_off262_inb : ∀ (v48 : BitVec 32) (k3_hw6 : k3_chk6 v48), ∀ a, (k3_off262 v48) a + S1x64.size a ≤ S100000x64.size a := fun v48 k3_hw6 => k3_hw6.2

def k3_off263 (v57 : BitVec 32) : Fin 2 → Nat :=
  let c0_i32_539 : BitVec 32 := 0#32
  ![v57.toNat, 0]

def k3_chk7 (v57 : BitVec 32) : Prop :=
  (∀ a, (k3_off14 v57) a + S1x64.size a ≤ S100000x64.size a) ∧
  (∀ a, (k3_off263 v57) a + S1x64.size a ≤ S100000x64.size a)
instance k3_chk7.dec : ∀ (v57 : BitVec 32), Decidable (k3_chk7 v57) := fun v57 => decidable_of_iff' _ (Iff.of_eq (k3_chk7.eq_1 v57))
theorem k3_off14_inb : ∀ (v57 : BitVec 32) (k3_hw7 : k3_chk7 v57), ∀ a, (k3_off14 v57) a + S1x64.size a ≤ S100000x64.size a := fun v57 k3_hw7 => k3_hw7.1
theorem k3_off263_inb : ∀ (v57 : BitVec 32) (k3_hw7 : k3_chk7 v57), ∀ a, (k3_off263 v57) a + S1x64.size a ≤ S100000x64.size a := fun v57 k3_hw7 => k3_hw7.2

def k3_off264 (v66 : BitVec 32) : Fin 2 → Nat :=
  let c0_i32_543 : BitVec 32 := 0#32
  ![v66.toNat, 0]

def k3_chk8 (v66 : BitVec 32) : Prop :=
  (∀ a, (k3_off16 v66) a + S1x64.size a ≤ S100000x64.size a) ∧
  (∀ a, (k3_off264 v66) a + S1x64.size a ≤ S100000x64.size a)
instance k3_chk8.dec : ∀ (v66 : BitVec 32), Decidable (k3_chk8 v66) := fun v66 => decidable_of_iff' _ (Iff.of_eq (k3_chk8.eq_1 v66))
theorem k3_off16_inb : ∀ (v66 : BitVec 32) (k3_hw8 : k3_chk8 v66), ∀ a, (k3_off16 v66) a + S1x64.size a ≤ S100000x64.size a := fun v66 k3_hw8 => k3_hw8.1
theorem k3_off264_inb : ∀ (v66 : BitVec 32) (k3_hw8 : k3_chk8 v66), ∀ a, (k3_off264 v66) a + S1x64.size a ≤ S100000x64.size a := fun v66 k3_hw8 => k3_hw8.2

def k3_off265 (v75 : BitVec 32) : Fin 2 → Nat :=
  let c0_i32_547 : BitVec 32 := 0#32
  ![v75.toNat, 0]

def k3_chk9 (v75 : BitVec 32) : Prop :=
  (∀ a, (k3_off18 v75) a + S1x64.size a ≤ S100000x64.size a) ∧
  (∀ a, (k3_off265 v75) a + S1x64.size a ≤ S100000x64.size a)
instance k3_chk9.dec : ∀ (v75 : BitVec 32), Decidable (k3_chk9 v75) := fun v75 => decidable_of_iff' _ (Iff.of_eq (k3_chk9.eq_1 v75))
theorem k3_off18_inb : ∀ (v75 : BitVec 32) (k3_hw9 : k3_chk9 v75), ∀ a, (k3_off18 v75) a + S1x64.size a ≤ S100000x64.size a := fun v75 k3_hw9 => k3_hw9.1
theorem k3_off265_inb : ∀ (v75 : BitVec 32) (k3_hw9 : k3_chk9 v75), ∀ a, (k3_off265 v75) a + S1x64.size a ≤ S100000x64.size a := fun v75 k3_hw9 => k3_hw9.2

def k3_off266 (v84 : BitVec 32) : Fin 2 → Nat :=
  let c0_i32_551 : BitVec 32 := 0#32
  ![v84.toNat, 0]

def k3_chk10 (v84 : BitVec 32) : Prop :=
  (∀ a, (k3_off20 v84) a + S1x64.size a ≤ S100000x64.size a) ∧
  (∀ a, (k3_off266 v84) a + S1x64.size a ≤ S100000x64.size a)
instance k3_chk10.dec : ∀ (v84 : BitVec 32), Decidable (k3_chk10 v84) := fun v84 => decidable_of_iff' _ (Iff.of_eq (k3_chk10.eq_1 v84))
theorem k3_off20_inb : ∀ (v84 : BitVec 32) (k3_hw10 : k3_chk10 v84), ∀ a, (k3_off20 v84) a + S1x64.size a ≤ S100000x64.size a := fun v84 k3_hw10 => k3_hw10.1
theorem k3_off266_inb : ∀ (v84 : BitVec 32) (k3_hw10 : k3_chk10 v84), ∀ a, (k3_off266 v84) a + S1x64.size a ≤ S100000x64.size a := fun v84 k3_hw10 => k3_hw10.2

def k3_off267 (v93 : BitVec 32) : Fin 2 → Nat :=
  let c0_i32_555 : BitVec 32 := 0#32
  ![v93.toNat, 0]

def k3_chk11 (v93 : BitVec 32) : Prop :=
  (∀ a, (k3_off22 v93) a + S1x64.size a ≤ S100000x64.size a) ∧
  (∀ a, (k3_off267 v93) a + S1x64.size a ≤ S100000x64.size a)
instance k3_chk11.dec : ∀ (v93 : BitVec 32), Decidable (k3_chk11 v93) := fun v93 => decidable_of_iff' _ (Iff.of_eq (k3_chk11.eq_1 v93))
theorem k3_off22_inb : ∀ (v93 : BitVec 32) (k3_hw11 : k3_chk11 v93), ∀ a, (k3_off22 v93) a + S1x64.size a ≤ S100000x64.size a := fun v93 k3_hw11 => k3_hw11.1
theorem k3_off267_inb : ∀ (v93 : BitVec 32) (k3_hw11 : k3_chk11 v93), ∀ a, (k3_off267 v93) a + S1x64.size a ≤ S100000x64.size a := fun v93 k3_hw11 => k3_hw11.2

def k3_off268 (v102 : BitVec 32) : Fin 2 → Nat :=
  let c0_i32_559 : BitVec 32 := 0#32
  ![v102.toNat, 0]

def k3_chk12 (v102 : BitVec 32) : Prop :=
  (∀ a, (k3_off24 v102) a + S1x64.size a ≤ S100000x64.size a) ∧
  (∀ a, (k3_off268 v102) a + S1x64.size a ≤ S100000x64.size a)
instance k3_chk12.dec : ∀ (v102 : BitVec 32), Decidable (k3_chk12 v102) := fun v102 => decidable_of_iff' _ (Iff.of_eq (k3_chk12.eq_1 v102))
theorem k3_off24_inb : ∀ (v102 : BitVec 32) (k3_hw12 : k3_chk12 v102), ∀ a, (k3_off24 v102) a + S1x64.size a ≤ S100000x64.size a := fun v102 k3_hw12 => k3_hw12.1
theorem k3_off268_inb : ∀ (v102 : BitVec 32) (k3_hw12 : k3_chk12 v102), ∀ a, (k3_off268 v102) a + S1x64.size a ≤ S100000x64.size a := fun v102 k3_hw12 => k3_hw12.2

def k3_off269 (v111 : BitVec 32) : Fin 2 → Nat :=
  let c0_i32_563 : BitVec 32 := 0#32
  ![v111.toNat, 0]

def k3_chk13 (v111 : BitVec 32) : Prop :=
  (∀ a, (k3_off26 v111) a + S1x64.size a ≤ S100000x64.size a) ∧
  (∀ a, (k3_off269 v111) a + S1x64.size a ≤ S100000x64.size a)
instance k3_chk13.dec : ∀ (v111 : BitVec 32), Decidable (k3_chk13 v111) := fun v111 => decidable_of_iff' _ (Iff.of_eq (k3_chk13.eq_1 v111))
theorem k3_off26_inb : ∀ (v111 : BitVec 32) (k3_hw13 : k3_chk13 v111), ∀ a, (k3_off26 v111) a + S1x64.size a ≤ S100000x64.size a := fun v111 k3_hw13 => k3_hw13.1
theorem k3_off269_inb : ∀ (v111 : BitVec 32) (k3_hw13 : k3_chk13 v111), ∀ a, (k3_off269 v111) a + S1x64.size a ≤ S100000x64.size a := fun v111 k3_hw13 => k3_hw13.2

def k3_off270 (v120 : BitVec 32) : Fin 2 → Nat :=
  let c0_i32_567 : BitVec 32 := 0#32
  ![v120.toNat, 0]

def k3_chk14 (v120 : BitVec 32) : Prop :=
  (∀ a, (k3_off28 v120) a + S1x64.size a ≤ S100000x64.size a) ∧
  (∀ a, (k3_off270 v120) a + S1x64.size a ≤ S100000x64.size a)
instance k3_chk14.dec : ∀ (v120 : BitVec 32), Decidable (k3_chk14 v120) := fun v120 => decidable_of_iff' _ (Iff.of_eq (k3_chk14.eq_1 v120))
theorem k3_off28_inb : ∀ (v120 : BitVec 32) (k3_hw14 : k3_chk14 v120), ∀ a, (k3_off28 v120) a + S1x64.size a ≤ S100000x64.size a := fun v120 k3_hw14 => k3_hw14.1
theorem k3_off270_inb : ∀ (v120 : BitVec 32) (k3_hw14 : k3_chk14 v120), ∀ a, (k3_off270 v120) a + S1x64.size a ≤ S100000x64.size a := fun v120 k3_hw14 => k3_hw14.2

def k3_off271 (v129 : BitVec 32) : Fin 2 → Nat :=
  let c0_i32_571 : BitVec 32 := 0#32
  ![v129.toNat, 0]

def k3_chk15 (v129 : BitVec 32) : Prop :=
  (∀ a, (k3_off30 v129) a + S1x64.size a ≤ S100000x64.size a) ∧
  (∀ a, (k3_off271 v129) a + S1x64.size a ≤ S100000x64.size a)
instance k3_chk15.dec : ∀ (v129 : BitVec 32), Decidable (k3_chk15 v129) := fun v129 => decidable_of_iff' _ (Iff.of_eq (k3_chk15.eq_1 v129))
theorem k3_off30_inb : ∀ (v129 : BitVec 32) (k3_hw15 : k3_chk15 v129), ∀ a, (k3_off30 v129) a + S1x64.size a ≤ S100000x64.size a := fun v129 k3_hw15 => k3_hw15.1
theorem k3_off271_inb : ∀ (v129 : BitVec 32) (k3_hw15 : k3_chk15 v129), ∀ a, (k3_off271 v129) a + S1x64.size a ≤ S100000x64.size a := fun v129 k3_hw15 => k3_hw15.2

def k3_off272 (v138 : BitVec 32) : Fin 2 → Nat :=
  let c0_i32_575 : BitVec 32 := 0#32
  ![v138.toNat, 0]

def k3_chk16 (v138 : BitVec 32) : Prop :=
  (∀ a, (k3_off32 v138) a + S1x64.size a ≤ S100000x64.size a) ∧
  (∀ a, (k3_off272 v138) a + S1x64.size a ≤ S100000x64.size a)
instance k3_chk16.dec : ∀ (v138 : BitVec 32), Decidable (k3_chk16 v138) := fun v138 => decidable_of_iff' _ (Iff.of_eq (k3_chk16.eq_1 v138))
theorem k3_off32_inb : ∀ (v138 : BitVec 32) (k3_hw16 : k3_chk16 v138), ∀ a, (k3_off32 v138) a + S1x64.size a ≤ S100000x64.size a := fun v138 k3_hw16 => k3_hw16.1
theorem k3_off272_inb : ∀ (v138 : BitVec 32) (k3_hw16 : k3_chk16 v138), ∀ a, (k3_off272 v138) a + S1x64.size a ≤ S100000x64.size a := fun v138 k3_hw16 => k3_hw16.2

def k3_off273 (v147 : BitVec 32) : Fin 2 → Nat :=
  let c0_i32_579 : BitVec 32 := 0#32
  ![v147.toNat, 0]

def k3_chk17 (v147 : BitVec 32) : Prop :=
  (∀ a, (k3_off34 v147) a + S1x64.size a ≤ S100000x64.size a) ∧
  (∀ a, (k3_off273 v147) a + S1x64.size a ≤ S100000x64.size a)
instance k3_chk17.dec : ∀ (v147 : BitVec 32), Decidable (k3_chk17 v147) := fun v147 => decidable_of_iff' _ (Iff.of_eq (k3_chk17.eq_1 v147))
theorem k3_off34_inb : ∀ (v147 : BitVec 32) (k3_hw17 : k3_chk17 v147), ∀ a, (k3_off34 v147) a + S1x64.size a ≤ S100000x64.size a := fun v147 k3_hw17 => k3_hw17.1
theorem k3_off273_inb : ∀ (v147 : BitVec 32) (k3_hw17 : k3_chk17 v147), ∀ a, (k3_off273 v147) a + S1x64.size a ≤ S100000x64.size a := fun v147 k3_hw17 => k3_hw17.2

def k3_off274 (v156 : BitVec 32) : Fin 2 → Nat :=
  let c0_i32_583 : BitVec 32 := 0#32
  ![v156.toNat, 0]

def k3_chk18 (v156 : BitVec 32) : Prop :=
  (∀ a, (k3_off36 v156) a + S1x64.size a ≤ S100000x64.size a) ∧
  (∀ a, (k3_off274 v156) a + S1x64.size a ≤ S100000x64.size a)
instance k3_chk18.dec : ∀ (v156 : BitVec 32), Decidable (k3_chk18 v156) := fun v156 => decidable_of_iff' _ (Iff.of_eq (k3_chk18.eq_1 v156))
theorem k3_off36_inb : ∀ (v156 : BitVec 32) (k3_hw18 : k3_chk18 v156), ∀ a, (k3_off36 v156) a + S1x64.size a ≤ S100000x64.size a := fun v156 k3_hw18 => k3_hw18.1
theorem k3_off274_inb : ∀ (v156 : BitVec 32) (k3_hw18 : k3_chk18 v156), ∀ a, (k3_off274 v156) a + S1x64.size a ≤ S100000x64.size a := fun v156 k3_hw18 => k3_hw18.2

def k3_off275 (v165 : BitVec 32) : Fin 2 → Nat :=
  let c0_i32_587 : BitVec 32 := 0#32
  ![v165.toNat, 0]

def k3_chk19 (v165 : BitVec 32) : Prop :=
  (∀ a, (k3_off38 v165) a + S1x64.size a ≤ S100000x64.size a) ∧
  (∀ a, (k3_off275 v165) a + S1x64.size a ≤ S100000x64.size a)
instance k3_chk19.dec : ∀ (v165 : BitVec 32), Decidable (k3_chk19 v165) := fun v165 => decidable_of_iff' _ (Iff.of_eq (k3_chk19.eq_1 v165))
theorem k3_off38_inb : ∀ (v165 : BitVec 32) (k3_hw19 : k3_chk19 v165), ∀ a, (k3_off38 v165) a + S1x64.size a ≤ S100000x64.size a := fun v165 k3_hw19 => k3_hw19.1
theorem k3_off275_inb : ∀ (v165 : BitVec 32) (k3_hw19 : k3_chk19 v165), ∀ a, (k3_off275 v165) a + S1x64.size a ≤ S100000x64.size a := fun v165 k3_hw19 => k3_hw19.2

def k3_off276 (v174 : BitVec 32) : Fin 2 → Nat :=
  let c0_i32_591 : BitVec 32 := 0#32
  ![v174.toNat, 0]

def k3_chk20 (v174 : BitVec 32) : Prop :=
  (∀ a, (k3_off40 v174) a + S1x64.size a ≤ S100000x64.size a) ∧
  (∀ a, (k3_off276 v174) a + S1x64.size a ≤ S100000x64.size a)
instance k3_chk20.dec : ∀ (v174 : BitVec 32), Decidable (k3_chk20 v174) := fun v174 => decidable_of_iff' _ (Iff.of_eq (k3_chk20.eq_1 v174))
theorem k3_off40_inb : ∀ (v174 : BitVec 32) (k3_hw20 : k3_chk20 v174), ∀ a, (k3_off40 v174) a + S1x64.size a ≤ S100000x64.size a := fun v174 k3_hw20 => k3_hw20.1
theorem k3_off276_inb : ∀ (v174 : BitVec 32) (k3_hw20 : k3_chk20 v174), ∀ a, (k3_off276 v174) a + S1x64.size a ≤ S100000x64.size a := fun v174 k3_hw20 => k3_hw20.2

def k3_off277 (v183 : BitVec 32) : Fin 2 → Nat :=
  let c0_i32_595 : BitVec 32 := 0#32
  ![v183.toNat, 0]

def k3_chk21 (v183 : BitVec 32) : Prop :=
  (∀ a, (k3_off42 v183) a + S1x64.size a ≤ S100000x64.size a) ∧
  (∀ a, (k3_off277 v183) a + S1x64.size a ≤ S100000x64.size a)
instance k3_chk21.dec : ∀ (v183 : BitVec 32), Decidable (k3_chk21 v183) := fun v183 => decidable_of_iff' _ (Iff.of_eq (k3_chk21.eq_1 v183))
theorem k3_off42_inb : ∀ (v183 : BitVec 32) (k3_hw21 : k3_chk21 v183), ∀ a, (k3_off42 v183) a + S1x64.size a ≤ S100000x64.size a := fun v183 k3_hw21 => k3_hw21.1
theorem k3_off277_inb : ∀ (v183 : BitVec 32) (k3_hw21 : k3_chk21 v183), ∀ a, (k3_off277 v183) a + S1x64.size a ≤ S100000x64.size a := fun v183 k3_hw21 => k3_hw21.2

def k3_off278 (v192 : BitVec 32) : Fin 2 → Nat :=
  let c0_i32_599 : BitVec 32 := 0#32
  ![v192.toNat, 0]

def k3_chk22 (v192 : BitVec 32) : Prop :=
  (∀ a, (k3_off44 v192) a + S1x64.size a ≤ S100000x64.size a) ∧
  (∀ a, (k3_off278 v192) a + S1x64.size a ≤ S100000x64.size a)
instance k3_chk22.dec : ∀ (v192 : BitVec 32), Decidable (k3_chk22 v192) := fun v192 => decidable_of_iff' _ (Iff.of_eq (k3_chk22.eq_1 v192))
theorem k3_off44_inb : ∀ (v192 : BitVec 32) (k3_hw22 : k3_chk22 v192), ∀ a, (k3_off44 v192) a + S1x64.size a ≤ S100000x64.size a := fun v192 k3_hw22 => k3_hw22.1
theorem k3_off278_inb : ∀ (v192 : BitVec 32) (k3_hw22 : k3_chk22 v192), ∀ a, (k3_off278 v192) a + S1x64.size a ≤ S100000x64.size a := fun v192 k3_hw22 => k3_hw22.2

def k3_off279 (v201 : BitVec 32) : Fin 2 → Nat :=
  let c0_i32_603 : BitVec 32 := 0#32
  ![v201.toNat, 0]

def k3_chk23 (v201 : BitVec 32) : Prop :=
  (∀ a, (k3_off46 v201) a + S1x64.size a ≤ S100000x64.size a) ∧
  (∀ a, (k3_off279 v201) a + S1x64.size a ≤ S100000x64.size a)
instance k3_chk23.dec : ∀ (v201 : BitVec 32), Decidable (k3_chk23 v201) := fun v201 => decidable_of_iff' _ (Iff.of_eq (k3_chk23.eq_1 v201))
theorem k3_off46_inb : ∀ (v201 : BitVec 32) (k3_hw23 : k3_chk23 v201), ∀ a, (k3_off46 v201) a + S1x64.size a ≤ S100000x64.size a := fun v201 k3_hw23 => k3_hw23.1
theorem k3_off279_inb : ∀ (v201 : BitVec 32) (k3_hw23 : k3_chk23 v201), ∀ a, (k3_off279 v201) a + S1x64.size a ≤ S100000x64.size a := fun v201 k3_hw23 => k3_hw23.2

def k3_off280 (v210 : BitVec 32) : Fin 2 → Nat :=
  let c0_i32_607 : BitVec 32 := 0#32
  ![v210.toNat, 0]

def k3_chk24 (v210 : BitVec 32) : Prop :=
  (∀ a, (k3_off48 v210) a + S1x64.size a ≤ S100000x64.size a) ∧
  (∀ a, (k3_off280 v210) a + S1x64.size a ≤ S100000x64.size a)
instance k3_chk24.dec : ∀ (v210 : BitVec 32), Decidable (k3_chk24 v210) := fun v210 => decidable_of_iff' _ (Iff.of_eq (k3_chk24.eq_1 v210))
theorem k3_off48_inb : ∀ (v210 : BitVec 32) (k3_hw24 : k3_chk24 v210), ∀ a, (k3_off48 v210) a + S1x64.size a ≤ S100000x64.size a := fun v210 k3_hw24 => k3_hw24.1
theorem k3_off280_inb : ∀ (v210 : BitVec 32) (k3_hw24 : k3_chk24 v210), ∀ a, (k3_off280 v210) a + S1x64.size a ≤ S100000x64.size a := fun v210 k3_hw24 => k3_hw24.2

def k3_off281 (v219 : BitVec 32) : Fin 2 → Nat :=
  let c0_i32_611 : BitVec 32 := 0#32
  ![v219.toNat, 0]

def k3_chk25 (v219 : BitVec 32) : Prop :=
  (∀ a, (k3_off50 v219) a + S1x64.size a ≤ S100000x64.size a) ∧
  (∀ a, (k3_off281 v219) a + S1x64.size a ≤ S100000x64.size a)
instance k3_chk25.dec : ∀ (v219 : BitVec 32), Decidable (k3_chk25 v219) := fun v219 => decidable_of_iff' _ (Iff.of_eq (k3_chk25.eq_1 v219))
theorem k3_off50_inb : ∀ (v219 : BitVec 32) (k3_hw25 : k3_chk25 v219), ∀ a, (k3_off50 v219) a + S1x64.size a ≤ S100000x64.size a := fun v219 k3_hw25 => k3_hw25.1
theorem k3_off281_inb : ∀ (v219 : BitVec 32) (k3_hw25 : k3_chk25 v219), ∀ a, (k3_off281 v219) a + S1x64.size a ≤ S100000x64.size a := fun v219 k3_hw25 => k3_hw25.2

def k3_off282 (v228 : BitVec 32) : Fin 2 → Nat :=
  let c0_i32_615 : BitVec 32 := 0#32
  ![v228.toNat, 0]

def k3_chk26 (v228 : BitVec 32) : Prop :=
  (∀ a, (k3_off52 v228) a + S1x64.size a ≤ S100000x64.size a) ∧
  (∀ a, (k3_off282 v228) a + S1x64.size a ≤ S100000x64.size a)
instance k3_chk26.dec : ∀ (v228 : BitVec 32), Decidable (k3_chk26 v228) := fun v228 => decidable_of_iff' _ (Iff.of_eq (k3_chk26.eq_1 v228))
theorem k3_off52_inb : ∀ (v228 : BitVec 32) (k3_hw26 : k3_chk26 v228), ∀ a, (k3_off52 v228) a + S1x64.size a ≤ S100000x64.size a := fun v228 k3_hw26 => k3_hw26.1
theorem k3_off282_inb : ∀ (v228 : BitVec 32) (k3_hw26 : k3_chk26 v228), ∀ a, (k3_off282 v228) a + S1x64.size a ≤ S100000x64.size a := fun v228 k3_hw26 => k3_hw26.2

def k3_off283 (v237 : BitVec 32) : Fin 2 → Nat :=
  let c0_i32_619 : BitVec 32 := 0#32
  ![v237.toNat, 0]

def k3_chk27 (v237 : BitVec 32) : Prop :=
  (∀ a, (k3_off54 v237) a + S1x64.size a ≤ S100000x64.size a) ∧
  (∀ a, (k3_off283 v237) a + S1x64.size a ≤ S100000x64.size a)
instance k3_chk27.dec : ∀ (v237 : BitVec 32), Decidable (k3_chk27 v237) := fun v237 => decidable_of_iff' _ (Iff.of_eq (k3_chk27.eq_1 v237))
theorem k3_off54_inb : ∀ (v237 : BitVec 32) (k3_hw27 : k3_chk27 v237), ∀ a, (k3_off54 v237) a + S1x64.size a ≤ S100000x64.size a := fun v237 k3_hw27 => k3_hw27.1
theorem k3_off283_inb : ∀ (v237 : BitVec 32) (k3_hw27 : k3_chk27 v237), ∀ a, (k3_off283 v237) a + S1x64.size a ≤ S100000x64.size a := fun v237 k3_hw27 => k3_hw27.2

def k3_off284 (v246 : BitVec 32) : Fin 2 → Nat :=
  let c0_i32_623 : BitVec 32 := 0#32
  ![v246.toNat, 0]

def k3_chk28 (v246 : BitVec 32) : Prop :=
  (∀ a, (k3_off56 v246) a + S1x64.size a ≤ S100000x64.size a) ∧
  (∀ a, (k3_off284 v246) a + S1x64.size a ≤ S100000x64.size a)
instance k3_chk28.dec : ∀ (v246 : BitVec 32), Decidable (k3_chk28 v246) := fun v246 => decidable_of_iff' _ (Iff.of_eq (k3_chk28.eq_1 v246))
theorem k3_off56_inb : ∀ (v246 : BitVec 32) (k3_hw28 : k3_chk28 v246), ∀ a, (k3_off56 v246) a + S1x64.size a ≤ S100000x64.size a := fun v246 k3_hw28 => k3_hw28.1
theorem k3_off284_inb : ∀ (v246 : BitVec 32) (k3_hw28 : k3_chk28 v246), ∀ a, (k3_off284 v246) a + S1x64.size a ≤ S100000x64.size a := fun v246 k3_hw28 => k3_hw28.2

def k3_off285 (v255 : BitVec 32) : Fin 2 → Nat :=
  let c0_i32_627 : BitVec 32 := 0#32
  ![v255.toNat, 0]

def k3_chk29 (v255 : BitVec 32) : Prop :=
  (∀ a, (k3_off58 v255) a + S1x64.size a ≤ S100000x64.size a) ∧
  (∀ a, (k3_off285 v255) a + S1x64.size a ≤ S100000x64.size a)
instance k3_chk29.dec : ∀ (v255 : BitVec 32), Decidable (k3_chk29 v255) := fun v255 => decidable_of_iff' _ (Iff.of_eq (k3_chk29.eq_1 v255))
theorem k3_off58_inb : ∀ (v255 : BitVec 32) (k3_hw29 : k3_chk29 v255), ∀ a, (k3_off58 v255) a + S1x64.size a ≤ S100000x64.size a := fun v255 k3_hw29 => k3_hw29.1
theorem k3_off285_inb : ∀ (v255 : BitVec 32) (k3_hw29 : k3_chk29 v255), ∀ a, (k3_off285 v255) a + S1x64.size a ≤ S100000x64.size a := fun v255 k3_hw29 => k3_hw29.2

def k3_off286 (v264 : BitVec 32) : Fin 2 → Nat :=
  let c0_i32_631 : BitVec 32 := 0#32
  ![v264.toNat, 0]

def k3_chk30 (v264 : BitVec 32) : Prop :=
  (∀ a, (k3_off60 v264) a + S1x64.size a ≤ S100000x64.size a) ∧
  (∀ a, (k3_off286 v264) a + S1x64.size a ≤ S100000x64.size a)
instance k3_chk30.dec : ∀ (v264 : BitVec 32), Decidable (k3_chk30 v264) := fun v264 => decidable_of_iff' _ (Iff.of_eq (k3_chk30.eq_1 v264))
theorem k3_off60_inb : ∀ (v264 : BitVec 32) (k3_hw30 : k3_chk30 v264), ∀ a, (k3_off60 v264) a + S1x64.size a ≤ S100000x64.size a := fun v264 k3_hw30 => k3_hw30.1
theorem k3_off286_inb : ∀ (v264 : BitVec 32) (k3_hw30 : k3_chk30 v264), ∀ a, (k3_off286 v264) a + S1x64.size a ≤ S100000x64.size a := fun v264 k3_hw30 => k3_hw30.2

def k3_off287 (v273 : BitVec 32) : Fin 2 → Nat :=
  let c0_i32_635 : BitVec 32 := 0#32
  ![v273.toNat, 0]

def k3_chk31 (v273 : BitVec 32) : Prop :=
  (∀ a, (k3_off62 v273) a + S1x64.size a ≤ S100000x64.size a) ∧
  (∀ a, (k3_off287 v273) a + S1x64.size a ≤ S100000x64.size a)
instance k3_chk31.dec : ∀ (v273 : BitVec 32), Decidable (k3_chk31 v273) := fun v273 => decidable_of_iff' _ (Iff.of_eq (k3_chk31.eq_1 v273))
theorem k3_off62_inb : ∀ (v273 : BitVec 32) (k3_hw31 : k3_chk31 v273), ∀ a, (k3_off62 v273) a + S1x64.size a ≤ S100000x64.size a := fun v273 k3_hw31 => k3_hw31.1
theorem k3_off287_inb : ∀ (v273 : BitVec 32) (k3_hw31 : k3_chk31 v273), ∀ a, (k3_off287 v273) a + S1x64.size a ≤ S100000x64.size a := fun v273 k3_hw31 => k3_hw31.2

def k3_off288 (v282 : BitVec 32) : Fin 2 → Nat :=
  let c0_i32_639 : BitVec 32 := 0#32
  ![v282.toNat, 0]

def k3_chk32 (v282 : BitVec 32) : Prop :=
  (∀ a, (k3_off64 v282) a + S1x64.size a ≤ S100000x64.size a) ∧
  (∀ a, (k3_off288 v282) a + S1x64.size a ≤ S100000x64.size a)
instance k3_chk32.dec : ∀ (v282 : BitVec 32), Decidable (k3_chk32 v282) := fun v282 => decidable_of_iff' _ (Iff.of_eq (k3_chk32.eq_1 v282))
theorem k3_off64_inb : ∀ (v282 : BitVec 32) (k3_hw32 : k3_chk32 v282), ∀ a, (k3_off64 v282) a + S1x64.size a ≤ S100000x64.size a := fun v282 k3_hw32 => k3_hw32.1
theorem k3_off288_inb : ∀ (v282 : BitVec 32) (k3_hw32 : k3_chk32 v282), ∀ a, (k3_off288 v282) a + S1x64.size a ≤ S100000x64.size a := fun v282 k3_hw32 => k3_hw32.2

def k3_off289 (v291 : BitVec 32) : Fin 2 → Nat :=
  let c0_i32_643 : BitVec 32 := 0#32
  ![v291.toNat, 0]

def k3_chk33 (v291 : BitVec 32) : Prop :=
  (∀ a, (k3_off66 v291) a + S1x64.size a ≤ S100000x64.size a) ∧
  (∀ a, (k3_off289 v291) a + S1x64.size a ≤ S100000x64.size a)
instance k3_chk33.dec : ∀ (v291 : BitVec 32), Decidable (k3_chk33 v291) := fun v291 => decidable_of_iff' _ (Iff.of_eq (k3_chk33.eq_1 v291))
theorem k3_off66_inb : ∀ (v291 : BitVec 32) (k3_hw33 : k3_chk33 v291), ∀ a, (k3_off66 v291) a + S1x64.size a ≤ S100000x64.size a := fun v291 k3_hw33 => k3_hw33.1
theorem k3_off289_inb : ∀ (v291 : BitVec 32) (k3_hw33 : k3_chk33 v291), ∀ a, (k3_off289 v291) a + S1x64.size a ≤ S100000x64.size a := fun v291 k3_hw33 => k3_hw33.2

def k3_off290 (v300 : BitVec 32) : Fin 2 → Nat :=
  let c0_i32_647 : BitVec 32 := 0#32
  ![v300.toNat, 0]

def k3_chk34 (v300 : BitVec 32) : Prop :=
  (∀ a, (k3_off68 v300) a + S1x64.size a ≤ S100000x64.size a) ∧
  (∀ a, (k3_off290 v300) a + S1x64.size a ≤ S100000x64.size a)
instance k3_chk34.dec : ∀ (v300 : BitVec 32), Decidable (k3_chk34 v300) := fun v300 => decidable_of_iff' _ (Iff.of_eq (k3_chk34.eq_1 v300))
theorem k3_off68_inb : ∀ (v300 : BitVec 32) (k3_hw34 : k3_chk34 v300), ∀ a, (k3_off68 v300) a + S1x64.size a ≤ S100000x64.size a := fun v300 k3_hw34 => k3_hw34.1
theorem k3_off290_inb : ∀ (v300 : BitVec 32) (k3_hw34 : k3_chk34 v300), ∀ a, (k3_off290 v300) a + S1x64.size a ≤ S100000x64.size a := fun v300 k3_hw34 => k3_hw34.2

def k3_off291 (v309 : BitVec 32) : Fin 2 → Nat :=
  let c0_i32_651 : BitVec 32 := 0#32
  ![v309.toNat, 0]

def k3_chk35 (v309 : BitVec 32) : Prop :=
  (∀ a, (k3_off70 v309) a + S1x64.size a ≤ S100000x64.size a) ∧
  (∀ a, (k3_off291 v309) a + S1x64.size a ≤ S100000x64.size a)
instance k3_chk35.dec : ∀ (v309 : BitVec 32), Decidable (k3_chk35 v309) := fun v309 => decidable_of_iff' _ (Iff.of_eq (k3_chk35.eq_1 v309))
theorem k3_off70_inb : ∀ (v309 : BitVec 32) (k3_hw35 : k3_chk35 v309), ∀ a, (k3_off70 v309) a + S1x64.size a ≤ S100000x64.size a := fun v309 k3_hw35 => k3_hw35.1
theorem k3_off291_inb : ∀ (v309 : BitVec 32) (k3_hw35 : k3_chk35 v309), ∀ a, (k3_off291 v309) a + S1x64.size a ≤ S100000x64.size a := fun v309 k3_hw35 => k3_hw35.2

def k3_off292 (v318 : BitVec 32) : Fin 2 → Nat :=
  let c0_i32_655 : BitVec 32 := 0#32
  ![v318.toNat, 0]

def k3_chk36 (v318 : BitVec 32) : Prop :=
  (∀ a, (k3_off72 v318) a + S1x64.size a ≤ S100000x64.size a) ∧
  (∀ a, (k3_off292 v318) a + S1x64.size a ≤ S100000x64.size a)
instance k3_chk36.dec : ∀ (v318 : BitVec 32), Decidable (k3_chk36 v318) := fun v318 => decidable_of_iff' _ (Iff.of_eq (k3_chk36.eq_1 v318))
theorem k3_off72_inb : ∀ (v318 : BitVec 32) (k3_hw36 : k3_chk36 v318), ∀ a, (k3_off72 v318) a + S1x64.size a ≤ S100000x64.size a := fun v318 k3_hw36 => k3_hw36.1
theorem k3_off292_inb : ∀ (v318 : BitVec 32) (k3_hw36 : k3_chk36 v318), ∀ a, (k3_off292 v318) a + S1x64.size a ≤ S100000x64.size a := fun v318 k3_hw36 => k3_hw36.2

def k3_off293 (v327 : BitVec 32) : Fin 2 → Nat :=
  let c0_i32_659 : BitVec 32 := 0#32
  ![v327.toNat, 0]

def k3_chk37 (v327 : BitVec 32) : Prop :=
  (∀ a, (k3_off74 v327) a + S1x64.size a ≤ S100000x64.size a) ∧
  (∀ a, (k3_off293 v327) a + S1x64.size a ≤ S100000x64.size a)
instance k3_chk37.dec : ∀ (v327 : BitVec 32), Decidable (k3_chk37 v327) := fun v327 => decidable_of_iff' _ (Iff.of_eq (k3_chk37.eq_1 v327))
theorem k3_off74_inb : ∀ (v327 : BitVec 32) (k3_hw37 : k3_chk37 v327), ∀ a, (k3_off74 v327) a + S1x64.size a ≤ S100000x64.size a := fun v327 k3_hw37 => k3_hw37.1
theorem k3_off293_inb : ∀ (v327 : BitVec 32) (k3_hw37 : k3_chk37 v327), ∀ a, (k3_off293 v327) a + S1x64.size a ≤ S100000x64.size a := fun v327 k3_hw37 => k3_hw37.2

def k3_off294 (v336 : BitVec 32) : Fin 2 → Nat :=
  let c0_i32_663 : BitVec 32 := 0#32
  ![v336.toNat, 0]

def k3_chk38 (v336 : BitVec 32) : Prop :=
  (∀ a, (k3_off76 v336) a + S1x64.size a ≤ S100000x64.size a) ∧
  (∀ a, (k3_off294 v336) a + S1x64.size a ≤ S100000x64.size a)
instance k3_chk38.dec : ∀ (v336 : BitVec 32), Decidable (k3_chk38 v336) := fun v336 => decidable_of_iff' _ (Iff.of_eq (k3_chk38.eq_1 v336))
theorem k3_off76_inb : ∀ (v336 : BitVec 32) (k3_hw38 : k3_chk38 v336), ∀ a, (k3_off76 v336) a + S1x64.size a ≤ S100000x64.size a := fun v336 k3_hw38 => k3_hw38.1
theorem k3_off294_inb : ∀ (v336 : BitVec 32) (k3_hw38 : k3_chk38 v336), ∀ a, (k3_off294 v336) a + S1x64.size a ≤ S100000x64.size a := fun v336 k3_hw38 => k3_hw38.2

def k3_off295 (v345 : BitVec 32) : Fin 2 → Nat :=
  let c0_i32_667 : BitVec 32 := 0#32
  ![v345.toNat, 0]

def k3_chk39 (v345 : BitVec 32) : Prop :=
  (∀ a, (k3_off78 v345) a + S1x64.size a ≤ S100000x64.size a) ∧
  (∀ a, (k3_off295 v345) a + S1x64.size a ≤ S100000x64.size a)
instance k3_chk39.dec : ∀ (v345 : BitVec 32), Decidable (k3_chk39 v345) := fun v345 => decidable_of_iff' _ (Iff.of_eq (k3_chk39.eq_1 v345))
theorem k3_off78_inb : ∀ (v345 : BitVec 32) (k3_hw39 : k3_chk39 v345), ∀ a, (k3_off78 v345) a + S1x64.size a ≤ S100000x64.size a := fun v345 k3_hw39 => k3_hw39.1
theorem k3_off295_inb : ∀ (v345 : BitVec 32) (k3_hw39 : k3_chk39 v345), ∀ a, (k3_off295 v345) a + S1x64.size a ≤ S100000x64.size a := fun v345 k3_hw39 => k3_hw39.2

def k3_off296 (v354 : BitVec 32) : Fin 2 → Nat :=
  let c0_i32_671 : BitVec 32 := 0#32
  ![v354.toNat, 0]

def k3_chk40 (v354 : BitVec 32) : Prop :=
  (∀ a, (k3_off80 v354) a + S1x64.size a ≤ S100000x64.size a) ∧
  (∀ a, (k3_off296 v354) a + S1x64.size a ≤ S100000x64.size a)
instance k3_chk40.dec : ∀ (v354 : BitVec 32), Decidable (k3_chk40 v354) := fun v354 => decidable_of_iff' _ (Iff.of_eq (k3_chk40.eq_1 v354))
theorem k3_off80_inb : ∀ (v354 : BitVec 32) (k3_hw40 : k3_chk40 v354), ∀ a, (k3_off80 v354) a + S1x64.size a ≤ S100000x64.size a := fun v354 k3_hw40 => k3_hw40.1
theorem k3_off296_inb : ∀ (v354 : BitVec 32) (k3_hw40 : k3_chk40 v354), ∀ a, (k3_off296 v354) a + S1x64.size a ≤ S100000x64.size a := fun v354 k3_hw40 => k3_hw40.2

def k3_off297 (v363 : BitVec 32) : Fin 2 → Nat :=
  let c0_i32_675 : BitVec 32 := 0#32
  ![v363.toNat, 0]

def k3_chk41 (v363 : BitVec 32) : Prop :=
  (∀ a, (k3_off82 v363) a + S1x64.size a ≤ S100000x64.size a) ∧
  (∀ a, (k3_off297 v363) a + S1x64.size a ≤ S100000x64.size a)
instance k3_chk41.dec : ∀ (v363 : BitVec 32), Decidable (k3_chk41 v363) := fun v363 => decidable_of_iff' _ (Iff.of_eq (k3_chk41.eq_1 v363))
theorem k3_off82_inb : ∀ (v363 : BitVec 32) (k3_hw41 : k3_chk41 v363), ∀ a, (k3_off82 v363) a + S1x64.size a ≤ S100000x64.size a := fun v363 k3_hw41 => k3_hw41.1
theorem k3_off297_inb : ∀ (v363 : BitVec 32) (k3_hw41 : k3_chk41 v363), ∀ a, (k3_off297 v363) a + S1x64.size a ≤ S100000x64.size a := fun v363 k3_hw41 => k3_hw41.2

def k3_off298 (v372 : BitVec 32) : Fin 2 → Nat :=
  let c0_i32_679 : BitVec 32 := 0#32
  ![v372.toNat, 0]

def k3_chk42 (v372 : BitVec 32) : Prop :=
  (∀ a, (k3_off84 v372) a + S1x64.size a ≤ S100000x64.size a) ∧
  (∀ a, (k3_off298 v372) a + S1x64.size a ≤ S100000x64.size a)
instance k3_chk42.dec : ∀ (v372 : BitVec 32), Decidable (k3_chk42 v372) := fun v372 => decidable_of_iff' _ (Iff.of_eq (k3_chk42.eq_1 v372))
theorem k3_off84_inb : ∀ (v372 : BitVec 32) (k3_hw42 : k3_chk42 v372), ∀ a, (k3_off84 v372) a + S1x64.size a ≤ S100000x64.size a := fun v372 k3_hw42 => k3_hw42.1
theorem k3_off298_inb : ∀ (v372 : BitVec 32) (k3_hw42 : k3_chk42 v372), ∀ a, (k3_off298 v372) a + S1x64.size a ≤ S100000x64.size a := fun v372 k3_hw42 => k3_hw42.2

def k3_off299 (v381 : BitVec 32) : Fin 2 → Nat :=
  let c0_i32_683 : BitVec 32 := 0#32
  ![v381.toNat, 0]

def k3_chk43 (v381 : BitVec 32) : Prop :=
  (∀ a, (k3_off86 v381) a + S1x64.size a ≤ S100000x64.size a) ∧
  (∀ a, (k3_off299 v381) a + S1x64.size a ≤ S100000x64.size a)
instance k3_chk43.dec : ∀ (v381 : BitVec 32), Decidable (k3_chk43 v381) := fun v381 => decidable_of_iff' _ (Iff.of_eq (k3_chk43.eq_1 v381))
theorem k3_off86_inb : ∀ (v381 : BitVec 32) (k3_hw43 : k3_chk43 v381), ∀ a, (k3_off86 v381) a + S1x64.size a ≤ S100000x64.size a := fun v381 k3_hw43 => k3_hw43.1
theorem k3_off299_inb : ∀ (v381 : BitVec 32) (k3_hw43 : k3_chk43 v381), ∀ a, (k3_off299 v381) a + S1x64.size a ≤ S100000x64.size a := fun v381 k3_hw43 => k3_hw43.2

def k3_off300 (v390 : BitVec 32) : Fin 2 → Nat :=
  let c0_i32_687 : BitVec 32 := 0#32
  ![v390.toNat, 0]

def k3_chk44 (v390 : BitVec 32) : Prop :=
  (∀ a, (k3_off88 v390) a + S1x64.size a ≤ S100000x64.size a) ∧
  (∀ a, (k3_off300 v390) a + S1x64.size a ≤ S100000x64.size a)
instance k3_chk44.dec : ∀ (v390 : BitVec 32), Decidable (k3_chk44 v390) := fun v390 => decidable_of_iff' _ (Iff.of_eq (k3_chk44.eq_1 v390))
theorem k3_off88_inb : ∀ (v390 : BitVec 32) (k3_hw44 : k3_chk44 v390), ∀ a, (k3_off88 v390) a + S1x64.size a ≤ S100000x64.size a := fun v390 k3_hw44 => k3_hw44.1
theorem k3_off300_inb : ∀ (v390 : BitVec 32) (k3_hw44 : k3_chk44 v390), ∀ a, (k3_off300 v390) a + S1x64.size a ≤ S100000x64.size a := fun v390 k3_hw44 => k3_hw44.2

def k3_off301 (v399 : BitVec 32) : Fin 2 → Nat :=
  let c0_i32_691 : BitVec 32 := 0#32
  ![v399.toNat, 0]

def k3_chk45 (v399 : BitVec 32) : Prop :=
  (∀ a, (k3_off90 v399) a + S1x64.size a ≤ S100000x64.size a) ∧
  (∀ a, (k3_off301 v399) a + S1x64.size a ≤ S100000x64.size a)
instance k3_chk45.dec : ∀ (v399 : BitVec 32), Decidable (k3_chk45 v399) := fun v399 => decidable_of_iff' _ (Iff.of_eq (k3_chk45.eq_1 v399))
theorem k3_off90_inb : ∀ (v399 : BitVec 32) (k3_hw45 : k3_chk45 v399), ∀ a, (k3_off90 v399) a + S1x64.size a ≤ S100000x64.size a := fun v399 k3_hw45 => k3_hw45.1
theorem k3_off301_inb : ∀ (v399 : BitVec 32) (k3_hw45 : k3_chk45 v399), ∀ a, (k3_off301 v399) a + S1x64.size a ≤ S100000x64.size a := fun v399 k3_hw45 => k3_hw45.2

def k3_off302 (v408 : BitVec 32) : Fin 2 → Nat :=
  let c0_i32_695 : BitVec 32 := 0#32
  ![v408.toNat, 0]

def k3_chk46 (v408 : BitVec 32) : Prop :=
  (∀ a, (k3_off92 v408) a + S1x64.size a ≤ S100000x64.size a) ∧
  (∀ a, (k3_off302 v408) a + S1x64.size a ≤ S100000x64.size a)
instance k3_chk46.dec : ∀ (v408 : BitVec 32), Decidable (k3_chk46 v408) := fun v408 => decidable_of_iff' _ (Iff.of_eq (k3_chk46.eq_1 v408))
theorem k3_off92_inb : ∀ (v408 : BitVec 32) (k3_hw46 : k3_chk46 v408), ∀ a, (k3_off92 v408) a + S1x64.size a ≤ S100000x64.size a := fun v408 k3_hw46 => k3_hw46.1
theorem k3_off302_inb : ∀ (v408 : BitVec 32) (k3_hw46 : k3_chk46 v408), ∀ a, (k3_off302 v408) a + S1x64.size a ≤ S100000x64.size a := fun v408 k3_hw46 => k3_hw46.2

def k3_off303 (v417 : BitVec 32) : Fin 2 → Nat :=
  let c0_i32_699 : BitVec 32 := 0#32
  ![v417.toNat, 0]

def k3_chk47 (v417 : BitVec 32) : Prop :=
  (∀ a, (k3_off94 v417) a + S1x64.size a ≤ S100000x64.size a) ∧
  (∀ a, (k3_off303 v417) a + S1x64.size a ≤ S100000x64.size a)
instance k3_chk47.dec : ∀ (v417 : BitVec 32), Decidable (k3_chk47 v417) := fun v417 => decidable_of_iff' _ (Iff.of_eq (k3_chk47.eq_1 v417))
theorem k3_off94_inb : ∀ (v417 : BitVec 32) (k3_hw47 : k3_chk47 v417), ∀ a, (k3_off94 v417) a + S1x64.size a ≤ S100000x64.size a := fun v417 k3_hw47 => k3_hw47.1
theorem k3_off303_inb : ∀ (v417 : BitVec 32) (k3_hw47 : k3_chk47 v417), ∀ a, (k3_off303 v417) a + S1x64.size a ≤ S100000x64.size a := fun v417 k3_hw47 => k3_hw47.2

def k3_off304 (v426 : BitVec 32) : Fin 2 → Nat :=
  let c0_i32_703 : BitVec 32 := 0#32
  ![v426.toNat, 0]

def k3_chk48 (v426 : BitVec 32) : Prop :=
  (∀ a, (k3_off96 v426) a + S1x64.size a ≤ S100000x64.size a) ∧
  (∀ a, (k3_off304 v426) a + S1x64.size a ≤ S100000x64.size a)
instance k3_chk48.dec : ∀ (v426 : BitVec 32), Decidable (k3_chk48 v426) := fun v426 => decidable_of_iff' _ (Iff.of_eq (k3_chk48.eq_1 v426))
theorem k3_off96_inb : ∀ (v426 : BitVec 32) (k3_hw48 : k3_chk48 v426), ∀ a, (k3_off96 v426) a + S1x64.size a ≤ S100000x64.size a := fun v426 k3_hw48 => k3_hw48.1
theorem k3_off304_inb : ∀ (v426 : BitVec 32) (k3_hw48 : k3_chk48 v426), ∀ a, (k3_off304 v426) a + S1x64.size a ≤ S100000x64.size a := fun v426 k3_hw48 => k3_hw48.2

def k3_off305 (v435 : BitVec 32) : Fin 2 → Nat :=
  let c0_i32_707 : BitVec 32 := 0#32
  ![v435.toNat, 0]

def k3_chk49 (v435 : BitVec 32) : Prop :=
  (∀ a, (k3_off98 v435) a + S1x64.size a ≤ S100000x64.size a) ∧
  (∀ a, (k3_off305 v435) a + S1x64.size a ≤ S100000x64.size a)
instance k3_chk49.dec : ∀ (v435 : BitVec 32), Decidable (k3_chk49 v435) := fun v435 => decidable_of_iff' _ (Iff.of_eq (k3_chk49.eq_1 v435))
theorem k3_off98_inb : ∀ (v435 : BitVec 32) (k3_hw49 : k3_chk49 v435), ∀ a, (k3_off98 v435) a + S1x64.size a ≤ S100000x64.size a := fun v435 k3_hw49 => k3_hw49.1
theorem k3_off305_inb : ∀ (v435 : BitVec 32) (k3_hw49 : k3_chk49 v435), ∀ a, (k3_off305 v435) a + S1x64.size a ≤ S100000x64.size a := fun v435 k3_hw49 => k3_hw49.2

def k3_off306 (v444 : BitVec 32) : Fin 2 → Nat :=
  let c0_i32_711 : BitVec 32 := 0#32
  ![v444.toNat, 0]

def k3_chk50 (v444 : BitVec 32) : Prop :=
  (∀ a, (k3_off100 v444) a + S1x64.size a ≤ S100000x64.size a) ∧
  (∀ a, (k3_off306 v444) a + S1x64.size a ≤ S100000x64.size a)
instance k3_chk50.dec : ∀ (v444 : BitVec 32), Decidable (k3_chk50 v444) := fun v444 => decidable_of_iff' _ (Iff.of_eq (k3_chk50.eq_1 v444))
theorem k3_off100_inb : ∀ (v444 : BitVec 32) (k3_hw50 : k3_chk50 v444), ∀ a, (k3_off100 v444) a + S1x64.size a ≤ S100000x64.size a := fun v444 k3_hw50 => k3_hw50.1
theorem k3_off306_inb : ∀ (v444 : BitVec 32) (k3_hw50 : k3_chk50 v444), ∀ a, (k3_off306 v444) a + S1x64.size a ≤ S100000x64.size a := fun v444 k3_hw50 => k3_hw50.2

def k3_off307 (v453 : BitVec 32) : Fin 2 → Nat :=
  let c0_i32_715 : BitVec 32 := 0#32
  ![v453.toNat, 0]

def k3_chk51 (v453 : BitVec 32) : Prop :=
  (∀ a, (k3_off102 v453) a + S1x64.size a ≤ S100000x64.size a) ∧
  (∀ a, (k3_off307 v453) a + S1x64.size a ≤ S100000x64.size a)
instance k3_chk51.dec : ∀ (v453 : BitVec 32), Decidable (k3_chk51 v453) := fun v453 => decidable_of_iff' _ (Iff.of_eq (k3_chk51.eq_1 v453))
theorem k3_off102_inb : ∀ (v453 : BitVec 32) (k3_hw51 : k3_chk51 v453), ∀ a, (k3_off102 v453) a + S1x64.size a ≤ S100000x64.size a := fun v453 k3_hw51 => k3_hw51.1
theorem k3_off307_inb : ∀ (v453 : BitVec 32) (k3_hw51 : k3_chk51 v453), ∀ a, (k3_off307 v453) a + S1x64.size a ≤ S100000x64.size a := fun v453 k3_hw51 => k3_hw51.2

def k3_off308 (v462 : BitVec 32) : Fin 2 → Nat :=
  let c0_i32_719 : BitVec 32 := 0#32
  ![v462.toNat, 0]

def k3_chk52 (v462 : BitVec 32) : Prop :=
  (∀ a, (k3_off104 v462) a + S1x64.size a ≤ S100000x64.size a) ∧
  (∀ a, (k3_off308 v462) a + S1x64.size a ≤ S100000x64.size a)
instance k3_chk52.dec : ∀ (v462 : BitVec 32), Decidable (k3_chk52 v462) := fun v462 => decidable_of_iff' _ (Iff.of_eq (k3_chk52.eq_1 v462))
theorem k3_off104_inb : ∀ (v462 : BitVec 32) (k3_hw52 : k3_chk52 v462), ∀ a, (k3_off104 v462) a + S1x64.size a ≤ S100000x64.size a := fun v462 k3_hw52 => k3_hw52.1
theorem k3_off308_inb : ∀ (v462 : BitVec 32) (k3_hw52 : k3_chk52 v462), ∀ a, (k3_off308 v462) a + S1x64.size a ≤ S100000x64.size a := fun v462 k3_hw52 => k3_hw52.2

def k3_off309 (v471 : BitVec 32) : Fin 2 → Nat :=
  let c0_i32_723 : BitVec 32 := 0#32
  ![v471.toNat, 0]

def k3_chk53 (v471 : BitVec 32) : Prop :=
  (∀ a, (k3_off106 v471) a + S1x64.size a ≤ S100000x64.size a) ∧
  (∀ a, (k3_off309 v471) a + S1x64.size a ≤ S100000x64.size a)
instance k3_chk53.dec : ∀ (v471 : BitVec 32), Decidable (k3_chk53 v471) := fun v471 => decidable_of_iff' _ (Iff.of_eq (k3_chk53.eq_1 v471))
theorem k3_off106_inb : ∀ (v471 : BitVec 32) (k3_hw53 : k3_chk53 v471), ∀ a, (k3_off106 v471) a + S1x64.size a ≤ S100000x64.size a := fun v471 k3_hw53 => k3_hw53.1
theorem k3_off309_inb : ∀ (v471 : BitVec 32) (k3_hw53 : k3_chk53 v471), ∀ a, (k3_off309 v471) a + S1x64.size a ≤ S100000x64.size a := fun v471 k3_hw53 => k3_hw53.2

def k3_off310 (v480 : BitVec 32) : Fin 2 → Nat :=
  let c0_i32_727 : BitVec 32 := 0#32
  ![v480.toNat, 0]

def k3_chk54 (v480 : BitVec 32) : Prop :=
  (∀ a, (k3_off108 v480) a + S1x64.size a ≤ S100000x64.size a) ∧
  (∀ a, (k3_off310 v480) a + S1x64.size a ≤ S100000x64.size a)
instance k3_chk54.dec : ∀ (v480 : BitVec 32), Decidable (k3_chk54 v480) := fun v480 => decidable_of_iff' _ (Iff.of_eq (k3_chk54.eq_1 v480))
theorem k3_off108_inb : ∀ (v480 : BitVec 32) (k3_hw54 : k3_chk54 v480), ∀ a, (k3_off108 v480) a + S1x64.size a ≤ S100000x64.size a := fun v480 k3_hw54 => k3_hw54.1
theorem k3_off310_inb : ∀ (v480 : BitVec 32) (k3_hw54 : k3_chk54 v480), ∀ a, (k3_off310 v480) a + S1x64.size a ≤ S100000x64.size a := fun v480 k3_hw54 => k3_hw54.2

def k3_off311 (v489 : BitVec 32) : Fin 2 → Nat :=
  let c0_i32_731 : BitVec 32 := 0#32
  ![v489.toNat, 0]

def k3_chk55 (v489 : BitVec 32) : Prop :=
  (∀ a, (k3_off110 v489) a + S1x64.size a ≤ S100000x64.size a) ∧
  (∀ a, (k3_off311 v489) a + S1x64.size a ≤ S100000x64.size a)
instance k3_chk55.dec : ∀ (v489 : BitVec 32), Decidable (k3_chk55 v489) := fun v489 => decidable_of_iff' _ (Iff.of_eq (k3_chk55.eq_1 v489))
theorem k3_off110_inb : ∀ (v489 : BitVec 32) (k3_hw55 : k3_chk55 v489), ∀ a, (k3_off110 v489) a + S1x64.size a ≤ S100000x64.size a := fun v489 k3_hw55 => k3_hw55.1
theorem k3_off311_inb : ∀ (v489 : BitVec 32) (k3_hw55 : k3_chk55 v489), ∀ a, (k3_off311 v489) a + S1x64.size a ≤ S100000x64.size a := fun v489 k3_hw55 => k3_hw55.2

def k3_off312 (v498 : BitVec 32) : Fin 2 → Nat :=
  let c0_i32_735 : BitVec 32 := 0#32
  ![v498.toNat, 0]

def k3_chk56 (v498 : BitVec 32) : Prop :=
  (∀ a, (k3_off112 v498) a + S1x64.size a ≤ S100000x64.size a) ∧
  (∀ a, (k3_off312 v498) a + S1x64.size a ≤ S100000x64.size a)
instance k3_chk56.dec : ∀ (v498 : BitVec 32), Decidable (k3_chk56 v498) := fun v498 => decidable_of_iff' _ (Iff.of_eq (k3_chk56.eq_1 v498))
theorem k3_off112_inb : ∀ (v498 : BitVec 32) (k3_hw56 : k3_chk56 v498), ∀ a, (k3_off112 v498) a + S1x64.size a ≤ S100000x64.size a := fun v498 k3_hw56 => k3_hw56.1
theorem k3_off312_inb : ∀ (v498 : BitVec 32) (k3_hw56 : k3_chk56 v498), ∀ a, (k3_off312 v498) a + S1x64.size a ≤ S100000x64.size a := fun v498 k3_hw56 => k3_hw56.2

def k3_off313 (v507 : BitVec 32) : Fin 2 → Nat :=
  let c0_i32_739 : BitVec 32 := 0#32
  ![v507.toNat, 0]

def k3_chk57 (v507 : BitVec 32) : Prop :=
  (∀ a, (k3_off114 v507) a + S1x64.size a ≤ S100000x64.size a) ∧
  (∀ a, (k3_off313 v507) a + S1x64.size a ≤ S100000x64.size a)
instance k3_chk57.dec : ∀ (v507 : BitVec 32), Decidable (k3_chk57 v507) := fun v507 => decidable_of_iff' _ (Iff.of_eq (k3_chk57.eq_1 v507))
theorem k3_off114_inb : ∀ (v507 : BitVec 32) (k3_hw57 : k3_chk57 v507), ∀ a, (k3_off114 v507) a + S1x64.size a ≤ S100000x64.size a := fun v507 k3_hw57 => k3_hw57.1
theorem k3_off313_inb : ∀ (v507 : BitVec 32) (k3_hw57 : k3_chk57 v507), ∀ a, (k3_off313 v507) a + S1x64.size a ≤ S100000x64.size a := fun v507 k3_hw57 => k3_hw57.2

def k3_off314 (v516 : BitVec 32) : Fin 2 → Nat :=
  let c0_i32_743 : BitVec 32 := 0#32
  ![v516.toNat, 0]

def k3_chk58 (v516 : BitVec 32) : Prop :=
  (∀ a, (k3_off116 v516) a + S1x64.size a ≤ S100000x64.size a) ∧
  (∀ a, (k3_off314 v516) a + S1x64.size a ≤ S100000x64.size a)
instance k3_chk58.dec : ∀ (v516 : BitVec 32), Decidable (k3_chk58 v516) := fun v516 => decidable_of_iff' _ (Iff.of_eq (k3_chk58.eq_1 v516))
theorem k3_off116_inb : ∀ (v516 : BitVec 32) (k3_hw58 : k3_chk58 v516), ∀ a, (k3_off116 v516) a + S1x64.size a ≤ S100000x64.size a := fun v516 k3_hw58 => k3_hw58.1
theorem k3_off314_inb : ∀ (v516 : BitVec 32) (k3_hw58 : k3_chk58 v516), ∀ a, (k3_off314 v516) a + S1x64.size a ≤ S100000x64.size a := fun v516 k3_hw58 => k3_hw58.2

def k3_off315 (v525 : BitVec 32) : Fin 2 → Nat :=
  let c0_i32_747 : BitVec 32 := 0#32
  ![v525.toNat, 0]

def k3_chk59 (v525 : BitVec 32) : Prop :=
  (∀ a, (k3_off118 v525) a + S1x64.size a ≤ S100000x64.size a) ∧
  (∀ a, (k3_off315 v525) a + S1x64.size a ≤ S100000x64.size a)
instance k3_chk59.dec : ∀ (v525 : BitVec 32), Decidable (k3_chk59 v525) := fun v525 => decidable_of_iff' _ (Iff.of_eq (k3_chk59.eq_1 v525))
theorem k3_off118_inb : ∀ (v525 : BitVec 32) (k3_hw59 : k3_chk59 v525), ∀ a, (k3_off118 v525) a + S1x64.size a ≤ S100000x64.size a := fun v525 k3_hw59 => k3_hw59.1
theorem k3_off315_inb : ∀ (v525 : BitVec 32) (k3_hw59 : k3_chk59 v525), ∀ a, (k3_off315 v525) a + S1x64.size a ≤ S100000x64.size a := fun v525 k3_hw59 => k3_hw59.2

def k3_off316 (v534 : BitVec 32) : Fin 2 → Nat :=
  let c0_i32_751 : BitVec 32 := 0#32
  ![v534.toNat, 0]

def k3_chk60 (v534 : BitVec 32) : Prop :=
  (∀ a, (k3_off120 v534) a + S1x64.size a ≤ S100000x64.size a) ∧
  (∀ a, (k3_off316 v534) a + S1x64.size a ≤ S100000x64.size a)
instance k3_chk60.dec : ∀ (v534 : BitVec 32), Decidable (k3_chk60 v534) := fun v534 => decidable_of_iff' _ (Iff.of_eq (k3_chk60.eq_1 v534))
theorem k3_off120_inb : ∀ (v534 : BitVec 32) (k3_hw60 : k3_chk60 v534), ∀ a, (k3_off120 v534) a + S1x64.size a ≤ S100000x64.size a := fun v534 k3_hw60 => k3_hw60.1
theorem k3_off316_inb : ∀ (v534 : BitVec 32) (k3_hw60 : k3_chk60 v534), ∀ a, (k3_off316 v534) a + S1x64.size a ≤ S100000x64.size a := fun v534 k3_hw60 => k3_hw60.2

def k3_off317 (v543 : BitVec 32) : Fin 2 → Nat :=
  let c0_i32_755 : BitVec 32 := 0#32
  ![v543.toNat, 0]

def k3_chk61 (v543 : BitVec 32) : Prop :=
  (∀ a, (k3_off122 v543) a + S1x64.size a ≤ S100000x64.size a) ∧
  (∀ a, (k3_off317 v543) a + S1x64.size a ≤ S100000x64.size a)
instance k3_chk61.dec : ∀ (v543 : BitVec 32), Decidable (k3_chk61 v543) := fun v543 => decidable_of_iff' _ (Iff.of_eq (k3_chk61.eq_1 v543))
theorem k3_off122_inb : ∀ (v543 : BitVec 32) (k3_hw61 : k3_chk61 v543), ∀ a, (k3_off122 v543) a + S1x64.size a ≤ S100000x64.size a := fun v543 k3_hw61 => k3_hw61.1
theorem k3_off317_inb : ∀ (v543 : BitVec 32) (k3_hw61 : k3_chk61 v543), ∀ a, (k3_off317 v543) a + S1x64.size a ≤ S100000x64.size a := fun v543 k3_hw61 => k3_hw61.2

def k3_off318 (v552 : BitVec 32) : Fin 2 → Nat :=
  let c0_i32_759 : BitVec 32 := 0#32
  ![v552.toNat, 0]

def k3_chk62 (v552 : BitVec 32) : Prop :=
  (∀ a, (k3_off124 v552) a + S1x64.size a ≤ S100000x64.size a) ∧
  (∀ a, (k3_off318 v552) a + S1x64.size a ≤ S100000x64.size a)
instance k3_chk62.dec : ∀ (v552 : BitVec 32), Decidable (k3_chk62 v552) := fun v552 => decidable_of_iff' _ (Iff.of_eq (k3_chk62.eq_1 v552))
theorem k3_off124_inb : ∀ (v552 : BitVec 32) (k3_hw62 : k3_chk62 v552), ∀ a, (k3_off124 v552) a + S1x64.size a ≤ S100000x64.size a := fun v552 k3_hw62 => k3_hw62.1
theorem k3_off318_inb : ∀ (v552 : BitVec 32) (k3_hw62 : k3_chk62 v552), ∀ a, (k3_off318 v552) a + S1x64.size a ≤ S100000x64.size a := fun v552 k3_hw62 => k3_hw62.2

def k3_off319 (v561 : BitVec 32) : Fin 2 → Nat :=
  let c0_i32_763 : BitVec 32 := 0#32
  ![v561.toNat, 0]

def k3_chk63 (v561 : BitVec 32) : Prop :=
  (∀ a, (k3_off126 v561) a + S1x64.size a ≤ S100000x64.size a) ∧
  (∀ a, (k3_off319 v561) a + S1x64.size a ≤ S100000x64.size a)
instance k3_chk63.dec : ∀ (v561 : BitVec 32), Decidable (k3_chk63 v561) := fun v561 => decidable_of_iff' _ (Iff.of_eq (k3_chk63.eq_1 v561))
theorem k3_off126_inb : ∀ (v561 : BitVec 32) (k3_hw63 : k3_chk63 v561), ∀ a, (k3_off126 v561) a + S1x64.size a ≤ S100000x64.size a := fun v561 k3_hw63 => k3_hw63.1
theorem k3_off319_inb : ∀ (v561 : BitVec 32) (k3_hw63 : k3_chk63 v561), ∀ a, (k3_off319 v561) a + S1x64.size a ≤ S100000x64.size a := fun v561 k3_hw63 => k3_hw63.2

def k3_off320 (v570 : BitVec 32) : Fin 2 → Nat :=
  let c0_i32_767 : BitVec 32 := 0#32
  ![v570.toNat, 0]

def k3_chk64 (v570 : BitVec 32) : Prop :=
  (∀ a, (k3_off128 v570) a + S1x64.size a ≤ S100000x64.size a) ∧
  (∀ a, (k3_off320 v570) a + S1x64.size a ≤ S100000x64.size a)
instance k3_chk64.dec : ∀ (v570 : BitVec 32), Decidable (k3_chk64 v570) := fun v570 => decidable_of_iff' _ (Iff.of_eq (k3_chk64.eq_1 v570))
theorem k3_off128_inb : ∀ (v570 : BitVec 32) (k3_hw64 : k3_chk64 v570), ∀ a, (k3_off128 v570) a + S1x64.size a ≤ S100000x64.size a := fun v570 k3_hw64 => k3_hw64.1
theorem k3_off320_inb : ∀ (v570 : BitVec 32) (k3_hw64 : k3_chk64 v570), ∀ a, (k3_off320 v570) a + S1x64.size a ≤ S100000x64.size a := fun v570 k3_hw64 => k3_hw64.2

def k3_off321 (v579 : BitVec 32) : Fin 2 → Nat :=
  let c0_i32_771 : BitVec 32 := 0#32
  ![v579.toNat, 0]

def k3_chk65 (v579 : BitVec 32) : Prop :=
  (∀ a, (k3_off130 v579) a + S1x64.size a ≤ S100000x64.size a) ∧
  (∀ a, (k3_off321 v579) a + S1x64.size a ≤ S100000x64.size a)
instance k3_chk65.dec : ∀ (v579 : BitVec 32), Decidable (k3_chk65 v579) := fun v579 => decidable_of_iff' _ (Iff.of_eq (k3_chk65.eq_1 v579))
theorem k3_off130_inb : ∀ (v579 : BitVec 32) (k3_hw65 : k3_chk65 v579), ∀ a, (k3_off130 v579) a + S1x64.size a ≤ S100000x64.size a := fun v579 k3_hw65 => k3_hw65.1
theorem k3_off321_inb : ∀ (v579 : BitVec 32) (k3_hw65 : k3_chk65 v579), ∀ a, (k3_off321 v579) a + S1x64.size a ≤ S100000x64.size a := fun v579 k3_hw65 => k3_hw65.2

def k3_off322 (v588 : BitVec 32) : Fin 2 → Nat :=
  let c0_i32_775 : BitVec 32 := 0#32
  ![v588.toNat, 0]

def k3_chk66 (v588 : BitVec 32) : Prop :=
  (∀ a, (k3_off132 v588) a + S1x64.size a ≤ S100000x64.size a) ∧
  (∀ a, (k3_off322 v588) a + S1x64.size a ≤ S100000x64.size a)
instance k3_chk66.dec : ∀ (v588 : BitVec 32), Decidable (k3_chk66 v588) := fun v588 => decidable_of_iff' _ (Iff.of_eq (k3_chk66.eq_1 v588))
theorem k3_off132_inb : ∀ (v588 : BitVec 32) (k3_hw66 : k3_chk66 v588), ∀ a, (k3_off132 v588) a + S1x64.size a ≤ S100000x64.size a := fun v588 k3_hw66 => k3_hw66.1
theorem k3_off322_inb : ∀ (v588 : BitVec 32) (k3_hw66 : k3_chk66 v588), ∀ a, (k3_off322 v588) a + S1x64.size a ≤ S100000x64.size a := fun v588 k3_hw66 => k3_hw66.2

def k3_off323 (v597 : BitVec 32) : Fin 2 → Nat :=
  let c0_i32_779 : BitVec 32 := 0#32
  ![v597.toNat, 0]

def k3_chk67 (v597 : BitVec 32) : Prop :=
  (∀ a, (k3_off134 v597) a + S1x64.size a ≤ S100000x64.size a) ∧
  (∀ a, (k3_off323 v597) a + S1x64.size a ≤ S100000x64.size a)
instance k3_chk67.dec : ∀ (v597 : BitVec 32), Decidable (k3_chk67 v597) := fun v597 => decidable_of_iff' _ (Iff.of_eq (k3_chk67.eq_1 v597))
theorem k3_off134_inb : ∀ (v597 : BitVec 32) (k3_hw67 : k3_chk67 v597), ∀ a, (k3_off134 v597) a + S1x64.size a ≤ S100000x64.size a := fun v597 k3_hw67 => k3_hw67.1
theorem k3_off323_inb : ∀ (v597 : BitVec 32) (k3_hw67 : k3_chk67 v597), ∀ a, (k3_off323 v597) a + S1x64.size a ≤ S100000x64.size a := fun v597 k3_hw67 => k3_hw67.2

def k3_off324 (v606 : BitVec 32) : Fin 2 → Nat :=
  let c0_i32_783 : BitVec 32 := 0#32
  ![v606.toNat, 0]

def k3_chk68 (v606 : BitVec 32) : Prop :=
  (∀ a, (k3_off136 v606) a + S1x64.size a ≤ S100000x64.size a) ∧
  (∀ a, (k3_off324 v606) a + S1x64.size a ≤ S100000x64.size a)
instance k3_chk68.dec : ∀ (v606 : BitVec 32), Decidable (k3_chk68 v606) := fun v606 => decidable_of_iff' _ (Iff.of_eq (k3_chk68.eq_1 v606))
theorem k3_off136_inb : ∀ (v606 : BitVec 32) (k3_hw68 : k3_chk68 v606), ∀ a, (k3_off136 v606) a + S1x64.size a ≤ S100000x64.size a := fun v606 k3_hw68 => k3_hw68.1
theorem k3_off324_inb : ∀ (v606 : BitVec 32) (k3_hw68 : k3_chk68 v606), ∀ a, (k3_off324 v606) a + S1x64.size a ≤ S100000x64.size a := fun v606 k3_hw68 => k3_hw68.2

def k3_off325 (v615 : BitVec 32) : Fin 2 → Nat :=
  let c0_i32_787 : BitVec 32 := 0#32
  ![v615.toNat, 0]

def k3_chk69 (v615 : BitVec 32) : Prop :=
  (∀ a, (k3_off138 v615) a + S1x64.size a ≤ S100000x64.size a) ∧
  (∀ a, (k3_off325 v615) a + S1x64.size a ≤ S100000x64.size a)
instance k3_chk69.dec : ∀ (v615 : BitVec 32), Decidable (k3_chk69 v615) := fun v615 => decidable_of_iff' _ (Iff.of_eq (k3_chk69.eq_1 v615))
theorem k3_off138_inb : ∀ (v615 : BitVec 32) (k3_hw69 : k3_chk69 v615), ∀ a, (k3_off138 v615) a + S1x64.size a ≤ S100000x64.size a := fun v615 k3_hw69 => k3_hw69.1
theorem k3_off325_inb : ∀ (v615 : BitVec 32) (k3_hw69 : k3_chk69 v615), ∀ a, (k3_off325 v615) a + S1x64.size a ≤ S100000x64.size a := fun v615 k3_hw69 => k3_hw69.2

def k3_off326 (v624 : BitVec 32) : Fin 2 → Nat :=
  let c0_i32_791 : BitVec 32 := 0#32
  ![v624.toNat, 0]

def k3_chk70 (v624 : BitVec 32) : Prop :=
  (∀ a, (k3_off140 v624) a + S1x64.size a ≤ S100000x64.size a) ∧
  (∀ a, (k3_off326 v624) a + S1x64.size a ≤ S100000x64.size a)
instance k3_chk70.dec : ∀ (v624 : BitVec 32), Decidable (k3_chk70 v624) := fun v624 => decidable_of_iff' _ (Iff.of_eq (k3_chk70.eq_1 v624))
theorem k3_off140_inb : ∀ (v624 : BitVec 32) (k3_hw70 : k3_chk70 v624), ∀ a, (k3_off140 v624) a + S1x64.size a ≤ S100000x64.size a := fun v624 k3_hw70 => k3_hw70.1
theorem k3_off326_inb : ∀ (v624 : BitVec 32) (k3_hw70 : k3_chk70 v624), ∀ a, (k3_off326 v624) a + S1x64.size a ≤ S100000x64.size a := fun v624 k3_hw70 => k3_hw70.2

def k3_off327 (v633 : BitVec 32) : Fin 2 → Nat :=
  let c0_i32_795 : BitVec 32 := 0#32
  ![v633.toNat, 0]

def k3_chk71 (v633 : BitVec 32) : Prop :=
  (∀ a, (k3_off142 v633) a + S1x64.size a ≤ S100000x64.size a) ∧
  (∀ a, (k3_off327 v633) a + S1x64.size a ≤ S100000x64.size a)
instance k3_chk71.dec : ∀ (v633 : BitVec 32), Decidable (k3_chk71 v633) := fun v633 => decidable_of_iff' _ (Iff.of_eq (k3_chk71.eq_1 v633))
theorem k3_off142_inb : ∀ (v633 : BitVec 32) (k3_hw71 : k3_chk71 v633), ∀ a, (k3_off142 v633) a + S1x64.size a ≤ S100000x64.size a := fun v633 k3_hw71 => k3_hw71.1
theorem k3_off327_inb : ∀ (v633 : BitVec 32) (k3_hw71 : k3_chk71 v633), ∀ a, (k3_off327 v633) a + S1x64.size a ≤ S100000x64.size a := fun v633 k3_hw71 => k3_hw71.2

def k3_off328 (v642 : BitVec 32) : Fin 2 → Nat :=
  let c0_i32_799 : BitVec 32 := 0#32
  ![v642.toNat, 0]

def k3_chk72 (v642 : BitVec 32) : Prop :=
  (∀ a, (k3_off144 v642) a + S1x64.size a ≤ S100000x64.size a) ∧
  (∀ a, (k3_off328 v642) a + S1x64.size a ≤ S100000x64.size a)
instance k3_chk72.dec : ∀ (v642 : BitVec 32), Decidable (k3_chk72 v642) := fun v642 => decidable_of_iff' _ (Iff.of_eq (k3_chk72.eq_1 v642))
theorem k3_off144_inb : ∀ (v642 : BitVec 32) (k3_hw72 : k3_chk72 v642), ∀ a, (k3_off144 v642) a + S1x64.size a ≤ S100000x64.size a := fun v642 k3_hw72 => k3_hw72.1
theorem k3_off328_inb : ∀ (v642 : BitVec 32) (k3_hw72 : k3_chk72 v642), ∀ a, (k3_off328 v642) a + S1x64.size a ≤ S100000x64.size a := fun v642 k3_hw72 => k3_hw72.2

def k3_off329 (v651 : BitVec 32) : Fin 2 → Nat :=
  let c0_i32_803 : BitVec 32 := 0#32
  ![v651.toNat, 0]

def k3_chk73 (v651 : BitVec 32) : Prop :=
  (∀ a, (k3_off146 v651) a + S1x64.size a ≤ S100000x64.size a) ∧
  (∀ a, (k3_off329 v651) a + S1x64.size a ≤ S100000x64.size a)
instance k3_chk73.dec : ∀ (v651 : BitVec 32), Decidable (k3_chk73 v651) := fun v651 => decidable_of_iff' _ (Iff.of_eq (k3_chk73.eq_1 v651))
theorem k3_off146_inb : ∀ (v651 : BitVec 32) (k3_hw73 : k3_chk73 v651), ∀ a, (k3_off146 v651) a + S1x64.size a ≤ S100000x64.size a := fun v651 k3_hw73 => k3_hw73.1
theorem k3_off329_inb : ∀ (v651 : BitVec 32) (k3_hw73 : k3_chk73 v651), ∀ a, (k3_off329 v651) a + S1x64.size a ≤ S100000x64.size a := fun v651 k3_hw73 => k3_hw73.2

def k3_off330 (v660 : BitVec 32) : Fin 2 → Nat :=
  let c0_i32_807 : BitVec 32 := 0#32
  ![v660.toNat, 0]

def k3_chk74 (v660 : BitVec 32) : Prop :=
  (∀ a, (k3_off148 v660) a + S1x64.size a ≤ S100000x64.size a) ∧
  (∀ a, (k3_off330 v660) a + S1x64.size a ≤ S100000x64.size a)
instance k3_chk74.dec : ∀ (v660 : BitVec 32), Decidable (k3_chk74 v660) := fun v660 => decidable_of_iff' _ (Iff.of_eq (k3_chk74.eq_1 v660))
theorem k3_off148_inb : ∀ (v660 : BitVec 32) (k3_hw74 : k3_chk74 v660), ∀ a, (k3_off148 v660) a + S1x64.size a ≤ S100000x64.size a := fun v660 k3_hw74 => k3_hw74.1
theorem k3_off330_inb : ∀ (v660 : BitVec 32) (k3_hw74 : k3_chk74 v660), ∀ a, (k3_off330 v660) a + S1x64.size a ≤ S100000x64.size a := fun v660 k3_hw74 => k3_hw74.2

def k3_off331 (v669 : BitVec 32) : Fin 2 → Nat :=
  let c0_i32_811 : BitVec 32 := 0#32
  ![v669.toNat, 0]

def k3_chk75 (v669 : BitVec 32) : Prop :=
  (∀ a, (k3_off150 v669) a + S1x64.size a ≤ S100000x64.size a) ∧
  (∀ a, (k3_off331 v669) a + S1x64.size a ≤ S100000x64.size a)
instance k3_chk75.dec : ∀ (v669 : BitVec 32), Decidable (k3_chk75 v669) := fun v669 => decidable_of_iff' _ (Iff.of_eq (k3_chk75.eq_1 v669))
theorem k3_off150_inb : ∀ (v669 : BitVec 32) (k3_hw75 : k3_chk75 v669), ∀ a, (k3_off150 v669) a + S1x64.size a ≤ S100000x64.size a := fun v669 k3_hw75 => k3_hw75.1
theorem k3_off331_inb : ∀ (v669 : BitVec 32) (k3_hw75 : k3_chk75 v669), ∀ a, (k3_off331 v669) a + S1x64.size a ≤ S100000x64.size a := fun v669 k3_hw75 => k3_hw75.2

def k3_off332 (v678 : BitVec 32) : Fin 2 → Nat :=
  let c0_i32_815 : BitVec 32 := 0#32
  ![v678.toNat, 0]

def k3_chk76 (v678 : BitVec 32) : Prop :=
  (∀ a, (k3_off152 v678) a + S1x64.size a ≤ S100000x64.size a) ∧
  (∀ a, (k3_off332 v678) a + S1x64.size a ≤ S100000x64.size a)
instance k3_chk76.dec : ∀ (v678 : BitVec 32), Decidable (k3_chk76 v678) := fun v678 => decidable_of_iff' _ (Iff.of_eq (k3_chk76.eq_1 v678))
theorem k3_off152_inb : ∀ (v678 : BitVec 32) (k3_hw76 : k3_chk76 v678), ∀ a, (k3_off152 v678) a + S1x64.size a ≤ S100000x64.size a := fun v678 k3_hw76 => k3_hw76.1
theorem k3_off332_inb : ∀ (v678 : BitVec 32) (k3_hw76 : k3_chk76 v678), ∀ a, (k3_off332 v678) a + S1x64.size a ≤ S100000x64.size a := fun v678 k3_hw76 => k3_hw76.2

def k3_off333 (v687 : BitVec 32) : Fin 2 → Nat :=
  let c0_i32_819 : BitVec 32 := 0#32
  ![v687.toNat, 0]

def k3_chk77 (v687 : BitVec 32) : Prop :=
  (∀ a, (k3_off154 v687) a + S1x64.size a ≤ S100000x64.size a) ∧
  (∀ a, (k3_off333 v687) a + S1x64.size a ≤ S100000x64.size a)
instance k3_chk77.dec : ∀ (v687 : BitVec 32), Decidable (k3_chk77 v687) := fun v687 => decidable_of_iff' _ (Iff.of_eq (k3_chk77.eq_1 v687))
theorem k3_off154_inb : ∀ (v687 : BitVec 32) (k3_hw77 : k3_chk77 v687), ∀ a, (k3_off154 v687) a + S1x64.size a ≤ S100000x64.size a := fun v687 k3_hw77 => k3_hw77.1
theorem k3_off333_inb : ∀ (v687 : BitVec 32) (k3_hw77 : k3_chk77 v687), ∀ a, (k3_off333 v687) a + S1x64.size a ≤ S100000x64.size a := fun v687 k3_hw77 => k3_hw77.2

def k3_off334 (v696 : BitVec 32) : Fin 2 → Nat :=
  let c0_i32_823 : BitVec 32 := 0#32
  ![v696.toNat, 0]

def k3_chk78 (v696 : BitVec 32) : Prop :=
  (∀ a, (k3_off156 v696) a + S1x64.size a ≤ S100000x64.size a) ∧
  (∀ a, (k3_off334 v696) a + S1x64.size a ≤ S100000x64.size a)
instance k3_chk78.dec : ∀ (v696 : BitVec 32), Decidable (k3_chk78 v696) := fun v696 => decidable_of_iff' _ (Iff.of_eq (k3_chk78.eq_1 v696))
theorem k3_off156_inb : ∀ (v696 : BitVec 32) (k3_hw78 : k3_chk78 v696), ∀ a, (k3_off156 v696) a + S1x64.size a ≤ S100000x64.size a := fun v696 k3_hw78 => k3_hw78.1
theorem k3_off334_inb : ∀ (v696 : BitVec 32) (k3_hw78 : k3_chk78 v696), ∀ a, (k3_off334 v696) a + S1x64.size a ≤ S100000x64.size a := fun v696 k3_hw78 => k3_hw78.2

def k3_off335 (v705 : BitVec 32) : Fin 2 → Nat :=
  let c0_i32_827 : BitVec 32 := 0#32
  ![v705.toNat, 0]

def k3_chk79 (v705 : BitVec 32) : Prop :=
  (∀ a, (k3_off158 v705) a + S1x64.size a ≤ S100000x64.size a) ∧
  (∀ a, (k3_off335 v705) a + S1x64.size a ≤ S100000x64.size a)
instance k3_chk79.dec : ∀ (v705 : BitVec 32), Decidable (k3_chk79 v705) := fun v705 => decidable_of_iff' _ (Iff.of_eq (k3_chk79.eq_1 v705))
theorem k3_off158_inb : ∀ (v705 : BitVec 32) (k3_hw79 : k3_chk79 v705), ∀ a, (k3_off158 v705) a + S1x64.size a ≤ S100000x64.size a := fun v705 k3_hw79 => k3_hw79.1
theorem k3_off335_inb : ∀ (v705 : BitVec 32) (k3_hw79 : k3_chk79 v705), ∀ a, (k3_off335 v705) a + S1x64.size a ≤ S100000x64.size a := fun v705 k3_hw79 => k3_hw79.2

def k3_off336 (v714 : BitVec 32) : Fin 2 → Nat :=
  let c0_i32_831 : BitVec 32 := 0#32
  ![v714.toNat, 0]

def k3_chk80 (v714 : BitVec 32) : Prop :=
  (∀ a, (k3_off160 v714) a + S1x64.size a ≤ S100000x64.size a) ∧
  (∀ a, (k3_off336 v714) a + S1x64.size a ≤ S100000x64.size a)
instance k3_chk80.dec : ∀ (v714 : BitVec 32), Decidable (k3_chk80 v714) := fun v714 => decidable_of_iff' _ (Iff.of_eq (k3_chk80.eq_1 v714))
theorem k3_off160_inb : ∀ (v714 : BitVec 32) (k3_hw80 : k3_chk80 v714), ∀ a, (k3_off160 v714) a + S1x64.size a ≤ S100000x64.size a := fun v714 k3_hw80 => k3_hw80.1
theorem k3_off336_inb : ∀ (v714 : BitVec 32) (k3_hw80 : k3_chk80 v714), ∀ a, (k3_off336 v714) a + S1x64.size a ≤ S100000x64.size a := fun v714 k3_hw80 => k3_hw80.2

def k3_off337 (v723 : BitVec 32) : Fin 2 → Nat :=
  let c0_i32_835 : BitVec 32 := 0#32
  ![v723.toNat, 0]

def k3_chk81 (v723 : BitVec 32) : Prop :=
  (∀ a, (k3_off162 v723) a + S1x64.size a ≤ S100000x64.size a) ∧
  (∀ a, (k3_off337 v723) a + S1x64.size a ≤ S100000x64.size a)
instance k3_chk81.dec : ∀ (v723 : BitVec 32), Decidable (k3_chk81 v723) := fun v723 => decidable_of_iff' _ (Iff.of_eq (k3_chk81.eq_1 v723))
theorem k3_off162_inb : ∀ (v723 : BitVec 32) (k3_hw81 : k3_chk81 v723), ∀ a, (k3_off162 v723) a + S1x64.size a ≤ S100000x64.size a := fun v723 k3_hw81 => k3_hw81.1
theorem k3_off337_inb : ∀ (v723 : BitVec 32) (k3_hw81 : k3_chk81 v723), ∀ a, (k3_off337 v723) a + S1x64.size a ≤ S100000x64.size a := fun v723 k3_hw81 => k3_hw81.2

def k3_off338 (v732 : BitVec 32) : Fin 2 → Nat :=
  let c0_i32_839 : BitVec 32 := 0#32
  ![v732.toNat, 0]

def k3_chk82 (v732 : BitVec 32) : Prop :=
  (∀ a, (k3_off164 v732) a + S1x64.size a ≤ S100000x64.size a) ∧
  (∀ a, (k3_off338 v732) a + S1x64.size a ≤ S100000x64.size a)
instance k3_chk82.dec : ∀ (v732 : BitVec 32), Decidable (k3_chk82 v732) := fun v732 => decidable_of_iff' _ (Iff.of_eq (k3_chk82.eq_1 v732))
theorem k3_off164_inb : ∀ (v732 : BitVec 32) (k3_hw82 : k3_chk82 v732), ∀ a, (k3_off164 v732) a + S1x64.size a ≤ S100000x64.size a := fun v732 k3_hw82 => k3_hw82.1
theorem k3_off338_inb : ∀ (v732 : BitVec 32) (k3_hw82 : k3_chk82 v732), ∀ a, (k3_off338 v732) a + S1x64.size a ≤ S100000x64.size a := fun v732 k3_hw82 => k3_hw82.2

def k3_off339 (v741 : BitVec 32) : Fin 2 → Nat :=
  let c0_i32_843 : BitVec 32 := 0#32
  ![v741.toNat, 0]

def k3_chk83 (v741 : BitVec 32) : Prop :=
  (∀ a, (k3_off166 v741) a + S1x64.size a ≤ S100000x64.size a) ∧
  (∀ a, (k3_off339 v741) a + S1x64.size a ≤ S100000x64.size a)
instance k3_chk83.dec : ∀ (v741 : BitVec 32), Decidable (k3_chk83 v741) := fun v741 => decidable_of_iff' _ (Iff.of_eq (k3_chk83.eq_1 v741))
theorem k3_off166_inb : ∀ (v741 : BitVec 32) (k3_hw83 : k3_chk83 v741), ∀ a, (k3_off166 v741) a + S1x64.size a ≤ S100000x64.size a := fun v741 k3_hw83 => k3_hw83.1
theorem k3_off339_inb : ∀ (v741 : BitVec 32) (k3_hw83 : k3_chk83 v741), ∀ a, (k3_off339 v741) a + S1x64.size a ≤ S100000x64.size a := fun v741 k3_hw83 => k3_hw83.2

def k3_off340 (v750 : BitVec 32) : Fin 2 → Nat :=
  let c0_i32_847 : BitVec 32 := 0#32
  ![v750.toNat, 0]

def k3_chk84 (v750 : BitVec 32) : Prop :=
  (∀ a, (k3_off168 v750) a + S1x64.size a ≤ S100000x64.size a) ∧
  (∀ a, (k3_off340 v750) a + S1x64.size a ≤ S100000x64.size a)
instance k3_chk84.dec : ∀ (v750 : BitVec 32), Decidable (k3_chk84 v750) := fun v750 => decidable_of_iff' _ (Iff.of_eq (k3_chk84.eq_1 v750))
theorem k3_off168_inb : ∀ (v750 : BitVec 32) (k3_hw84 : k3_chk84 v750), ∀ a, (k3_off168 v750) a + S1x64.size a ≤ S100000x64.size a := fun v750 k3_hw84 => k3_hw84.1
theorem k3_off340_inb : ∀ (v750 : BitVec 32) (k3_hw84 : k3_chk84 v750), ∀ a, (k3_off340 v750) a + S1x64.size a ≤ S100000x64.size a := fun v750 k3_hw84 => k3_hw84.2

def k3_off341 (v759 : BitVec 32) : Fin 2 → Nat :=
  let c0_i32_851 : BitVec 32 := 0#32
  ![v759.toNat, 0]

def k3_chk85 (v759 : BitVec 32) : Prop :=
  (∀ a, (k3_off170 v759) a + S1x64.size a ≤ S100000x64.size a) ∧
  (∀ a, (k3_off341 v759) a + S1x64.size a ≤ S100000x64.size a)
instance k3_chk85.dec : ∀ (v759 : BitVec 32), Decidable (k3_chk85 v759) := fun v759 => decidable_of_iff' _ (Iff.of_eq (k3_chk85.eq_1 v759))
theorem k3_off170_inb : ∀ (v759 : BitVec 32) (k3_hw85 : k3_chk85 v759), ∀ a, (k3_off170 v759) a + S1x64.size a ≤ S100000x64.size a := fun v759 k3_hw85 => k3_hw85.1
theorem k3_off341_inb : ∀ (v759 : BitVec 32) (k3_hw85 : k3_chk85 v759), ∀ a, (k3_off341 v759) a + S1x64.size a ≤ S100000x64.size a := fun v759 k3_hw85 => k3_hw85.2

def k3_off342 (v768 : BitVec 32) : Fin 2 → Nat :=
  let c0_i32_855 : BitVec 32 := 0#32
  ![v768.toNat, 0]

def k3_chk86 (v768 : BitVec 32) : Prop :=
  (∀ a, (k3_off172 v768) a + S1x64.size a ≤ S100000x64.size a) ∧
  (∀ a, (k3_off342 v768) a + S1x64.size a ≤ S100000x64.size a)
instance k3_chk86.dec : ∀ (v768 : BitVec 32), Decidable (k3_chk86 v768) := fun v768 => decidable_of_iff' _ (Iff.of_eq (k3_chk86.eq_1 v768))
theorem k3_off172_inb : ∀ (v768 : BitVec 32) (k3_hw86 : k3_chk86 v768), ∀ a, (k3_off172 v768) a + S1x64.size a ≤ S100000x64.size a := fun v768 k3_hw86 => k3_hw86.1
theorem k3_off342_inb : ∀ (v768 : BitVec 32) (k3_hw86 : k3_chk86 v768), ∀ a, (k3_off342 v768) a + S1x64.size a ≤ S100000x64.size a := fun v768 k3_hw86 => k3_hw86.2

def k3_off343 (v777 : BitVec 32) : Fin 2 → Nat :=
  let c0_i32_859 : BitVec 32 := 0#32
  ![v777.toNat, 0]

def k3_chk87 (v777 : BitVec 32) : Prop :=
  (∀ a, (k3_off174 v777) a + S1x64.size a ≤ S100000x64.size a) ∧
  (∀ a, (k3_off343 v777) a + S1x64.size a ≤ S100000x64.size a)
instance k3_chk87.dec : ∀ (v777 : BitVec 32), Decidable (k3_chk87 v777) := fun v777 => decidable_of_iff' _ (Iff.of_eq (k3_chk87.eq_1 v777))
theorem k3_off174_inb : ∀ (v777 : BitVec 32) (k3_hw87 : k3_chk87 v777), ∀ a, (k3_off174 v777) a + S1x64.size a ≤ S100000x64.size a := fun v777 k3_hw87 => k3_hw87.1
theorem k3_off343_inb : ∀ (v777 : BitVec 32) (k3_hw87 : k3_chk87 v777), ∀ a, (k3_off343 v777) a + S1x64.size a ≤ S100000x64.size a := fun v777 k3_hw87 => k3_hw87.2

def k3_off344 (v786 : BitVec 32) : Fin 2 → Nat :=
  let c0_i32_863 : BitVec 32 := 0#32
  ![v786.toNat, 0]

def k3_chk88 (v786 : BitVec 32) : Prop :=
  (∀ a, (k3_off176 v786) a + S1x64.size a ≤ S100000x64.size a) ∧
  (∀ a, (k3_off344 v786) a + S1x64.size a ≤ S100000x64.size a)
instance k3_chk88.dec : ∀ (v786 : BitVec 32), Decidable (k3_chk88 v786) := fun v786 => decidable_of_iff' _ (Iff.of_eq (k3_chk88.eq_1 v786))
theorem k3_off176_inb : ∀ (v786 : BitVec 32) (k3_hw88 : k3_chk88 v786), ∀ a, (k3_off176 v786) a + S1x64.size a ≤ S100000x64.size a := fun v786 k3_hw88 => k3_hw88.1
theorem k3_off344_inb : ∀ (v786 : BitVec 32) (k3_hw88 : k3_chk88 v786), ∀ a, (k3_off344 v786) a + S1x64.size a ≤ S100000x64.size a := fun v786 k3_hw88 => k3_hw88.2

def k3_off345 (v795 : BitVec 32) : Fin 2 → Nat :=
  let c0_i32_867 : BitVec 32 := 0#32
  ![v795.toNat, 0]

def k3_chk89 (v795 : BitVec 32) : Prop :=
  (∀ a, (k3_off178 v795) a + S1x64.size a ≤ S100000x64.size a) ∧
  (∀ a, (k3_off345 v795) a + S1x64.size a ≤ S100000x64.size a)
instance k3_chk89.dec : ∀ (v795 : BitVec 32), Decidable (k3_chk89 v795) := fun v795 => decidable_of_iff' _ (Iff.of_eq (k3_chk89.eq_1 v795))
theorem k3_off178_inb : ∀ (v795 : BitVec 32) (k3_hw89 : k3_chk89 v795), ∀ a, (k3_off178 v795) a + S1x64.size a ≤ S100000x64.size a := fun v795 k3_hw89 => k3_hw89.1
theorem k3_off345_inb : ∀ (v795 : BitVec 32) (k3_hw89 : k3_chk89 v795), ∀ a, (k3_off345 v795) a + S1x64.size a ≤ S100000x64.size a := fun v795 k3_hw89 => k3_hw89.2

def k3_off346 (v804 : BitVec 32) : Fin 2 → Nat :=
  let c0_i32_871 : BitVec 32 := 0#32
  ![v804.toNat, 0]

def k3_chk90 (v804 : BitVec 32) : Prop :=
  (∀ a, (k3_off180 v804) a + S1x64.size a ≤ S100000x64.size a) ∧
  (∀ a, (k3_off346 v804) a + S1x64.size a ≤ S100000x64.size a)
instance k3_chk90.dec : ∀ (v804 : BitVec 32), Decidable (k3_chk90 v804) := fun v804 => decidable_of_iff' _ (Iff.of_eq (k3_chk90.eq_1 v804))
theorem k3_off180_inb : ∀ (v804 : BitVec 32) (k3_hw90 : k3_chk90 v804), ∀ a, (k3_off180 v804) a + S1x64.size a ≤ S100000x64.size a := fun v804 k3_hw90 => k3_hw90.1
theorem k3_off346_inb : ∀ (v804 : BitVec 32) (k3_hw90 : k3_chk90 v804), ∀ a, (k3_off346 v804) a + S1x64.size a ≤ S100000x64.size a := fun v804 k3_hw90 => k3_hw90.2

def k3_off347 (v813 : BitVec 32) : Fin 2 → Nat :=
  let c0_i32_875 : BitVec 32 := 0#32
  ![v813.toNat, 0]

def k3_chk91 (v813 : BitVec 32) : Prop :=
  (∀ a, (k3_off182 v813) a + S1x64.size a ≤ S100000x64.size a) ∧
  (∀ a, (k3_off347 v813) a + S1x64.size a ≤ S100000x64.size a)
instance k3_chk91.dec : ∀ (v813 : BitVec 32), Decidable (k3_chk91 v813) := fun v813 => decidable_of_iff' _ (Iff.of_eq (k3_chk91.eq_1 v813))
theorem k3_off182_inb : ∀ (v813 : BitVec 32) (k3_hw91 : k3_chk91 v813), ∀ a, (k3_off182 v813) a + S1x64.size a ≤ S100000x64.size a := fun v813 k3_hw91 => k3_hw91.1
theorem k3_off347_inb : ∀ (v813 : BitVec 32) (k3_hw91 : k3_chk91 v813), ∀ a, (k3_off347 v813) a + S1x64.size a ≤ S100000x64.size a := fun v813 k3_hw91 => k3_hw91.2

def k3_off348 (v822 : BitVec 32) : Fin 2 → Nat :=
  let c0_i32_879 : BitVec 32 := 0#32
  ![v822.toNat, 0]

def k3_chk92 (v822 : BitVec 32) : Prop :=
  (∀ a, (k3_off184 v822) a + S1x64.size a ≤ S100000x64.size a) ∧
  (∀ a, (k3_off348 v822) a + S1x64.size a ≤ S100000x64.size a)
instance k3_chk92.dec : ∀ (v822 : BitVec 32), Decidable (k3_chk92 v822) := fun v822 => decidable_of_iff' _ (Iff.of_eq (k3_chk92.eq_1 v822))
theorem k3_off184_inb : ∀ (v822 : BitVec 32) (k3_hw92 : k3_chk92 v822), ∀ a, (k3_off184 v822) a + S1x64.size a ≤ S100000x64.size a := fun v822 k3_hw92 => k3_hw92.1
theorem k3_off348_inb : ∀ (v822 : BitVec 32) (k3_hw92 : k3_chk92 v822), ∀ a, (k3_off348 v822) a + S1x64.size a ≤ S100000x64.size a := fun v822 k3_hw92 => k3_hw92.2

def k3_off349 (v831 : BitVec 32) : Fin 2 → Nat :=
  let c0_i32_883 : BitVec 32 := 0#32
  ![v831.toNat, 0]

def k3_chk93 (v831 : BitVec 32) : Prop :=
  (∀ a, (k3_off186 v831) a + S1x64.size a ≤ S100000x64.size a) ∧
  (∀ a, (k3_off349 v831) a + S1x64.size a ≤ S100000x64.size a)
instance k3_chk93.dec : ∀ (v831 : BitVec 32), Decidable (k3_chk93 v831) := fun v831 => decidable_of_iff' _ (Iff.of_eq (k3_chk93.eq_1 v831))
theorem k3_off186_inb : ∀ (v831 : BitVec 32) (k3_hw93 : k3_chk93 v831), ∀ a, (k3_off186 v831) a + S1x64.size a ≤ S100000x64.size a := fun v831 k3_hw93 => k3_hw93.1
theorem k3_off349_inb : ∀ (v831 : BitVec 32) (k3_hw93 : k3_chk93 v831), ∀ a, (k3_off349 v831) a + S1x64.size a ≤ S100000x64.size a := fun v831 k3_hw93 => k3_hw93.2

def k3_off350 (v840 : BitVec 32) : Fin 2 → Nat :=
  let c0_i32_887 : BitVec 32 := 0#32
  ![v840.toNat, 0]

def k3_chk94 (v840 : BitVec 32) : Prop :=
  (∀ a, (k3_off188 v840) a + S1x64.size a ≤ S100000x64.size a) ∧
  (∀ a, (k3_off350 v840) a + S1x64.size a ≤ S100000x64.size a)
instance k3_chk94.dec : ∀ (v840 : BitVec 32), Decidable (k3_chk94 v840) := fun v840 => decidable_of_iff' _ (Iff.of_eq (k3_chk94.eq_1 v840))
theorem k3_off188_inb : ∀ (v840 : BitVec 32) (k3_hw94 : k3_chk94 v840), ∀ a, (k3_off188 v840) a + S1x64.size a ≤ S100000x64.size a := fun v840 k3_hw94 => k3_hw94.1
theorem k3_off350_inb : ∀ (v840 : BitVec 32) (k3_hw94 : k3_chk94 v840), ∀ a, (k3_off350 v840) a + S1x64.size a ≤ S100000x64.size a := fun v840 k3_hw94 => k3_hw94.2

def k3_off351 (v849 : BitVec 32) : Fin 2 → Nat :=
  let c0_i32_891 : BitVec 32 := 0#32
  ![v849.toNat, 0]

def k3_chk95 (v849 : BitVec 32) : Prop :=
  (∀ a, (k3_off190 v849) a + S1x64.size a ≤ S100000x64.size a) ∧
  (∀ a, (k3_off351 v849) a + S1x64.size a ≤ S100000x64.size a)
instance k3_chk95.dec : ∀ (v849 : BitVec 32), Decidable (k3_chk95 v849) := fun v849 => decidable_of_iff' _ (Iff.of_eq (k3_chk95.eq_1 v849))
theorem k3_off190_inb : ∀ (v849 : BitVec 32) (k3_hw95 : k3_chk95 v849), ∀ a, (k3_off190 v849) a + S1x64.size a ≤ S100000x64.size a := fun v849 k3_hw95 => k3_hw95.1
theorem k3_off351_inb : ∀ (v849 : BitVec 32) (k3_hw95 : k3_chk95 v849), ∀ a, (k3_off351 v849) a + S1x64.size a ≤ S100000x64.size a := fun v849 k3_hw95 => k3_hw95.2

def k3_off352 (v858 : BitVec 32) : Fin 2 → Nat :=
  let c0_i32_895 : BitVec 32 := 0#32
  ![v858.toNat, 0]

def k3_chk96 (v858 : BitVec 32) : Prop :=
  (∀ a, (k3_off192 v858) a + S1x64.size a ≤ S100000x64.size a) ∧
  (∀ a, (k3_off352 v858) a + S1x64.size a ≤ S100000x64.size a)
instance k3_chk96.dec : ∀ (v858 : BitVec 32), Decidable (k3_chk96 v858) := fun v858 => decidable_of_iff' _ (Iff.of_eq (k3_chk96.eq_1 v858))
theorem k3_off192_inb : ∀ (v858 : BitVec 32) (k3_hw96 : k3_chk96 v858), ∀ a, (k3_off192 v858) a + S1x64.size a ≤ S100000x64.size a := fun v858 k3_hw96 => k3_hw96.1
theorem k3_off352_inb : ∀ (v858 : BitVec 32) (k3_hw96 : k3_chk96 v858), ∀ a, (k3_off352 v858) a + S1x64.size a ≤ S100000x64.size a := fun v858 k3_hw96 => k3_hw96.2

def k3_off353 (v867 : BitVec 32) : Fin 2 → Nat :=
  let c0_i32_899 : BitVec 32 := 0#32
  ![v867.toNat, 0]

def k3_chk97 (v867 : BitVec 32) : Prop :=
  (∀ a, (k3_off194 v867) a + S1x64.size a ≤ S100000x64.size a) ∧
  (∀ a, (k3_off353 v867) a + S1x64.size a ≤ S100000x64.size a)
instance k3_chk97.dec : ∀ (v867 : BitVec 32), Decidable (k3_chk97 v867) := fun v867 => decidable_of_iff' _ (Iff.of_eq (k3_chk97.eq_1 v867))
theorem k3_off194_inb : ∀ (v867 : BitVec 32) (k3_hw97 : k3_chk97 v867), ∀ a, (k3_off194 v867) a + S1x64.size a ≤ S100000x64.size a := fun v867 k3_hw97 => k3_hw97.1
theorem k3_off353_inb : ∀ (v867 : BitVec 32) (k3_hw97 : k3_chk97 v867), ∀ a, (k3_off353 v867) a + S1x64.size a ≤ S100000x64.size a := fun v867 k3_hw97 => k3_hw97.2

def k3_off354 (v876 : BitVec 32) : Fin 2 → Nat :=
  let c0_i32_903 : BitVec 32 := 0#32
  ![v876.toNat, 0]

def k3_chk98 (v876 : BitVec 32) : Prop :=
  (∀ a, (k3_off196 v876) a + S1x64.size a ≤ S100000x64.size a) ∧
  (∀ a, (k3_off354 v876) a + S1x64.size a ≤ S100000x64.size a)
instance k3_chk98.dec : ∀ (v876 : BitVec 32), Decidable (k3_chk98 v876) := fun v876 => decidable_of_iff' _ (Iff.of_eq (k3_chk98.eq_1 v876))
theorem k3_off196_inb : ∀ (v876 : BitVec 32) (k3_hw98 : k3_chk98 v876), ∀ a, (k3_off196 v876) a + S1x64.size a ≤ S100000x64.size a := fun v876 k3_hw98 => k3_hw98.1
theorem k3_off354_inb : ∀ (v876 : BitVec 32) (k3_hw98 : k3_chk98 v876), ∀ a, (k3_off354 v876) a + S1x64.size a ≤ S100000x64.size a := fun v876 k3_hw98 => k3_hw98.2

def k3_off355 (v885 : BitVec 32) : Fin 2 → Nat :=
  let c0_i32_907 : BitVec 32 := 0#32
  ![v885.toNat, 0]

def k3_chk99 (v885 : BitVec 32) : Prop :=
  (∀ a, (k3_off198 v885) a + S1x64.size a ≤ S100000x64.size a) ∧
  (∀ a, (k3_off355 v885) a + S1x64.size a ≤ S100000x64.size a)
instance k3_chk99.dec : ∀ (v885 : BitVec 32), Decidable (k3_chk99 v885) := fun v885 => decidable_of_iff' _ (Iff.of_eq (k3_chk99.eq_1 v885))
theorem k3_off198_inb : ∀ (v885 : BitVec 32) (k3_hw99 : k3_chk99 v885), ∀ a, (k3_off198 v885) a + S1x64.size a ≤ S100000x64.size a := fun v885 k3_hw99 => k3_hw99.1
theorem k3_off355_inb : ∀ (v885 : BitVec 32) (k3_hw99 : k3_chk99 v885), ∀ a, (k3_off355 v885) a + S1x64.size a ≤ S100000x64.size a := fun v885 k3_hw99 => k3_hw99.2

def k3_off356 (v894 : BitVec 32) : Fin 2 → Nat :=
  let c0_i32_911 : BitVec 32 := 0#32
  ![v894.toNat, 0]

def k3_chk100 (v894 : BitVec 32) : Prop :=
  (∀ a, (k3_off200 v894) a + S1x64.size a ≤ S100000x64.size a) ∧
  (∀ a, (k3_off356 v894) a + S1x64.size a ≤ S100000x64.size a)
instance k3_chk100.dec : ∀ (v894 : BitVec 32), Decidable (k3_chk100 v894) := fun v894 => decidable_of_iff' _ (Iff.of_eq (k3_chk100.eq_1 v894))
theorem k3_off200_inb : ∀ (v894 : BitVec 32) (k3_hw100 : k3_chk100 v894), ∀ a, (k3_off200 v894) a + S1x64.size a ≤ S100000x64.size a := fun v894 k3_hw100 => k3_hw100.1
theorem k3_off356_inb : ∀ (v894 : BitVec 32) (k3_hw100 : k3_chk100 v894), ∀ a, (k3_off356 v894) a + S1x64.size a ≤ S100000x64.size a := fun v894 k3_hw100 => k3_hw100.2

def k3_off357 (v903 : BitVec 32) : Fin 2 → Nat :=
  let c0_i32_915 : BitVec 32 := 0#32
  ![v903.toNat, 0]

def k3_chk101 (v903 : BitVec 32) : Prop :=
  (∀ a, (k3_off202 v903) a + S1x64.size a ≤ S100000x64.size a) ∧
  (∀ a, (k3_off357 v903) a + S1x64.size a ≤ S100000x64.size a)
instance k3_chk101.dec : ∀ (v903 : BitVec 32), Decidable (k3_chk101 v903) := fun v903 => decidable_of_iff' _ (Iff.of_eq (k3_chk101.eq_1 v903))
theorem k3_off202_inb : ∀ (v903 : BitVec 32) (k3_hw101 : k3_chk101 v903), ∀ a, (k3_off202 v903) a + S1x64.size a ≤ S100000x64.size a := fun v903 k3_hw101 => k3_hw101.1
theorem k3_off357_inb : ∀ (v903 : BitVec 32) (k3_hw101 : k3_chk101 v903), ∀ a, (k3_off357 v903) a + S1x64.size a ≤ S100000x64.size a := fun v903 k3_hw101 => k3_hw101.2

def k3_off358 (v912 : BitVec 32) : Fin 2 → Nat :=
  let c0_i32_919 : BitVec 32 := 0#32
  ![v912.toNat, 0]

def k3_chk102 (v912 : BitVec 32) : Prop :=
  (∀ a, (k3_off204 v912) a + S1x64.size a ≤ S100000x64.size a) ∧
  (∀ a, (k3_off358 v912) a + S1x64.size a ≤ S100000x64.size a)
instance k3_chk102.dec : ∀ (v912 : BitVec 32), Decidable (k3_chk102 v912) := fun v912 => decidable_of_iff' _ (Iff.of_eq (k3_chk102.eq_1 v912))
theorem k3_off204_inb : ∀ (v912 : BitVec 32) (k3_hw102 : k3_chk102 v912), ∀ a, (k3_off204 v912) a + S1x64.size a ≤ S100000x64.size a := fun v912 k3_hw102 => k3_hw102.1
theorem k3_off358_inb : ∀ (v912 : BitVec 32) (k3_hw102 : k3_chk102 v912), ∀ a, (k3_off358 v912) a + S1x64.size a ≤ S100000x64.size a := fun v912 k3_hw102 => k3_hw102.2

def k3_off359 (v921 : BitVec 32) : Fin 2 → Nat :=
  let c0_i32_923 : BitVec 32 := 0#32
  ![v921.toNat, 0]

def k3_chk103 (v921 : BitVec 32) : Prop :=
  (∀ a, (k3_off206 v921) a + S1x64.size a ≤ S100000x64.size a) ∧
  (∀ a, (k3_off359 v921) a + S1x64.size a ≤ S100000x64.size a)
instance k3_chk103.dec : ∀ (v921 : BitVec 32), Decidable (k3_chk103 v921) := fun v921 => decidable_of_iff' _ (Iff.of_eq (k3_chk103.eq_1 v921))
theorem k3_off206_inb : ∀ (v921 : BitVec 32) (k3_hw103 : k3_chk103 v921), ∀ a, (k3_off206 v921) a + S1x64.size a ≤ S100000x64.size a := fun v921 k3_hw103 => k3_hw103.1
theorem k3_off359_inb : ∀ (v921 : BitVec 32) (k3_hw103 : k3_chk103 v921), ∀ a, (k3_off359 v921) a + S1x64.size a ≤ S100000x64.size a := fun v921 k3_hw103 => k3_hw103.2

def k3_off360 (v930 : BitVec 32) : Fin 2 → Nat :=
  let c0_i32_927 : BitVec 32 := 0#32
  ![v930.toNat, 0]

def k3_chk104 (v930 : BitVec 32) : Prop :=
  (∀ a, (k3_off208 v930) a + S1x64.size a ≤ S100000x64.size a) ∧
  (∀ a, (k3_off360 v930) a + S1x64.size a ≤ S100000x64.size a)
instance k3_chk104.dec : ∀ (v930 : BitVec 32), Decidable (k3_chk104 v930) := fun v930 => decidable_of_iff' _ (Iff.of_eq (k3_chk104.eq_1 v930))
theorem k3_off208_inb : ∀ (v930 : BitVec 32) (k3_hw104 : k3_chk104 v930), ∀ a, (k3_off208 v930) a + S1x64.size a ≤ S100000x64.size a := fun v930 k3_hw104 => k3_hw104.1
theorem k3_off360_inb : ∀ (v930 : BitVec 32) (k3_hw104 : k3_chk104 v930), ∀ a, (k3_off360 v930) a + S1x64.size a ≤ S100000x64.size a := fun v930 k3_hw104 => k3_hw104.2

def k3_off361 (v939 : BitVec 32) : Fin 2 → Nat :=
  let c0_i32_931 : BitVec 32 := 0#32
  ![v939.toNat, 0]

def k3_chk105 (v939 : BitVec 32) : Prop :=
  (∀ a, (k3_off210 v939) a + S1x64.size a ≤ S100000x64.size a) ∧
  (∀ a, (k3_off361 v939) a + S1x64.size a ≤ S100000x64.size a)
instance k3_chk105.dec : ∀ (v939 : BitVec 32), Decidable (k3_chk105 v939) := fun v939 => decidable_of_iff' _ (Iff.of_eq (k3_chk105.eq_1 v939))
theorem k3_off210_inb : ∀ (v939 : BitVec 32) (k3_hw105 : k3_chk105 v939), ∀ a, (k3_off210 v939) a + S1x64.size a ≤ S100000x64.size a := fun v939 k3_hw105 => k3_hw105.1
theorem k3_off361_inb : ∀ (v939 : BitVec 32) (k3_hw105 : k3_chk105 v939), ∀ a, (k3_off361 v939) a + S1x64.size a ≤ S100000x64.size a := fun v939 k3_hw105 => k3_hw105.2

def k3_off362 (v948 : BitVec 32) : Fin 2 → Nat :=
  let c0_i32_935 : BitVec 32 := 0#32
  ![v948.toNat, 0]

def k3_chk106 (v948 : BitVec 32) : Prop :=
  (∀ a, (k3_off212 v948) a + S1x64.size a ≤ S100000x64.size a) ∧
  (∀ a, (k3_off362 v948) a + S1x64.size a ≤ S100000x64.size a)
instance k3_chk106.dec : ∀ (v948 : BitVec 32), Decidable (k3_chk106 v948) := fun v948 => decidable_of_iff' _ (Iff.of_eq (k3_chk106.eq_1 v948))
theorem k3_off212_inb : ∀ (v948 : BitVec 32) (k3_hw106 : k3_chk106 v948), ∀ a, (k3_off212 v948) a + S1x64.size a ≤ S100000x64.size a := fun v948 k3_hw106 => k3_hw106.1
theorem k3_off362_inb : ∀ (v948 : BitVec 32) (k3_hw106 : k3_chk106 v948), ∀ a, (k3_off362 v948) a + S1x64.size a ≤ S100000x64.size a := fun v948 k3_hw106 => k3_hw106.2

def k3_off363 (v957 : BitVec 32) : Fin 2 → Nat :=
  let c0_i32_939 : BitVec 32 := 0#32
  ![v957.toNat, 0]

def k3_chk107 (v957 : BitVec 32) : Prop :=
  (∀ a, (k3_off214 v957) a + S1x64.size a ≤ S100000x64.size a) ∧
  (∀ a, (k3_off363 v957) a + S1x64.size a ≤ S100000x64.size a)
instance k3_chk107.dec : ∀ (v957 : BitVec 32), Decidable (k3_chk107 v957) := fun v957 => decidable_of_iff' _ (Iff.of_eq (k3_chk107.eq_1 v957))
theorem k3_off214_inb : ∀ (v957 : BitVec 32) (k3_hw107 : k3_chk107 v957), ∀ a, (k3_off214 v957) a + S1x64.size a ≤ S100000x64.size a := fun v957 k3_hw107 => k3_hw107.1
theorem k3_off363_inb : ∀ (v957 : BitVec 32) (k3_hw107 : k3_chk107 v957), ∀ a, (k3_off363 v957) a + S1x64.size a ≤ S100000x64.size a := fun v957 k3_hw107 => k3_hw107.2

def k3_off364 (v966 : BitVec 32) : Fin 2 → Nat :=
  let c0_i32_943 : BitVec 32 := 0#32
  ![v966.toNat, 0]

def k3_chk108 (v966 : BitVec 32) : Prop :=
  (∀ a, (k3_off216 v966) a + S1x64.size a ≤ S100000x64.size a) ∧
  (∀ a, (k3_off364 v966) a + S1x64.size a ≤ S100000x64.size a)
instance k3_chk108.dec : ∀ (v966 : BitVec 32), Decidable (k3_chk108 v966) := fun v966 => decidable_of_iff' _ (Iff.of_eq (k3_chk108.eq_1 v966))
theorem k3_off216_inb : ∀ (v966 : BitVec 32) (k3_hw108 : k3_chk108 v966), ∀ a, (k3_off216 v966) a + S1x64.size a ≤ S100000x64.size a := fun v966 k3_hw108 => k3_hw108.1
theorem k3_off364_inb : ∀ (v966 : BitVec 32) (k3_hw108 : k3_chk108 v966), ∀ a, (k3_off364 v966) a + S1x64.size a ≤ S100000x64.size a := fun v966 k3_hw108 => k3_hw108.2

def k3_off365 (v975 : BitVec 32) : Fin 2 → Nat :=
  let c0_i32_947 : BitVec 32 := 0#32
  ![v975.toNat, 0]

def k3_chk109 (v975 : BitVec 32) : Prop :=
  (∀ a, (k3_off218 v975) a + S1x64.size a ≤ S100000x64.size a) ∧
  (∀ a, (k3_off365 v975) a + S1x64.size a ≤ S100000x64.size a)
instance k3_chk109.dec : ∀ (v975 : BitVec 32), Decidable (k3_chk109 v975) := fun v975 => decidable_of_iff' _ (Iff.of_eq (k3_chk109.eq_1 v975))
theorem k3_off218_inb : ∀ (v975 : BitVec 32) (k3_hw109 : k3_chk109 v975), ∀ a, (k3_off218 v975) a + S1x64.size a ≤ S100000x64.size a := fun v975 k3_hw109 => k3_hw109.1
theorem k3_off365_inb : ∀ (v975 : BitVec 32) (k3_hw109 : k3_chk109 v975), ∀ a, (k3_off365 v975) a + S1x64.size a ≤ S100000x64.size a := fun v975 k3_hw109 => k3_hw109.2

def k3_off366 (v984 : BitVec 32) : Fin 2 → Nat :=
  let c0_i32_951 : BitVec 32 := 0#32
  ![v984.toNat, 0]

def k3_chk110 (v984 : BitVec 32) : Prop :=
  (∀ a, (k3_off220 v984) a + S1x64.size a ≤ S100000x64.size a) ∧
  (∀ a, (k3_off366 v984) a + S1x64.size a ≤ S100000x64.size a)
instance k3_chk110.dec : ∀ (v984 : BitVec 32), Decidable (k3_chk110 v984) := fun v984 => decidable_of_iff' _ (Iff.of_eq (k3_chk110.eq_1 v984))
theorem k3_off220_inb : ∀ (v984 : BitVec 32) (k3_hw110 : k3_chk110 v984), ∀ a, (k3_off220 v984) a + S1x64.size a ≤ S100000x64.size a := fun v984 k3_hw110 => k3_hw110.1
theorem k3_off366_inb : ∀ (v984 : BitVec 32) (k3_hw110 : k3_chk110 v984), ∀ a, (k3_off366 v984) a + S1x64.size a ≤ S100000x64.size a := fun v984 k3_hw110 => k3_hw110.2

def k3_off367 (v993 : BitVec 32) : Fin 2 → Nat :=
  let c0_i32_955 : BitVec 32 := 0#32
  ![v993.toNat, 0]

def k3_chk111 (v993 : BitVec 32) : Prop :=
  (∀ a, (k3_off222 v993) a + S1x64.size a ≤ S100000x64.size a) ∧
  (∀ a, (k3_off367 v993) a + S1x64.size a ≤ S100000x64.size a)
instance k3_chk111.dec : ∀ (v993 : BitVec 32), Decidable (k3_chk111 v993) := fun v993 => decidable_of_iff' _ (Iff.of_eq (k3_chk111.eq_1 v993))
theorem k3_off222_inb : ∀ (v993 : BitVec 32) (k3_hw111 : k3_chk111 v993), ∀ a, (k3_off222 v993) a + S1x64.size a ≤ S100000x64.size a := fun v993 k3_hw111 => k3_hw111.1
theorem k3_off367_inb : ∀ (v993 : BitVec 32) (k3_hw111 : k3_chk111 v993), ∀ a, (k3_off367 v993) a + S1x64.size a ≤ S100000x64.size a := fun v993 k3_hw111 => k3_hw111.2

def k3_off368 (v1002 : BitVec 32) : Fin 2 → Nat :=
  let c0_i32_959 : BitVec 32 := 0#32
  ![v1002.toNat, 0]

def k3_chk112 (v1002 : BitVec 32) : Prop :=
  (∀ a, (k3_off224 v1002) a + S1x64.size a ≤ S100000x64.size a) ∧
  (∀ a, (k3_off368 v1002) a + S1x64.size a ≤ S100000x64.size a)
instance k3_chk112.dec : ∀ (v1002 : BitVec 32), Decidable (k3_chk112 v1002) := fun v1002 => decidable_of_iff' _ (Iff.of_eq (k3_chk112.eq_1 v1002))
theorem k3_off224_inb : ∀ (v1002 : BitVec 32) (k3_hw112 : k3_chk112 v1002), ∀ a, (k3_off224 v1002) a + S1x64.size a ≤ S100000x64.size a := fun v1002 k3_hw112 => k3_hw112.1
theorem k3_off368_inb : ∀ (v1002 : BitVec 32) (k3_hw112 : k3_chk112 v1002), ∀ a, (k3_off368 v1002) a + S1x64.size a ≤ S100000x64.size a := fun v1002 k3_hw112 => k3_hw112.2

def k3_off369 (v1011 : BitVec 32) : Fin 2 → Nat :=
  let c0_i32_963 : BitVec 32 := 0#32
  ![v1011.toNat, 0]

def k3_chk113 (v1011 : BitVec 32) : Prop :=
  (∀ a, (k3_off226 v1011) a + S1x64.size a ≤ S100000x64.size a) ∧
  (∀ a, (k3_off369 v1011) a + S1x64.size a ≤ S100000x64.size a)
instance k3_chk113.dec : ∀ (v1011 : BitVec 32), Decidable (k3_chk113 v1011) := fun v1011 => decidable_of_iff' _ (Iff.of_eq (k3_chk113.eq_1 v1011))
theorem k3_off226_inb : ∀ (v1011 : BitVec 32) (k3_hw113 : k3_chk113 v1011), ∀ a, (k3_off226 v1011) a + S1x64.size a ≤ S100000x64.size a := fun v1011 k3_hw113 => k3_hw113.1
theorem k3_off369_inb : ∀ (v1011 : BitVec 32) (k3_hw113 : k3_chk113 v1011), ∀ a, (k3_off369 v1011) a + S1x64.size a ≤ S100000x64.size a := fun v1011 k3_hw113 => k3_hw113.2

def k3_off370 (v1020 : BitVec 32) : Fin 2 → Nat :=
  let c0_i32_967 : BitVec 32 := 0#32
  ![v1020.toNat, 0]

def k3_chk114 (v1020 : BitVec 32) : Prop :=
  (∀ a, (k3_off228 v1020) a + S1x64.size a ≤ S100000x64.size a) ∧
  (∀ a, (k3_off370 v1020) a + S1x64.size a ≤ S100000x64.size a)
instance k3_chk114.dec : ∀ (v1020 : BitVec 32), Decidable (k3_chk114 v1020) := fun v1020 => decidable_of_iff' _ (Iff.of_eq (k3_chk114.eq_1 v1020))
theorem k3_off228_inb : ∀ (v1020 : BitVec 32) (k3_hw114 : k3_chk114 v1020), ∀ a, (k3_off228 v1020) a + S1x64.size a ≤ S100000x64.size a := fun v1020 k3_hw114 => k3_hw114.1
theorem k3_off370_inb : ∀ (v1020 : BitVec 32) (k3_hw114 : k3_chk114 v1020), ∀ a, (k3_off370 v1020) a + S1x64.size a ≤ S100000x64.size a := fun v1020 k3_hw114 => k3_hw114.2

def k3_off371 (v1029 : BitVec 32) : Fin 2 → Nat :=
  let c0_i32_971 : BitVec 32 := 0#32
  ![v1029.toNat, 0]

def k3_chk115 (v1029 : BitVec 32) : Prop :=
  (∀ a, (k3_off230 v1029) a + S1x64.size a ≤ S100000x64.size a) ∧
  (∀ a, (k3_off371 v1029) a + S1x64.size a ≤ S100000x64.size a)
instance k3_chk115.dec : ∀ (v1029 : BitVec 32), Decidable (k3_chk115 v1029) := fun v1029 => decidable_of_iff' _ (Iff.of_eq (k3_chk115.eq_1 v1029))
theorem k3_off230_inb : ∀ (v1029 : BitVec 32) (k3_hw115 : k3_chk115 v1029), ∀ a, (k3_off230 v1029) a + S1x64.size a ≤ S100000x64.size a := fun v1029 k3_hw115 => k3_hw115.1
theorem k3_off371_inb : ∀ (v1029 : BitVec 32) (k3_hw115 : k3_chk115 v1029), ∀ a, (k3_off371 v1029) a + S1x64.size a ≤ S100000x64.size a := fun v1029 k3_hw115 => k3_hw115.2

def k3_off372 (v1038 : BitVec 32) : Fin 2 → Nat :=
  let c0_i32_975 : BitVec 32 := 0#32
  ![v1038.toNat, 0]

def k3_chk116 (v1038 : BitVec 32) : Prop :=
  (∀ a, (k3_off232 v1038) a + S1x64.size a ≤ S100000x64.size a) ∧
  (∀ a, (k3_off372 v1038) a + S1x64.size a ≤ S100000x64.size a)
instance k3_chk116.dec : ∀ (v1038 : BitVec 32), Decidable (k3_chk116 v1038) := fun v1038 => decidable_of_iff' _ (Iff.of_eq (k3_chk116.eq_1 v1038))
theorem k3_off232_inb : ∀ (v1038 : BitVec 32) (k3_hw116 : k3_chk116 v1038), ∀ a, (k3_off232 v1038) a + S1x64.size a ≤ S100000x64.size a := fun v1038 k3_hw116 => k3_hw116.1
theorem k3_off372_inb : ∀ (v1038 : BitVec 32) (k3_hw116 : k3_chk116 v1038), ∀ a, (k3_off372 v1038) a + S1x64.size a ≤ S100000x64.size a := fun v1038 k3_hw116 => k3_hw116.2

def k3_off373 (v1047 : BitVec 32) : Fin 2 → Nat :=
  let c0_i32_979 : BitVec 32 := 0#32
  ![v1047.toNat, 0]

def k3_chk117 (v1047 : BitVec 32) : Prop :=
  (∀ a, (k3_off234 v1047) a + S1x64.size a ≤ S100000x64.size a) ∧
  (∀ a, (k3_off373 v1047) a + S1x64.size a ≤ S100000x64.size a)
instance k3_chk117.dec : ∀ (v1047 : BitVec 32), Decidable (k3_chk117 v1047) := fun v1047 => decidable_of_iff' _ (Iff.of_eq (k3_chk117.eq_1 v1047))
theorem k3_off234_inb : ∀ (v1047 : BitVec 32) (k3_hw117 : k3_chk117 v1047), ∀ a, (k3_off234 v1047) a + S1x64.size a ≤ S100000x64.size a := fun v1047 k3_hw117 => k3_hw117.1
theorem k3_off373_inb : ∀ (v1047 : BitVec 32) (k3_hw117 : k3_chk117 v1047), ∀ a, (k3_off373 v1047) a + S1x64.size a ≤ S100000x64.size a := fun v1047 k3_hw117 => k3_hw117.2

def k3_off374 (v1056 : BitVec 32) : Fin 2 → Nat :=
  let c0_i32_983 : BitVec 32 := 0#32
  ![v1056.toNat, 0]

def k3_chk118 (v1056 : BitVec 32) : Prop :=
  (∀ a, (k3_off236 v1056) a + S1x64.size a ≤ S100000x64.size a) ∧
  (∀ a, (k3_off374 v1056) a + S1x64.size a ≤ S100000x64.size a)
instance k3_chk118.dec : ∀ (v1056 : BitVec 32), Decidable (k3_chk118 v1056) := fun v1056 => decidable_of_iff' _ (Iff.of_eq (k3_chk118.eq_1 v1056))
theorem k3_off236_inb : ∀ (v1056 : BitVec 32) (k3_hw118 : k3_chk118 v1056), ∀ a, (k3_off236 v1056) a + S1x64.size a ≤ S100000x64.size a := fun v1056 k3_hw118 => k3_hw118.1
theorem k3_off374_inb : ∀ (v1056 : BitVec 32) (k3_hw118 : k3_chk118 v1056), ∀ a, (k3_off374 v1056) a + S1x64.size a ≤ S100000x64.size a := fun v1056 k3_hw118 => k3_hw118.2

def k3_off375 (v1065 : BitVec 32) : Fin 2 → Nat :=
  let c0_i32_987 : BitVec 32 := 0#32
  ![v1065.toNat, 0]

def k3_chk119 (v1065 : BitVec 32) : Prop :=
  (∀ a, (k3_off238 v1065) a + S1x64.size a ≤ S100000x64.size a) ∧
  (∀ a, (k3_off375 v1065) a + S1x64.size a ≤ S100000x64.size a)
instance k3_chk119.dec : ∀ (v1065 : BitVec 32), Decidable (k3_chk119 v1065) := fun v1065 => decidable_of_iff' _ (Iff.of_eq (k3_chk119.eq_1 v1065))
theorem k3_off238_inb : ∀ (v1065 : BitVec 32) (k3_hw119 : k3_chk119 v1065), ∀ a, (k3_off238 v1065) a + S1x64.size a ≤ S100000x64.size a := fun v1065 k3_hw119 => k3_hw119.1
theorem k3_off375_inb : ∀ (v1065 : BitVec 32) (k3_hw119 : k3_chk119 v1065), ∀ a, (k3_off375 v1065) a + S1x64.size a ≤ S100000x64.size a := fun v1065 k3_hw119 => k3_hw119.2

def k3_off376 (v1074 : BitVec 32) : Fin 2 → Nat :=
  let c0_i32_991 : BitVec 32 := 0#32
  ![v1074.toNat, 0]

def k3_chk120 (v1074 : BitVec 32) : Prop :=
  (∀ a, (k3_off240 v1074) a + S1x64.size a ≤ S100000x64.size a) ∧
  (∀ a, (k3_off376 v1074) a + S1x64.size a ≤ S100000x64.size a)
instance k3_chk120.dec : ∀ (v1074 : BitVec 32), Decidable (k3_chk120 v1074) := fun v1074 => decidable_of_iff' _ (Iff.of_eq (k3_chk120.eq_1 v1074))
theorem k3_off240_inb : ∀ (v1074 : BitVec 32) (k3_hw120 : k3_chk120 v1074), ∀ a, (k3_off240 v1074) a + S1x64.size a ≤ S100000x64.size a := fun v1074 k3_hw120 => k3_hw120.1
theorem k3_off376_inb : ∀ (v1074 : BitVec 32) (k3_hw120 : k3_chk120 v1074), ∀ a, (k3_off376 v1074) a + S1x64.size a ≤ S100000x64.size a := fun v1074 k3_hw120 => k3_hw120.2

def k3_off377 (v1083 : BitVec 32) : Fin 2 → Nat :=
  let c0_i32_995 : BitVec 32 := 0#32
  ![v1083.toNat, 0]

def k3_chk121 (v1083 : BitVec 32) : Prop :=
  (∀ a, (k3_off242 v1083) a + S1x64.size a ≤ S100000x64.size a) ∧
  (∀ a, (k3_off377 v1083) a + S1x64.size a ≤ S100000x64.size a)
instance k3_chk121.dec : ∀ (v1083 : BitVec 32), Decidable (k3_chk121 v1083) := fun v1083 => decidable_of_iff' _ (Iff.of_eq (k3_chk121.eq_1 v1083))
theorem k3_off242_inb : ∀ (v1083 : BitVec 32) (k3_hw121 : k3_chk121 v1083), ∀ a, (k3_off242 v1083) a + S1x64.size a ≤ S100000x64.size a := fun v1083 k3_hw121 => k3_hw121.1
theorem k3_off377_inb : ∀ (v1083 : BitVec 32) (k3_hw121 : k3_chk121 v1083), ∀ a, (k3_off377 v1083) a + S1x64.size a ≤ S100000x64.size a := fun v1083 k3_hw121 => k3_hw121.2

def k3_off378 (v1092 : BitVec 32) : Fin 2 → Nat :=
  let c0_i32_999 : BitVec 32 := 0#32
  ![v1092.toNat, 0]

def k3_chk122 (v1092 : BitVec 32) : Prop :=
  (∀ a, (k3_off244 v1092) a + S1x64.size a ≤ S100000x64.size a) ∧
  (∀ a, (k3_off378 v1092) a + S1x64.size a ≤ S100000x64.size a)
instance k3_chk122.dec : ∀ (v1092 : BitVec 32), Decidable (k3_chk122 v1092) := fun v1092 => decidable_of_iff' _ (Iff.of_eq (k3_chk122.eq_1 v1092))
theorem k3_off244_inb : ∀ (v1092 : BitVec 32) (k3_hw122 : k3_chk122 v1092), ∀ a, (k3_off244 v1092) a + S1x64.size a ≤ S100000x64.size a := fun v1092 k3_hw122 => k3_hw122.1
theorem k3_off378_inb : ∀ (v1092 : BitVec 32) (k3_hw122 : k3_chk122 v1092), ∀ a, (k3_off378 v1092) a + S1x64.size a ≤ S100000x64.size a := fun v1092 k3_hw122 => k3_hw122.2

def k3_off379 (v1101 : BitVec 32) : Fin 2 → Nat :=
  let c0_i32_1003 : BitVec 32 := 0#32
  ![v1101.toNat, 0]

def k3_chk123 (v1101 : BitVec 32) : Prop :=
  (∀ a, (k3_off246 v1101) a + S1x64.size a ≤ S100000x64.size a) ∧
  (∀ a, (k3_off379 v1101) a + S1x64.size a ≤ S100000x64.size a)
instance k3_chk123.dec : ∀ (v1101 : BitVec 32), Decidable (k3_chk123 v1101) := fun v1101 => decidable_of_iff' _ (Iff.of_eq (k3_chk123.eq_1 v1101))
theorem k3_off246_inb : ∀ (v1101 : BitVec 32) (k3_hw123 : k3_chk123 v1101), ∀ a, (k3_off246 v1101) a + S1x64.size a ≤ S100000x64.size a := fun v1101 k3_hw123 => k3_hw123.1
theorem k3_off379_inb : ∀ (v1101 : BitVec 32) (k3_hw123 : k3_chk123 v1101), ∀ a, (k3_off379 v1101) a + S1x64.size a ≤ S100000x64.size a := fun v1101 k3_hw123 => k3_hw123.2

def k3_off380 (v1110 : BitVec 32) : Fin 2 → Nat :=
  let c0_i32_1007 : BitVec 32 := 0#32
  ![v1110.toNat, 0]

def k3_chk124 (v1110 : BitVec 32) : Prop :=
  (∀ a, (k3_off248 v1110) a + S1x64.size a ≤ S100000x64.size a) ∧
  (∀ a, (k3_off380 v1110) a + S1x64.size a ≤ S100000x64.size a)
instance k3_chk124.dec : ∀ (v1110 : BitVec 32), Decidable (k3_chk124 v1110) := fun v1110 => decidable_of_iff' _ (Iff.of_eq (k3_chk124.eq_1 v1110))
theorem k3_off248_inb : ∀ (v1110 : BitVec 32) (k3_hw124 : k3_chk124 v1110), ∀ a, (k3_off248 v1110) a + S1x64.size a ≤ S100000x64.size a := fun v1110 k3_hw124 => k3_hw124.1
theorem k3_off380_inb : ∀ (v1110 : BitVec 32) (k3_hw124 : k3_chk124 v1110), ∀ a, (k3_off380 v1110) a + S1x64.size a ≤ S100000x64.size a := fun v1110 k3_hw124 => k3_hw124.2

def k3_off381 (v1119 : BitVec 32) : Fin 2 → Nat :=
  let c0_i32_1011 : BitVec 32 := 0#32
  ![v1119.toNat, 0]

def k3_chk125 (v1119 : BitVec 32) : Prop :=
  (∀ a, (k3_off250 v1119) a + S1x64.size a ≤ S100000x64.size a) ∧
  (∀ a, (k3_off381 v1119) a + S1x64.size a ≤ S100000x64.size a)
instance k3_chk125.dec : ∀ (v1119 : BitVec 32), Decidable (k3_chk125 v1119) := fun v1119 => decidable_of_iff' _ (Iff.of_eq (k3_chk125.eq_1 v1119))
theorem k3_off250_inb : ∀ (v1119 : BitVec 32) (k3_hw125 : k3_chk125 v1119), ∀ a, (k3_off250 v1119) a + S1x64.size a ≤ S100000x64.size a := fun v1119 k3_hw125 => k3_hw125.1
theorem k3_off381_inb : ∀ (v1119 : BitVec 32) (k3_hw125 : k3_chk125 v1119), ∀ a, (k3_off381 v1119) a + S1x64.size a ≤ S100000x64.size a := fun v1119 k3_hw125 => k3_hw125.2

def k3_off382 (v1128 : BitVec 32) : Fin 2 → Nat :=
  let c0_i32_1015 : BitVec 32 := 0#32
  ![v1128.toNat, 0]

def k3_chk126 (v1128 : BitVec 32) : Prop :=
  (∀ a, (k3_off252 v1128) a + S1x64.size a ≤ S100000x64.size a) ∧
  (∀ a, (k3_off382 v1128) a + S1x64.size a ≤ S100000x64.size a)
instance k3_chk126.dec : ∀ (v1128 : BitVec 32), Decidable (k3_chk126 v1128) := fun v1128 => decidable_of_iff' _ (Iff.of_eq (k3_chk126.eq_1 v1128))
theorem k3_off252_inb : ∀ (v1128 : BitVec 32) (k3_hw126 : k3_chk126 v1128), ∀ a, (k3_off252 v1128) a + S1x64.size a ≤ S100000x64.size a := fun v1128 k3_hw126 => k3_hw126.1
theorem k3_off382_inb : ∀ (v1128 : BitVec 32) (k3_hw126 : k3_chk126 v1128), ∀ a, (k3_off382 v1128) a + S1x64.size a ≤ S100000x64.size a := fun v1128 k3_hw126 => k3_hw126.2

def k3_off383 (v1137 : BitVec 32) : Fin 2 → Nat :=
  let c0_i32_1019 : BitVec 32 := 0#32
  ![v1137.toNat, 0]

def k3_chk127 (v1137 : BitVec 32) : Prop :=
  (∀ a, (k3_off254 v1137) a + S1x64.size a ≤ S100000x64.size a) ∧
  (∀ a, (k3_off383 v1137) a + S1x64.size a ≤ S100000x64.size a)
instance k3_chk127.dec : ∀ (v1137 : BitVec 32), Decidable (k3_chk127 v1137) := fun v1137 => decidable_of_iff' _ (Iff.of_eq (k3_chk127.eq_1 v1137))
theorem k3_off254_inb : ∀ (v1137 : BitVec 32) (k3_hw127 : k3_chk127 v1137), ∀ a, (k3_off254 v1137) a + S1x64.size a ≤ S100000x64.size a := fun v1137 k3_hw127 => k3_hw127.1
theorem k3_off383_inb : ∀ (v1137 : BitVec 32) (k3_hw127 : k3_chk127 v1137), ∀ a, (k3_off383 v1137) a + S1x64.size a ≤ S100000x64.size a := fun v1137 k3_hw127 => k3_hw127.2

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S128x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev grid4 : Pipeline.Grid := ⟨1, ![32], ![false]⟩

abbrev pre4 : Pipeline.Prefetch sig := ⟨1, ![main_v56.idx], fun | 0 => main_v56.names | ⟨_ + 1, h⟩ => absurd h (Nat.not_lt.2 (Nat.le_add_left _ _)), fun | 0 => rfl | ⟨_ + 1, h⟩ => absurd h (Nat.not_lt.2 (Nat.le_add_left _ _))⟩

def k4_off1 (i : grid4.Coords) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let v1 : BitVec 32 := Scalar.addi v0 c0_i32
  let v2 : Index := Scalar.indexCast v1
  ![v2.toNat]
def k4_off2 (v3 : BitVec 32) : Fin 2 → Nat :=
  let c0_i32_3 : BitVec 32 := 0#32
  ![v3.toNat, 0]

def k4_off3 (i : grid4.Coords) : Fin 1 → Nat :=
  let arg0 : BitVec 32 := BitVec.ofNat 32 (i 0).val
  let c128_i32 : BitVec 32 := 128#32
  let v0 : BitVec 32 := Scalar.muli arg0 c128_i32
  let c1_i32 : BitVec 32 := 1#32
  let v10 : BitVec 32 := Scalar.addi v0 c1_i32
  let v11 : Index := Scalar.indexCast v10
  ![v11.toNat]
def k4_off4 (v12 : BitVec 32) : Fin 2 → Nat :=
  let c0_i32_7 : BitVec 32 := 0#32
  ![v12.toNat, 0]

def k4_off5 (i : grid4.Coords) : Fin 1 → Nat :=
  let arg0 : BitVec 32 := BitVec.ofNat 32 (i 0).val
  let c128_i32 : BitVec 32 := 128#32
  let v0 : BitVec 32 := Scalar.muli arg0 c128_i32
  let c2_i32 : BitVec 32 := 2#32
  let v19 : BitVec 32 := Scalar.addi v0 c2_i32
  let v20 : Index := Scalar.indexCast v19
  ![v20.toNat]
def k4_off6 (v21 : BitVec 32) : Fin 2 → Nat :=
  let c0_i32_11 : BitVec 32 := 0#32
  ![v21.toNat, 0]

def k4_off7 (i : grid4.Coords) : Fin 1 → Nat :=
  let arg0 : BitVec 32 := BitVec.ofNat 32 (i 0).val
  let c128_i32 : BitVec 32 := 128#32
  let v0 : BitVec 32 := Scalar.muli arg0 c128_i32
  let c3_i32 : BitVec 32 := 3#32
  let v28 : BitVec 32 := Scalar.addi v0 c3_i32
  let v29 : Index := Scalar.indexCast v28
  ![v29.toNat]
def k4_off8 (v30 : BitVec 32) : Fin 2 → Nat :=
  let c0_i32_15 : BitVec 32 := 0#32
  ![v30.toNat, 0]

def k4_off9 (i : grid4.Coords) : Fin 1 → Nat :=
  let arg0 : BitVec 32 := BitVec.ofNat 32 (i 0).val
  let c128_i32 : BitVec 32 := 128#32
  let v0 : BitVec 32 := Scalar.muli arg0 c128_i32
  let c4_i32 : BitVec 32 := 4#32
  let v37 : BitVec 32 := Scalar.addi v0 c4_i32
  let v38 : Index := Scalar.indexCast v37
  ![v38.toNat]
def k4_off10 (v39 : BitVec 32) : Fin 2 → Nat :=
  let c0_i32_19 : BitVec 32 := 0#32
  ![v39.toNat, 0]

def k4_off11 (i : grid4.Coords) : Fin 1 → Nat :=
  let arg0 : BitVec 32 := BitVec.ofNat 32 (i 0).val
  let c128_i32 : BitVec 32 := 128#32
  let v0 : BitVec 32 := Scalar.muli arg0 c128_i32
  let c5_i32 : BitVec 32 := 5#32
  let v46 : BitVec 32 := Scalar.addi v0 c5_i32
  let v47 : Index := Scalar.indexCast v46
  ![v47.toNat]
def k4_off12 (v48 : BitVec 32) : Fin 2 → Nat :=
  let c0_i32_23 : BitVec 32 := 0#32
  ![v48.toNat, 0]

def k4_off13 (i : grid4.Coords) : Fin 1 → Nat :=
  let arg0 : BitVec 32 := BitVec.ofNat 32 (i 0).val
  let c128_i32 : BitVec 32 := 128#32
  let v0 : BitVec 32 := Scalar.muli arg0 c128_i32
  let c6_i32 : BitVec 32 := 6#32
  let v55 : BitVec 32 := Scalar.addi v0 c6_i32
  let v56 : Index := Scalar.indexCast v55
  ![v56.toNat]
def k4_off14 (v57 : BitVec 32) : Fin 2 → Nat :=
  let c0_i32_27 : BitVec 32 := 0#32
  ![v57.toNat, 0]

def k4_off15 (i : grid4.Coords) : Fin 1 → Nat :=
  let arg0 : BitVec 32 := BitVec.ofNat 32 (i 0).val
  let c128_i32 : BitVec 32 := 128#32
  let v0 : BitVec 32 := Scalar.muli arg0 c128_i32
  let c7_i32 : BitVec 32 := 7#32
  let v64 : BitVec 32 := Scalar.addi v0 c7_i32
  let v65 : Index := Scalar.indexCast v64
  ![v65.toNat]
def k4_off16 (v66 : BitVec 32) : Fin 2 → Nat :=
  let c0_i32_31 : BitVec 32 := 0#32
  ![v66.toNat, 0]

def k4_off17 (i : grid4.Coords) : Fin 1 → Nat :=
  let arg0 : BitVec 32 := BitVec.ofNat 32 (i 0).val
  let c128_i32 : BitVec 32 := 128#32
  let v0 : BitVec 32 := Scalar.muli arg0 c128_i32
  let c8_i32 : BitVec 32 := 8#32
  let v73 : BitVec 32 := Scalar.addi v0 c8_i32
  let v74 : Index := Scalar.indexCast v73
  ![v74.toNat]
def k4_off18 (v75 : BitVec 32) : Fin 2 → Nat :=
  let c0_i32_35 : BitVec 32 := 0#32
  ![v75.toNat, 0]

def k4_off19 (i : grid4.Coords) : Fin 1 → Nat :=
  let arg0 : BitVec 32 := BitVec.ofNat 32 (i 0).val
  let c128_i32 : BitVec 32 := 128#32
  let v0 : BitVec 32 := Scalar.muli arg0 c128_i32
  let c9_i32 : BitVec 32 := 9#32
  let v82 : BitVec 32 := Scalar.addi v0 c9_i32
  let v83 : Index := Scalar.indexCast v82
  ![v83.toNat]
def k4_off20 (v84 : BitVec 32) : Fin 2 → Nat :=
  let c0_i32_39 : BitVec 32 := 0#32
  ![v84.toNat, 0]

def k4_off21 (i : grid4.Coords) : Fin 1 → Nat :=
  let arg0 : BitVec 32 := BitVec.ofNat 32 (i 0).val
  let c128_i32 : BitVec 32 := 128#32
  let v0 : BitVec 32 := Scalar.muli arg0 c128_i32
  let c10_i32 : BitVec 32 := 10#32
  let v91 : BitVec 32 := Scalar.addi v0 c10_i32
  let v92 : Index := Scalar.indexCast v91
  ![v92.toNat]
def k4_off22 (v93 : BitVec 32) : Fin 2 → Nat :=
  let c0_i32_43 : BitVec 32 := 0#32
  ![v93.toNat, 0]

def k4_off23 (i : grid4.Coords) : Fin 1 → Nat :=
  let arg0 : BitVec 32 := BitVec.ofNat 32 (i 0).val
  let c128_i32 : BitVec 32 := 128#32
  let v0 : BitVec 32 := Scalar.muli arg0 c128_i32
  let c11_i32 : BitVec 32 := 11#32
  let v100 : BitVec 32 := Scalar.addi v0 c11_i32
  let v101 : Index := Scalar.indexCast v100
  ![v101.toNat]
def k4_off24 (v102 : BitVec 32) : Fin 2 → Nat :=
  let c0_i32_47 : BitVec 32 := 0#32
  ![v102.toNat, 0]

def k4_off25 (i : grid4.Coords) : Fin 1 → Nat :=
  let arg0 : BitVec 32 := BitVec.ofNat 32 (i 0).val
  let c128_i32 : BitVec 32 := 128#32
  let v0 : BitVec 32 := Scalar.muli arg0 c128_i32
  let c12_i32 : BitVec 32 := 12#32
  let v109 : BitVec 32 := Scalar.addi v0 c12_i32
  let v110 : Index := Scalar.indexCast v109
  ![v110.toNat]
def k4_off26 (v111 : BitVec 32) : Fin 2 → Nat :=
  let c0_i32_51 : BitVec 32 := 0#32
  ![v111.toNat, 0]

def k4_off27 (i : grid4.Coords) : Fin 1 → Nat :=
  let arg0 : BitVec 32 := BitVec.ofNat 32 (i 0).val
  let c128_i32 : BitVec 32 := 128#32
  let v0 : BitVec 32 := Scalar.muli arg0 c128_i32
  let c13_i32 : BitVec 32 := 13#32
  let v118 : BitVec 32 := Scalar.addi v0 c13_i32
  let v119 : Index := Scalar.indexCast v118
  ![v119.toNat]
def k4_off28 (v120 : BitVec 32) : Fin 2 → Nat :=
  let c0_i32_55 : BitVec 32 := 0#32
  ![v120.toNat, 0]

def k4_off29 (i : grid4.Coords) : Fin 1 → Nat :=
  let arg0 : BitVec 32 := BitVec.ofNat 32 (i 0).val
  let c128_i32 : BitVec 32 := 128#32
  let v0 : BitVec 32 := Scalar.muli arg0 c128_i32
  let c14_i32 : BitVec 32 := 14#32
  let v127 : BitVec 32 := Scalar.addi v0 c14_i32
  let v128 : Index := Scalar.indexCast v127
  ![v128.toNat]
def k4_off30 (v129 : BitVec 32) : Fin 2 → Nat :=
  let c0_i32_59 : BitVec 32 := 0#32
  ![v129.toNat, 0]

def k4_off31 (i : grid4.Coords) : Fin 1 → Nat :=
  let arg0 : BitVec 32 := BitVec.ofNat 32 (i 0).val
  let c128_i32 : BitVec 32 := 128#32
  let v0 : BitVec 32 := Scalar.muli arg0 c128_i32
  let c15_i32 : BitVec 32 := 15#32
  let v136 : BitVec 32 := Scalar.addi v0 c15_i32
  let v137 : Index := Scalar.indexCast v136
  ![v137.toNat]
def k4_off32 (v138 : BitVec 32) : Fin 2 → Nat :=
  let c0_i32_63 : BitVec 32 := 0#32
  ![v138.toNat, 0]

def k4_off33 (i : grid4.Coords) : Fin 1 → Nat :=
  let arg0 : BitVec 32 := BitVec.ofNat 32 (i 0).val
  let c128_i32 : BitVec 32 := 128#32
  let v0 : BitVec 32 := Scalar.muli arg0 c128_i32
  let c16_i32 : BitVec 32 := 16#32
  let v145 : BitVec 32 := Scalar.addi v0 c16_i32
  let v146 : Index := Scalar.indexCast v145
  ![v146.toNat]
def k4_off34 (v147 : BitVec 32) : Fin 2 → Nat :=
  let c0_i32_67 : BitVec 32 := 0#32
  ![v147.toNat, 0]

def k4_off35 (i : grid4.Coords) : Fin 1 → Nat :=
  let arg0 : BitVec 32 := BitVec.ofNat 32 (i 0).val
  let c128_i32 : BitVec 32 := 128#32
  let v0 : BitVec 32 := Scalar.muli arg0 c128_i32
  let c17_i32 : BitVec 32 := 17#32
  let v154 : BitVec 32 := Scalar.addi v0 c17_i32
  let v155 : Index := Scalar.indexCast v154
  ![v155.toNat]
def k4_off36 (v156 : BitVec 32) : Fin 2 → Nat :=
  let c0_i32_71 : BitVec 32 := 0#32
  ![v156.toNat, 0]

def k4_off37 (i : grid4.Coords) : Fin 1 → Nat :=
  let arg0 : BitVec 32 := BitVec.ofNat 32 (i 0).val
  let c128_i32 : BitVec 32 := 128#32
  let v0 : BitVec 32 := Scalar.muli arg0 c128_i32
  let c18_i32 : BitVec 32 := 18#32
  let v163 : BitVec 32 := Scalar.addi v0 c18_i32
  let v164 : Index := Scalar.indexCast v163
  ![v164.toNat]
def k4_off38 (v165 : BitVec 32) : Fin 2 → Nat :=
  let c0_i32_75 : BitVec 32 := 0#32
  ![v165.toNat, 0]

def k4_off39 (i : grid4.Coords) : Fin 1 → Nat :=
  let arg0 : BitVec 32 := BitVec.ofNat 32 (i 0).val
  let c128_i32 : BitVec 32 := 128#32
  let v0 : BitVec 32 := Scalar.muli arg0 c128_i32
  let c19_i32 : BitVec 32 := 19#32
  let v172 : BitVec 32 := Scalar.addi v0 c19_i32
  let v173 : Index := Scalar.indexCast v172
  ![v173.toNat]
def k4_off40 (v174 : BitVec 32) : Fin 2 → Nat :=
  let c0_i32_79 : BitVec 32 := 0#32
  ![v174.toNat, 0]

def k4_off41 (i : grid4.Coords) : Fin 1 → Nat :=
  let arg0 : BitVec 32 := BitVec.ofNat 32 (i 0).val
  let c128_i32 : BitVec 32 := 128#32
  let v0 : BitVec 32 := Scalar.muli arg0 c128_i32
  let c20_i32 : BitVec 32 := 20#32
  let v181 : BitVec 32 := Scalar.addi v0 c20_i32
  let v182 : Index := Scalar.indexCast v181
  ![v182.toNat]
def k4_off42 (v183 : BitVec 32) : Fin 2 → Nat :=
  let c0_i32_83 : BitVec 32 := 0#32
  ![v183.toNat, 0]

def k4_off43 (i : grid4.Coords) : Fin 1 → Nat :=
  let arg0 : BitVec 32 := BitVec.ofNat 32 (i 0).val
  let c128_i32 : BitVec 32 := 128#32
  let v0 : BitVec 32 := Scalar.muli arg0 c128_i32
  let c21_i32 : BitVec 32 := 21#32
  let v190 : BitVec 32 := Scalar.addi v0 c21_i32
  let v191 : Index := Scalar.indexCast v190
  ![v191.toNat]
def k4_off44 (v192 : BitVec 32) : Fin 2 → Nat :=
  let c0_i32_87 : BitVec 32 := 0#32
  ![v192.toNat, 0]

def k4_off45 (i : grid4.Coords) : Fin 1 → Nat :=
  let arg0 : BitVec 32 := BitVec.ofNat 32 (i 0).val
  let c128_i32 : BitVec 32 := 128#32
  let v0 : BitVec 32 := Scalar.muli arg0 c128_i32
  let c22_i32 : BitVec 32 := 22#32
  let v199 : BitVec 32 := Scalar.addi v0 c22_i32
  let v200 : Index := Scalar.indexCast v199
  ![v200.toNat]
def k4_off46 (v201 : BitVec 32) : Fin 2 → Nat :=
  let c0_i32_91 : BitVec 32 := 0#32
  ![v201.toNat, 0]

def k4_off47 (i : grid4.Coords) : Fin 1 → Nat :=
  let arg0 : BitVec 32 := BitVec.ofNat 32 (i 0).val
  let c128_i32 : BitVec 32 := 128#32
  let v0 : BitVec 32 := Scalar.muli arg0 c128_i32
  let c23_i32 : BitVec 32 := 23#32
  let v208 : BitVec 32 := Scalar.addi v0 c23_i32
  let v209 : Index := Scalar.indexCast v208
  ![v209.toNat]
def k4_off48 (v210 : BitVec 32) : Fin 2 → Nat :=
  let c0_i32_95 : BitVec 32 := 0#32
  ![v210.toNat, 0]

def k4_off49 (i : grid4.Coords) : Fin 1 → Nat :=
  let arg0 : BitVec 32 := BitVec.ofNat 32 (i 0).val
  let c128_i32 : BitVec 32 := 128#32
  let v0 : BitVec 32 := Scalar.muli arg0 c128_i32
  let c24_i32 : BitVec 32 := 24#32
  let v217 : BitVec 32 := Scalar.addi v0 c24_i32
  let v218 : Index := Scalar.indexCast v217
  ![v218.toNat]
def k4_off50 (v219 : BitVec 32) : Fin 2 → Nat :=
  let c0_i32_99 : BitVec 32 := 0#32
  ![v219.toNat, 0]

def k4_off51 (i : grid4.Coords) : Fin 1 → Nat :=
  let arg0 : BitVec 32 := BitVec.ofNat 32 (i 0).val
  let c128_i32 : BitVec 32 := 128#32
  let v0 : BitVec 32 := Scalar.muli arg0 c128_i32
  let c25_i32 : BitVec 32 := 25#32
  let v226 : BitVec 32 := Scalar.addi v0 c25_i32
  let v227 : Index := Scalar.indexCast v226
  ![v227.toNat]
def k4_off52 (v228 : BitVec 32) : Fin 2 → Nat :=
  let c0_i32_103 : BitVec 32 := 0#32
  ![v228.toNat, 0]

def k4_off53 (i : grid4.Coords) : Fin 1 → Nat :=
  let arg0 : BitVec 32 := BitVec.ofNat 32 (i 0).val
  let c128_i32 : BitVec 32 := 128#32
  let v0 : BitVec 32 := Scalar.muli arg0 c128_i32
  let c26_i32 : BitVec 32 := 26#32
  let v235 : BitVec 32 := Scalar.addi v0 c26_i32
  let v236 : Index := Scalar.indexCast v235
  ![v236.toNat]
def k4_off54 (v237 : BitVec 32) : Fin 2 → Nat :=
  let c0_i32_107 : BitVec 32 := 0#32
  ![v237.toNat, 0]

def k4_off55 (i : grid4.Coords) : Fin 1 → Nat :=
  let arg0 : BitVec 32 := BitVec.ofNat 32 (i 0).val
  let c128_i32 : BitVec 32 := 128#32
  let v0 : BitVec 32 := Scalar.muli arg0 c128_i32
  let c27_i32 : BitVec 32 := 27#32
  let v244 : BitVec 32 := Scalar.addi v0 c27_i32
  let v245 : Index := Scalar.indexCast v244
  ![v245.toNat]
def k4_off56 (v246 : BitVec 32) : Fin 2 → Nat :=
  let c0_i32_111 : BitVec 32 := 0#32
  ![v246.toNat, 0]

def k4_off57 (i : grid4.Coords) : Fin 1 → Nat :=
  let arg0 : BitVec 32 := BitVec.ofNat 32 (i 0).val
  let c128_i32 : BitVec 32 := 128#32
  let v0 : BitVec 32 := Scalar.muli arg0 c128_i32
  let c28_i32 : BitVec 32 := 28#32
  let v253 : BitVec 32 := Scalar.addi v0 c28_i32
  let v254 : Index := Scalar.indexCast v253
  ![v254.toNat]
def k4_off58 (v255 : BitVec 32) : Fin 2 → Nat :=
  let c0_i32_115 : BitVec 32 := 0#32
  ![v255.toNat, 0]

def k4_off59 (i : grid4.Coords) : Fin 1 → Nat :=
  let arg0 : BitVec 32 := BitVec.ofNat 32 (i 0).val
  let c128_i32 : BitVec 32 := 128#32
  let v0 : BitVec 32 := Scalar.muli arg0 c128_i32
  let c29_i32 : BitVec 32 := 29#32
  let v262 : BitVec 32 := Scalar.addi v0 c29_i32
  let v263 : Index := Scalar.indexCast v262
  ![v263.toNat]
def k4_off60 (v264 : BitVec 32) : Fin 2 → Nat :=
  let c0_i32_119 : BitVec 32 := 0#32
  ![v264.toNat, 0]

def k4_off61 (i : grid4.Coords) : Fin 1 → Nat :=
  let arg0 : BitVec 32 := BitVec.ofNat 32 (i 0).val
  let c128_i32 : BitVec 32 := 128#32
  let v0 : BitVec 32 := Scalar.muli arg0 c128_i32
  let c30_i32 : BitVec 32 := 30#32
  let v271 : BitVec 32 := Scalar.addi v0 c30_i32
  let v272 : Index := Scalar.indexCast v271
  ![v272.toNat]
def k4_off62 (v273 : BitVec 32) : Fin 2 → Nat :=
  let c0_i32_123 : BitVec 32 := 0#32
  ![v273.toNat, 0]

def k4_off63 (i : grid4.Coords) : Fin 1 → Nat :=
  let arg0 : BitVec 32 := BitVec.ofNat 32 (i 0).val
  let c128_i32 : BitVec 32 := 128#32
  let v0 : BitVec 32 := Scalar.muli arg0 c128_i32
  let c31_i32 : BitVec 32 := 31#32
  let v280 : BitVec 32 := Scalar.addi v0 c31_i32
  let v281 : Index := Scalar.indexCast v280
  ![v281.toNat]
def k4_off64 (v282 : BitVec 32) : Fin 2 → Nat :=
  let c0_i32_127 : BitVec 32 := 0#32
  ![v282.toNat, 0]

def k4_off65 (i : grid4.Coords) : Fin 1 → Nat :=
  let arg0 : BitVec 32 := BitVec.ofNat 32 (i 0).val
  let c128_i32 : BitVec 32 := 128#32
  let v0 : BitVec 32 := Scalar.muli arg0 c128_i32
  let c32_i32 : BitVec 32 := 32#32
  let v289 : BitVec 32 := Scalar.addi v0 c32_i32
  let v290 : Index := Scalar.indexCast v289
  ![v290.toNat]
def k4_off66 (v291 : BitVec 32) : Fin 2 → Nat :=
  let c0_i32_131 : BitVec 32 := 0#32
  ![v291.toNat, 0]

def k4_off67 (i : grid4.Coords) : Fin 1 → Nat :=
  let arg0 : BitVec 32 := BitVec.ofNat 32 (i 0).val
  let c128_i32 : BitVec 32 := 128#32
  let v0 : BitVec 32 := Scalar.muli arg0 c128_i32
  let c33_i32 : BitVec 32 := 33#32
  let v298 : BitVec 32 := Scalar.addi v0 c33_i32
  let v299 : Index := Scalar.indexCast v298
  ![v299.toNat]
def k4_off68 (v300 : BitVec 32) : Fin 2 → Nat :=
  let c0_i32_135 : BitVec 32 := 0#32
  ![v300.toNat, 0]

def k4_off69 (i : grid4.Coords) : Fin 1 → Nat :=
  let arg0 : BitVec 32 := BitVec.ofNat 32 (i 0).val
  let c128_i32 : BitVec 32 := 128#32
  let v0 : BitVec 32 := Scalar.muli arg0 c128_i32
  let c34_i32 : BitVec 32 := 34#32
  let v307 : BitVec 32 := Scalar.addi v0 c34_i32
  let v308 : Index := Scalar.indexCast v307
  ![v308.toNat]
def k4_off70 (v309 : BitVec 32) : Fin 2 → Nat :=
  let c0_i32_139 : BitVec 32 := 0#32
  ![v309.toNat, 0]

def k4_off71 (i : grid4.Coords) : Fin 1 → Nat :=
  let arg0 : BitVec 32 := BitVec.ofNat 32 (i 0).val
  let c128_i32 : BitVec 32 := 128#32
  let v0 : BitVec 32 := Scalar.muli arg0 c128_i32
  let c35_i32 : BitVec 32 := 35#32
  let v316 : BitVec 32 := Scalar.addi v0 c35_i32
  let v317 : Index := Scalar.indexCast v316
  ![v317.toNat]
def k4_off72 (v318 : BitVec 32) : Fin 2 → Nat :=
  let c0_i32_143 : BitVec 32 := 0#32
  ![v318.toNat, 0]

def k4_off73 (i : grid4.Coords) : Fin 1 → Nat :=
  let arg0 : BitVec 32 := BitVec.ofNat 32 (i 0).val
  let c128_i32 : BitVec 32 := 128#32
  let v0 : BitVec 32 := Scalar.muli arg0 c128_i32
  let c36_i32 : BitVec 32 := 36#32
  let v325 : BitVec 32 := Scalar.addi v0 c36_i32
  let v326 : Index := Scalar.indexCast v325
  ![v326.toNat]
def k4_off74 (v327 : BitVec 32) : Fin 2 → Nat :=
  let c0_i32_147 : BitVec 32 := 0#32
  ![v327.toNat, 0]

def k4_off75 (i : grid4.Coords) : Fin 1 → Nat :=
  let arg0 : BitVec 32 := BitVec.ofNat 32 (i 0).val
  let c128_i32 : BitVec 32 := 128#32
  let v0 : BitVec 32 := Scalar.muli arg0 c128_i32
  let c37_i32 : BitVec 32 := 37#32
  let v334 : BitVec 32 := Scalar.addi v0 c37_i32
  let v335 : Index := Scalar.indexCast v334
  ![v335.toNat]
def k4_off76 (v336 : BitVec 32) : Fin 2 → Nat :=
  let c0_i32_151 : BitVec 32 := 0#32
  ![v336.toNat, 0]

def k4_off77 (i : grid4.Coords) : Fin 1 → Nat :=
  let arg0 : BitVec 32 := BitVec.ofNat 32 (i 0).val
  let c128_i32 : BitVec 32 := 128#32
  let v0 : BitVec 32 := Scalar.muli arg0 c128_i32
  let c38_i32 : BitVec 32 := 38#32
  let v343 : BitVec 32 := Scalar.addi v0 c38_i32
  let v344 : Index := Scalar.indexCast v343
  ![v344.toNat]
def k4_off78 (v345 : BitVec 32) : Fin 2 → Nat :=
  let c0_i32_155 : BitVec 32 := 0#32
  ![v345.toNat, 0]

def k4_off79 (i : grid4.Coords) : Fin 1 → Nat :=
  let arg0 : BitVec 32 := BitVec.ofNat 32 (i 0).val
  let c128_i32 : BitVec 32 := 128#32
  let v0 : BitVec 32 := Scalar.muli arg0 c128_i32
  let c39_i32 : BitVec 32 := 39#32
  let v352 : BitVec 32 := Scalar.addi v0 c39_i32
  let v353 : Index := Scalar.indexCast v352
  ![v353.toNat]
def k4_off80 (v354 : BitVec 32) : Fin 2 → Nat :=
  let c0_i32_159 : BitVec 32 := 0#32
  ![v354.toNat, 0]

def k4_off81 (i : grid4.Coords) : Fin 1 → Nat :=
  let arg0 : BitVec 32 := BitVec.ofNat 32 (i 0).val
  let c128_i32 : BitVec 32 := 128#32
  let v0 : BitVec 32 := Scalar.muli arg0 c128_i32
  let c40_i32 : BitVec 32 := 40#32
  let v361 : BitVec 32 := Scalar.addi v0 c40_i32
  let v362 : Index := Scalar.indexCast v361
  ![v362.toNat]
def k4_off82 (v363 : BitVec 32) : Fin 2 → Nat :=
  let c0_i32_163 : BitVec 32 := 0#32
  ![v363.toNat, 0]

def k4_off83 (i : grid4.Coords) : Fin 1 → Nat :=
  let arg0 : BitVec 32 := BitVec.ofNat 32 (i 0).val
  let c128_i32 : BitVec 32 := 128#32
  let v0 : BitVec 32 := Scalar.muli arg0 c128_i32
  let c41_i32 : BitVec 32 := 41#32
  let v370 : BitVec 32 := Scalar.addi v0 c41_i32
  let v371 : Index := Scalar.indexCast v370
  ![v371.toNat]
def k4_off84 (v372 : BitVec 32) : Fin 2 → Nat :=
  let c0_i32_167 : BitVec 32 := 0#32
  ![v372.toNat, 0]

def k4_off85 (i : grid4.Coords) : Fin 1 → Nat :=
  let arg0 : BitVec 32 := BitVec.ofNat 32 (i 0).val
  let c128_i32 : BitVec 32 := 128#32
  let v0 : BitVec 32 := Scalar.muli arg0 c128_i32
  let c42_i32 : BitVec 32 := 42#32
  let v379 : BitVec 32 := Scalar.addi v0 c42_i32
  let v380 : Index := Scalar.indexCast v379
  ![v380.toNat]
def k4_off86 (v381 : BitVec 32) : Fin 2 → Nat :=
  let c0_i32_171 : BitVec 32 := 0#32
  ![v381.toNat, 0]

def k4_off87 (i : grid4.Coords) : Fin 1 → Nat :=
  let arg0 : BitVec 32 := BitVec.ofNat 32 (i 0).val
  let c128_i32 : BitVec 32 := 128#32
  let v0 : BitVec 32 := Scalar.muli arg0 c128_i32
  let c43_i32 : BitVec 32 := 43#32
  let v388 : BitVec 32 := Scalar.addi v0 c43_i32
  let v389 : Index := Scalar.indexCast v388
  ![v389.toNat]
def k4_off88 (v390 : BitVec 32) : Fin 2 → Nat :=
  let c0_i32_175 : BitVec 32 := 0#32
  ![v390.toNat, 0]

def k4_off89 (i : grid4.Coords) : Fin 1 → Nat :=
  let arg0 : BitVec 32 := BitVec.ofNat 32 (i 0).val
  let c128_i32 : BitVec 32 := 128#32
  let v0 : BitVec 32 := Scalar.muli arg0 c128_i32
  let c44_i32 : BitVec 32 := 44#32
  let v397 : BitVec 32 := Scalar.addi v0 c44_i32
  let v398 : Index := Scalar.indexCast v397
  ![v398.toNat]
def k4_off90 (v399 : BitVec 32) : Fin 2 → Nat :=
  let c0_i32_179 : BitVec 32 := 0#32
  ![v399.toNat, 0]

def k4_off91 (i : grid4.Coords) : Fin 1 → Nat :=
  let arg0 : BitVec 32 := BitVec.ofNat 32 (i 0).val
  let c128_i32 : BitVec 32 := 128#32
  let v0 : BitVec 32 := Scalar.muli arg0 c128_i32
  let c45_i32 : BitVec 32 := 45#32
  let v406 : BitVec 32 := Scalar.addi v0 c45_i32
  let v407 : Index := Scalar.indexCast v406
  ![v407.toNat]
def k4_off92 (v408 : BitVec 32) : Fin 2 → Nat :=
  let c0_i32_183 : BitVec 32 := 0#32
  ![v408.toNat, 0]

def k4_off93 (i : grid4.Coords) : Fin 1 → Nat :=
  let arg0 : BitVec 32 := BitVec.ofNat 32 (i 0).val
  let c128_i32 : BitVec 32 := 128#32
  let v0 : BitVec 32 := Scalar.muli arg0 c128_i32
  let c46_i32 : BitVec 32 := 46#32
  let v415 : BitVec 32 := Scalar.addi v0 c46_i32
  let v416 : Index := Scalar.indexCast v415
  ![v416.toNat]
def k4_off94 (v417 : BitVec 32) : Fin 2 → Nat :=
  let c0_i32_187 : BitVec 32 := 0#32
  ![v417.toNat, 0]

def k4_off95 (i : grid4.Coords) : Fin 1 → Nat :=
  let arg0 : BitVec 32 := BitVec.ofNat 32 (i 0).val
  let c128_i32 : BitVec 32 := 128#32
  let v0 : BitVec 32 := Scalar.muli arg0 c128_i32
  let c47_i32 : BitVec 32 := 47#32
  let v424 : BitVec 32 := Scalar.addi v0 c47_i32
  let v425 : Index := Scalar.indexCast v424
  ![v425.toNat]
def k4_off96 (v426 : BitVec 32) : Fin 2 → Nat :=
  let c0_i32_191 : BitVec 32 := 0#32
  ![v426.toNat, 0]

def k4_off97 (i : grid4.Coords) : Fin 1 → Nat :=
  let arg0 : BitVec 32 := BitVec.ofNat 32 (i 0).val
  let c128_i32 : BitVec 32 := 128#32
  let v0 : BitVec 32 := Scalar.muli arg0 c128_i32
  let c48_i32 : BitVec 32 := 48#32
  let v433 : BitVec 32 := Scalar.addi v0 c48_i32
  let v434 : Index := Scalar.indexCast v433
  ![v434.toNat]
def k4_off98 (v435 : BitVec 32) : Fin 2 → Nat :=
  let c0_i32_195 : BitVec 32 := 0#32
  ![v435.toNat, 0]

def k4_off99 (i : grid4.Coords) : Fin 1 → Nat :=
  let arg0 : BitVec 32 := BitVec.ofNat 32 (i 0).val
  let c128_i32 : BitVec 32 := 128#32
  let v0 : BitVec 32 := Scalar.muli arg0 c128_i32
  let c49_i32 : BitVec 32 := 49#32
  let v442 : BitVec 32 := Scalar.addi v0 c49_i32
  let v443 : Index := Scalar.indexCast v442
  ![v443.toNat]
def k4_off100 (v444 : BitVec 32) : Fin 2 → Nat :=
  let c0_i32_199 : BitVec 32 := 0#32
  ![v444.toNat, 0]

def k4_off101 (i : grid4.Coords) : Fin 1 → Nat :=
  let arg0 : BitVec 32 := BitVec.ofNat 32 (i 0).val
  let c128_i32 : BitVec 32 := 128#32
  let v0 : BitVec 32 := Scalar.muli arg0 c128_i32
  let c50_i32 : BitVec 32 := 50#32
  let v451 : BitVec 32 := Scalar.addi v0 c50_i32
  let v452 : Index := Scalar.indexCast v451
  ![v452.toNat]
def k4_off102 (v453 : BitVec 32) : Fin 2 → Nat :=
  let c0_i32_203 : BitVec 32 := 0#32
  ![v453.toNat, 0]

def k4_off103 (i : grid4.Coords) : Fin 1 → Nat :=
  let arg0 : BitVec 32 := BitVec.ofNat 32 (i 0).val
  let c128_i32 : BitVec 32 := 128#32
  let v0 : BitVec 32 := Scalar.muli arg0 c128_i32
  let c51_i32 : BitVec 32 := 51#32
  let v460 : BitVec 32 := Scalar.addi v0 c51_i32
  let v461 : Index := Scalar.indexCast v460
  ![v461.toNat]
def k4_off104 (v462 : BitVec 32) : Fin 2 → Nat :=
  let c0_i32_207 : BitVec 32 := 0#32
  ![v462.toNat, 0]

def k4_off105 (i : grid4.Coords) : Fin 1 → Nat :=
  let arg0 : BitVec 32 := BitVec.ofNat 32 (i 0).val
  let c128_i32 : BitVec 32 := 128#32
  let v0 : BitVec 32 := Scalar.muli arg0 c128_i32
  let c52_i32 : BitVec 32 := 52#32
  let v469 : BitVec 32 := Scalar.addi v0 c52_i32
  let v470 : Index := Scalar.indexCast v469
  ![v470.toNat]
def k4_off106 (v471 : BitVec 32) : Fin 2 → Nat :=
  let c0_i32_211 : BitVec 32 := 0#32
  ![v471.toNat, 0]

def k4_off107 (i : grid4.Coords) : Fin 1 → Nat :=
  let arg0 : BitVec 32 := BitVec.ofNat 32 (i 0).val
  let c128_i32 : BitVec 32 := 128#32
  let v0 : BitVec 32 := Scalar.muli arg0 c128_i32
  let c53_i32 : BitVec 32 := 53#32
  let v478 : BitVec 32 := Scalar.addi v0 c53_i32
  let v479 : Index := Scalar.indexCast v478
  ![v479.toNat]
def k4_off108 (v480 : BitVec 32) : Fin 2 → Nat :=
  let c0_i32_215 : BitVec 32 := 0#32
  ![v480.toNat, 0]

def k4_off109 (i : grid4.Coords) : Fin 1 → Nat :=
  let arg0 : BitVec 32 := BitVec.ofNat 32 (i 0).val
  let c128_i32 : BitVec 32 := 128#32
  let v0 : BitVec 32 := Scalar.muli arg0 c128_i32
  let c54_i32 : BitVec 32 := 54#32
  let v487 : BitVec 32 := Scalar.addi v0 c54_i32
  let v488 : Index := Scalar.indexCast v487
  ![v488.toNat]
def k4_off110 (v489 : BitVec 32) : Fin 2 → Nat :=
  let c0_i32_219 : BitVec 32 := 0#32
  ![v489.toNat, 0]

def k4_off111 (i : grid4.Coords) : Fin 1 → Nat :=
  let arg0 : BitVec 32 := BitVec.ofNat 32 (i 0).val
  let c128_i32 : BitVec 32 := 128#32
  let v0 : BitVec 32 := Scalar.muli arg0 c128_i32
  let c55_i32 : BitVec 32 := 55#32
  let v496 : BitVec 32 := Scalar.addi v0 c55_i32
  let v497 : Index := Scalar.indexCast v496
  ![v497.toNat]
def k4_off112 (v498 : BitVec 32) : Fin 2 → Nat :=
  let c0_i32_223 : BitVec 32 := 0#32
  ![v498.toNat, 0]

def k4_off113 (i : grid4.Coords) : Fin 1 → Nat :=
  let arg0 : BitVec 32 := BitVec.ofNat 32 (i 0).val
  let c128_i32 : BitVec 32 := 128#32
  let v0 : BitVec 32 := Scalar.muli arg0 c128_i32
  let c56_i32 : BitVec 32 := 56#32
  let v505 : BitVec 32 := Scalar.addi v0 c56_i32
  let v506 : Index := Scalar.indexCast v505
  ![v506.toNat]
def k4_off114 (v507 : BitVec 32) : Fin 2 → Nat :=
  let c0_i32_227 : BitVec 32 := 0#32
  ![v507.toNat, 0]

def k4_off115 (i : grid4.Coords) : Fin 1 → Nat :=
  let arg0 : BitVec 32 := BitVec.ofNat 32 (i 0).val
  let c128_i32 : BitVec 32 := 128#32
  let v0 : BitVec 32 := Scalar.muli arg0 c128_i32
  let c57_i32 : BitVec 32 := 57#32
  let v514 : BitVec 32 := Scalar.addi v0 c57_i32
  let v515 : Index := Scalar.indexCast v514
  ![v515.toNat]
def k4_off116 (v516 : BitVec 32) : Fin 2 → Nat :=
  let c0_i32_231 : BitVec 32 := 0#32
  ![v516.toNat, 0]

def k4_off117 (i : grid4.Coords) : Fin 1 → Nat :=
  let arg0 : BitVec 32 := BitVec.ofNat 32 (i 0).val
  let c128_i32 : BitVec 32 := 128#32
  let v0 : BitVec 32 := Scalar.muli arg0 c128_i32
  let c58_i32 : BitVec 32 := 58#32
  let v523 : BitVec 32 := Scalar.addi v0 c58_i32
  let v524 : Index := Scalar.indexCast v523
  ![v524.toNat]
def k4_off118 (v525 : BitVec 32) : Fin 2 → Nat :=
  let c0_i32_235 : BitVec 32 := 0#32
  ![v525.toNat, 0]

def k4_off119 (i : grid4.Coords) : Fin 1 → Nat :=
  let arg0 : BitVec 32 := BitVec.ofNat 32 (i 0).val
  let c128_i32 : BitVec 32 := 128#32
  let v0 : BitVec 32 := Scalar.muli arg0 c128_i32
  let c59_i32 : BitVec 32 := 59#32
  let v532 : BitVec 32 := Scalar.addi v0 c59_i32
  let v533 : Index := Scalar.indexCast v532
  ![v533.toNat]
def k4_off120 (v534 : BitVec 32) : Fin 2 → Nat :=
  let c0_i32_239 : BitVec 32 := 0#32
  ![v534.toNat, 0]

def k4_off121 (i : grid4.Coords) : Fin 1 → Nat :=
  let arg0 : BitVec 32 := BitVec.ofNat 32 (i 0).val
  let c128_i32 : BitVec 32 := 128#32
  let v0 : BitVec 32 := Scalar.muli arg0 c128_i32
  let c60_i32 : BitVec 32 := 60#32
  let v541 : BitVec 32 := Scalar.addi v0 c60_i32
  let v542 : Index := Scalar.indexCast v541
  ![v542.toNat]
def k4_off122 (v543 : BitVec 32) : Fin 2 → Nat :=
  let c0_i32_243 : BitVec 32 := 0#32
  ![v543.toNat, 0]

def k4_off123 (i : grid4.Coords) : Fin 1 → Nat :=
  let arg0 : BitVec 32 := BitVec.ofNat 32 (i 0).val
  let c128_i32 : BitVec 32 := 128#32
  let v0 : BitVec 32 := Scalar.muli arg0 c128_i32
  let c61_i32 : BitVec 32 := 61#32
  let v550 : BitVec 32 := Scalar.addi v0 c61_i32
  let v551 : Index := Scalar.indexCast v550
  ![v551.toNat]
def k4_off124 (v552 : BitVec 32) : Fin 2 → Nat :=
  let c0_i32_247 : BitVec 32 := 0#32
  ![v552.toNat, 0]

def k4_off125 (i : grid4.Coords) : Fin 1 → Nat :=
  let arg0 : BitVec 32 := BitVec.ofNat 32 (i 0).val
  let c128_i32 : BitVec 32 := 128#32
  let v0 : BitVec 32 := Scalar.muli arg0 c128_i32
  let c62_i32 : BitVec 32 := 62#32
  let v559 : BitVec 32 := Scalar.addi v0 c62_i32
  let v560 : Index := Scalar.indexCast v559
  ![v560.toNat]
def k4_off126 (v561 : BitVec 32) : Fin 2 → Nat :=
  let c0_i32_251 : BitVec 32 := 0#32
  ![v561.toNat, 0]

def k4_off127 (i : grid4.Coords) : Fin 1 → Nat :=
  let arg0 : BitVec 32 := BitVec.ofNat 32 (i 0).val
  let c128_i32 : BitVec 32 := 128#32
  let v0 : BitVec 32 := Scalar.muli arg0 c128_i32
  let c63_i32 : BitVec 32 := 63#32
  let v568 : BitVec 32 := Scalar.addi v0 c63_i32
  let v569 : Index := Scalar.indexCast v568
  ![v569.toNat]
def k4_off128 (v570 : BitVec 32) : Fin 2 → Nat :=
  let c0_i32_255 : BitVec 32 := 0#32
  ![v570.toNat, 0]

def k4_off129 (i : grid4.Coords) : Fin 1 → Nat :=
  let arg0 : BitVec 32 := BitVec.ofNat 32 (i 0).val
  let c128_i32 : BitVec 32 := 128#32
  let v0 : BitVec 32 := Scalar.muli arg0 c128_i32
  let c64_i32 : BitVec 32 := 64#32
  let v577 : BitVec 32 := Scalar.addi v0 c64_i32
  let v578 : Index := Scalar.indexCast v577
  ![v578.toNat]
def k4_off130 (v579 : BitVec 32) : Fin 2 → Nat :=
  let c0_i32_259 : BitVec 32 := 0#32
  ![v579.toNat, 0]

def k4_off131 (i : grid4.Coords) : Fin 1 → Nat :=
  let arg0 : BitVec 32 := BitVec.ofNat 32 (i 0).val
  let c128_i32 : BitVec 32 := 128#32
  let v0 : BitVec 32 := Scalar.muli arg0 c128_i32
  let c65_i32 : BitVec 32 := 65#32
  let v586 : BitVec 32 := Scalar.addi v0 c65_i32
  let v587 : Index := Scalar.indexCast v586
  ![v587.toNat]
def k4_off132 (v588 : BitVec 32) : Fin 2 → Nat :=
  let c0_i32_263 : BitVec 32 := 0#32
  ![v588.toNat, 0]

def k4_off133 (i : grid4.Coords) : Fin 1 → Nat :=
  let arg0 : BitVec 32 := BitVec.ofNat 32 (i 0).val
  let c128_i32 : BitVec 32 := 128#32
  let v0 : BitVec 32 := Scalar.muli arg0 c128_i32
  let c66_i32 : BitVec 32 := 66#32
  let v595 : BitVec 32 := Scalar.addi v0 c66_i32
  let v596 : Index := Scalar.indexCast v595
  ![v596.toNat]
def k4_off134 (v597 : BitVec 32) : Fin 2 → Nat :=
  let c0_i32_267 : BitVec 32 := 0#32
  ![v597.toNat, 0]

def k4_off135 (i : grid4.Coords) : Fin 1 → Nat :=
  let arg0 : BitVec 32 := BitVec.ofNat 32 (i 0).val
  let c128_i32 : BitVec 32 := 128#32
  let v0 : BitVec 32 := Scalar.muli arg0 c128_i32
  let c67_i32 : BitVec 32 := 67#32
  let v604 : BitVec 32 := Scalar.addi v0 c67_i32
  let v605 : Index := Scalar.indexCast v604
  ![v605.toNat]
def k4_off136 (v606 : BitVec 32) : Fin 2 → Nat :=
  let c0_i32_271 : BitVec 32 := 0#32
  ![v606.toNat, 0]

def k4_off137 (i : grid4.Coords) : Fin 1 → Nat :=
  let arg0 : BitVec 32 := BitVec.ofNat 32 (i 0).val
  let c128_i32 : BitVec 32 := 128#32
  let v0 : BitVec 32 := Scalar.muli arg0 c128_i32
  let c68_i32 : BitVec 32 := 68#32
  let v613 : BitVec 32 := Scalar.addi v0 c68_i32
  let v614 : Index := Scalar.indexCast v613
  ![v614.toNat]
def k4_off138 (v615 : BitVec 32) : Fin 2 → Nat :=
  let c0_i32_275 : BitVec 32 := 0#32
  ![v615.toNat, 0]

def k4_off139 (i : grid4.Coords) : Fin 1 → Nat :=
  let arg0 : BitVec 32 := BitVec.ofNat 32 (i 0).val
  let c128_i32 : BitVec 32 := 128#32
  let v0 : BitVec 32 := Scalar.muli arg0 c128_i32
  let c69_i32 : BitVec 32 := 69#32
  let v622 : BitVec 32 := Scalar.addi v0 c69_i32
  let v623 : Index := Scalar.indexCast v622
  ![v623.toNat]
def k4_off140 (v624 : BitVec 32) : Fin 2 → Nat :=
  let c0_i32_279 : BitVec 32 := 0#32
  ![v624.toNat, 0]

def k4_off141 (i : grid4.Coords) : Fin 1 → Nat :=
  let arg0 : BitVec 32 := BitVec.ofNat 32 (i 0).val
  let c128_i32 : BitVec 32 := 128#32
  let v0 : BitVec 32 := Scalar.muli arg0 c128_i32
  let c70_i32 : BitVec 32 := 70#32
  let v631 : BitVec 32 := Scalar.addi v0 c70_i32
  let v632 : Index := Scalar.indexCast v631
  ![v632.toNat]
def k4_off142 (v633 : BitVec 32) : Fin 2 → Nat :=
  let c0_i32_283 : BitVec 32 := 0#32
  ![v633.toNat, 0]

def k4_off143 (i : grid4.Coords) : Fin 1 → Nat :=
  let arg0 : BitVec 32 := BitVec.ofNat 32 (i 0).val
  let c128_i32 : BitVec 32 := 128#32
  let v0 : BitVec 32 := Scalar.muli arg0 c128_i32
  let c71_i32 : BitVec 32 := 71#32
  let v640 : BitVec 32 := Scalar.addi v0 c71_i32
  let v641 : Index := Scalar.indexCast v640
  ![v641.toNat]
def k4_off144 (v642 : BitVec 32) : Fin 2 → Nat :=
  let c0_i32_287 : BitVec 32 := 0#32
  ![v642.toNat, 0]

def k4_off145 (i : grid4.Coords) : Fin 1 → Nat :=
  let arg0 : BitVec 32 := BitVec.ofNat 32 (i 0).val
  let c128_i32 : BitVec 32 := 128#32
  let v0 : BitVec 32 := Scalar.muli arg0 c128_i32
  let c72_i32 : BitVec 32 := 72#32
  let v649 : BitVec 32 := Scalar.addi v0 c72_i32
  let v650 : Index := Scalar.indexCast v649
  ![v650.toNat]
def k4_off146 (v651 : BitVec 32) : Fin 2 → Nat :=
  let c0_i32_291 : BitVec 32 := 0#32
  ![v651.toNat, 0]

def k4_off147 (i : grid4.Coords) : Fin 1 → Nat :=
  let arg0 : BitVec 32 := BitVec.ofNat 32 (i 0).val
  let c128_i32 : BitVec 32 := 128#32
  let v0 : BitVec 32 := Scalar.muli arg0 c128_i32
  let c73_i32 : BitVec 32 := 73#32
  let v658 : BitVec 32 := Scalar.addi v0 c73_i32
  let v659 : Index := Scalar.indexCast v658
  ![v659.toNat]
def k4_off148 (v660 : BitVec 32) : Fin 2 → Nat :=
  let c0_i32_295 : BitVec 32 := 0#32
  ![v660.toNat, 0]

def k4_off149 (i : grid4.Coords) : Fin 1 → Nat :=
  let arg0 : BitVec 32 := BitVec.ofNat 32 (i 0).val
  let c128_i32 : BitVec 32 := 128#32
  let v0 : BitVec 32 := Scalar.muli arg0 c128_i32
  let c74_i32 : BitVec 32 := 74#32
  let v667 : BitVec 32 := Scalar.addi v0 c74_i32
  let v668 : Index := Scalar.indexCast v667
  ![v668.toNat]
def k4_off150 (v669 : BitVec 32) : Fin 2 → Nat :=
  let c0_i32_299 : BitVec 32 := 0#32
  ![v669.toNat, 0]

def k4_off151 (i : grid4.Coords) : Fin 1 → Nat :=
  let arg0 : BitVec 32 := BitVec.ofNat 32 (i 0).val
  let c128_i32 : BitVec 32 := 128#32
  let v0 : BitVec 32 := Scalar.muli arg0 c128_i32
  let c75_i32 : BitVec 32 := 75#32
  let v676 : BitVec 32 := Scalar.addi v0 c75_i32
  let v677 : Index := Scalar.indexCast v676
  ![v677.toNat]
def k4_off152 (v678 : BitVec 32) : Fin 2 → Nat :=
  let c0_i32_303 : BitVec 32 := 0#32
  ![v678.toNat, 0]

def k4_off153 (i : grid4.Coords) : Fin 1 → Nat :=
  let arg0 : BitVec 32 := BitVec.ofNat 32 (i 0).val
  let c128_i32 : BitVec 32 := 128#32
  let v0 : BitVec 32 := Scalar.muli arg0 c128_i32
  let c76_i32 : BitVec 32 := 76#32
  let v685 : BitVec 32 := Scalar.addi v0 c76_i32
  let v686 : Index := Scalar.indexCast v685
  ![v686.toNat]
def k4_off154 (v687 : BitVec 32) : Fin 2 → Nat :=
  let c0_i32_307 : BitVec 32 := 0#32
  ![v687.toNat, 0]

def k4_off155 (i : grid4.Coords) : Fin 1 → Nat :=
  let arg0 : BitVec 32 := BitVec.ofNat 32 (i 0).val
  let c128_i32 : BitVec 32 := 128#32
  let v0 : BitVec 32 := Scalar.muli arg0 c128_i32
  let c77_i32 : BitVec 32 := 77#32
  let v694 : BitVec 32 := Scalar.addi v0 c77_i32
  let v695 : Index := Scalar.indexCast v694
  ![v695.toNat]
def k4_off156 (v696 : BitVec 32) : Fin 2 → Nat :=
  let c0_i32_311 : BitVec 32 := 0#32
  ![v696.toNat, 0]

def k4_off157 (i : grid4.Coords) : Fin 1 → Nat :=
  let arg0 : BitVec 32 := BitVec.ofNat 32 (i 0).val
  let c128_i32 : BitVec 32 := 128#32
  let v0 : BitVec 32 := Scalar.muli arg0 c128_i32
  let c78_i32 : BitVec 32 := 78#32
  let v703 : BitVec 32 := Scalar.addi v0 c78_i32
  let v704 : Index := Scalar.indexCast v703
  ![v704.toNat]
def k4_off158 (v705 : BitVec 32) : Fin 2 → Nat :=
  let c0_i32_315 : BitVec 32 := 0#32
  ![v705.toNat, 0]

def k4_off159 (i : grid4.Coords) : Fin 1 → Nat :=
  let arg0 : BitVec 32 := BitVec.ofNat 32 (i 0).val
  let c128_i32 : BitVec 32 := 128#32
  let v0 : BitVec 32 := Scalar.muli arg0 c128_i32
  let c79_i32 : BitVec 32 := 79#32
  let v712 : BitVec 32 := Scalar.addi v0 c79_i32
  let v713 : Index := Scalar.indexCast v712
  ![v713.toNat]
def k4_off160 (v714 : BitVec 32) : Fin 2 → Nat :=
  let c0_i32_319 : BitVec 32 := 0#32
  ![v714.toNat, 0]

def k4_off161 (i : grid4.Coords) : Fin 1 → Nat :=
  let arg0 : BitVec 32 := BitVec.ofNat 32 (i 0).val
  let c128_i32 : BitVec 32 := 128#32
  let v0 : BitVec 32 := Scalar.muli arg0 c128_i32
  let c80_i32 : BitVec 32 := 80#32
  let v721 : BitVec 32 := Scalar.addi v0 c80_i32
  let v722 : Index := Scalar.indexCast v721
  ![v722.toNat]
def k4_off162 (v723 : BitVec 32) : Fin 2 → Nat :=
  let c0_i32_323 : BitVec 32 := 0#32
  ![v723.toNat, 0]

def k4_off163 (i : grid4.Coords) : Fin 1 → Nat :=
  let arg0 : BitVec 32 := BitVec.ofNat 32 (i 0).val
  let c128_i32 : BitVec 32 := 128#32
  let v0 : BitVec 32 := Scalar.muli arg0 c128_i32
  let c81_i32 : BitVec 32 := 81#32
  let v730 : BitVec 32 := Scalar.addi v0 c81_i32
  let v731 : Index := Scalar.indexCast v730
  ![v731.toNat]
def k4_off164 (v732 : BitVec 32) : Fin 2 → Nat :=
  let c0_i32_327 : BitVec 32 := 0#32
  ![v732.toNat, 0]

def k4_off165 (i : grid4.Coords) : Fin 1 → Nat :=
  let arg0 : BitVec 32 := BitVec.ofNat 32 (i 0).val
  let c128_i32 : BitVec 32 := 128#32
  let v0 : BitVec 32 := Scalar.muli arg0 c128_i32
  let c82_i32 : BitVec 32 := 82#32
  let v739 : BitVec 32 := Scalar.addi v0 c82_i32
  let v740 : Index := Scalar.indexCast v739
  ![v740.toNat]
def k4_off166 (v741 : BitVec 32) : Fin 2 → Nat :=
  let c0_i32_331 : BitVec 32 := 0#32
  ![v741.toNat, 0]

def k4_off167 (i : grid4.Coords) : Fin 1 → Nat :=
  let arg0 : BitVec 32 := BitVec.ofNat 32 (i 0).val
  let c128_i32 : BitVec 32 := 128#32
  let v0 : BitVec 32 := Scalar.muli arg0 c128_i32
  let c83_i32 : BitVec 32 := 83#32
  let v748 : BitVec 32 := Scalar.addi v0 c83_i32
  let v749 : Index := Scalar.indexCast v748
  ![v749.toNat]
def k4_off168 (v750 : BitVec 32) : Fin 2 → Nat :=
  let c0_i32_335 : BitVec 32 := 0#32
  ![v750.toNat, 0]

def k4_off169 (i : grid4.Coords) : Fin 1 → Nat :=
  let arg0 : BitVec 32 := BitVec.ofNat 32 (i 0).val
  let c128_i32 : BitVec 32 := 128#32
  let v0 : BitVec 32 := Scalar.muli arg0 c128_i32
  let c84_i32 : BitVec 32 := 84#32
  let v757 : BitVec 32 := Scalar.addi v0 c84_i32
  let v758 : Index := Scalar.indexCast v757
  ![v758.toNat]
def k4_off170 (v759 : BitVec 32) : Fin 2 → Nat :=
  let c0_i32_339 : BitVec 32 := 0#32
  ![v759.toNat, 0]

def k4_off171 (i : grid4.Coords) : Fin 1 → Nat :=
  let arg0 : BitVec 32 := BitVec.ofNat 32 (i 0).val
  let c128_i32 : BitVec 32 := 128#32
  let v0 : BitVec 32 := Scalar.muli arg0 c128_i32
  let c85_i32 : BitVec 32 := 85#32
  let v766 : BitVec 32 := Scalar.addi v0 c85_i32
  let v767 : Index := Scalar.indexCast v766
  ![v767.toNat]
def k4_off172 (v768 : BitVec 32) : Fin 2 → Nat :=
  let c0_i32_343 : BitVec 32 := 0#32
  ![v768.toNat, 0]

def k4_off173 (i : grid4.Coords) : Fin 1 → Nat :=
  let arg0 : BitVec 32 := BitVec.ofNat 32 (i 0).val
  let c128_i32 : BitVec 32 := 128#32
  let v0 : BitVec 32 := Scalar.muli arg0 c128_i32
  let c86_i32 : BitVec 32 := 86#32
  let v775 : BitVec 32 := Scalar.addi v0 c86_i32
  let v776 : Index := Scalar.indexCast v775
  ![v776.toNat]
def k4_off174 (v777 : BitVec 32) : Fin 2 → Nat :=
  let c0_i32_347 : BitVec 32 := 0#32
  ![v777.toNat, 0]

def k4_off175 (i : grid4.Coords) : Fin 1 → Nat :=
  let arg0 : BitVec 32 := BitVec.ofNat 32 (i 0).val
  let c128_i32 : BitVec 32 := 128#32
  let v0 : BitVec 32 := Scalar.muli arg0 c128_i32
  let c87_i32 : BitVec 32 := 87#32
  let v784 : BitVec 32 := Scalar.addi v0 c87_i32
  let v785 : Index := Scalar.indexCast v784
  ![v785.toNat]
def k4_off176 (v786 : BitVec 32) : Fin 2 → Nat :=
  let c0_i32_351 : BitVec 32 := 0#32
  ![v786.toNat, 0]

def k4_off177 (i : grid4.Coords) : Fin 1 → Nat :=
  let arg0 : BitVec 32 := BitVec.ofNat 32 (i 0).val
  let c128_i32 : BitVec 32 := 128#32
  let v0 : BitVec 32 := Scalar.muli arg0 c128_i32
  let c88_i32 : BitVec 32 := 88#32
  let v793 : BitVec 32 := Scalar.addi v0 c88_i32
  let v794 : Index := Scalar.indexCast v793
  ![v794.toNat]
def k4_off178 (v795 : BitVec 32) : Fin 2 → Nat :=
  let c0_i32_355 : BitVec 32 := 0#32
  ![v795.toNat, 0]

def k4_off179 (i : grid4.Coords) : Fin 1 → Nat :=
  let arg0 : BitVec 32 := BitVec.ofNat 32 (i 0).val
  let c128_i32 : BitVec 32 := 128#32
  let v0 : BitVec 32 := Scalar.muli arg0 c128_i32
  let c89_i32 : BitVec 32 := 89#32
  let v802 : BitVec 32 := Scalar.addi v0 c89_i32
  let v803 : Index := Scalar.indexCast v802
  ![v803.toNat]
def k4_off180 (v804 : BitVec 32) : Fin 2 → Nat :=
  let c0_i32_359 : BitVec 32 := 0#32
  ![v804.toNat, 0]

def k4_off181 (i : grid4.Coords) : Fin 1 → Nat :=
  let arg0 : BitVec 32 := BitVec.ofNat 32 (i 0).val
  let c128_i32 : BitVec 32 := 128#32
  let v0 : BitVec 32 := Scalar.muli arg0 c128_i32
  let c90_i32 : BitVec 32 := 90#32
  let v811 : BitVec 32 := Scalar.addi v0 c90_i32
  let v812 : Index := Scalar.indexCast v811
  ![v812.toNat]
def k4_off182 (v813 : BitVec 32) : Fin 2 → Nat :=
  let c0_i32_363 : BitVec 32 := 0#32
  ![v813.toNat, 0]

def k4_off183 (i : grid4.Coords) : Fin 1 → Nat :=
  let arg0 : BitVec 32 := BitVec.ofNat 32 (i 0).val
  let c128_i32 : BitVec 32 := 128#32
  let v0 : BitVec 32 := Scalar.muli arg0 c128_i32
  let c91_i32 : BitVec 32 := 91#32
  let v820 : BitVec 32 := Scalar.addi v0 c91_i32
  let v821 : Index := Scalar.indexCast v820
  ![v821.toNat]
def k4_off184 (v822 : BitVec 32) : Fin 2 → Nat :=
  let c0_i32_367 : BitVec 32 := 0#32
  ![v822.toNat, 0]

def k4_off185 (i : grid4.Coords) : Fin 1 → Nat :=
  let arg0 : BitVec 32 := BitVec.ofNat 32 (i 0).val
  let c128_i32 : BitVec 32 := 128#32
  let v0 : BitVec 32 := Scalar.muli arg0 c128_i32
  let c92_i32 : BitVec 32 := 92#32
  let v829 : BitVec 32 := Scalar.addi v0 c92_i32
  let v830 : Index := Scalar.indexCast v829
  ![v830.toNat]
def k4_off186 (v831 : BitVec 32) : Fin 2 → Nat :=
  let c0_i32_371 : BitVec 32 := 0#32
  ![v831.toNat, 0]

def k4_off187 (i : grid4.Coords) : Fin 1 → Nat :=
  let arg0 : BitVec 32 := BitVec.ofNat 32 (i 0).val
  let c128_i32 : BitVec 32 := 128#32
  let v0 : BitVec 32 := Scalar.muli arg0 c128_i32
  let c93_i32 : BitVec 32 := 93#32
  let v838 : BitVec 32 := Scalar.addi v0 c93_i32
  let v839 : Index := Scalar.indexCast v838
  ![v839.toNat]
def k4_off188 (v840 : BitVec 32) : Fin 2 → Nat :=
  let c0_i32_375 : BitVec 32 := 0#32
  ![v840.toNat, 0]

def k4_off189 (i : grid4.Coords) : Fin 1 → Nat :=
  let arg0 : BitVec 32 := BitVec.ofNat 32 (i 0).val
  let c128_i32 : BitVec 32 := 128#32
  let v0 : BitVec 32 := Scalar.muli arg0 c128_i32
  let c94_i32 : BitVec 32 := 94#32
  let v847 : BitVec 32 := Scalar.addi v0 c94_i32
  let v848 : Index := Scalar.indexCast v847
  ![v848.toNat]
def k4_off190 (v849 : BitVec 32) : Fin 2 → Nat :=
  let c0_i32_379 : BitVec 32 := 0#32
  ![v849.toNat, 0]

def k4_off191 (i : grid4.Coords) : Fin 1 → Nat :=
  let arg0 : BitVec 32 := BitVec.ofNat 32 (i 0).val
  let c128_i32 : BitVec 32 := 128#32
  let v0 : BitVec 32 := Scalar.muli arg0 c128_i32
  let c95_i32 : BitVec 32 := 95#32
  let v856 : BitVec 32 := Scalar.addi v0 c95_i32
  let v857 : Index := Scalar.indexCast v856
  ![v857.toNat]
def k4_off192 (v858 : BitVec 32) : Fin 2 → Nat :=
  let c0_i32_383 : BitVec 32 := 0#32
  ![v858.toNat, 0]

def k4_off193 (i : grid4.Coords) : Fin 1 → Nat :=
  let arg0 : BitVec 32 := BitVec.ofNat 32 (i 0).val
  let c128_i32 : BitVec 32 := 128#32
  let v0 : BitVec 32 := Scalar.muli arg0 c128_i32
  let c96_i32 : BitVec 32 := 96#32
  let v865 : BitVec 32 := Scalar.addi v0 c96_i32
  let v866 : Index := Scalar.indexCast v865
  ![v866.toNat]
def k4_off194 (v867 : BitVec 32) : Fin 2 → Nat :=
  let c0_i32_387 : BitVec 32 := 0#32
  ![v867.toNat, 0]

def k4_off195 (i : grid4.Coords) : Fin 1 → Nat :=
  let arg0 : BitVec 32 := BitVec.ofNat 32 (i 0).val
  let c128_i32 : BitVec 32 := 128#32
  let v0 : BitVec 32 := Scalar.muli arg0 c128_i32
  let c97_i32 : BitVec 32 := 97#32
  let v874 : BitVec 32 := Scalar.addi v0 c97_i32
  let v875 : Index := Scalar.indexCast v874
  ![v875.toNat]
def k4_off196 (v876 : BitVec 32) : Fin 2 → Nat :=
  let c0_i32_391 : BitVec 32 := 0#32
  ![v876.toNat, 0]

def k4_off197 (i : grid4.Coords) : Fin 1 → Nat :=
  let arg0 : BitVec 32 := BitVec.ofNat 32 (i 0).val
  let c128_i32 : BitVec 32 := 128#32
  let v0 : BitVec 32 := Scalar.muli arg0 c128_i32
  let c98_i32 : BitVec 32 := 98#32
  let v883 : BitVec 32 := Scalar.addi v0 c98_i32
  let v884 : Index := Scalar.indexCast v883
  ![v884.toNat]
def k4_off198 (v885 : BitVec 32) : Fin 2 → Nat :=
  let c0_i32_395 : BitVec 32 := 0#32
  ![v885.toNat, 0]

def k4_off199 (i : grid4.Coords) : Fin 1 → Nat :=
  let arg0 : BitVec 32 := BitVec.ofNat 32 (i 0).val
  let c128_i32 : BitVec 32 := 128#32
  let v0 : BitVec 32 := Scalar.muli arg0 c128_i32
  let c99_i32 : BitVec 32 := 99#32
  let v892 : BitVec 32 := Scalar.addi v0 c99_i32
  let v893 : Index := Scalar.indexCast v892
  ![v893.toNat]
def k4_off200 (v894 : BitVec 32) : Fin 2 → Nat :=
  let c0_i32_399 : BitVec 32 := 0#32
  ![v894.toNat, 0]

def k4_off201 (i : grid4.Coords) : Fin 1 → Nat :=
  let arg0 : BitVec 32 := BitVec.ofNat 32 (i 0).val
  let c128_i32 : BitVec 32 := 128#32
  let v0 : BitVec 32 := Scalar.muli arg0 c128_i32
  let c100_i32 : BitVec 32 := 100#32
  let v901 : BitVec 32 := Scalar.addi v0 c100_i32
  let v902 : Index := Scalar.indexCast v901
  ![v902.toNat]
def k4_off202 (v903 : BitVec 32) : Fin 2 → Nat :=
  let c0_i32_403 : BitVec 32 := 0#32
  ![v903.toNat, 0]

def k4_off203 (i : grid4.Coords) : Fin 1 → Nat :=
  let arg0 : BitVec 32 := BitVec.ofNat 32 (i 0).val
  let c128_i32 : BitVec 32 := 128#32
  let v0 : BitVec 32 := Scalar.muli arg0 c128_i32
  let c101_i32 : BitVec 32 := 101#32
  let v910 : BitVec 32 := Scalar.addi v0 c101_i32
  let v911 : Index := Scalar.indexCast v910
  ![v911.toNat]
def k4_off204 (v912 : BitVec 32) : Fin 2 → Nat :=
  let c0_i32_407 : BitVec 32 := 0#32
  ![v912.toNat, 0]

def k4_off205 (i : grid4.Coords) : Fin 1 → Nat :=
  let arg0 : BitVec 32 := BitVec.ofNat 32 (i 0).val
  let c128_i32 : BitVec 32 := 128#32
  let v0 : BitVec 32 := Scalar.muli arg0 c128_i32
  let c102_i32 : BitVec 32 := 102#32
  let v919 : BitVec 32 := Scalar.addi v0 c102_i32
  let v920 : Index := Scalar.indexCast v919
  ![v920.toNat]
def k4_off206 (v921 : BitVec 32) : Fin 2 → Nat :=
  let c0_i32_411 : BitVec 32 := 0#32
  ![v921.toNat, 0]

def k4_off207 (i : grid4.Coords) : Fin 1 → Nat :=
  let arg0 : BitVec 32 := BitVec.ofNat 32 (i 0).val
  let c128_i32 : BitVec 32 := 128#32
  let v0 : BitVec 32 := Scalar.muli arg0 c128_i32
  let c103_i32 : BitVec 32 := 103#32
  let v928 : BitVec 32 := Scalar.addi v0 c103_i32
  let v929 : Index := Scalar.indexCast v928
  ![v929.toNat]
def k4_off208 (v930 : BitVec 32) : Fin 2 → Nat :=
  let c0_i32_415 : BitVec 32 := 0#32
  ![v930.toNat, 0]

def k4_off209 (i : grid4.Coords) : Fin 1 → Nat :=
  let arg0 : BitVec 32 := BitVec.ofNat 32 (i 0).val
  let c128_i32 : BitVec 32 := 128#32
  let v0 : BitVec 32 := Scalar.muli arg0 c128_i32
  let c104_i32 : BitVec 32 := 104#32
  let v937 : BitVec 32 := Scalar.addi v0 c104_i32
  let v938 : Index := Scalar.indexCast v937
  ![v938.toNat]
def k4_off210 (v939 : BitVec 32) : Fin 2 → Nat :=
  let c0_i32_419 : BitVec 32 := 0#32
  ![v939.toNat, 0]

def k4_off211 (i : grid4.Coords) : Fin 1 → Nat :=
  let arg0 : BitVec 32 := BitVec.ofNat 32 (i 0).val
  let c128_i32 : BitVec 32 := 128#32
  let v0 : BitVec 32 := Scalar.muli arg0 c128_i32
  let c105_i32 : BitVec 32 := 105#32
  let v946 : BitVec 32 := Scalar.addi v0 c105_i32
  let v947 : Index := Scalar.indexCast v946
  ![v947.toNat]
def k4_off212 (v948 : BitVec 32) : Fin 2 → Nat :=
  let c0_i32_423 : BitVec 32 := 0#32
  ![v948.toNat, 0]

def k4_off213 (i : grid4.Coords) : Fin 1 → Nat :=
  let arg0 : BitVec 32 := BitVec.ofNat 32 (i 0).val
  let c128_i32 : BitVec 32 := 128#32
  let v0 : BitVec 32 := Scalar.muli arg0 c128_i32
  let c106_i32 : BitVec 32 := 106#32
  let v955 : BitVec 32 := Scalar.addi v0 c106_i32
  let v956 : Index := Scalar.indexCast v955
  ![v956.toNat]
def k4_off214 (v957 : BitVec 32) : Fin 2 → Nat :=
  let c0_i32_427 : BitVec 32 := 0#32
  ![v957.toNat, 0]

def k4_off215 (i : grid4.Coords) : Fin 1 → Nat :=
  let arg0 : BitVec 32 := BitVec.ofNat 32 (i 0).val
  let c128_i32 : BitVec 32 := 128#32
  let v0 : BitVec 32 := Scalar.muli arg0 c128_i32
  let c107_i32 : BitVec 32 := 107#32
  let v964 : BitVec 32 := Scalar.addi v0 c107_i32
  let v965 : Index := Scalar.indexCast v964
  ![v965.toNat]
def k4_off216 (v966 : BitVec 32) : Fin 2 → Nat :=
  let c0_i32_431 : BitVec 32 := 0#32
  ![v966.toNat, 0]

def k4_off217 (i : grid4.Coords) : Fin 1 → Nat :=
  let arg0 : BitVec 32 := BitVec.ofNat 32 (i 0).val
  let c128_i32 : BitVec 32 := 128#32
  let v0 : BitVec 32 := Scalar.muli arg0 c128_i32
  let c108_i32 : BitVec 32 := 108#32
  let v973 : BitVec 32 := Scalar.addi v0 c108_i32
  let v974 : Index := Scalar.indexCast v973
  ![v974.toNat]
def k4_off218 (v975 : BitVec 32) : Fin 2 → Nat :=
  let c0_i32_435 : BitVec 32 := 0#32
  ![v975.toNat, 0]

def k4_off219 (i : grid4.Coords) : Fin 1 → Nat :=
  let arg0 : BitVec 32 := BitVec.ofNat 32 (i 0).val
  let c128_i32 : BitVec 32 := 128#32
  let v0 : BitVec 32 := Scalar.muli arg0 c128_i32
  let c109_i32 : BitVec 32 := 109#32
  let v982 : BitVec 32 := Scalar.addi v0 c109_i32
  let v983 : Index := Scalar.indexCast v982
  ![v983.toNat]
def k4_off220 (v984 : BitVec 32) : Fin 2 → Nat :=
  let c0_i32_439 : BitVec 32 := 0#32
  ![v984.toNat, 0]

def k4_off221 (i : grid4.Coords) : Fin 1 → Nat :=
  let arg0 : BitVec 32 := BitVec.ofNat 32 (i 0).val
  let c128_i32 : BitVec 32 := 128#32
  let v0 : BitVec 32 := Scalar.muli arg0 c128_i32
  let c110_i32 : BitVec 32 := 110#32
  let v991 : BitVec 32 := Scalar.addi v0 c110_i32
  let v992 : Index := Scalar.indexCast v991
  ![v992.toNat]
def k4_off222 (v993 : BitVec 32) : Fin 2 → Nat :=
  let c0_i32_443 : BitVec 32 := 0#32
  ![v993.toNat, 0]

def k4_off223 (i : grid4.Coords) : Fin 1 → Nat :=
  let arg0 : BitVec 32 := BitVec.ofNat 32 (i 0).val
  let c128_i32 : BitVec 32 := 128#32
  let v0 : BitVec 32 := Scalar.muli arg0 c128_i32
  let c111_i32 : BitVec 32 := 111#32
  let v1000 : BitVec 32 := Scalar.addi v0 c111_i32
  let v1001 : Index := Scalar.indexCast v1000
  ![v1001.toNat]
def k4_off224 (v1002 : BitVec 32) : Fin 2 → Nat :=
  let c0_i32_447 : BitVec 32 := 0#32
  ![v1002.toNat, 0]

def k4_off225 (i : grid4.Coords) : Fin 1 → Nat :=
  let arg0 : BitVec 32 := BitVec.ofNat 32 (i 0).val
  let c128_i32 : BitVec 32 := 128#32
  let v0 : BitVec 32 := Scalar.muli arg0 c128_i32
  let c112_i32 : BitVec 32 := 112#32
  let v1009 : BitVec 32 := Scalar.addi v0 c112_i32
  let v1010 : Index := Scalar.indexCast v1009
  ![v1010.toNat]
def k4_off226 (v1011 : BitVec 32) : Fin 2 → Nat :=
  let c0_i32_451 : BitVec 32 := 0#32
  ![v1011.toNat, 0]

def k4_off227 (i : grid4.Coords) : Fin 1 → Nat :=
  let arg0 : BitVec 32 := BitVec.ofNat 32 (i 0).val
  let c128_i32 : BitVec 32 := 128#32
  let v0 : BitVec 32 := Scalar.muli arg0 c128_i32
  let c113_i32 : BitVec 32 := 113#32
  let v1018 : BitVec 32 := Scalar.addi v0 c113_i32
  let v1019 : Index := Scalar.indexCast v1018
  ![v1019.toNat]
def k4_off228 (v1020 : BitVec 32) : Fin 2 → Nat :=
  let c0_i32_455 : BitVec 32 := 0#32
  ![v1020.toNat, 0]

def k4_off229 (i : grid4.Coords) : Fin 1 → Nat :=
  let arg0 : BitVec 32 := BitVec.ofNat 32 (i 0).val
  let c128_i32 : BitVec 32 := 128#32
  let v0 : BitVec 32 := Scalar.muli arg0 c128_i32
  let c114_i32 : BitVec 32 := 114#32
  let v1027 : BitVec 32 := Scalar.addi v0 c114_i32
  let v1028 : Index := Scalar.indexCast v1027
  ![v1028.toNat]
def k4_off230 (v1029 : BitVec 32) : Fin 2 → Nat :=
  let c0_i32_459 : BitVec 32 := 0#32
  ![v1029.toNat, 0]

def k4_off231 (i : grid4.Coords) : Fin 1 → Nat :=
  let arg0 : BitVec 32 := BitVec.ofNat 32 (i 0).val
  let c128_i32 : BitVec 32 := 128#32
  let v0 : BitVec 32 := Scalar.muli arg0 c128_i32
  let c115_i32 : BitVec 32 := 115#32
  let v1036 : BitVec 32 := Scalar.addi v0 c115_i32
  let v1037 : Index := Scalar.indexCast v1036
  ![v1037.toNat]
def k4_off232 (v1038 : BitVec 32) : Fin 2 → Nat :=
  let c0_i32_463 : BitVec 32 := 0#32
  ![v1038.toNat, 0]

def k4_off233 (i : grid4.Coords) : Fin 1 → Nat :=
  let arg0 : BitVec 32 := BitVec.ofNat 32 (i 0).val
  let c128_i32 : BitVec 32 := 128#32
  let v0 : BitVec 32 := Scalar.muli arg0 c128_i32
  let c116_i32 : BitVec 32 := 116#32
  let v1045 : BitVec 32 := Scalar.addi v0 c116_i32
  let v1046 : Index := Scalar.indexCast v1045
  ![v1046.toNat]
def k4_off234 (v1047 : BitVec 32) : Fin 2 → Nat :=
  let c0_i32_467 : BitVec 32 := 0#32
  ![v1047.toNat, 0]

def k4_off235 (i : grid4.Coords) : Fin 1 → Nat :=
  let arg0 : BitVec 32 := BitVec.ofNat 32 (i 0).val
  let c128_i32 : BitVec 32 := 128#32
  let v0 : BitVec 32 := Scalar.muli arg0 c128_i32
  let c117_i32 : BitVec 32 := 117#32
  let v1054 : BitVec 32 := Scalar.addi v0 c117_i32
  let v1055 : Index := Scalar.indexCast v1054
  ![v1055.toNat]
def k4_off236 (v1056 : BitVec 32) : Fin 2 → Nat :=
  let c0_i32_471 : BitVec 32 := 0#32
  ![v1056.toNat, 0]

def k4_off237 (i : grid4.Coords) : Fin 1 → Nat :=
  let arg0 : BitVec 32 := BitVec.ofNat 32 (i 0).val
  let c128_i32 : BitVec 32 := 128#32
  let v0 : BitVec 32 := Scalar.muli arg0 c128_i32
  let c118_i32 : BitVec 32 := 118#32
  let v1063 : BitVec 32 := Scalar.addi v0 c118_i32
  let v1064 : Index := Scalar.indexCast v1063
  ![v1064.toNat]
def k4_off238 (v1065 : BitVec 32) : Fin 2 → Nat :=
  let c0_i32_475 : BitVec 32 := 0#32
  ![v1065.toNat, 0]

def k4_off239 (i : grid4.Coords) : Fin 1 → Nat :=
  let arg0 : BitVec 32 := BitVec.ofNat 32 (i 0).val
  let c128_i32 : BitVec 32 := 128#32
  let v0 : BitVec 32 := Scalar.muli arg0 c128_i32
  let c119_i32 : BitVec 32 := 119#32
  let v1072 : BitVec 32 := Scalar.addi v0 c119_i32
  let v1073 : Index := Scalar.indexCast v1072
  ![v1073.toNat]
def k4_off240 (v1074 : BitVec 32) : Fin 2 → Nat :=
  let c0_i32_479 : BitVec 32 := 0#32
  ![v1074.toNat, 0]

def k4_off241 (i : grid4.Coords) : Fin 1 → Nat :=
  let arg0 : BitVec 32 := BitVec.ofNat 32 (i 0).val
  let c128_i32 : BitVec 32 := 128#32
  let v0 : BitVec 32 := Scalar.muli arg0 c128_i32
  let c120_i32 : BitVec 32 := 120#32
  let v1081 : BitVec 32 := Scalar.addi v0 c120_i32
  let v1082 : Index := Scalar.indexCast v1081
  ![v1082.toNat]
def k4_off242 (v1083 : BitVec 32) : Fin 2 → Nat :=
  let c0_i32_483 : BitVec 32 := 0#32
  ![v1083.toNat, 0]

def k4_off243 (i : grid4.Coords) : Fin 1 → Nat :=
  let arg0 : BitVec 32 := BitVec.ofNat 32 (i 0).val
  let c128_i32 : BitVec 32 := 128#32
  let v0 : BitVec 32 := Scalar.muli arg0 c128_i32
  let c121_i32 : BitVec 32 := 121#32
  let v1090 : BitVec 32 := Scalar.addi v0 c121_i32
  let v1091 : Index := Scalar.indexCast v1090
  ![v1091.toNat]
def k4_off244 (v1092 : BitVec 32) : Fin 2 → Nat :=
  let c0_i32_487 : BitVec 32 := 0#32
  ![v1092.toNat, 0]

def k4_off245 (i : grid4.Coords) : Fin 1 → Nat :=
  let arg0 : BitVec 32 := BitVec.ofNat 32 (i 0).val
  let c128_i32 : BitVec 32 := 128#32
  let v0 : BitVec 32 := Scalar.muli arg0 c128_i32
  let c122_i32 : BitVec 32 := 122#32
  let v1099 : BitVec 32 := Scalar.addi v0 c122_i32
  let v1100 : Index := Scalar.indexCast v1099
  ![v1100.toNat]
def k4_off246 (v1101 : BitVec 32) : Fin 2 → Nat :=
  let c0_i32_491 : BitVec 32 := 0#32
  ![v1101.toNat, 0]

def k4_off247 (i : grid4.Coords) : Fin 1 → Nat :=
  let arg0 : BitVec 32 := BitVec.ofNat 32 (i 0).val
  let c128_i32 : BitVec 32 := 128#32
  let v0 : BitVec 32 := Scalar.muli arg0 c128_i32
  let c123_i32 : BitVec 32 := 123#32
  let v1108 : BitVec 32 := Scalar.addi v0 c123_i32
  let v1109 : Index := Scalar.indexCast v1108
  ![v1109.toNat]
def k4_off248 (v1110 : BitVec 32) : Fin 2 → Nat :=
  let c0_i32_495 : BitVec 32 := 0#32
  ![v1110.toNat, 0]

def k4_off249 (i : grid4.Coords) : Fin 1 → Nat :=
  let arg0 : BitVec 32 := BitVec.ofNat 32 (i 0).val
  let c128_i32 : BitVec 32 := 128#32
  let v0 : BitVec 32 := Scalar.muli arg0 c128_i32
  let c124_i32 : BitVec 32 := 124#32
  let v1117 : BitVec 32 := Scalar.addi v0 c124_i32
  let v1118 : Index := Scalar.indexCast v1117
  ![v1118.toNat]
def k4_off250 (v1119 : BitVec 32) : Fin 2 → Nat :=
  let c0_i32_499 : BitVec 32 := 0#32
  ![v1119.toNat, 0]

def k4_off251 (i : grid4.Coords) : Fin 1 → Nat :=
  let arg0 : BitVec 32 := BitVec.ofNat 32 (i 0).val
  let c128_i32 : BitVec 32 := 128#32
  let v0 : BitVec 32 := Scalar.muli arg0 c128_i32
  let c125_i32 : BitVec 32 := 125#32
  let v1126 : BitVec 32 := Scalar.addi v0 c125_i32
  let v1127 : Index := Scalar.indexCast v1126
  ![v1127.toNat]
def k4_off252 (v1128 : BitVec 32) : Fin 2 → Nat :=
  let c0_i32_503 : BitVec 32 := 0#32
  ![v1128.toNat, 0]

def k4_off253 (i : grid4.Coords) : Fin 1 → Nat :=
  let arg0 : BitVec 32 := BitVec.ofNat 32 (i 0).val
  let c128_i32 : BitVec 32 := 128#32
  let v0 : BitVec 32 := Scalar.muli arg0 c128_i32
  let c126_i32 : BitVec 32 := 126#32
  let v1135 : BitVec 32 := Scalar.addi v0 c126_i32
  let v1136 : Index := Scalar.indexCast v1135
  ![v1136.toNat]
def k4_off254 (v1137 : BitVec 32) : Fin 2 → Nat :=
  let c0_i32_507 : BitVec 32 := 0#32
  ![v1137.toNat, 0]

def k4_off255 (i : grid4.Coords) : Fin 1 → Nat :=
  let arg0 : BitVec 32 := BitVec.ofNat 32 (i 0).val
  let c128_i32 : BitVec 32 := 128#32
  let v0 : BitVec 32 := Scalar.muli arg0 c128_i32
  let c127_i32 : BitVec 32 := 127#32
  let v1144 : BitVec 32 := Scalar.addi v0 c127_i32
  let v1145 : Index := Scalar.indexCast v1144
  ![v1145.toNat]
def k4_off256 (v1146 : BitVec 32) : Fin 2 → Nat :=
  let c0_i32_511 : BitVec 32 := 0#32
  ![v1146.toNat, 0]

def k4_chk128 (v1146 : BitVec 32) : Prop :=
  (∀ a, (k4_off256 v1146) a + S1x64.size a ≤ S50000x64.size a)
instance k4_chk128.dec : ∀ (v1146 : BitVec 32), Decidable (k4_chk128 v1146) := fun v1146 => decidable_of_iff' _ (Iff.of_eq (k4_chk128.eq_1 v1146))
theorem k4_off256_inb : ∀ (v1146 : BitVec 32) (k4_hw128 : k4_chk128 v1146), ∀ a, (k4_off256 v1146) a + S1x64.size a ≤ S50000x64.size a := fun v1146 k4_hw128 => k4_hw128

def k4_off257 (v3 : BitVec 32) : Fin 2 → Nat :=
  let c0_i32_515 : BitVec 32 := 0#32
  ![v3.toNat, 0]

def k4_chk1 (v3 : BitVec 32) : Prop :=
  (∀ a, (k4_off2 v3) a + S1x64.size a ≤ S50000x64.size a) ∧
  (∀ a, (k4_off257 v3) a + S1x64.size a ≤ S50000x64.size a)
instance k4_chk1.dec : ∀ (v3 : BitVec 32), Decidable (k4_chk1 v3) := fun v3 => decidable_of_iff' _ (Iff.of_eq (k4_chk1.eq_1 v3))
theorem k4_off2_inb : ∀ (v3 : BitVec 32) (k4_hw1 : k4_chk1 v3), ∀ a, (k4_off2 v3) a + S1x64.size a ≤ S50000x64.size a := fun v3 k4_hw1 => k4_hw1.1
theorem k4_off257_inb : ∀ (v3 : BitVec 32) (k4_hw1 : k4_chk1 v3), ∀ a, (k4_off257 v3) a + S1x64.size a ≤ S50000x64.size a := fun v3 k4_hw1 => k4_hw1.2

def k4_off258 (v12 : BitVec 32) : Fin 2 → Nat :=
  let c0_i32_519 : BitVec 32 := 0#32
  ![v12.toNat, 0]

def k4_chk2 (v12 : BitVec 32) : Prop :=
  (∀ a, (k4_off4 v12) a + S1x64.size a ≤ S50000x64.size a) ∧
  (∀ a, (k4_off258 v12) a + S1x64.size a ≤ S50000x64.size a)
instance k4_chk2.dec : ∀ (v12 : BitVec 32), Decidable (k4_chk2 v12) := fun v12 => decidable_of_iff' _ (Iff.of_eq (k4_chk2.eq_1 v12))
theorem k4_off4_inb : ∀ (v12 : BitVec 32) (k4_hw2 : k4_chk2 v12), ∀ a, (k4_off4 v12) a + S1x64.size a ≤ S50000x64.size a := fun v12 k4_hw2 => k4_hw2.1
theorem k4_off258_inb : ∀ (v12 : BitVec 32) (k4_hw2 : k4_chk2 v12), ∀ a, (k4_off258 v12) a + S1x64.size a ≤ S50000x64.size a := fun v12 k4_hw2 => k4_hw2.2

def k4_off259 (v21 : BitVec 32) : Fin 2 → Nat :=
  let c0_i32_523 : BitVec 32 := 0#32
  ![v21.toNat, 0]

def k4_chk3 (v21 : BitVec 32) : Prop :=
  (∀ a, (k4_off6 v21) a + S1x64.size a ≤ S50000x64.size a) ∧
  (∀ a, (k4_off259 v21) a + S1x64.size a ≤ S50000x64.size a)
instance k4_chk3.dec : ∀ (v21 : BitVec 32), Decidable (k4_chk3 v21) := fun v21 => decidable_of_iff' _ (Iff.of_eq (k4_chk3.eq_1 v21))
theorem k4_off6_inb : ∀ (v21 : BitVec 32) (k4_hw3 : k4_chk3 v21), ∀ a, (k4_off6 v21) a + S1x64.size a ≤ S50000x64.size a := fun v21 k4_hw3 => k4_hw3.1
theorem k4_off259_inb : ∀ (v21 : BitVec 32) (k4_hw3 : k4_chk3 v21), ∀ a, (k4_off259 v21) a + S1x64.size a ≤ S50000x64.size a := fun v21 k4_hw3 => k4_hw3.2

def k4_off260 (v30 : BitVec 32) : Fin 2 → Nat :=
  let c0_i32_527 : BitVec 32 := 0#32
  ![v30.toNat, 0]

def k4_chk4 (v30 : BitVec 32) : Prop :=
  (∀ a, (k4_off8 v30) a + S1x64.size a ≤ S50000x64.size a) ∧
  (∀ a, (k4_off260 v30) a + S1x64.size a ≤ S50000x64.size a)
instance k4_chk4.dec : ∀ (v30 : BitVec 32), Decidable (k4_chk4 v30) := fun v30 => decidable_of_iff' _ (Iff.of_eq (k4_chk4.eq_1 v30))
theorem k4_off8_inb : ∀ (v30 : BitVec 32) (k4_hw4 : k4_chk4 v30), ∀ a, (k4_off8 v30) a + S1x64.size a ≤ S50000x64.size a := fun v30 k4_hw4 => k4_hw4.1
theorem k4_off260_inb : ∀ (v30 : BitVec 32) (k4_hw4 : k4_chk4 v30), ∀ a, (k4_off260 v30) a + S1x64.size a ≤ S50000x64.size a := fun v30 k4_hw4 => k4_hw4.2

def k4_off261 (v39 : BitVec 32) : Fin 2 → Nat :=
  let c0_i32_531 : BitVec 32 := 0#32
  ![v39.toNat, 0]

def k4_chk5 (v39 : BitVec 32) : Prop :=
  (∀ a, (k4_off10 v39) a + S1x64.size a ≤ S50000x64.size a) ∧
  (∀ a, (k4_off261 v39) a + S1x64.size a ≤ S50000x64.size a)
instance k4_chk5.dec : ∀ (v39 : BitVec 32), Decidable (k4_chk5 v39) := fun v39 => decidable_of_iff' _ (Iff.of_eq (k4_chk5.eq_1 v39))
theorem k4_off10_inb : ∀ (v39 : BitVec 32) (k4_hw5 : k4_chk5 v39), ∀ a, (k4_off10 v39) a + S1x64.size a ≤ S50000x64.size a := fun v39 k4_hw5 => k4_hw5.1
theorem k4_off261_inb : ∀ (v39 : BitVec 32) (k4_hw5 : k4_chk5 v39), ∀ a, (k4_off261 v39) a + S1x64.size a ≤ S50000x64.size a := fun v39 k4_hw5 => k4_hw5.2

def k4_off262 (v48 : BitVec 32) : Fin 2 → Nat :=
  let c0_i32_535 : BitVec 32 := 0#32
  ![v48.toNat, 0]

def k4_chk6 (v48 : BitVec 32) : Prop :=
  (∀ a, (k4_off12 v48) a + S1x64.size a ≤ S50000x64.size a) ∧
  (∀ a, (k4_off262 v48) a + S1x64.size a ≤ S50000x64.size a)
instance k4_chk6.dec : ∀ (v48 : BitVec 32), Decidable (k4_chk6 v48) := fun v48 => decidable_of_iff' _ (Iff.of_eq (k4_chk6.eq_1 v48))
theorem k4_off12_inb : ∀ (v48 : BitVec 32) (k4_hw6 : k4_chk6 v48), ∀ a, (k4_off12 v48) a + S1x64.size a ≤ S50000x64.size a := fun v48 k4_hw6 => k4_hw6.1
theorem k4_off262_inb : ∀ (v48 : BitVec 32) (k4_hw6 : k4_chk6 v48), ∀ a, (k4_off262 v48) a + S1x64.size a ≤ S50000x64.size a := fun v48 k4_hw6 => k4_hw6.2

def k4_off263 (v57 : BitVec 32) : Fin 2 → Nat :=
  let c0_i32_539 : BitVec 32 := 0#32
  ![v57.toNat, 0]

def k4_chk7 (v57 : BitVec 32) : Prop :=
  (∀ a, (k4_off14 v57) a + S1x64.size a ≤ S50000x64.size a) ∧
  (∀ a, (k4_off263 v57) a + S1x64.size a ≤ S50000x64.size a)
instance k4_chk7.dec : ∀ (v57 : BitVec 32), Decidable (k4_chk7 v57) := fun v57 => decidable_of_iff' _ (Iff.of_eq (k4_chk7.eq_1 v57))
theorem k4_off14_inb : ∀ (v57 : BitVec 32) (k4_hw7 : k4_chk7 v57), ∀ a, (k4_off14 v57) a + S1x64.size a ≤ S50000x64.size a := fun v57 k4_hw7 => k4_hw7.1
theorem k4_off263_inb : ∀ (v57 : BitVec 32) (k4_hw7 : k4_chk7 v57), ∀ a, (k4_off263 v57) a + S1x64.size a ≤ S50000x64.size a := fun v57 k4_hw7 => k4_hw7.2

def k4_off264 (v66 : BitVec 32) : Fin 2 → Nat :=
  let c0_i32_543 : BitVec 32 := 0#32
  ![v66.toNat, 0]

def k4_chk8 (v66 : BitVec 32) : Prop :=
  (∀ a, (k4_off16 v66) a + S1x64.size a ≤ S50000x64.size a) ∧
  (∀ a, (k4_off264 v66) a + S1x64.size a ≤ S50000x64.size a)
instance k4_chk8.dec : ∀ (v66 : BitVec 32), Decidable (k4_chk8 v66) := fun v66 => decidable_of_iff' _ (Iff.of_eq (k4_chk8.eq_1 v66))
theorem k4_off16_inb : ∀ (v66 : BitVec 32) (k4_hw8 : k4_chk8 v66), ∀ a, (k4_off16 v66) a + S1x64.size a ≤ S50000x64.size a := fun v66 k4_hw8 => k4_hw8.1
theorem k4_off264_inb : ∀ (v66 : BitVec 32) (k4_hw8 : k4_chk8 v66), ∀ a, (k4_off264 v66) a + S1x64.size a ≤ S50000x64.size a := fun v66 k4_hw8 => k4_hw8.2

def k4_off265 (v75 : BitVec 32) : Fin 2 → Nat :=
  let c0_i32_547 : BitVec 32 := 0#32
  ![v75.toNat, 0]

def k4_chk9 (v75 : BitVec 32) : Prop :=
  (∀ a, (k4_off18 v75) a + S1x64.size a ≤ S50000x64.size a) ∧
  (∀ a, (k4_off265 v75) a + S1x64.size a ≤ S50000x64.size a)
instance k4_chk9.dec : ∀ (v75 : BitVec 32), Decidable (k4_chk9 v75) := fun v75 => decidable_of_iff' _ (Iff.of_eq (k4_chk9.eq_1 v75))
theorem k4_off18_inb : ∀ (v75 : BitVec 32) (k4_hw9 : k4_chk9 v75), ∀ a, (k4_off18 v75) a + S1x64.size a ≤ S50000x64.size a := fun v75 k4_hw9 => k4_hw9.1
theorem k4_off265_inb : ∀ (v75 : BitVec 32) (k4_hw9 : k4_chk9 v75), ∀ a, (k4_off265 v75) a + S1x64.size a ≤ S50000x64.size a := fun v75 k4_hw9 => k4_hw9.2

def k4_off266 (v84 : BitVec 32) : Fin 2 → Nat :=
  let c0_i32_551 : BitVec 32 := 0#32
  ![v84.toNat, 0]

def k4_chk10 (v84 : BitVec 32) : Prop :=
  (∀ a, (k4_off20 v84) a + S1x64.size a ≤ S50000x64.size a) ∧
  (∀ a, (k4_off266 v84) a + S1x64.size a ≤ S50000x64.size a)
instance k4_chk10.dec : ∀ (v84 : BitVec 32), Decidable (k4_chk10 v84) := fun v84 => decidable_of_iff' _ (Iff.of_eq (k4_chk10.eq_1 v84))
theorem k4_off20_inb : ∀ (v84 : BitVec 32) (k4_hw10 : k4_chk10 v84), ∀ a, (k4_off20 v84) a + S1x64.size a ≤ S50000x64.size a := fun v84 k4_hw10 => k4_hw10.1
theorem k4_off266_inb : ∀ (v84 : BitVec 32) (k4_hw10 : k4_chk10 v84), ∀ a, (k4_off266 v84) a + S1x64.size a ≤ S50000x64.size a := fun v84 k4_hw10 => k4_hw10.2

def k4_off267 (v93 : BitVec 32) : Fin 2 → Nat :=
  let c0_i32_555 : BitVec 32 := 0#32
  ![v93.toNat, 0]

def k4_chk11 (v93 : BitVec 32) : Prop :=
  (∀ a, (k4_off22 v93) a + S1x64.size a ≤ S50000x64.size a) ∧
  (∀ a, (k4_off267 v93) a + S1x64.size a ≤ S50000x64.size a)
instance k4_chk11.dec : ∀ (v93 : BitVec 32), Decidable (k4_chk11 v93) := fun v93 => decidable_of_iff' _ (Iff.of_eq (k4_chk11.eq_1 v93))
theorem k4_off22_inb : ∀ (v93 : BitVec 32) (k4_hw11 : k4_chk11 v93), ∀ a, (k4_off22 v93) a + S1x64.size a ≤ S50000x64.size a := fun v93 k4_hw11 => k4_hw11.1
theorem k4_off267_inb : ∀ (v93 : BitVec 32) (k4_hw11 : k4_chk11 v93), ∀ a, (k4_off267 v93) a + S1x64.size a ≤ S50000x64.size a := fun v93 k4_hw11 => k4_hw11.2

def k4_off268 (v102 : BitVec 32) : Fin 2 → Nat :=
  let c0_i32_559 : BitVec 32 := 0#32
  ![v102.toNat, 0]

def k4_chk12 (v102 : BitVec 32) : Prop :=
  (∀ a, (k4_off24 v102) a + S1x64.size a ≤ S50000x64.size a) ∧
  (∀ a, (k4_off268 v102) a + S1x64.size a ≤ S50000x64.size a)
instance k4_chk12.dec : ∀ (v102 : BitVec 32), Decidable (k4_chk12 v102) := fun v102 => decidable_of_iff' _ (Iff.of_eq (k4_chk12.eq_1 v102))
theorem k4_off24_inb : ∀ (v102 : BitVec 32) (k4_hw12 : k4_chk12 v102), ∀ a, (k4_off24 v102) a + S1x64.size a ≤ S50000x64.size a := fun v102 k4_hw12 => k4_hw12.1
theorem k4_off268_inb : ∀ (v102 : BitVec 32) (k4_hw12 : k4_chk12 v102), ∀ a, (k4_off268 v102) a + S1x64.size a ≤ S50000x64.size a := fun v102 k4_hw12 => k4_hw12.2

def k4_off269 (v111 : BitVec 32) : Fin 2 → Nat :=
  let c0_i32_563 : BitVec 32 := 0#32
  ![v111.toNat, 0]

def k4_chk13 (v111 : BitVec 32) : Prop :=
  (∀ a, (k4_off26 v111) a + S1x64.size a ≤ S50000x64.size a) ∧
  (∀ a, (k4_off269 v111) a + S1x64.size a ≤ S50000x64.size a)
instance k4_chk13.dec : ∀ (v111 : BitVec 32), Decidable (k4_chk13 v111) := fun v111 => decidable_of_iff' _ (Iff.of_eq (k4_chk13.eq_1 v111))
theorem k4_off26_inb : ∀ (v111 : BitVec 32) (k4_hw13 : k4_chk13 v111), ∀ a, (k4_off26 v111) a + S1x64.size a ≤ S50000x64.size a := fun v111 k4_hw13 => k4_hw13.1
theorem k4_off269_inb : ∀ (v111 : BitVec 32) (k4_hw13 : k4_chk13 v111), ∀ a, (k4_off269 v111) a + S1x64.size a ≤ S50000x64.size a := fun v111 k4_hw13 => k4_hw13.2

def k4_off270 (v120 : BitVec 32) : Fin 2 → Nat :=
  let c0_i32_567 : BitVec 32 := 0#32
  ![v120.toNat, 0]

def k4_chk14 (v120 : BitVec 32) : Prop :=
  (∀ a, (k4_off28 v120) a + S1x64.size a ≤ S50000x64.size a) ∧
  (∀ a, (k4_off270 v120) a + S1x64.size a ≤ S50000x64.size a)
instance k4_chk14.dec : ∀ (v120 : BitVec 32), Decidable (k4_chk14 v120) := fun v120 => decidable_of_iff' _ (Iff.of_eq (k4_chk14.eq_1 v120))
theorem k4_off28_inb : ∀ (v120 : BitVec 32) (k4_hw14 : k4_chk14 v120), ∀ a, (k4_off28 v120) a + S1x64.size a ≤ S50000x64.size a := fun v120 k4_hw14 => k4_hw14.1
theorem k4_off270_inb : ∀ (v120 : BitVec 32) (k4_hw14 : k4_chk14 v120), ∀ a, (k4_off270 v120) a + S1x64.size a ≤ S50000x64.size a := fun v120 k4_hw14 => k4_hw14.2

def k4_off271 (v129 : BitVec 32) : Fin 2 → Nat :=
  let c0_i32_571 : BitVec 32 := 0#32
  ![v129.toNat, 0]

def k4_chk15 (v129 : BitVec 32) : Prop :=
  (∀ a, (k4_off30 v129) a + S1x64.size a ≤ S50000x64.size a) ∧
  (∀ a, (k4_off271 v129) a + S1x64.size a ≤ S50000x64.size a)
instance k4_chk15.dec : ∀ (v129 : BitVec 32), Decidable (k4_chk15 v129) := fun v129 => decidable_of_iff' _ (Iff.of_eq (k4_chk15.eq_1 v129))
theorem k4_off30_inb : ∀ (v129 : BitVec 32) (k4_hw15 : k4_chk15 v129), ∀ a, (k4_off30 v129) a + S1x64.size a ≤ S50000x64.size a := fun v129 k4_hw15 => k4_hw15.1
theorem k4_off271_inb : ∀ (v129 : BitVec 32) (k4_hw15 : k4_chk15 v129), ∀ a, (k4_off271 v129) a + S1x64.size a ≤ S50000x64.size a := fun v129 k4_hw15 => k4_hw15.2

def k4_off272 (v138 : BitVec 32) : Fin 2 → Nat :=
  let c0_i32_575 : BitVec 32 := 0#32
  ![v138.toNat, 0]

def k4_chk16 (v138 : BitVec 32) : Prop :=
  (∀ a, (k4_off32 v138) a + S1x64.size a ≤ S50000x64.size a) ∧
  (∀ a, (k4_off272 v138) a + S1x64.size a ≤ S50000x64.size a)
instance k4_chk16.dec : ∀ (v138 : BitVec 32), Decidable (k4_chk16 v138) := fun v138 => decidable_of_iff' _ (Iff.of_eq (k4_chk16.eq_1 v138))
theorem k4_off32_inb : ∀ (v138 : BitVec 32) (k4_hw16 : k4_chk16 v138), ∀ a, (k4_off32 v138) a + S1x64.size a ≤ S50000x64.size a := fun v138 k4_hw16 => k4_hw16.1
theorem k4_off272_inb : ∀ (v138 : BitVec 32) (k4_hw16 : k4_chk16 v138), ∀ a, (k4_off272 v138) a + S1x64.size a ≤ S50000x64.size a := fun v138 k4_hw16 => k4_hw16.2

def k4_off273 (v147 : BitVec 32) : Fin 2 → Nat :=
  let c0_i32_579 : BitVec 32 := 0#32
  ![v147.toNat, 0]

def k4_chk17 (v147 : BitVec 32) : Prop :=
  (∀ a, (k4_off34 v147) a + S1x64.size a ≤ S50000x64.size a) ∧
  (∀ a, (k4_off273 v147) a + S1x64.size a ≤ S50000x64.size a)
instance k4_chk17.dec : ∀ (v147 : BitVec 32), Decidable (k4_chk17 v147) := fun v147 => decidable_of_iff' _ (Iff.of_eq (k4_chk17.eq_1 v147))
theorem k4_off34_inb : ∀ (v147 : BitVec 32) (k4_hw17 : k4_chk17 v147), ∀ a, (k4_off34 v147) a + S1x64.size a ≤ S50000x64.size a := fun v147 k4_hw17 => k4_hw17.1
theorem k4_off273_inb : ∀ (v147 : BitVec 32) (k4_hw17 : k4_chk17 v147), ∀ a, (k4_off273 v147) a + S1x64.size a ≤ S50000x64.size a := fun v147 k4_hw17 => k4_hw17.2

def k4_off274 (v156 : BitVec 32) : Fin 2 → Nat :=
  let c0_i32_583 : BitVec 32 := 0#32
  ![v156.toNat, 0]

def k4_chk18 (v156 : BitVec 32) : Prop :=
  (∀ a, (k4_off36 v156) a + S1x64.size a ≤ S50000x64.size a) ∧
  (∀ a, (k4_off274 v156) a + S1x64.size a ≤ S50000x64.size a)
instance k4_chk18.dec : ∀ (v156 : BitVec 32), Decidable (k4_chk18 v156) := fun v156 => decidable_of_iff' _ (Iff.of_eq (k4_chk18.eq_1 v156))
theorem k4_off36_inb : ∀ (v156 : BitVec 32) (k4_hw18 : k4_chk18 v156), ∀ a, (k4_off36 v156) a + S1x64.size a ≤ S50000x64.size a := fun v156 k4_hw18 => k4_hw18.1
theorem k4_off274_inb : ∀ (v156 : BitVec 32) (k4_hw18 : k4_chk18 v156), ∀ a, (k4_off274 v156) a + S1x64.size a ≤ S50000x64.size a := fun v156 k4_hw18 => k4_hw18.2

def k4_off275 (v165 : BitVec 32) : Fin 2 → Nat :=
  let c0_i32_587 : BitVec 32 := 0#32
  ![v165.toNat, 0]

def k4_chk19 (v165 : BitVec 32) : Prop :=
  (∀ a, (k4_off38 v165) a + S1x64.size a ≤ S50000x64.size a) ∧
  (∀ a, (k4_off275 v165) a + S1x64.size a ≤ S50000x64.size a)
instance k4_chk19.dec : ∀ (v165 : BitVec 32), Decidable (k4_chk19 v165) := fun v165 => decidable_of_iff' _ (Iff.of_eq (k4_chk19.eq_1 v165))
theorem k4_off38_inb : ∀ (v165 : BitVec 32) (k4_hw19 : k4_chk19 v165), ∀ a, (k4_off38 v165) a + S1x64.size a ≤ S50000x64.size a := fun v165 k4_hw19 => k4_hw19.1
theorem k4_off275_inb : ∀ (v165 : BitVec 32) (k4_hw19 : k4_chk19 v165), ∀ a, (k4_off275 v165) a + S1x64.size a ≤ S50000x64.size a := fun v165 k4_hw19 => k4_hw19.2

def k4_off276 (v174 : BitVec 32) : Fin 2 → Nat :=
  let c0_i32_591 : BitVec 32 := 0#32
  ![v174.toNat, 0]

def k4_chk20 (v174 : BitVec 32) : Prop :=
  (∀ a, (k4_off40 v174) a + S1x64.size a ≤ S50000x64.size a) ∧
  (∀ a, (k4_off276 v174) a + S1x64.size a ≤ S50000x64.size a)
instance k4_chk20.dec : ∀ (v174 : BitVec 32), Decidable (k4_chk20 v174) := fun v174 => decidable_of_iff' _ (Iff.of_eq (k4_chk20.eq_1 v174))
theorem k4_off40_inb : ∀ (v174 : BitVec 32) (k4_hw20 : k4_chk20 v174), ∀ a, (k4_off40 v174) a + S1x64.size a ≤ S50000x64.size a := fun v174 k4_hw20 => k4_hw20.1
theorem k4_off276_inb : ∀ (v174 : BitVec 32) (k4_hw20 : k4_chk20 v174), ∀ a, (k4_off276 v174) a + S1x64.size a ≤ S50000x64.size a := fun v174 k4_hw20 => k4_hw20.2

def k4_off277 (v183 : BitVec 32) : Fin 2 → Nat :=
  let c0_i32_595 : BitVec 32 := 0#32
  ![v183.toNat, 0]

def k4_chk21 (v183 : BitVec 32) : Prop :=
  (∀ a, (k4_off42 v183) a + S1x64.size a ≤ S50000x64.size a) ∧
  (∀ a, (k4_off277 v183) a + S1x64.size a ≤ S50000x64.size a)
instance k4_chk21.dec : ∀ (v183 : BitVec 32), Decidable (k4_chk21 v183) := fun v183 => decidable_of_iff' _ (Iff.of_eq (k4_chk21.eq_1 v183))
theorem k4_off42_inb : ∀ (v183 : BitVec 32) (k4_hw21 : k4_chk21 v183), ∀ a, (k4_off42 v183) a + S1x64.size a ≤ S50000x64.size a := fun v183 k4_hw21 => k4_hw21.1
theorem k4_off277_inb : ∀ (v183 : BitVec 32) (k4_hw21 : k4_chk21 v183), ∀ a, (k4_off277 v183) a + S1x64.size a ≤ S50000x64.size a := fun v183 k4_hw21 => k4_hw21.2

def k4_off278 (v192 : BitVec 32) : Fin 2 → Nat :=
  let c0_i32_599 : BitVec 32 := 0#32
  ![v192.toNat, 0]

def k4_chk22 (v192 : BitVec 32) : Prop :=
  (∀ a, (k4_off44 v192) a + S1x64.size a ≤ S50000x64.size a) ∧
  (∀ a, (k4_off278 v192) a + S1x64.size a ≤ S50000x64.size a)
instance k4_chk22.dec : ∀ (v192 : BitVec 32), Decidable (k4_chk22 v192) := fun v192 => decidable_of_iff' _ (Iff.of_eq (k4_chk22.eq_1 v192))
theorem k4_off44_inb : ∀ (v192 : BitVec 32) (k4_hw22 : k4_chk22 v192), ∀ a, (k4_off44 v192) a + S1x64.size a ≤ S50000x64.size a := fun v192 k4_hw22 => k4_hw22.1
theorem k4_off278_inb : ∀ (v192 : BitVec 32) (k4_hw22 : k4_chk22 v192), ∀ a, (k4_off278 v192) a + S1x64.size a ≤ S50000x64.size a := fun v192 k4_hw22 => k4_hw22.2

def k4_off279 (v201 : BitVec 32) : Fin 2 → Nat :=
  let c0_i32_603 : BitVec 32 := 0#32
  ![v201.toNat, 0]

def k4_chk23 (v201 : BitVec 32) : Prop :=
  (∀ a, (k4_off46 v201) a + S1x64.size a ≤ S50000x64.size a) ∧
  (∀ a, (k4_off279 v201) a + S1x64.size a ≤ S50000x64.size a)
instance k4_chk23.dec : ∀ (v201 : BitVec 32), Decidable (k4_chk23 v201) := fun v201 => decidable_of_iff' _ (Iff.of_eq (k4_chk23.eq_1 v201))
theorem k4_off46_inb : ∀ (v201 : BitVec 32) (k4_hw23 : k4_chk23 v201), ∀ a, (k4_off46 v201) a + S1x64.size a ≤ S50000x64.size a := fun v201 k4_hw23 => k4_hw23.1
theorem k4_off279_inb : ∀ (v201 : BitVec 32) (k4_hw23 : k4_chk23 v201), ∀ a, (k4_off279 v201) a + S1x64.size a ≤ S50000x64.size a := fun v201 k4_hw23 => k4_hw23.2

def k4_off280 (v210 : BitVec 32) : Fin 2 → Nat :=
  let c0_i32_607 : BitVec 32 := 0#32
  ![v210.toNat, 0]

def k4_chk24 (v210 : BitVec 32) : Prop :=
  (∀ a, (k4_off48 v210) a + S1x64.size a ≤ S50000x64.size a) ∧
  (∀ a, (k4_off280 v210) a + S1x64.size a ≤ S50000x64.size a)
instance k4_chk24.dec : ∀ (v210 : BitVec 32), Decidable (k4_chk24 v210) := fun v210 => decidable_of_iff' _ (Iff.of_eq (k4_chk24.eq_1 v210))
theorem k4_off48_inb : ∀ (v210 : BitVec 32) (k4_hw24 : k4_chk24 v210), ∀ a, (k4_off48 v210) a + S1x64.size a ≤ S50000x64.size a := fun v210 k4_hw24 => k4_hw24.1
theorem k4_off280_inb : ∀ (v210 : BitVec 32) (k4_hw24 : k4_chk24 v210), ∀ a, (k4_off280 v210) a + S1x64.size a ≤ S50000x64.size a := fun v210 k4_hw24 => k4_hw24.2

def k4_off281 (v219 : BitVec 32) : Fin 2 → Nat :=
  let c0_i32_611 : BitVec 32 := 0#32
  ![v219.toNat, 0]

def k4_chk25 (v219 : BitVec 32) : Prop :=
  (∀ a, (k4_off50 v219) a + S1x64.size a ≤ S50000x64.size a) ∧
  (∀ a, (k4_off281 v219) a + S1x64.size a ≤ S50000x64.size a)
instance k4_chk25.dec : ∀ (v219 : BitVec 32), Decidable (k4_chk25 v219) := fun v219 => decidable_of_iff' _ (Iff.of_eq (k4_chk25.eq_1 v219))
theorem k4_off50_inb : ∀ (v219 : BitVec 32) (k4_hw25 : k4_chk25 v219), ∀ a, (k4_off50 v219) a + S1x64.size a ≤ S50000x64.size a := fun v219 k4_hw25 => k4_hw25.1
theorem k4_off281_inb : ∀ (v219 : BitVec 32) (k4_hw25 : k4_chk25 v219), ∀ a, (k4_off281 v219) a + S1x64.size a ≤ S50000x64.size a := fun v219 k4_hw25 => k4_hw25.2

def k4_off282 (v228 : BitVec 32) : Fin 2 → Nat :=
  let c0_i32_615 : BitVec 32 := 0#32
  ![v228.toNat, 0]

def k4_chk26 (v228 : BitVec 32) : Prop :=
  (∀ a, (k4_off52 v228) a + S1x64.size a ≤ S50000x64.size a) ∧
  (∀ a, (k4_off282 v228) a + S1x64.size a ≤ S50000x64.size a)
instance k4_chk26.dec : ∀ (v228 : BitVec 32), Decidable (k4_chk26 v228) := fun v228 => decidable_of_iff' _ (Iff.of_eq (k4_chk26.eq_1 v228))
theorem k4_off52_inb : ∀ (v228 : BitVec 32) (k4_hw26 : k4_chk26 v228), ∀ a, (k4_off52 v228) a + S1x64.size a ≤ S50000x64.size a := fun v228 k4_hw26 => k4_hw26.1
theorem k4_off282_inb : ∀ (v228 : BitVec 32) (k4_hw26 : k4_chk26 v228), ∀ a, (k4_off282 v228) a + S1x64.size a ≤ S50000x64.size a := fun v228 k4_hw26 => k4_hw26.2

def k4_off283 (v237 : BitVec 32) : Fin 2 → Nat :=
  let c0_i32_619 : BitVec 32 := 0#32
  ![v237.toNat, 0]

def k4_chk27 (v237 : BitVec 32) : Prop :=
  (∀ a, (k4_off54 v237) a + S1x64.size a ≤ S50000x64.size a) ∧
  (∀ a, (k4_off283 v237) a + S1x64.size a ≤ S50000x64.size a)
instance k4_chk27.dec : ∀ (v237 : BitVec 32), Decidable (k4_chk27 v237) := fun v237 => decidable_of_iff' _ (Iff.of_eq (k4_chk27.eq_1 v237))
theorem k4_off54_inb : ∀ (v237 : BitVec 32) (k4_hw27 : k4_chk27 v237), ∀ a, (k4_off54 v237) a + S1x64.size a ≤ S50000x64.size a := fun v237 k4_hw27 => k4_hw27.1
theorem k4_off283_inb : ∀ (v237 : BitVec 32) (k4_hw27 : k4_chk27 v237), ∀ a, (k4_off283 v237) a + S1x64.size a ≤ S50000x64.size a := fun v237 k4_hw27 => k4_hw27.2

def k4_off284 (v246 : BitVec 32) : Fin 2 → Nat :=
  let c0_i32_623 : BitVec 32 := 0#32
  ![v246.toNat, 0]

def k4_chk28 (v246 : BitVec 32) : Prop :=
  (∀ a, (k4_off56 v246) a + S1x64.size a ≤ S50000x64.size a) ∧
  (∀ a, (k4_off284 v246) a + S1x64.size a ≤ S50000x64.size a)
instance k4_chk28.dec : ∀ (v246 : BitVec 32), Decidable (k4_chk28 v246) := fun v246 => decidable_of_iff' _ (Iff.of_eq (k4_chk28.eq_1 v246))
theorem k4_off56_inb : ∀ (v246 : BitVec 32) (k4_hw28 : k4_chk28 v246), ∀ a, (k4_off56 v246) a + S1x64.size a ≤ S50000x64.size a := fun v246 k4_hw28 => k4_hw28.1
theorem k4_off284_inb : ∀ (v246 : BitVec 32) (k4_hw28 : k4_chk28 v246), ∀ a, (k4_off284 v246) a + S1x64.size a ≤ S50000x64.size a := fun v246 k4_hw28 => k4_hw28.2

def k4_off285 (v255 : BitVec 32) : Fin 2 → Nat :=
  let c0_i32_627 : BitVec 32 := 0#32
  ![v255.toNat, 0]

def k4_chk29 (v255 : BitVec 32) : Prop :=
  (∀ a, (k4_off58 v255) a + S1x64.size a ≤ S50000x64.size a) ∧
  (∀ a, (k4_off285 v255) a + S1x64.size a ≤ S50000x64.size a)
instance k4_chk29.dec : ∀ (v255 : BitVec 32), Decidable (k4_chk29 v255) := fun v255 => decidable_of_iff' _ (Iff.of_eq (k4_chk29.eq_1 v255))
theorem k4_off58_inb : ∀ (v255 : BitVec 32) (k4_hw29 : k4_chk29 v255), ∀ a, (k4_off58 v255) a + S1x64.size a ≤ S50000x64.size a := fun v255 k4_hw29 => k4_hw29.1
theorem k4_off285_inb : ∀ (v255 : BitVec 32) (k4_hw29 : k4_chk29 v255), ∀ a, (k4_off285 v255) a + S1x64.size a ≤ S50000x64.size a := fun v255 k4_hw29 => k4_hw29.2

def k4_off286 (v264 : BitVec 32) : Fin 2 → Nat :=
  let c0_i32_631 : BitVec 32 := 0#32
  ![v264.toNat, 0]

def k4_chk30 (v264 : BitVec 32) : Prop :=
  (∀ a, (k4_off60 v264) a + S1x64.size a ≤ S50000x64.size a) ∧
  (∀ a, (k4_off286 v264) a + S1x64.size a ≤ S50000x64.size a)
instance k4_chk30.dec : ∀ (v264 : BitVec 32), Decidable (k4_chk30 v264) := fun v264 => decidable_of_iff' _ (Iff.of_eq (k4_chk30.eq_1 v264))
theorem k4_off60_inb : ∀ (v264 : BitVec 32) (k4_hw30 : k4_chk30 v264), ∀ a, (k4_off60 v264) a + S1x64.size a ≤ S50000x64.size a := fun v264 k4_hw30 => k4_hw30.1
theorem k4_off286_inb : ∀ (v264 : BitVec 32) (k4_hw30 : k4_chk30 v264), ∀ a, (k4_off286 v264) a + S1x64.size a ≤ S50000x64.size a := fun v264 k4_hw30 => k4_hw30.2

def k4_off287 (v273 : BitVec 32) : Fin 2 → Nat :=
  let c0_i32_635 : BitVec 32 := 0#32
  ![v273.toNat, 0]

def k4_chk31 (v273 : BitVec 32) : Prop :=
  (∀ a, (k4_off62 v273) a + S1x64.size a ≤ S50000x64.size a) ∧
  (∀ a, (k4_off287 v273) a + S1x64.size a ≤ S50000x64.size a)
instance k4_chk31.dec : ∀ (v273 : BitVec 32), Decidable (k4_chk31 v273) := fun v273 => decidable_of_iff' _ (Iff.of_eq (k4_chk31.eq_1 v273))
theorem k4_off62_inb : ∀ (v273 : BitVec 32) (k4_hw31 : k4_chk31 v273), ∀ a, (k4_off62 v273) a + S1x64.size a ≤ S50000x64.size a := fun v273 k4_hw31 => k4_hw31.1
theorem k4_off287_inb : ∀ (v273 : BitVec 32) (k4_hw31 : k4_chk31 v273), ∀ a, (k4_off287 v273) a + S1x64.size a ≤ S50000x64.size a := fun v273 k4_hw31 => k4_hw31.2

def k4_off288 (v282 : BitVec 32) : Fin 2 → Nat :=
  let c0_i32_639 : BitVec 32 := 0#32
  ![v282.toNat, 0]

def k4_chk32 (v282 : BitVec 32) : Prop :=
  (∀ a, (k4_off64 v282) a + S1x64.size a ≤ S50000x64.size a) ∧
  (∀ a, (k4_off288 v282) a + S1x64.size a ≤ S50000x64.size a)
instance k4_chk32.dec : ∀ (v282 : BitVec 32), Decidable (k4_chk32 v282) := fun v282 => decidable_of_iff' _ (Iff.of_eq (k4_chk32.eq_1 v282))
theorem k4_off64_inb : ∀ (v282 : BitVec 32) (k4_hw32 : k4_chk32 v282), ∀ a, (k4_off64 v282) a + S1x64.size a ≤ S50000x64.size a := fun v282 k4_hw32 => k4_hw32.1
theorem k4_off288_inb : ∀ (v282 : BitVec 32) (k4_hw32 : k4_chk32 v282), ∀ a, (k4_off288 v282) a + S1x64.size a ≤ S50000x64.size a := fun v282 k4_hw32 => k4_hw32.2

def k4_off289 (v291 : BitVec 32) : Fin 2 → Nat :=
  let c0_i32_643 : BitVec 32 := 0#32
  ![v291.toNat, 0]

def k4_chk33 (v291 : BitVec 32) : Prop :=
  (∀ a, (k4_off66 v291) a + S1x64.size a ≤ S50000x64.size a) ∧
  (∀ a, (k4_off289 v291) a + S1x64.size a ≤ S50000x64.size a)
instance k4_chk33.dec : ∀ (v291 : BitVec 32), Decidable (k4_chk33 v291) := fun v291 => decidable_of_iff' _ (Iff.of_eq (k4_chk33.eq_1 v291))
theorem k4_off66_inb : ∀ (v291 : BitVec 32) (k4_hw33 : k4_chk33 v291), ∀ a, (k4_off66 v291) a + S1x64.size a ≤ S50000x64.size a := fun v291 k4_hw33 => k4_hw33.1
theorem k4_off289_inb : ∀ (v291 : BitVec 32) (k4_hw33 : k4_chk33 v291), ∀ a, (k4_off289 v291) a + S1x64.size a ≤ S50000x64.size a := fun v291 k4_hw33 => k4_hw33.2

def k4_off290 (v300 : BitVec 32) : Fin 2 → Nat :=
  let c0_i32_647 : BitVec 32 := 0#32
  ![v300.toNat, 0]

def k4_chk34 (v300 : BitVec 32) : Prop :=
  (∀ a, (k4_off68 v300) a + S1x64.size a ≤ S50000x64.size a) ∧
  (∀ a, (k4_off290 v300) a + S1x64.size a ≤ S50000x64.size a)
instance k4_chk34.dec : ∀ (v300 : BitVec 32), Decidable (k4_chk34 v300) := fun v300 => decidable_of_iff' _ (Iff.of_eq (k4_chk34.eq_1 v300))
theorem k4_off68_inb : ∀ (v300 : BitVec 32) (k4_hw34 : k4_chk34 v300), ∀ a, (k4_off68 v300) a + S1x64.size a ≤ S50000x64.size a := fun v300 k4_hw34 => k4_hw34.1
theorem k4_off290_inb : ∀ (v300 : BitVec 32) (k4_hw34 : k4_chk34 v300), ∀ a, (k4_off290 v300) a + S1x64.size a ≤ S50000x64.size a := fun v300 k4_hw34 => k4_hw34.2

def k4_off291 (v309 : BitVec 32) : Fin 2 → Nat :=
  let c0_i32_651 : BitVec 32 := 0#32
  ![v309.toNat, 0]

def k4_chk35 (v309 : BitVec 32) : Prop :=
  (∀ a, (k4_off70 v309) a + S1x64.size a ≤ S50000x64.size a) ∧
  (∀ a, (k4_off291 v309) a + S1x64.size a ≤ S50000x64.size a)
instance k4_chk35.dec : ∀ (v309 : BitVec 32), Decidable (k4_chk35 v309) := fun v309 => decidable_of_iff' _ (Iff.of_eq (k4_chk35.eq_1 v309))
theorem k4_off70_inb : ∀ (v309 : BitVec 32) (k4_hw35 : k4_chk35 v309), ∀ a, (k4_off70 v309) a + S1x64.size a ≤ S50000x64.size a := fun v309 k4_hw35 => k4_hw35.1
theorem k4_off291_inb : ∀ (v309 : BitVec 32) (k4_hw35 : k4_chk35 v309), ∀ a, (k4_off291 v309) a + S1x64.size a ≤ S50000x64.size a := fun v309 k4_hw35 => k4_hw35.2

def k4_off292 (v318 : BitVec 32) : Fin 2 → Nat :=
  let c0_i32_655 : BitVec 32 := 0#32
  ![v318.toNat, 0]

def k4_chk36 (v318 : BitVec 32) : Prop :=
  (∀ a, (k4_off72 v318) a + S1x64.size a ≤ S50000x64.size a) ∧
  (∀ a, (k4_off292 v318) a + S1x64.size a ≤ S50000x64.size a)
instance k4_chk36.dec : ∀ (v318 : BitVec 32), Decidable (k4_chk36 v318) := fun v318 => decidable_of_iff' _ (Iff.of_eq (k4_chk36.eq_1 v318))
theorem k4_off72_inb : ∀ (v318 : BitVec 32) (k4_hw36 : k4_chk36 v318), ∀ a, (k4_off72 v318) a + S1x64.size a ≤ S50000x64.size a := fun v318 k4_hw36 => k4_hw36.1
theorem k4_off292_inb : ∀ (v318 : BitVec 32) (k4_hw36 : k4_chk36 v318), ∀ a, (k4_off292 v318) a + S1x64.size a ≤ S50000x64.size a := fun v318 k4_hw36 => k4_hw36.2

def k4_off293 (v327 : BitVec 32) : Fin 2 → Nat :=
  let c0_i32_659 : BitVec 32 := 0#32
  ![v327.toNat, 0]

def k4_chk37 (v327 : BitVec 32) : Prop :=
  (∀ a, (k4_off74 v327) a + S1x64.size a ≤ S50000x64.size a) ∧
  (∀ a, (k4_off293 v327) a + S1x64.size a ≤ S50000x64.size a)
instance k4_chk37.dec : ∀ (v327 : BitVec 32), Decidable (k4_chk37 v327) := fun v327 => decidable_of_iff' _ (Iff.of_eq (k4_chk37.eq_1 v327))
theorem k4_off74_inb : ∀ (v327 : BitVec 32) (k4_hw37 : k4_chk37 v327), ∀ a, (k4_off74 v327) a + S1x64.size a ≤ S50000x64.size a := fun v327 k4_hw37 => k4_hw37.1
theorem k4_off293_inb : ∀ (v327 : BitVec 32) (k4_hw37 : k4_chk37 v327), ∀ a, (k4_off293 v327) a + S1x64.size a ≤ S50000x64.size a := fun v327 k4_hw37 => k4_hw37.2

def k4_off294 (v336 : BitVec 32) : Fin 2 → Nat :=
  let c0_i32_663 : BitVec 32 := 0#32
  ![v336.toNat, 0]

def k4_chk38 (v336 : BitVec 32) : Prop :=
  (∀ a, (k4_off76 v336) a + S1x64.size a ≤ S50000x64.size a) ∧
  (∀ a, (k4_off294 v336) a + S1x64.size a ≤ S50000x64.size a)
instance k4_chk38.dec : ∀ (v336 : BitVec 32), Decidable (k4_chk38 v336) := fun v336 => decidable_of_iff' _ (Iff.of_eq (k4_chk38.eq_1 v336))
theorem k4_off76_inb : ∀ (v336 : BitVec 32) (k4_hw38 : k4_chk38 v336), ∀ a, (k4_off76 v336) a + S1x64.size a ≤ S50000x64.size a := fun v336 k4_hw38 => k4_hw38.1
theorem k4_off294_inb : ∀ (v336 : BitVec 32) (k4_hw38 : k4_chk38 v336), ∀ a, (k4_off294 v336) a + S1x64.size a ≤ S50000x64.size a := fun v336 k4_hw38 => k4_hw38.2

def k4_off295 (v345 : BitVec 32) : Fin 2 → Nat :=
  let c0_i32_667 : BitVec 32 := 0#32
  ![v345.toNat, 0]

def k4_chk39 (v345 : BitVec 32) : Prop :=
  (∀ a, (k4_off78 v345) a + S1x64.size a ≤ S50000x64.size a) ∧
  (∀ a, (k4_off295 v345) a + S1x64.size a ≤ S50000x64.size a)
instance k4_chk39.dec : ∀ (v345 : BitVec 32), Decidable (k4_chk39 v345) := fun v345 => decidable_of_iff' _ (Iff.of_eq (k4_chk39.eq_1 v345))
theorem k4_off78_inb : ∀ (v345 : BitVec 32) (k4_hw39 : k4_chk39 v345), ∀ a, (k4_off78 v345) a + S1x64.size a ≤ S50000x64.size a := fun v345 k4_hw39 => k4_hw39.1
theorem k4_off295_inb : ∀ (v345 : BitVec 32) (k4_hw39 : k4_chk39 v345), ∀ a, (k4_off295 v345) a + S1x64.size a ≤ S50000x64.size a := fun v345 k4_hw39 => k4_hw39.2

def k4_off296 (v354 : BitVec 32) : Fin 2 → Nat :=
  let c0_i32_671 : BitVec 32 := 0#32
  ![v354.toNat, 0]

def k4_chk40 (v354 : BitVec 32) : Prop :=
  (∀ a, (k4_off80 v354) a + S1x64.size a ≤ S50000x64.size a) ∧
  (∀ a, (k4_off296 v354) a + S1x64.size a ≤ S50000x64.size a)
instance k4_chk40.dec : ∀ (v354 : BitVec 32), Decidable (k4_chk40 v354) := fun v354 => decidable_of_iff' _ (Iff.of_eq (k4_chk40.eq_1 v354))
theorem k4_off80_inb : ∀ (v354 : BitVec 32) (k4_hw40 : k4_chk40 v354), ∀ a, (k4_off80 v354) a + S1x64.size a ≤ S50000x64.size a := fun v354 k4_hw40 => k4_hw40.1
theorem k4_off296_inb : ∀ (v354 : BitVec 32) (k4_hw40 : k4_chk40 v354), ∀ a, (k4_off296 v354) a + S1x64.size a ≤ S50000x64.size a := fun v354 k4_hw40 => k4_hw40.2

def k4_off297 (v363 : BitVec 32) : Fin 2 → Nat :=
  let c0_i32_675 : BitVec 32 := 0#32
  ![v363.toNat, 0]

def k4_chk41 (v363 : BitVec 32) : Prop :=
  (∀ a, (k4_off82 v363) a + S1x64.size a ≤ S50000x64.size a) ∧
  (∀ a, (k4_off297 v363) a + S1x64.size a ≤ S50000x64.size a)
instance k4_chk41.dec : ∀ (v363 : BitVec 32), Decidable (k4_chk41 v363) := fun v363 => decidable_of_iff' _ (Iff.of_eq (k4_chk41.eq_1 v363))
theorem k4_off82_inb : ∀ (v363 : BitVec 32) (k4_hw41 : k4_chk41 v363), ∀ a, (k4_off82 v363) a + S1x64.size a ≤ S50000x64.size a := fun v363 k4_hw41 => k4_hw41.1
theorem k4_off297_inb : ∀ (v363 : BitVec 32) (k4_hw41 : k4_chk41 v363), ∀ a, (k4_off297 v363) a + S1x64.size a ≤ S50000x64.size a := fun v363 k4_hw41 => k4_hw41.2

def k4_off298 (v372 : BitVec 32) : Fin 2 → Nat :=
  let c0_i32_679 : BitVec 32 := 0#32
  ![v372.toNat, 0]

def k4_chk42 (v372 : BitVec 32) : Prop :=
  (∀ a, (k4_off84 v372) a + S1x64.size a ≤ S50000x64.size a) ∧
  (∀ a, (k4_off298 v372) a + S1x64.size a ≤ S50000x64.size a)
instance k4_chk42.dec : ∀ (v372 : BitVec 32), Decidable (k4_chk42 v372) := fun v372 => decidable_of_iff' _ (Iff.of_eq (k4_chk42.eq_1 v372))
theorem k4_off84_inb : ∀ (v372 : BitVec 32) (k4_hw42 : k4_chk42 v372), ∀ a, (k4_off84 v372) a + S1x64.size a ≤ S50000x64.size a := fun v372 k4_hw42 => k4_hw42.1
theorem k4_off298_inb : ∀ (v372 : BitVec 32) (k4_hw42 : k4_chk42 v372), ∀ a, (k4_off298 v372) a + S1x64.size a ≤ S50000x64.size a := fun v372 k4_hw42 => k4_hw42.2

def k4_off299 (v381 : BitVec 32) : Fin 2 → Nat :=
  let c0_i32_683 : BitVec 32 := 0#32
  ![v381.toNat, 0]

def k4_chk43 (v381 : BitVec 32) : Prop :=
  (∀ a, (k4_off86 v381) a + S1x64.size a ≤ S50000x64.size a) ∧
  (∀ a, (k4_off299 v381) a + S1x64.size a ≤ S50000x64.size a)
instance k4_chk43.dec : ∀ (v381 : BitVec 32), Decidable (k4_chk43 v381) := fun v381 => decidable_of_iff' _ (Iff.of_eq (k4_chk43.eq_1 v381))
theorem k4_off86_inb : ∀ (v381 : BitVec 32) (k4_hw43 : k4_chk43 v381), ∀ a, (k4_off86 v381) a + S1x64.size a ≤ S50000x64.size a := fun v381 k4_hw43 => k4_hw43.1
theorem k4_off299_inb : ∀ (v381 : BitVec 32) (k4_hw43 : k4_chk43 v381), ∀ a, (k4_off299 v381) a + S1x64.size a ≤ S50000x64.size a := fun v381 k4_hw43 => k4_hw43.2

def k4_off300 (v390 : BitVec 32) : Fin 2 → Nat :=
  let c0_i32_687 : BitVec 32 := 0#32
  ![v390.toNat, 0]

def k4_chk44 (v390 : BitVec 32) : Prop :=
  (∀ a, (k4_off88 v390) a + S1x64.size a ≤ S50000x64.size a) ∧
  (∀ a, (k4_off300 v390) a + S1x64.size a ≤ S50000x64.size a)
instance k4_chk44.dec : ∀ (v390 : BitVec 32), Decidable (k4_chk44 v390) := fun v390 => decidable_of_iff' _ (Iff.of_eq (k4_chk44.eq_1 v390))
theorem k4_off88_inb : ∀ (v390 : BitVec 32) (k4_hw44 : k4_chk44 v390), ∀ a, (k4_off88 v390) a + S1x64.size a ≤ S50000x64.size a := fun v390 k4_hw44 => k4_hw44.1
theorem k4_off300_inb : ∀ (v390 : BitVec 32) (k4_hw44 : k4_chk44 v390), ∀ a, (k4_off300 v390) a + S1x64.size a ≤ S50000x64.size a := fun v390 k4_hw44 => k4_hw44.2

def k4_off301 (v399 : BitVec 32) : Fin 2 → Nat :=
  let c0_i32_691 : BitVec 32 := 0#32
  ![v399.toNat, 0]

def k4_chk45 (v399 : BitVec 32) : Prop :=
  (∀ a, (k4_off90 v399) a + S1x64.size a ≤ S50000x64.size a) ∧
  (∀ a, (k4_off301 v399) a + S1x64.size a ≤ S50000x64.size a)
instance k4_chk45.dec : ∀ (v399 : BitVec 32), Decidable (k4_chk45 v399) := fun v399 => decidable_of_iff' _ (Iff.of_eq (k4_chk45.eq_1 v399))
theorem k4_off90_inb : ∀ (v399 : BitVec 32) (k4_hw45 : k4_chk45 v399), ∀ a, (k4_off90 v399) a + S1x64.size a ≤ S50000x64.size a := fun v399 k4_hw45 => k4_hw45.1
theorem k4_off301_inb : ∀ (v399 : BitVec 32) (k4_hw45 : k4_chk45 v399), ∀ a, (k4_off301 v399) a + S1x64.size a ≤ S50000x64.size a := fun v399 k4_hw45 => k4_hw45.2

def k4_off302 (v408 : BitVec 32) : Fin 2 → Nat :=
  let c0_i32_695 : BitVec 32 := 0#32
  ![v408.toNat, 0]

def k4_chk46 (v408 : BitVec 32) : Prop :=
  (∀ a, (k4_off92 v408) a + S1x64.size a ≤ S50000x64.size a) ∧
  (∀ a, (k4_off302 v408) a + S1x64.size a ≤ S50000x64.size a)
instance k4_chk46.dec : ∀ (v408 : BitVec 32), Decidable (k4_chk46 v408) := fun v408 => decidable_of_iff' _ (Iff.of_eq (k4_chk46.eq_1 v408))
theorem k4_off92_inb : ∀ (v408 : BitVec 32) (k4_hw46 : k4_chk46 v408), ∀ a, (k4_off92 v408) a + S1x64.size a ≤ S50000x64.size a := fun v408 k4_hw46 => k4_hw46.1
theorem k4_off302_inb : ∀ (v408 : BitVec 32) (k4_hw46 : k4_chk46 v408), ∀ a, (k4_off302 v408) a + S1x64.size a ≤ S50000x64.size a := fun v408 k4_hw46 => k4_hw46.2

def k4_off303 (v417 : BitVec 32) : Fin 2 → Nat :=
  let c0_i32_699 : BitVec 32 := 0#32
  ![v417.toNat, 0]

def k4_chk47 (v417 : BitVec 32) : Prop :=
  (∀ a, (k4_off94 v417) a + S1x64.size a ≤ S50000x64.size a) ∧
  (∀ a, (k4_off303 v417) a + S1x64.size a ≤ S50000x64.size a)
instance k4_chk47.dec : ∀ (v417 : BitVec 32), Decidable (k4_chk47 v417) := fun v417 => decidable_of_iff' _ (Iff.of_eq (k4_chk47.eq_1 v417))
theorem k4_off94_inb : ∀ (v417 : BitVec 32) (k4_hw47 : k4_chk47 v417), ∀ a, (k4_off94 v417) a + S1x64.size a ≤ S50000x64.size a := fun v417 k4_hw47 => k4_hw47.1
theorem k4_off303_inb : ∀ (v417 : BitVec 32) (k4_hw47 : k4_chk47 v417), ∀ a, (k4_off303 v417) a + S1x64.size a ≤ S50000x64.size a := fun v417 k4_hw47 => k4_hw47.2

def k4_off304 (v426 : BitVec 32) : Fin 2 → Nat :=
  let c0_i32_703 : BitVec 32 := 0#32
  ![v426.toNat, 0]

def k4_chk48 (v426 : BitVec 32) : Prop :=
  (∀ a, (k4_off96 v426) a + S1x64.size a ≤ S50000x64.size a) ∧
  (∀ a, (k4_off304 v426) a + S1x64.size a ≤ S50000x64.size a)
instance k4_chk48.dec : ∀ (v426 : BitVec 32), Decidable (k4_chk48 v426) := fun v426 => decidable_of_iff' _ (Iff.of_eq (k4_chk48.eq_1 v426))
theorem k4_off96_inb : ∀ (v426 : BitVec 32) (k4_hw48 : k4_chk48 v426), ∀ a, (k4_off96 v426) a + S1x64.size a ≤ S50000x64.size a := fun v426 k4_hw48 => k4_hw48.1
theorem k4_off304_inb : ∀ (v426 : BitVec 32) (k4_hw48 : k4_chk48 v426), ∀ a, (k4_off304 v426) a + S1x64.size a ≤ S50000x64.size a := fun v426 k4_hw48 => k4_hw48.2

def k4_off305 (v435 : BitVec 32) : Fin 2 → Nat :=
  let c0_i32_707 : BitVec 32 := 0#32
  ![v435.toNat, 0]

def k4_chk49 (v435 : BitVec 32) : Prop :=
  (∀ a, (k4_off98 v435) a + S1x64.size a ≤ S50000x64.size a) ∧
  (∀ a, (k4_off305 v435) a + S1x64.size a ≤ S50000x64.size a)
instance k4_chk49.dec : ∀ (v435 : BitVec 32), Decidable (k4_chk49 v435) := fun v435 => decidable_of_iff' _ (Iff.of_eq (k4_chk49.eq_1 v435))
theorem k4_off98_inb : ∀ (v435 : BitVec 32) (k4_hw49 : k4_chk49 v435), ∀ a, (k4_off98 v435) a + S1x64.size a ≤ S50000x64.size a := fun v435 k4_hw49 => k4_hw49.1
theorem k4_off305_inb : ∀ (v435 : BitVec 32) (k4_hw49 : k4_chk49 v435), ∀ a, (k4_off305 v435) a + S1x64.size a ≤ S50000x64.size a := fun v435 k4_hw49 => k4_hw49.2

def k4_off306 (v444 : BitVec 32) : Fin 2 → Nat :=
  let c0_i32_711 : BitVec 32 := 0#32
  ![v444.toNat, 0]

def k4_chk50 (v444 : BitVec 32) : Prop :=
  (∀ a, (k4_off100 v444) a + S1x64.size a ≤ S50000x64.size a) ∧
  (∀ a, (k4_off306 v444) a + S1x64.size a ≤ S50000x64.size a)
instance k4_chk50.dec : ∀ (v444 : BitVec 32), Decidable (k4_chk50 v444) := fun v444 => decidable_of_iff' _ (Iff.of_eq (k4_chk50.eq_1 v444))
theorem k4_off100_inb : ∀ (v444 : BitVec 32) (k4_hw50 : k4_chk50 v444), ∀ a, (k4_off100 v444) a + S1x64.size a ≤ S50000x64.size a := fun v444 k4_hw50 => k4_hw50.1
theorem k4_off306_inb : ∀ (v444 : BitVec 32) (k4_hw50 : k4_chk50 v444), ∀ a, (k4_off306 v444) a + S1x64.size a ≤ S50000x64.size a := fun v444 k4_hw50 => k4_hw50.2

def k4_off307 (v453 : BitVec 32) : Fin 2 → Nat :=
  let c0_i32_715 : BitVec 32 := 0#32
  ![v453.toNat, 0]

def k4_chk51 (v453 : BitVec 32) : Prop :=
  (∀ a, (k4_off102 v453) a + S1x64.size a ≤ S50000x64.size a) ∧
  (∀ a, (k4_off307 v453) a + S1x64.size a ≤ S50000x64.size a)
instance k4_chk51.dec : ∀ (v453 : BitVec 32), Decidable (k4_chk51 v453) := fun v453 => decidable_of_iff' _ (Iff.of_eq (k4_chk51.eq_1 v453))
theorem k4_off102_inb : ∀ (v453 : BitVec 32) (k4_hw51 : k4_chk51 v453), ∀ a, (k4_off102 v453) a + S1x64.size a ≤ S50000x64.size a := fun v453 k4_hw51 => k4_hw51.1
theorem k4_off307_inb : ∀ (v453 : BitVec 32) (k4_hw51 : k4_chk51 v453), ∀ a, (k4_off307 v453) a + S1x64.size a ≤ S50000x64.size a := fun v453 k4_hw51 => k4_hw51.2

def k4_off308 (v462 : BitVec 32) : Fin 2 → Nat :=
  let c0_i32_719 : BitVec 32 := 0#32
  ![v462.toNat, 0]

def k4_chk52 (v462 : BitVec 32) : Prop :=
  (∀ a, (k4_off104 v462) a + S1x64.size a ≤ S50000x64.size a) ∧
  (∀ a, (k4_off308 v462) a + S1x64.size a ≤ S50000x64.size a)
instance k4_chk52.dec : ∀ (v462 : BitVec 32), Decidable (k4_chk52 v462) := fun v462 => decidable_of_iff' _ (Iff.of_eq (k4_chk52.eq_1 v462))
theorem k4_off104_inb : ∀ (v462 : BitVec 32) (k4_hw52 : k4_chk52 v462), ∀ a, (k4_off104 v462) a + S1x64.size a ≤ S50000x64.size a := fun v462 k4_hw52 => k4_hw52.1
theorem k4_off308_inb : ∀ (v462 : BitVec 32) (k4_hw52 : k4_chk52 v462), ∀ a, (k4_off308 v462) a + S1x64.size a ≤ S50000x64.size a := fun v462 k4_hw52 => k4_hw52.2

def k4_off309 (v471 : BitVec 32) : Fin 2 → Nat :=
  let c0_i32_723 : BitVec 32 := 0#32
  ![v471.toNat, 0]

def k4_chk53 (v471 : BitVec 32) : Prop :=
  (∀ a, (k4_off106 v471) a + S1x64.size a ≤ S50000x64.size a) ∧
  (∀ a, (k4_off309 v471) a + S1x64.size a ≤ S50000x64.size a)
instance k4_chk53.dec : ∀ (v471 : BitVec 32), Decidable (k4_chk53 v471) := fun v471 => decidable_of_iff' _ (Iff.of_eq (k4_chk53.eq_1 v471))
theorem k4_off106_inb : ∀ (v471 : BitVec 32) (k4_hw53 : k4_chk53 v471), ∀ a, (k4_off106 v471) a + S1x64.size a ≤ S50000x64.size a := fun v471 k4_hw53 => k4_hw53.1
theorem k4_off309_inb : ∀ (v471 : BitVec 32) (k4_hw53 : k4_chk53 v471), ∀ a, (k4_off309 v471) a + S1x64.size a ≤ S50000x64.size a := fun v471 k4_hw53 => k4_hw53.2

def k4_off310 (v480 : BitVec 32) : Fin 2 → Nat :=
  let c0_i32_727 : BitVec 32 := 0#32
  ![v480.toNat, 0]

def k4_chk54 (v480 : BitVec 32) : Prop :=
  (∀ a, (k4_off108 v480) a + S1x64.size a ≤ S50000x64.size a) ∧
  (∀ a, (k4_off310 v480) a + S1x64.size a ≤ S50000x64.size a)
instance k4_chk54.dec : ∀ (v480 : BitVec 32), Decidable (k4_chk54 v480) := fun v480 => decidable_of_iff' _ (Iff.of_eq (k4_chk54.eq_1 v480))
theorem k4_off108_inb : ∀ (v480 : BitVec 32) (k4_hw54 : k4_chk54 v480), ∀ a, (k4_off108 v480) a + S1x64.size a ≤ S50000x64.size a := fun v480 k4_hw54 => k4_hw54.1
theorem k4_off310_inb : ∀ (v480 : BitVec 32) (k4_hw54 : k4_chk54 v480), ∀ a, (k4_off310 v480) a + S1x64.size a ≤ S50000x64.size a := fun v480 k4_hw54 => k4_hw54.2

def k4_off311 (v489 : BitVec 32) : Fin 2 → Nat :=
  let c0_i32_731 : BitVec 32 := 0#32
  ![v489.toNat, 0]

def k4_chk55 (v489 : BitVec 32) : Prop :=
  (∀ a, (k4_off110 v489) a + S1x64.size a ≤ S50000x64.size a) ∧
  (∀ a, (k4_off311 v489) a + S1x64.size a ≤ S50000x64.size a)
instance k4_chk55.dec : ∀ (v489 : BitVec 32), Decidable (k4_chk55 v489) := fun v489 => decidable_of_iff' _ (Iff.of_eq (k4_chk55.eq_1 v489))
theorem k4_off110_inb : ∀ (v489 : BitVec 32) (k4_hw55 : k4_chk55 v489), ∀ a, (k4_off110 v489) a + S1x64.size a ≤ S50000x64.size a := fun v489 k4_hw55 => k4_hw55.1
theorem k4_off311_inb : ∀ (v489 : BitVec 32) (k4_hw55 : k4_chk55 v489), ∀ a, (k4_off311 v489) a + S1x64.size a ≤ S50000x64.size a := fun v489 k4_hw55 => k4_hw55.2

def k4_off312 (v498 : BitVec 32) : Fin 2 → Nat :=
  let c0_i32_735 : BitVec 32 := 0#32
  ![v498.toNat, 0]

def k4_chk56 (v498 : BitVec 32) : Prop :=
  (∀ a, (k4_off112 v498) a + S1x64.size a ≤ S50000x64.size a) ∧
  (∀ a, (k4_off312 v498) a + S1x64.size a ≤ S50000x64.size a)
instance k4_chk56.dec : ∀ (v498 : BitVec 32), Decidable (k4_chk56 v498) := fun v498 => decidable_of_iff' _ (Iff.of_eq (k4_chk56.eq_1 v498))
theorem k4_off112_inb : ∀ (v498 : BitVec 32) (k4_hw56 : k4_chk56 v498), ∀ a, (k4_off112 v498) a + S1x64.size a ≤ S50000x64.size a := fun v498 k4_hw56 => k4_hw56.1
theorem k4_off312_inb : ∀ (v498 : BitVec 32) (k4_hw56 : k4_chk56 v498), ∀ a, (k4_off312 v498) a + S1x64.size a ≤ S50000x64.size a := fun v498 k4_hw56 => k4_hw56.2

def k4_off313 (v507 : BitVec 32) : Fin 2 → Nat :=
  let c0_i32_739 : BitVec 32 := 0#32
  ![v507.toNat, 0]

def k4_chk57 (v507 : BitVec 32) : Prop :=
  (∀ a, (k4_off114 v507) a + S1x64.size a ≤ S50000x64.size a) ∧
  (∀ a, (k4_off313 v507) a + S1x64.size a ≤ S50000x64.size a)
instance k4_chk57.dec : ∀ (v507 : BitVec 32), Decidable (k4_chk57 v507) := fun v507 => decidable_of_iff' _ (Iff.of_eq (k4_chk57.eq_1 v507))
theorem k4_off114_inb : ∀ (v507 : BitVec 32) (k4_hw57 : k4_chk57 v507), ∀ a, (k4_off114 v507) a + S1x64.size a ≤ S50000x64.size a := fun v507 k4_hw57 => k4_hw57.1
theorem k4_off313_inb : ∀ (v507 : BitVec 32) (k4_hw57 : k4_chk57 v507), ∀ a, (k4_off313 v507) a + S1x64.size a ≤ S50000x64.size a := fun v507 k4_hw57 => k4_hw57.2

def k4_off314 (v516 : BitVec 32) : Fin 2 → Nat :=
  let c0_i32_743 : BitVec 32 := 0#32
  ![v516.toNat, 0]

def k4_chk58 (v516 : BitVec 32) : Prop :=
  (∀ a, (k4_off116 v516) a + S1x64.size a ≤ S50000x64.size a) ∧
  (∀ a, (k4_off314 v516) a + S1x64.size a ≤ S50000x64.size a)
instance k4_chk58.dec : ∀ (v516 : BitVec 32), Decidable (k4_chk58 v516) := fun v516 => decidable_of_iff' _ (Iff.of_eq (k4_chk58.eq_1 v516))
theorem k4_off116_inb : ∀ (v516 : BitVec 32) (k4_hw58 : k4_chk58 v516), ∀ a, (k4_off116 v516) a + S1x64.size a ≤ S50000x64.size a := fun v516 k4_hw58 => k4_hw58.1
theorem k4_off314_inb : ∀ (v516 : BitVec 32) (k4_hw58 : k4_chk58 v516), ∀ a, (k4_off314 v516) a + S1x64.size a ≤ S50000x64.size a := fun v516 k4_hw58 => k4_hw58.2

def k4_off315 (v525 : BitVec 32) : Fin 2 → Nat :=
  let c0_i32_747 : BitVec 32 := 0#32
  ![v525.toNat, 0]

def k4_chk59 (v525 : BitVec 32) : Prop :=
  (∀ a, (k4_off118 v525) a + S1x64.size a ≤ S50000x64.size a) ∧
  (∀ a, (k4_off315 v525) a + S1x64.size a ≤ S50000x64.size a)
instance k4_chk59.dec : ∀ (v525 : BitVec 32), Decidable (k4_chk59 v525) := fun v525 => decidable_of_iff' _ (Iff.of_eq (k4_chk59.eq_1 v525))
theorem k4_off118_inb : ∀ (v525 : BitVec 32) (k4_hw59 : k4_chk59 v525), ∀ a, (k4_off118 v525) a + S1x64.size a ≤ S50000x64.size a := fun v525 k4_hw59 => k4_hw59.1
theorem k4_off315_inb : ∀ (v525 : BitVec 32) (k4_hw59 : k4_chk59 v525), ∀ a, (k4_off315 v525) a + S1x64.size a ≤ S50000x64.size a := fun v525 k4_hw59 => k4_hw59.2

def k4_off316 (v534 : BitVec 32) : Fin 2 → Nat :=
  let c0_i32_751 : BitVec 32 := 0#32
  ![v534.toNat, 0]

def k4_chk60 (v534 : BitVec 32) : Prop :=
  (∀ a, (k4_off120 v534) a + S1x64.size a ≤ S50000x64.size a) ∧
  (∀ a, (k4_off316 v534) a + S1x64.size a ≤ S50000x64.size a)
instance k4_chk60.dec : ∀ (v534 : BitVec 32), Decidable (k4_chk60 v534) := fun v534 => decidable_of_iff' _ (Iff.of_eq (k4_chk60.eq_1 v534))
theorem k4_off120_inb : ∀ (v534 : BitVec 32) (k4_hw60 : k4_chk60 v534), ∀ a, (k4_off120 v534) a + S1x64.size a ≤ S50000x64.size a := fun v534 k4_hw60 => k4_hw60.1
theorem k4_off316_inb : ∀ (v534 : BitVec 32) (k4_hw60 : k4_chk60 v534), ∀ a, (k4_off316 v534) a + S1x64.size a ≤ S50000x64.size a := fun v534 k4_hw60 => k4_hw60.2

def k4_off317 (v543 : BitVec 32) : Fin 2 → Nat :=
  let c0_i32_755 : BitVec 32 := 0#32
  ![v543.toNat, 0]

def k4_chk61 (v543 : BitVec 32) : Prop :=
  (∀ a, (k4_off122 v543) a + S1x64.size a ≤ S50000x64.size a) ∧
  (∀ a, (k4_off317 v543) a + S1x64.size a ≤ S50000x64.size a)
instance k4_chk61.dec : ∀ (v543 : BitVec 32), Decidable (k4_chk61 v543) := fun v543 => decidable_of_iff' _ (Iff.of_eq (k4_chk61.eq_1 v543))
theorem k4_off122_inb : ∀ (v543 : BitVec 32) (k4_hw61 : k4_chk61 v543), ∀ a, (k4_off122 v543) a + S1x64.size a ≤ S50000x64.size a := fun v543 k4_hw61 => k4_hw61.1
theorem k4_off317_inb : ∀ (v543 : BitVec 32) (k4_hw61 : k4_chk61 v543), ∀ a, (k4_off317 v543) a + S1x64.size a ≤ S50000x64.size a := fun v543 k4_hw61 => k4_hw61.2

def k4_off318 (v552 : BitVec 32) : Fin 2 → Nat :=
  let c0_i32_759 : BitVec 32 := 0#32
  ![v552.toNat, 0]

def k4_chk62 (v552 : BitVec 32) : Prop :=
  (∀ a, (k4_off124 v552) a + S1x64.size a ≤ S50000x64.size a) ∧
  (∀ a, (k4_off318 v552) a + S1x64.size a ≤ S50000x64.size a)
instance k4_chk62.dec : ∀ (v552 : BitVec 32), Decidable (k4_chk62 v552) := fun v552 => decidable_of_iff' _ (Iff.of_eq (k4_chk62.eq_1 v552))
theorem k4_off124_inb : ∀ (v552 : BitVec 32) (k4_hw62 : k4_chk62 v552), ∀ a, (k4_off124 v552) a + S1x64.size a ≤ S50000x64.size a := fun v552 k4_hw62 => k4_hw62.1
theorem k4_off318_inb : ∀ (v552 : BitVec 32) (k4_hw62 : k4_chk62 v552), ∀ a, (k4_off318 v552) a + S1x64.size a ≤ S50000x64.size a := fun v552 k4_hw62 => k4_hw62.2

def k4_off319 (v561 : BitVec 32) : Fin 2 → Nat :=
  let c0_i32_763 : BitVec 32 := 0#32
  ![v561.toNat, 0]

def k4_chk63 (v561 : BitVec 32) : Prop :=
  (∀ a, (k4_off126 v561) a + S1x64.size a ≤ S50000x64.size a) ∧
  (∀ a, (k4_off319 v561) a + S1x64.size a ≤ S50000x64.size a)
instance k4_chk63.dec : ∀ (v561 : BitVec 32), Decidable (k4_chk63 v561) := fun v561 => decidable_of_iff' _ (Iff.of_eq (k4_chk63.eq_1 v561))
theorem k4_off126_inb : ∀ (v561 : BitVec 32) (k4_hw63 : k4_chk63 v561), ∀ a, (k4_off126 v561) a + S1x64.size a ≤ S50000x64.size a := fun v561 k4_hw63 => k4_hw63.1
theorem k4_off319_inb : ∀ (v561 : BitVec 32) (k4_hw63 : k4_chk63 v561), ∀ a, (k4_off319 v561) a + S1x64.size a ≤ S50000x64.size a := fun v561 k4_hw63 => k4_hw63.2

def k4_off320 (v570 : BitVec 32) : Fin 2 → Nat :=
  let c0_i32_767 : BitVec 32 := 0#32
  ![v570.toNat, 0]

def k4_chk64 (v570 : BitVec 32) : Prop :=
  (∀ a, (k4_off128 v570) a + S1x64.size a ≤ S50000x64.size a) ∧
  (∀ a, (k4_off320 v570) a + S1x64.size a ≤ S50000x64.size a)
instance k4_chk64.dec : ∀ (v570 : BitVec 32), Decidable (k4_chk64 v570) := fun v570 => decidable_of_iff' _ (Iff.of_eq (k4_chk64.eq_1 v570))
theorem k4_off128_inb : ∀ (v570 : BitVec 32) (k4_hw64 : k4_chk64 v570), ∀ a, (k4_off128 v570) a + S1x64.size a ≤ S50000x64.size a := fun v570 k4_hw64 => k4_hw64.1
theorem k4_off320_inb : ∀ (v570 : BitVec 32) (k4_hw64 : k4_chk64 v570), ∀ a, (k4_off320 v570) a + S1x64.size a ≤ S50000x64.size a := fun v570 k4_hw64 => k4_hw64.2

def k4_off321 (v579 : BitVec 32) : Fin 2 → Nat :=
  let c0_i32_771 : BitVec 32 := 0#32
  ![v579.toNat, 0]

def k4_chk65 (v579 : BitVec 32) : Prop :=
  (∀ a, (k4_off130 v579) a + S1x64.size a ≤ S50000x64.size a) ∧
  (∀ a, (k4_off321 v579) a + S1x64.size a ≤ S50000x64.size a)
instance k4_chk65.dec : ∀ (v579 : BitVec 32), Decidable (k4_chk65 v579) := fun v579 => decidable_of_iff' _ (Iff.of_eq (k4_chk65.eq_1 v579))
theorem k4_off130_inb : ∀ (v579 : BitVec 32) (k4_hw65 : k4_chk65 v579), ∀ a, (k4_off130 v579) a + S1x64.size a ≤ S50000x64.size a := fun v579 k4_hw65 => k4_hw65.1
theorem k4_off321_inb : ∀ (v579 : BitVec 32) (k4_hw65 : k4_chk65 v579), ∀ a, (k4_off321 v579) a + S1x64.size a ≤ S50000x64.size a := fun v579 k4_hw65 => k4_hw65.2

def k4_off322 (v588 : BitVec 32) : Fin 2 → Nat :=
  let c0_i32_775 : BitVec 32 := 0#32
  ![v588.toNat, 0]

def k4_chk66 (v588 : BitVec 32) : Prop :=
  (∀ a, (k4_off132 v588) a + S1x64.size a ≤ S50000x64.size a) ∧
  (∀ a, (k4_off322 v588) a + S1x64.size a ≤ S50000x64.size a)
instance k4_chk66.dec : ∀ (v588 : BitVec 32), Decidable (k4_chk66 v588) := fun v588 => decidable_of_iff' _ (Iff.of_eq (k4_chk66.eq_1 v588))
theorem k4_off132_inb : ∀ (v588 : BitVec 32) (k4_hw66 : k4_chk66 v588), ∀ a, (k4_off132 v588) a + S1x64.size a ≤ S50000x64.size a := fun v588 k4_hw66 => k4_hw66.1
theorem k4_off322_inb : ∀ (v588 : BitVec 32) (k4_hw66 : k4_chk66 v588), ∀ a, (k4_off322 v588) a + S1x64.size a ≤ S50000x64.size a := fun v588 k4_hw66 => k4_hw66.2

def k4_off323 (v597 : BitVec 32) : Fin 2 → Nat :=
  let c0_i32_779 : BitVec 32 := 0#32
  ![v597.toNat, 0]

def k4_chk67 (v597 : BitVec 32) : Prop :=
  (∀ a, (k4_off134 v597) a + S1x64.size a ≤ S50000x64.size a) ∧
  (∀ a, (k4_off323 v597) a + S1x64.size a ≤ S50000x64.size a)
instance k4_chk67.dec : ∀ (v597 : BitVec 32), Decidable (k4_chk67 v597) := fun v597 => decidable_of_iff' _ (Iff.of_eq (k4_chk67.eq_1 v597))
theorem k4_off134_inb : ∀ (v597 : BitVec 32) (k4_hw67 : k4_chk67 v597), ∀ a, (k4_off134 v597) a + S1x64.size a ≤ S50000x64.size a := fun v597 k4_hw67 => k4_hw67.1
theorem k4_off323_inb : ∀ (v597 : BitVec 32) (k4_hw67 : k4_chk67 v597), ∀ a, (k4_off323 v597) a + S1x64.size a ≤ S50000x64.size a := fun v597 k4_hw67 => k4_hw67.2

def k4_off324 (v606 : BitVec 32) : Fin 2 → Nat :=
  let c0_i32_783 : BitVec 32 := 0#32
  ![v606.toNat, 0]

def k4_chk68 (v606 : BitVec 32) : Prop :=
  (∀ a, (k4_off136 v606) a + S1x64.size a ≤ S50000x64.size a) ∧
  (∀ a, (k4_off324 v606) a + S1x64.size a ≤ S50000x64.size a)
instance k4_chk68.dec : ∀ (v606 : BitVec 32), Decidable (k4_chk68 v606) := fun v606 => decidable_of_iff' _ (Iff.of_eq (k4_chk68.eq_1 v606))
theorem k4_off136_inb : ∀ (v606 : BitVec 32) (k4_hw68 : k4_chk68 v606), ∀ a, (k4_off136 v606) a + S1x64.size a ≤ S50000x64.size a := fun v606 k4_hw68 => k4_hw68.1
theorem k4_off324_inb : ∀ (v606 : BitVec 32) (k4_hw68 : k4_chk68 v606), ∀ a, (k4_off324 v606) a + S1x64.size a ≤ S50000x64.size a := fun v606 k4_hw68 => k4_hw68.2

def k4_off325 (v615 : BitVec 32) : Fin 2 → Nat :=
  let c0_i32_787 : BitVec 32 := 0#32
  ![v615.toNat, 0]

def k4_chk69 (v615 : BitVec 32) : Prop :=
  (∀ a, (k4_off138 v615) a + S1x64.size a ≤ S50000x64.size a) ∧
  (∀ a, (k4_off325 v615) a + S1x64.size a ≤ S50000x64.size a)
instance k4_chk69.dec : ∀ (v615 : BitVec 32), Decidable (k4_chk69 v615) := fun v615 => decidable_of_iff' _ (Iff.of_eq (k4_chk69.eq_1 v615))
theorem k4_off138_inb : ∀ (v615 : BitVec 32) (k4_hw69 : k4_chk69 v615), ∀ a, (k4_off138 v615) a + S1x64.size a ≤ S50000x64.size a := fun v615 k4_hw69 => k4_hw69.1
theorem k4_off325_inb : ∀ (v615 : BitVec 32) (k4_hw69 : k4_chk69 v615), ∀ a, (k4_off325 v615) a + S1x64.size a ≤ S50000x64.size a := fun v615 k4_hw69 => k4_hw69.2

def k4_off326 (v624 : BitVec 32) : Fin 2 → Nat :=
  let c0_i32_791 : BitVec 32 := 0#32
  ![v624.toNat, 0]

def k4_chk70 (v624 : BitVec 32) : Prop :=
  (∀ a, (k4_off140 v624) a + S1x64.size a ≤ S50000x64.size a) ∧
  (∀ a, (k4_off326 v624) a + S1x64.size a ≤ S50000x64.size a)
instance k4_chk70.dec : ∀ (v624 : BitVec 32), Decidable (k4_chk70 v624) := fun v624 => decidable_of_iff' _ (Iff.of_eq (k4_chk70.eq_1 v624))
theorem k4_off140_inb : ∀ (v624 : BitVec 32) (k4_hw70 : k4_chk70 v624), ∀ a, (k4_off140 v624) a + S1x64.size a ≤ S50000x64.size a := fun v624 k4_hw70 => k4_hw70.1
theorem k4_off326_inb : ∀ (v624 : BitVec 32) (k4_hw70 : k4_chk70 v624), ∀ a, (k4_off326 v624) a + S1x64.size a ≤ S50000x64.size a := fun v624 k4_hw70 => k4_hw70.2

def k4_off327 (v633 : BitVec 32) : Fin 2 → Nat :=
  let c0_i32_795 : BitVec 32 := 0#32
  ![v633.toNat, 0]

def k4_chk71 (v633 : BitVec 32) : Prop :=
  (∀ a, (k4_off142 v633) a + S1x64.size a ≤ S50000x64.size a) ∧
  (∀ a, (k4_off327 v633) a + S1x64.size a ≤ S50000x64.size a)
instance k4_chk71.dec : ∀ (v633 : BitVec 32), Decidable (k4_chk71 v633) := fun v633 => decidable_of_iff' _ (Iff.of_eq (k4_chk71.eq_1 v633))
theorem k4_off142_inb : ∀ (v633 : BitVec 32) (k4_hw71 : k4_chk71 v633), ∀ a, (k4_off142 v633) a + S1x64.size a ≤ S50000x64.size a := fun v633 k4_hw71 => k4_hw71.1
theorem k4_off327_inb : ∀ (v633 : BitVec 32) (k4_hw71 : k4_chk71 v633), ∀ a, (k4_off327 v633) a + S1x64.size a ≤ S50000x64.size a := fun v633 k4_hw71 => k4_hw71.2

def k4_off328 (v642 : BitVec 32) : Fin 2 → Nat :=
  let c0_i32_799 : BitVec 32 := 0#32
  ![v642.toNat, 0]

def k4_chk72 (v642 : BitVec 32) : Prop :=
  (∀ a, (k4_off144 v642) a + S1x64.size a ≤ S50000x64.size a) ∧
  (∀ a, (k4_off328 v642) a + S1x64.size a ≤ S50000x64.size a)
instance k4_chk72.dec : ∀ (v642 : BitVec 32), Decidable (k4_chk72 v642) := fun v642 => decidable_of_iff' _ (Iff.of_eq (k4_chk72.eq_1 v642))
theorem k4_off144_inb : ∀ (v642 : BitVec 32) (k4_hw72 : k4_chk72 v642), ∀ a, (k4_off144 v642) a + S1x64.size a ≤ S50000x64.size a := fun v642 k4_hw72 => k4_hw72.1
theorem k4_off328_inb : ∀ (v642 : BitVec 32) (k4_hw72 : k4_chk72 v642), ∀ a, (k4_off328 v642) a + S1x64.size a ≤ S50000x64.size a := fun v642 k4_hw72 => k4_hw72.2

def k4_off329 (v651 : BitVec 32) : Fin 2 → Nat :=
  let c0_i32_803 : BitVec 32 := 0#32
  ![v651.toNat, 0]

def k4_chk73 (v651 : BitVec 32) : Prop :=
  (∀ a, (k4_off146 v651) a + S1x64.size a ≤ S50000x64.size a) ∧
  (∀ a, (k4_off329 v651) a + S1x64.size a ≤ S50000x64.size a)
instance k4_chk73.dec : ∀ (v651 : BitVec 32), Decidable (k4_chk73 v651) := fun v651 => decidable_of_iff' _ (Iff.of_eq (k4_chk73.eq_1 v651))
theorem k4_off146_inb : ∀ (v651 : BitVec 32) (k4_hw73 : k4_chk73 v651), ∀ a, (k4_off146 v651) a + S1x64.size a ≤ S50000x64.size a := fun v651 k4_hw73 => k4_hw73.1
theorem k4_off329_inb : ∀ (v651 : BitVec 32) (k4_hw73 : k4_chk73 v651), ∀ a, (k4_off329 v651) a + S1x64.size a ≤ S50000x64.size a := fun v651 k4_hw73 => k4_hw73.2

def k4_off330 (v660 : BitVec 32) : Fin 2 → Nat :=
  let c0_i32_807 : BitVec 32 := 0#32
  ![v660.toNat, 0]

def k4_chk74 (v660 : BitVec 32) : Prop :=
  (∀ a, (k4_off148 v660) a + S1x64.size a ≤ S50000x64.size a) ∧
  (∀ a, (k4_off330 v660) a + S1x64.size a ≤ S50000x64.size a)
instance k4_chk74.dec : ∀ (v660 : BitVec 32), Decidable (k4_chk74 v660) := fun v660 => decidable_of_iff' _ (Iff.of_eq (k4_chk74.eq_1 v660))
theorem k4_off148_inb : ∀ (v660 : BitVec 32) (k4_hw74 : k4_chk74 v660), ∀ a, (k4_off148 v660) a + S1x64.size a ≤ S50000x64.size a := fun v660 k4_hw74 => k4_hw74.1
theorem k4_off330_inb : ∀ (v660 : BitVec 32) (k4_hw74 : k4_chk74 v660), ∀ a, (k4_off330 v660) a + S1x64.size a ≤ S50000x64.size a := fun v660 k4_hw74 => k4_hw74.2

def k4_off331 (v669 : BitVec 32) : Fin 2 → Nat :=
  let c0_i32_811 : BitVec 32 := 0#32
  ![v669.toNat, 0]

def k4_chk75 (v669 : BitVec 32) : Prop :=
  (∀ a, (k4_off150 v669) a + S1x64.size a ≤ S50000x64.size a) ∧
  (∀ a, (k4_off331 v669) a + S1x64.size a ≤ S50000x64.size a)
instance k4_chk75.dec : ∀ (v669 : BitVec 32), Decidable (k4_chk75 v669) := fun v669 => decidable_of_iff' _ (Iff.of_eq (k4_chk75.eq_1 v669))
theorem k4_off150_inb : ∀ (v669 : BitVec 32) (k4_hw75 : k4_chk75 v669), ∀ a, (k4_off150 v669) a + S1x64.size a ≤ S50000x64.size a := fun v669 k4_hw75 => k4_hw75.1
theorem k4_off331_inb : ∀ (v669 : BitVec 32) (k4_hw75 : k4_chk75 v669), ∀ a, (k4_off331 v669) a + S1x64.size a ≤ S50000x64.size a := fun v669 k4_hw75 => k4_hw75.2

def k4_off332 (v678 : BitVec 32) : Fin 2 → Nat :=
  let c0_i32_815 : BitVec 32 := 0#32
  ![v678.toNat, 0]

def k4_chk76 (v678 : BitVec 32) : Prop :=
  (∀ a, (k4_off152 v678) a + S1x64.size a ≤ S50000x64.size a) ∧
  (∀ a, (k4_off332 v678) a + S1x64.size a ≤ S50000x64.size a)
instance k4_chk76.dec : ∀ (v678 : BitVec 32), Decidable (k4_chk76 v678) := fun v678 => decidable_of_iff' _ (Iff.of_eq (k4_chk76.eq_1 v678))
theorem k4_off152_inb : ∀ (v678 : BitVec 32) (k4_hw76 : k4_chk76 v678), ∀ a, (k4_off152 v678) a + S1x64.size a ≤ S50000x64.size a := fun v678 k4_hw76 => k4_hw76.1
theorem k4_off332_inb : ∀ (v678 : BitVec 32) (k4_hw76 : k4_chk76 v678), ∀ a, (k4_off332 v678) a + S1x64.size a ≤ S50000x64.size a := fun v678 k4_hw76 => k4_hw76.2

def k4_off333 (v687 : BitVec 32) : Fin 2 → Nat :=
  let c0_i32_819 : BitVec 32 := 0#32
  ![v687.toNat, 0]

def k4_chk77 (v687 : BitVec 32) : Prop :=
  (∀ a, (k4_off154 v687) a + S1x64.size a ≤ S50000x64.size a) ∧
  (∀ a, (k4_off333 v687) a + S1x64.size a ≤ S50000x64.size a)
instance k4_chk77.dec : ∀ (v687 : BitVec 32), Decidable (k4_chk77 v687) := fun v687 => decidable_of_iff' _ (Iff.of_eq (k4_chk77.eq_1 v687))
theorem k4_off154_inb : ∀ (v687 : BitVec 32) (k4_hw77 : k4_chk77 v687), ∀ a, (k4_off154 v687) a + S1x64.size a ≤ S50000x64.size a := fun v687 k4_hw77 => k4_hw77.1
theorem k4_off333_inb : ∀ (v687 : BitVec 32) (k4_hw77 : k4_chk77 v687), ∀ a, (k4_off333 v687) a + S1x64.size a ≤ S50000x64.size a := fun v687 k4_hw77 => k4_hw77.2

def k4_off334 (v696 : BitVec 32) : Fin 2 → Nat :=
  let c0_i32_823 : BitVec 32 := 0#32
  ![v696.toNat, 0]

def k4_chk78 (v696 : BitVec 32) : Prop :=
  (∀ a, (k4_off156 v696) a + S1x64.size a ≤ S50000x64.size a) ∧
  (∀ a, (k4_off334 v696) a + S1x64.size a ≤ S50000x64.size a)
instance k4_chk78.dec : ∀ (v696 : BitVec 32), Decidable (k4_chk78 v696) := fun v696 => decidable_of_iff' _ (Iff.of_eq (k4_chk78.eq_1 v696))
theorem k4_off156_inb : ∀ (v696 : BitVec 32) (k4_hw78 : k4_chk78 v696), ∀ a, (k4_off156 v696) a + S1x64.size a ≤ S50000x64.size a := fun v696 k4_hw78 => k4_hw78.1
theorem k4_off334_inb : ∀ (v696 : BitVec 32) (k4_hw78 : k4_chk78 v696), ∀ a, (k4_off334 v696) a + S1x64.size a ≤ S50000x64.size a := fun v696 k4_hw78 => k4_hw78.2

def k4_off335 (v705 : BitVec 32) : Fin 2 → Nat :=
  let c0_i32_827 : BitVec 32 := 0#32
  ![v705.toNat, 0]

def k4_chk79 (v705 : BitVec 32) : Prop :=
  (∀ a, (k4_off158 v705) a + S1x64.size a ≤ S50000x64.size a) ∧
  (∀ a, (k4_off335 v705) a + S1x64.size a ≤ S50000x64.size a)
instance k4_chk79.dec : ∀ (v705 : BitVec 32), Decidable (k4_chk79 v705) := fun v705 => decidable_of_iff' _ (Iff.of_eq (k4_chk79.eq_1 v705))
theorem k4_off158_inb : ∀ (v705 : BitVec 32) (k4_hw79 : k4_chk79 v705), ∀ a, (k4_off158 v705) a + S1x64.size a ≤ S50000x64.size a := fun v705 k4_hw79 => k4_hw79.1
theorem k4_off335_inb : ∀ (v705 : BitVec 32) (k4_hw79 : k4_chk79 v705), ∀ a, (k4_off335 v705) a + S1x64.size a ≤ S50000x64.size a := fun v705 k4_hw79 => k4_hw79.2

def k4_off336 (v714 : BitVec 32) : Fin 2 → Nat :=
  let c0_i32_831 : BitVec 32 := 0#32
  ![v714.toNat, 0]

def k4_chk80 (v714 : BitVec 32) : Prop :=
  (∀ a, (k4_off160 v714) a + S1x64.size a ≤ S50000x64.size a) ∧
  (∀ a, (k4_off336 v714) a + S1x64.size a ≤ S50000x64.size a)
instance k4_chk80.dec : ∀ (v714 : BitVec 32), Decidable (k4_chk80 v714) := fun v714 => decidable_of_iff' _ (Iff.of_eq (k4_chk80.eq_1 v714))
theorem k4_off160_inb : ∀ (v714 : BitVec 32) (k4_hw80 : k4_chk80 v714), ∀ a, (k4_off160 v714) a + S1x64.size a ≤ S50000x64.size a := fun v714 k4_hw80 => k4_hw80.1
theorem k4_off336_inb : ∀ (v714 : BitVec 32) (k4_hw80 : k4_chk80 v714), ∀ a, (k4_off336 v714) a + S1x64.size a ≤ S50000x64.size a := fun v714 k4_hw80 => k4_hw80.2

def k4_off337 (v723 : BitVec 32) : Fin 2 → Nat :=
  let c0_i32_835 : BitVec 32 := 0#32
  ![v723.toNat, 0]

def k4_chk81 (v723 : BitVec 32) : Prop :=
  (∀ a, (k4_off162 v723) a + S1x64.size a ≤ S50000x64.size a) ∧
  (∀ a, (k4_off337 v723) a + S1x64.size a ≤ S50000x64.size a)
instance k4_chk81.dec : ∀ (v723 : BitVec 32), Decidable (k4_chk81 v723) := fun v723 => decidable_of_iff' _ (Iff.of_eq (k4_chk81.eq_1 v723))
theorem k4_off162_inb : ∀ (v723 : BitVec 32) (k4_hw81 : k4_chk81 v723), ∀ a, (k4_off162 v723) a + S1x64.size a ≤ S50000x64.size a := fun v723 k4_hw81 => k4_hw81.1
theorem k4_off337_inb : ∀ (v723 : BitVec 32) (k4_hw81 : k4_chk81 v723), ∀ a, (k4_off337 v723) a + S1x64.size a ≤ S50000x64.size a := fun v723 k4_hw81 => k4_hw81.2

def k4_off338 (v732 : BitVec 32) : Fin 2 → Nat :=
  let c0_i32_839 : BitVec 32 := 0#32
  ![v732.toNat, 0]

def k4_chk82 (v732 : BitVec 32) : Prop :=
  (∀ a, (k4_off164 v732) a + S1x64.size a ≤ S50000x64.size a) ∧
  (∀ a, (k4_off338 v732) a + S1x64.size a ≤ S50000x64.size a)
instance k4_chk82.dec : ∀ (v732 : BitVec 32), Decidable (k4_chk82 v732) := fun v732 => decidable_of_iff' _ (Iff.of_eq (k4_chk82.eq_1 v732))
theorem k4_off164_inb : ∀ (v732 : BitVec 32) (k4_hw82 : k4_chk82 v732), ∀ a, (k4_off164 v732) a + S1x64.size a ≤ S50000x64.size a := fun v732 k4_hw82 => k4_hw82.1
theorem k4_off338_inb : ∀ (v732 : BitVec 32) (k4_hw82 : k4_chk82 v732), ∀ a, (k4_off338 v732) a + S1x64.size a ≤ S50000x64.size a := fun v732 k4_hw82 => k4_hw82.2

def k4_off339 (v741 : BitVec 32) : Fin 2 → Nat :=
  let c0_i32_843 : BitVec 32 := 0#32
  ![v741.toNat, 0]

def k4_chk83 (v741 : BitVec 32) : Prop :=
  (∀ a, (k4_off166 v741) a + S1x64.size a ≤ S50000x64.size a) ∧
  (∀ a, (k4_off339 v741) a + S1x64.size a ≤ S50000x64.size a)
instance k4_chk83.dec : ∀ (v741 : BitVec 32), Decidable (k4_chk83 v741) := fun v741 => decidable_of_iff' _ (Iff.of_eq (k4_chk83.eq_1 v741))
theorem k4_off166_inb : ∀ (v741 : BitVec 32) (k4_hw83 : k4_chk83 v741), ∀ a, (k4_off166 v741) a + S1x64.size a ≤ S50000x64.size a := fun v741 k4_hw83 => k4_hw83.1
theorem k4_off339_inb : ∀ (v741 : BitVec 32) (k4_hw83 : k4_chk83 v741), ∀ a, (k4_off339 v741) a + S1x64.size a ≤ S50000x64.size a := fun v741 k4_hw83 => k4_hw83.2

def k4_off340 (v750 : BitVec 32) : Fin 2 → Nat :=
  let c0_i32_847 : BitVec 32 := 0#32
  ![v750.toNat, 0]

def k4_chk84 (v750 : BitVec 32) : Prop :=
  (∀ a, (k4_off168 v750) a + S1x64.size a ≤ S50000x64.size a) ∧
  (∀ a, (k4_off340 v750) a + S1x64.size a ≤ S50000x64.size a)
instance k4_chk84.dec : ∀ (v750 : BitVec 32), Decidable (k4_chk84 v750) := fun v750 => decidable_of_iff' _ (Iff.of_eq (k4_chk84.eq_1 v750))
theorem k4_off168_inb : ∀ (v750 : BitVec 32) (k4_hw84 : k4_chk84 v750), ∀ a, (k4_off168 v750) a + S1x64.size a ≤ S50000x64.size a := fun v750 k4_hw84 => k4_hw84.1
theorem k4_off340_inb : ∀ (v750 : BitVec 32) (k4_hw84 : k4_chk84 v750), ∀ a, (k4_off340 v750) a + S1x64.size a ≤ S50000x64.size a := fun v750 k4_hw84 => k4_hw84.2

def k4_off341 (v759 : BitVec 32) : Fin 2 → Nat :=
  let c0_i32_851 : BitVec 32 := 0#32
  ![v759.toNat, 0]

def k4_chk85 (v759 : BitVec 32) : Prop :=
  (∀ a, (k4_off170 v759) a + S1x64.size a ≤ S50000x64.size a) ∧
  (∀ a, (k4_off341 v759) a + S1x64.size a ≤ S50000x64.size a)
instance k4_chk85.dec : ∀ (v759 : BitVec 32), Decidable (k4_chk85 v759) := fun v759 => decidable_of_iff' _ (Iff.of_eq (k4_chk85.eq_1 v759))
theorem k4_off170_inb : ∀ (v759 : BitVec 32) (k4_hw85 : k4_chk85 v759), ∀ a, (k4_off170 v759) a + S1x64.size a ≤ S50000x64.size a := fun v759 k4_hw85 => k4_hw85.1
theorem k4_off341_inb : ∀ (v759 : BitVec 32) (k4_hw85 : k4_chk85 v759), ∀ a, (k4_off341 v759) a + S1x64.size a ≤ S50000x64.size a := fun v759 k4_hw85 => k4_hw85.2

def k4_off342 (v768 : BitVec 32) : Fin 2 → Nat :=
  let c0_i32_855 : BitVec 32 := 0#32
  ![v768.toNat, 0]

def k4_chk86 (v768 : BitVec 32) : Prop :=
  (∀ a, (k4_off172 v768) a + S1x64.size a ≤ S50000x64.size a) ∧
  (∀ a, (k4_off342 v768) a + S1x64.size a ≤ S50000x64.size a)
instance k4_chk86.dec : ∀ (v768 : BitVec 32), Decidable (k4_chk86 v768) := fun v768 => decidable_of_iff' _ (Iff.of_eq (k4_chk86.eq_1 v768))
theorem k4_off172_inb : ∀ (v768 : BitVec 32) (k4_hw86 : k4_chk86 v768), ∀ a, (k4_off172 v768) a + S1x64.size a ≤ S50000x64.size a := fun v768 k4_hw86 => k4_hw86.1
theorem k4_off342_inb : ∀ (v768 : BitVec 32) (k4_hw86 : k4_chk86 v768), ∀ a, (k4_off342 v768) a + S1x64.size a ≤ S50000x64.size a := fun v768 k4_hw86 => k4_hw86.2

def k4_off343 (v777 : BitVec 32) : Fin 2 → Nat :=
  let c0_i32_859 : BitVec 32 := 0#32
  ![v777.toNat, 0]

def k4_chk87 (v777 : BitVec 32) : Prop :=
  (∀ a, (k4_off174 v777) a + S1x64.size a ≤ S50000x64.size a) ∧
  (∀ a, (k4_off343 v777) a + S1x64.size a ≤ S50000x64.size a)
instance k4_chk87.dec : ∀ (v777 : BitVec 32), Decidable (k4_chk87 v777) := fun v777 => decidable_of_iff' _ (Iff.of_eq (k4_chk87.eq_1 v777))
theorem k4_off174_inb : ∀ (v777 : BitVec 32) (k4_hw87 : k4_chk87 v777), ∀ a, (k4_off174 v777) a + S1x64.size a ≤ S50000x64.size a := fun v777 k4_hw87 => k4_hw87.1
theorem k4_off343_inb : ∀ (v777 : BitVec 32) (k4_hw87 : k4_chk87 v777), ∀ a, (k4_off343 v777) a + S1x64.size a ≤ S50000x64.size a := fun v777 k4_hw87 => k4_hw87.2

def k4_off344 (v786 : BitVec 32) : Fin 2 → Nat :=
  let c0_i32_863 : BitVec 32 := 0#32
  ![v786.toNat, 0]

def k4_chk88 (v786 : BitVec 32) : Prop :=
  (∀ a, (k4_off176 v786) a + S1x64.size a ≤ S50000x64.size a) ∧
  (∀ a, (k4_off344 v786) a + S1x64.size a ≤ S50000x64.size a)
instance k4_chk88.dec : ∀ (v786 : BitVec 32), Decidable (k4_chk88 v786) := fun v786 => decidable_of_iff' _ (Iff.of_eq (k4_chk88.eq_1 v786))
theorem k4_off176_inb : ∀ (v786 : BitVec 32) (k4_hw88 : k4_chk88 v786), ∀ a, (k4_off176 v786) a + S1x64.size a ≤ S50000x64.size a := fun v786 k4_hw88 => k4_hw88.1
theorem k4_off344_inb : ∀ (v786 : BitVec 32) (k4_hw88 : k4_chk88 v786), ∀ a, (k4_off344 v786) a + S1x64.size a ≤ S50000x64.size a := fun v786 k4_hw88 => k4_hw88.2

def k4_off345 (v795 : BitVec 32) : Fin 2 → Nat :=
  let c0_i32_867 : BitVec 32 := 0#32
  ![v795.toNat, 0]

def k4_chk89 (v795 : BitVec 32) : Prop :=
  (∀ a, (k4_off178 v795) a + S1x64.size a ≤ S50000x64.size a) ∧
  (∀ a, (k4_off345 v795) a + S1x64.size a ≤ S50000x64.size a)
instance k4_chk89.dec : ∀ (v795 : BitVec 32), Decidable (k4_chk89 v795) := fun v795 => decidable_of_iff' _ (Iff.of_eq (k4_chk89.eq_1 v795))
theorem k4_off178_inb : ∀ (v795 : BitVec 32) (k4_hw89 : k4_chk89 v795), ∀ a, (k4_off178 v795) a + S1x64.size a ≤ S50000x64.size a := fun v795 k4_hw89 => k4_hw89.1
theorem k4_off345_inb : ∀ (v795 : BitVec 32) (k4_hw89 : k4_chk89 v795), ∀ a, (k4_off345 v795) a + S1x64.size a ≤ S50000x64.size a := fun v795 k4_hw89 => k4_hw89.2

def k4_off346 (v804 : BitVec 32) : Fin 2 → Nat :=
  let c0_i32_871 : BitVec 32 := 0#32
  ![v804.toNat, 0]

def k4_chk90 (v804 : BitVec 32) : Prop :=
  (∀ a, (k4_off180 v804) a + S1x64.size a ≤ S50000x64.size a) ∧
  (∀ a, (k4_off346 v804) a + S1x64.size a ≤ S50000x64.size a)
instance k4_chk90.dec : ∀ (v804 : BitVec 32), Decidable (k4_chk90 v804) := fun v804 => decidable_of_iff' _ (Iff.of_eq (k4_chk90.eq_1 v804))
theorem k4_off180_inb : ∀ (v804 : BitVec 32) (k4_hw90 : k4_chk90 v804), ∀ a, (k4_off180 v804) a + S1x64.size a ≤ S50000x64.size a := fun v804 k4_hw90 => k4_hw90.1
theorem k4_off346_inb : ∀ (v804 : BitVec 32) (k4_hw90 : k4_chk90 v804), ∀ a, (k4_off346 v804) a + S1x64.size a ≤ S50000x64.size a := fun v804 k4_hw90 => k4_hw90.2

def k4_off347 (v813 : BitVec 32) : Fin 2 → Nat :=
  let c0_i32_875 : BitVec 32 := 0#32
  ![v813.toNat, 0]

def k4_chk91 (v813 : BitVec 32) : Prop :=
  (∀ a, (k4_off182 v813) a + S1x64.size a ≤ S50000x64.size a) ∧
  (∀ a, (k4_off347 v813) a + S1x64.size a ≤ S50000x64.size a)
instance k4_chk91.dec : ∀ (v813 : BitVec 32), Decidable (k4_chk91 v813) := fun v813 => decidable_of_iff' _ (Iff.of_eq (k4_chk91.eq_1 v813))
theorem k4_off182_inb : ∀ (v813 : BitVec 32) (k4_hw91 : k4_chk91 v813), ∀ a, (k4_off182 v813) a + S1x64.size a ≤ S50000x64.size a := fun v813 k4_hw91 => k4_hw91.1
theorem k4_off347_inb : ∀ (v813 : BitVec 32) (k4_hw91 : k4_chk91 v813), ∀ a, (k4_off347 v813) a + S1x64.size a ≤ S50000x64.size a := fun v813 k4_hw91 => k4_hw91.2

def k4_off348 (v822 : BitVec 32) : Fin 2 → Nat :=
  let c0_i32_879 : BitVec 32 := 0#32
  ![v822.toNat, 0]

def k4_chk92 (v822 : BitVec 32) : Prop :=
  (∀ a, (k4_off184 v822) a + S1x64.size a ≤ S50000x64.size a) ∧
  (∀ a, (k4_off348 v822) a + S1x64.size a ≤ S50000x64.size a)
instance k4_chk92.dec : ∀ (v822 : BitVec 32), Decidable (k4_chk92 v822) := fun v822 => decidable_of_iff' _ (Iff.of_eq (k4_chk92.eq_1 v822))
theorem k4_off184_inb : ∀ (v822 : BitVec 32) (k4_hw92 : k4_chk92 v822), ∀ a, (k4_off184 v822) a + S1x64.size a ≤ S50000x64.size a := fun v822 k4_hw92 => k4_hw92.1
theorem k4_off348_inb : ∀ (v822 : BitVec 32) (k4_hw92 : k4_chk92 v822), ∀ a, (k4_off348 v822) a + S1x64.size a ≤ S50000x64.size a := fun v822 k4_hw92 => k4_hw92.2

def k4_off349 (v831 : BitVec 32) : Fin 2 → Nat :=
  let c0_i32_883 : BitVec 32 := 0#32
  ![v831.toNat, 0]

def k4_chk93 (v831 : BitVec 32) : Prop :=
  (∀ a, (k4_off186 v831) a + S1x64.size a ≤ S50000x64.size a) ∧
  (∀ a, (k4_off349 v831) a + S1x64.size a ≤ S50000x64.size a)
instance k4_chk93.dec : ∀ (v831 : BitVec 32), Decidable (k4_chk93 v831) := fun v831 => decidable_of_iff' _ (Iff.of_eq (k4_chk93.eq_1 v831))
theorem k4_off186_inb : ∀ (v831 : BitVec 32) (k4_hw93 : k4_chk93 v831), ∀ a, (k4_off186 v831) a + S1x64.size a ≤ S50000x64.size a := fun v831 k4_hw93 => k4_hw93.1
theorem k4_off349_inb : ∀ (v831 : BitVec 32) (k4_hw93 : k4_chk93 v831), ∀ a, (k4_off349 v831) a + S1x64.size a ≤ S50000x64.size a := fun v831 k4_hw93 => k4_hw93.2

def k4_off350 (v840 : BitVec 32) : Fin 2 → Nat :=
  let c0_i32_887 : BitVec 32 := 0#32
  ![v840.toNat, 0]

def k4_chk94 (v840 : BitVec 32) : Prop :=
  (∀ a, (k4_off188 v840) a + S1x64.size a ≤ S50000x64.size a) ∧
  (∀ a, (k4_off350 v840) a + S1x64.size a ≤ S50000x64.size a)
instance k4_chk94.dec : ∀ (v840 : BitVec 32), Decidable (k4_chk94 v840) := fun v840 => decidable_of_iff' _ (Iff.of_eq (k4_chk94.eq_1 v840))
theorem k4_off188_inb : ∀ (v840 : BitVec 32) (k4_hw94 : k4_chk94 v840), ∀ a, (k4_off188 v840) a + S1x64.size a ≤ S50000x64.size a := fun v840 k4_hw94 => k4_hw94.1
theorem k4_off350_inb : ∀ (v840 : BitVec 32) (k4_hw94 : k4_chk94 v840), ∀ a, (k4_off350 v840) a + S1x64.size a ≤ S50000x64.size a := fun v840 k4_hw94 => k4_hw94.2

def k4_off351 (v849 : BitVec 32) : Fin 2 → Nat :=
  let c0_i32_891 : BitVec 32 := 0#32
  ![v849.toNat, 0]

def k4_chk95 (v849 : BitVec 32) : Prop :=
  (∀ a, (k4_off190 v849) a + S1x64.size a ≤ S50000x64.size a) ∧
  (∀ a, (k4_off351 v849) a + S1x64.size a ≤ S50000x64.size a)
instance k4_chk95.dec : ∀ (v849 : BitVec 32), Decidable (k4_chk95 v849) := fun v849 => decidable_of_iff' _ (Iff.of_eq (k4_chk95.eq_1 v849))
theorem k4_off190_inb : ∀ (v849 : BitVec 32) (k4_hw95 : k4_chk95 v849), ∀ a, (k4_off190 v849) a + S1x64.size a ≤ S50000x64.size a := fun v849 k4_hw95 => k4_hw95.1
theorem k4_off351_inb : ∀ (v849 : BitVec 32) (k4_hw95 : k4_chk95 v849), ∀ a, (k4_off351 v849) a + S1x64.size a ≤ S50000x64.size a := fun v849 k4_hw95 => k4_hw95.2

def k4_off352 (v858 : BitVec 32) : Fin 2 → Nat :=
  let c0_i32_895 : BitVec 32 := 0#32
  ![v858.toNat, 0]

def k4_chk96 (v858 : BitVec 32) : Prop :=
  (∀ a, (k4_off192 v858) a + S1x64.size a ≤ S50000x64.size a) ∧
  (∀ a, (k4_off352 v858) a + S1x64.size a ≤ S50000x64.size a)
instance k4_chk96.dec : ∀ (v858 : BitVec 32), Decidable (k4_chk96 v858) := fun v858 => decidable_of_iff' _ (Iff.of_eq (k4_chk96.eq_1 v858))
theorem k4_off192_inb : ∀ (v858 : BitVec 32) (k4_hw96 : k4_chk96 v858), ∀ a, (k4_off192 v858) a + S1x64.size a ≤ S50000x64.size a := fun v858 k4_hw96 => k4_hw96.1
theorem k4_off352_inb : ∀ (v858 : BitVec 32) (k4_hw96 : k4_chk96 v858), ∀ a, (k4_off352 v858) a + S1x64.size a ≤ S50000x64.size a := fun v858 k4_hw96 => k4_hw96.2

def k4_off353 (v867 : BitVec 32) : Fin 2 → Nat :=
  let c0_i32_899 : BitVec 32 := 0#32
  ![v867.toNat, 0]

def k4_chk97 (v867 : BitVec 32) : Prop :=
  (∀ a, (k4_off194 v867) a + S1x64.size a ≤ S50000x64.size a) ∧
  (∀ a, (k4_off353 v867) a + S1x64.size a ≤ S50000x64.size a)
instance k4_chk97.dec : ∀ (v867 : BitVec 32), Decidable (k4_chk97 v867) := fun v867 => decidable_of_iff' _ (Iff.of_eq (k4_chk97.eq_1 v867))
theorem k4_off194_inb : ∀ (v867 : BitVec 32) (k4_hw97 : k4_chk97 v867), ∀ a, (k4_off194 v867) a + S1x64.size a ≤ S50000x64.size a := fun v867 k4_hw97 => k4_hw97.1
theorem k4_off353_inb : ∀ (v867 : BitVec 32) (k4_hw97 : k4_chk97 v867), ∀ a, (k4_off353 v867) a + S1x64.size a ≤ S50000x64.size a := fun v867 k4_hw97 => k4_hw97.2

def k4_off354 (v876 : BitVec 32) : Fin 2 → Nat :=
  let c0_i32_903 : BitVec 32 := 0#32
  ![v876.toNat, 0]

def k4_chk98 (v876 : BitVec 32) : Prop :=
  (∀ a, (k4_off196 v876) a + S1x64.size a ≤ S50000x64.size a) ∧
  (∀ a, (k4_off354 v876) a + S1x64.size a ≤ S50000x64.size a)
instance k4_chk98.dec : ∀ (v876 : BitVec 32), Decidable (k4_chk98 v876) := fun v876 => decidable_of_iff' _ (Iff.of_eq (k4_chk98.eq_1 v876))
theorem k4_off196_inb : ∀ (v876 : BitVec 32) (k4_hw98 : k4_chk98 v876), ∀ a, (k4_off196 v876) a + S1x64.size a ≤ S50000x64.size a := fun v876 k4_hw98 => k4_hw98.1
theorem k4_off354_inb : ∀ (v876 : BitVec 32) (k4_hw98 : k4_chk98 v876), ∀ a, (k4_off354 v876) a + S1x64.size a ≤ S50000x64.size a := fun v876 k4_hw98 => k4_hw98.2

def k4_off355 (v885 : BitVec 32) : Fin 2 → Nat :=
  let c0_i32_907 : BitVec 32 := 0#32
  ![v885.toNat, 0]

def k4_chk99 (v885 : BitVec 32) : Prop :=
  (∀ a, (k4_off198 v885) a + S1x64.size a ≤ S50000x64.size a) ∧
  (∀ a, (k4_off355 v885) a + S1x64.size a ≤ S50000x64.size a)
instance k4_chk99.dec : ∀ (v885 : BitVec 32), Decidable (k4_chk99 v885) := fun v885 => decidable_of_iff' _ (Iff.of_eq (k4_chk99.eq_1 v885))
theorem k4_off198_inb : ∀ (v885 : BitVec 32) (k4_hw99 : k4_chk99 v885), ∀ a, (k4_off198 v885) a + S1x64.size a ≤ S50000x64.size a := fun v885 k4_hw99 => k4_hw99.1
theorem k4_off355_inb : ∀ (v885 : BitVec 32) (k4_hw99 : k4_chk99 v885), ∀ a, (k4_off355 v885) a + S1x64.size a ≤ S50000x64.size a := fun v885 k4_hw99 => k4_hw99.2

def k4_off356 (v894 : BitVec 32) : Fin 2 → Nat :=
  let c0_i32_911 : BitVec 32 := 0#32
  ![v894.toNat, 0]

def k4_chk100 (v894 : BitVec 32) : Prop :=
  (∀ a, (k4_off200 v894) a + S1x64.size a ≤ S50000x64.size a) ∧
  (∀ a, (k4_off356 v894) a + S1x64.size a ≤ S50000x64.size a)
instance k4_chk100.dec : ∀ (v894 : BitVec 32), Decidable (k4_chk100 v894) := fun v894 => decidable_of_iff' _ (Iff.of_eq (k4_chk100.eq_1 v894))
theorem k4_off200_inb : ∀ (v894 : BitVec 32) (k4_hw100 : k4_chk100 v894), ∀ a, (k4_off200 v894) a + S1x64.size a ≤ S50000x64.size a := fun v894 k4_hw100 => k4_hw100.1
theorem k4_off356_inb : ∀ (v894 : BitVec 32) (k4_hw100 : k4_chk100 v894), ∀ a, (k4_off356 v894) a + S1x64.size a ≤ S50000x64.size a := fun v894 k4_hw100 => k4_hw100.2

def k4_off357 (v903 : BitVec 32) : Fin 2 → Nat :=
  let c0_i32_915 : BitVec 32 := 0#32
  ![v903.toNat, 0]

def k4_chk101 (v903 : BitVec 32) : Prop :=
  (∀ a, (k4_off202 v903) a + S1x64.size a ≤ S50000x64.size a) ∧
  (∀ a, (k4_off357 v903) a + S1x64.size a ≤ S50000x64.size a)
instance k4_chk101.dec : ∀ (v903 : BitVec 32), Decidable (k4_chk101 v903) := fun v903 => decidable_of_iff' _ (Iff.of_eq (k4_chk101.eq_1 v903))
theorem k4_off202_inb : ∀ (v903 : BitVec 32) (k4_hw101 : k4_chk101 v903), ∀ a, (k4_off202 v903) a + S1x64.size a ≤ S50000x64.size a := fun v903 k4_hw101 => k4_hw101.1
theorem k4_off357_inb : ∀ (v903 : BitVec 32) (k4_hw101 : k4_chk101 v903), ∀ a, (k4_off357 v903) a + S1x64.size a ≤ S50000x64.size a := fun v903 k4_hw101 => k4_hw101.2

def k4_off358 (v912 : BitVec 32) : Fin 2 → Nat :=
  let c0_i32_919 : BitVec 32 := 0#32
  ![v912.toNat, 0]

def k4_chk102 (v912 : BitVec 32) : Prop :=
  (∀ a, (k4_off204 v912) a + S1x64.size a ≤ S50000x64.size a) ∧
  (∀ a, (k4_off358 v912) a + S1x64.size a ≤ S50000x64.size a)
instance k4_chk102.dec : ∀ (v912 : BitVec 32), Decidable (k4_chk102 v912) := fun v912 => decidable_of_iff' _ (Iff.of_eq (k4_chk102.eq_1 v912))
theorem k4_off204_inb : ∀ (v912 : BitVec 32) (k4_hw102 : k4_chk102 v912), ∀ a, (k4_off204 v912) a + S1x64.size a ≤ S50000x64.size a := fun v912 k4_hw102 => k4_hw102.1
theorem k4_off358_inb : ∀ (v912 : BitVec 32) (k4_hw102 : k4_chk102 v912), ∀ a, (k4_off358 v912) a + S1x64.size a ≤ S50000x64.size a := fun v912 k4_hw102 => k4_hw102.2

def k4_off359 (v921 : BitVec 32) : Fin 2 → Nat :=
  let c0_i32_923 : BitVec 32 := 0#32
  ![v921.toNat, 0]

def k4_chk103 (v921 : BitVec 32) : Prop :=
  (∀ a, (k4_off206 v921) a + S1x64.size a ≤ S50000x64.size a) ∧
  (∀ a, (k4_off359 v921) a + S1x64.size a ≤ S50000x64.size a)
instance k4_chk103.dec : ∀ (v921 : BitVec 32), Decidable (k4_chk103 v921) := fun v921 => decidable_of_iff' _ (Iff.of_eq (k4_chk103.eq_1 v921))
theorem k4_off206_inb : ∀ (v921 : BitVec 32) (k4_hw103 : k4_chk103 v921), ∀ a, (k4_off206 v921) a + S1x64.size a ≤ S50000x64.size a := fun v921 k4_hw103 => k4_hw103.1
theorem k4_off359_inb : ∀ (v921 : BitVec 32) (k4_hw103 : k4_chk103 v921), ∀ a, (k4_off359 v921) a + S1x64.size a ≤ S50000x64.size a := fun v921 k4_hw103 => k4_hw103.2

def k4_off360 (v930 : BitVec 32) : Fin 2 → Nat :=
  let c0_i32_927 : BitVec 32 := 0#32
  ![v930.toNat, 0]

def k4_chk104 (v930 : BitVec 32) : Prop :=
  (∀ a, (k4_off208 v930) a + S1x64.size a ≤ S50000x64.size a) ∧
  (∀ a, (k4_off360 v930) a + S1x64.size a ≤ S50000x64.size a)
instance k4_chk104.dec : ∀ (v930 : BitVec 32), Decidable (k4_chk104 v930) := fun v930 => decidable_of_iff' _ (Iff.of_eq (k4_chk104.eq_1 v930))
theorem k4_off208_inb : ∀ (v930 : BitVec 32) (k4_hw104 : k4_chk104 v930), ∀ a, (k4_off208 v930) a + S1x64.size a ≤ S50000x64.size a := fun v930 k4_hw104 => k4_hw104.1
theorem k4_off360_inb : ∀ (v930 : BitVec 32) (k4_hw104 : k4_chk104 v930), ∀ a, (k4_off360 v930) a + S1x64.size a ≤ S50000x64.size a := fun v930 k4_hw104 => k4_hw104.2

def k4_off361 (v939 : BitVec 32) : Fin 2 → Nat :=
  let c0_i32_931 : BitVec 32 := 0#32
  ![v939.toNat, 0]

def k4_chk105 (v939 : BitVec 32) : Prop :=
  (∀ a, (k4_off210 v939) a + S1x64.size a ≤ S50000x64.size a) ∧
  (∀ a, (k4_off361 v939) a + S1x64.size a ≤ S50000x64.size a)
instance k4_chk105.dec : ∀ (v939 : BitVec 32), Decidable (k4_chk105 v939) := fun v939 => decidable_of_iff' _ (Iff.of_eq (k4_chk105.eq_1 v939))
theorem k4_off210_inb : ∀ (v939 : BitVec 32) (k4_hw105 : k4_chk105 v939), ∀ a, (k4_off210 v939) a + S1x64.size a ≤ S50000x64.size a := fun v939 k4_hw105 => k4_hw105.1
theorem k4_off361_inb : ∀ (v939 : BitVec 32) (k4_hw105 : k4_chk105 v939), ∀ a, (k4_off361 v939) a + S1x64.size a ≤ S50000x64.size a := fun v939 k4_hw105 => k4_hw105.2

def k4_off362 (v948 : BitVec 32) : Fin 2 → Nat :=
  let c0_i32_935 : BitVec 32 := 0#32
  ![v948.toNat, 0]

def k4_chk106 (v948 : BitVec 32) : Prop :=
  (∀ a, (k4_off212 v948) a + S1x64.size a ≤ S50000x64.size a) ∧
  (∀ a, (k4_off362 v948) a + S1x64.size a ≤ S50000x64.size a)
instance k4_chk106.dec : ∀ (v948 : BitVec 32), Decidable (k4_chk106 v948) := fun v948 => decidable_of_iff' _ (Iff.of_eq (k4_chk106.eq_1 v948))
theorem k4_off212_inb : ∀ (v948 : BitVec 32) (k4_hw106 : k4_chk106 v948), ∀ a, (k4_off212 v948) a + S1x64.size a ≤ S50000x64.size a := fun v948 k4_hw106 => k4_hw106.1
theorem k4_off362_inb : ∀ (v948 : BitVec 32) (k4_hw106 : k4_chk106 v948), ∀ a, (k4_off362 v948) a + S1x64.size a ≤ S50000x64.size a := fun v948 k4_hw106 => k4_hw106.2

def k4_off363 (v957 : BitVec 32) : Fin 2 → Nat :=
  let c0_i32_939 : BitVec 32 := 0#32
  ![v957.toNat, 0]

def k4_chk107 (v957 : BitVec 32) : Prop :=
  (∀ a, (k4_off214 v957) a + S1x64.size a ≤ S50000x64.size a) ∧
  (∀ a, (k4_off363 v957) a + S1x64.size a ≤ S50000x64.size a)
instance k4_chk107.dec : ∀ (v957 : BitVec 32), Decidable (k4_chk107 v957) := fun v957 => decidable_of_iff' _ (Iff.of_eq (k4_chk107.eq_1 v957))
theorem k4_off214_inb : ∀ (v957 : BitVec 32) (k4_hw107 : k4_chk107 v957), ∀ a, (k4_off214 v957) a + S1x64.size a ≤ S50000x64.size a := fun v957 k4_hw107 => k4_hw107.1
theorem k4_off363_inb : ∀ (v957 : BitVec 32) (k4_hw107 : k4_chk107 v957), ∀ a, (k4_off363 v957) a + S1x64.size a ≤ S50000x64.size a := fun v957 k4_hw107 => k4_hw107.2

def k4_off364 (v966 : BitVec 32) : Fin 2 → Nat :=
  let c0_i32_943 : BitVec 32 := 0#32
  ![v966.toNat, 0]

def k4_chk108 (v966 : BitVec 32) : Prop :=
  (∀ a, (k4_off216 v966) a + S1x64.size a ≤ S50000x64.size a) ∧
  (∀ a, (k4_off364 v966) a + S1x64.size a ≤ S50000x64.size a)
instance k4_chk108.dec : ∀ (v966 : BitVec 32), Decidable (k4_chk108 v966) := fun v966 => decidable_of_iff' _ (Iff.of_eq (k4_chk108.eq_1 v966))
theorem k4_off216_inb : ∀ (v966 : BitVec 32) (k4_hw108 : k4_chk108 v966), ∀ a, (k4_off216 v966) a + S1x64.size a ≤ S50000x64.size a := fun v966 k4_hw108 => k4_hw108.1
theorem k4_off364_inb : ∀ (v966 : BitVec 32) (k4_hw108 : k4_chk108 v966), ∀ a, (k4_off364 v966) a + S1x64.size a ≤ S50000x64.size a := fun v966 k4_hw108 => k4_hw108.2

def k4_off365 (v975 : BitVec 32) : Fin 2 → Nat :=
  let c0_i32_947 : BitVec 32 := 0#32
  ![v975.toNat, 0]

def k4_chk109 (v975 : BitVec 32) : Prop :=
  (∀ a, (k4_off218 v975) a + S1x64.size a ≤ S50000x64.size a) ∧
  (∀ a, (k4_off365 v975) a + S1x64.size a ≤ S50000x64.size a)
instance k4_chk109.dec : ∀ (v975 : BitVec 32), Decidable (k4_chk109 v975) := fun v975 => decidable_of_iff' _ (Iff.of_eq (k4_chk109.eq_1 v975))
theorem k4_off218_inb : ∀ (v975 : BitVec 32) (k4_hw109 : k4_chk109 v975), ∀ a, (k4_off218 v975) a + S1x64.size a ≤ S50000x64.size a := fun v975 k4_hw109 => k4_hw109.1
theorem k4_off365_inb : ∀ (v975 : BitVec 32) (k4_hw109 : k4_chk109 v975), ∀ a, (k4_off365 v975) a + S1x64.size a ≤ S50000x64.size a := fun v975 k4_hw109 => k4_hw109.2

def k4_off366 (v984 : BitVec 32) : Fin 2 → Nat :=
  let c0_i32_951 : BitVec 32 := 0#32
  ![v984.toNat, 0]

def k4_chk110 (v984 : BitVec 32) : Prop :=
  (∀ a, (k4_off220 v984) a + S1x64.size a ≤ S50000x64.size a) ∧
  (∀ a, (k4_off366 v984) a + S1x64.size a ≤ S50000x64.size a)
instance k4_chk110.dec : ∀ (v984 : BitVec 32), Decidable (k4_chk110 v984) := fun v984 => decidable_of_iff' _ (Iff.of_eq (k4_chk110.eq_1 v984))
theorem k4_off220_inb : ∀ (v984 : BitVec 32) (k4_hw110 : k4_chk110 v984), ∀ a, (k4_off220 v984) a + S1x64.size a ≤ S50000x64.size a := fun v984 k4_hw110 => k4_hw110.1
theorem k4_off366_inb : ∀ (v984 : BitVec 32) (k4_hw110 : k4_chk110 v984), ∀ a, (k4_off366 v984) a + S1x64.size a ≤ S50000x64.size a := fun v984 k4_hw110 => k4_hw110.2

def k4_off367 (v993 : BitVec 32) : Fin 2 → Nat :=
  let c0_i32_955 : BitVec 32 := 0#32
  ![v993.toNat, 0]

def k4_chk111 (v993 : BitVec 32) : Prop :=
  (∀ a, (k4_off222 v993) a + S1x64.size a ≤ S50000x64.size a) ∧
  (∀ a, (k4_off367 v993) a + S1x64.size a ≤ S50000x64.size a)
instance k4_chk111.dec : ∀ (v993 : BitVec 32), Decidable (k4_chk111 v993) := fun v993 => decidable_of_iff' _ (Iff.of_eq (k4_chk111.eq_1 v993))
theorem k4_off222_inb : ∀ (v993 : BitVec 32) (k4_hw111 : k4_chk111 v993), ∀ a, (k4_off222 v993) a + S1x64.size a ≤ S50000x64.size a := fun v993 k4_hw111 => k4_hw111.1
theorem k4_off367_inb : ∀ (v993 : BitVec 32) (k4_hw111 : k4_chk111 v993), ∀ a, (k4_off367 v993) a + S1x64.size a ≤ S50000x64.size a := fun v993 k4_hw111 => k4_hw111.2

def k4_off368 (v1002 : BitVec 32) : Fin 2 → Nat :=
  let c0_i32_959 : BitVec 32 := 0#32
  ![v1002.toNat, 0]

def k4_chk112 (v1002 : BitVec 32) : Prop :=
  (∀ a, (k4_off224 v1002) a + S1x64.size a ≤ S50000x64.size a) ∧
  (∀ a, (k4_off368 v1002) a + S1x64.size a ≤ S50000x64.size a)
instance k4_chk112.dec : ∀ (v1002 : BitVec 32), Decidable (k4_chk112 v1002) := fun v1002 => decidable_of_iff' _ (Iff.of_eq (k4_chk112.eq_1 v1002))
theorem k4_off224_inb : ∀ (v1002 : BitVec 32) (k4_hw112 : k4_chk112 v1002), ∀ a, (k4_off224 v1002) a + S1x64.size a ≤ S50000x64.size a := fun v1002 k4_hw112 => k4_hw112.1
theorem k4_off368_inb : ∀ (v1002 : BitVec 32) (k4_hw112 : k4_chk112 v1002), ∀ a, (k4_off368 v1002) a + S1x64.size a ≤ S50000x64.size a := fun v1002 k4_hw112 => k4_hw112.2

def k4_off369 (v1011 : BitVec 32) : Fin 2 → Nat :=
  let c0_i32_963 : BitVec 32 := 0#32
  ![v1011.toNat, 0]

def k4_chk113 (v1011 : BitVec 32) : Prop :=
  (∀ a, (k4_off226 v1011) a + S1x64.size a ≤ S50000x64.size a) ∧
  (∀ a, (k4_off369 v1011) a + S1x64.size a ≤ S50000x64.size a)
instance k4_chk113.dec : ∀ (v1011 : BitVec 32), Decidable (k4_chk113 v1011) := fun v1011 => decidable_of_iff' _ (Iff.of_eq (k4_chk113.eq_1 v1011))
theorem k4_off226_inb : ∀ (v1011 : BitVec 32) (k4_hw113 : k4_chk113 v1011), ∀ a, (k4_off226 v1011) a + S1x64.size a ≤ S50000x64.size a := fun v1011 k4_hw113 => k4_hw113.1
theorem k4_off369_inb : ∀ (v1011 : BitVec 32) (k4_hw113 : k4_chk113 v1011), ∀ a, (k4_off369 v1011) a + S1x64.size a ≤ S50000x64.size a := fun v1011 k4_hw113 => k4_hw113.2

def k4_off370 (v1020 : BitVec 32) : Fin 2 → Nat :=
  let c0_i32_967 : BitVec 32 := 0#32
  ![v1020.toNat, 0]

def k4_chk114 (v1020 : BitVec 32) : Prop :=
  (∀ a, (k4_off228 v1020) a + S1x64.size a ≤ S50000x64.size a) ∧
  (∀ a, (k4_off370 v1020) a + S1x64.size a ≤ S50000x64.size a)
instance k4_chk114.dec : ∀ (v1020 : BitVec 32), Decidable (k4_chk114 v1020) := fun v1020 => decidable_of_iff' _ (Iff.of_eq (k4_chk114.eq_1 v1020))
theorem k4_off228_inb : ∀ (v1020 : BitVec 32) (k4_hw114 : k4_chk114 v1020), ∀ a, (k4_off228 v1020) a + S1x64.size a ≤ S50000x64.size a := fun v1020 k4_hw114 => k4_hw114.1
theorem k4_off370_inb : ∀ (v1020 : BitVec 32) (k4_hw114 : k4_chk114 v1020), ∀ a, (k4_off370 v1020) a + S1x64.size a ≤ S50000x64.size a := fun v1020 k4_hw114 => k4_hw114.2

def k4_off371 (v1029 : BitVec 32) : Fin 2 → Nat :=
  let c0_i32_971 : BitVec 32 := 0#32
  ![v1029.toNat, 0]

def k4_chk115 (v1029 : BitVec 32) : Prop :=
  (∀ a, (k4_off230 v1029) a + S1x64.size a ≤ S50000x64.size a) ∧
  (∀ a, (k4_off371 v1029) a + S1x64.size a ≤ S50000x64.size a)
instance k4_chk115.dec : ∀ (v1029 : BitVec 32), Decidable (k4_chk115 v1029) := fun v1029 => decidable_of_iff' _ (Iff.of_eq (k4_chk115.eq_1 v1029))
theorem k4_off230_inb : ∀ (v1029 : BitVec 32) (k4_hw115 : k4_chk115 v1029), ∀ a, (k4_off230 v1029) a + S1x64.size a ≤ S50000x64.size a := fun v1029 k4_hw115 => k4_hw115.1
theorem k4_off371_inb : ∀ (v1029 : BitVec 32) (k4_hw115 : k4_chk115 v1029), ∀ a, (k4_off371 v1029) a + S1x64.size a ≤ S50000x64.size a := fun v1029 k4_hw115 => k4_hw115.2

def k4_off372 (v1038 : BitVec 32) : Fin 2 → Nat :=
  let c0_i32_975 : BitVec 32 := 0#32
  ![v1038.toNat, 0]

def k4_chk116 (v1038 : BitVec 32) : Prop :=
  (∀ a, (k4_off232 v1038) a + S1x64.size a ≤ S50000x64.size a) ∧
  (∀ a, (k4_off372 v1038) a + S1x64.size a ≤ S50000x64.size a)
instance k4_chk116.dec : ∀ (v1038 : BitVec 32), Decidable (k4_chk116 v1038) := fun v1038 => decidable_of_iff' _ (Iff.of_eq (k4_chk116.eq_1 v1038))
theorem k4_off232_inb : ∀ (v1038 : BitVec 32) (k4_hw116 : k4_chk116 v1038), ∀ a, (k4_off232 v1038) a + S1x64.size a ≤ S50000x64.size a := fun v1038 k4_hw116 => k4_hw116.1
theorem k4_off372_inb : ∀ (v1038 : BitVec 32) (k4_hw116 : k4_chk116 v1038), ∀ a, (k4_off372 v1038) a + S1x64.size a ≤ S50000x64.size a := fun v1038 k4_hw116 => k4_hw116.2

def k4_off373 (v1047 : BitVec 32) : Fin 2 → Nat :=
  let c0_i32_979 : BitVec 32 := 0#32
  ![v1047.toNat, 0]

def k4_chk117 (v1047 : BitVec 32) : Prop :=
  (∀ a, (k4_off234 v1047) a + S1x64.size a ≤ S50000x64.size a) ∧
  (∀ a, (k4_off373 v1047) a + S1x64.size a ≤ S50000x64.size a)
instance k4_chk117.dec : ∀ (v1047 : BitVec 32), Decidable (k4_chk117 v1047) := fun v1047 => decidable_of_iff' _ (Iff.of_eq (k4_chk117.eq_1 v1047))
theorem k4_off234_inb : ∀ (v1047 : BitVec 32) (k4_hw117 : k4_chk117 v1047), ∀ a, (k4_off234 v1047) a + S1x64.size a ≤ S50000x64.size a := fun v1047 k4_hw117 => k4_hw117.1
theorem k4_off373_inb : ∀ (v1047 : BitVec 32) (k4_hw117 : k4_chk117 v1047), ∀ a, (k4_off373 v1047) a + S1x64.size a ≤ S50000x64.size a := fun v1047 k4_hw117 => k4_hw117.2

def k4_off374 (v1056 : BitVec 32) : Fin 2 → Nat :=
  let c0_i32_983 : BitVec 32 := 0#32
  ![v1056.toNat, 0]

def k4_chk118 (v1056 : BitVec 32) : Prop :=
  (∀ a, (k4_off236 v1056) a + S1x64.size a ≤ S50000x64.size a) ∧
  (∀ a, (k4_off374 v1056) a + S1x64.size a ≤ S50000x64.size a)
instance k4_chk118.dec : ∀ (v1056 : BitVec 32), Decidable (k4_chk118 v1056) := fun v1056 => decidable_of_iff' _ (Iff.of_eq (k4_chk118.eq_1 v1056))
theorem k4_off236_inb : ∀ (v1056 : BitVec 32) (k4_hw118 : k4_chk118 v1056), ∀ a, (k4_off236 v1056) a + S1x64.size a ≤ S50000x64.size a := fun v1056 k4_hw118 => k4_hw118.1
theorem k4_off374_inb : ∀ (v1056 : BitVec 32) (k4_hw118 : k4_chk118 v1056), ∀ a, (k4_off374 v1056) a + S1x64.size a ≤ S50000x64.size a := fun v1056 k4_hw118 => k4_hw118.2

def k4_off375 (v1065 : BitVec 32) : Fin 2 → Nat :=
  let c0_i32_987 : BitVec 32 := 0#32
  ![v1065.toNat, 0]

def k4_chk119 (v1065 : BitVec 32) : Prop :=
  (∀ a, (k4_off238 v1065) a + S1x64.size a ≤ S50000x64.size a) ∧
  (∀ a, (k4_off375 v1065) a + S1x64.size a ≤ S50000x64.size a)
instance k4_chk119.dec : ∀ (v1065 : BitVec 32), Decidable (k4_chk119 v1065) := fun v1065 => decidable_of_iff' _ (Iff.of_eq (k4_chk119.eq_1 v1065))
theorem k4_off238_inb : ∀ (v1065 : BitVec 32) (k4_hw119 : k4_chk119 v1065), ∀ a, (k4_off238 v1065) a + S1x64.size a ≤ S50000x64.size a := fun v1065 k4_hw119 => k4_hw119.1
theorem k4_off375_inb : ∀ (v1065 : BitVec 32) (k4_hw119 : k4_chk119 v1065), ∀ a, (k4_off375 v1065) a + S1x64.size a ≤ S50000x64.size a := fun v1065 k4_hw119 => k4_hw119.2

def k4_off376 (v1074 : BitVec 32) : Fin 2 → Nat :=
  let c0_i32_991 : BitVec 32 := 0#32
  ![v1074.toNat, 0]

def k4_chk120 (v1074 : BitVec 32) : Prop :=
  (∀ a, (k4_off240 v1074) a + S1x64.size a ≤ S50000x64.size a) ∧
  (∀ a, (k4_off376 v1074) a + S1x64.size a ≤ S50000x64.size a)
instance k4_chk120.dec : ∀ (v1074 : BitVec 32), Decidable (k4_chk120 v1074) := fun v1074 => decidable_of_iff' _ (Iff.of_eq (k4_chk120.eq_1 v1074))
theorem k4_off240_inb : ∀ (v1074 : BitVec 32) (k4_hw120 : k4_chk120 v1074), ∀ a, (k4_off240 v1074) a + S1x64.size a ≤ S50000x64.size a := fun v1074 k4_hw120 => k4_hw120.1
theorem k4_off376_inb : ∀ (v1074 : BitVec 32) (k4_hw120 : k4_chk120 v1074), ∀ a, (k4_off376 v1074) a + S1x64.size a ≤ S50000x64.size a := fun v1074 k4_hw120 => k4_hw120.2

def k4_off377 (v1083 : BitVec 32) : Fin 2 → Nat :=
  let c0_i32_995 : BitVec 32 := 0#32
  ![v1083.toNat, 0]

def k4_chk121 (v1083 : BitVec 32) : Prop :=
  (∀ a, (k4_off242 v1083) a + S1x64.size a ≤ S50000x64.size a) ∧
  (∀ a, (k4_off377 v1083) a + S1x64.size a ≤ S50000x64.size a)
instance k4_chk121.dec : ∀ (v1083 : BitVec 32), Decidable (k4_chk121 v1083) := fun v1083 => decidable_of_iff' _ (Iff.of_eq (k4_chk121.eq_1 v1083))
theorem k4_off242_inb : ∀ (v1083 : BitVec 32) (k4_hw121 : k4_chk121 v1083), ∀ a, (k4_off242 v1083) a + S1x64.size a ≤ S50000x64.size a := fun v1083 k4_hw121 => k4_hw121.1
theorem k4_off377_inb : ∀ (v1083 : BitVec 32) (k4_hw121 : k4_chk121 v1083), ∀ a, (k4_off377 v1083) a + S1x64.size a ≤ S50000x64.size a := fun v1083 k4_hw121 => k4_hw121.2

def k4_off378 (v1092 : BitVec 32) : Fin 2 → Nat :=
  let c0_i32_999 : BitVec 32 := 0#32
  ![v1092.toNat, 0]

def k4_chk122 (v1092 : BitVec 32) : Prop :=
  (∀ a, (k4_off244 v1092) a + S1x64.size a ≤ S50000x64.size a) ∧
  (∀ a, (k4_off378 v1092) a + S1x64.size a ≤ S50000x64.size a)
instance k4_chk122.dec : ∀ (v1092 : BitVec 32), Decidable (k4_chk122 v1092) := fun v1092 => decidable_of_iff' _ (Iff.of_eq (k4_chk122.eq_1 v1092))
theorem k4_off244_inb : ∀ (v1092 : BitVec 32) (k4_hw122 : k4_chk122 v1092), ∀ a, (k4_off244 v1092) a + S1x64.size a ≤ S50000x64.size a := fun v1092 k4_hw122 => k4_hw122.1
theorem k4_off378_inb : ∀ (v1092 : BitVec 32) (k4_hw122 : k4_chk122 v1092), ∀ a, (k4_off378 v1092) a + S1x64.size a ≤ S50000x64.size a := fun v1092 k4_hw122 => k4_hw122.2

def k4_off379 (v1101 : BitVec 32) : Fin 2 → Nat :=
  let c0_i32_1003 : BitVec 32 := 0#32
  ![v1101.toNat, 0]

def k4_chk123 (v1101 : BitVec 32) : Prop :=
  (∀ a, (k4_off246 v1101) a + S1x64.size a ≤ S50000x64.size a) ∧
  (∀ a, (k4_off379 v1101) a + S1x64.size a ≤ S50000x64.size a)
instance k4_chk123.dec : ∀ (v1101 : BitVec 32), Decidable (k4_chk123 v1101) := fun v1101 => decidable_of_iff' _ (Iff.of_eq (k4_chk123.eq_1 v1101))
theorem k4_off246_inb : ∀ (v1101 : BitVec 32) (k4_hw123 : k4_chk123 v1101), ∀ a, (k4_off246 v1101) a + S1x64.size a ≤ S50000x64.size a := fun v1101 k4_hw123 => k4_hw123.1
theorem k4_off379_inb : ∀ (v1101 : BitVec 32) (k4_hw123 : k4_chk123 v1101), ∀ a, (k4_off379 v1101) a + S1x64.size a ≤ S50000x64.size a := fun v1101 k4_hw123 => k4_hw123.2

def k4_off380 (v1110 : BitVec 32) : Fin 2 → Nat :=
  let c0_i32_1007 : BitVec 32 := 0#32
  ![v1110.toNat, 0]

def k4_chk124 (v1110 : BitVec 32) : Prop :=
  (∀ a, (k4_off248 v1110) a + S1x64.size a ≤ S50000x64.size a) ∧
  (∀ a, (k4_off380 v1110) a + S1x64.size a ≤ S50000x64.size a)
instance k4_chk124.dec : ∀ (v1110 : BitVec 32), Decidable (k4_chk124 v1110) := fun v1110 => decidable_of_iff' _ (Iff.of_eq (k4_chk124.eq_1 v1110))
theorem k4_off248_inb : ∀ (v1110 : BitVec 32) (k4_hw124 : k4_chk124 v1110), ∀ a, (k4_off248 v1110) a + S1x64.size a ≤ S50000x64.size a := fun v1110 k4_hw124 => k4_hw124.1
theorem k4_off380_inb : ∀ (v1110 : BitVec 32) (k4_hw124 : k4_chk124 v1110), ∀ a, (k4_off380 v1110) a + S1x64.size a ≤ S50000x64.size a := fun v1110 k4_hw124 => k4_hw124.2

def k4_off381 (v1119 : BitVec 32) : Fin 2 → Nat :=
  let c0_i32_1011 : BitVec 32 := 0#32
  ![v1119.toNat, 0]

def k4_chk125 (v1119 : BitVec 32) : Prop :=
  (∀ a, (k4_off250 v1119) a + S1x64.size a ≤ S50000x64.size a) ∧
  (∀ a, (k4_off381 v1119) a + S1x64.size a ≤ S50000x64.size a)
instance k4_chk125.dec : ∀ (v1119 : BitVec 32), Decidable (k4_chk125 v1119) := fun v1119 => decidable_of_iff' _ (Iff.of_eq (k4_chk125.eq_1 v1119))
theorem k4_off250_inb : ∀ (v1119 : BitVec 32) (k4_hw125 : k4_chk125 v1119), ∀ a, (k4_off250 v1119) a + S1x64.size a ≤ S50000x64.size a := fun v1119 k4_hw125 => k4_hw125.1
theorem k4_off381_inb : ∀ (v1119 : BitVec 32) (k4_hw125 : k4_chk125 v1119), ∀ a, (k4_off381 v1119) a + S1x64.size a ≤ S50000x64.size a := fun v1119 k4_hw125 => k4_hw125.2

def k4_off382 (v1128 : BitVec 32) : Fin 2 → Nat :=
  let c0_i32_1015 : BitVec 32 := 0#32
  ![v1128.toNat, 0]

def k4_chk126 (v1128 : BitVec 32) : Prop :=
  (∀ a, (k4_off252 v1128) a + S1x64.size a ≤ S50000x64.size a) ∧
  (∀ a, (k4_off382 v1128) a + S1x64.size a ≤ S50000x64.size a)
instance k4_chk126.dec : ∀ (v1128 : BitVec 32), Decidable (k4_chk126 v1128) := fun v1128 => decidable_of_iff' _ (Iff.of_eq (k4_chk126.eq_1 v1128))
theorem k4_off252_inb : ∀ (v1128 : BitVec 32) (k4_hw126 : k4_chk126 v1128), ∀ a, (k4_off252 v1128) a + S1x64.size a ≤ S50000x64.size a := fun v1128 k4_hw126 => k4_hw126.1
theorem k4_off382_inb : ∀ (v1128 : BitVec 32) (k4_hw126 : k4_chk126 v1128), ∀ a, (k4_off382 v1128) a + S1x64.size a ≤ S50000x64.size a := fun v1128 k4_hw126 => k4_hw126.2

def k4_off383 (v1137 : BitVec 32) : Fin 2 → Nat :=
  let c0_i32_1019 : BitVec 32 := 0#32
  ![v1137.toNat, 0]

def k4_chk127 (v1137 : BitVec 32) : Prop :=
  (∀ a, (k4_off254 v1137) a + S1x64.size a ≤ S50000x64.size a) ∧
  (∀ a, (k4_off383 v1137) a + S1x64.size a ≤ S50000x64.size a)
instance k4_chk127.dec : ∀ (v1137 : BitVec 32), Decidable (k4_chk127 v1137) := fun v1137 => decidable_of_iff' _ (Iff.of_eq (k4_chk127.eq_1 v1137))
theorem k4_off254_inb : ∀ (v1137 : BitVec 32) (k4_hw127 : k4_chk127 v1137), ∀ a, (k4_off254 v1137) a + S1x64.size a ≤ S50000x64.size a := fun v1137 k4_hw127 => k4_hw127.1
theorem k4_off383_inb : ∀ (v1137 : BitVec 32) (k4_hw127 : k4_chk127 v1137), ∀ a, (k4_off383 v1137) a + S1x64.size a ≤ S50000x64.size a := fun v1137 k4_hw127 => k4_hw127.2

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S128x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

class Facts₀ : Prop where
  concatenates_S100000x64_S50000x64_S150000x64_d0 : Shape.Concatenates [S100000x64, S50000x64] S150000x64 0
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  shapeCasts_S150000x64_S75000x128 : S150000x64.ShapeCasts S75000x128
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  shapeCasts_S75000x128_S150000x64 : S75000x128.ShapeCasts S150000x64
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  numel1_S1 : S1.numel = 1
  inb_S128_S1_0 : ∀ a, (![0] : Fin 1 → Nat) a + S1.size a ≤ S128.size a
  squeezes_S1_S_ : S1.Squeezes S_
  inb_S128x64_S1x64_0_0 : ∀ a, (![0, 0] : Fin 2 → Nat) a + S1x64.size a ≤ S128x64.size a
  squeezes_S1x64_S64 : S1x64.Squeezes S64
  inb_S128_S1_1 : ∀ a, (![1] : Fin 1 → Nat) a + S1.size a ≤ S128.size a
  inb_S128x64_S1x64_1_0 : ∀ a, (![1, 0] : Fin 2 → Nat) a + S1x64.size a ≤ S128x64.size a
  inb_S128_S1_2 : ∀ a, (![2] : Fin 1 → Nat) a + S1.size a ≤ S128.size a
  inb_S128x64_S1x64_2_0 : ∀ a, (![2, 0] : Fin 2 → Nat) a + S1x64.size a ≤ S128x64.size a
  inb_S128_S1_3 : ∀ a, (![3] : Fin 1 → Nat) a + S1.size a ≤ S128.size a
  inb_S128x64_S1x64_3_0 : ∀ a, (![3, 0] : Fin 2 → Nat) a + S1x64.size a ≤ S128x64.size a
  inb_S128_S1_4 : ∀ a, (![4] : Fin 1 → Nat) a + S1.size a ≤ S128.size a
  inb_S128x64_S1x64_4_0 : ∀ a, (![4, 0] : Fin 2 → Nat) a + S1x64.size a ≤ S128x64.size a
  inb_S128_S1_5 : ∀ a, (![5] : Fin 1 → Nat) a + S1.size a ≤ S128.size a
  inb_S128x64_S1x64_5_0 : ∀ a, (![5, 0] : Fin 2 → Nat) a + S1x64.size a ≤ S128x64.size a
  inb_S128_S1_6 : ∀ a, (![6] : Fin 1 → Nat) a + S1.size a ≤ S128.size a
  inb_S128x64_S1x64_6_0 : ∀ a, (![6, 0] : Fin 2 → Nat) a + S1x64.size a ≤ S128x64.size a
  inb_S128_S1_7 : ∀ a, (![7] : Fin 1 → Nat) a + S1.size a ≤ S128.size a
  inb_S128x64_S1x64_7_0 : ∀ a, (![7, 0] : Fin 2 → Nat) a + S1x64.size a ≤ S128x64.size a
  inb_S128_S1_8 : ∀ a, (![8] : Fin 1 → Nat) a + S1.size a ≤ S128.size a
  inb_S128x64_S1x64_8_0 : ∀ a, (![8, 0] : Fin 2 → Nat) a + S1x64.size a ≤ S128x64.size a
  inb_S128_S1_9 : ∀ a, (![9] : Fin 1 → Nat) a + S1.size a ≤ S128.size a
  inb_S128x64_S1x64_9_0 : ∀ a, (![9, 0] : Fin 2 → Nat) a + S1x64.size a ≤ S128x64.size a
  inb_S128_S1_10 : ∀ a, (![10] : Fin 1 → Nat) a + S1.size a ≤ S128.size a
  inb_S128x64_S1x64_10_0 : ∀ a, (![10, 0] : Fin 2 → Nat) a + S1x64.size a ≤ S128x64.size a
  inb_S128_S1_11 : ∀ a, (![11] : Fin 1 → Nat) a + S1.size a ≤ S128.size a
  inb_S128x64_S1x64_11_0 : ∀ a, (![11, 0] : Fin 2 → Nat) a + S1x64.size a ≤ S128x64.size a
  inb_S128_S1_12 : ∀ a, (![12] : Fin 1 → Nat) a + S1.size a ≤ S128.size a
  inb_S128x64_S1x64_12_0 : ∀ a, (![12, 0] : Fin 2 → Nat) a + S1x64.size a ≤ S128x64.size a
  inb_S128_S1_13 : ∀ a, (![13] : Fin 1 → Nat) a + S1.size a ≤ S128.size a
  inb_S128x64_S1x64_13_0 : ∀ a, (![13, 0] : Fin 2 → Nat) a + S1x64.size a ≤ S128x64.size a
  inb_S128_S1_14 : ∀ a, (![14] : Fin 1 → Nat) a + S1.size a ≤ S128.size a
  inb_S128x64_S1x64_14_0 : ∀ a, (![14, 0] : Fin 2 → Nat) a + S1x64.size a ≤ S128x64.size a
  inb_S128_S1_15 : ∀ a, (![15] : Fin 1 → Nat) a + S1.size a ≤ S128.size a
  inb_S128x64_S1x64_15_0 : ∀ a, (![15, 0] : Fin 2 → Nat) a + S1x64.size a ≤ S128x64.size a
  inb_S128_S1_16 : ∀ a, (![16] : Fin 1 → Nat) a + S1.size a ≤ S128.size a
  inb_S128x64_S1x64_16_0 : ∀ a, (![16, 0] : Fin 2 → Nat) a + S1x64.size a ≤ S128x64.size a
  inb_S128_S1_17 : ∀ a, (![17] : Fin 1 → Nat) a + S1.size a ≤ S128.size a
  inb_S128x64_S1x64_17_0 : ∀ a, (![17, 0] : Fin 2 → Nat) a + S1x64.size a ≤ S128x64.size a
  inb_S128_S1_18 : ∀ a, (![18] : Fin 1 → Nat) a + S1.size a ≤ S128.size a
  inb_S128x64_S1x64_18_0 : ∀ a, (![18, 0] : Fin 2 → Nat) a + S1x64.size a ≤ S128x64.size a
  inb_S128_S1_19 : ∀ a, (![19] : Fin 1 → Nat) a + S1.size a ≤ S128.size a
  inb_S128x64_S1x64_19_0 : ∀ a, (![19, 0] : Fin 2 → Nat) a + S1x64.size a ≤ S128x64.size a
  inb_S128_S1_20 : ∀ a, (![20] : Fin 1 → Nat) a + S1.size a ≤ S128.size a
  inb_S128x64_S1x64_20_0 : ∀ a, (![20, 0] : Fin 2 → Nat) a + S1x64.size a ≤ S128x64.size a
  inb_S128_S1_21 : ∀ a, (![21] : Fin 1 → Nat) a + S1.size a ≤ S128.size a
  inb_S128x64_S1x64_21_0 : ∀ a, (![21, 0] : Fin 2 → Nat) a + S1x64.size a ≤ S128x64.size a
  inb_S128_S1_22 : ∀ a, (![22] : Fin 1 → Nat) a + S1.size a ≤ S128.size a
  inb_S128x64_S1x64_22_0 : ∀ a, (![22, 0] : Fin 2 → Nat) a + S1x64.size a ≤ S128x64.size a
  inb_S128_S1_23 : ∀ a, (![23] : Fin 1 → Nat) a + S1.size a ≤ S128.size a
  inb_S128x64_S1x64_23_0 : ∀ a, (![23, 0] : Fin 2 → Nat) a + S1x64.size a ≤ S128x64.size a
  inb_S128_S1_24 : ∀ a, (![24] : Fin 1 → Nat) a + S1.size a ≤ S128.size a
  inb_S128x64_S1x64_24_0 : ∀ a, (![24, 0] : Fin 2 → Nat) a + S1x64.size a ≤ S128x64.size a
  inb_S128_S1_25 : ∀ a, (![25] : Fin 1 → Nat) a + S1.size a ≤ S128.size a
  inb_S128x64_S1x64_25_0 : ∀ a, (![25, 0] : Fin 2 → Nat) a + S1x64.size a ≤ S128x64.size a
  inb_S128_S1_26 : ∀ a, (![26] : Fin 1 → Nat) a + S1.size a ≤ S128.size a
  inb_S128x64_S1x64_26_0 : ∀ a, (![26, 0] : Fin 2 → Nat) a + S1x64.size a ≤ S128x64.size a
  inb_S128_S1_27 : ∀ a, (![27] : Fin 1 → Nat) a + S1.size a ≤ S128.size a
  inb_S128x64_S1x64_27_0 : ∀ a, (![27, 0] : Fin 2 → Nat) a + S1x64.size a ≤ S128x64.size a
  inb_S128_S1_28 : ∀ a, (![28] : Fin 1 → Nat) a + S1.size a ≤ S128.size a
  inb_S128x64_S1x64_28_0 : ∀ a, (![28, 0] : Fin 2 → Nat) a + S1x64.size a ≤ S128x64.size a
  inb_S128_S1_29 : ∀ a, (![29] : Fin 1 → Nat) a + S1.size a ≤ S128.size a
  inb_S128x64_S1x64_29_0 : ∀ a, (![29, 0] : Fin 2 → Nat) a + S1x64.size a ≤ S128x64.size a
  inb_S128_S1_30 : ∀ a, (![30] : Fin 1 → Nat) a + S1.size a ≤ S128.size a
  inb_S128x64_S1x64_30_0 : ∀ a, (![30, 0] : Fin 2 → Nat) a + S1x64.size a ≤ S128x64.size a
  inb_S128_S1_31 : ∀ a, (![31] : Fin 1 → Nat) a + S1.size a ≤ S128.size a
  inb_S128x64_S1x64_31_0 : ∀ a, (![31, 0] : Fin 2 → Nat) a + S1x64.size a ≤ S128x64.size a
  inb_S128_S1_32 : ∀ a, (![32] : Fin 1 → Nat) a + S1.size a ≤ S128.size a
  inb_S128x64_S1x64_32_0 : ∀ a, (![32, 0] : Fin 2 → Nat) a + S1x64.size a ≤ S128x64.size a
  inb_S128_S1_33 : ∀ a, (![33] : Fin 1 → Nat) a + S1.size a ≤ S128.size a
  inb_S128x64_S1x64_33_0 : ∀ a, (![33, 0] : Fin 2 → Nat) a + S1x64.size a ≤ S128x64.size a
  inb_S128_S1_34 : ∀ a, (![34] : Fin 1 → Nat) a + S1.size a ≤ S128.size a
  inb_S128x64_S1x64_34_0 : ∀ a, (![34, 0] : Fin 2 → Nat) a + S1x64.size a ≤ S128x64.size a
  inb_S128_S1_35 : ∀ a, (![35] : Fin 1 → Nat) a + S1.size a ≤ S128.size a
  inb_S128x64_S1x64_35_0 : ∀ a, (![35, 0] : Fin 2 → Nat) a + S1x64.size a ≤ S128x64.size a
  inb_S128_S1_36 : ∀ a, (![36] : Fin 1 → Nat) a + S1.size a ≤ S128.size a
  inb_S128x64_S1x64_36_0 : ∀ a, (![36, 0] : Fin 2 → Nat) a + S1x64.size a ≤ S128x64.size a
  inb_S128_S1_37 : ∀ a, (![37] : Fin 1 → Nat) a + S1.size a ≤ S128.size a
  inb_S128x64_S1x64_37_0 : ∀ a, (![37, 0] : Fin 2 → Nat) a + S1x64.size a ≤ S128x64.size a
  inb_S128_S1_38 : ∀ a, (![38] : Fin 1 → Nat) a + S1.size a ≤ S128.size a
  inb_S128x64_S1x64_38_0 : ∀ a, (![38, 0] : Fin 2 → Nat) a + S1x64.size a ≤ S128x64.size a
  inb_S128_S1_39 : ∀ a, (![39] : Fin 1 → Nat) a + S1.size a ≤ S128.size a
  inb_S128x64_S1x64_39_0 : ∀ a, (![39, 0] : Fin 2 → Nat) a + S1x64.size a ≤ S128x64.size a
  inb_S128_S1_40 : ∀ a, (![40] : Fin 1 → Nat) a + S1.size a ≤ S128.size a
  inb_S128x64_S1x64_40_0 : ∀ a, (![40, 0] : Fin 2 → Nat) a + S1x64.size a ≤ S128x64.size a
  inb_S128_S1_41 : ∀ a, (![41] : Fin 1 → Nat) a + S1.size a ≤ S128.size a
  inb_S128x64_S1x64_41_0 : ∀ a, (![41, 0] : Fin 2 → Nat) a + S1x64.size a ≤ S128x64.size a
  inb_S128_S1_42 : ∀ a, (![42] : Fin 1 → Nat) a + S1.size a ≤ S128.size a
  inb_S128x64_S1x64_42_0 : ∀ a, (![42, 0] : Fin 2 → Nat) a + S1x64.size a ≤ S128x64.size a
  inb_S128_S1_43 : ∀ a, (![43] : Fin 1 → Nat) a + S1.size a ≤ S128.size a
  inb_S128x64_S1x64_43_0 : ∀ a, (![43, 0] : Fin 2 → Nat) a + S1x64.size a ≤ S128x64.size a
  inb_S128_S1_44 : ∀ a, (![44] : Fin 1 → Nat) a + S1.size a ≤ S128.size a
  inb_S128x64_S1x64_44_0 : ∀ a, (![44, 0] : Fin 2 → Nat) a + S1x64.size a ≤ S128x64.size a
  inb_S128_S1_45 : ∀ a, (![45] : Fin 1 → Nat) a + S1.size a ≤ S128.size a
  inb_S128x64_S1x64_45_0 : ∀ a, (![45, 0] : Fin 2 → Nat) a + S1x64.size a ≤ S128x64.size a
  inb_S128_S1_46 : ∀ a, (![46] : Fin 1 → Nat) a + S1.size a ≤ S128.size a
  inb_S128x64_S1x64_46_0 : ∀ a, (![46, 0] : Fin 2 → Nat) a + S1x64.size a ≤ S128x64.size a
  inb_S128_S1_47 : ∀ a, (![47] : Fin 1 → Nat) a + S1.size a ≤ S128.size a
  inb_S128x64_S1x64_47_0 : ∀ a, (![47, 0] : Fin 2 → Nat) a + S1x64.size a ≤ S128x64.size a
  inb_S128_S1_48 : ∀ a, (![48] : Fin 1 → Nat) a + S1.size a ≤ S128.size a
  inb_S128x64_S1x64_48_0 : ∀ a, (![48, 0] : Fin 2 → Nat) a + S1x64.size a ≤ S128x64.size a
  inb_S128_S1_49 : ∀ a, (![49] : Fin 1 → Nat) a + S1.size a ≤ S128.size a
  inb_S128x64_S1x64_49_0 : ∀ a, (![49, 0] : Fin 2 → Nat) a + S1x64.size a ≤ S128x64.size a
  inb_S128_S1_50 : ∀ a, (![50] : Fin 1 → Nat) a + S1.size a ≤ S128.size a
  inb_S128x64_S1x64_50_0 : ∀ a, (![50, 0] : Fin 2 → Nat) a + S1x64.size a ≤ S128x64.size a
  inb_S128_S1_51 : ∀ a, (![51] : Fin 1 → Nat) a + S1.size a ≤ S128.size a
  inb_S128x64_S1x64_51_0 : ∀ a, (![51, 0] : Fin 2 → Nat) a + S1x64.size a ≤ S128x64.size a
  inb_S128_S1_52 : ∀ a, (![52] : Fin 1 → Nat) a + S1.size a ≤ S128.size a
  inb_S128x64_S1x64_52_0 : ∀ a, (![52, 0] : Fin 2 → Nat) a + S1x64.size a ≤ S128x64.size a
  inb_S128_S1_53 : ∀ a, (![53] : Fin 1 → Nat) a + S1.size a ≤ S128.size a
  inb_S128x64_S1x64_53_0 : ∀ a, (![53, 0] : Fin 2 → Nat) a + S1x64.size a ≤ S128x64.size a
  inb_S128_S1_54 : ∀ a, (![54] : Fin 1 → Nat) a + S1.size a ≤ S128.size a
  inb_S128x64_S1x64_54_0 : ∀ a, (![54, 0] : Fin 2 → Nat) a + S1x64.size a ≤ S128x64.size a
  inb_S128_S1_55 : ∀ a, (![55] : Fin 1 → Nat) a + S1.size a ≤ S128.size a
  inb_S128x64_S1x64_55_0 : ∀ a, (![55, 0] : Fin 2 → Nat) a + S1x64.size a ≤ S128x64.size a
  inb_S128_S1_56 : ∀ a, (![56] : Fin 1 → Nat) a + S1.size a ≤ S128.size a
  inb_S128x64_S1x64_56_0 : ∀ a, (![56, 0] : Fin 2 → Nat) a + S1x64.size a ≤ S128x64.size a
  inb_S128_S1_57 : ∀ a, (![57] : Fin 1 → Nat) a + S1.size a ≤ S128.size a
  inb_S128x64_S1x64_57_0 : ∀ a, (![57, 0] : Fin 2 → Nat) a + S1x64.size a ≤ S128x64.size a
  inb_S128_S1_58 : ∀ a, (![58] : Fin 1 → Nat) a + S1.size a ≤ S128.size a
  inb_S128x64_S1x64_58_0 : ∀ a, (![58, 0] : Fin 2 → Nat) a + S1x64.size a ≤ S128x64.size a
  inb_S128_S1_59 : ∀ a, (![59] : Fin 1 → Nat) a + S1.size a ≤ S128.size a
  inb_S128x64_S1x64_59_0 : ∀ a, (![59, 0] : Fin 2 → Nat) a + S1x64.size a ≤ S128x64.size a
  inb_S128_S1_60 : ∀ a, (![60] : Fin 1 → Nat) a + S1.size a ≤ S128.size a
  inb_S128x64_S1x64_60_0 : ∀ a, (![60, 0] : Fin 2 → Nat) a + S1x64.size a ≤ S128x64.size a
  inb_S128_S1_61 : ∀ a, (![61] : Fin 1 → Nat) a + S1.size a ≤ S128.size a
  inb_S128x64_S1x64_61_0 : ∀ a, (![61, 0] : Fin 2 → Nat) a + S1x64.size a ≤ S128x64.size a
  inb_S128_S1_62 : ∀ a, (![62] : Fin 1 → Nat) a + S1.size a ≤ S128.size a
  inb_S128x64_S1x64_62_0 : ∀ a, (![62, 0] : Fin 2 → Nat) a + S1x64.size a ≤ S128x64.size a
  inb_S128_S1_63 : ∀ a, (![63] : Fin 1 → Nat) a + S1.size a ≤ S128.size a
  inb_S128x64_S1x64_63_0 : ∀ a, (![63, 0] : Fin 2 → Nat) a + S1x64.size a ≤ S128x64.size a
  inb_S128_S1_64 : ∀ a, (![64] : Fin 1 → Nat) a + S1.size a ≤ S128.size a
  inb_S128x64_S1x64_64_0 : ∀ a, (![64, 0] : Fin 2 → Nat) a + S1x64.size a ≤ S128x64.size a
  inb_S128_S1_65 : ∀ a, (![65] : Fin 1 → Nat) a + S1.size a ≤ S128.size a
  inb_S128x64_S1x64_65_0 : ∀ a, (![65, 0] : Fin 2 → Nat) a + S1x64.size a ≤ S128x64.size a
  inb_S128_S1_66 : ∀ a, (![66] : Fin 1 → Nat) a + S1.size a ≤ S128.size a
  inb_S128x64_S1x64_66_0 : ∀ a, (![66, 0] : Fin 2 → Nat) a + S1x64.size a ≤ S128x64.size a
  inb_S128_S1_67 : ∀ a, (![67] : Fin 1 → Nat) a + S1.size a ≤ S128.size a
  inb_S128x64_S1x64_67_0 : ∀ a, (![67, 0] : Fin 2 → Nat) a + S1x64.size a ≤ S128x64.size a
  inb_S128_S1_68 : ∀ a, (![68] : Fin 1 → Nat) a + S1.size a ≤ S128.size a
  inb_S128x64_S1x64_68_0 : ∀ a, (![68, 0] : Fin 2 → Nat) a + S1x64.size a ≤ S128x64.size a
  inb_S128_S1_69 : ∀ a, (![69] : Fin 1 → Nat) a + S1.size a ≤ S128.size a
  inb_S128x64_S1x64_69_0 : ∀ a, (![69, 0] : Fin 2 → Nat) a + S1x64.size a ≤ S128x64.size a
  inb_S128_S1_70 : ∀ a, (![70] : Fin 1 → Nat) a + S1.size a ≤ S128.size a
  inb_S128x64_S1x64_70_0 : ∀ a, (![70, 0] : Fin 2 → Nat) a + S1x64.size a ≤ S128x64.size a
  inb_S128_S1_71 : ∀ a, (![71] : Fin 1 → Nat) a + S1.size a ≤ S128.size a
  inb_S128x64_S1x64_71_0 : ∀ a, (![71, 0] : Fin 2 → Nat) a + S1x64.size a ≤ S128x64.size a
  inb_S128_S1_72 : ∀ a, (![72] : Fin 1 → Nat) a + S1.size a ≤ S128.size a
  inb_S128x64_S1x64_72_0 : ∀ a, (![72, 0] : Fin 2 → Nat) a + S1x64.size a ≤ S128x64.size a
  inb_S128_S1_73 : ∀ a, (![73] : Fin 1 → Nat) a + S1.size a ≤ S128.size a
  inb_S128x64_S1x64_73_0 : ∀ a, (![73, 0] : Fin 2 → Nat) a + S1x64.size a ≤ S128x64.size a
  inb_S128_S1_74 : ∀ a, (![74] : Fin 1 → Nat) a + S1.size a ≤ S128.size a
  inb_S128x64_S1x64_74_0 : ∀ a, (![74, 0] : Fin 2 → Nat) a + S1x64.size a ≤ S128x64.size a
  inb_S128_S1_75 : ∀ a, (![75] : Fin 1 → Nat) a + S1.size a ≤ S128.size a
  inb_S128x64_S1x64_75_0 : ∀ a, (![75, 0] : Fin 2 → Nat) a + S1x64.size a ≤ S128x64.size a
  inb_S128_S1_76 : ∀ a, (![76] : Fin 1 → Nat) a + S1.size a ≤ S128.size a
  inb_S128x64_S1x64_76_0 : ∀ a, (![76, 0] : Fin 2 → Nat) a + S1x64.size a ≤ S128x64.size a
  inb_S128_S1_77 : ∀ a, (![77] : Fin 1 → Nat) a + S1.size a ≤ S128.size a
  inb_S128x64_S1x64_77_0 : ∀ a, (![77, 0] : Fin 2 → Nat) a + S1x64.size a ≤ S128x64.size a
  inb_S128_S1_78 : ∀ a, (![78] : Fin 1 → Nat) a + S1.size a ≤ S128.size a
  inb_S128x64_S1x64_78_0 : ∀ a, (![78, 0] : Fin 2 → Nat) a + S1x64.size a ≤ S128x64.size a
  inb_S128_S1_79 : ∀ a, (![79] : Fin 1 → Nat) a + S1.size a ≤ S128.size a
  inb_S128x64_S1x64_79_0 : ∀ a, (![79, 0] : Fin 2 → Nat) a + S1x64.size a ≤ S128x64.size a
  inb_S128_S1_80 : ∀ a, (![80] : Fin 1 → Nat) a + S1.size a ≤ S128.size a
  inb_S128x64_S1x64_80_0 : ∀ a, (![80, 0] : Fin 2 → Nat) a + S1x64.size a ≤ S128x64.size a
  inb_S128_S1_81 : ∀ a, (![81] : Fin 1 → Nat) a + S1.size a ≤ S128.size a
  inb_S128x64_S1x64_81_0 : ∀ a, (![81, 0] : Fin 2 → Nat) a + S1x64.size a ≤ S128x64.size a
  inb_S128_S1_82 : ∀ a, (![82] : Fin 1 → Nat) a + S1.size a ≤ S128.size a
  inb_S128x64_S1x64_82_0 : ∀ a, (![82, 0] : Fin 2 → Nat) a + S1x64.size a ≤ S128x64.size a
  inb_S128_S1_83 : ∀ a, (![83] : Fin 1 → Nat) a + S1.size a ≤ S128.size a
  inb_S128x64_S1x64_83_0 : ∀ a, (![83, 0] : Fin 2 → Nat) a + S1x64.size a ≤ S128x64.size a
  inb_S128_S1_84 : ∀ a, (![84] : Fin 1 → Nat) a + S1.size a ≤ S128.size a
  inb_S128x64_S1x64_84_0 : ∀ a, (![84, 0] : Fin 2 → Nat) a + S1x64.size a ≤ S128x64.size a
  inb_S128_S1_85 : ∀ a, (![85] : Fin 1 → Nat) a + S1.size a ≤ S128.size a
  inb_S128x64_S1x64_85_0 : ∀ a, (![85, 0] : Fin 2 → Nat) a + S1x64.size a ≤ S128x64.size a
  inb_S128_S1_86 : ∀ a, (![86] : Fin 1 → Nat) a + S1.size a ≤ S128.size a
  inb_S128x64_S1x64_86_0 : ∀ a, (![86, 0] : Fin 2 → Nat) a + S1x64.size a ≤ S128x64.size a
  inb_S128_S1_87 : ∀ a, (![87] : Fin 1 → Nat) a + S1.size a ≤ S128.size a
  inb_S128x64_S1x64_87_0 : ∀ a, (![87, 0] : Fin 2 → Nat) a + S1x64.size a ≤ S128x64.size a
  inb_S128_S1_88 : ∀ a, (![88] : Fin 1 → Nat) a + S1.size a ≤ S128.size a
  inb_S128x64_S1x64_88_0 : ∀ a, (![88, 0] : Fin 2 → Nat) a + S1x64.size a ≤ S128x64.size a
  inb_S128_S1_89 : ∀ a, (![89] : Fin 1 → Nat) a + S1.size a ≤ S128.size a
  inb_S128x64_S1x64_89_0 : ∀ a, (![89, 0] : Fin 2 → Nat) a + S1x64.size a ≤ S128x64.size a
  inb_S128_S1_90 : ∀ a, (![90] : Fin 1 → Nat) a + S1.size a ≤ S128.size a
  inb_S128x64_S1x64_90_0 : ∀ a, (![90, 0] : Fin 2 → Nat) a + S1x64.size a ≤ S128x64.size a
  inb_S128_S1_91 : ∀ a, (![91] : Fin 1 → Nat) a + S1.size a ≤ S128.size a
  inb_S128x64_S1x64_91_0 : ∀ a, (![91, 0] : Fin 2 → Nat) a + S1x64.size a ≤ S128x64.size a
  inb_S128_S1_92 : ∀ a, (![92] : Fin 1 → Nat) a + S1.size a ≤ S128.size a
  inb_S128x64_S1x64_92_0 : ∀ a, (![92, 0] : Fin 2 → Nat) a + S1x64.size a ≤ S128x64.size a
  inb_S128_S1_93 : ∀ a, (![93] : Fin 1 → Nat) a + S1.size a ≤ S128.size a
  inb_S128x64_S1x64_93_0 : ∀ a, (![93, 0] : Fin 2 → Nat) a + S1x64.size a ≤ S128x64.size a
  inb_S128_S1_94 : ∀ a, (![94] : Fin 1 → Nat) a + S1.size a ≤ S128.size a
  inb_S128x64_S1x64_94_0 : ∀ a, (![94, 0] : Fin 2 → Nat) a + S1x64.size a ≤ S128x64.size a
  inb_S128_S1_95 : ∀ a, (![95] : Fin 1 → Nat) a + S1.size a ≤ S128.size a
  inb_S128x64_S1x64_95_0 : ∀ a, (![95, 0] : Fin 2 → Nat) a + S1x64.size a ≤ S128x64.size a
  inb_S128_S1_96 : ∀ a, (![96] : Fin 1 → Nat) a + S1.size a ≤ S128.size a
  inb_S128x64_S1x64_96_0 : ∀ a, (![96, 0] : Fin 2 → Nat) a + S1x64.size a ≤ S128x64.size a
  inb_S128_S1_97 : ∀ a, (![97] : Fin 1 → Nat) a + S1.size a ≤ S128.size a
  inb_S128x64_S1x64_97_0 : ∀ a, (![97, 0] : Fin 2 → Nat) a + S1x64.size a ≤ S128x64.size a
  inb_S128_S1_98 : ∀ a, (![98] : Fin 1 → Nat) a + S1.size a ≤ S128.size a
  inb_S128x64_S1x64_98_0 : ∀ a, (![98, 0] : Fin 2 → Nat) a + S1x64.size a ≤ S128x64.size a
  inb_S128_S1_99 : ∀ a, (![99] : Fin 1 → Nat) a + S1.size a ≤ S128.size a
  inb_S128x64_S1x64_99_0 : ∀ a, (![99, 0] : Fin 2 → Nat) a + S1x64.size a ≤ S128x64.size a
  inb_S128_S1_100 : ∀ a, (![100] : Fin 1 → Nat) a + S1.size a ≤ S128.size a
  inb_S128x64_S1x64_100_0 : ∀ a, (![100, 0] : Fin 2 → Nat) a + S1x64.size a ≤ S128x64.size a
  inb_S128_S1_101 : ∀ a, (![101] : Fin 1 → Nat) a + S1.size a ≤ S128.size a
  inb_S128x64_S1x64_101_0 : ∀ a, (![101, 0] : Fin 2 → Nat) a + S1x64.size a ≤ S128x64.size a
  inb_S128_S1_102 : ∀ a, (![102] : Fin 1 → Nat) a + S1.size a ≤ S128.size a
  inb_S128x64_S1x64_102_0 : ∀ a, (![102, 0] : Fin 2 → Nat) a + S1x64.size a ≤ S128x64.size a
  inb_S128_S1_103 : ∀ a, (![103] : Fin 1 → Nat) a + S1.size a ≤ S128.size a
  inb_S128x64_S1x64_103_0 : ∀ a, (![103, 0] : Fin 2 → Nat) a + S1x64.size a ≤ S128x64.size a
  inb_S128_S1_104 : ∀ a, (![104] : Fin 1 → Nat) a + S1.size a ≤ S128.size a
  inb_S128x64_S1x64_104_0 : ∀ a, (![104, 0] : Fin 2 → Nat) a + S1x64.size a ≤ S128x64.size a
  inb_S128_S1_105 : ∀ a, (![105] : Fin 1 → Nat) a + S1.size a ≤ S128.size a
  inb_S128x64_S1x64_105_0 : ∀ a, (![105, 0] : Fin 2 → Nat) a + S1x64.size a ≤ S128x64.size a
  inb_S128_S1_106 : ∀ a, (![106] : Fin 1 → Nat) a + S1.size a ≤ S128.size a
  inb_S128x64_S1x64_106_0 : ∀ a, (![106, 0] : Fin 2 → Nat) a + S1x64.size a ≤ S128x64.size a
  inb_S128_S1_107 : ∀ a, (![107] : Fin 1 → Nat) a + S1.size a ≤ S128.size a
  inb_S128x64_S1x64_107_0 : ∀ a, (![107, 0] : Fin 2 → Nat) a + S1x64.size a ≤ S128x64.size a
  inb_S128_S1_108 : ∀ a, (![108] : Fin 1 → Nat) a + S1.size a ≤ S128.size a
  inb_S128x64_S1x64_108_0 : ∀ a, (![108, 0] : Fin 2 → Nat) a + S1x64.size a ≤ S128x64.size a
  inb_S128_S1_109 : ∀ a, (![109] : Fin 1 → Nat) a + S1.size a ≤ S128.size a
  inb_S128x64_S1x64_109_0 : ∀ a, (![109, 0] : Fin 2 → Nat) a + S1x64.size a ≤ S128x64.size a
  inb_S128_S1_110 : ∀ a, (![110] : Fin 1 → Nat) a + S1.size a ≤ S128.size a
  inb_S128x64_S1x64_110_0 : ∀ a, (![110, 0] : Fin 2 → Nat) a + S1x64.size a ≤ S128x64.size a
  inb_S128_S1_111 : ∀ a, (![111] : Fin 1 → Nat) a + S1.size a ≤ S128.size a
  inb_S128x64_S1x64_111_0 : ∀ a, (![111, 0] : Fin 2 → Nat) a + S1x64.size a ≤ S128x64.size a
  inb_S128_S1_112 : ∀ a, (![112] : Fin 1 → Nat) a + S1.size a ≤ S128.size a
  inb_S128x64_S1x64_112_0 : ∀ a, (![112, 0] : Fin 2 → Nat) a + S1x64.size a ≤ S128x64.size a
  inb_S128_S1_113 : ∀ a, (![113] : Fin 1 → Nat) a + S1.size a ≤ S128.size a
  inb_S128x64_S1x64_113_0 : ∀ a, (![113, 0] : Fin 2 → Nat) a + S1x64.size a ≤ S128x64.size a
  inb_S128_S1_114 : ∀ a, (![114] : Fin 1 → Nat) a + S1.size a ≤ S128.size a
  inb_S128x64_S1x64_114_0 : ∀ a, (![114, 0] : Fin 2 → Nat) a + S1x64.size a ≤ S128x64.size a
  inb_S128_S1_115 : ∀ a, (![115] : Fin 1 → Nat) a + S1.size a ≤ S128.size a
  inb_S128x64_S1x64_115_0 : ∀ a, (![115, 0] : Fin 2 → Nat) a + S1x64.size a ≤ S128x64.size a
  inb_S128_S1_116 : ∀ a, (![116] : Fin 1 → Nat) a + S1.size a ≤ S128.size a
  inb_S128x64_S1x64_116_0 : ∀ a, (![116, 0] : Fin 2 → Nat) a + S1x64.size a ≤ S128x64.size a
  inb_S128_S1_117 : ∀ a, (![117] : Fin 1 → Nat) a + S1.size a ≤ S128.size a
  inb_S128x64_S1x64_117_0 : ∀ a, (![117, 0] : Fin 2 → Nat) a + S1x64.size a ≤ S128x64.size a
  inb_S128_S1_118 : ∀ a, (![118] : Fin 1 → Nat) a + S1.size a ≤ S128.size a
  inb_S128x64_S1x64_118_0 : ∀ a, (![118, 0] : Fin 2 → Nat) a + S1x64.size a ≤ S128x64.size a
  inb_S128_S1_119 : ∀ a, (![119] : Fin 1 → Nat) a + S1.size a ≤ S128.size a
  inb_S128x64_S1x64_119_0 : ∀ a, (![119, 0] : Fin 2 → Nat) a + S1x64.size a ≤ S128x64.size a
  inb_S128_S1_120 : ∀ a, (![120] : Fin 1 → Nat) a + S1.size a ≤ S128.size a
  inb_S128x64_S1x64_120_0 : ∀ a, (![120, 0] : Fin 2 → Nat) a + S1x64.size a ≤ S128x64.size a
  inb_S128_S1_121 : ∀ a, (![121] : Fin 1 → Nat) a + S1.size a ≤ S128.size a
  inb_S128x64_S1x64_121_0 : ∀ a, (![121, 0] : Fin 2 → Nat) a + S1x64.size a ≤ S128x64.size a
  inb_S128_S1_122 : ∀ a, (![122] : Fin 1 → Nat) a + S1.size a ≤ S128.size a
  inb_S128x64_S1x64_122_0 : ∀ a, (![122, 0] : Fin 2 → Nat) a + S1x64.size a ≤ S128x64.size a
  inb_S128_S1_123 : ∀ a, (![123] : Fin 1 → Nat) a + S1.size a ≤ S128.size a
  inb_S128x64_S1x64_123_0 : ∀ a, (![123, 0] : Fin 2 → Nat) a + S1x64.size a ≤ S128x64.size a
  inb_S128_S1_124 : ∀ a, (![124] : Fin 1 → Nat) a + S1.size a ≤ S128.size a
  inb_S128x64_S1x64_124_0 : ∀ a, (![124, 0] : Fin 2 → Nat) a + S1x64.size a ≤ S128x64.size a
  inb_S128_S1_125 : ∀ a, (![125] : Fin 1 → Nat) a + S1.size a ≤ S128.size a
  inb_S128x64_S1x64_125_0 : ∀ a, (![125, 0] : Fin 2 → Nat) a + S1x64.size a ≤ S128x64.size a
  inb_S128_S1_126 : ∀ a, (![126] : Fin 1 → Nat) a + S1.size a ≤ S128.size a
  inb_S128x64_S1x64_126_0 : ∀ a, (![126, 0] : Fin 2 → Nat) a + S1x64.size a ≤ S128x64.size a
  inb_S128_S1_127 : ∀ a, (![127] : Fin 1 → Nat) a + S1.size a ≤ S128.size a
  inb_S128x64_S1x64_127_0 : ∀ a, (![127, 0] : Fin 2 → Nat) a + S1x64.size a ≤ S128x64.size a
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  hcc3_scratch0 : 20 + S128.numel ≤ 278
  hcc4_scratch0 : 150 + S128.numel ≤ 278
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x128.size a ≤ S75000x128.size a
  hwx0_0 : ∀ i : grid0.Coords, EltTy.bits .f32 = 32 ∨ (Rect.block (s := S75000x128) S3000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x128.size a ≤ S75000x128.size a
  hwx0_1 : ∀ i : grid0.Coords, EltTy.bits .f32 = 32 ∨ (Rect.block (s := S75000x128) S3000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x128.size a ≤ S75000x128.size a
  hwx0_2 : ∀ i : grid0.Coords, EltTy.bits .f32 = 32 ∨ (Rect.block (s := S75000x128) S3000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x128.size a ≤ S75000x128.size a
  hwx1_0 : ∀ i : grid1.Coords, EltTy.bits .f32 = 32 ∨ (Rect.block (s := S75000x128) S3000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3000x128.size a ≤ S75000x128.size a
  hwx1_1 : ∀ i : grid1.Coords, EltTy.bits .f32 = 32 ∨ (Rect.block (s := S75000x128) S3000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x128.size a ≤ S75000x128.size a
  hwx1_2 : ∀ i : grid1.Coords, EltTy.bits .f32 = 32 ∨ (Rect.block (s := S75000x128) S3000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x128.size a ≤ S75000x128.size a
  hwx2_0 : ∀ i : grid2.Coords, EltTy.bits .f32 = 32 ∨ (Rect.block (s := S75000x128) S3000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3000x128.size a ≤ S75000x128.size a
  hwx2_1 : ∀ i : grid2.Coords, EltTy.bits .f32 = 32 ∨ (Rect.block (s := S75000x128) S3000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x128.size a ≤ S75000x128.size a
  hwx2_2 : ∀ i : grid2.Coords, EltTy.bits .f32 = 32 ∨ (Rect.block (s := S75000x128) S3000x128.size (cc2_transform_2 i) (hinb2_2 i)).WholeWords (EltTy.packing .f32)
  hrank3 : 0 < grid3.rank
  k3_off1_inb : ∀ i : grid3.Coords, ∀ a, (k3_off1 i) a + S1.size a ≤ S4096.size a
  k3_off3_inb : ∀ i : grid3.Coords, ∀ a, (k3_off3 i) a + S1.size a ≤ S4096.size a
  k3_off5_inb : ∀ i : grid3.Coords, ∀ a, (k3_off5 i) a + S1.size a ≤ S4096.size a
  k3_off7_inb : ∀ i : grid3.Coords, ∀ a, (k3_off7 i) a + S1.size a ≤ S4096.size a
  k3_off9_inb : ∀ i : grid3.Coords, ∀ a, (k3_off9 i) a + S1.size a ≤ S4096.size a
  k3_off11_inb : ∀ i : grid3.Coords, ∀ a, (k3_off11 i) a + S1.size a ≤ S4096.size a
  k3_off13_inb : ∀ i : grid3.Coords, ∀ a, (k3_off13 i) a + S1.size a ≤ S4096.size a
  k3_off15_inb : ∀ i : grid3.Coords, ∀ a, (k3_off15 i) a + S1.size a ≤ S4096.size a
  k3_off17_inb : ∀ i : grid3.Coords, ∀ a, (k3_off17 i) a + S1.size a ≤ S4096.size a
  k3_off19_inb : ∀ i : grid3.Coords, ∀ a, (k3_off19 i) a + S1.size a ≤ S4096.size a
  k3_off21_inb : ∀ i : grid3.Coords, ∀ a, (k3_off21 i) a + S1.size a ≤ S4096.size a
  k3_off23_inb : ∀ i : grid3.Coords, ∀ a, (k3_off23 i) a + S1.size a ≤ S4096.size a
  k3_off25_inb : ∀ i : grid3.Coords, ∀ a, (k3_off25 i) a + S1.size a ≤ S4096.size a
  k3_off27_inb : ∀ i : grid3.Coords, ∀ a, (k3_off27 i) a + S1.size a ≤ S4096.size a
  k3_off29_inb : ∀ i : grid3.Coords, ∀ a, (k3_off29 i) a + S1.size a ≤ S4096.size a
  k3_off31_inb : ∀ i : grid3.Coords, ∀ a, (k3_off31 i) a + S1.size a ≤ S4096.size a
  k3_off33_inb : ∀ i : grid3.Coords, ∀ a, (k3_off33 i) a + S1.size a ≤ S4096.size a
  k3_off35_inb : ∀ i : grid3.Coords, ∀ a, (k3_off35 i) a + S1.size a ≤ S4096.size a
  k3_off37_inb : ∀ i : grid3.Coords, ∀ a, (k3_off37 i) a + S1.size a ≤ S4096.size a
  k3_off39_inb : ∀ i : grid3.Coords, ∀ a, (k3_off39 i) a + S1.size a ≤ S4096.size a
  k3_off41_inb : ∀ i : grid3.Coords, ∀ a, (k3_off41 i) a + S1.size a ≤ S4096.size a
  k3_off43_inb : ∀ i : grid3.Coords, ∀ a, (k3_off43 i) a + S1.size a ≤ S4096.size a
  k3_off45_inb : ∀ i : grid3.Coords, ∀ a, (k3_off45 i) a + S1.size a ≤ S4096.size a
  k3_off47_inb : ∀ i : grid3.Coords, ∀ a, (k3_off47 i) a + S1.size a ≤ S4096.size a
  k3_off49_inb : ∀ i : grid3.Coords, ∀ a, (k3_off49 i) a + S1.size a ≤ S4096.size a
  k3_off51_inb : ∀ i : grid3.Coords, ∀ a, (k3_off51 i) a + S1.size a ≤ S4096.size a
  k3_off53_inb : ∀ i : grid3.Coords, ∀ a, (k3_off53 i) a + S1.size a ≤ S4096.size a
  k3_off55_inb : ∀ i : grid3.Coords, ∀ a, (k3_off55 i) a + S1.size a ≤ S4096.size a
  k3_off57_inb : ∀ i : grid3.Coords, ∀ a, (k3_off57 i) a + S1.size a ≤ S4096.size a
  k3_off59_inb : ∀ i : grid3.Coords, ∀ a, (k3_off59 i) a + S1.size a ≤ S4096.size a
  k3_off61_inb : ∀ i : grid3.Coords, ∀ a, (k3_off61 i) a + S1.size a ≤ S4096.size a
  k3_off63_inb : ∀ i : grid3.Coords, ∀ a, (k3_off63 i) a + S1.size a ≤ S4096.size a
  k3_off65_inb : ∀ i : grid3.Coords, ∀ a, (k3_off65 i) a + S1.size a ≤ S4096.size a
  k3_off67_inb : ∀ i : grid3.Coords, ∀ a, (k3_off67 i) a + S1.size a ≤ S4096.size a
  k3_off69_inb : ∀ i : grid3.Coords, ∀ a, (k3_off69 i) a + S1.size a ≤ S4096.size a
  k3_off71_inb : ∀ i : grid3.Coords, ∀ a, (k3_off71 i) a + S1.size a ≤ S4096.size a
  k3_off73_inb : ∀ i : grid3.Coords, ∀ a, (k3_off73 i) a + S1.size a ≤ S4096.size a
  k3_off75_inb : ∀ i : grid3.Coords, ∀ a, (k3_off75 i) a + S1.size a ≤ S4096.size a
  k3_off77_inb : ∀ i : grid3.Coords, ∀ a, (k3_off77 i) a + S1.size a ≤ S4096.size a
  k3_off79_inb : ∀ i : grid3.Coords, ∀ a, (k3_off79 i) a + S1.size a ≤ S4096.size a
  k3_off81_inb : ∀ i : grid3.Coords, ∀ a, (k3_off81 i) a + S1.size a ≤ S4096.size a
  k3_off83_inb : ∀ i : grid3.Coords, ∀ a, (k3_off83 i) a + S1.size a ≤ S4096.size a
  k3_off85_inb : ∀ i : grid3.Coords, ∀ a, (k3_off85 i) a + S1.size a ≤ S4096.size a
  k3_off87_inb : ∀ i : grid3.Coords, ∀ a, (k3_off87 i) a + S1.size a ≤ S4096.size a
  k3_off89_inb : ∀ i : grid3.Coords, ∀ a, (k3_off89 i) a + S1.size a ≤ S4096.size a
  k3_off91_inb : ∀ i : grid3.Coords, ∀ a, (k3_off91 i) a + S1.size a ≤ S4096.size a
  k3_off93_inb : ∀ i : grid3.Coords, ∀ a, (k3_off93 i) a + S1.size a ≤ S4096.size a
  k3_off95_inb : ∀ i : grid3.Coords, ∀ a, (k3_off95 i) a + S1.size a ≤ S4096.size a
  k3_off97_inb : ∀ i : grid3.Coords, ∀ a, (k3_off97 i) a + S1.size a ≤ S4096.size a
  k3_off99_inb : ∀ i : grid3.Coords, ∀ a, (k3_off99 i) a + S1.size a ≤ S4096.size a
  k3_off101_inb : ∀ i : grid3.Coords, ∀ a, (k3_off101 i) a + S1.size a ≤ S4096.size a
  k3_off103_inb : ∀ i : grid3.Coords, ∀ a, (k3_off103 i) a + S1.size a ≤ S4096.size a
  k3_off105_inb : ∀ i : grid3.Coords, ∀ a, (k3_off105 i) a + S1.size a ≤ S4096.size a
  k3_off107_inb : ∀ i : grid3.Coords, ∀ a, (k3_off107 i) a + S1.size a ≤ S4096.size a
  k3_off109_inb : ∀ i : grid3.Coords, ∀ a, (k3_off109 i) a + S1.size a ≤ S4096.size a
  k3_off111_inb : ∀ i : grid3.Coords, ∀ a, (k3_off111 i) a + S1.size a ≤ S4096.size a
  k3_off113_inb : ∀ i : grid3.Coords, ∀ a, (k3_off113 i) a + S1.size a ≤ S4096.size a
  k3_off115_inb : ∀ i : grid3.Coords, ∀ a, (k3_off115 i) a + S1.size a ≤ S4096.size a
  k3_off117_inb : ∀ i : grid3.Coords, ∀ a, (k3_off117 i) a + S1.size a ≤ S4096.size a
  k3_off119_inb : ∀ i : grid3.Coords, ∀ a, (k3_off119 i) a + S1.size a ≤ S4096.size a
  k3_off121_inb : ∀ i : grid3.Coords, ∀ a, (k3_off121 i) a + S1.size a ≤ S4096.size a
  k3_off123_inb : ∀ i : grid3.Coords, ∀ a, (k3_off123 i) a + S1.size a ≤ S4096.size a
  k3_off125_inb : ∀ i : grid3.Coords, ∀ a, (k3_off125 i) a + S1.size a ≤ S4096.size a
  k3_off127_inb : ∀ i : grid3.Coords, ∀ a, (k3_off127 i) a + S1.size a ≤ S4096.size a
  k3_off129_inb : ∀ i : grid3.Coords, ∀ a, (k3_off129 i) a + S1.size a ≤ S4096.size a
  k3_off131_inb : ∀ i : grid3.Coords, ∀ a, (k3_off131 i) a + S1.size a ≤ S4096.size a
  k3_off133_inb : ∀ i : grid3.Coords, ∀ a, (k3_off133 i) a + S1.size a ≤ S4096.size a
  k3_off135_inb : ∀ i : grid3.Coords, ∀ a, (k3_off135 i) a + S1.size a ≤ S4096.size a
  k3_off137_inb : ∀ i : grid3.Coords, ∀ a, (k3_off137 i) a + S1.size a ≤ S4096.size a
  k3_off139_inb : ∀ i : grid3.Coords, ∀ a, (k3_off139 i) a + S1.size a ≤ S4096.size a
  k3_off141_inb : ∀ i : grid3.Coords, ∀ a, (k3_off141 i) a + S1.size a ≤ S4096.size a
  k3_off143_inb : ∀ i : grid3.Coords, ∀ a, (k3_off143 i) a + S1.size a ≤ S4096.size a
  k3_off145_inb : ∀ i : grid3.Coords, ∀ a, (k3_off145 i) a + S1.size a ≤ S4096.size a
  k3_off147_inb : ∀ i : grid3.Coords, ∀ a, (k3_off147 i) a + S1.size a ≤ S4096.size a
  k3_off149_inb : ∀ i : grid3.Coords, ∀ a, (k3_off149 i) a + S1.size a ≤ S4096.size a
  k3_off151_inb : ∀ i : grid3.Coords, ∀ a, (k3_off151 i) a + S1.size a ≤ S4096.size a
  k3_off153_inb : ∀ i : grid3.Coords, ∀ a, (k3_off153 i) a + S1.size a ≤ S4096.size a
  k3_off155_inb : ∀ i : grid3.Coords, ∀ a, (k3_off155 i) a + S1.size a ≤ S4096.size a
  k3_off157_inb : ∀ i : grid3.Coords, ∀ a, (k3_off157 i) a + S1.size a ≤ S4096.size a
  k3_off159_inb : ∀ i : grid3.Coords, ∀ a, (k3_off159 i) a + S1.size a ≤ S4096.size a
  k3_off161_inb : ∀ i : grid3.Coords, ∀ a, (k3_off161 i) a + S1.size a ≤ S4096.size a
  k3_off163_inb : ∀ i : grid3.Coords, ∀ a, (k3_off163 i) a + S1.size a ≤ S4096.size a
  k3_off165_inb : ∀ i : grid3.Coords, ∀ a, (k3_off165 i) a + S1.size a ≤ S4096.size a
  k3_off167_inb : ∀ i : grid3.Coords, ∀ a, (k3_off167 i) a + S1.size a ≤ S4096.size a
  k3_off169_inb : ∀ i : grid3.Coords, ∀ a, (k3_off169 i) a + S1.size a ≤ S4096.size a
  k3_off171_inb : ∀ i : grid3.Coords, ∀ a, (k3_off171 i) a + S1.size a ≤ S4096.size a
  k3_off173_inb : ∀ i : grid3.Coords, ∀ a, (k3_off173 i) a + S1.size a ≤ S4096.size a
  k3_off175_inb : ∀ i : grid3.Coords, ∀ a, (k3_off175 i) a + S1.size a ≤ S4096.size a
  k3_off177_inb : ∀ i : grid3.Coords, ∀ a, (k3_off177 i) a + S1.size a ≤ S4096.size a
  k3_off179_inb : ∀ i : grid3.Coords, ∀ a, (k3_off179 i) a + S1.size a ≤ S4096.size a
  k3_off181_inb : ∀ i : grid3.Coords, ∀ a, (k3_off181 i) a + S1.size a ≤ S4096.size a
  k3_off183_inb : ∀ i : grid3.Coords, ∀ a, (k3_off183 i) a + S1.size a ≤ S4096.size a
  k3_off185_inb : ∀ i : grid3.Coords, ∀ a, (k3_off185 i) a + S1.size a ≤ S4096.size a
  k3_off187_inb : ∀ i : grid3.Coords, ∀ a, (k3_off187 i) a + S1.size a ≤ S4096.size a
  k3_off189_inb : ∀ i : grid3.Coords, ∀ a, (k3_off189 i) a + S1.size a ≤ S4096.size a
  k3_off191_inb : ∀ i : grid3.Coords, ∀ a, (k3_off191 i) a + S1.size a ≤ S4096.size a
  k3_off193_inb : ∀ i : grid3.Coords, ∀ a, (k3_off193 i) a + S1.size a ≤ S4096.size a
  k3_off195_inb : ∀ i : grid3.Coords, ∀ a, (k3_off195 i) a + S1.size a ≤ S4096.size a
  k3_off197_inb : ∀ i : grid3.Coords, ∀ a, (k3_off197 i) a + S1.size a ≤ S4096.size a
  k3_off199_inb : ∀ i : grid3.Coords, ∀ a, (k3_off199 i) a + S1.size a ≤ S4096.size a
  k3_off201_inb : ∀ i : grid3.Coords, ∀ a, (k3_off201 i) a + S1.size a ≤ S4096.size a
  k3_off203_inb : ∀ i : grid3.Coords, ∀ a, (k3_off203 i) a + S1.size a ≤ S4096.size a
  k3_off205_inb : ∀ i : grid3.Coords, ∀ a, (k3_off205 i) a + S1.size a ≤ S4096.size a
  k3_off207_inb : ∀ i : grid3.Coords, ∀ a, (k3_off207 i) a + S1.size a ≤ S4096.size a
  k3_off209_inb : ∀ i : grid3.Coords, ∀ a, (k3_off209 i) a + S1.size a ≤ S4096.size a
  k3_off211_inb : ∀ i : grid3.Coords, ∀ a, (k3_off211 i) a + S1.size a ≤ S4096.size a
  k3_off213_inb : ∀ i : grid3.Coords, ∀ a, (k3_off213 i) a + S1.size a ≤ S4096.size a
  k3_off215_inb : ∀ i : grid3.Coords, ∀ a, (k3_off215 i) a + S1.size a ≤ S4096.size a
  k3_off217_inb : ∀ i : grid3.Coords, ∀ a, (k3_off217 i) a + S1.size a ≤ S4096.size a
  k3_off219_inb : ∀ i : grid3.Coords, ∀ a, (k3_off219 i) a + S1.size a ≤ S4096.size a
  k3_off221_inb : ∀ i : grid3.Coords, ∀ a, (k3_off221 i) a + S1.size a ≤ S4096.size a
  k3_off223_inb : ∀ i : grid3.Coords, ∀ a, (k3_off223 i) a + S1.size a ≤ S4096.size a
  k3_off225_inb : ∀ i : grid3.Coords, ∀ a, (k3_off225 i) a + S1.size a ≤ S4096.size a
  k3_off227_inb : ∀ i : grid3.Coords, ∀ a, (k3_off227 i) a + S1.size a ≤ S4096.size a
  k3_off229_inb : ∀ i : grid3.Coords, ∀ a, (k3_off229 i) a + S1.size a ≤ S4096.size a
  k3_off231_inb : ∀ i : grid3.Coords, ∀ a, (k3_off231 i) a + S1.size a ≤ S4096.size a
  k3_off233_inb : ∀ i : grid3.Coords, ∀ a, (k3_off233 i) a + S1.size a ≤ S4096.size a
  k3_off235_inb : ∀ i : grid3.Coords, ∀ a, (k3_off235 i) a + S1.size a ≤ S4096.size a
  k3_off237_inb : ∀ i : grid3.Coords, ∀ a, (k3_off237 i) a + S1.size a ≤ S4096.size a
  k3_off239_inb : ∀ i : grid3.Coords, ∀ a, (k3_off239 i) a + S1.size a ≤ S4096.size a
  k3_off241_inb : ∀ i : grid3.Coords, ∀ a, (k3_off241 i) a + S1.size a ≤ S4096.size a
  k3_off243_inb : ∀ i : grid3.Coords, ∀ a, (k3_off243 i) a + S1.size a ≤ S4096.size a
  k3_off245_inb : ∀ i : grid3.Coords, ∀ a, (k3_off245 i) a + S1.size a ≤ S4096.size a
  k3_off247_inb : ∀ i : grid3.Coords, ∀ a, (k3_off247 i) a + S1.size a ≤ S4096.size a
  k3_off249_inb : ∀ i : grid3.Coords, ∀ a, (k3_off249 i) a + S1.size a ≤ S4096.size a
  k3_off251_inb : ∀ i : grid3.Coords, ∀ a, (k3_off251 i) a + S1.size a ≤ S4096.size a
  k3_off253_inb : ∀ i : grid3.Coords, ∀ a, (k3_off253 i) a + S1.size a ≤ S4096.size a
  k3_off255_inb : ∀ i : grid3.Coords, ∀ a, (k3_off255 i) a + S1.size a ≤ S4096.size a
  hstage3_0 : ∀ j, (stage3_0 j).IsWhole
  nbuf3_0 : grid3.bufCount reads3_0 false = 2
  hreads3_0 : ∀ i i' : grid3.Coords, (∀ a, reads3_0 a = true → i a = i' a) → cc3_transform_1 i = cc3_transform_1 i'
  hinb3_0 : ∀ (i : grid3.Coords) a, (cc3_transform_1 i a + 1) * S128x64.size a ≤ S4096x64.size a
  hwx3_0 : ∀ i : grid3.Coords, EltTy.bits .f32 = 32 ∨ (Rect.block (s := S4096x64) S128x64.size (cc3_transform_1 i) (hinb3_0 i)).WholeWords (EltTy.packing .f32)
  hrank4 : 0 < grid4.rank
  k4_off1_inb : ∀ i : grid4.Coords, ∀ a, (k4_off1 i) a + S1.size a ≤ S4096.size a
  k4_off3_inb : ∀ i : grid4.Coords, ∀ a, (k4_off3 i) a + S1.size a ≤ S4096.size a
  k4_off5_inb : ∀ i : grid4.Coords, ∀ a, (k4_off5 i) a + S1.size a ≤ S4096.size a
  k4_off7_inb : ∀ i : grid4.Coords, ∀ a, (k4_off7 i) a + S1.size a ≤ S4096.size a
  k4_off9_inb : ∀ i : grid4.Coords, ∀ a, (k4_off9 i) a + S1.size a ≤ S4096.size a
  k4_off11_inb : ∀ i : grid4.Coords, ∀ a, (k4_off11 i) a + S1.size a ≤ S4096.size a
  k4_off13_inb : ∀ i : grid4.Coords, ∀ a, (k4_off13 i) a + S1.size a ≤ S4096.size a
  k4_off15_inb : ∀ i : grid4.Coords, ∀ a, (k4_off15 i) a + S1.size a ≤ S4096.size a
  k4_off17_inb : ∀ i : grid4.Coords, ∀ a, (k4_off17 i) a + S1.size a ≤ S4096.size a
  k4_off19_inb : ∀ i : grid4.Coords, ∀ a, (k4_off19 i) a + S1.size a ≤ S4096.size a
  k4_off21_inb : ∀ i : grid4.Coords, ∀ a, (k4_off21 i) a + S1.size a ≤ S4096.size a
  k4_off23_inb : ∀ i : grid4.Coords, ∀ a, (k4_off23 i) a + S1.size a ≤ S4096.size a
  k4_off25_inb : ∀ i : grid4.Coords, ∀ a, (k4_off25 i) a + S1.size a ≤ S4096.size a
  k4_off27_inb : ∀ i : grid4.Coords, ∀ a, (k4_off27 i) a + S1.size a ≤ S4096.size a
  k4_off29_inb : ∀ i : grid4.Coords, ∀ a, (k4_off29 i) a + S1.size a ≤ S4096.size a
  k4_off31_inb : ∀ i : grid4.Coords, ∀ a, (k4_off31 i) a + S1.size a ≤ S4096.size a
  k4_off33_inb : ∀ i : grid4.Coords, ∀ a, (k4_off33 i) a + S1.size a ≤ S4096.size a
  k4_off35_inb : ∀ i : grid4.Coords, ∀ a, (k4_off35 i) a + S1.size a ≤ S4096.size a
  k4_off37_inb : ∀ i : grid4.Coords, ∀ a, (k4_off37 i) a + S1.size a ≤ S4096.size a
  k4_off39_inb : ∀ i : grid4.Coords, ∀ a, (k4_off39 i) a + S1.size a ≤ S4096.size a
  k4_off41_inb : ∀ i : grid4.Coords, ∀ a, (k4_off41 i) a + S1.size a ≤ S4096.size a
  k4_off43_inb : ∀ i : grid4.Coords, ∀ a, (k4_off43 i) a + S1.size a ≤ S4096.size a
  k4_off45_inb : ∀ i : grid4.Coords, ∀ a, (k4_off45 i) a + S1.size a ≤ S4096.size a
  k4_off47_inb : ∀ i : grid4.Coords, ∀ a, (k4_off47 i) a + S1.size a ≤ S4096.size a
  k4_off49_inb : ∀ i : grid4.Coords, ∀ a, (k4_off49 i) a + S1.size a ≤ S4096.size a
  k4_off51_inb : ∀ i : grid4.Coords, ∀ a, (k4_off51 i) a + S1.size a ≤ S4096.size a
  k4_off53_inb : ∀ i : grid4.Coords, ∀ a, (k4_off53 i) a + S1.size a ≤ S4096.size a
  k4_off55_inb : ∀ i : grid4.Coords, ∀ a, (k4_off55 i) a + S1.size a ≤ S4096.size a
  k4_off57_inb : ∀ i : grid4.Coords, ∀ a, (k4_off57 i) a + S1.size a ≤ S4096.size a
  k4_off59_inb : ∀ i : grid4.Coords, ∀ a, (k4_off59 i) a + S1.size a ≤ S4096.size a
  k4_off61_inb : ∀ i : grid4.Coords, ∀ a, (k4_off61 i) a + S1.size a ≤ S4096.size a
  k4_off63_inb : ∀ i : grid4.Coords, ∀ a, (k4_off63 i) a + S1.size a ≤ S4096.size a
  k4_off65_inb : ∀ i : grid4.Coords, ∀ a, (k4_off65 i) a + S1.size a ≤ S4096.size a
  k4_off67_inb : ∀ i : grid4.Coords, ∀ a, (k4_off67 i) a + S1.size a ≤ S4096.size a
  k4_off69_inb : ∀ i : grid4.Coords, ∀ a, (k4_off69 i) a + S1.size a ≤ S4096.size a
  k4_off71_inb : ∀ i : grid4.Coords, ∀ a, (k4_off71 i) a + S1.size a ≤ S4096.size a
  k4_off73_inb : ∀ i : grid4.Coords, ∀ a, (k4_off73 i) a + S1.size a ≤ S4096.size a
  k4_off75_inb : ∀ i : grid4.Coords, ∀ a, (k4_off75 i) a + S1.size a ≤ S4096.size a
  k4_off77_inb : ∀ i : grid4.Coords, ∀ a, (k4_off77 i) a + S1.size a ≤ S4096.size a
  k4_off79_inb : ∀ i : grid4.Coords, ∀ a, (k4_off79 i) a + S1.size a ≤ S4096.size a
  k4_off81_inb : ∀ i : grid4.Coords, ∀ a, (k4_off81 i) a + S1.size a ≤ S4096.size a
  k4_off83_inb : ∀ i : grid4.Coords, ∀ a, (k4_off83 i) a + S1.size a ≤ S4096.size a
  k4_off85_inb : ∀ i : grid4.Coords, ∀ a, (k4_off85 i) a + S1.size a ≤ S4096.size a
  k4_off87_inb : ∀ i : grid4.Coords, ∀ a, (k4_off87 i) a + S1.size a ≤ S4096.size a
  k4_off89_inb : ∀ i : grid4.Coords, ∀ a, (k4_off89 i) a + S1.size a ≤ S4096.size a
  k4_off91_inb : ∀ i : grid4.Coords, ∀ a, (k4_off91 i) a + S1.size a ≤ S4096.size a
  k4_off93_inb : ∀ i : grid4.Coords, ∀ a, (k4_off93 i) a + S1.size a ≤ S4096.size a
  k4_off95_inb : ∀ i : grid4.Coords, ∀ a, (k4_off95 i) a + S1.size a ≤ S4096.size a
  k4_off97_inb : ∀ i : grid4.Coords, ∀ a, (k4_off97 i) a + S1.size a ≤ S4096.size a
  k4_off99_inb : ∀ i : grid4.Coords, ∀ a, (k4_off99 i) a + S1.size a ≤ S4096.size a
  k4_off101_inb : ∀ i : grid4.Coords, ∀ a, (k4_off101 i) a + S1.size a ≤ S4096.size a
  k4_off103_inb : ∀ i : grid4.Coords, ∀ a, (k4_off103 i) a + S1.size a ≤ S4096.size a
  k4_off105_inb : ∀ i : grid4.Coords, ∀ a, (k4_off105 i) a + S1.size a ≤ S4096.size a
  k4_off107_inb : ∀ i : grid4.Coords, ∀ a, (k4_off107 i) a + S1.size a ≤ S4096.size a
  k4_off109_inb : ∀ i : grid4.Coords, ∀ a, (k4_off109 i) a + S1.size a ≤ S4096.size a
  k4_off111_inb : ∀ i : grid4.Coords, ∀ a, (k4_off111 i) a + S1.size a ≤ S4096.size a
  k4_off113_inb : ∀ i : grid4.Coords, ∀ a, (k4_off113 i) a + S1.size a ≤ S4096.size a
  k4_off115_inb : ∀ i : grid4.Coords, ∀ a, (k4_off115 i) a + S1.size a ≤ S4096.size a
  k4_off117_inb : ∀ i : grid4.Coords, ∀ a, (k4_off117 i) a + S1.size a ≤ S4096.size a
  k4_off119_inb : ∀ i : grid4.Coords, ∀ a, (k4_off119 i) a + S1.size a ≤ S4096.size a
  k4_off121_inb : ∀ i : grid4.Coords, ∀ a, (k4_off121 i) a + S1.size a ≤ S4096.size a
  k4_off123_inb : ∀ i : grid4.Coords, ∀ a, (k4_off123 i) a + S1.size a ≤ S4096.size a
  k4_off125_inb : ∀ i : grid4.Coords, ∀ a, (k4_off125 i) a + S1.size a ≤ S4096.size a
  k4_off127_inb : ∀ i : grid4.Coords, ∀ a, (k4_off127 i) a + S1.size a ≤ S4096.size a
  k4_off129_inb : ∀ i : grid4.Coords, ∀ a, (k4_off129 i) a + S1.size a ≤ S4096.size a
  k4_off131_inb : ∀ i : grid4.Coords, ∀ a, (k4_off131 i) a + S1.size a ≤ S4096.size a
  k4_off133_inb : ∀ i : grid4.Coords, ∀ a, (k4_off133 i) a + S1.size a ≤ S4096.size a
  k4_off135_inb : ∀ i : grid4.Coords, ∀ a, (k4_off135 i) a + S1.size a ≤ S4096.size a
  k4_off137_inb : ∀ i : grid4.Coords, ∀ a, (k4_off137 i) a + S1.size a ≤ S4096.size a
  k4_off139_inb : ∀ i : grid4.Coords, ∀ a, (k4_off139 i) a + S1.size a ≤ S4096.size a
  k4_off141_inb : ∀ i : grid4.Coords, ∀ a, (k4_off141 i) a + S1.size a ≤ S4096.size a
  k4_off143_inb : ∀ i : grid4.Coords, ∀ a, (k4_off143 i) a + S1.size a ≤ S4096.size a
  k4_off145_inb : ∀ i : grid4.Coords, ∀ a, (k4_off145 i) a + S1.size a ≤ S4096.size a
  k4_off147_inb : ∀ i : grid4.Coords, ∀ a, (k4_off147 i) a + S1.size a ≤ S4096.size a
  k4_off149_inb : ∀ i : grid4.Coords, ∀ a, (k4_off149 i) a + S1.size a ≤ S4096.size a
  k4_off151_inb : ∀ i : grid4.Coords, ∀ a, (k4_off151 i) a + S1.size a ≤ S4096.size a
  k4_off153_inb : ∀ i : grid4.Coords, ∀ a, (k4_off153 i) a + S1.size a ≤ S4096.size a
  k4_off155_inb : ∀ i : grid4.Coords, ∀ a, (k4_off155 i) a + S1.size a ≤ S4096.size a
  k4_off157_inb : ∀ i : grid4.Coords, ∀ a, (k4_off157 i) a + S1.size a ≤ S4096.size a
  k4_off159_inb : ∀ i : grid4.Coords, ∀ a, (k4_off159 i) a + S1.size a ≤ S4096.size a
  k4_off161_inb : ∀ i : grid4.Coords, ∀ a, (k4_off161 i) a + S1.size a ≤ S4096.size a
  k4_off163_inb : ∀ i : grid4.Coords, ∀ a, (k4_off163 i) a + S1.size a ≤ S4096.size a
  k4_off165_inb : ∀ i : grid4.Coords, ∀ a, (k4_off165 i) a + S1.size a ≤ S4096.size a
  k4_off167_inb : ∀ i : grid4.Coords, ∀ a, (k4_off167 i) a + S1.size a ≤ S4096.size a
  k4_off169_inb : ∀ i : grid4.Coords, ∀ a, (k4_off169 i) a + S1.size a ≤ S4096.size a
  k4_off171_inb : ∀ i : grid4.Coords, ∀ a, (k4_off171 i) a + S1.size a ≤ S4096.size a
  k4_off173_inb : ∀ i : grid4.Coords, ∀ a, (k4_off173 i) a + S1.size a ≤ S4096.size a
  k4_off175_inb : ∀ i : grid4.Coords, ∀ a, (k4_off175 i) a + S1.size a ≤ S4096.size a
  k4_off177_inb : ∀ i : grid4.Coords, ∀ a, (k4_off177 i) a + S1.size a ≤ S4096.size a
  k4_off179_inb : ∀ i : grid4.Coords, ∀ a, (k4_off179 i) a + S1.size a ≤ S4096.size a
  k4_off181_inb : ∀ i : grid4.Coords, ∀ a, (k4_off181 i) a + S1.size a ≤ S4096.size a
  k4_off183_inb : ∀ i : grid4.Coords, ∀ a, (k4_off183 i) a + S1.size a ≤ S4096.size a
  k4_off185_inb : ∀ i : grid4.Coords, ∀ a, (k4_off185 i) a + S1.size a ≤ S4096.size a
  k4_off187_inb : ∀ i : grid4.Coords, ∀ a, (k4_off187 i) a + S1.size a ≤ S4096.size a
  k4_off189_inb : ∀ i : grid4.Coords, ∀ a, (k4_off189 i) a + S1.size a ≤ S4096.size a
  k4_off191_inb : ∀ i : grid4.Coords, ∀ a, (k4_off191 i) a + S1.size a ≤ S4096.size a
  k4_off193_inb : ∀ i : grid4.Coords, ∀ a, (k4_off193 i) a + S1.size a ≤ S4096.size a
  k4_off195_inb : ∀ i : grid4.Coords, ∀ a, (k4_off195 i) a + S1.size a ≤ S4096.size a
  k4_off197_inb : ∀ i : grid4.Coords, ∀ a, (k4_off197 i) a + S1.size a ≤ S4096.size a
  k4_off199_inb : ∀ i : grid4.Coords, ∀ a, (k4_off199 i) a + S1.size a ≤ S4096.size a
  k4_off201_inb : ∀ i : grid4.Coords, ∀ a, (k4_off201 i) a + S1.size a ≤ S4096.size a
  k4_off203_inb : ∀ i : grid4.Coords, ∀ a, (k4_off203 i) a + S1.size a ≤ S4096.size a
  k4_off205_inb : ∀ i : grid4.Coords, ∀ a, (k4_off205 i) a + S1.size a ≤ S4096.size a
  k4_off207_inb : ∀ i : grid4.Coords, ∀ a, (k4_off207 i) a + S1.size a ≤ S4096.size a
  k4_off209_inb : ∀ i : grid4.Coords, ∀ a, (k4_off209 i) a + S1.size a ≤ S4096.size a
  k4_off211_inb : ∀ i : grid4.Coords, ∀ a, (k4_off211 i) a + S1.size a ≤ S4096.size a
  k4_off213_inb : ∀ i : grid4.Coords, ∀ a, (k4_off213 i) a + S1.size a ≤ S4096.size a
  k4_off215_inb : ∀ i : grid4.Coords, ∀ a, (k4_off215 i) a + S1.size a ≤ S4096.size a
  k4_off217_inb : ∀ i : grid4.Coords, ∀ a, (k4_off217 i) a + S1.size a ≤ S4096.size a
  k4_off219_inb : ∀ i : grid4.Coords, ∀ a, (k4_off219 i) a + S1.size a ≤ S4096.size a
  k4_off221_inb : ∀ i : grid4.Coords, ∀ a, (k4_off221 i) a + S1.size a ≤ S4096.size a
  k4_off223_inb : ∀ i : grid4.Coords, ∀ a, (k4_off223 i) a + S1.size a ≤ S4096.size a
  k4_off225_inb : ∀ i : grid4.Coords, ∀ a, (k4_off225 i) a + S1.size a ≤ S4096.size a
  k4_off227_inb : ∀ i : grid4.Coords, ∀ a, (k4_off227 i) a + S1.size a ≤ S4096.size a
  k4_off229_inb : ∀ i : grid4.Coords, ∀ a, (k4_off229 i) a + S1.size a ≤ S4096.size a
  k4_off231_inb : ∀ i : grid4.Coords, ∀ a, (k4_off231 i) a + S1.size a ≤ S4096.size a
  k4_off233_inb : ∀ i : grid4.Coords, ∀ a, (k4_off233 i) a + S1.size a ≤ S4096.size a
  k4_off235_inb : ∀ i : grid4.Coords, ∀ a, (k4_off235 i) a + S1.size a ≤ S4096.size a
  k4_off237_inb : ∀ i : grid4.Coords, ∀ a, (k4_off237 i) a + S1.size a ≤ S4096.size a
  k4_off239_inb : ∀ i : grid4.Coords, ∀ a, (k4_off239 i) a + S1.size a ≤ S4096.size a
  k4_off241_inb : ∀ i : grid4.Coords, ∀ a, (k4_off241 i) a + S1.size a ≤ S4096.size a
  k4_off243_inb : ∀ i : grid4.Coords, ∀ a, (k4_off243 i) a + S1.size a ≤ S4096.size a
  k4_off245_inb : ∀ i : grid4.Coords, ∀ a, (k4_off245 i) a + S1.size a ≤ S4096.size a
  k4_off247_inb : ∀ i : grid4.Coords, ∀ a, (k4_off247 i) a + S1.size a ≤ S4096.size a
  k4_off249_inb : ∀ i : grid4.Coords, ∀ a, (k4_off249 i) a + S1.size a ≤ S4096.size a
  k4_off251_inb : ∀ i : grid4.Coords, ∀ a, (k4_off251 i) a + S1.size a ≤ S4096.size a
  k4_off253_inb : ∀ i : grid4.Coords, ∀ a, (k4_off253 i) a + S1.size a ≤ S4096.size a
  k4_off255_inb : ∀ i : grid4.Coords, ∀ a, (k4_off255 i) a + S1.size a ≤ S4096.size a
  hstage4_0 : ∀ j, (stage4_0 j).IsWhole
  nbuf4_0 : grid4.bufCount reads4_0 false = 2
  hreads4_0 : ∀ i i' : grid4.Coords, (∀ a, reads4_0 a = true → i a = i' a) → cc4_transform_1 i = cc4_transform_1 i'
  hinb4_0 : ∀ (i : grid4.Coords) a, (cc4_transform_1 i a + 1) * S128x64.size a ≤ S4096x64.size a
  hwx4_0 : ∀ i : grid4.Coords, EltTy.bits .f32 = 32 ∨ (Rect.block (s := S4096x64) S128x64.size (cc4_transform_1 i) (hinb4_0 i)).WholeWords (EltTy.packing .f32)

variable [Facts₀]

abbrev cc3_scratch0 : DmaSems sig S128 := SemArray.consecutive 20 S128 hcc3_scratch0
abbrev cc4_scratch0 : DmaSems sig S128 := SemArray.consecutive 150 S128 hcc4_scratch0
def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf

abbrev win0_0 : Pipeline.Window sig grid0 :=
  Pipeline.Window.ofSpec (Memref.whole main_v14) S3000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S3000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S3000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v31) S3000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S3000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S3000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S3000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S3000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S3000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev spec3_0 : Pipeline.WinSpec sig grid3.rank :=
  Pipeline.WinSpec.ofSpec (Memref.whole main_v55) S128x64.size reads3_0 true false 2 stage3_0 sem3_0 nbuf3_0 hstage3_0

abbrev spec3 : Fin 1 → Pipeline.WinSpec sig grid3.rank := fun | 0 => spec3_0 | ⟨_ + 1, h⟩ => absurd h (Nat.not_lt.2 (Nat.le_add_left _ _))
theorem hcount3 : ∀ w, grid3.bufCount (spec3 w).reads (spec3 w).sync = (spec3 w).nbuf := fun | 0 => nbuf3_0 | ⟨_ + 1, h⟩ => absurd h (Nat.not_lt.2 (Nat.le_add_left _ _))
abbrev ix3 (pf : pre3.Contents (Elt F)) : (w : Fin 1) → grid3.Coords → Fin (spec3 w).shape.rank → Nat := fun | 0 => cc3_transform_1 | ⟨_ + 1, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 | ⟨_ + 1, h⟩ => absurd h (Nat.not_lt.2 (Nat.le_add_left _ _))
def ok3 (_ : pre3.Contents (Elt F)) : Prop :=
  True
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun _ _ => fun | 0 => hinb3_0 | ⟨_ + 1, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun _ _ => fun | 0 => hwx3_0 | ⟨_ + 1, h⟩ => absurd h (Nat.not_lt.2 (Nat.le_add_left _ _))
abbrev spec4_0 : Pipeline.WinSpec sig grid4.rank :=
  Pipeline.WinSpec.ofSpec (Memref.whole main_v57) S128x64.size reads4_0 true false 2 stage4_0 sem4_0 nbuf4_0 hstage4_0

abbrev spec4 : Fin 1 → Pipeline.WinSpec sig grid4.rank := fun | 0 => spec4_0 | ⟨_ + 1, h⟩ => absurd h (Nat.not_lt.2 (Nat.le_add_left _ _))
theorem hcount4 : ∀ w, grid4.bufCount (spec4 w).reads (spec4 w).sync = (spec4 w).nbuf := fun | 0 => nbuf4_0 | ⟨_ + 1, h⟩ => absurd h (Nat.not_lt.2 (Nat.le_add_left _ _))
abbrev ix4 (pf : pre4.Contents (Elt F)) : (w : Fin 1) → grid4.Coords → Fin (spec4 w).shape.rank → Nat := fun | 0 => cc4_transform_1 | ⟨_ + 1, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 | ⟨_ + 1, h⟩ => absurd h (Nat.not_lt.2 (Nat.le_add_left _ _))
def ok4 (_ : pre4.Contents (Elt F)) : Prop :=
  True
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun _ _ => fun | 0 => hinb4_0 | ⟨_ + 1, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun _ _ => fun | 0 => hwx4_0 | ⟨_ + 1, h⟩ => absurd h (Nat.not_lt.2 (Nat.le_add_left _ _))

class Facts : Prop extends Facts₀ where
  harr3 : ∀ w, (spec3 w).arr.IsWhole
  harr4 : ∀ w, (spec4 w).arr.IsWhole

variable [Facts]
-- ==== ReferenceIdeal.lean ====
abbrev S100000x64 : Shape := ⟨2, ![100000, 64]⟩
abbrev S50000x64 : Shape := ⟨2, ![50000, 64]⟩
abbrev S2400000 : Shape := ⟨1, ![2400000]⟩
abbrev S4096 : Shape := ⟨1, ![4096]⟩
abbrev S150000x64 : Shape := ⟨2, ![150000, 64]⟩
abbrev S_ : Shape := ⟨0, ![]⟩
abbrev S2400000x1 : Shape := ⟨2, ![2400000, 1]⟩
abbrev S2400000x64 : Shape := ⟨2, ![2400000, 64]⟩
abbrev S4096x1 : Shape := ⟨2, ![4096, 1]⟩
abbrev S4096x64 : Shape := ⟨2, ![4096, 64]⟩

abbrev nBuf : Space → Nat
  | .hbm => 82
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S50000x64, .f32⟩
  | .hbm, ⟨2, _⟩ => ⟨S2400000, .f32⟩
  | .hbm, ⟨3, _⟩ => ⟨S2400000, .i32⟩
  | .hbm, ⟨4, _⟩ => ⟨S2400000, .i32⟩
  | .hbm, ⟨5, _⟩ => ⟨S4096, .i32⟩
  | .hbm, ⟨6, _⟩ => ⟨S4096, .i32⟩
  | .hbm, ⟨7, _⟩ => ⟨S150000x64, .f32⟩
  | .hbm, ⟨8, _⟩ => ⟨S_, .i32⟩
  | .hbm, ⟨9, _⟩ => ⟨S2400000, .i32⟩
  | .hbm, ⟨10, _⟩ => ⟨S2400000, .i1⟩
  | .hbm, ⟨11, _⟩ => ⟨S_, .i32⟩
  | .hbm, ⟨12, _⟩ => ⟨S2400000, .i32⟩
  | .hbm, ⟨13, _⟩ => ⟨S2400000, .i32⟩
  | .hbm, ⟨14, _⟩ => ⟨S2400000, .i32⟩
  | .hbm, ⟨15, _⟩ => ⟨S2400000x1, .i32⟩
  | .hbm, ⟨16, _⟩ => ⟨S2400000x64, .f32⟩
  | .hbm, ⟨17, _⟩ => ⟨S2400000x1, .f32⟩
  | .hbm, ⟨18, _⟩ => ⟨S2400000x64, .f32⟩
  | .hbm, ⟨19, _⟩ => ⟨S2400000x64, .f32⟩
  | .hbm, ⟨20, _⟩ => ⟨S_, .f32⟩
  | .hbm, ⟨21, _⟩ => ⟨S150000x64, .f32⟩
  | .hbm, ⟨22, _⟩ => ⟨S2400000x1, .i32⟩
  | .hbm, ⟨23, _⟩ => ⟨S150000x64, .f32⟩
  | .hbm, ⟨24, _⟩ => ⟨S150000x64, .f32⟩
  | .hbm, ⟨25, _⟩ => ⟨S_, .i32⟩
  | .hbm, ⟨26, _⟩ => ⟨S2400000, .i32⟩
  | .hbm, ⟨27, _⟩ => ⟨S2400000, .i1⟩
  | .hbm, ⟨28, _⟩ => ⟨S_, .i32⟩
  | .hbm, ⟨29, _⟩ => ⟨S2400000, .i32⟩
  | .hbm, ⟨30, _⟩ => ⟨S2400000, .i32⟩
  | .hbm, ⟨31, _⟩ => ⟨S2400000, .i32⟩
  | .hbm, ⟨32, _⟩ => ⟨S2400000x1, .i32⟩
  | .hbm, ⟨33, _⟩ => ⟨S2400000x64, .f32⟩
  | .hbm, ⟨34, _⟩ => ⟨S2400000x1, .f32⟩
  | .hbm, ⟨35, _⟩ => ⟨S2400000x64, .f32⟩
  | .hbm, ⟨36, _⟩ => ⟨S2400000x64, .f32⟩
  | .hbm, ⟨37, _⟩ => ⟨S_, .f32⟩
  | .hbm, ⟨38, _⟩ => ⟨S150000x64, .f32⟩
  | .hbm, ⟨39, _⟩ => ⟨S2400000x1, .i32⟩
  | .hbm, ⟨40, _⟩ => ⟨S150000x64, .f32⟩
  | .hbm, ⟨41, _⟩ => ⟨S150000x64, .f32⟩
  | .hbm, ⟨42, _⟩ => ⟨S_, .i32⟩
  | .hbm, ⟨43, _⟩ => ⟨S2400000, .i32⟩
  | .hbm, ⟨44, _⟩ => ⟨S2400000, .i1⟩
  | .hbm, ⟨45, _⟩ => ⟨S_, .i32⟩
  | .hbm, ⟨46, _⟩ => ⟨S2400000, .i32⟩
  | .hbm, ⟨47, _⟩ => ⟨S2400000, .i32⟩
  | .hbm, ⟨48, _⟩ => ⟨S2400000, .i32⟩
  | .hbm, ⟨49, _⟩ => ⟨S2400000x1, .i32⟩
  | .hbm, ⟨50, _⟩ => ⟨S2400000x64, .f32⟩
  | .hbm, ⟨51, _⟩ => ⟨S2400000x1, .f32⟩
  | .hbm, ⟨52, _⟩ => ⟨S2400000x64, .f32⟩
  | .hbm, ⟨53, _⟩ => ⟨S2400000x64, .f32⟩
  | .hbm, ⟨54, _⟩ => ⟨S_, .f32⟩
  | .hbm, ⟨55, _⟩ => ⟨S150000x64, .f32⟩
  | .hbm, ⟨56, _⟩ => ⟨S2400000x1, .i32⟩
  | .hbm, ⟨57, _⟩ => ⟨S150000x64, .f32⟩
  | .hbm, ⟨58, _⟩ => ⟨S150000x64, .f32⟩
  | .hbm, ⟨59, _⟩ => ⟨S_, .f32⟩
  | .hbm, ⟨60, _⟩ => ⟨S150000x64, .f32⟩
  | .hbm, ⟨61, _⟩ => ⟨S150000x64, .f32⟩
  | .hbm, ⟨62, _⟩ => ⟨S100000x64, .f32⟩
  | .hbm, ⟨63, _⟩ => ⟨S50000x64, .f32⟩
  | .hbm, ⟨64, _⟩ => ⟨S_, .i32⟩
  | .hbm, ⟨65, _⟩ => ⟨S4096, .i32⟩
  | .hbm, ⟨66, _⟩ => ⟨S4096, .i1⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S4096, .i32⟩
  | .hbm, ⟨71, _⟩ => ⟨S4096x1, .i32⟩
  | .hbm, ⟨72, _⟩ => ⟨S4096x64, .f32⟩
  | .hbm, ⟨73, _⟩ => ⟨S_, .i32⟩
  | .hbm, ⟨74, _⟩ => ⟨S4096, .i32⟩
  | .hbm, ⟨75, _⟩ => ⟨S4096, .i1⟩
  | .hbm, ⟨76, _⟩ => ⟨S_, .i32⟩
  | .hbm, ⟨77, _⟩ => ⟨S4096, .i32⟩
  | .hbm, ⟨78, _⟩ => ⟨S4096, .i32⟩
  | .hbm, ⟨79, _⟩ => ⟨S4096, .i32⟩
  | .hbm, ⟨80, _⟩ => ⟨S4096x1, .i32⟩
  | .hbm, ⟨81, _⟩ => ⟨S4096x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_7 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_c_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_v54 : Ref sig .tc := ⟨.hbm, 74, rfl⟩
abbrev main_v55 : Ref sig .tc := ⟨.hbm, 75, rfl⟩
abbrev main_c_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩

abbrev nD : Nat := 1
abbrev τ : Topo := Topo.v7x

variable {F : FTy → Type} [FloatOps F]

class Facts₀ : Prop where
  concatenates_S100000x64_S50000x64_S150000x64_d0 : Shape.Concatenates [S100000x64, S50000x64] S150000x64 0
  bcast_S_S2400000 : S_.BroadcastsInDim S2400000 (![] : Fin 0 → Fin S2400000.rank)
  bcast_S2400000_S2400000x1_0 : S2400000.BroadcastsInDim S2400000x1 (![0] : Fin 1 → Fin S2400000x1.rank)
  bcast_S2400000x1_S2400000x64_0_1 : S2400000x1.BroadcastsInDim S2400000x64 (![0, 1] : Fin 2 → Fin S2400000x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  gather_S150000x64_S2400000x1_S2400000x64_1_0_n_n_0_1_164_wf : GatherDims.WF S150000x64 S2400000x1 S2400000x64 [1] [0] [] [0] [] 1 ![1, 64]
  scatter_S150000x64_S2400000x1_S2400000x64_1_0_0_1_wf : ScatterDims.WF S150000x64 S2400000x1 S2400000x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S2400000x1_S2400000x64_1_0_n_n_0_1_164 : GatherDims S150000x64 S2400000x1 S2400000x64 where
  offsetDims := [1]
  collapsedSliceDims := [0]
  operandBatchingDims := []
  startIndicesBatchingDims := []
  startIndexMap := [0]
  indexVectorDim := 1
  sliceSizes := ![1, 64]
  wf := gather_S150000x64_S2400000x1_S2400000x64_1_0_n_n_0_1_164_wf
def scatter_S150000x64_S2400000x1_S2400000x64_1_0_0_1 : ScatterDims S150000x64 S2400000x1 S2400000x64 where
  updateWindowDims := [1]
  insertedWindowDims := [0]
  scatterDimsToOperandDims := [0]
  indexVectorDim := 1
  wf := scatter_S150000x64_S2400000x1_S2400000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.KSpec.lean ====
/-
  The kernel's two results as explicit pure terms of its seven argument arrays, for any float
  values. Every operation is spelled as the printed program spells it, so that "this buffer ends
  at this term" can be shown of the program's run by rewriting each host operation's result.

  The mathematics. The node table is the user rows followed by the item rows. One hop of the
  sparse product reads the table's rows at the edges' column ids (a negative id counted from the
  end), scales each row by the edge's value, and adds it into the row named by the edge's row id,
  starting from zeros. The three accumulation regions add two tables entry by entry on their
  row-major relabelling as 75000 rows of 128 lanes; the last one also multiplies by one quarter.
  The results are rows of the two slices of the mean table, taken at the clipped ids.
-/
import proofs.«412556_j37890201485521_3_alg».proof.KernelIdeal
import Idealize.ShloMosaic.Lib.ValueIdx

noncomputable section

namespace Cert.KernelIdeal.Hand

open Idealize.ShloMosaic Cert.KernelIdeal
open Cert.KernelIdeal.Facts₀ Cert.KernelIdeal.Facts

variable {F : FTy → Type} [FloatOps F] [Cert.KernelIdeal.Facts]

/-- The node table: the user rows, then the item rows. -/
def allEmb (u : Vec F S100000x64 .f32) (it : Vec F S50000x64 .f32) : Vec F S150000x64 .f32 :=
  concatenate S150000x64 0 [⟨S100000x64, u⟩, ⟨S50000x64, it⟩] concatenates_S100000x64_S50000x64_S150000x64_d0

/-- The column ids with a negative id counted from the end of the table. -/
def wrapCols (cols : Vec F S2400000 .i32) : Vec F S2400000 .i32 :=
  select (cmpi .slt cols (broadcastInDim S2400000 ![] bcast_S_S2400000 (constantI S_ 32 0#32)))
    (addi cols (broadcastInDim S2400000 ![] bcast_S_S2400000 (constantI S_ 32 150000#32))) cols

/-- One hop of the sparse product: the table's rows at the wrapped column ids, each scaled by
    its edge's value, added into zeros at the edges' row ids. -/
def spmm (vals : Vec F S2400000 .f32) (rows cols : Vec F S2400000 .i32) (x : Vec F S150000x64 .f32) :
    Vec F S150000x64 .f32 :=
  Host.scatterAdd scatter_S150000x64_S2400000x1_S2400000x64_1_0_0_1
    (broadcastInDim S150000x64 ![] bcast_S_S150000x64 (constant S_ .f32 0x00000000#32))
    (broadcastInDim S2400000x1 ![0] bcast_S2400000_S2400000x1_0 rows)
    (mulf
      (Host.gather gather_S150000x64_S2400000x1_S2400000x64_1_0_n_n_0_1_164 x
        (broadcastInDim S2400000x1 ![0] bcast_S2400000_S2400000x1_0 (wrapCols cols)))
      (broadcastInDim S2400000x64 ![0, 1] bcast_S2400000x1_S2400000x64_0_1
        (broadcastInDim S2400000x1 ![0] bcast_S2400000_S2400000x1_0 vals)))

/-- A table relabelled row-major as 75000 rows of 128 lanes. -/
def toLanes (a : Vec F S150000x64 .f32) : Vec F S75000x128 .f32 :=
  shapeCast S75000x128 a shapeCasts_S150000x64_S75000x128

/-- The relabelling undone. -/
def ofLanes (a : Vec F S75000x128 .f32) : Vec F S150000x64 .f32 :=
  shapeCast S150000x64 a shapeCasts_S75000x128_S150000x64

/-- What the first two accumulation regions write, on the relabelled tables: the entrywise sum. -/
def lanesSum (a b : Vec F S75000x128 .f32) : Vec F S75000x128 .f32 := addf a b

/-- What the last accumulation region writes: the entrywise sum times one quarter. -/
def lanesMean (a b : Vec F S75000x128 .f32) : Vec F S75000x128 .f32 :=
  mulf (addf a b) (broadcast S75000x128 (Scalar.ofBits .f32 0x3E800000#32))

/-- Two tables added entry by entry, through the relabelling. -/
def accSum (a b : Vec F S150000x64 .f32) : Vec F S150000x64 .f32 :=
  ofLanes (lanesSum (toLanes a) (toLanes b))

/-- Two tables added entry by entry and multiplied by one quarter, through the relabelling. -/
def accMean (a b : Vec F S150000x64 .f32) : Vec F S150000x64 .f32 :=
  ofLanes (lanesMean (toLanes a) (toLanes b))

/-- The table after one, two and three hops. -/
def hop1 (u : Vec F S100000x64 .f32) (it : Vec F S50000x64 .f32) (vals : Vec F S2400000 .f32)
    (rows cols : Vec F S2400000 .i32) : Vec F S150000x64 .f32 := spmm vals rows cols (allEmb u it)
def hop2 (u : Vec F S100000x64 .f32) (it : Vec F S50000x64 .f32) (vals : Vec F S2400000 .f32)
    (rows cols : Vec F S2400000 .i32) : Vec F S150000x64 .f32 := spmm vals rows cols (hop1 u it vals rows cols)
def hop3 (u : Vec F S100000x64 .f32) (it : Vec F S50000x64 .f32) (vals : Vec F S2400000 .f32)
    (rows cols : Vec F S2400000 .i32) : Vec F S150000x64 .f32 := spmm vals rows cols (hop2 u it vals rows cols)

/-- The mean of the table and its three hops: ((all + x1) + x2 + x3) · ¼, in this order. -/
def light (u : Vec F S100000x64 .f32) (it : Vec F S50000x64 .f32) (vals : Vec F S2400000 .f32)
    (rows cols : Vec F S2400000 .i32) : Vec F S150000x64 .f32 :=
  accMean (accSum (accSum (allEmb u it) (hop1 u it vals rows cols)) (hop2 u it vals rows cols)) (hop3 u it vals rows cols)

/-- The user rows and the item rows of a table. -/
def userRows (t : Vec F S150000x64 .f32) : Vec F S100000x64 .f32 :=
  extractStridedSlice S100000x64 ![0, 0] t slices_S150000x64_S100000x64_0_0
def itemRows (t : Vec F S150000x64 .f32) : Vec F S50000x64 .f32 :=
  extractStridedSlice S50000x64 ![100000, 0] t slices_S150000x64_S50000x64_100000_0

/-- Ids clipped into [0, hi]: min (hi, max (0, id)), signed. -/
def clipIds (hi : BitVec 32) (ids : Vec F S4096 .i32) : Vec F S4096 .i32 :=
  minsi (broadcastInDim S4096 ![] bcast_S_S4096 (constantI S_ 32 hi))
    (maxsi (broadcastInDim S4096 ![] bcast_S_S4096 (constantI S_ 32 0#32)) ids)

/-- Row r of the result is row ids[r] of the user table (the row taken modulo the table's height, so
    that the term is total). -/
def rowsOfUsers (tbl : Vec F S100000x64 .f32) (ids : Vec F S4096 .i32) : Vec F S4096x64 .f32 :=
  fun y => tbl (ValueIdx.ix2 (⟨(ids (ValueIdx.ix1 (y 0))).toNat % 100000, Nat.mod_lt _ (by decide)⟩ : Fin 100000) (y 1))

/-- Row r of the result is row ids[r] of the item table (modulo its height). -/
def rowsOfItems (tbl : Vec F S50000x64 .f32) (ids : Vec F S4096 .i32) : Vec F S4096x64 .f32 :=
  fun y => tbl (ValueIdx.ix2 (⟨(ids (ValueIdx.ix1 (y 0))).toNat % 50000, Nat.mod_lt _ (by decide)⟩ : Fin 50000) (y 1))

/-- The kernel's first result: the mean table's user rows at the clipped user ids. -/
def outUsers (u : Vec F S100000x64 .f32) (it : Vec F S50000x64 .f32) (vals : Vec F S2400000 .f32)
    (rows cols : Vec F S2400000 .i32) (uids : Vec F S4096 .i32) : Vec F S4096x64 .f32 :=
  rowsOfUsers (userRows (light u it vals rows cols)) (clipIds 99999#32 uids)

/-- The kernel's second result: the mean table's item rows at the clipped item ids. -/
def outItems (u : Vec F S100000x64 .f32) (it : Vec F S50000x64 .f32) (vals : Vec F S2400000 .f32)
    (rows cols : Vec F S2400000 .i32) (iids : Vec F S4096 .i32) : Vec F S4096x64 .f32 :=
  rowsOfItems (itemRows (light u it vals rows cols)) (clipIds 49999#32 iids)

end Cert.KernelIdeal.Hand

end
-- ==== Proof.Acc0.lean ====
import proofs.«412556_j37890201485521_3_alg».proof.Proof.Gen.KernelIdeal.Launch
import proofs.«412556_j37890201485521_3_alg».proof.Proof.Gen.KernelIdeal.Skeleton
import proofs.«412556_j37890201485521_3_alg».proof.Proof.Gen.KernelIdeal.Points
import Idealize.ShloMosaic.Lib.Pipeline.FrameBody
import Idealize.ShloMosaic.Lib.Pipeline.Value
import Idealize.ShloMosaic.Lib.Tactic

/-! # The first accumulate call: the elementwise sum of two tables

The two operands and the result are the (75000, 128) relabellings of (150000, 64) tables. The grid has 25
points; point `t` works on rows `3000 t … 3000 t + 2999` of each array, all 128 columns. Everything here is
stated at arbitrary contents `V` of the core's buffers when the call is entered.

First half: what each staging buffer holds around the body, the body's triple, the proof data of the call
and its body obligation. Second half: the result array after the last point is the elementwise sum of the
two operand arrays, and the operand arrays are unchanged. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## Blocks of the arrays -/

/-- Rows `3000 t … 3000 t + 2999` of window `w`'s array as the call finds it: the block the window is on at
    point `t`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

section InputBuffers

variable {c : Dev nD} (dat : Dat τ (Elt F) Unit ℕ (Pipeline.UD sig nD τ) ℕ cfg0 c)

/-- The first operand's staging buffer holds that operand's block whenever the body runs: the window is
    fetched afresh at every point and its blocks tile the array, so nothing of an earlier point survives. For
    any proof data over the entry contents whose body leaves the block where it found it. -/
theorem before0_0_of (hA : dat.A 0 = V c (Pipeline.arrRef spec0 0)) (hafter : ∀ t, dat.after 0 t = iblk0 V c 0 t)
    (t : Fin cfg0.N) (d) : dat.before 0 t d = iblk0 V c 0 t := by
  have hkeep : ∀ u : Fin cfg0.grid.N, (cfg0.win 0).cut (cfg0.grid.coords u) (dat.after 0 u) = dat.blockOf 0 u := by
    intro u; rw [hafter u]; unfold Dat.blockOf iblk0; rw [hA]; try rfl
  rw [dat.before_in_eq_fetched 0 rfl (fun _ => rfl) (fun _ _ _ => rfl) hkeep t d]
  unfold Dat.fetched Dat.blockOf iblk0; rw [hA]; try rfl

/-- The same for the second operand. -/
theorem before0_1_of (hA : dat.A 1 = V c (Pipeline.arrRef spec0 1)) (hafter : ∀ t, dat.after 1 t = iblk0 V c 1 t)
    (t : Fin cfg0.N) (d) : dat.before 1 t d = iblk0 V c 1 t := by
  have hkeep : ∀ u : Fin cfg0.grid.N, (cfg0.win 1).cut (cfg0.grid.coords u) (dat.after 1 u) = dat.blockOf 1 u := by
    intro u; rw [hafter u]; unfold Dat.blockOf iblk0; rw [hA]; try rfl
  rw [dat.before_in_eq_fetched 1 rfl (fun _ => rfl) (fun _ _ _ => rfl) hkeep t d]
  unfold Dat.fetched Dat.blockOf iblk0; rw [hA]; try rfl

end InputBuffers

/-! ## The body -/

/-- The one rectangle the body touches in each of its three buffers: all of the (3000, 128) block. -/
abbrev box0 : Rect S3000x128 := Rect.unit (s := S3000x128) ![0, 0] S3000x128.size inb_S3000x128_S3000x128_0_0

/-- What the body leaves in the result's staging buffer when the operand buffers hold `x0` and `x1`: its single
    store, of the sum of the two loaded blocks, over the whole block. -/
def out0_2 (x0 x1 : Vec F S3000x128 .f32) : Vec F S3000x128 .f32 :=
  View.canon [⟨box0, k0_pay1 (View.ld x0 box0) (View.ld x1 box0)⟩]

/-- That store reaches every element of the block. -/
theorem cover0_2 (p : Vec F S3000x128 .f32) (y : S3000x128.Idx) :
    ∃ pc ∈ ([⟨box0, p⟩] : List (View.Piece (Elt F) S3000x128 .f32)), y ∈ pc.1.set :=
  View.cover_of_tiled [⟨box0, p⟩] S3000x128.size (by rfl) y

set_option maxHeartbeats 1000000 in
/-- The body on three whole buffers, the operands' at `x0` and `x1` and the result's at anything: it returns
    with the operands' as they were and the result's at `out0_2 x0 x1`. -/
theorem sound_kernel0 (c : Dev nD) (E : Set ℕ) (i : grid0.Coords)
    (arg1 : Memref sig .tc .vmem S3000x128 .f32) (harg1 : arg1.IsWhole)
    (arg2 : Memref sig .tc .vmem S3000x128 .f32) (harg2 : arg2.IsWhole)
    (arg3 : Memref sig .tc .vmem S3000x128 .f32) (harg3 : arg3.IsWhole)
    (x0 x1 : Vec F S3000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__accum_kernel i arg1 harg1 arg2 harg2 arg3 harg3) K := by
  simp only [cc0__accum_kernel_eq_skeleton]; unfold cc0__accum_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _)

/-! ## The proof data of the call -/

/-- On core `c`: the three arrays as the call finds them; after the body at point `t` each operand's buffer
    still at the operand's block and the result's at the body's store of the two blocks; between points
    only the core's remaining scoped buffers and its generator register, which the body never reads; every
    array held whole; nothing owed to another core. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- What the body finds in each operand's buffer. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- The body as the call runs it at point `t`, from the three current buffers at what they then hold to the
    same buffers at what the proof data say it leaves; the invariant and the core's debts go through untouched. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- At every point of the grid. -/
theorem body_obligation0 (c : Dev nD) :
    BodyObligation (dat0 (F := F) V c) (defs₀ (F := F)) Variants.none () Set.univ := fun t => by
  rw [bigSep_W0, bigSep_W0]
  exact sound_body0 V c t

/-! ## The arrays after the last point -/

/-- An operand array is only ever read: after the call it is as the call found it. -/
theorem kept0 (c : Dev nD) (w : Fin cfg0.W) (hw : (cfg0.win w).isOut = false) :
    (dat0 V c).arrAt w cfg0.N = V c (Pipeline.arrRef spec0 w) :=
  ((dat0 V c).arrAt_in w hw _).trans (A_eq0 V c w)

theorem kept0_0 (c : Dev nD) : (dat0 V c).arrAt 0 cfg0.N = V c main_v14 := kept0 V c 0 rfl
theorem kept0_1 (c : Dev nD) : (dat0 V c).arrAt 1 cfg0.N = V c main_v15 := kept0 V c 1 rfl

/-- The body's payload is the elementwise sum of the two blocks it loaded: the two casts between equal shapes
    change nothing. -/
theorem pay0_eq (x0 x1 : Vec F S3000x128 .f32) : k0_pay1 x0 x1 = addf x0 x1 := by
  unfold k0_pay1
  simp only [shapeCast_self]

/-- The body's accesses start at the block's corner. -/
theorem corner0 : (![0, 0] : Fin 2 → Nat) = fun _ => 0 := funext fun a => by fin_cases a <;> rfl

/-- At point `t` each of the three windows is on block row `t`, block column 0, of its array. -/
theorem idx0 : ∀ t : Fin cfg0.N, win0_0.index t = ![t.val, 0] ∧ win0_1.index t = ![t.val, 0] ∧ win0_2.index t = ![t.val, 0] :=
  (by decide +kernel : ∀ t : Fin grid0.N,
    win0_0.index t = ![t.val, 0] ∧ win0_1.index t = ![t.val, 0] ∧ win0_2.index t = ![t.val, 0])

/-- What point `t` writes back to the result array is rows `3000 t … 3000 t + 2999` of the elementwise sum of
    the two operand arrays: the three windows sit on the same rows, so the sum of the operands' blocks is the block
    of the sum. -/
theorem flushed0_2 (c : Dev nD) (t : Fin cfg0.N) :
    (dat0 V c).flushed 2 t
      = ((cfg0.win 2).blk t).view.read (Elt F) (addf (s := S75000x128) (φ := .f32) (V c main_v14) (V c main_v15)) := by
  show (cfg0.win 2).cut (grid0.coords t) ((dat0 V c).after 2 t) = _
  rw [after0_2]
  unfold out0_2
  rw [View.canon_unit_zero corner0]
  simp only [View.ld_unit_zero (S := S3000x128) corner0]
  rw [pay0_eq]
  obtain ⟨h0, h1, h2⟩ := idx0 t
  funext j
  show FloatOps.addf (V c main_v14 (((cfg0.win 0).blk t).view.emb j)) (V c main_v15 (((cfg0.win 1).blk t).view.emb j))
    = FloatOps.addf (V c main_v14 (((cfg0.win 2).blk t).view.emb j)) (V c main_v15 (((cfg0.win 2).blk t).view.emb j))
  have e0 : ((cfg0.win 0).blk t).view.emb j = ((cfg0.win 2).blk t).view.emb j := by
    funext a; apply Fin.ext
    match a with
    | ⟨0, _⟩ =>
      show win0_0.index t (0 : Fin 2) * 3000 + 1 * (j 0).val = win0_2.index t (0 : Fin 2) * 3000 + 1 * (j 0).val
      rw [h0, h2]
    | ⟨1, _⟩ =>
      show win0_0.index t (1 : Fin 2) * 128 + 1 * (j 1).val = win0_2.index t (1 : Fin 2) * 128 + 1 * (j 1).val
      rw [h0, h2]
  have e1 : ((cfg0.win 1).blk t).view.emb j = ((cfg0.win 2).blk t).view.emb j := by
    funext a; apply Fin.ext
    match a with
    | ⟨0, _⟩ =>
      show win0_1.index t (0 : Fin 2) * 3000 + 1 * (j 0).val = win0_2.index t (0 : Fin 2) * 3000 + 1 * (j 0).val
      rw [h1, h2]
    | ⟨1, _⟩ =>
      show win0_1.index t (1 : Fin 2) * 128 + 1 * (j 1).val = win0_2.index t (1 : Fin 2) * 128 + 1 * (j 1).val
      rw [h1, h2]
  rw [e0, e1]

/-- An index of the result array is in point `t`'s block when, on each axis, it lies in the block's range. -/
theorem mem_blk0_2 (t : Fin cfg0.N) (i : S75000x128.Idx) :
    i ∈ ((cfg0.win 2).blk t).view.set
      ↔ ∀ a : Fin 2, win0_2.index t a * S3000x128.size a ≤ (i a).val
          ∧ (i a).val < win0_2.index t a * S3000x128.size a + S3000x128.size a := by
  show i ∈ ((View.whole main_v16).slice (win0_2.rect t)).set ↔ _
  rw [View.set_slice_whole, Rect.mem_set_unit]
  exact Iff.rfl

/-- The 25 blocks fill the result array: row `r` is in the block of point `r / 3000`. -/
theorem cover0 (i : S75000x128.Idx) :
    ∃ t : Fin cfg0.N, (cfg0.win 2).flush t = true ∧ i ∈ ((cfg0.win 2).blk t).view.set := by
  have hr : (i 0).val < 75000 := (i 0).isLt
  have hl : (i 1).val < 128 := (i 1).isLt
  have hN : cfg0.N = 25 := N_0
  let t : Fin cfg0.N := ⟨(i 0).val / 3000, by rw [hN]; omega⟩
  obtain ⟨-, -, h2⟩ := idx0 t
  have q0 : win0_2.index t (0 : Fin 2) = (i 0).val / 3000 := congrFun h2 0
  have q1 : win0_2.index t (1 : Fin 2) = 0 := congrFun h2 1
  refine ⟨t, flush0_2 t, (mem_blk0_2 t i).mpr fun a => ?_⟩
  match a with
  | ⟨0, _⟩ =>
    show win0_2.index t (0 : Fin 2) * 3000 ≤ (i 0).val ∧ (i 0).val < win0_2.index t (0 : Fin 2) * 3000 + 3000
    rw [q0]; omega
  | ⟨1, _⟩ =>
    show win0_2.index t (1 : Fin 2) * 128 ≤ (i 1).val ∧ (i 1).val < win0_2.index t (1 : Fin 2) * 128 + 128
    rw [q1]; omega

/-- THE VALUE OF THE CALL: after the last point the result array is the elementwise sum of the two operand
    arrays as the call found them. -/
theorem final0 (c : Dev nD) :
    (dat0 V c).arrAt 2 cfg0.N = addf (s := S75000x128) (φ := .f32) (V c main_v14) (V c main_v15) :=
  (dat0 V c).arrAt_eq_of_cover 2 _ (fun t _ => flushed0_2 V c t) cover0

end Cert.KernelIdeal.Hand
-- ==== Proof.Acc1.lean ====
import proofs.«412556_j37890201485521_3_alg».proof.Proof.Gen.KernelIdeal.Launch
import proofs.«412556_j37890201485521_3_alg».proof.Proof.Gen.KernelIdeal.Skeleton
import proofs.«412556_j37890201485521_3_alg».proof.Proof.Gen.KernelIdeal.Points
import Idealize.ShloMosaic.Lib.Pipeline.FrameBody
import Idealize.ShloMosaic.Lib.Pipeline.Value
import Idealize.ShloMosaic.Lib.Tactic

/-! # The second accumulate call: the elementwise sum of two tables

The two operands and the result are the (75000, 128) relabellings of (150000, 64) tables. The grid has 25
points; point `t` works on rows `3000 t … 3000 t + 2999` of each array, all 128 columns. Everything here is
stated at arbitrary contents `V` of the core's buffers when the call is entered.

First half: what each staging buffer holds around the body, the body's triple, the proof data of the call
and its body obligation. Second half: the result array after the last point is the elementwise sum of the
two operand arrays, and the operand arrays are unchanged. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## Blocks of the arrays -/

/-- Rows `3000 t … 3000 t + 2999` of window `w`'s array as the call finds it: the block the window is on at
    point `t`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

section InputBuffers

variable {c : Dev nD} (dat : Dat τ (Elt F) Unit ℕ (Pipeline.UD sig nD τ) ℕ cfg1 c)

/-- The first operand's staging buffer holds that operand's block whenever the body runs: the window is
    fetched afresh at every point and its blocks tile the array, so nothing of an earlier point survives. For
    any proof data over the entry contents whose body leaves the block where it found it. -/
theorem before1_0_of (hA : dat.A 0 = V c (Pipeline.arrRef spec1 0)) (hafter : ∀ t, dat.after 0 t = iblk1 V c 0 t)
    (t : Fin cfg1.N) (d) : dat.before 0 t d = iblk1 V c 0 t := by
  have hkeep : ∀ u : Fin cfg1.grid.N, (cfg1.win 0).cut (cfg1.grid.coords u) (dat.after 0 u) = dat.blockOf 0 u := by
    intro u; rw [hafter u]; unfold Dat.blockOf iblk1; rw [hA]; try rfl
  rw [dat.before_in_eq_fetched 0 rfl (fun _ => rfl) (fun _ _ _ => rfl) hkeep t d]
  unfold Dat.fetched Dat.blockOf iblk1; rw [hA]; try rfl

/-- The same for the second operand. -/
theorem before1_1_of (hA : dat.A 1 = V c (Pipeline.arrRef spec1 1)) (hafter : ∀ t, dat.after 1 t = iblk1 V c 1 t)
    (t : Fin cfg1.N) (d) : dat.before 1 t d = iblk1 V c 1 t := by
  have hkeep : ∀ u : Fin cfg1.grid.N, (cfg1.win 1).cut (cfg1.grid.coords u) (dat.after 1 u) = dat.blockOf 1 u := by
    intro u; rw [hafter u]; unfold Dat.blockOf iblk1; rw [hA]; try rfl
  rw [dat.before_in_eq_fetched 1 rfl (fun _ => rfl) (fun _ _ _ => rfl) hkeep t d]
  unfold Dat.fetched Dat.blockOf iblk1; rw [hA]; try rfl

end InputBuffers

/-! ## The body -/

/-- The one rectangle the body touches in each of its three buffers: all of the (3000, 128) block. -/
abbrev box1 : Rect S3000x128 := Rect.unit (s := S3000x128) ![0, 0] S3000x128.size inb_S3000x128_S3000x128_0_0

/-- What the body leaves in the result's staging buffer when the operand buffers hold `x0` and `x1`: its single
    store, of the sum of the two loaded blocks, over the whole block. -/
def out1_2 (x0 x1 : Vec F S3000x128 .f32) : Vec F S3000x128 .f32 :=
  View.canon [⟨box1, k1_pay1 (View.ld x0 box1) (View.ld x1 box1)⟩]

/-- That store reaches every element of the block. -/
theorem cover1_2 (p : Vec F S3000x128 .f32) (y : S3000x128.Idx) :
    ∃ pc ∈ ([⟨box1, p⟩] : List (View.Piece (Elt F) S3000x128 .f32)), y ∈ pc.1.set :=
  View.cover_of_tiled [⟨box1, p⟩] S3000x128.size (by rfl) y

set_option maxHeartbeats 1000000 in
/-- The body on three whole buffers, the operands' at `x0` and `x1` and the result's at anything: it returns
    with the operands' as they were and the result's at `out1_2 x0 x1`. -/
theorem sound_kernel1 (c : Dev nD) (E : Set ℕ) (i : grid1.Coords)
    (arg1 : Memref sig .tc .vmem S3000x128 .f32) (harg1 : arg1.IsWhole)
    (arg2 : Memref sig .tc .vmem S3000x128 .f32) (harg2 : arg2.IsWhole)
    (arg3 : Memref sig .tc .vmem S3000x128 .f32) (harg3 : arg3.IsWhole)
    (x0 x1 : Vec F S3000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__accum_kernel i arg1 harg1 arg2 harg2 arg3 harg3) K := by
  simp only [cc1__accum_kernel_eq_skeleton]; unfold cc1__accum_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_2 _)

/-! ## The proof data of the call -/

/-- On core `c`: the three arrays as the call finds them; after the body at point `t` each operand's buffer
    still at the operand's block and the result's at the body's store of the two blocks; between points
    only the core's remaining scoped buffers and its generator register, which the body never reads; every
    array held whole; nothing owed to another core. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- Its arrays are the entry contents. -/
theorem A_eq1 (c : Dev nD) (w : Fin cfg1.W) : (dat1 V c).A w = V c (Pipeline.arrRef spec1 w) := by
  dsimp only [dat1]

/-- What the body leaves, one window at a time. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- What the body finds in each operand's buffer. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- The body as the call runs it at point `t`, from the three current buffers at what they then hold to the
    same buffers at what the proof data say it leaves; the invariant and the core's debts go through untouched. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- At every point of the grid. -/
theorem body_obligation1 (c : Dev nD) :
    BodyObligation (dat1 (F := F) V c) (defs₀ (F := F)) Variants.none () Set.univ := fun t => by
  rw [bigSep_W1, bigSep_W1]
  exact sound_body1 V c t

/-! ## The arrays after the last point -/

/-- An operand array is only ever read: after the call it is as the call found it. -/
theorem kept1 (c : Dev nD) (w : Fin cfg1.W) (hw : (cfg1.win w).isOut = false) :
    (dat1 V c).arrAt w cfg1.N = V c (Pipeline.arrRef spec1 w) :=
  ((dat1 V c).arrAt_in w hw _).trans (A_eq1 V c w)

theorem kept1_0 (c : Dev nD) : (dat1 V c).arrAt 0 cfg1.N = V c main_v31 := kept1 V c 0 rfl
theorem kept1_1 (c : Dev nD) : (dat1 V c).arrAt 1 cfg1.N = V c main_v32 := kept1 V c 1 rfl

/-- The body's payload is the elementwise sum of the two blocks it loaded: the two casts between equal shapes
    change nothing. -/
theorem pay1_eq (x0 x1 : Vec F S3000x128 .f32) : k1_pay1 x0 x1 = addf x0 x1 := by
  unfold k1_pay1
  simp only [shapeCast_self]

/-- The body's accesses start at the block's corner. -/
theorem corner1 : (![0, 0] : Fin 2 → Nat) = fun _ => 0 := funext fun a => by fin_cases a <;> rfl

/-- At point `t` each of the three windows is on block row `t`, block column 0, of its array. -/
theorem idx1 : ∀ t : Fin cfg1.N, win1_0.index t = ![t.val, 0] ∧ win1_1.index t = ![t.val, 0] ∧ win1_2.index t = ![t.val, 0] :=
  (by decide +kernel : ∀ t : Fin grid1.N,
    win1_0.index t = ![t.val, 0] ∧ win1_1.index t = ![t.val, 0] ∧ win1_2.index t = ![t.val, 0])

/-- What point `t` writes back to the result array is rows `3000 t … 3000 t + 2999` of the elementwise sum of
    the two operand arrays: the three windows sit on the same rows, so the sum of the operands' blocks is the block
    of the sum. -/
theorem flushed1_2 (c : Dev nD) (t : Fin cfg1.N) :
    (dat1 V c).flushed 2 t
      = ((cfg1.win 2).blk t).view.read (Elt F) (addf (s := S75000x128) (φ := .f32) (V c main_v31) (V c main_v32)) := by
  show (cfg1.win 2).cut (grid1.coords t) ((dat1 V c).after 2 t) = _
  rw [after1_2]
  unfold out1_2
  rw [View.canon_unit_zero corner1]
  simp only [View.ld_unit_zero (S := S3000x128) corner1]
  rw [pay1_eq]
  obtain ⟨h0, h1, h2⟩ := idx1 t
  funext j
  show FloatOps.addf (V c main_v31 (((cfg1.win 0).blk t).view.emb j)) (V c main_v32 (((cfg1.win 1).blk t).view.emb j))
    = FloatOps.addf (V c main_v31 (((cfg1.win 2).blk t).view.emb j)) (V c main_v32 (((cfg1.win 2).blk t).view.emb j))
  have e0 : ((cfg1.win 0).blk t).view.emb j = ((cfg1.win 2).blk t).view.emb j := by
    funext a; apply Fin.ext
    match a with
    | ⟨0, _⟩ =>
      show win1_0.index t (0 : Fin 2) * 3000 + 1 * (j 0).val = win1_2.index t (0 : Fin 2) * 3000 + 1 * (j 0).val
      rw [h0, h2]
    | ⟨1, _⟩ =>
      show win1_0.index t (1 : Fin 2) * 128 + 1 * (j 1).val = win1_2.index t (1 : Fin 2) * 128 + 1 * (j 1).val
      rw [h0, h2]
  have e1 : ((cfg1.win 1).blk t).view.emb j = ((cfg1.win 2).blk t).view.emb j := by
    funext a; apply Fin.ext
    match a with
    | ⟨0, _⟩ =>
      show win1_1.index t (0 : Fin 2) * 3000 + 1 * (j 0).val = win1_2.index t (0 : Fin 2) * 3000 + 1 * (j 0).val
      rw [h1, h2]
    | ⟨1, _⟩ =>
      show win1_1.index t (1 : Fin 2) * 128 + 1 * (j 1).val = win1_2.index t (1 : Fin 2) * 128 + 1 * (j 1).val
      rw [h1, h2]
  rw [e0, e1]

/-- An index of the result array is in point `t`'s block when, on each axis, it lies in the block's range. -/
theorem mem_blk1_2 (t : Fin cfg1.N) (i : S75000x128.Idx) :
    i ∈ ((cfg1.win 2).blk t).view.set
      ↔ ∀ a : Fin 2, win1_2.index t a * S3000x128.size a ≤ (i a).val
          ∧ (i a).val < win1_2.index t a * S3000x128.size a + S3000x128.size a := by
  show i ∈ ((View.whole main_v33).slice (win1_2.rect t)).set ↔ _
  rw [View.set_slice_whole, Rect.mem_set_unit]
  exact Iff.rfl

/-- The 25 blocks fill the result array: row `r` is in the block of point `r / 3000`. -/
theorem cover1 (i : S75000x128.Idx) :
    ∃ t : Fin cfg1.N, (cfg1.win 2).flush t = true ∧ i ∈ ((cfg1.win 2).blk t).view.set := by
  have hr : (i 0).val < 75000 := (i 0).isLt
  have hl : (i 1).val < 128 := (i 1).isLt
  have hN : cfg1.N = 25 := N_1
  let t : Fin cfg1.N := ⟨(i 0).val / 3000, by rw [hN]; omega⟩
  obtain ⟨-, -, h2⟩ := idx1 t
  have q0 : win1_2.index t (0 : Fin 2) = (i 0).val / 3000 := congrFun h2 0
  have q1 : win1_2.index t (1 : Fin 2) = 0 := congrFun h2 1
  refine ⟨t, flush1_2 t, (mem_blk1_2 t i).mpr fun a => ?_⟩
  match a with
  | ⟨0, _⟩ =>
    show win1_2.index t (0 : Fin 2) * 3000 ≤ (i 0).val ∧ (i 0).val < win1_2.index t (0 : Fin 2) * 3000 + 3000
    rw [q0]; omega
  | ⟨1, _⟩ =>
    show win1_2.index t (1 : Fin 2) * 128 ≤ (i 1).val ∧ (i 1).val < win1_2.index t (1 : Fin 2) * 128 + 128
    rw [q1]; omega

/-- THE VALUE OF THE CALL: after the last point the result array is the elementwise sum of the two operand
    arrays as the call found them. -/
theorem final1 (c : Dev nD) :
    (dat1 V c).arrAt 2 cfg1.N = addf (s := S75000x128) (φ := .f32) (V c main_v31) (V c main_v32) :=
  (dat1 V c).arrAt_eq_of_cover 2 _ (fun t _ => flushed1_2 V c t) cover1

end Cert.KernelIdeal.Hand
-- ==== Proof.Acc2.lean ====
import proofs.«412556_j37890201485521_3_alg».proof.Proof.Gen.KernelIdeal.Launch
import proofs.«412556_j37890201485521_3_alg».proof.Proof.Gen.KernelIdeal.Skeleton
import proofs.«412556_j37890201485521_3_alg».proof.Proof.Gen.KernelIdeal.Points
import Idealize.ShloMosaic.Lib.Pipeline.FrameBody
import Idealize.ShloMosaic.Lib.Pipeline.Value
import Idealize.ShloMosaic.Lib.Tactic

/-! # The third accumulate call: a quarter of the elementwise sum of two tables

The two operands and the result are the (75000, 128) relabellings of (150000, 64) tables. The grid has 25
points; point `t` works on rows `3000 t … 3000 t + 2999` of each array, all 128 columns. Everything here is
stated at arbitrary contents `V` of the core's buffers when the call is entered.

First half: what each staging buffer holds around the body, the body's triple, the proof data of the call
and its body obligation. Second half: the result array after the last point is the elementwise sum of the
two operand arrays times the constant with bit pattern 0x3E800000 (one quarter), and the operand arrays are
unchanged. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## Blocks of the arrays -/

/-- Rows `3000 t … 3000 t + 2999` of window `w`'s array as the call finds it: the block the window is on at
    point `t`. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

section InputBuffers

variable {c : Dev nD} (dat : Dat τ (Elt F) Unit ℕ (Pipeline.UD sig nD τ) ℕ cfg2 c)

/-- The first operand's staging buffer holds that operand's block whenever the body runs: the window is
    fetched afresh at every point and its blocks tile the array, so nothing of an earlier point survives. For
    any proof data over the entry contents whose body leaves the block where it found it. -/
theorem before2_0_of (hA : dat.A 0 = V c (Pipeline.arrRef spec2 0)) (hafter : ∀ t, dat.after 0 t = iblk2 V c 0 t)
    (t : Fin cfg2.N) (d) : dat.before 0 t d = iblk2 V c 0 t := by
  have hkeep : ∀ u : Fin cfg2.grid.N, (cfg2.win 0).cut (cfg2.grid.coords u) (dat.after 0 u) = dat.blockOf 0 u := by
    intro u; rw [hafter u]; unfold Dat.blockOf iblk2; rw [hA]; try rfl
  rw [dat.before_in_eq_fetched 0 rfl (fun _ => rfl) (fun _ _ _ => rfl) hkeep t d]
  unfold Dat.fetched Dat.blockOf iblk2; rw [hA]; try rfl

/-- The same for the second operand. -/
theorem before2_1_of (hA : dat.A 1 = V c (Pipeline.arrRef spec2 1)) (hafter : ∀ t, dat.after 1 t = iblk2 V c 1 t)
    (t : Fin cfg2.N) (d) : dat.before 1 t d = iblk2 V c 1 t := by
  have hkeep : ∀ u : Fin cfg2.grid.N, (cfg2.win 1).cut (cfg2.grid.coords u) (dat.after 1 u) = dat.blockOf 1 u := by
    intro u; rw [hafter u]; unfold Dat.blockOf iblk2; rw [hA]; try rfl
  rw [dat.before_in_eq_fetched 1 rfl (fun _ => rfl) (fun _ _ _ => rfl) hkeep t d]
  unfold Dat.fetched Dat.blockOf iblk2; rw [hA]; try rfl

end InputBuffers

/-! ## The body -/

/-- The one rectangle the body touches in each of its three buffers: all of the (3000, 128) block. -/
abbrev box2 : Rect S3000x128 := Rect.unit (s := S3000x128) ![0, 0] S3000x128.size inb_S3000x128_S3000x128_0_0

/-- What the body leaves in the result's staging buffer when the operand buffers hold `x0` and `x1`: its single
    store, of the sum of the two loaded blocks times the constant, over the whole block. -/
def out2_2 (x0 x1 : Vec F S3000x128 .f32) : Vec F S3000x128 .f32 :=
  View.canon [⟨box2, k2_pay1 (View.ld x0 box2) (View.ld x1 box2)⟩]

/-- That store reaches every element of the block. -/
theorem cover2_2 (p : Vec F S3000x128 .f32) (y : S3000x128.Idx) :
    ∃ pc ∈ ([⟨box2, p⟩] : List (View.Piece (Elt F) S3000x128 .f32)), y ∈ pc.1.set :=
  View.cover_of_tiled [⟨box2, p⟩] S3000x128.size (by rfl) y

set_option maxHeartbeats 1000000 in
/-- The body on three whole buffers, the operands' at `x0` and `x1` and the result's at anything: it returns
    with the operands' as they were and the result's at `out2_2 x0 x1`. -/
theorem sound_kernel2 (c : Dev nD) (E : Set ℕ) (i : grid2.Coords)
    (arg1 : Memref sig .tc .vmem S3000x128 .f32) (harg1 : arg1.IsWhole)
    (arg2 : Memref sig .tc .vmem S3000x128 .f32) (harg2 : arg2.IsWhole)
    (arg3 : Memref sig .tc .vmem S3000x128 .f32) (harg3 : arg3.IsWhole)
    (x0 x1 : Vec F S3000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__accum_kernel i arg1 harg1 arg2 harg2 arg3 harg3) K := by
  simp only [cc2__accum_kernel_eq_skeleton]; unfold cc2__accum_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_2 _)

/-! ## The proof data of the call -/

/-- On core `c`: the three arrays as the call finds them; after the body at point `t` each operand's buffer
    still at the operand's block and the result's at the body's store of the two blocks; between points
    only the core's remaining scoped buffers and its generator register, which the body never reads; every
    array held whole; nothing owed to another core. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- Its arrays are the entry contents. -/
theorem A_eq2 (c : Dev nD) (w : Fin cfg2.W) : (dat2 V c).A w = V c (Pipeline.arrRef spec2 w) := by
  dsimp only [dat2]

/-- What the body leaves, one window at a time. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- What the body finds in each operand's buffer. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- The body as the call runs it at point `t`, from the three current buffers at what they then hold to the
    same buffers at what the proof data say it leaves; the invariant and the core's debts go through untouched. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t))) := by
  unfold bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- At every point of the grid. -/
theorem body_obligation2 (c : Dev nD) :
    BodyObligation (dat2 (F := F) V c) (defs₀ (F := F)) Variants.none () Set.univ := fun t => by
  rw [bigSep_W2, bigSep_W2]
  exact sound_body2 V c t

/-! ## The arrays after the last point -/

/-- An operand array is only ever read: after the call it is as the call found it. -/
theorem kept2 (c : Dev nD) (w : Fin cfg2.W) (hw : (cfg2.win w).isOut = false) :
    (dat2 V c).arrAt w cfg2.N = V c (Pipeline.arrRef spec2 w) :=
  ((dat2 V c).arrAt_in w hw _).trans (A_eq2 V c w)

theorem kept2_0 (c : Dev nD) : (dat2 V c).arrAt 0 cfg2.N = V c main_v48 := kept2 V c 0 rfl
theorem kept2_1 (c : Dev nD) : (dat2 V c).arrAt 1 cfg2.N = V c main_v49 := kept2 V c 1 rfl

/-- The body's payload is the elementwise sum of the two blocks it loaded, times the constant in every position:
    the two casts between equal shapes change nothing. -/
theorem pay2_eq (x0 x1 : Vec F S3000x128 .f32) :
    k2_pay1 x0 x1 = mulf (addf x0 x1) (broadcast S3000x128 (Scalar.ofBits .f32 0x3E800000#32)) := by
  unfold k2_pay1
  simp only [shapeCast_self]

/-- The body's accesses start at the block's corner. -/
theorem corner2 : (![0, 0] : Fin 2 → Nat) = fun _ => 0 := funext fun a => by fin_cases a <;> rfl

/-- At point `t` each of the three windows is on block row `t`, block column 0, of its array. -/
theorem idx2 : ∀ t : Fin cfg2.N, win2_0.index t = ![t.val, 0] ∧ win2_1.index t = ![t.val, 0] ∧ win2_2.index t = ![t.val, 0] :=
  (by decide +kernel : ∀ t : Fin grid2.N,
    win2_0.index t = ![t.val, 0] ∧ win2_1.index t = ![t.val, 0] ∧ win2_2.index t = ![t.val, 0])

/-- What point `t` writes back to the result array is rows `3000 t … 3000 t + 2999` of the elementwise sum of
    the two operand arrays times the constant: the three windows sit on the same rows, and the constant is the
    same in every position, so the body's result on the operands' blocks is the block of the whole-array result. -/
theorem flushed2_2 (c : Dev nD) (t : Fin cfg2.N) :
    (dat2 V c).flushed 2 t
      = ((cfg2.win 2).blk t).view.read (Elt F)
          (mulf (s := S75000x128) (φ := .f32) (addf (V c main_v48) (V c main_v49))
            (broadcast S75000x128 (Scalar.ofBits .f32 0x3E800000#32))) := by
  show (cfg2.win 2).cut (grid2.coords t) ((dat2 V c).after 2 t) = _
  rw [after2_2]
  unfold out2_2
  rw [View.canon_unit_zero corner2]
  simp only [View.ld_unit_zero (S := S3000x128) corner2]
  rw [pay2_eq]
  obtain ⟨h0, h1, h2⟩ := idx2 t
  funext j
  show FloatOps.mulf (FloatOps.addf (V c main_v48 (((cfg2.win 0).blk t).view.emb j)) (V c main_v49 (((cfg2.win 1).blk t).view.emb j)))
      (Scalar.ofBits .f32 0x3E800000#32)
    = FloatOps.mulf (FloatOps.addf (V c main_v48 (((cfg2.win 2).blk t).view.emb j)) (V c main_v49 (((cfg2.win 2).blk t).view.emb j)))
      (Scalar.ofBits .f32 0x3E800000#32)
  have e0 : ((cfg2.win 0).blk t).view.emb j = ((cfg2.win 2).blk t).view.emb j := by
    funext a; apply Fin.ext
    match a with
    | ⟨0, _⟩ =>
      show win2_0.index t (0 : Fin 2) * 3000 + 1 * (j 0).val = win2_2.index t (0 : Fin 2) * 3000 + 1 * (j 0).val
      rw [h0, h2]
    | ⟨1, _⟩ =>
      show win2_0.index t (1 : Fin 2) * 128 + 1 * (j 1).val = win2_2.index t (1 : Fin 2) * 128 + 1 * (j 1).val
      rw [h0, h2]
  have e1 : ((cfg2.win 1).blk t).view.emb j = ((cfg2.win 2).blk t).view.emb j := by
    funext a; apply Fin.ext
    match a with
    | ⟨0, _⟩ =>
      show win2_1.index t (0 : Fin 2) * 3000 + 1 * (j 0).val = win2_2.index t (0 : Fin 2) * 3000 + 1 * (j 0).val
      rw [h1, h2]
    | ⟨1, _⟩ =>
      show win2_1.index t (1 : Fin 2) * 128 + 1 * (j 1).val = win2_2.index t (1 : Fin 2) * 128 + 1 * (j 1).val
      rw [h1, h2]
  rw [e0, e1]

/-- An index of the result array is in point `t`'s block when, on each axis, it lies in the block's range. -/
theorem mem_blk2_2 (t : Fin cfg2.N) (i : S75000x128.Idx) :
    i ∈ ((cfg2.win 2).blk t).view.set
      ↔ ∀ a : Fin 2, win2_2.index t a * S3000x128.size a ≤ (i a).val
          ∧ (i a).val < win2_2.index t a * S3000x128.size a + S3000x128.size a := by
  show i ∈ ((View.whole main_v50).slice (win2_2.rect t)).set ↔ _
  rw [View.set_slice_whole, Rect.mem_set_unit]
  exact Iff.rfl

/-- The 25 blocks fill the result array: row `r` is in the block of point `r / 3000`. -/
theorem cover2 (i : S75000x128.Idx) :
    ∃ t : Fin cfg2.N, (cfg2.win 2).flush t = true ∧ i ∈ ((cfg2.win 2).blk t).view.set := by
  have hr : (i 0).val < 75000 := (i 0).isLt
  have hl : (i 1).val < 128 := (i 1).isLt
  have hN : cfg2.N = 25 := N_2
  let t : Fin cfg2.N := ⟨(i 0).val / 3000, by rw [hN]; omega⟩
  obtain ⟨-, -, h2⟩ := idx2 t
  have q0 : win2_2.index t (0 : Fin 2) = (i 0).val / 3000 := congrFun h2 0
  have q1 : win2_2.index t (1 : Fin 2) = 0 := congrFun h2 1
  refine ⟨t, flush2_2 t, (mem_blk2_2 t i).mpr fun a => ?_⟩
  match a with
  | ⟨0, _⟩ =>
    show win2_2.index t (0 : Fin 2) * 3000 ≤ (i 0).val ∧ (i 0).val < win2_2.index t (0 : Fin 2) * 3000 + 3000
    rw [q0]; omega
  | ⟨1, _⟩ =>
    show win2_2.index t (1 : Fin 2) * 128 ≤ (i 1).val ∧ (i 1).val < win2_2.index t (1 : Fin 2) * 128 + 128
    rw [q1]; omega

/-- THE VALUE OF THE CALL: after the last point the result array is the elementwise sum of the two operand
    arrays as the call found them, times the constant in every position. -/
theorem final2 (c : Dev nD) :
    (dat2 V c).arrAt 2 cfg2.N
      = mulf (s := S75000x128) (φ := .f32) (addf (V c main_v48) (V c main_v49))
          (broadcast S75000x128 (Scalar.ofBits .f32 0x3E800000#32)) :=
  (dat2 V c).arrAt_eq_of_cover 2 _ (fun t _ => flushed2_2 V c t) cover2

end Cert.KernelIdeal.Hand
-- ==== Proof.Gather3Defs.lean ====
/-
  The closed form of what one grid step of the row gather leaves in its output window.

  At grid point `i` the step copies, for each `y0 < 128`, the row of the HBM array `fh` whose number is entry
  `128 * i + y0` of the index table `tb` into row `y0` of the window. `gathered3 i tb fh` is that window as a function
  of its index: row `y0`, column `y1` holds `fh` at row `(tb (128 * i + y0)).toNat`, column `y1`. The table position is
  taken modulo 4096 and the row modulo 100000 so that the term is total; at a grid point the position is below 4096
  as it stands, and under the hypothesis that every table entry is below 100000 the row is the entry itself
  (`gathered3_row_of_lt`).
-/
import proofs.«412556_j37890201485521_3_alg».proof.KernelIdeal
import Idealize.ShloMosaic.Lib.ValueIdx

noncomputable section

namespace Cert.KernelIdeal.Hand

open Idealize.ShloMosaic Idealize.ShloMosaic.ValueIdx

variable {F : FTy → Type} [FloatOps F]

/-- The table position grid point `i` reads for window row `y0`: `128 * i + y0` (modulo the table's length). -/
def gathered3_pos (i : grid3.Coords) (y0 : Fin 128) : Fin 4096 :=
  ⟨(128 * (i 0).val + y0.val) % 4096, Nat.mod_lt _ (by norm_num)⟩

/-- The row of the HBM array a table entry names (modulo the array's row count). -/
def gathered3_row (v : BitVec 32) : Fin 100000 :=
  ⟨v.toNat % 100000, Nat.mod_lt _ (by norm_num)⟩

/-- What grid point `i` leaves in the output window: row `y0` is row `tb (128 * i + y0)` of `fh`. -/
def gathered3 (i : grid3.Coords) (tb : Vec F S4096 .i32) (fh : Vec F S100000x64 .f32) : Vec F S128x64 .f32 :=
  fun y => fh (ix2 (n0 := 100000) (n1 := 64) (gathered3_row (tb (ix1 (n := 4096) (gathered3_pos i (y 0))))) (y 1))

/-- At a grid point the table position is `128 * i + y0` itself. -/
theorem gathered3_pos_val (i : grid3.Coords) (y0 : Fin 128) : (gathered3_pos i y0).val = 128 * (i 0).val + y0.val := by
  have hi : (i 0).val < 32 := (i 0).isLt
  have hy : y0.val < 128 := y0.isLt
  show (128 * (i 0).val + y0.val) % 4096 = _
  exact Nat.mod_eq_of_lt (by omega)

/-- A table entry below the row count names its own row. -/
theorem gathered3_row_of_lt (v : BitVec 32) (h : v.toNat < 100000) : (gathered3_row v).val = v.toNat :=
  Nat.mod_eq_of_lt h

end Cert.KernelIdeal.Hand
-- ==== Proof.Dat3.lean ====
/-
  The row gather over the clipped ids: the proof data of its pipeline.

  The region has one window, the output array (4096 rows of 64), written back block by block: grid point `i` of 32
  writes rows `128 i … 128 i + 127`. The body reads two operands the pipeline does not stage: the table of ids (4096
  words of scalar memory, prefetched) and the array of rows (100000 rows of 64, left in HBM), one row per window row
  by a transfer of its own, each on its own cell of 128. Between points nothing of the body's is in flight, so the
  invariant is the same at every point: the scratch no window stages, the 128 own cells at zero, the array of rows
  whole at its entry contents, the table whole at the admissible contents. After point `t` the window's buffer holds
  the gathered block of that point, as a closed term of the two operands' contents.
-/
import proofs.«412556_j37890201485521_3_alg».proof.Proof.Gen.KernelIdeal.Launch
import proofs.«412556_j37890201485521_3_alg».proof.Proof.Gather3Defs
import Idealize.ShloMosaic.Lib.Pipeline.Frame
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's own cells -/

/-- The gather's own transfer cells: cell `20 + j` of the pool for window row `j`, 128 of them. -/
abbrev cellAt3 : Fin 128 → SemLoc sig := fun j => SemLoc.dma (cc3_scratch0.ix (ix1 (n := 128) j))

/-- They are scoped, pairwise distinct, and none is a staging cell of the window (those are cells 18 and 19). -/
theorem ownSemFacts3 : Pipeline.OwnSemFacts spec3 cellAt3 := by decide

/-! ## The proof data, at entry contents `V` and admissible table contents `a3` -/

variable (V : (c : Dev nD) → (b : Ref sig .tc) → Buf (Elt F) ((c : Thread nD τ).loc b))
variable (a3 : (pcfg3 (F := F)).Adm)

/-- The invariant between points: the scoped buffers no window stages, the own cells at zero, the array of rows whole
    at its entry contents, the table of ids whole at the admissible contents. -/
def Φ3 (c : Dev nD) : sProp 𝕄 :=
  iprop(Pipeline.scopedRest (Ix := Unit) (Name := ℕ) (U := Pipeline.UD sig nD τ) (Lvl := ℕ) (Val := Elt F) spec3 c
    ∗ Pipeline.ownSems0 (Ix := Unit) (Name := ℕ) (U := Pipeline.UD sig nD τ) (Lvl := ℕ) (Val := Elt F) (τ := τ) cellAt3 c
    ∗ (((c : Thread nD τ).loc main_v52) ↦{fullShare} V c main_v52)
    ∗ Pipeline.prefHeld (Ix := Unit) (Name := ℕ) (U := Pipeline.UD sig nD τ) (Lvl := ℕ) pre3 c (fun _ => fullShare) a3.1)

/-- The proof data on core `c`: the output array as the region finds it; after point `t` the window's buffer at the
    gathered block of that point; the invariant; full shares; nothing owed. -/
def dat3 (c : Dev nD) : Dat τ (Elt F) Unit ℕ (Pipeline.UD sig nD τ) ℕ (cfg3 a3) c where
  A w := V c (Pipeline.arrRef spec3 w)
  after w t := match w with
    | ⟨0, _⟩ => gathered3 ((cfg3 a3).grid.coords t) (V c main_v54) (V c main_v52)
  Φ _ := Φ3 V a3 c
  q _ := fullShare
  owed _ := 0

/-! ## Its projections -/

theorem A3 (c : Dev nD) (w : Fin (cfg3 a3).W) : (dat3 V a3 c).A w = V c (Pipeline.arrRef spec3 w) := by
  dsimp only [dat3]

theorem after3 (c : Dev nD) (t : Fin (cfg3 a3).N) :
    (dat3 V a3 c).after 0 t = gathered3 ((cfg3 a3).grid.coords t) (V c main_v54) (V c main_v52) := by
  dsimp only [dat3]; rfl

theorem Φ3_at (c : Dev nD) (t : Fin ((cfg3 a3).N + 1)) : (dat3 V a3 c).Φ t = Φ3 V a3 c := rfl

theorem q3 (c : Dev nD) (w : Fin (cfg3 a3).W) : (dat3 V a3 c).q w = fullShare := rfl

theorem owed3 (c : Dev nD) (t : Fin ((cfg3 a3).N + 1)) : (dat3 V a3 c).owed t = 0 := rfl

/-- The one table, held whole: the buffer of ids at the admissible contents. -/
theorem prefHeld3_eq (c : Dev nD) :
    (Pipeline.prefHeld (Ix := Unit) (Name := ℕ) (U := Pipeline.UD sig nD τ) (Lvl := ℕ) pre3 c (fun _ => fullShare) a3.1 : sProp 𝕄)
      = iprop(((c : Thread nD τ).loc main_v54) ↦{fullShare} a3.1 0) := by
  unfold Pipeline.prefHeld
  rw [show (Finset.univ : Finset (Fin pre3.K)) = {(0 : Fin 1)} from rfl, bigSep_singleton]
  rfl

/-! ## What the body must do at a point -/

/-- The body's specification at the region's contents: on any whole window buffer, holding the table of ids and the
    array of rows whole, the 128 own cells at zero and the core's dues at nothing, the gather at grid point `i` runs to
    its return with the window's buffer at the gathered block, the table, the array and the cells as they were, and
    the core still owing nothing. -/
def Body3 (c : Dev nD) : Prop :=
  ∀ (i : grid3.Coords) (arg3 : Memref sig .tc .vmem S128x64 .f32) (harg3 : arg3.IsWhole) (W : Waits sig Unit) (K : PUnit → sProp 𝕄),
    iprop((∃ d, owns (c : Thread nD τ) arg3 fullShare d)
        ∗ (((c : Thread nD τ).loc main_v54) ↦{fullShare} a3.1 0)
        ∗ (((c : Thread nD τ).loc main_v52) ↦{fullShare} V c main_v52)
        ∗ Pipeline.ownSems0 (Ix := Unit) (Name := ℕ) (U := Pipeline.UD sig nD τ) (Lvl := ℕ) (Val := Elt F) (τ := τ) cellAt3 c
        ∗ owes (c : Thread nD τ) 0 W
        ∗ (iprop(owns (c : Thread nD τ) arg3 fullShare (gathered3 i (a3.1 0) (V c main_v52))
            ∗ (((c : Thread nD τ).loc main_v54) ↦{fullShare} a3.1 0)
            ∗ (((c : Thread nD τ).loc main_v52) ↦{fullShare} V c main_v52)
            ∗ Pipeline.ownSems0 (Ix := Unit) (Name := ℕ) (U := Pipeline.UD sig nD τ) (Lvl := ℕ) (Val := Elt F) (τ := τ) cellAt3 c
            ∗ (∃ W', owes (c : Thread nD τ) 0 W')) -∗ K ⟨⟩))
      ⊢ wp frame (wpE (defs₀ (F := F)) Variants.none c none) Set.univ
          (cc3__gather_kernel i (Memref.whole main_v54) (Memref.isWhole_whole _) (Memref.whole main_v52) (Memref.isWhole_whole _) arg3 harg3 cc3_scratch0) K

end Cert.KernelIdeal.Hand

end
-- ==== Proof.Gather4Defs.lean ====
/-
  The closed form of what one grid step of the row gather leaves in its output window.

  At grid point `i` the step copies, for each `y0 < 128`, the row of the HBM array `fh` whose number is entry
  `128 * i + y0` of the index table `tb` into row `y0` of the window. `gathered4 i tb fh` is that window as a function
  of its index: row `y0`, column `y1` holds `fh` at row `(tb (128 * i + y0)).toNat`, column `y1`. The table position is
  taken modulo 4096 and the row modulo 50000 so that the term is total; at a grid point the position is below 4096
  as it stands, and under the hypothesis that every table entry is below 50000 the row is the entry itself
  (`gathered4_row_of_lt`).
-/
import proofs.«412556_j37890201485521_3_alg».proof.KernelIdeal
import Idealize.ShloMosaic.Lib.ValueIdx

noncomputable section

namespace Cert.KernelIdeal.Hand

open Idealize.ShloMosaic Idealize.ShloMosaic.ValueIdx

variable {F : FTy → Type} [FloatOps F]

/-- The table position grid point `i` reads for window row `y0`: `128 * i + y0` (modulo the table's length). -/
def gathered4_pos (i : grid4.Coords) (y0 : Fin 128) : Fin 4096 :=
  ⟨(128 * (i 0).val + y0.val) % 4096, Nat.mod_lt _ (by norm_num)⟩

/-- The row of the HBM array a table entry names (modulo the array's row count). -/
def gathered4_row (v : BitVec 32) : Fin 50000 :=
  ⟨v.toNat % 50000, Nat.mod_lt _ (by norm_num)⟩

/-- What grid point `i` leaves in the output window: row `y0` is row `tb (128 * i + y0)` of `fh`. -/
def gathered4 (i : grid4.Coords) (tb : Vec F S4096 .i32) (fh : Vec F S50000x64 .f32) : Vec F S128x64 .f32 :=
  fun y => fh (ix2 (n0 := 50000) (n1 := 64) (gathered4_row (tb (ix1 (n := 4096) (gathered4_pos i (y 0))))) (y 1))

/-- At a grid point the table position is `128 * i + y0` itself. -/
theorem gathered4_pos_val (i : grid4.Coords) (y0 : Fin 128) : (gathered4_pos i y0).val = 128 * (i 0).val + y0.val := by
  have hi : (i 0).val < 32 := (i 0).isLt
  have hy : y0.val < 128 := y0.isLt
  show (128 * (i 0).val + y0.val) % 4096 = _
  exact Nat.mod_eq_of_lt (by omega)

/-- A table entry below the row count names its own row. -/
theorem gathered4_row_of_lt (v : BitVec 32) (h : v.toNat < 50000) : (gathered4_row v).val = v.toNat :=
  Nat.mod_eq_of_lt h

end Cert.KernelIdeal.Hand
-- ==== Proof.Dat4.lean ====
/-
  The row gather over the clipped ids: the proof data of its pipeline.

  The region has one window, the output array (4096 rows of 64), written back block by block: grid point `i` of 32
  writes rows `128 i … 128 i + 127`. The body reads two operands the pipeline does not stage: the table of ids (4096
  words of scalar memory, prefetched) and the array of rows (50000 rows of 64, left in HBM), one row per window row
  by a transfer of its own, each on its own cell of 128. Between points nothing of the body's is in flight, so the
  invariant is the same at every point: the scratch no window stages, the 128 own cells at zero, the array of rows
  whole at its entry contents, the table whole at the admissible contents. After point `t` the window's buffer holds
  the gathered block of that point, as a closed term of the two operands' contents.
-/
import proofs.«412556_j37890201485521_3_alg».proof.Proof.Gen.KernelIdeal.Launch
import proofs.«412556_j37890201485521_3_alg».proof.Proof.Gather4Defs
import Idealize.ShloMosaic.Lib.Pipeline.Frame
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's own cells -/

/-- The gather's own transfer cells: cell `20 + j` of the pool for window row `j`, 128 of them. -/
abbrev cellAt4 : Fin 128 → SemLoc sig := fun j => SemLoc.dma (cc4_scratch0.ix (ix1 (n := 128) j))

/-- They are scoped, pairwise distinct, and none is a staging cell of the window (those are cells 18 and 19). -/
theorem ownSemFacts4 : Pipeline.OwnSemFacts spec4 cellAt4 := by decide

/-! ## The proof data, at entry contents `V` and admissible table contents `a4` -/

variable (V : (c : Dev nD) → (b : Ref sig .tc) → Buf (Elt F) ((c : Thread nD τ).loc b))
variable (a4 : (pcfg4 (F := F)).Adm)

/-- The invariant between points: the scoped buffers no window stages, the own cells at zero, the array of rows whole
    at its entry contents, the table of ids whole at the admissible contents. -/
def Φ4 (c : Dev nD) : sProp 𝕄 :=
  iprop(Pipeline.scopedRest (Ix := Unit) (Name := ℕ) (U := Pipeline.UD sig nD τ) (Lvl := ℕ) (Val := Elt F) spec4 c
    ∗ Pipeline.ownSems0 (Ix := Unit) (Name := ℕ) (U := Pipeline.UD sig nD τ) (Lvl := ℕ) (Val := Elt F) (τ := τ) cellAt4 c
    ∗ (((c : Thread nD τ).loc main_v53) ↦{fullShare} V c main_v53)
    ∗ Pipeline.prefHeld (Ix := Unit) (Name := ℕ) (U := Pipeline.UD sig nD τ) (Lvl := ℕ) pre4 c (fun _ => fullShare) a4.1)

/-- The proof data on core `c`: the output array as the region finds it; after point `t` the window's buffer at the
    gathered block of that point; the invariant; full shares; nothing owed. -/
def dat4 (c : Dev nD) : Dat τ (Elt F) Unit ℕ (Pipeline.UD sig nD τ) ℕ (cfg4 a4) c where
  A w := V c (Pipeline.arrRef spec4 w)
  after w t := match w with
    | ⟨0, _⟩ => gathered4 ((cfg4 a4).grid.coords t) (V c main_v56) (V c main_v53)
  Φ _ := Φ4 V a4 c
  q _ := fullShare
  owed _ := 0

/-! ## Its projections -/

theorem A4 (c : Dev nD) (w : Fin (cfg4 a4).W) : (dat4 V a4 c).A w = V c (Pipeline.arrRef spec4 w) := by
  dsimp only [dat4]

theorem after4 (c : Dev nD) (t : Fin (cfg4 a4).N) :
    (dat4 V a4 c).after 0 t = gathered4 ((cfg4 a4).grid.coords t) (V c main_v56) (V c main_v53) := by
  dsimp only [dat4]; rfl

theorem Φ4_at (c : Dev nD) (t : Fin ((cfg4 a4).N + 1)) : (dat4 V a4 c).Φ t = Φ4 V a4 c := rfl

theorem q4 (c : Dev nD) (w : Fin (cfg4 a4).W) : (dat4 V a4 c).q w = fullShare := rfl

theorem owed4 (c : Dev nD) (t : Fin ((cfg4 a4).N + 1)) : (dat4 V a4 c).owed t = 0 := rfl

/-- The one table, held whole: the buffer of ids at the admissible contents. -/
theorem prefHeld4_eq (c : Dev nD) :
    (Pipeline.prefHeld (Ix := Unit) (Name := ℕ) (U := Pipeline.UD sig nD τ) (Lvl := ℕ) pre4 c (fun _ => fullShare) a4.1 : sProp 𝕄)
      = iprop(((c : Thread nD τ).loc main_v56) ↦{fullShare} a4.1 0) := by
  unfold Pipeline.prefHeld
  rw [show (Finset.univ : Finset (Fin pre4.K)) = {(0 : Fin 1)} from rfl, bigSep_singleton]
  rfl

/-! ## What the body must do at a point -/

/-- The body's specification at the region's contents: on any whole window buffer, holding the table of ids and the
    array of rows whole, the 128 own cells at zero and the core's dues at nothing, the gather at grid point `i` runs to
    its return with the window's buffer at the gathered block, the table, the array and the cells as they were, and
    the core still owing nothing. -/
def Body4 (c : Dev nD) : Prop :=
  ∀ (i : grid4.Coords) (arg3 : Memref sig .tc .vmem S128x64 .f32) (harg3 : arg3.IsWhole) (W : Waits sig Unit) (K : PUnit → sProp 𝕄),
    iprop((∃ d, owns (c : Thread nD τ) arg3 fullShare d)
        ∗ (((c : Thread nD τ).loc main_v56) ↦{fullShare} a4.1 0)
        ∗ (((c : Thread nD τ).loc main_v53) ↦{fullShare} V c main_v53)
        ∗ Pipeline.ownSems0 (Ix := Unit) (Name := ℕ) (U := Pipeline.UD sig nD τ) (Lvl := ℕ) (Val := Elt F) (τ := τ) cellAt4 c
        ∗ owes (c : Thread nD τ) 0 W
        ∗ (iprop(owns (c : Thread nD τ) arg3 fullShare (gathered4 i (a4.1 0) (V c main_v53))
            ∗ (((c : Thread nD τ).loc main_v56) ↦{fullShare} a4.1 0)
            ∗ (((c : Thread nD τ).loc main_v53) ↦{fullShare} V c main_v53)
            ∗ Pipeline.ownSems0 (Ix := Unit) (Name := ℕ) (U := Pipeline.UD sig nD τ) (Lvl := ℕ) (Val := Elt F) (τ := τ) cellAt4 c
            ∗ (∃ W', owes (c : Thread nD τ) 0 W')) -∗ K ⟨⟩))
      ⊢ wp frame (wpE (defs₀ (F := F)) Variants.none c none) Set.univ
          (cc4__gather_kernel i (Memref.whole main_v56) (Memref.isWhole_whole _) (Memref.whole main_v53) (Memref.isWhole_whole _) arg3 harg3 cc4_scratch0) K

end Cert.KernelIdeal.Hand

end
-- ==== Proof.Fold.lean ====
/-
  The contents of core c's buffers at every boundary of @main, as one chain of definitions from the launch memory:
  after a stretch of host operations the stretch applied; after one of the three accumulating calls its output array
  replaced by what the call's write-backs leave; after a gathering call its result array likewise (the table operand
  it reads in place is put back as it was). From the chain: the contents the regions leave (`outs`), the admissible
  contents of the two prefetched tables, and every call's proof data at its own entry contents.
-/
import proofs.«412556_j37890201485521_3_alg».proof.Proof.Gen.KernelIdeal.Regions
import proofs.«412556_j37890201485521_3_alg».proof.Proof.Acc0
import proofs.«412556_j37890201485521_3_alg».proof.Proof.Acc1
import proofs.«412556_j37890201485521_3_alg».proof.Proof.Acc2
import proofs.«412556_j37890201485521_3_alg».proof.Proof.Dat3
import proofs.«412556_j37890201485521_3_alg».proof.Proof.Dat4

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

/-- No core owes another anything: no level is assigned. -/
abbrev noLevels : GSem nD τ sig → Finset Unit := fun _ => ∅
abbrev noLevel : GSem nD τ sig → Unit → ℕ := fun _ _ => 0
/-- What rides beside the buffers through every segment: the core's generator register at some state and its dues,
    at nothing. -/
abbrev riding (c : Dev nD) : sProp 𝕄 :=
  iprop((∃ r, prngReg c r) ∗ ∃ W, owes (c : Thread nD τ) (0 : CellTallies nD τ sig Unit) W)

variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) := fun c b => W c b

abbrev U1 : Dev nD → Valuation τ sig (Elt F) := fun c => Gen.V1 m c
abbrev o16 (c : Dev nD) := (dat0 (atRefs (U1 m)) c).arrAt 2 cfg0.N
abbrev U2 : Dev nD → Valuation τ sig (Elt F) := fun c => Function.update (U1 m c) main_v16 (o16 m c)
abbrev U3 : Dev nD → Valuation τ sig (Elt F) := fun c => StableHlo.after hostOps1 (U2 m c)
abbrev o33 (c : Dev nD) := (dat1 (atRefs (U3 m)) c).arrAt 2 cfg1.N
abbrev U4 : Dev nD → Valuation τ sig (Elt F) := fun c => Function.update (U3 m c) main_v33 (o33 m c)
abbrev U5 : Dev nD → Valuation τ sig (Elt F) := fun c => StableHlo.after hostOps2 (U4 m c)
abbrev o50 (c : Dev nD) := (dat2 (atRefs (U5 m)) c).arrAt 2 cfg2.N
abbrev U6 : Dev nD → Valuation τ sig (Elt F) := fun c => Function.update (U5 m c) main_v50 (o50 m c)
abbrev U7 : Dev nD → Valuation τ sig (Elt F) := fun c => StableHlo.after hostOps3 (U6 m c)
abbrev U8 : Dev nD → Valuation τ sig (Elt F) := fun c => StableHlo.after hostOps3_1 (U7 m c)

/-- The admissible contents of call 3's prefetched table: the clipped user ids as the call finds them. -/
def a3 : (pcfg3 (F := F)).Adm := ⟨fun k => U8 m 0 (pre3.ref k), trivial⟩
theorem ha3 (c : Dev nD) (k) : atRefs (U8 m) c (pre3.ref k) = (a3 m).1 k := by
  obtain rfl : c = 0 := Subsingleton.elim _ _
  rfl
abbrev o55 (c : Dev nD) := (dat3 (atRefs (U8 m)) (a3 m) c).arrAt 0 (cfg3 (a3 m)).N
abbrev U9 : Dev nD → Valuation τ sig (Elt F) := fun c =>
  Function.update (Function.update (U8 m c) main_v55 (o55 m c)) main_v52 (U8 m c main_v52)
abbrev U10 : Dev nD → Valuation τ sig (Elt F) := fun c => StableHlo.after hostOps4 (U9 m c)
abbrev U11 : Dev nD → Valuation τ sig (Elt F) := fun c => StableHlo.after hostOps4_1 (U10 m c)
/-- The admissible contents of call 4's prefetched table: the clipped item ids as the call finds them. -/
def a4 : (pcfg4 (F := F)).Adm := ⟨fun k => U11 m 0 (pre4.ref k), trivial⟩
theorem ha4 (c : Dev nD) (k) : atRefs (U11 m) c (pre4.ref k) = (a4 m).1 k := by
  obtain rfl : c = 0 := Subsingleton.elim _ _
  rfl
abbrev o57 (c : Dev nD) := (dat4 (atRefs (U11 m)) (a4 m) c).arrAt 0 (cfg4 (a4 m)).N
abbrev U12 : Dev nD → Valuation τ sig (Elt F) := fun c =>
  Function.update (Function.update (U11 m c) main_v57 (o57 m c)) main_v53 (U11 m c main_v53)

/-- What the regions leave, read off the chain at the boundary after each. -/
def outs : Gen.Outs (F := F) := fun j r c =>
  match j with
  | 2 => U2 m c r
  | 4 => U4 m c r
  | 6 => U6 m c r
  | 9 => U9 m c r
  | 12 => U12 m c r
  | _ => U1 m c r

/-- The tables' admissible contents, call by call (the first three calls have no table). -/
def adm : (p : Fin 5) → (pcfgs (F := F) p).Adm
  | ⟨0, _⟩ => cfg0.toPCfg_adm
  | ⟨1, _⟩ => cfg1.toPCfg_adm
  | ⟨2, _⟩ => cfg2.toPCfg_adm
  | ⟨3, _⟩ => a3 m
  | ⟨4, _⟩ => a4 m

/-- Every call's proof data at its own entry contents. -/
def pdats : (p : Fin 5) → (c : Dev nD) → Dat τ (Elt F) Unit ℕ (Pipeline.UD sig nD τ) ℕ (Pipeline.pin (pcfgs (F := F)) (adm m) p) c
  | ⟨0, _⟩ => fun c => dat0 (atRefs (U1 m)) c
  | ⟨1, _⟩ => fun c => dat1 (atRefs (U3 m)) c
  | ⟨2, _⟩ => fun c => dat2 (atRefs (U5 m)) c
  | ⟨3, _⟩ => fun c => dat3 (atRefs (U8 m)) (a3 m) c
  | ⟨4, _⟩ => fun c => dat4 (atRefs (U11 m)) (a4 m) c

theorem outs_16 (c : Dev nD) : outs m 2 main_v16 c = o16 m c := by
  show U2 m c main_v16 = _
  exact Function.update_self _ _ _
theorem outs_33 (c : Dev nD) : outs m 4 main_v33 c = o33 m c := by
  show U4 m c main_v33 = _
  exact Function.update_self _ _ _
theorem outs_50 (c : Dev nD) : outs m 6 main_v50 c = o50 m c := by
  show U6 m c main_v50 = _
  exact Function.update_self _ _ _
theorem outs_52 (c : Dev nD) : outs m 9 main_v52 c = U8 m c main_v52 := by
  show U9 m c main_v52 = _
  exact Function.update_self _ _ _
theorem outs_55 (c : Dev nD) : outs m 9 main_v55 c = o55 m c := by
  show U9 m c main_v55 = _
  exact (Function.update_of_ne (StableHlo.devRef_ne_of_ne (by decide) : (Proc.devRef .tc main_v55 : DevRef τ sig) ≠ Proc.devRef .tc main_v52) _ _).trans (Function.update_self _ _ _)
theorem outs_53 (c : Dev nD) : outs m 12 main_v53 c = U11 m c main_v53 := by
  show U12 m c main_v53 = _
  exact Function.update_self _ _ _
theorem outs_57 (c : Dev nD) : outs m 12 main_v57 c = o57 m c := by
  show U12 m c main_v57 = _
  exact (Function.update_of_ne (StableHlo.devRef_ne_of_ne (by decide) : (Proc.devRef .tc main_v57 : DevRef τ sig) ≠ Proc.devRef .tc main_v53) _ _).trans (Function.update_self _ _ _)

/-- The generated valuations at these `outs` are the chain. -/
theorem V2_eq (c : Dev nD) : Gen.V2 m (outs m) c = U2 m c := by
  unfold Gen.V2; rw [outs_16]
theorem V3_eq (c : Dev nD) : Gen.V3 m (outs m) c = U3 m c := by
  unfold Gen.V3; rw [V2_eq]
theorem V4_eq (c : Dev nD) : Gen.V4 m (outs m) c = U4 m c := by
  unfold Gen.V4; rw [outs_33, V3_eq]
theorem V5_eq (c : Dev nD) : Gen.V5 m (outs m) c = U5 m c := by
  unfold Gen.V5; rw [V4_eq]
theorem V6_eq (c : Dev nD) : Gen.V6 m (outs m) c = U6 m c := by
  unfold Gen.V6; rw [outs_50, V5_eq]
theorem V8_eq (c : Dev nD) : Gen.V8 m (outs m) c = U8 m c := by
  unfold Gen.V8 Gen.V7; rw [V6_eq]
theorem V9_eq (c : Dev nD) : Gen.V9 m (outs m) c = U9 m c := by
  unfold Gen.V9; rw [outs_55, outs_52, V8_eq]
theorem V11_eq (c : Dev nD) : Gen.V11 m (outs m) c = U11 m c := by
  unfold Gen.V11 Gen.V10; rw [V9_eq]
theorem V12_eq (c : Dev nD) : Gen.V12 m (outs m) c = U12 m c := by
  unfold Gen.V12; rw [outs_57, outs_53, V11_eq]

end Cert.KernelIdeal.Hand

end
-- ==== Proof.FoldEq.lean ====
/-
  The chain of boundary contents against the generated valuations, buffer by buffer: what a call finds in a buffer
  when it is entered, and what it leaves in its output array.
-/
import proofs.«412556_j37890201485521_3_alg».proof.Proof.Fold

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

theorem entry1 (c : Dev nD) (r : Ref sig .tc) : Gen.V1 m c r = U1 m c r := rfl
theorem entry3 (c : Dev nD) (r : Ref sig .tc) : Gen.V3 m (outs m) c r = U3 m c r := congrFun (V3_eq m c) _
theorem entry5 (c : Dev nD) (r : Ref sig .tc) : Gen.V5 m (outs m) c r = U5 m c r := congrFun (V5_eq m c) _
theorem entry8 (c : Dev nD) (r : Ref sig .tc) : Gen.V8 m (outs m) c r = U8 m c r := congrFun (V8_eq m c) _
theorem entry11 (c : Dev nD) (r : Ref sig .tc) : Gen.V11 m (outs m) c r = U11 m c r := congrFun (V11_eq m c) _

theorem exit2 (c : Dev nD) : Gen.V2 m (outs m) c main_v16 = o16 m c :=
  (congrFun (V2_eq m c) _).trans (Function.update_self _ _ _)
theorem exit4 (c : Dev nD) : Gen.V4 m (outs m) c main_v33 = o33 m c :=
  (congrFun (V4_eq m c) _).trans (Function.update_self _ _ _)
theorem exit6 (c : Dev nD) : Gen.V6 m (outs m) c main_v50 = o50 m c :=
  (congrFun (V6_eq m c) _).trans (Function.update_self _ _ _)
theorem exit9 (c : Dev nD) : Gen.V9 m (outs m) c main_v55 = o55 m c :=
  (congrFun (V9_eq m c) _).trans
    ((Function.update_of_ne (StableHlo.devRef_ne_of_ne (by decide) : (Proc.devRef .tc main_v55 : DevRef τ sig) ≠ Proc.devRef .tc main_v52) _ _).trans (Function.update_self _ _ _))
theorem exit12 (c : Dev nD) : Gen.V12 m (outs m) c main_v57 = o57 m c :=
  (congrFun (V12_eq m c) _).trans
    ((Function.update_of_ne (StableHlo.devRef_ne_of_ne (by decide) : (Proc.devRef .tc main_v57 : DevRef τ sig) ≠ Proc.devRef .tc main_v53) _ _).trans (Function.update_self _ _ _))

end Cert.KernelIdeal.Hand

end
-- ==== Proof.Reg0.lean ====
/-
  The first accumulating call as a segment of @main: entered with every unscoped buffer of the core at the contents
  the host operations before it leave, left with the same buffers except the call's output array, which holds what the
  write-backs of its twenty-five grid points leave. The call's three arrays are split out of the core's buffers at entry
  and put back at exit; the generator register rides through the call's invariant; nothing is owed to another core and
  the kernel has no semaphore of its own.
-/
import proofs.«412556_j37890201485521_3_alg».proof.Proof.FoldEq
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Call 0 over the thread state "every unscoped buffer at the boundary's contents, beside the register and the
    core's dues". -/
def reg0 : Pipeline.RegionSeg (pcfgs (F := F)) (adm m) (pdats m) () defs₀ Variants.none noLevels noLevel 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (atRefs (U1 m)) c).loose
  hwaits := Pipeline.hwaits_of_owed_zero _ _ _ _ noLevels noLevel 0 fun _ _ => rfl
  pre c := iprop(StableHlo.held (c : Thread nD τ) (Pipeline.ucRefs τ sig) (U1 m c) ∗ riding c)
  post c := iprop(StableHlo.held (c : Thread nD τ) (Pipeline.ucRefs τ sig) (Gen.V2 m (outs m) c) ∗ riding c)
  X c := iprop(∃ r, prngReg c r)
  Y c := iprop(∃ r, prngReg c r)
  Z c := Pipeline.unscopedRest (Ix := Unit) (Name := ℕ) (U := Pipeline.UD sig nD τ) (Lvl := ℕ) spec0 c (atRefs (U1 m) c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (atRefs (U1 m) c) fun _ => rfl
    rw [Pipeline.unscopedBufs_held] at hsplit
    iintro ⟨⟨Hbufs, Hreg, Hdues⟩, -, -⟩
    ihave Hparts := hsplit $$ Hbufs
    icases Hparts with ⟨Harr, Hrest⟩
    imodintro
    isplitl [Harr]; · iexact Harr
    isplitr; · unfold Pipeline.prefHeld; rw [show (Finset.univ : Finset (Fin 0)) = ∅ from rfl, BI.bigSep_empty]; iempintro
    isplitl [Hdues]
    · unfold Pipeline.Dat.owesAt Pipeline.owesWithin
      icases Hdues with ⟨%W, Hdues⟩; iexists W; isplitr; · ipureintro; exact fun _ _ => Or.inl trivial
      iexact Hdues
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (atRefs (U1 m) c) (atRefs (Gen.V2 m (outs m)) c) ((pdats m 0 c).arrAt · cfg0.N)
      (fun w => by
        fin_cases w
        · exact (kept0_0 (atRefs (U1 m)) c).trans ((entry1 m c main_v14).symm.trans (Gen.V2_of m (outs m) c main_v14 (by decide)).symm)
        · exact (kept0_1 (atRefs (U1 m)) c).trans ((entry1 m c main_v15).symm.trans (Gen.V2_of m (outs m) c main_v15 (by decide)).symm)
        · exact (exit2 m c).symm)
      (fun b hb => Gen.V2_of m (outs m) c b (fun h => hb (by
        rw [List.mem_singleton] at h; subst h
        exact Finset.mem_image.mpr ⟨2, Finset.mem_univ _, rfl⟩)))
    rw [Pipeline.unscopedBufs_held] at hjoin
    iintro ⟨Harr, Hdues, Hreg, Hrest⟩
    imodintro
    isplitl [Harr Hrest]
    · iapply hjoin; isplitl [Harr] <;> iassumption
    isplitl [Hreg]; · iexact Hreg
    unfold Pipeline.Dat.owesAt Pipeline.owesWithin
    icases Hdues with ⟨%W, -, Hdues⟩; iexists W; iexact Hdues

end Cert.KernelIdeal.Hand

end
-- ==== Proof.Reg1.lean ====
/-
  The second accumulating call as a segment of @main: entered with every unscoped buffer of the core at the contents
  the host operations before it leave, left with the same buffers except the call's output array, which holds what the
  write-backs of its twenty-five grid points leave. The call's three arrays are split out of the core's buffers at entry
  and put back at exit; the generator register rides through the call's invariant; nothing is owed to another core and
  the kernel has no semaphore of its own.
-/
import proofs.«412556_j37890201485521_3_alg».proof.Proof.FoldEq
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Call 1 over the thread state "every unscoped buffer at the boundary's contents, beside the register and the
    core's dues". -/
def reg1 : Pipeline.RegionSeg (pcfgs (F := F)) (adm m) (pdats m) () defs₀ Variants.none noLevels noLevel 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (atRefs (U3 m)) c).loose
  hwaits := Pipeline.hwaits_of_owed_zero _ _ _ _ noLevels noLevel 1 fun _ _ => rfl
  pre c := iprop(StableHlo.held (c : Thread nD τ) (Pipeline.ucRefs τ sig) (U3 m c) ∗ riding c)
  post c := iprop(StableHlo.held (c : Thread nD τ) (Pipeline.ucRefs τ sig) (Gen.V4 m (outs m) c) ∗ riding c)
  X c := iprop(∃ r, prngReg c r)
  Y c := iprop(∃ r, prngReg c r)
  Z c := Pipeline.unscopedRest (Ix := Unit) (Name := ℕ) (U := Pipeline.UD sig nD τ) (Lvl := ℕ) spec1 c (atRefs (U3 m) c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (atRefs (U3 m) c) fun _ => rfl
    rw [Pipeline.unscopedBufs_held] at hsplit
    iintro ⟨⟨Hbufs, Hreg, Hdues⟩, -, -⟩
    ihave Hparts := hsplit $$ Hbufs
    icases Hparts with ⟨Harr, Hrest⟩
    imodintro
    isplitl [Harr]; · iexact Harr
    isplitr; · unfold Pipeline.prefHeld; rw [show (Finset.univ : Finset (Fin 0)) = ∅ from rfl, BI.bigSep_empty]; iempintro
    isplitl [Hdues]
    · unfold Pipeline.Dat.owesAt Pipeline.owesWithin
      icases Hdues with ⟨%W, Hdues⟩; iexists W; isplitr; · ipureintro; exact fun _ _ => Or.inl trivial
      iexact Hdues
    isplitl [Hreg]; · iexact Hreg
    iexact Hrest
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m 1 c).share_full fun _ => rfl)
      (atRefs (U3 m) c) (atRefs (Gen.V4 m (outs m)) c) ((pdats m 1 c).arrAt · cfg1.N)
      (fun w => by
        fin_cases w
        · exact (kept1_0 (atRefs (U3 m)) c).trans ((entry3 m c main_v31).symm.trans (Gen.V4_of m (outs m) c main_v31 (by decide)).symm)
        · exact (kept1_1 (atRefs (U3 m)) c).trans ((entry3 m c main_v32).symm.trans (Gen.V4_of m (outs m) c main_v32 (by decide)).symm)
        · exact (exit4 m c).symm)
      (fun b hb => Gen.V4_of m (outs m) c b (fun h => hb (by
        rw [List.mem_singleton] at h; subst h
        exact Finset.mem_image.mpr ⟨2, Finset.mem_univ _, rfl⟩)))
    rw [Pipeline.unscopedBufs_held] at hjoin
    iintro ⟨Harr, Hdues, Hreg, Hrest⟩
    imodintro
    isplitl [Harr Hrest]
    · iapply hjoin; isplitl [Harr] <;> iassumption
    isplitl [Hreg]; · iexact Hreg
    unfold Pipeline.Dat.owesAt Pipeline.owesWithin
    icases Hdues with ⟨%W, -, Hdues⟩; iexists W; iexact Hdues

end Cert.KernelIdeal.Hand

end
-- ==== Proof.Reg2.lean ====
/-
  The third accumulating call as a segment of @main: entered with every unscoped buffer of the core at the contents
  the host operations before it leave, left with the same buffers except the call's output array, which holds what the
  write-backs of its twenty-five grid points leave. The call's three arrays are split out of the core's buffers at entry
  and put back at exit; the generator register rides through the call's invariant; nothing is owed to another core and
  the kernel has no semaphore of its own.
-/
import proofs.«412556_j37890201485521_3_alg».proof.Proof.FoldEq
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Call 2 over the thread state "every unscoped buffer at the boundary's contents, beside the register and the
    core's dues". -/
def reg2 : Pipeline.RegionSeg (pcfgs (F := F)) (adm m) (pdats m) () defs₀ Variants.none noLevels noLevel 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (atRefs (U5 m)) c).loose
  hwaits := Pipeline.hwaits_of_owed_zero _ _ _ _ noLevels noLevel 2 fun _ _ => rfl
  pre c := iprop(StableHlo.held (c : Thread nD τ) (Pipeline.ucRefs τ sig) (U5 m c) ∗ riding c)
  post c := iprop(StableHlo.held (c : Thread nD τ) (Pipeline.ucRefs τ sig) (Gen.V6 m (outs m) c) ∗ riding c)
  X c := iprop(∃ r, prngReg c r)
  Y c := iprop(∃ r, prngReg c r)
  Z c := Pipeline.unscopedRest (Ix := Unit) (Name := ℕ) (U := Pipeline.UD sig nD τ) (Lvl := ℕ) spec2 c (atRefs (U5 m) c)
  hentry c := by
    rw [Pipeline.ownSems0_none]
    have hsplit := Pipeline.arrays_of_unscopedBufs (p := 2) (pcfgs (F := F)) (adm m) (pdats m) (launch2 (F := F)).win (launch2 (F := F)).arr_whole c
      ((pdats m 2 c).share_full fun _ => rfl) (atRefs (U5 m) c) fun _ => rfl
    rw [Pipeline.unscopedBufs_held] at hsplit
    iintro ⟨⟨Hbufs, Hreg, Hdues⟩, -, -⟩
    ihave Hparts := hsplit $$ Hbufs
    icases Hparts with ⟨Harr, Hrest⟩
    imodintro
    isplitl [Harr]; · iexact Harr
    isplitr; · unfold Pipeline.prefHeld; rw [show (Finset.univ : Finset (Fin 0)) = ∅ from rfl, BI.bigSep_empty]; iempintro
    isplitl [Hdues]
    · unfold Pipeline.Dat.owesAt Pipeline.owesWithin
      icases Hdues with ⟨%W, Hdues⟩; iexists W; isplitr; · ipureintro; exact fun _ _ => Or.inl trivial
      iexact Hdues
    isplitl [Hreg]; · iexact Hreg
    iexact Hrest
  hin c := by
    rw [show (pdats m 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m) ((pdats m 2 c).share_full fun _ => rfl)
      (atRefs (U5 m) c) (atRefs (Gen.V6 m (outs m)) c) ((pdats m 2 c).arrAt · cfg2.N)
      (fun w => by
        fin_cases w
        · exact (kept2_0 (atRefs (U5 m)) c).trans ((entry5 m c main_v48).symm.trans (Gen.V6_of m (outs m) c main_v48 (by decide)).symm)
        · exact (kept2_1 (atRefs (U5 m)) c).trans ((entry5 m c main_v49).symm.trans (Gen.V6_of m (outs m) c main_v49 (by decide)).symm)
        · exact (exit6 m c).symm)
      (fun b hb => Gen.V6_of m (outs m) c b (fun h => hb (by
        rw [List.mem_singleton] at h; subst h
        exact Finset.mem_image.mpr ⟨2, Finset.mem_univ _, rfl⟩)))
    rw [Pipeline.unscopedBufs_held] at hjoin
    iintro ⟨Harr, Hdues, Hreg, Hrest⟩
    imodintro
    isplitl [Harr Hrest]
    · iapply hjoin; isplitl [Harr] <;> iassumption
    isplitl [Hreg]; · iexact Hreg
    unfold Pipeline.Dat.owesAt Pipeline.owesWithin
    icases Hdues with ⟨%W, -, Hdues⟩; iexists W; iexact Hdues

end Cert.KernelIdeal.Hand

end
-- ==== Proof.Body3.lean ====
/-
  The row gather over the clipped ids: its body obligation from the body's specification, and the value its output
  array ends at.

  The obligation. At a point the pipeline calls the gather on the window's current buffer. The invariant holds exactly
  what the body's specification asks beside that buffer (the table of ids, the array of rows, the 128 own cells at
  zero), so the obligation is the specification framed by the scratch no window stages; the table's contents are the
  entry contents of its buffer.

  The value. Block `t` of the output array is rows `128 t … 128 t + 127`, all 64 columns; the block index moves at every
  step, so every point writes its block back, and the 32 blocks cover the 4096 rows. What point `t` writes is the
  gathered block, which is the whole-array term "row `y0` is the row of the array of rows named by entry `y0` of the
  table" read through block `t`: the block's row `y0` sits at array row `128 t + y0`, the table position the gather
  reads for it. Hence the array ends at that term.
-/
import proofs.«412556_j37890201485521_3_alg».proof.Proof.Dat3
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a3 : (pcfg3 (F := F)).Adm)

/-! ## The body obligation -/

/-- The program the pipeline runs at point `t` is the gather at the point's coordinates, on the window's current
    buffer. -/
theorem prog3 (t : Fin (cfg3 a3).N) : (defs₀ (F := F) Proc.tc (cfg3 a3).body ((cfg3 a3).bodyArgs t ((cfg3 a3).slots t)))
    = cc3__gather_kernel ((cfg3 a3).grid.coords t) (Memref.whole main_v54) (Memref.isWhole_whole _) (Memref.whole main_v52) (Memref.isWhole_whole _)
        (spec3_0.stage ((cfg3 a3).slots t 0)) (hstage3_0 (((cfg3 a3).slots t 0).cast nbuf3_0)) cc3_scratch0 := rfl

/-- The library's body obligation from the body's specification: the invariant is taken apart into what the
    specification asks, the table's contents being the entry contents of its buffer (`ha3`); the window's buffer goes
    in at whatever it held; everything comes back as it was, the window's buffer at the gathered block. -/
theorem body_obligation3 (ha3 : ∀ c k, V c (pre3.ref k) = a3.1 k) (c : Dev nD) (hb : Body3 V a3 c) :
    BodyObligation (dat3 V a3 c) (defs₀ (F := F)) Variants.none () Set.univ := fun t => by
  rw [bigSep_W3, bigSep_W3, prog3]
  simp only []
  rw [Φ3_at, Φ3_at, after3]
  unfold Dat.owesAt Pipeline.owesWithin
  rw [owed3, owed3]
  unfold Φ3
  rw [prefHeld3_eq, show V c main_v54 = a3.1 0 from ha3 c 0]
  iintro ⟨⟨HS, Ho, Hh, Ht⟩, ⟨%W, -, HW⟩, ⟨%d, H0⟩⟩
  iapply (hb _ _ _ W _)
  isplitl [H0]; · iexists _; iexact H0
  isplitl [Ht]; · iexact Ht
  isplitl [Hh]; · iexact Hh
  isplitl [Ho]; · iexact Ho
  isplitl [HW]; · iexact HW
  iintro ⟨H0, Ht, Hh, Ho, ⟨%W', HW'⟩⟩
  isplitl [HS Ho Hh Ht]
  · isplitl [HS]; · iexact HS
    isplitl [Ho]; · iexact Ho
    isplitl [Hh]; · iexact Hh
    iexact Ht
  isplitl [HW']
  · iexists W'; isplitr; · ipureintro; exact fun _ _ => Or.inl trivial
    iexact HW'
  iexact H0

/-! ## The value: what the output array holds after the region -/

theorem N3 : (cfg3 a3).N = 32 := N_3

theorem isOut3 : ((cfg3 a3).win 0).isOut = true := rfl

/-- The window's block index at point `t` is the point's coordinate on the row axis, zero on the column axis. -/
theorem index3_row (t : Fin (cfg3 a3).N) : ((cfg3 a3).win 0).index t (0 : Fin 2) = (((cfg3 a3).grid.coords t) 0).val := by
  have h : (((cfg3 a3).grid.coords t) 0).val < 32 := (((cfg3 a3).grid.coords t) 0).isLt
  show (BitVec.ofNat 32 (((cfg3 a3).grid.coords t) 0).val).toNat = _
  rw [BitVec.toNat_ofNat]; exact Nat.mod_eq_of_lt (by omega)

theorem index3_col (t : Fin (cfg3 a3).N) : ((cfg3 a3).win 0).index t (1 : Fin 2) = 0 := rfl

/-- On the one-axis grid of 32 points the coordinate of point `t` is `t`. -/
theorem coords3_val (t : Fin (cfg3 a3).N) : (((cfg3 a3).grid.coords t) 0).val = t.val := by
  have ht : t.val < 32 := (N3 a3) ▸ t.isLt
  have hs : (cfg3 a3).grid.stride 0 = 1 := (by decide : grid3.stride 0 = 1)
  show t.val / (cfg3 a3).grid.stride 0 % 32 = t.val
  rw [hs, Nat.div_one]; exact Nat.mod_eq_of_lt ht

/-- Every point writes its block back: the block index moves at every step. -/
theorem flush3 (t : Fin (cfg3 a3).N) : ((cfg3 a3).win 0).flush t = true := by
  unfold Window.flush
  rw [isOut3, Bool.true_and, Bool.or_eq_true, decide_eq_true_eq, decide_eq_true_eq]
  by_cases h : t.val + 1 = (cfg3 a3).N
  · exact Or.inl h
  · have hlt : t.val + 1 < (cfg3 a3).N := by have := t.isLt; omega
    refine Or.inr ⟨hlt, fun he => ?_⟩
    have h0 := congrFun he (0 : Fin 2)
    rw [index3_row, index3_row, coords3_val, coords3_val] at h0
    exact absurd h0 (by show t.val + 1 ≠ t.val; omega)

/-- An element of block `t` sits in the array at row `128 · (the point's coordinate) + its row`, at its own column. -/
theorem size3_row : ((cfg3 a3).win 0).size (0 : Fin 2) = 128 := rfl
theorem size3_col : ((cfg3 a3).win 0).size (1 : Fin 2) = 64 := rfl

theorem emb3_row (t : Fin (cfg3 a3).N) (y : (((cfg3 a3).win 0).xblock ((cfg3 a3).grid.coords t)).Idx) :
    (((((cfg3 a3).win 0).blk t).view.emb y) (0 : Fin 2)).val = 128 * (((cfg3 a3).grid.coords t) 0).val + (y (0 : Fin 2)).val := by
  show ((((cfg3 a3).win 0).rect t).emb y (0 : Fin 2) : Nat) = _
  have h := Window.rect_emb_val ((cfg3 a3).win 0) t y (0 : Fin 2)
  rw [index3_row, size3_row] at h
  exact h.trans (by omega)

theorem emb3_col (t : Fin (cfg3 a3).N) (y : (((cfg3 a3).win 0).xblock ((cfg3 a3).grid.coords t)).Idx) :
    (((((cfg3 a3).win 0).blk t).view.emb y) (1 : Fin 2)).val = (y (1 : Fin 2)).val := by
  show ((((cfg3 a3).win 0).rect t).emb y (1 : Fin 2) : Nat) = _
  have h := Window.rect_emb_val ((cfg3 a3).win 0) t y (1 : Fin 2)
  rw [index3_col, size3_col] at h
  exact h.trans (by omega)

/-- What the output array holds after the region: row `y0` is the row of the array of rows that entry `y0` of the
    table of ids names. -/
def final3val (c : Dev nD) : Buf (Elt F) ((c : Thread nD τ).loc main_v55) :=
  fun y => V c main_v52 (ix2 (n0 := 100000) (n1 := 64) (gathered3_row (V c main_v54 (ix1 (n := 4096) (y 0)))) (y 1))

/-- The block point `t` writes back is that array read through the window's block at `t`. -/
theorem flushed3_eq (c : Dev nD) (t : Fin (cfg3 a3).N) :
    (dat3 V a3 c).flushed 0 t = (((cfg3 a3).win 0).blk t).view.read (Elt F) (final3val V c) := by
  show ((cfg3 a3).win 0).cut ((cfg3 a3).grid.coords t) ((dat3 V a3 c).after 0 t) = _
  rw [after3]
  funext y
  show gathered3 ((cfg3 a3).grid.coords t) (V c main_v54) (V c main_v52) (((cfg3 a3).win 0).xinj ((cfg3 a3).grid.coords t) y)
    = final3val V c ((((cfg3 a3).win 0).blk t).view.emb y)
  unfold gathered3 final3val
  have hrow : gathered3_pos ((cfg3 a3).grid.coords t) ((((cfg3 a3).win 0).xinj ((cfg3 a3).grid.coords t) y) (0 : Fin 2))
      = ((((cfg3 a3).win 0).blk t).view.emb y) (0 : Fin 2) := by
    apply Fin.ext
    have h1 := gathered3_pos_val ((cfg3 a3).grid.coords t) ((((cfg3 a3).win 0).xinj ((cfg3 a3).grid.coords t) y) (0 : Fin 2))
    have h2 := emb3_row a3 t y
    exact h1.trans h2.symm
  have hcol : (((cfg3 a3).win 0).xinj ((cfg3 a3).grid.coords t) y) (1 : Fin 2) = ((((cfg3 a3).win 0).blk t).view.emb y) (1 : Fin 2) := by
    apply Fin.ext
    exact (emb3_col a3 t y).symm
  rw [hrow, hcol]

/-- An index of the array is in block `t` exactly when its row is one of the block's 128. -/
theorem mem_blk3 (t : Fin (cfg3 a3).N) (i : S4096x64.Idx) :
    i ∈ (((cfg3 a3).win 0).blk t).view.set ↔ 128 * t.val ≤ (i 0).val ∧ (i 0).val < 128 * t.val + 128 := by
  have hset : (((cfg3 a3).win 0).blk t).view.set = (((cfg3 a3).win 0).rect t).set := View.set_slice_whole main_v55 _
  have hmem : i ∈ (((cfg3 a3).win 0).blk t).view.set
      ↔ ∀ a : Fin 2, ((cfg3 a3).win 0).index t a * ((cfg3 a3).win 0).size a ≤ (i a : Nat)
          ∧ (i a : Nat) < ((cfg3 a3).win 0).index t a * ((cfg3 a3).win 0).size a + ((cfg3 a3).win 0).xsize ((cfg3 a3).grid.coords t) a := by
    rw [hset]; exact Rect.mem_set_unit
  refine hmem.trans ?_
  have h1 : (i 1 : Nat) < 64 := (i 1).isLt
  have er : ((cfg3 a3).win 0).index t (0 : Fin 2) * ((cfg3 a3).win 0).size (0 : Fin 2) = 128 * t.val := by
    rw [index3_row, coords3_val]; show t.val * 128 = _; omega
  have ec : ((cfg3 a3).win 0).index t (1 : Fin 2) * ((cfg3 a3).win 0).size (1 : Fin 2) = 0 := by
    rw [index3_col]; omega
  have xr : ((cfg3 a3).win 0).xsize ((cfg3 a3).grid.coords t) (0 : Fin 2) = 128 := rfl
  have xc : ((cfg3 a3).win 0).xsize ((cfg3 a3).grid.coords t) (1 : Fin 2) = 64 := rfl
  refine ⟨fun h => ?_, fun h a => ?_⟩
  · have h0 := h (0 : Fin 2)
    rw [er, xr] at h0
    exact h0
  · match a with
    | ⟨0, _⟩ =>
      show ((cfg3 a3).win 0).index t (0 : Fin 2) * ((cfg3 a3).win 0).size (0 : Fin 2) ≤ (i 0 : Nat)
        ∧ (i 0 : Nat) < ((cfg3 a3).win 0).index t (0 : Fin 2) * ((cfg3 a3).win 0).size (0 : Fin 2) + ((cfg3 a3).win 0).xsize ((cfg3 a3).grid.coords t) (0 : Fin 2)
      rw [er, xr]; exact h
    | ⟨1, _⟩ =>
      show ((cfg3 a3).win 0).index t (1 : Fin 2) * ((cfg3 a3).win 0).size (1 : Fin 2) ≤ (i 1 : Nat)
        ∧ (i 1 : Nat) < ((cfg3 a3).win 0).index t (1 : Fin 2) * ((cfg3 a3).win 0).size (1 : Fin 2) + ((cfg3 a3).win 0).xsize ((cfg3 a3).grid.coords t) (1 : Fin 2)
      rw [ec, xc]; omega

/-- The 32 blocks cover the array: row `r` is in block `r / 128`. -/
theorem cover3 (i : S4096x64.Idx) :
    ∃ t : Fin (cfg3 a3).N, ((cfg3 a3).win 0).flush t = true ∧ i ∈ (((cfg3 a3).win 0).blk t).view.set := by
  have h0 : (i 0 : Nat) < 4096 := (i 0).isLt
  have hN : (cfg3 a3).N = 32 := N3 a3
  refine ⟨⟨(i 0).val / 128, by omega⟩, flush3 a3 _, ?_⟩
  rw [mem_blk3]
  show 128 * ((i 0).val / 128) ≤ (i 0).val ∧ (i 0).val < 128 * ((i 0).val / 128) + 128
  omega

/-- THE VALUE: after the region the output array holds, row by row, the rows the table of ids names. -/
theorem final3 (c : Dev nD) : (dat3 V a3 c).arrAt 0 (cfg3 a3).N = final3val V c :=
  (dat3 V a3 c).arrAt_eq_of_cover 0 (final3val V c) (fun t _ => flushed3_eq V a3 c t) (cover3 a3)

end Cert.KernelIdeal.Hand

end
-- ==== Proof.Reg3.lean ====
/-
  The row gather over the clipped ids as a segment of @main: entered with every unscoped buffer of the core at the
  contents the host operations before it leave, left with the same buffers except the call's output array, which holds
  what the write-backs of its thirty-two grid points leave.

  At entry the output array is split out of the core's buffers; of the others, the table of ids goes to the pipeline
  whole at the admissible contents (they are its entry contents), the array of rows enters the invariant beside the
  128 cells of the kernel's own, at zero, and the rest bypass the call together with the generator register. At exit
  the invariant gives the array of rows and the table back unchanged and the cells back at zero; the buffers are put
  together again at the valuation that differs from the entry one at the output array only. Nothing is owed to another
  core. The body's specification is a hypothesis.
-/
import proofs.«412556_j37890201485521_3_alg».proof.Proof.FoldEq
import proofs.«412556_j37890201485521_3_alg».proof.Proof.Body3
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ)

/-- The one operand the gather reads where it lies: the array of rows. -/
def H3 : Finset (Ref sig .tc) := {main_v52}
theorem H3_sub : H3 ⊆ Pipeline.restRefsP sig pre3 spec3 := by decide

/-- The table's contents under the entry valuation are the admissible contents. -/
theorem tab3 (c : Dev nD) : (fun k => atRefs (U8 m) c (pre3.ref k)) = (a3 m).1 := funext fun k => ha3 m c k

/-- The unscoped buffers that are no window's array: the table of ids at the admissible contents, the array of rows, and
    the others, each whole at the entry contents. -/
theorem rest3_split (c : Dev nD) :
    (Pipeline.unscopedRest (Ix := Unit) (Name := ℕ) (U := Pipeline.UD sig nD τ) (Lvl := ℕ) spec3 c (atRefs (U8 m) c) : sProp 𝕄)
      = iprop(Pipeline.prefHeld (Ix := Unit) (Name := ℕ) (U := Pipeline.UD sig nD τ) (Lvl := ℕ) pre3 c (fun _ => fullShare) (a3 m).1
          ∗ (((c : Thread nD τ).loc main_v52) ↦{fullShare} atRefs (U8 m) c main_v52)
          ∗ bigSep (Pipeline.restRefsP sig pre3 spec3 \ H3) fun b => ((c : Thread nD τ).loc b) ↦{fullShare} atRefs (U8 m) c b) := by
  rw [Pipeline.unscopedRest_split preFacts3 c, tab3, Pipeline.unscopedRestP_sdiff pre3 spec3 H3 H3_sub c]
  unfold H3; rw [bigSep_singleton]

/-- After the region every buffer but the output array holds what it held at entry. -/
theorem off_out3 (c : Dev nD) (b : Ref sig .tc) (h : b ≠ main_v55) : atRefs (Gen.V9 m (outs m)) c b = atRefs (U8 m) c b := by
  by_cases h52 : b = main_v52
  · subst h52
    show Gen.V9 m (outs m) c main_v52 = U8 m c main_v52
    unfold Gen.V9
    rw [Function.update_self, outs_52]
  · exact (Gen.V9_of m (outs m) c b (by simp [h, h52])).trans (entry8 m c b)

set_option backward.isDefEq.respectTransparency.types false in
/-- Call 3 over the thread state "every unscoped buffer at the boundary's contents, beside the register and the
    core's dues", given the body's specification at the call's contents. -/
def reg3 (hb : ∀ c, Body3 (atRefs (U8 m)) (a3 m) c) :
    Pipeline.RegionSeg (pcfgs (F := F)) (adm m) (pdats m) () defs₀ Variants.none noLevels noLevel 3 where
  win := (launch3 (F := F)).win.to₀
  block_pos := (launch3 (F := F)).block_pos
  stage_whole := (launch3 (F := F)).stage_whole
  K := Fin 128
  osem := cellAt3
  ho := ownSemFacts3
  hbody c := (body_obligation3 (atRefs (U8 m)) (a3 m) (ha3 m) c (hb c)).loose
  hwaits := Pipeline.hwaits_of_owed_zero _ _ _ _ noLevels noLevel 3 fun _ _ => rfl
  pre c := iprop(StableHlo.held (c : Thread nD τ) (Pipeline.ucRefs τ sig) (U8 m c) ∗ riding c)
  post c := iprop(StableHlo.held (c : Thread nD τ) (Pipeline.ucRefs τ sig) (Gen.V9 m (outs m) c) ∗ riding c)
  X c := iprop(Pipeline.ownSems0 (Ix := Unit) (Name := ℕ) (U := Pipeline.UD sig nD τ) (Lvl := ℕ) (Val := Elt F) (τ := τ) cellAt3 c
    ∗ (((c : Thread nD τ).loc main_v52) ↦{fullShare} atRefs (U8 m) c main_v52))
  Y c := iprop((((c : Thread nD τ).loc main_v52) ↦{fullShare} atRefs (U8 m) c main_v52)
    ∗ Pipeline.prefHeld (Ix := Unit) (Name := ℕ) (U := Pipeline.UD sig nD τ) (Lvl := ℕ) pre3 c (fun _ => fullShare) (a3 m).1)
  Z c := iprop((bigSep (Pipeline.restRefsP sig pre3 spec3 \ H3) fun b => ((c : Thread nD τ).loc b) ↦{fullShare} atRefs (U8 m) c b)
    ∗ ∃ r, prngReg c r)
  hentry c := by
    have hsplit := Pipeline.arrays_of_unscopedBufs (p := 3) (pcfgs (F := F)) (adm m) (pdats m) (launch3 (F := F)).win (launch3 (F := F)).arr_whole c
      ((pdats m 3 c).share_full fun _ => rfl) (atRefs (U8 m) c) fun _ => rfl
    rw [Pipeline.unscopedBufs_held] at hsplit
    iintro ⟨⟨Hbufs, Hreg, Hdues⟩, Hsem, -⟩
    ihave Hparts := hsplit $$ Hbufs
    icases Hparts with ⟨Harr, Hrest⟩
    ihave Hrest' := (Entails.of_eq (rest3_split m c)) $$ Hrest
    icases Hrest' with ⟨Htab, HH, HZ⟩
    imodintro
    isplitl [Harr]; · iexact Harr
    isplitl [Htab]; · iexact Htab
    isplitl [Hdues]
    · unfold Pipeline.Dat.owesAt Pipeline.owesWithin
      icases Hdues with ⟨%W, Hdues⟩; iexists W; isplitr; · ipureintro; exact fun _ _ => Or.inl trivial
      iexact Hdues
    isplitl [Hsem HH]
    · isplitl [Hsem]; · iexact Hsem
      iexact HH
    isplitl [HZ]; · iexact HZ
    iexact Hreg
  hin c := by
    rw [show (pdats m 3 c).Φ 0 = Φ3 (atRefs (U8 m)) (a3 m) c from rfl]; unfold Φ3
    iintro ⟨⟨Hsem, HH⟩, Htab, Hscoped⟩
    isplitl [Hscoped]; · iexact Hscoped
    isplitl [Hsem]; · iexact Hsem
    isplitl [HH]; · iexact HH
    iexact Htab
  hout c := by
    rw [show (pdats m 3 c).Φ (Fin.last _) = Φ3 (atRefs (U8 m)) (a3 m) c from rfl]; unfold Φ3
    iintro ⟨Hscoped, Hsem, HH, Htab⟩
    isplitl [HH Htab]
    · isplitl [HH]; · iexact HH
      iexact Htab
    isplitl [Hsem]; · iexact Hsem
    iexact Hscoped
  hexit c := by
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m) ((pdats m 3 c).share_full fun _ => rfl)
      (atRefs (U8 m) c) (atRefs (Gen.V9 m (outs m)) c) ((pdats m 3 c).arrAt · (cfg3 (a3 m)).N)
      (fun w => by
        fin_cases w
        exact (exit9 m c).symm)
      (fun b hb => off_out3 m c b (fun h => hb (h ▸ Finset.mem_image.mpr ⟨0, Finset.mem_univ _, rfl⟩)))
    rw [Pipeline.unscopedBufs_held] at hjoin
    iintro ⟨Harr, Hdues, ⟨HH, Htab⟩, HZ, Hreg⟩
    ihave Hrest := (Entails.of_eq (rest3_split m c).symm) $$ [Htab HH HZ]
    · isplitl [Htab]; · iexact Htab
      isplitl [HH]; · iexact HH
      iexact HZ
    imodintro
    isplitl [Harr Hrest]
    · iapply hjoin; isplitl [Harr] <;> iassumption
    isplitl [Hreg]; · iexact Hreg
    unfold Pipeline.Dat.owesAt Pipeline.owesWithin
    icases Hdues with ⟨%W, -, Hdues⟩; iexists W; iexact Hdues

end Cert.KernelIdeal.Hand

end
-- ==== Proof.Body4.lean ====
/-
  The row gather over the clipped ids: its body obligation from the body's specification, and the value its output
  array ends at.

  The obligation. At a point the pipeline calls the gather on the window's current buffer. The invariant holds exactly
  what the body's specification asks beside that buffer (the table of ids, the array of rows, the 128 own cells at
  zero), so the obligation is the specification framed by the scratch no window stages; the table's contents are the
  entry contents of its buffer.

  The value. Block `t` of the output array is rows `128 t … 128 t + 127`, all 64 columns; the block index moves at every
  step, so every point writes its block back, and the 32 blocks cover the 4096 rows. What point `t` writes is the
  gathered block, which is the whole-array term "row `y0` is the row of the array of rows named by entry `y0` of the
  table" read through block `t`: the block's row `y0` sits at array row `128 t + y0`, the table position the gather
  reads for it. Hence the array ends at that term.
-/
import proofs.«412556_j37890201485521_3_alg».proof.Proof.Dat4
import Idealize.ShloMosaic.Lib.Pipeline.Value
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a4 : (pcfg4 (F := F)).Adm)

/-! ## The body obligation -/

/-- The program the pipeline runs at point `t` is the gather at the point's coordinates, on the window's current
    buffer. -/
theorem prog4 (t : Fin (cfg4 a4).N) : (defs₀ (F := F) Proc.tc (cfg4 a4).body ((cfg4 a4).bodyArgs t ((cfg4 a4).slots t)))
    = cc4__gather_kernel ((cfg4 a4).grid.coords t) (Memref.whole main_v56) (Memref.isWhole_whole _) (Memref.whole main_v53) (Memref.isWhole_whole _)
        (spec4_0.stage ((cfg4 a4).slots t 0)) (hstage4_0 (((cfg4 a4).slots t 0).cast nbuf4_0)) cc4_scratch0 := rfl

/-- The library's body obligation from the body's specification: the invariant is taken apart into what the
    specification asks, the table's contents being the entry contents of its buffer (`ha4`); the window's buffer goes
    in at whatever it held; everything comes back as it was, the window's buffer at the gathered block. -/
theorem body_obligation4 (ha4 : ∀ c k, V c (pre4.ref k) = a4.1 k) (c : Dev nD) (hb : Body4 V a4 c) :
    BodyObligation (dat4 V a4 c) (defs₀ (F := F)) Variants.none () Set.univ := fun t => by
  rw [bigSep_W4, bigSep_W4, prog4]
  simp only []
  rw [Φ4_at, Φ4_at, after4]
  unfold Dat.owesAt Pipeline.owesWithin
  rw [owed4, owed4]
  unfold Φ4
  rw [prefHeld4_eq, show V c main_v56 = a4.1 0 from ha4 c 0]
  iintro ⟨⟨HS, Ho, Hh, Ht⟩, ⟨%W, -, HW⟩, ⟨%d, H0⟩⟩
  iapply (hb _ _ _ W _)
  isplitl [H0]; · iexists _; iexact H0
  isplitl [Ht]; · iexact Ht
  isplitl [Hh]; · iexact Hh
  isplitl [Ho]; · iexact Ho
  isplitl [HW]; · iexact HW
  iintro ⟨H0, Ht, Hh, Ho, ⟨%W', HW'⟩⟩
  isplitl [HS Ho Hh Ht]
  · isplitl [HS]; · iexact HS
    isplitl [Ho]; · iexact Ho
    isplitl [Hh]; · iexact Hh
    iexact Ht
  isplitl [HW']
  · iexists W'; isplitr; · ipureintro; exact fun _ _ => Or.inl trivial
    iexact HW'
  iexact H0

/-! ## The value: what the output array holds after the region -/

theorem N4 : (cfg4 a4).N = 32 := N_4

theorem isOut4 : ((cfg4 a4).win 0).isOut = true := rfl

/-- The window's block index at point `t` is the point's coordinate on the row axis, zero on the column axis. -/
theorem index4_row (t : Fin (cfg4 a4).N) : ((cfg4 a4).win 0).index t (0 : Fin 2) = (((cfg4 a4).grid.coords t) 0).val := by
  have h : (((cfg4 a4).grid.coords t) 0).val < 32 := (((cfg4 a4).grid.coords t) 0).isLt
  show (BitVec.ofNat 32 (((cfg4 a4).grid.coords t) 0).val).toNat = _
  rw [BitVec.toNat_ofNat]; exact Nat.mod_eq_of_lt (by omega)

theorem index4_col (t : Fin (cfg4 a4).N) : ((cfg4 a4).win 0).index t (1 : Fin 2) = 0 := rfl

/-- On the one-axis grid of 32 points the coordinate of point `t` is `t`. -/
theorem coords4_val (t : Fin (cfg4 a4).N) : (((cfg4 a4).grid.coords t) 0).val = t.val := by
  have ht : t.val < 32 := (N4 a4) ▸ t.isLt
  have hs : (cfg4 a4).grid.stride 0 = 1 := (by decide : grid4.stride 0 = 1)
  show t.val / (cfg4 a4).grid.stride 0 % 32 = t.val
  rw [hs, Nat.div_one]; exact Nat.mod_eq_of_lt ht

/-- Every point writes its block back: the block index moves at every step. -/
theorem flush4 (t : Fin (cfg4 a4).N) : ((cfg4 a4).win 0).flush t = true := by
  unfold Window.flush
  rw [isOut4, Bool.true_and, Bool.or_eq_true, decide_eq_true_eq, decide_eq_true_eq]
  by_cases h : t.val + 1 = (cfg4 a4).N
  · exact Or.inl h
  · have hlt : t.val + 1 < (cfg4 a4).N := by have := t.isLt; omega
    refine Or.inr ⟨hlt, fun he => ?_⟩
    have h0 := congrFun he (0 : Fin 2)
    rw [index4_row, index4_row, coords4_val, coords4_val] at h0
    exact absurd h0 (by show t.val + 1 ≠ t.val; omega)

/-- An element of block `t` sits in the array at row `128 · (the point's coordinate) + its row`, at its own column. -/
theorem size4_row : ((cfg4 a4).win 0).size (0 : Fin 2) = 128 := rfl
theorem size4_col : ((cfg4 a4).win 0).size (1 : Fin 2) = 64 := rfl

theorem emb4_row (t : Fin (cfg4 a4).N) (y : (((cfg4 a4).win 0).xblock ((cfg4 a4).grid.coords t)).Idx) :
    (((((cfg4 a4).win 0).blk t).view.emb y) (0 : Fin 2)).val = 128 * (((cfg4 a4).grid.coords t) 0).val + (y (0 : Fin 2)).val := by
  show ((((cfg4 a4).win 0).rect t).emb y (0 : Fin 2) : Nat) = _
  have h := Window.rect_emb_val ((cfg4 a4).win 0) t y (0 : Fin 2)
  rw [index4_row, size4_row] at h
  exact h.trans (by omega)

theorem emb4_col (t : Fin (cfg4 a4).N) (y : (((cfg4 a4).win 0).xblock ((cfg4 a4).grid.coords t)).Idx) :
    (((((cfg4 a4).win 0).blk t).view.emb y) (1 : Fin 2)).val = (y (1 : Fin 2)).val := by
  show ((((cfg4 a4).win 0).rect t).emb y (1 : Fin 2) : Nat) = _
  have h := Window.rect_emb_val ((cfg4 a4).win 0) t y (1 : Fin 2)
  rw [index4_col, size4_col] at h
  exact h.trans (by omega)

/-- What the output array holds after the region: row `y0` is the row of the array of rows that entry `y0` of the
    table of ids names. -/
def final4val (c : Dev nD) : Buf (Elt F) ((c : Thread nD τ).loc main_v57) :=
  fun y => V c main_v53 (ix2 (n0 := 50000) (n1 := 64) (gathered4_row (V c main_v56 (ix1 (n := 4096) (y 0)))) (y 1))

/-- The block point `t` writes back is that array read through the window's block at `t`. -/
theorem flushed4_eq (c : Dev nD) (t : Fin (cfg4 a4).N) :
    (dat4 V a4 c).flushed 0 t = (((cfg4 a4).win 0).blk t).view.read (Elt F) (final4val V c) := by
  show ((cfg4 a4).win 0).cut ((cfg4 a4).grid.coords t) ((dat4 V a4 c).after 0 t) = _
  rw [after4]
  funext y
  show gathered4 ((cfg4 a4).grid.coords t) (V c main_v56) (V c main_v53) (((cfg4 a4).win 0).xinj ((cfg4 a4).grid.coords t) y)
    = final4val V c ((((cfg4 a4).win 0).blk t).view.emb y)
  unfold gathered4 final4val
  have hrow : gathered4_pos ((cfg4 a4).grid.coords t) ((((cfg4 a4).win 0).xinj ((cfg4 a4).grid.coords t) y) (0 : Fin 2))
      = ((((cfg4 a4).win 0).blk t).view.emb y) (0 : Fin 2) := by
    apply Fin.ext
    have h1 := gathered4_pos_val ((cfg4 a4).grid.coords t) ((((cfg4 a4).win 0).xinj ((cfg4 a4).grid.coords t) y) (0 : Fin 2))
    have h2 := emb4_row a4 t y
    exact h1.trans h2.symm
  have hcol : (((cfg4 a4).win 0).xinj ((cfg4 a4).grid.coords t) y) (1 : Fin 2) = ((((cfg4 a4).win 0).blk t).view.emb y) (1 : Fin 2) := by
    apply Fin.ext
    exact (emb4_col a4 t y).symm
  rw [hrow, hcol]

/-- An index of the array is in block `t` exactly when its row is one of the block's 128. -/
theorem mem_blk4 (t : Fin (cfg4 a4).N) (i : S4096x64.Idx) :
    i ∈ (((cfg4 a4).win 0).blk t).view.set ↔ 128 * t.val ≤ (i 0).val ∧ (i 0).val < 128 * t.val + 128 := by
  have hset : (((cfg4 a4).win 0).blk t).view.set = (((cfg4 a4).win 0).rect t).set := View.set_slice_whole main_v57 _
  have hmem : i ∈ (((cfg4 a4).win 0).blk t).view.set
      ↔ ∀ a : Fin 2, ((cfg4 a4).win 0).index t a * ((cfg4 a4).win 0).size a ≤ (i a : Nat)
          ∧ (i a : Nat) < ((cfg4 a4).win 0).index t a * ((cfg4 a4).win 0).size a + ((cfg4 a4).win 0).xsize ((cfg4 a4).grid.coords t) a := by
    rw [hset]; exact Rect.mem_set_unit
  refine hmem.trans ?_
  have h1 : (i 1 : Nat) < 64 := (i 1).isLt
  have er : ((cfg4 a4).win 0).index t (0 : Fin 2) * ((cfg4 a4).win 0).size (0 : Fin 2) = 128 * t.val := by
    rw [index4_row, coords4_val]; show t.val * 128 = _; omega
  have ec : ((cfg4 a4).win 0).index t (1 : Fin 2) * ((cfg4 a4).win 0).size (1 : Fin 2) = 0 := by
    rw [index4_col]; omega
  have xr : ((cfg4 a4).win 0).xsize ((cfg4 a4).grid.coords t) (0 : Fin 2) = 128 := rfl
  have xc : ((cfg4 a4).win 0).xsize ((cfg4 a4).grid.coords t) (1 : Fin 2) = 64 := rfl
  refine ⟨fun h => ?_, fun h a => ?_⟩
  · have h0 := h (0 : Fin 2)
    rw [er, xr] at h0
    exact h0
  · match a with
    | ⟨0, _⟩ =>
      show ((cfg4 a4).win 0).index t (0 : Fin 2) * ((cfg4 a4).win 0).size (0 : Fin 2) ≤ (i 0 : Nat)
        ∧ (i 0 : Nat) < ((cfg4 a4).win 0).index t (0 : Fin 2) * ((cfg4 a4).win 0).size (0 : Fin 2) + ((cfg4 a4).win 0).xsize ((cfg4 a4).grid.coords t) (0 : Fin 2)
      rw [er, xr]; exact h
    | ⟨1, _⟩ =>
      show ((cfg4 a4).win 0).index t (1 : Fin 2) * ((cfg4 a4).win 0).size (1 : Fin 2) ≤ (i 1 : Nat)
        ∧ (i 1 : Nat) < ((cfg4 a4).win 0).index t (1 : Fin 2) * ((cfg4 a4).win 0).size (1 : Fin 2) + ((cfg4 a4).win 0).xsize ((cfg4 a4).grid.coords t) (1 : Fin 2)
      rw [ec, xc]; omega

/-- The 32 blocks cover the array: row `r` is in block `r / 128`. -/
theorem cover4 (i : S4096x64.Idx) :
    ∃ t : Fin (cfg4 a4).N, ((cfg4 a4).win 0).flush t = true ∧ i ∈ (((cfg4 a4).win 0).blk t).view.set := by
  have h0 : (i 0 : Nat) < 4096 := (i 0).isLt
  have hN : (cfg4 a4).N = 32 := N4 a4
  refine ⟨⟨(i 0).val / 128, by omega⟩, flush4 a4 _, ?_⟩
  rw [mem_blk4]
  show 128 * ((i 0).val / 128) ≤ (i 0).val ∧ (i 0).val < 128 * ((i 0).val / 128) + 128
  omega

/-- THE VALUE: after the region the output array holds, row by row, the rows the table of ids names. -/
theorem final4 (c : Dev nD) : (dat4 V a4 c).arrAt 0 (cfg4 a4).N = final4val V c :=
  (dat4 V a4 c).arrAt_eq_of_cover 0 (final4val V c) (fun t _ => flushed4_eq V a4 c t) (cover4 a4)

end Cert.KernelIdeal.Hand

end
-- ==== Proof.Reg4.lean ====
/-
  The row gather over the clipped ids as a segment of @main: entered with every unscoped buffer of the core at the
  contents the host operations before it leave, left with the same buffers except the call's output array, which holds
  what the write-backs of its thirty-two grid points leave.

  At entry the output array is split out of the core's buffers; of the others, the table of ids goes to the pipeline
  whole at the admissible contents (they are its entry contents), the array of rows enters the invariant beside the
  128 cells of the kernel's own, at zero, and the rest bypass the call together with the generator register. At exit
  the invariant gives the array of rows and the table back unchanged and the cells back at zero; the buffers are put
  together again at the valuation that differs from the entry one at the output array only. Nothing is owed to another
  core. The body's specification is a hypothesis.
-/
import proofs.«412556_j37890201485521_3_alg».proof.Proof.FoldEq
import proofs.«412556_j37890201485521_3_alg».proof.Proof.Body4
import Idealize.ShloMosaic.Lib.Pipeline.RegionsLoop
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ)

/-- The one operand the gather reads where it lies: the array of rows. -/
def H4 : Finset (Ref sig .tc) := {main_v53}
theorem H4_sub : H4 ⊆ Pipeline.restRefsP sig pre4 spec4 := by decide

/-- The table's contents under the entry valuation are the admissible contents. -/
theorem tab4 (c : Dev nD) : (fun k => atRefs (U11 m) c (pre4.ref k)) = (a4 m).1 := funext fun k => ha4 m c k

/-- The unscoped buffers that are no window's array: the table of ids at the admissible contents, the array of rows, and
    the others, each whole at the entry contents. -/
theorem rest4_split (c : Dev nD) :
    (Pipeline.unscopedRest (Ix := Unit) (Name := ℕ) (U := Pipeline.UD sig nD τ) (Lvl := ℕ) spec4 c (atRefs (U11 m) c) : sProp 𝕄)
      = iprop(Pipeline.prefHeld (Ix := Unit) (Name := ℕ) (U := Pipeline.UD sig nD τ) (Lvl := ℕ) pre4 c (fun _ => fullShare) (a4 m).1
          ∗ (((c : Thread nD τ).loc main_v53) ↦{fullShare} atRefs (U11 m) c main_v53)
          ∗ bigSep (Pipeline.restRefsP sig pre4 spec4 \ H4) fun b => ((c : Thread nD τ).loc b) ↦{fullShare} atRefs (U11 m) c b) := by
  rw [Pipeline.unscopedRest_split preFacts4 c, tab4, Pipeline.unscopedRestP_sdiff pre4 spec4 H4 H4_sub c]
  unfold H4; rw [bigSep_singleton]

/-- After the region every buffer but the output array holds what it held at entry. -/
theorem off_out4 (c : Dev nD) (b : Ref sig .tc) (h : b ≠ main_v57) : atRefs (Gen.V12 m (outs m)) c b = atRefs (U11 m) c b := by
  by_cases h52 : b = main_v53
  · subst h52
    show Gen.V12 m (outs m) c main_v53 = U11 m c main_v53
    unfold Gen.V12
    rw [Function.update_self, outs_53]
  · exact (Gen.V12_of m (outs m) c b (by simp [h, h52])).trans (entry11 m c b)

set_option backward.isDefEq.respectTransparency.types false in
/-- Call 4 over the thread state "every unscoped buffer at the boundary's contents, beside the register and the
    core's dues", given the body's specification at the call's contents. -/
def reg4 (hb : ∀ c, Body4 (atRefs (U11 m)) (a4 m) c) :
    Pipeline.RegionSeg (pcfgs (F := F)) (adm m) (pdats m) () defs₀ Variants.none noLevels noLevel 4 where
  win := (launch4 (F := F)).win.to₀
  block_pos := (launch4 (F := F)).block_pos
  stage_whole := (launch4 (F := F)).stage_whole
  K := Fin 128
  osem := cellAt4
  ho := ownSemFacts4
  hbody c := (body_obligation4 (atRefs (U11 m)) (a4 m) (ha4 m) c (hb c)).loose
  hwaits := Pipeline.hwaits_of_owed_zero _ _ _ _ noLevels noLevel 4 fun _ _ => rfl
  pre c := iprop(StableHlo.held (c : Thread nD τ) (Pipeline.ucRefs τ sig) (U11 m c) ∗ riding c)
  post c := iprop(StableHlo.held (c : Thread nD τ) (Pipeline.ucRefs τ sig) (Gen.V12 m (outs m) c) ∗ riding c)
  X c := iprop(Pipeline.ownSems0 (Ix := Unit) (Name := ℕ) (U := Pipeline.UD sig nD τ) (Lvl := ℕ) (Val := Elt F) (τ := τ) cellAt4 c
    ∗ (((c : Thread nD τ).loc main_v53) ↦{fullShare} atRefs (U11 m) c main_v53))
  Y c := iprop((((c : Thread nD τ).loc main_v53) ↦{fullShare} atRefs (U11 m) c main_v53)
    ∗ Pipeline.prefHeld (Ix := Unit) (Name := ℕ) (U := Pipeline.UD sig nD τ) (Lvl := ℕ) pre4 c (fun _ => fullShare) (a4 m).1)
  Z c := iprop((bigSep (Pipeline.restRefsP sig pre4 spec4 \ H4) fun b => ((c : Thread nD τ).loc b) ↦{fullShare} atRefs (U11 m) c b)
    ∗ ∃ r, prngReg c r)
  hentry c := by
    have hsplit := Pipeline.arrays_of_unscopedBufs (p := 4) (pcfgs (F := F)) (adm m) (pdats m) (launch4 (F := F)).win (launch4 (F := F)).arr_whole c
      ((pdats m 4 c).share_full fun _ => rfl) (atRefs (U11 m) c) fun _ => rfl
    rw [Pipeline.unscopedBufs_held] at hsplit
    iintro ⟨⟨Hbufs, Hreg, Hdues⟩, Hsem, -⟩
    ihave Hparts := hsplit $$ Hbufs
    icases Hparts with ⟨Harr, Hrest⟩
    ihave Hrest' := (Entails.of_eq (rest4_split m c)) $$ Hrest
    icases Hrest' with ⟨Htab, HH, HZ⟩
    imodintro
    isplitl [Harr]; · iexact Harr
    isplitl [Htab]; · iexact Htab
    isplitl [Hdues]
    · unfold Pipeline.Dat.owesAt Pipeline.owesWithin
      icases Hdues with ⟨%W, Hdues⟩; iexists W; isplitr; · ipureintro; exact fun _ _ => Or.inl trivial
      iexact Hdues
    isplitl [Hsem HH]
    · isplitl [Hsem]; · iexact Hsem
      iexact HH
    isplitl [HZ]; · iexact HZ
    iexact Hreg
  hin c := by
    rw [show (pdats m 4 c).Φ 0 = Φ4 (atRefs (U11 m)) (a4 m) c from rfl]; unfold Φ4
    iintro ⟨⟨Hsem, HH⟩, Htab, Hscoped⟩
    isplitl [Hscoped]; · iexact Hscoped
    isplitl [Hsem]; · iexact Hsem
    isplitl [HH]; · iexact HH
    iexact Htab
  hout c := by
    rw [show (pdats m 4 c).Φ (Fin.last _) = Φ4 (atRefs (U11 m)) (a4 m) c from rfl]; unfold Φ4
    iintro ⟨Hscoped, Hsem, HH, Htab⟩
    isplitl [HH Htab]
    · isplitl [HH]; · iexact HH
      iexact Htab
    isplitl [Hsem]; · iexact Hsem
    iexact Hscoped
  hexit c := by
    have hjoin := Pipeline.unscopedBufs_of_arrays (p := 4) (pcfgs (F := F)) (adm m) (Ix := Unit) (Name := ℕ) (U := Pipeline.UD sig nD τ) (Lvl := ℕ)
      (launch4 (F := F)).win (launch4 (F := F)).arr_whole c (pdats m) ((pdats m 4 c).share_full fun _ => rfl)
      (atRefs (U11 m) c) (atRefs (Gen.V12 m (outs m)) c) ((pdats m 4 c).arrAt · (cfg4 (a4 m)).N)
      (fun w => by
        fin_cases w
        exact (exit12 m c).symm)
      (fun b hb => off_out4 m c b (fun h => hb (h ▸ Finset.mem_image.mpr ⟨0, Finset.mem_univ _, rfl⟩)))
    rw [Pipeline.unscopedBufs_held] at hjoin
    iintro ⟨Harr, Hdues, ⟨HH, Htab⟩, HZ, Hreg⟩
    ihave Hrest := (Entails.of_eq (rest4_split m c).symm) $$ [Htab HH HZ]
    · isplitl [Htab]; · iexact Htab
      isplitl [HH]; · iexact HH
      iexact HZ
    imodintro
    isplitl [Harr Hrest]
    · iapply hjoin; isplitl [Harr] <;> iassumption
    isplitl [Hreg]; · iexact Hreg
    unfold Pipeline.Dat.owesAt Pipeline.owesWithin
    icases Hdues with ⟨%W, -, Hdues⟩; iexists W; iexact Hdues

end Cert.KernelIdeal.Hand

end
-- ==== Proof.Run.lean ====
/-
  The whole run of @main: the five calls as segments between the stretches of host operations, launched from any
  memory. Every weakly fair execution ends, nothing faulting, with the two result buffers at the last valuation of the
  chain of boundary contents and the seven argument buffers as launched. Nothing is owed between cores, no level is
  assigned; beside the buffers each core carries its generator register and its dues, at nothing.
-/
import proofs.«412556_j37890201485521_3_alg».proof.Proof.RunCondI
import proofs.«412556_j37890201485521_3_alg».proof.Proof.Reg0
import proofs.«412556_j37890201485521_3_alg».proof.Proof.Reg1
import proofs.«412556_j37890201485521_3_alg».proof.Proof.Reg2
import proofs.«412556_j37890201485521_3_alg».proof.Proof.Reg3
import proofs.«412556_j37890201485521_3_alg».proof.Proof.Reg4

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- The run, with the results named at the chain's last valuation. -/
theorem run_main_of (hb3 : ∀ c, Body3 (atRefs (U8 m)) (a3 m) c) (hb4 : ∀ c, Body4 (atRefs (U11 m)) (a4 m) c) :
    θ_run defs (onTc (τ := τ) (main (F := F))) ⟨m, fun _ => 0, ρ⟩ (fun r => ∀ c : Dev nD,
      r.2.mem ((c.tc : Thread nD τ).loc main_v55) = U12 m c main_v55
      ∧ r.2.mem ((c.tc : Thread nD τ).loc main_v57) = U12 m c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_)
    (Gen.run_cond m (embL : Emb (URounds (GSem nD τ sig) Unit) 𝕄) () Variants.none noLevels noLevel (fun _ _ => rfl) ρ (outs m) (adm m) (pdats m)
      (O₀ := 0) (G := fun _ => iprop(emp))
      (u₀ := (initOf (Pipeline.cells (Pipeline.pin (pcfgs (F := F)) (adm m)) (cellOf_inj (adm m))) (Pipeline.launchToks (Pipeline.pin (pcfgs (F := F)) (adm m)) (cellOf_inj (adm m))), 1))
      (hu₀ := ?hu) (E := fun _ c => riding c) (hE0 := ?hE0) (hE5 := fun c => ?hE5)
      (reg0 m) (fun c => .rfl) (fun c => .rfl)
      (reg1 m) (fun c => by rw [V3_eq m c]; exact .rfl) (fun c => .rfl)
      (reg2 m) (fun c => by rw [V5_eq m c]; exact .rfl) (fun c => .rfl)
      (reg3 m hb3) (fun c => by rw [V8_eq m c]; exact .rfl) (fun c => .rfl)
      (reg4 m hb4) (fun c => by rw [V11_eq m c]; exact .rfl) (fun c => .rfl))
  case hu =>
    iintro Hu
    ihave Hpair := (ownU_pair _ _) $$ Hu
    icases Hpair with ⟨Hcells, -⟩
    imodintro
    isplitl [Hcells]; · iexact Hcells
    iapply (show (BI.emp : sProp 𝕄) ⊢ bigSep Finset.univ (fun _ : Dev nD => (BI.emp : sProp 𝕄)) from by rw [BI.bigSep_emp_const])
    iempintro
  case hE0 =>
    refine Pipeline.initEach noLevels noLevel fun c => ?_
    iintro ⟨⟨-, Hdues, -, Hreg, -⟩, -⟩
    imodintro
    isplitl [Hreg]; · iexists _; iexact Hreg
    iexists ∅; iexact Hdues
  case hE5 =>
    iintro ⟨-, Hdues⟩; iexact Hdues
  · have hc := h c
    rw [V12_eq] at hc
    exact hc

end Cert.KernelIdeal.Hand

end
-- ==== Proof.KChain.lean ====
import proofs.«412556_j37890201485521_3_alg».proof.Proof.Gen.KernelIdeal.Launch
import proofs.«412556_j37890201485521_3_alg».proof.Proof.KSpec
import Idealize.ShloMosaic.Lib.StableHlo.Run

/-! # The host stretches, read

Between two calls the program runs a stretch of host operations. Each lemma here says what ONE buffer holds after
ONE stretch, started from arbitrary contents `W` of the core's buffers, as a term of the buffers' contents before
the stretch: the stretch's operations composed in program order. The terms are the ones the specification is
written in (the node table, one hop of the sparse product, the relabelling as 75000 rows of 128 lanes and back, the
two row slices, the clipped ids), so the chain of boundary contents can be rewritten stretch by stretch. A buffer
no operation of a stretch writes keeps its contents. -/

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F] [Cert.KernelIdeal.Facts]

/-! ## Before the first call -/

/-- The first hop of the node table. -/
theorem st0_v13 (W : Valuation τ sig (Elt F)) :
    (StableHlo.after hostOps0 W (Proc.devRef .tc main_v13) : Vec F S150000x64 .f32) = hop1 (W (Proc.devRef .tc main_arg0)) (W (Proc.devRef .tc main_arg1)) (W (Proc.devRef .tc main_arg2)) (W (Proc.devRef .tc main_arg3)) (W (Proc.devRef .tc main_arg4)) := by
  show StableHlo.after hostOps0 _ (Proc.devRef .tc main_v13) = _
  after_results_simp
  rfl

/-- The first call's first operand: the node table, relabelled. -/
theorem st0_v14 (W : Valuation τ sig (Elt F)) :
    (StableHlo.after hostOps0 W (Proc.devRef .tc main_v14) : Vec F S75000x128 .f32) = toLanes (allEmb (W (Proc.devRef .tc main_arg0)) (W (Proc.devRef .tc main_arg1))) := by
  show StableHlo.after hostOps0 _ (Proc.devRef .tc main_v14) = _
  after_results_simp
  rfl

/-- The first call's second operand: the first hop, relabelled. -/
theorem st0_v15 (W : Valuation τ sig (Elt F)) :
    (StableHlo.after hostOps0 W (Proc.devRef .tc main_v15) : Vec F S75000x128 .f32) = toLanes (hop1 (W (Proc.devRef .tc main_arg0)) (W (Proc.devRef .tc main_arg1)) (W (Proc.devRef .tc main_arg2)) (W (Proc.devRef .tc main_arg3)) (W (Proc.devRef .tc main_arg4))) := by
  show StableHlo.after hostOps0 _ (Proc.devRef .tc main_v15) = _
  after_results_simp
  rfl

/-- The user table is not written. -/
theorem st0_arg0 (W : Valuation τ sig (Elt F)) :
    (StableHlo.after hostOps0 W (Proc.devRef .tc main_arg0) : Vec F S100000x64 .f32) = (W (Proc.devRef .tc main_arg0)) := by
  show StableHlo.after hostOps0 _ (Proc.devRef .tc main_arg0) = _
  after_results_simp

/-- The item table is not written. -/
theorem st0_arg1 (W : Valuation τ sig (Elt F)) :
    (StableHlo.after hostOps0 W (Proc.devRef .tc main_arg1) : Vec F S50000x64 .f32) = (W (Proc.devRef .tc main_arg1)) := by
  show StableHlo.after hostOps0 _ (Proc.devRef .tc main_arg1) = _
  after_results_simp

/-- The edge values are not written. -/
theorem st0_arg2 (W : Valuation τ sig (Elt F)) :
    (StableHlo.after hostOps0 W (Proc.devRef .tc main_arg2) : Vec F S2400000 .f32) = (W (Proc.devRef .tc main_arg2)) := by
  show StableHlo.after hostOps0 _ (Proc.devRef .tc main_arg2) = _
  after_results_simp

/-- The edge row ids are not written. -/
theorem st0_arg3 (W : Valuation τ sig (Elt F)) :
    (StableHlo.after hostOps0 W (Proc.devRef .tc main_arg3) : Vec F S2400000 .i32) = (W (Proc.devRef .tc main_arg3)) := by
  show StableHlo.after hostOps0 _ (Proc.devRef .tc main_arg3) = _
  after_results_simp

/-- The edge column ids are not written. -/
theorem st0_arg4 (W : Valuation τ sig (Elt F)) :
    (StableHlo.after hostOps0 W (Proc.devRef .tc main_arg4) : Vec F S2400000 .i32) = (W (Proc.devRef .tc main_arg4)) := by
  show StableHlo.after hostOps0 _ (Proc.devRef .tc main_arg4) = _
  after_results_simp

/-- The user ids are not written. -/
theorem st0_arg5 (W : Valuation τ sig (Elt F)) :
    (StableHlo.after hostOps0 W (Proc.devRef .tc main_arg5) : Vec F S4096 .i32) = (W (Proc.devRef .tc main_arg5)) := by
  show StableHlo.after hostOps0 _ (Proc.devRef .tc main_arg5) = _
  after_results_simp

/-- The item ids are not written. -/
theorem st0_arg6 (W : Valuation τ sig (Elt F)) :
    (StableHlo.after hostOps0 W (Proc.devRef .tc main_arg6) : Vec F S4096 .i32) = (W (Proc.devRef .tc main_arg6)) := by
  show StableHlo.after hostOps0 _ (Proc.devRef .tc main_arg6) = _
  after_results_simp

/-! ## Between the first and the second call -/

/-- The next hop: one hop of the previous one. -/
theorem st1_v30 (W : Valuation τ sig (Elt F)) :
    (StableHlo.after hostOps1 W (Proc.devRef .tc main_v30) : Vec F S150000x64 .f32) = spmm (W (Proc.devRef .tc main_arg2)) (W (Proc.devRef .tc main_arg3)) (W (Proc.devRef .tc main_arg4)) (W (Proc.devRef .tc main_v13)) := by
  show StableHlo.after hostOps1 _ (Proc.devRef .tc main_v30) = _
  after_results_simp
  rfl

/-- The second call's first operand: the first call's result, relabelled back and forth. -/
theorem st1_v31 (W : Valuation τ sig (Elt F)) :
    (StableHlo.after hostOps1 W (Proc.devRef .tc main_v31) : Vec F S75000x128 .f32) = toLanes (ofLanes (W (Proc.devRef .tc main_v16))) := by
  show StableHlo.after hostOps1 _ (Proc.devRef .tc main_v31) = _
  after_results_simp
  rfl

/-- The second call's second operand: the next hop, relabelled. -/
theorem st1_v32 (W : Valuation τ sig (Elt F)) :
    (StableHlo.after hostOps1 W (Proc.devRef .tc main_v32) : Vec F S75000x128 .f32) = toLanes (spmm (W (Proc.devRef .tc main_arg2)) (W (Proc.devRef .tc main_arg3)) (W (Proc.devRef .tc main_arg4)) (W (Proc.devRef .tc main_v13))) := by
  show StableHlo.after hostOps1 _ (Proc.devRef .tc main_v32) = _
  after_results_simp
  rfl

/-- The edge values are not written. -/
theorem st1_arg2 (W : Valuation τ sig (Elt F)) :
    (StableHlo.after hostOps1 W (Proc.devRef .tc main_arg2) : Vec F S2400000 .f32) = (W (Proc.devRef .tc main_arg2)) := by
  show StableHlo.after hostOps1 _ (Proc.devRef .tc main_arg2) = _
  after_results_simp

/-- The edge row ids are not written. -/
theorem st1_arg3 (W : Valuation τ sig (Elt F)) :
    (StableHlo.after hostOps1 W (Proc.devRef .tc main_arg3) : Vec F S2400000 .i32) = (W (Proc.devRef .tc main_arg3)) := by
  show StableHlo.after hostOps1 _ (Proc.devRef .tc main_arg3) = _
  after_results_simp

/-- The edge column ids are not written. -/
theorem st1_arg4 (W : Valuation τ sig (Elt F)) :
    (StableHlo.after hostOps1 W (Proc.devRef .tc main_arg4) : Vec F S2400000 .i32) = (W (Proc.devRef .tc main_arg4)) := by
  show StableHlo.after hostOps1 _ (Proc.devRef .tc main_arg4) = _
  after_results_simp

/-- The user ids are not written. -/
theorem st1_arg5 (W : Valuation τ sig (Elt F)) :
    (StableHlo.after hostOps1 W (Proc.devRef .tc main_arg5) : Vec F S4096 .i32) = (W (Proc.devRef .tc main_arg5)) := by
  show StableHlo.after hostOps1 _ (Proc.devRef .tc main_arg5) = _
  after_results_simp

/-- The item ids are not written. -/
theorem st1_arg6 (W : Valuation τ sig (Elt F)) :
    (StableHlo.after hostOps1 W (Proc.devRef .tc main_arg6) : Vec F S4096 .i32) = (W (Proc.devRef .tc main_arg6)) := by
  show StableHlo.after hostOps1 _ (Proc.devRef .tc main_arg6) = _
  after_results_simp

/-! ## Between the second and the third call -/

/-- The third call's first operand: the second call's result, relabelled back and forth. -/
theorem st2_v48 (W : Valuation τ sig (Elt F)) :
    (StableHlo.after hostOps2 W (Proc.devRef .tc main_v48) : Vec F S75000x128 .f32) = toLanes (ofLanes (W (Proc.devRef .tc main_v33))) := by
  show StableHlo.after hostOps2 _ (Proc.devRef .tc main_v48) = _
  after_results_simp
  rfl

/-- The third call's second operand: one more hop, relabelled. -/
theorem st2_v49 (W : Valuation τ sig (Elt F)) :
    (StableHlo.after hostOps2 W (Proc.devRef .tc main_v49) : Vec F S75000x128 .f32) = toLanes (spmm (W (Proc.devRef .tc main_arg2)) (W (Proc.devRef .tc main_arg3)) (W (Proc.devRef .tc main_arg4)) (W (Proc.devRef .tc main_v30))) := by
  show StableHlo.after hostOps2 _ (Proc.devRef .tc main_v49) = _
  after_results_simp
  rfl

/-- The user ids are not written. -/
theorem st2_arg5 (W : Valuation τ sig (Elt F)) :
    (StableHlo.after hostOps2 W (Proc.devRef .tc main_arg5) : Vec F S4096 .i32) = (W (Proc.devRef .tc main_arg5)) := by
  show StableHlo.after hostOps2 _ (Proc.devRef .tc main_arg5) = _
  after_results_simp

/-- The item ids are not written. -/
theorem st2_arg6 (W : Valuation τ sig (Elt F)) :
    (StableHlo.after hostOps2 W (Proc.devRef .tc main_arg6) : Vec F S4096 .i32) = (W (Proc.devRef .tc main_arg6)) := by
  show StableHlo.after hostOps2 _ (Proc.devRef .tc main_arg6) = _
  after_results_simp

/-! ## Between the third call and the first gather -/

/-- The user rows of the third call's result, relabelled back. -/
theorem st3_v52 (W : Valuation τ sig (Elt F)) :
    (StableHlo.after hostOps3 W (Proc.devRef .tc main_v52) : Vec F S100000x64 .f32) = userRows (ofLanes (W (Proc.devRef .tc main_v50))) := by
  show StableHlo.after hostOps3 _ (Proc.devRef .tc main_v52) = _
  after_results_simp
  rfl

/-- The item rows of the third call's result, relabelled back. -/
theorem st3_v53 (W : Valuation τ sig (Elt F)) :
    (StableHlo.after hostOps3 W (Proc.devRef .tc main_v53) : Vec F S50000x64 .f32) = itemRows (ofLanes (W (Proc.devRef .tc main_v50))) := by
  show StableHlo.after hostOps3 _ (Proc.devRef .tc main_v53) = _
  after_results_simp
  rfl

/-- The user ids are not written. -/
theorem st3_arg5 (W : Valuation τ sig (Elt F)) :
    (StableHlo.after hostOps3 W (Proc.devRef .tc main_arg5) : Vec F S4096 .i32) = (W (Proc.devRef .tc main_arg5)) := by
  show StableHlo.after hostOps3 _ (Proc.devRef .tc main_arg5) = _
  after_results_simp

/-- The item ids are not written. -/
theorem st3_arg6 (W : Valuation τ sig (Elt F)) :
    (StableHlo.after hostOps3 W (Proc.devRef .tc main_arg6) : Vec F S4096 .i32) = (W (Proc.devRef .tc main_arg6)) := by
  show StableHlo.after hostOps3 _ (Proc.devRef .tc main_arg6) = _
  after_results_simp

/-- The first gather's ids: the user ids clipped into [0, 99999], the two bounds being the constants the stretch before sets. -/
theorem st3_v54 (W : Valuation τ sig (Elt F)) :
    (StableHlo.after hostOps3_1 (StableHlo.after hostOps3 W) (Proc.devRef .tc main_v54) : Vec F S4096 .i32) = clipIds 99999#32 (W (Proc.devRef .tc main_arg5)) := by
  show StableHlo.after hostOps3_1 (StableHlo.after hostOps3 _) (Proc.devRef .tc main_v54) = _
  after_results_simp
  rfl

/-- The clipping writes neither row slice -/
theorem st31_v52 (W : Valuation τ sig (Elt F)) :
    (StableHlo.after hostOps3_1 W (Proc.devRef .tc main_v52) : Vec F S100000x64 .f32) = (W (Proc.devRef .tc main_v52)) := by
  show StableHlo.after hostOps3_1 _ (Proc.devRef .tc main_v52) = _
  after_results_simp

/-- nor the other, -/
theorem st31_v53 (W : Valuation τ sig (Elt F)) :
    (StableHlo.after hostOps3_1 W (Proc.devRef .tc main_v53) : Vec F S50000x64 .f32) = (W (Proc.devRef .tc main_v53)) := by
  show StableHlo.after hostOps3_1 _ (Proc.devRef .tc main_v53) = _
  after_results_simp

/-- nor the item ids. -/
theorem st31_arg6 (W : Valuation τ sig (Elt F)) :
    (StableHlo.after hostOps3_1 W (Proc.devRef .tc main_arg6) : Vec F S4096 .i32) = (W (Proc.devRef .tc main_arg6)) := by
  show StableHlo.after hostOps3_1 _ (Proc.devRef .tc main_arg6) = _
  after_results_simp

/-! ## Between the two gathers -/

/-- The second gather's ids: the item ids clipped into [0, 49999]. -/
theorem st4_v56 (W : Valuation τ sig (Elt F)) :
    (StableHlo.after hostOps4_1 (StableHlo.after hostOps4 W) (Proc.devRef .tc main_v56) : Vec F S4096 .i32) = clipIds 49999#32 (W (Proc.devRef .tc main_arg6)) := by
  show StableHlo.after hostOps4_1 (StableHlo.after hostOps4 _) (Proc.devRef .tc main_v56) = _
  after_results_simp
  rfl

/-- The item rows are not written, -/
theorem st4_v53 (W : Valuation τ sig (Elt F)) :
    (StableHlo.after hostOps4_1 (StableHlo.after hostOps4 W) (Proc.devRef .tc main_v53) : Vec F S50000x64 .f32) = (W (Proc.devRef .tc main_v53)) := by
  show StableHlo.after hostOps4_1 (StableHlo.after hostOps4 _) (Proc.devRef .tc main_v53) = _
  after_results_simp

/-- nor is the first gather's result. -/
theorem st4_v55 (W : Valuation τ sig (Elt F)) :
    (StableHlo.after hostOps4_1 (StableHlo.after hostOps4 W) (Proc.devRef .tc main_v55) : Vec F S4096x64 .f32) = (W (Proc.devRef .tc main_v55)) := by
  show StableHlo.after hostOps4_1 (StableHlo.after hostOps4 _) (Proc.devRef .tc main_v55) = _
  after_results_simp

end Cert.KernelIdeal.Hand
-- ==== Proof.ClipRange.lean ====
/-
  Clipped ids are rows of their table, for any ids: min (hi, max (0, id)) as signed words lies in
  [0, hi] whenever hi is nonnegative, and a nonnegative signed word is its own natural number.
-/
import proofs.«412556_j37890201485521_3_alg».proof.Proof.KSpec

noncomputable section

namespace Cert.KernelIdeal.Hand

open Idealize.ShloMosaic Cert.KernelIdeal

/-- A word clipped into [0, hi], hi nonnegative as a signed word, is at most hi as a natural number. -/
theorem clipWord_toNat_le (hi x : BitVec 32) (hhi : 0 ≤ hi.toInt) :
    (IntOp.minsi hi (IntOp.maxsi 0#32 x)).toNat ≤ hi.toNat := by
  have hx := x.isLt
  have hh := hi.isLt
  have ex := BitVec.toInt_eq_toNat_cond x
  have eh := BitVec.toInt_eq_toNat_cond hi
  by_cases h1 : x.slt 0#32 = true
  · have e1 : IntOp.maxsi 0#32 x = 0#32 := by simp [IntOp.maxsi, h1]
    rw [e1]
    by_cases h2 : hi.slt 0#32 = true
    · exfalso
      rw [BitVec.slt, decide_eq_true_eq] at h2
      simp only [BitVec.toInt_zero] at h2
      omega
    · have e2 : IntOp.minsi hi 0#32 = 0#32 := by simp [IntOp.minsi, h2]
      rw [e2]; simp
  · have e1 : IntOp.maxsi 0#32 x = x := by simp [IntOp.maxsi, h1]
    rw [e1]
    rw [BitVec.slt, decide_eq_true_eq] at h1
    simp only [BitVec.toInt_zero] at h1
    by_cases h2 : hi.slt x = true
    · have e2 : IntOp.minsi hi x = hi := by simp [IntOp.minsi, h2]
      rw [e2]
    · have e2 : IntOp.minsi hi x = x := by simp [IntOp.minsi, h2]
      rw [e2]
      rw [BitVec.slt, decide_eq_true_eq] at h2
      split at ex <;> split at eh <;> omega

variable {F : FTy → Type} [FloatOps F] [Cert.KernelIdeal.Facts]

/-- The clipped ids entry by entry: the signed min and max of the words. -/
theorem clipIds_apply (hi : BitVec 32) (ids : Vec F S4096 .i32) (i : S4096.Idx) :
    clipIds (F := F) hi ids i = IntOp.minsi hi (IntOp.maxsi 0#32 (ids i)) := rfl

/-- Every clipped user id is a row of the user table. -/
theorem clipIds_users_lt (ids : Vec F S4096 .i32) (j : Fin 4096) :
    (clipIds (F := F) 99999#32 ids (ValueIdx.ix1 j)).toNat < 100000 := by
  rw [clipIds_apply]
  exact Nat.lt_of_le_of_lt (clipWord_toNat_le 99999#32 _ (by decide)) (by decide)

/-- Every clipped item id is a row of the item table. -/
theorem clipIds_items_lt (ids : Vec F S4096 .i32) (j : Fin 4096) :
    (clipIds (F := F) 49999#32 ids (ValueIdx.ix1 j)).toNat < 50000 := by
  rw [clipIds_apply]
  exact Nat.lt_of_le_of_lt (clipWord_toNat_le 49999#32 _ (by decide)) (by decide)

end Cert.KernelIdeal.Hand

end
-- ==== Proof.TableRange.lean ====
import proofs.«412556_j37890201485521_3_alg».proof.Proof.Fold
import proofs.«412556_j37890201485521_3_alg».proof.Proof.KChain
import proofs.«412556_j37890201485521_3_alg».proof.Proof.ClipRange

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The first gather's table is the buffer of clipped user ids as that call finds it: the user ids, whatever the
    launch put there, clipped into [0, 99999] by the two stretches before the call. -/
theorem table3_eq : ((a3 m).1 0 : Vec F S4096 .i32) = clipIds 99999#32 (U6 m 0 (Proc.devRef .tc main_arg5)) := by
  have hb : ((a3 m).1 0 : Vec F S4096 .i32) = atRefs (U8 m) 0 (pre3.ref 0) := (ha3 m 0 0).symm
  have hc : (atRefs (U8 m) 0 (pre3.ref 0) : Vec F S4096 .i32) = U8 m 0 (Proc.devRef .tc main_v54) := rfl
  have hd : (U8 m 0 (Proc.devRef .tc main_v54) : Vec F S4096 .i32)
      = clipIds 99999#32 (U6 m 0 (Proc.devRef .tc main_arg5)) := by
    show StableHlo.after hostOps3_1 (StableHlo.after hostOps3 (U6 m 0)) (Proc.devRef .tc main_v54) = _
    rw [st3_v54]
  exact (hb.trans hc).trans hd

/-- So each of its entries names a row of the user rows. -/
theorem table3_lt (j : Fin 4096) : (((a3 m).1 0 : Vec F S4096 .i32) (ix1 j)).toNat < 100000 := by
  rw [table3_eq]; exact clipIds_users_lt _ j

/-- The second gather's table is the item ids clipped into [0, 49999]. -/
theorem table4_eq : ((a4 m).1 0 : Vec F S4096 .i32) = clipIds 49999#32 (U9 m 0 (Proc.devRef .tc main_arg6)) := by
  have hb : ((a4 m).1 0 : Vec F S4096 .i32) = atRefs (U11 m) 0 (pre4.ref 0) := (ha4 m 0 0).symm
  have hc : (atRefs (U11 m) 0 (pre4.ref 0) : Vec F S4096 .i32) = U11 m 0 (Proc.devRef .tc main_v56) := rfl
  have hd : (U11 m 0 (Proc.devRef .tc main_v56) : Vec F S4096 .i32)
      = clipIds 49999#32 (U9 m 0 (Proc.devRef .tc main_arg6)) := by
    show StableHlo.after hostOps4_1 (StableHlo.after hostOps4 (U9 m 0)) (Proc.devRef .tc main_v56) = _
    rw [st4_v56]
  exact (hb.trans hc).trans hd

/-- So each of its entries names a row of the item rows. -/
theorem table4_lt (j : Fin 4096) : (((a4 m).1 0 : Vec F S4096 .i32) (ix1 j)).toNat < 50000 := by
  rw [table4_eq]; exact clipIds_items_lt _ j

end Cert.KernelIdeal.Hand

end
-- ==== Proof.GatherLemmas3.lean ====
/-
  The lemmas of the row gather (custom call 3): what its table reads give, what each row transfer moves and leaves, the
  output window held row by row, and the HBM array held as one read share per transfer in flight.

  At grid point `i` the kernel reads, for each `t < 128`, the word at position `128 * i + t` of the index table, and starts a
  transfer of that row of the HBM array into row `t` of its output window, each on a semaphore of its own; then it waits
  for all 128. The statements here are about ONE row: the word read is the table's entry (`tb_word3`), below 100000 under
  the range hypothesis (`tb_lt3`: the side condition the kernel assumes of it, `chk3_of_lt`); the transfer moves row
  `gathered3_row v` of the array (`pay3`), which is row `t` of `gathered3` (`pay_gathered3`); landed in the window's row `t`, it
  leaves there what the window holds when `gathered3` is written through it whole (`row_writes3`, `row_land3`). The window's
  buffer is its 128 rows (`pointsTo_rows3`), so 128 transfers may be in flight into it at once; the array is split into read
  shares, one per transfer in flight (`toks3`), so 128 transfers may read it at once, two of them the same row.
-/
import proofs.«412556_j37890201485521_3_alg».proof.Proof.Gen.KernelIdeal
import proofs.«412556_j37890201485521_3_alg».proof.Proof.Gather3Defs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands -/

/-- The index table and the HBM array as the kernel is handed them: whole buffers. -/
abbrev tbM3 : Memref sig .tc .smem S4096 .i32 := Memref.whole main_v54
abbrev hbM3 : Memref sig .tc .hbm S100000x64 .f32 := Memref.whole main_v52

/-- A memref's buffer on core `c`: its contents type, and it held whole at share `q` at contents `f`. -/
abbrev MBuf3 (c : Dev nD) {sp : Space} {S : Shape} {e : EltTy} (M : Memref sig .tc sp S e) : Type := Buf (Elt F) (M.view.loc (c : Thread nD τ))
abbrev mPt3 (c : Dev nD) {sp : Space} {S : Shape} {e : EltTy} (M : Memref sig .tc sp S e) (q : PosShare TreeShare) (f : MBuf3 (F := F) c M) : sProp 𝕄 :=
  M.view.loc (c : Thread nD τ) ↦{q} f

/-- Row `j` of the output window as the kernel names it: the window's slice at row `j`, its unit axis dropped. -/
abbrev row3 (arg3 : Memref sig .tc .vmem S128x64 .f32) (j : ℕ) (h : ∀ a, (![j, 0] : Fin 2 → ℕ) a + S1x64.size a ≤ S128x64.size a) : Memref sig .tc .vmem S64 .f32 :=
  (arg3.slice (Rect.unit (s := S128x64) ![j, 0] S1x64.size h) (fun _ => rfl)).squeeze S64 squeezes_S1x64_S64
/-- A row's own elements held at the full share. -/
abbrev rowPt3 (c : Dev nD) (M : Memref sig .tc .vmem S64 .f32) (f : MBuf3 (F := F) c M) : sProp 𝕄 :=
  M.view.loc (c : Thread nD τ) ↦[M.view.set]{fullShare} f

/-- The kernel's own DMA semaphores, cell by cell. -/
abbrev osem3 : Fin 128 → SemLoc sig := fun j => SemLoc.dma (cc3_scratch0.ix (ix1 (n := 128) j))

/-! ## The table -/

/-- A load through the whole table reads the table's entry at the load's index. -/
theorem tb_readAt3 (tb : Vec F S4096 .i32) (B : LoadRect S4096) (x : B.shape.Idx) :
    tbM3.view.readAt (Elt F) B tb x = tb (B.idx x) := rfl

/-- Every word a load reads off a table whose entries are below 100000 is below 100000. -/
theorem tb_lt3 (tb : Vec F S4096 .i32) (htb : ∀ j : Fin 4096, BitVec.toNat (tb (ix1 j)) < 100000)
    (B : LoadRect S4096) (x : B.shape.Idx) : BitVec.toNat (tbM3.view.readAt (Elt F) B tb x) < 100000 := by
  rw [tb_readAt3]
  have h := htb ((B.idx x) 0)
  have e : B.idx x = ix1 (n := 4096) ((B.idx x) 0) := eq_ix1 (n := 4096) (B.idx x)
  rw [e]; exact h

/-- The word a scalar load reads at position `p`. -/
theorem tb_word3 (tb : Vec F S4096 .i32) (off : Fin 1 → ℕ) (h : ∀ a, off a + S1.size a ≤ S4096.size a)
    (x : (Rect.unit (s := S4096) off S1.size h).toLoadRect.shape.Idx) (p : Fin 4096) (hp : off 0 = p.val) :
    tbM3.view.readAt (Elt F) (Rect.unit (s := S4096) off S1.size h).toLoadRect tb x = tb (ix1 p) := by
  rw [tb_readAt3]
  congr 1
  funext a
  match a with
  | ⟨0, _⟩ =>
    apply Fin.ext
    show off 0 + 1 * (x 0).val = p.val
    have hx : (x 0).val < 1 := (x 0).isLt
    omega

/-! ## A row of the HBM array -/

/-- The index a row view of a two-axis array reads for its own index `y`: row `r`, column `y`. -/
theorem row_emb3 {n0 : ℕ} (r : ℕ) (h : ∀ a, (![r, 0] : Fin 2 → ℕ) a + S1x64.size a ≤ (⟨2, ![n0, 64]⟩ : Shape).size a)
    (y : S64.Idx) (hr : r < n0) :
    (Rect.unit (s := (⟨2, ![n0, 64]⟩ : Shape)) ![r, 0] S1x64.size h).emb (Shape.reshapeEquiv squeezes_S1x64_S64.numel_eq y)
      = ix2 (n0 := n0) (n1 := 64) ⟨r, hr⟩ (y 0) := by
  have e : Shape.reshapeEquiv squeezes_S1x64_S64.numel_eq y = Fin.cons ⟨0, Nat.one_pos⟩ y :=
    Shape.reshapeEquiv_cons_one (n := 1) (d := ![64]) squeezes_S1x64_S64.numel_eq y
  rw [e]
  funext a
  match a with
  | ⟨0, _⟩ => exact Fin.ext (by show r + 1 * 0 = r; omega)
  | ⟨1, _⟩ => exact Fin.ext (by show 0 + 1 * (y 0).val = (y 0).val; omega)

/-- The side condition the kernel assumes of a table word `v` — row `v` of the array is in range, stated once for the
    transfer's start and once for its wait — holds of a word below 100000. -/
theorem chk3_of_lt (v : BitVec 32) (h : v.toNat < 100000) :
    (∀ a, (![v.toNat, 0] : Fin 2 → ℕ) a + S1x64.size a ≤ S100000x64.size a)
      ∧ (∀ a, (![v.toNat, 0] : Fin 2 → ℕ) a + S1x64.size a ≤ S100000x64.size a) := by
  have key : ∀ a, (![v.toNat, 0] : Fin 2 → ℕ) a + S1x64.size a ≤ S100000x64.size a := by
    intro a
    match a with
    | ⟨0, _⟩ => show v.toNat + 1 ≤ 100000; omega
    | ⟨1, _⟩ => show 0 + 64 ≤ 64; omega
  exact ⟨key, key⟩

/-! ## What a transfer of one row moves, and what it leaves -/

/-- Row `off 0` of the HBM array as a memref: the array's slice at offsets `off`, its unit axis dropped. -/
abbrev src3 (off : Fin 2 → ℕ) (h : ∀ a, off a + S1x64.size a ≤ S100000x64.size a) : Memref sig .tc .hbm S64 .f32 :=
  (hbM3.slice (Rect.unit (s := S100000x64) off S1x64.size h) (fun _ => rfl)).squeeze S64 squeezes_S1x64_S64

/-- What the row view reads of the array: the array at row `r`. -/
theorem src_read3 (fh : Vec F S100000x64 .f32) (r : ℕ) (h : ∀ a, (![r, 0] : Fin 2 → ℕ) a + S1x64.size a ≤ S100000x64.size a)
    (hr : r < 100000) (y : S64.Idx) :
    (src3 ![r, 0] h).view.read (Elt F) fh y = fh (ix2 (n0 := 100000) (n1 := 64) ⟨r, hr⟩ (y 0)) := by
  show fh ((Rect.unit (s := S100000x64) ![r, 0] S1x64.size h).emb (Shape.reshapeEquiv squeezes_S1x64_S64.numel_eq y)) = _
  rw [row_emb3 (n0 := 100000) r h y hr]

/-- The payload of the transfer for a table word `v` below 100000 is the row of `fh` that `gathered3` names. -/
theorem pay3 (fh : Vec F S100000x64 .f32) (v : BitVec 32) (h : ∀ a, (![v.toNat, 0] : Fin 2 → ℕ) a + S1x64.size a ≤ S100000x64.size a)
    (hv : v.toNat < 100000) (y : S64.Idx) :
    ReadAs.same.apply ((src3 ![v.toNat, 0] h).view.read (Elt F) fh) y
      = fh (ix2 (n0 := 100000) (n1 := 64) (gathered3_row v) (y 0)) := by
  show (src3 ![v.toNat, 0] h).view.read (Elt F) fh y = _
  rw [src_read3 fh v.toNat h hv y]
  congr 2
  exact Fin.ext (gathered3_row_of_lt v hv).symm

/-- Row `t` of the output window, landed: on the row's elements, the row's buffer with the payload `w` written whole
    is the window's buffer with `X` written whole, when `w` is row `t` of `X`. -/
theorem row_writes3 (c : Dev nD) (arg3 : Memref sig .tc .vmem S128x64 .f32) (t : ℕ) (ht : t < 128)
    (h : ∀ a, (![t, 0] : Fin 2 → ℕ) a + S1x64.size a ≤ S128x64.size a)
    (f : Buf (Elt F) (arg3.view.loc (c : Thread nD τ))) (w : S64.Idx → Elt F .f32) (X : Vec F S128x64 .f32)
    (hw : ∀ y : S64.Idx, w y = X (ix2 (n0 := 128) (n1 := 64) ⟨t, ht⟩ (y 0))) :
    ∀ x ∈ (row3 arg3 t h).view.set,
      (row3 arg3 t h).view.writes (Elt F) f [⟨Rect.whole S64, w⟩] x = arg3.view.write (Elt F) f X Finset.univ x := by
  intro x hx
  obtain ⟨y, -, rfl⟩ := Finset.mem_map.mp hx
  rw [← View.write_univ_eq_writes_whole, View.writes_nil, View.write_emb_of_mem _ _ (Finset.mem_univ _)]
  have e : (row3 arg3 t h).view.emb y = arg3.view.emb (ix2 (n0 := 128) (n1 := 64) ⟨t, ht⟩ (y 0)) := by
    show arg3.view.emb ((Rect.unit (s := S128x64) ![t, 0] S1x64.size h).emb (Shape.reshapeEquiv squeezes_S1x64_S64.numel_eq y)) = _
    rw [row_emb3 (n0 := 128) t h y ht]
  rw [e, View.write_emb_of_mem _ _ (Finset.mem_univ _), hw]

/-! ## The window row by row -/

/-- Row `t` of the window, as a rectangle. -/
theorem rowInb3 (t : Fin 128) : ∀ a, (![t.val, 0] : Fin 2 → ℕ) a + S1x64.size a ≤ S128x64.size a :=
  Rect.inb₂ (by show t.val + 1 ≤ 128; omega) (by show 0 + 64 ≤ 64; omega)
def rowRect3 (t : Fin 128) : Rect S128x64 := Rect.unit (s := S128x64) ![t.val, 0] S1x64.size (rowInb3 t)

theorem rowRect3_disj (t t' : Fin 128) (h : t ≠ t') : Disjoint (rowRect3 t).set (rowRect3 t').set :=
  Rect.unit_disjoint 0 (by show t.val + 1 ≤ t'.val ∨ t'.val + 1 ≤ t.val; have := Fin.val_ne_of_ne h; omega)

theorem rowRect3_cov : (Finset.univ : Finset (Fin 128)).biUnion (fun t => (rowRect3 t).set) = Finset.univ := by
  ext x
  simp only [Finset.mem_biUnion, Finset.mem_univ, true_and, iff_true]
  refine ⟨x 0, Rect.mem_set_unit.mpr fun a => ?_⟩
  match a with
  | ⟨0, _⟩ => exact ⟨Nat.le_refl _, Nat.lt_succ_self _⟩
  | ⟨1, _⟩ =>
    have h1 : (x 1).val < 64 := (x 1).isLt
    exact ⟨Nat.zero_le _, by show (x 1).val < 0 + 64; omega⟩

/-- The window's buffer at contents `g` is its 128 rows at `g`. -/
theorem pointsTo_rows3 (c : Dev nD) (arg3 : Memref sig .tc .vmem S128x64 .f32) (q : PosShare TreeShare)
    (g : Buf (Elt F) (arg3.view.loc (c : Thread nD τ))) :
    (arg3.view.loc (c : Thread nD τ) ↦[arg3.view.set]{q} g : sProp 𝕄)
      = bigSep Finset.univ fun t : Fin 128 => (arg3.view.loc (c : Thread nD τ) ↦[(row3 arg3 t.val (rowInb3 t)).view.set]{q} g : sProp 𝕄) := by
  rw [pointsTo_rects (c : Thread nD τ) arg3 q rowRect3 (fun _ _ => rfl) rowRect3_disj rowRect3_cov g]
  refine BI.bigSep_congr fun t _ => ?_
  rw [owns_slice_read (c : Thread nD τ) arg3 q (rowRect3 t) (fun _ => rfl) g]
  exact congrArg (fun S => (arg3.view.loc (c : Thread nD τ) ↦[S]{q} g : sProp 𝕄))
    (View.set_reshape (v := arg3.view.slice (rowRect3 t)) squeezes_S1x64_S64.numel_eq).symm

/-! ## The HBM array as read tokens, the cells listed -/

/-- Halving `a` times and then `i` times is halving `a + i` times. -/
theorem shareDrop_add3 (q : PosShare TreeShare) (a : ℕ) : ∀ i, Transfers.shareDrop (Transfers.shareDrop q a) i = Transfers.shareDrop q (a + i)
  | 0 => rfl
  | i + 1 => by
    show (Transfers.shareDrop (Transfers.shareDrop q a) i).left = (Transfers.shareDrop q (a + i)).left
    rw [shareDrop_add3 q a i]

/-- A read token of what remains after `a` tokens is a later token of the whole. -/
theorem shareTokN_add3 (q : PosShare TreeShare) (a i : ℕ) : Transfers.shareTokN (Transfers.shareDrop q a) i = Transfers.shareTokN q (a + i) := by
  unfold Transfers.shareTokN; rw [shareDrop_add3]

/-- The array whole is: what remains after `a + 128` tokens, the first `a` tokens (never lent), and tokens `a` … `a + 127`, one for
    each transfer in flight. -/
theorem toks3 (c : Dev nD) (fh : MBuf3 (F := F) c hbM3) (a : ℕ) :
    (mPt3 c hbM3 fullShare fh : sProp 𝕄)
      ⊣⊢ iprop(mPt3 c hbM3 (Transfers.shareDrop fullShare (a + 128)) fh
          ∗ BI.bigSep (Finset.range a) (fun k => mPt3 c hbM3 (Transfers.shareTokN fullShare k) fh)
          ∗ BI.bigSep (Finset.range 128) (fun k => mPt3 c hbM3 (Transfers.shareTokN fullShare (a + k)) fh)) := by
  have h1 := Transfers.pointsTo_toks_range (Ix := Unit) (Name := ℕ) (U := Pipeline.UD sig nD τ) (Lvl := ℕ) (Val := Elt F)
    (ℓ := hbM3.view.loc (c : Thread nD τ)) (S := Finset.univ) (f := fh) fullShare a
  have h2 := Transfers.pointsTo_toks_range (Ix := Unit) (Name := ℕ) (U := Pipeline.UD sig nD τ) (Lvl := ℕ) (Val := Elt F)
    (ℓ := hbM3.view.loc (c : Thread nD τ)) (S := Finset.univ) (f := fh) (Transfers.shareDrop fullShare a) 128
  simp only [shareTokN_add3, shareDrop_add3] at h2
  constructor
  · refine h1.1.trans ((sep_mono_left h2.1).trans ?_)
    iintro ⟨⟨Hd, Ht⟩, Hx⟩
    isplitl [Hd]; · iexact Hd
    isplitl [Hx]; · iexact Hx
    iexact Ht
  · refine BIBase.Entails.trans ?_ ((sep_mono_left h2.2).trans h1.2)
    iintro ⟨Hd, Hx, Ht⟩
    isplitl [Hd Ht]; · isplitl [Hd] <;> iassumption
    iexact Hx

/-! ## A row landed, in closed form -/

/-- The payload of the transfer whose table word was read at position `128 * i + t` is row `t` of `gathered3`. -/
theorem pay_gathered3 (i : grid3.Coords) (tb : Vec F S4096 .i32) (fh : Vec F S100000x64 .f32)
    (htb : ∀ j : Fin 4096, BitVec.toNat (tb (ix1 j)) < 100000) (t : Fin 128)
    (offA : Fin 1 → ℕ) (hA : ∀ a, offA a + S1.size a ≤ S4096.size a) (hoffA : offA = ![128 * (i 0).val + t.val])
    (x : (Rect.unit (s := S4096) offA S1.size hA).toLoadRect.shape.Idx)
    (hB : ∀ a, (![BitVec.toNat (tbM3.view.readAt (Elt F) (Rect.unit (s := S4096) offA S1.size hA).toLoadRect tb x), 0] : Fin 2 → ℕ) a
      + S1x64.size a ≤ S100000x64.size a)
    (y : S64.Idx) :
    ReadAs.same.apply ((src3 ![BitVec.toNat (tbM3.view.readAt (Elt F) (Rect.unit (s := S4096) offA S1.size hA).toLoadRect tb x), 0] hB).view.read (Elt F) fh) y
      = gathered3 i tb fh (ix2 (n0 := 128) (n1 := 64) t (y 0)) := by
  have hv : tbM3.view.readAt (Elt F) (Rect.unit (s := S4096) offA S1.size hA).toLoadRect tb x = tb (ix1 (gathered3_pos i t)) :=
    tb_word3 tb offA hA x (gathered3_pos i t) (by rw [hoffA, gathered3_pos_val]; rfl)
  rw [pay3 fh _ hB (tb_lt3 tb htb _ _) y, hv]
  rfl

/-- Row `t` landed, restated over the window's buffer with `gathered3` written whole. -/
theorem row_land3 (c : Dev nD) (i : grid3.Coords) (arg3 : Memref sig .tc .vmem S128x64 .f32) (t : ℕ) (ht : t < 128)
    (h : ∀ a, (![t, 0] : Fin 2 → ℕ) a + S1x64.size a ≤ S128x64.size a)
    (f : Buf (Elt F) (arg3.view.loc (c : Thread nD τ))) (tb : Vec F S4096 .i32) (fh : Vec F S100000x64 .f32)
    (w : S64.Idx → Elt F .f32)
    (hw : ∀ y : S64.Idx, w y = gathered3 i tb fh (ix2 (n0 := 128) (n1 := 64) ⟨t, ht⟩ (y 0))) :
    (rowPt3 c (row3 arg3 t h) ((row3 arg3 t h).view.writes (Elt F) f [⟨Rect.whole S64, w⟩]) : sProp 𝕄)
      ⊢ rowPt3 c (row3 arg3 t h) (arg3.view.write (Elt F) f (gathered3 i tb fh) Finset.univ) :=
  Entails.of_eq (pointsTo_congr (row_writes3 c arg3 t ht h f w (gathered3 i tb fh) hw))

/-! ## The window whole again -/

/-- The window's buffer with `X` written through it whole is the window owned at `X`. -/
theorem owns_of_write3 (c : Dev nD) (arg3 : Memref sig .tc .vmem S128x64 .f32) (f : Buf (Elt F) (arg3.view.loc (c : Thread nD τ)))
    (X : Vec F S128x64 .f32) :
    (arg3.view.loc (c : Thread nD τ) ↦[arg3.view.set]{fullShare} arg3.view.write (Elt F) f X Finset.univ : sProp 𝕄)
      ⊢ owns (c : Thread nD τ) arg3 fullShare X := by
  unfold owns
  iintro H
  iexists (arg3.view.write (Elt F) f X Finset.univ)
  isplitr
  · ipureintro; exact View.read_write_univ _ _
  iexact H

end Cert.KernelIdeal.Hand
-- ==== Proof.GatherBody3.lean ====
/-
  The body of the row gather (custom call 3) on whole operands: the triple the region's proof data consume.

  At grid point `i` the kernel is handed its output window's staging memref `arg3`, the index table (scalar memory) and the
  HBM array whole, and its 128 DMA semaphores at zero. `gatherBody3`: if every table entry is below 100000, the body runs to a
  continuation that holds the window at `gathered3 i tb fh` — row `y0` of the window is row `tb (128 * i + y0)` of the array —
  and everything else as it was. The proof restates the three whole holdings as the lists the run is stated over — the
  window row by row (`rows_list3`), the array as read shares (`toks3`, `toks_list3`: the shares below the cells' numbers and
  what remains after them are never lent, and wait here), the cells one by one (`cells_list3`) —, runs the body
  (`gatherRun3`), and puts each list back: the rows, each at `gathered3` written through the window, are the window owned
  at `gathered3` (`owns_of_write3`).
-/
import proofs.«412556_j37890201485521_3_alg».proof.Proof.GatherRun3

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- THE BODY'S TRIPLE: on the window owned at anything, the table and the array whole, the kernel's cells at zero and the
    core's `owes`, the body of custom call 3 at grid point `i` runs to the continuation holding the window at `gathered3 i tb fh`,
    the table, the array and the cells as they were, and some `owes`. -/
theorem gatherBody3 (tb : Vec F S4096 .i32) (fh : Vec F S100000x64 .f32)
    (htb : ∀ j : Fin 4096, BitVec.toNat (tb (ix1 j)) < 100000)
    (c : Dev nD) (i : grid3.Coords) (arg3 : Memref sig .tc .vmem S128x64 .f32) (harg3 : arg3.IsWhole)
    (W : Waits sig Unit) (K : PUnit → sProp 𝕄) :
    iprop((∃ d, owns (c : Thread nD τ) arg3 fullShare d)
        ∗ (((c : Thread nD τ).loc main_v54) ↦{fullShare} tb)
        ∗ (((c : Thread nD τ).loc main_v52) ↦{fullShare} fh)
        ∗ Pipeline.ownSems0 (Ix := Unit) (Name := ℕ) (U := Pipeline.UD sig nD τ) (Lvl := ℕ) (Val := Elt F) (τ := τ) osem3 c
        ∗ owes (c : Thread nD τ) 0 W
        ∗ (iprop(owns (c : Thread nD τ) arg3 fullShare (gathered3 i tb fh)
            ∗ (((c : Thread nD τ).loc main_v54) ↦{fullShare} tb)
            ∗ (((c : Thread nD τ).loc main_v52) ↦{fullShare} fh)
            ∗ Pipeline.ownSems0 (Ix := Unit) (Name := ℕ) (U := Pipeline.UD sig nD τ) (Lvl := ℕ) (Val := Elt F) (τ := τ) osem3 c
            ∗ (∃ W', owes (c : Thread nD τ) 0 W')) -∗ K ⟨⟩))
      ⊢ wp frame (wpE (defs₀ (F := F)) Variants.none c none) Set.univ
          (cc3__gather_kernel i (Memref.whole main_v54) (Memref.isWhole_whole _) (Memref.whole main_v52) (Memref.isWhole_whole _) arg3 harg3 cc3_scratch0) K := by
  iintro ⟨⟨%d, Hown⟩, HT, HH, HS, HW, Hk⟩
  -- the window's buffer at its contents, row by row
  icases (show owns (c : Thread nD τ) arg3 fullShare d
      ⊢ iprop(∃ f, ⌜arg3.view.read (Elt F) f = d⌝ ∗ arg3.view.loc (c : Thread nD τ) ↦[arg3.view.set]{fullShare} f) from .rfl) $$ Hown with ⟨%f, -, H1⟩
  icases (Entails.of_eq (rows_list3 c arg3 f)) $$ H1 with H1
  -- the array as read shares: what remains, the shares below the cells' numbers, the cells' shares
  icases ((toks3 c fh semBase3).1) $$ HH with ⟨Hd, Hx, HH⟩
  icases (Entails.of_eq (toks_list3 c fh)) $$ HH with HH
  -- the cells one by one
  icases (Entails.of_eq (cells_list3 (F := F) c)) $$ HS with HS
  iapply (gatherRun3 c i arg3 harg3 tb fh f htb W K)
  isplitl [H1]; · iexact H1
  isplitl [HT]; · iexact HT
  isplitl [HH]; · iexact HH
  isplitl [HS]; · iexact HS
  isplitl [HW]; · iexact HW
  iintro ⟨H1, HT, HH, HS, HW⟩
  iapply Hk
  isplitl [H1]
  · icases (Entails.of_eq (rows_list3 c arg3 (arg3.view.write (Elt F) f (gathered3 i tb fh) Finset.univ)).symm) $$ H1 with H1
    iapply (owns_of_write3 c arg3 f (gathered3 i tb fh))
    iexact H1
  isplitl [HT]; · iexact HT
  isplitl [Hd Hx HH]
  · icases (Entails.of_eq (toks_list3 c fh).symm) $$ HH with HH
    iapply ((toks3 c fh semBase3).2)
    isplitl [Hd]; · iexact Hd
    isplitl [Hx]; · iexact Hx
    iexact HH
  isplitl [HS]
  · icases (Entails.of_eq (cells_list3 (F := F) c).symm) $$ HS with HS
    iexact HS
  iexact HW

end Cert.KernelIdeal.Hand

end
-- ==== Proof.GatherLemmas4.lean ====
/-
  The lemmas of the row gather (custom call 3): what its table reads give, what each row transfer moves and leaves, the
  output window held row by row, and the HBM array held as one read share per transfer in flight.

  At grid point `i` the kernel reads, for each `t < 128`, the word at position `128 * i + t` of the index table, and starts a
  transfer of that row of the HBM array into row `t` of its output window, each on a semaphore of its own; then it waits
  for all 128. The statements here are about ONE row: the word read is the table's entry (`tb_word4`), below 50000 under
  the range hypothesis (`tb_lt4`: the side condition the kernel assumes of it, `chk4_of_lt`); the transfer moves row
  `gathered4_row v` of the array (`pay4`), which is row `t` of `gathered4` (`pay_gathered4`); landed in the window's row `t`, it
  leaves there what the window holds when `gathered4` is written through it whole (`row_writes4`, `row_land4`). The window's
  buffer is its 128 rows (`pointsTo_rows4`), so 128 transfers may be in flight into it at once; the array is split into read
  shares, one per transfer in flight (`toks4`), so 128 transfers may read it at once, two of them the same row.
-/
import proofs.«412556_j37890201485521_3_alg».proof.Proof.Gen.KernelIdeal
import proofs.«412556_j37890201485521_3_alg».proof.Proof.Gather4Defs
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands -/

/-- The index table and the HBM array as the kernel is handed them: whole buffers. -/
abbrev tbM4 : Memref sig .tc .smem S4096 .i32 := Memref.whole main_v56
abbrev hbM4 : Memref sig .tc .hbm S50000x64 .f32 := Memref.whole main_v53

/-- A memref's buffer on core `c`: its contents type, and it held whole at share `q` at contents `f`. -/
abbrev MBuf4 (c : Dev nD) {sp : Space} {S : Shape} {e : EltTy} (M : Memref sig .tc sp S e) : Type := Buf (Elt F) (M.view.loc (c : Thread nD τ))
abbrev mPt4 (c : Dev nD) {sp : Space} {S : Shape} {e : EltTy} (M : Memref sig .tc sp S e) (q : PosShare TreeShare) (f : MBuf4 (F := F) c M) : sProp 𝕄 :=
  M.view.loc (c : Thread nD τ) ↦{q} f

/-- Row `j` of the output window as the kernel names it: the window's slice at row `j`, its unit axis dropped. -/
abbrev row4 (arg3 : Memref sig .tc .vmem S128x64 .f32) (j : ℕ) (h : ∀ a, (![j, 0] : Fin 2 → ℕ) a + S1x64.size a ≤ S128x64.size a) : Memref sig .tc .vmem S64 .f32 :=
  (arg3.slice (Rect.unit (s := S128x64) ![j, 0] S1x64.size h) (fun _ => rfl)).squeeze S64 squeezes_S1x64_S64
/-- A row's own elements held at the full share. -/
abbrev rowPt4 (c : Dev nD) (M : Memref sig .tc .vmem S64 .f32) (f : MBuf4 (F := F) c M) : sProp 𝕄 :=
  M.view.loc (c : Thread nD τ) ↦[M.view.set]{fullShare} f

/-- The kernel's own DMA semaphores, cell by cell. -/
abbrev osem4 : Fin 128 → SemLoc sig := fun j => SemLoc.dma (cc4_scratch0.ix (ix1 (n := 128) j))

/-! ## The table -/

/-- A load through the whole table reads the table's entry at the load's index. -/
theorem tb_readAt4 (tb : Vec F S4096 .i32) (B : LoadRect S4096) (x : B.shape.Idx) :
    tbM4.view.readAt (Elt F) B tb x = tb (B.idx x) := rfl

/-- Every word a load reads off a table whose entries are below 50000 is below 50000. -/
theorem tb_lt4 (tb : Vec F S4096 .i32) (htb : ∀ j : Fin 4096, BitVec.toNat (tb (ix1 j)) < 50000)
    (B : LoadRect S4096) (x : B.shape.Idx) : BitVec.toNat (tbM4.view.readAt (Elt F) B tb x) < 50000 := by
  rw [tb_readAt4]
  have h := htb ((B.idx x) 0)
  have e : B.idx x = ix1 (n := 4096) ((B.idx x) 0) := eq_ix1 (n := 4096) (B.idx x)
  rw [e]; exact h

/-- The word a scalar load reads at position `p`. -/
theorem tb_word4 (tb : Vec F S4096 .i32) (off : Fin 1 → ℕ) (h : ∀ a, off a + S1.size a ≤ S4096.size a)
    (x : (Rect.unit (s := S4096) off S1.size h).toLoadRect.shape.Idx) (p : Fin 4096) (hp : off 0 = p.val) :
    tbM4.view.readAt (Elt F) (Rect.unit (s := S4096) off S1.size h).toLoadRect tb x = tb (ix1 p) := by
  rw [tb_readAt4]
  congr 1
  funext a
  match a with
  | ⟨0, _⟩ =>
    apply Fin.ext
    show off 0 + 1 * (x 0).val = p.val
    have hx : (x 0).val < 1 := (x 0).isLt
    omega

/-! ## A row of the HBM array -/

/-- The index a row view of a two-axis array reads for its own index `y`: row `r`, column `y`. -/
theorem row_emb4 {n0 : ℕ} (r : ℕ) (h : ∀ a, (![r, 0] : Fin 2 → ℕ) a + S1x64.size a ≤ (⟨2, ![n0, 64]⟩ : Shape).size a)
    (y : S64.Idx) (hr : r < n0) :
    (Rect.unit (s := (⟨2, ![n0, 64]⟩ : Shape)) ![r, 0] S1x64.size h).emb (Shape.reshapeEquiv squeezes_S1x64_S64.numel_eq y)
      = ix2 (n0 := n0) (n1 := 64) ⟨r, hr⟩ (y 0) := by
  have e : Shape.reshapeEquiv squeezes_S1x64_S64.numel_eq y = Fin.cons ⟨0, Nat.one_pos⟩ y :=
    Shape.reshapeEquiv_cons_one (n := 1) (d := ![64]) squeezes_S1x64_S64.numel_eq y
  rw [e]
  funext a
  match a with
  | ⟨0, _⟩ => exact Fin.ext (by show r + 1 * 0 = r; omega)
  | ⟨1, _⟩ => exact Fin.ext (by show 0 + 1 * (y 0).val = (y 0).val; omega)

/-- The side condition the kernel assumes of a table word `v` — row `v` of the array is in range, stated once for the
    transfer's start and once for its wait — holds of a word below 50000. -/
theorem chk4_of_lt (v : BitVec 32) (h : v.toNat < 50000) :
    (∀ a, (![v.toNat, 0] : Fin 2 → ℕ) a + S1x64.size a ≤ S50000x64.size a)
      ∧ (∀ a, (![v.toNat, 0] : Fin 2 → ℕ) a + S1x64.size a ≤ S50000x64.size a) := by
  have key : ∀ a, (![v.toNat, 0] : Fin 2 → ℕ) a + S1x64.size a ≤ S50000x64.size a := by
    intro a
    match a with
    | ⟨0, _⟩ => show v.toNat + 1 ≤ 50000; omega
    | ⟨1, _⟩ => show 0 + 64 ≤ 64; omega
  exact ⟨key, key⟩

/-! ## What a transfer of one row moves, and what it leaves -/

/-- Row `off 0` of the HBM array as a memref: the array's slice at offsets `off`, its unit axis dropped. -/
abbrev src4 (off : Fin 2 → ℕ) (h : ∀ a, off a + S1x64.size a ≤ S50000x64.size a) : Memref sig .tc .hbm S64 .f32 :=
  (hbM4.slice (Rect.unit (s := S50000x64) off S1x64.size h) (fun _ => rfl)).squeeze S64 squeezes_S1x64_S64

/-- What the row view reads of the array: the array at row `r`. -/
theorem src_read4 (fh : Vec F S50000x64 .f32) (r : ℕ) (h : ∀ a, (![r, 0] : Fin 2 → ℕ) a + S1x64.size a ≤ S50000x64.size a)
    (hr : r < 50000) (y : S64.Idx) :
    (src4 ![r, 0] h).view.read (Elt F) fh y = fh (ix2 (n0 := 50000) (n1 := 64) ⟨r, hr⟩ (y 0)) := by
  show fh ((Rect.unit (s := S50000x64) ![r, 0] S1x64.size h).emb (Shape.reshapeEquiv squeezes_S1x64_S64.numel_eq y)) = _
  rw [row_emb4 (n0 := 50000) r h y hr]

/-- The payload of the transfer for a table word `v` below 50000 is the row of `fh` that `gathered4` names. -/
theorem pay4 (fh : Vec F S50000x64 .f32) (v : BitVec 32) (h : ∀ a, (![v.toNat, 0] : Fin 2 → ℕ) a + S1x64.size a ≤ S50000x64.size a)
    (hv : v.toNat < 50000) (y : S64.Idx) :
    ReadAs.same.apply ((src4 ![v.toNat, 0] h).view.read (Elt F) fh) y
      = fh (ix2 (n0 := 50000) (n1 := 64) (gathered4_row v) (y 0)) := by
  show (src4 ![v.toNat, 0] h).view.read (Elt F) fh y = _
  rw [src_read4 fh v.toNat h hv y]
  congr 2
  exact Fin.ext (gathered4_row_of_lt v hv).symm

/-- Row `t` of the output window, landed: on the row's elements, the row's buffer with the payload `w` written whole
    is the window's buffer with `X` written whole, when `w` is row `t` of `X`. -/
theorem row_writes4 (c : Dev nD) (arg3 : Memref sig .tc .vmem S128x64 .f32) (t : ℕ) (ht : t < 128)
    (h : ∀ a, (![t, 0] : Fin 2 → ℕ) a + S1x64.size a ≤ S128x64.size a)
    (f : Buf (Elt F) (arg3.view.loc (c : Thread nD τ))) (w : S64.Idx → Elt F .f32) (X : Vec F S128x64 .f32)
    (hw : ∀ y : S64.Idx, w y = X (ix2 (n0 := 128) (n1 := 64) ⟨t, ht⟩ (y 0))) :
    ∀ x ∈ (row4 arg3 t h).view.set,
      (row4 arg3 t h).view.writes (Elt F) f [⟨Rect.whole S64, w⟩] x = arg3.view.write (Elt F) f X Finset.univ x := by
  intro x hx
  obtain ⟨y, -, rfl⟩ := Finset.mem_map.mp hx
  rw [← View.write_univ_eq_writes_whole, View.writes_nil, View.write_emb_of_mem _ _ (Finset.mem_univ _)]
  have e : (row4 arg3 t h).view.emb y = arg3.view.emb (ix2 (n0 := 128) (n1 := 64) ⟨t, ht⟩ (y 0)) := by
    show arg3.view.emb ((Rect.unit (s := S128x64) ![t, 0] S1x64.size h).emb (Shape.reshapeEquiv squeezes_S1x64_S64.numel_eq y)) = _
    rw [row_emb4 (n0 := 128) t h y ht]
  rw [e, View.write_emb_of_mem _ _ (Finset.mem_univ _), hw]

/-! ## The window row by row -/

/-- Row `t` of the window, as a rectangle. -/
theorem rowInb4 (t : Fin 128) : ∀ a, (![t.val, 0] : Fin 2 → ℕ) a + S1x64.size a ≤ S128x64.size a :=
  Rect.inb₂ (by show t.val + 1 ≤ 128; omega) (by show 0 + 64 ≤ 64; omega)
def rowRect4 (t : Fin 128) : Rect S128x64 := Rect.unit (s := S128x64) ![t.val, 0] S1x64.size (rowInb4 t)

theorem rowRect4_disj (t t' : Fin 128) (h : t ≠ t') : Disjoint (rowRect4 t).set (rowRect4 t').set :=
  Rect.unit_disjoint 0 (by show t.val + 1 ≤ t'.val ∨ t'.val + 1 ≤ t.val; have := Fin.val_ne_of_ne h; omega)

theorem rowRect4_cov : (Finset.univ : Finset (Fin 128)).biUnion (fun t => (rowRect4 t).set) = Finset.univ := by
  ext x
  simp only [Finset.mem_biUnion, Finset.mem_univ, true_and, iff_true]
  refine ⟨x 0, Rect.mem_set_unit.mpr fun a => ?_⟩
  match a with
  | ⟨0, _⟩ => exact ⟨Nat.le_refl _, Nat.lt_succ_self _⟩
  | ⟨1, _⟩ =>
    have h1 : (x 1).val < 64 := (x 1).isLt
    exact ⟨Nat.zero_le _, by show (x 1).val < 0 + 64; omega⟩

/-- The window's buffer at contents `g` is its 128 rows at `g`. -/
theorem pointsTo_rows4 (c : Dev nD) (arg3 : Memref sig .tc .vmem S128x64 .f32) (q : PosShare TreeShare)
    (g : Buf (Elt F) (arg3.view.loc (c : Thread nD τ))) :
    (arg3.view.loc (c : Thread nD τ) ↦[arg3.view.set]{q} g : sProp 𝕄)
      = bigSep Finset.univ fun t : Fin 128 => (arg3.view.loc (c : Thread nD τ) ↦[(row4 arg3 t.val (rowInb4 t)).view.set]{q} g : sProp 𝕄) := by
  rw [pointsTo_rects (c : Thread nD τ) arg3 q rowRect4 (fun _ _ => rfl) rowRect4_disj rowRect4_cov g]
  refine BI.bigSep_congr fun t _ => ?_
  rw [owns_slice_read (c : Thread nD τ) arg3 q (rowRect4 t) (fun _ => rfl) g]
  exact congrArg (fun S => (arg3.view.loc (c : Thread nD τ) ↦[S]{q} g : sProp 𝕄))
    (View.set_reshape (v := arg3.view.slice (rowRect4 t)) squeezes_S1x64_S64.numel_eq).symm

/-! ## The HBM array as read tokens, the cells listed -/

/-- Halving `a` times and then `i` times is halving `a + i` times. -/
theorem shareDrop_add4 (q : PosShare TreeShare) (a : ℕ) : ∀ i, Transfers.shareDrop (Transfers.shareDrop q a) i = Transfers.shareDrop q (a + i)
  | 0 => rfl
  | i + 1 => by
    show (Transfers.shareDrop (Transfers.shareDrop q a) i).left = (Transfers.shareDrop q (a + i)).left
    rw [shareDrop_add4 q a i]

/-- A read token of what remains after `a` tokens is a later token of the whole. -/
theorem shareTokN_add4 (q : PosShare TreeShare) (a i : ℕ) : Transfers.shareTokN (Transfers.shareDrop q a) i = Transfers.shareTokN q (a + i) := by
  unfold Transfers.shareTokN; rw [shareDrop_add4]

/-- The array whole is: what remains after `a + 128` tokens, the first `a` tokens (never lent), and tokens `a` … `a + 127`, one for
    each transfer in flight. -/
theorem toks4 (c : Dev nD) (fh : MBuf4 (F := F) c hbM4) (a : ℕ) :
    (mPt4 c hbM4 fullShare fh : sProp 𝕄)
      ⊣⊢ iprop(mPt4 c hbM4 (Transfers.shareDrop fullShare (a + 128)) fh
          ∗ BI.bigSep (Finset.range a) (fun k => mPt4 c hbM4 (Transfers.shareTokN fullShare k) fh)
          ∗ BI.bigSep (Finset.range 128) (fun k => mPt4 c hbM4 (Transfers.shareTokN fullShare (a + k)) fh)) := by
  have h1 := Transfers.pointsTo_toks_range (Ix := Unit) (Name := ℕ) (U := Pipeline.UD sig nD τ) (Lvl := ℕ) (Val := Elt F)
    (ℓ := hbM4.view.loc (c : Thread nD τ)) (S := Finset.univ) (f := fh) fullShare a
  have h2 := Transfers.pointsTo_toks_range (Ix := Unit) (Name := ℕ) (U := Pipeline.UD sig nD τ) (Lvl := ℕ) (Val := Elt F)
    (ℓ := hbM4.view.loc (c : Thread nD τ)) (S := Finset.univ) (f := fh) (Transfers.shareDrop fullShare a) 128
  simp only [shareTokN_add4, shareDrop_add4] at h2
  constructor
  · refine h1.1.trans ((sep_mono_left h2.1).trans ?_)
    iintro ⟨⟨Hd, Ht⟩, Hx⟩
    isplitl [Hd]; · iexact Hd
    isplitl [Hx]; · iexact Hx
    iexact Ht
  · refine BIBase.Entails.trans ?_ ((sep_mono_left h2.2).trans h1.2)
    iintro ⟨Hd, Hx, Ht⟩
    isplitl [Hd Ht]; · isplitl [Hd] <;> iassumption
    iexact Hx

/-! ## A row landed, in closed form -/

/-- The payload of the transfer whose table word was read at position `128 * i + t` is row `t` of `gathered4`. -/
theorem pay_gathered4 (i : grid4.Coords) (tb : Vec F S4096 .i32) (fh : Vec F S50000x64 .f32)
    (htb : ∀ j : Fin 4096, BitVec.toNat (tb (ix1 j)) < 50000) (t : Fin 128)
    (offA : Fin 1 → ℕ) (hA : ∀ a, offA a + S1.size a ≤ S4096.size a) (hoffA : offA = ![128 * (i 0).val + t.val])
    (x : (Rect.unit (s := S4096) offA S1.size hA).toLoadRect.shape.Idx)
    (hB : ∀ a, (![BitVec.toNat (tbM4.view.readAt (Elt F) (Rect.unit (s := S4096) offA S1.size hA).toLoadRect tb x), 0] : Fin 2 → ℕ) a
      + S1x64.size a ≤ S50000x64.size a)
    (y : S64.Idx) :
    ReadAs.same.apply ((src4 ![BitVec.toNat (tbM4.view.readAt (Elt F) (Rect.unit (s := S4096) offA S1.size hA).toLoadRect tb x), 0] hB).view.read (Elt F) fh) y
      = gathered4 i tb fh (ix2 (n0 := 128) (n1 := 64) t (y 0)) := by
  have hv : tbM4.view.readAt (Elt F) (Rect.unit (s := S4096) offA S1.size hA).toLoadRect tb x = tb (ix1 (gathered4_pos i t)) :=
    tb_word4 tb offA hA x (gathered4_pos i t) (by rw [hoffA, gathered4_pos_val]; rfl)
  rw [pay4 fh _ hB (tb_lt4 tb htb _ _) y, hv]
  rfl

/-- Row `t` landed, restated over the window's buffer with `gathered4` written whole. -/
theorem row_land4 (c : Dev nD) (i : grid4.Coords) (arg3 : Memref sig .tc .vmem S128x64 .f32) (t : ℕ) (ht : t < 128)
    (h : ∀ a, (![t, 0] : Fin 2 → ℕ) a + S1x64.size a ≤ S128x64.size a)
    (f : Buf (Elt F) (arg3.view.loc (c : Thread nD τ))) (tb : Vec F S4096 .i32) (fh : Vec F S50000x64 .f32)
    (w : S64.Idx → Elt F .f32)
    (hw : ∀ y : S64.Idx, w y = gathered4 i tb fh (ix2 (n0 := 128) (n1 := 64) ⟨t, ht⟩ (y 0))) :
    (rowPt4 c (row4 arg3 t h) ((row4 arg3 t h).view.writes (Elt F) f [⟨Rect.whole S64, w⟩]) : sProp 𝕄)
      ⊢ rowPt4 c (row4 arg3 t h) (arg3.view.write (Elt F) f (gathered4 i tb fh) Finset.univ) :=
  Entails.of_eq (pointsTo_congr (row_writes4 c arg3 t ht h f w (gathered4 i tb fh) hw))

/-! ## The window whole again -/

/-- The window's buffer with `X` written through it whole is the window owned at `X`. -/
theorem owns_of_write4 (c : Dev nD) (arg3 : Memref sig .tc .vmem S128x64 .f32) (f : Buf (Elt F) (arg3.view.loc (c : Thread nD τ)))
    (X : Vec F S128x64 .f32) :
    (arg3.view.loc (c : Thread nD τ) ↦[arg3.view.set]{fullShare} arg3.view.write (Elt F) f X Finset.univ : sProp 𝕄)
      ⊢ owns (c : Thread nD τ) arg3 fullShare X := by
  unfold owns
  iintro H
  iexists (arg3.view.write (Elt F) f X Finset.univ)
  isplitr
  · ipureintro; exact View.read_write_univ _ _
  iexact H

end Cert.KernelIdeal.Hand
-- ==== Proof.GatherBody4.lean ====
/-
  The body of the row gather (custom call 4) on whole operands: the triple the region's proof data consume.

  At grid point `i` the kernel is handed its output window's staging memref `arg3`, the index table (scalar memory) and the
  HBM array whole, and its 128 DMA semaphores at zero. `gatherBody4`: if every table entry is below 50000, the body runs to a
  continuation that holds the window at `gathered4 i tb fh` — row `y0` of the window is row `tb (128 * i + y0)` of the array —
  and everything else as it was. The proof restates the three whole holdings as the lists the run is stated over — the
  window row by row (`rows_list4`), the array as read shares (`toks4`, `toks_list4`: the shares below the cells' numbers and
  what remains after them are never lent, and wait here), the cells one by one (`cells_list4`) —, runs the body
  (`gatherRun4`), and puts each list back: the rows, each at `gathered4` written through the window, are the window owned
  at `gathered4` (`owns_of_write4`).
-/
import proofs.«412556_j37890201485521_3_alg».proof.Proof.GatherRun4

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- THE BODY'S TRIPLE: on the window owned at anything, the table and the array whole, the kernel's cells at zero and the
    core's `owes`, the body of custom call 4 at grid point `i` runs to the continuation holding the window at `gathered4 i tb fh`,
    the table, the array and the cells as they were, and some `owes`. -/
theorem gatherBody4 (tb : Vec F S4096 .i32) (fh : Vec F S50000x64 .f32)
    (htb : ∀ j : Fin 4096, BitVec.toNat (tb (ix1 j)) < 50000)
    (c : Dev nD) (i : grid4.Coords) (arg3 : Memref sig .tc .vmem S128x64 .f32) (harg3 : arg3.IsWhole)
    (W : Waits sig Unit) (K : PUnit → sProp 𝕄) :
    iprop((∃ d, owns (c : Thread nD τ) arg3 fullShare d)
        ∗ (((c : Thread nD τ).loc main_v56) ↦{fullShare} tb)
        ∗ (((c : Thread nD τ).loc main_v53) ↦{fullShare} fh)
        ∗ Pipeline.ownSems0 (Ix := Unit) (Name := ℕ) (U := Pipeline.UD sig nD τ) (Lvl := ℕ) (Val := Elt F) (τ := τ) osem4 c
        ∗ owes (c : Thread nD τ) 0 W
        ∗ (iprop(owns (c : Thread nD τ) arg3 fullShare (gathered4 i tb fh)
            ∗ (((c : Thread nD τ).loc main_v56) ↦{fullShare} tb)
            ∗ (((c : Thread nD τ).loc main_v53) ↦{fullShare} fh)
            ∗ Pipeline.ownSems0 (Ix := Unit) (Name := ℕ) (U := Pipeline.UD sig nD τ) (Lvl := ℕ) (Val := Elt F) (τ := τ) osem4 c
            ∗ (∃ W', owes (c : Thread nD τ) 0 W')) -∗ K ⟨⟩))
      ⊢ wp frame (wpE (defs₀ (F := F)) Variants.none c none) Set.univ
          (cc4__gather_kernel i (Memref.whole main_v56) (Memref.isWhole_whole _) (Memref.whole main_v53) (Memref.isWhole_whole _) arg3 harg3 cc4_scratch0) K := by
  iintro ⟨⟨%d, Hown⟩, HT, HH, HS, HW, Hk⟩
  -- the window's buffer at its contents, row by row
  icases (show owns (c : Thread nD τ) arg3 fullShare d
      ⊢ iprop(∃ f, ⌜arg3.view.read (Elt F) f = d⌝ ∗ arg3.view.loc (c : Thread nD τ) ↦[arg3.view.set]{fullShare} f) from .rfl) $$ Hown with ⟨%f, -, H1⟩
  icases (Entails.of_eq (rows_list4 c arg3 f)) $$ H1 with H1
  -- the array as read shares: what remains, the shares below the cells' numbers, the cells' shares
  icases ((toks4 c fh semBase4).1) $$ HH with ⟨Hd, Hx, HH⟩
  icases (Entails.of_eq (toks_list4 c fh)) $$ HH with HH
  -- the cells one by one
  icases (Entails.of_eq (cells_list4 (F := F) c)) $$ HS with HS
  iapply (gatherRun4 c i arg3 harg3 tb fh f htb W K)
  isplitl [H1]; · iexact H1
  isplitl [HT]; · iexact HT
  isplitl [HH]; · iexact HH
  isplitl [HS]; · iexact HS
  isplitl [HW]; · iexact HW
  iintro ⟨H1, HT, HH, HS, HW⟩
  iapply Hk
  isplitl [H1]
  · icases (Entails.of_eq (rows_list4 c arg3 (arg3.view.write (Elt F) f (gathered4 i tb fh) Finset.univ)).symm) $$ H1 with H1
    iapply (owns_of_write4 c arg3 f (gathered4 i tb fh))
    iexact H1
  isplitl [HT]; · iexact HT
  isplitl [Hd Hx HH]
  · icases (Entails.of_eq (toks_list4 c fh).symm) $$ HH with HH
    iapply ((toks4 c fh semBase4).2)
    isplitl [Hd]; · iexact Hd
    isplitl [Hx]; · iexact Hx
    iexact HH
  isplitl [HS]
  · icases (Entails.of_eq (cells_list4 (F := F) c).symm) $$ HS with HS
    iexact HS
  iexact HW

end Cert.KernelIdeal.Hand

end
-- ==== Proof.RunMain.lean ====
/-
  The run of @main with nothing left to assume: each gathering call's body is the row-by-row copy proved for it, at
  the call's own table (the clipped ids, every entry a row of the array) and at the array the call finds.
-/
import proofs.«412556_j37890201485521_3_alg».proof.Proof.Run
import proofs.«412556_j37890201485521_3_alg».proof.Proof.TableRange
import proofs.«412556_j37890201485521_3_alg».proof.Proof.GatherBody3
import proofs.«412556_j37890201485521_3_alg».proof.Proof.GatherBody4

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (ρ : Dev nD → PrngReg)

/-- The first gathering call's body at the call's own table and array. -/
theorem body3 (c : Dev nD) : Body3 (atRefs (U8 m)) (a3 m) c :=
  fun i arg3 harg3 W K => gatherBody3 ((a3 m).1 0) (atRefs (U8 m) c main_v52) (table3_lt m) c i arg3 harg3 W K

/-- The second gathering call's body at the call's own table and array. -/
theorem body4 (c : Dev nD) : Body4 (atRefs (U11 m)) (a4 m) c :=
  fun i arg3 harg3 W K => gatherBody4 ((a4 m).1 0) (atRefs (U11 m) c main_v53) (table4_lt m) c i arg3 harg3 W K

/-- Every weakly fair execution of @main ends, nothing faulting, with the two results at the chain's last
    valuation and the seven arguments as launched. -/
theorem run_main : θ_run defs (onTc (τ := τ) (main (F := F))) ⟨m, fun _ => 0, ρ⟩ (fun r => ∀ c : Dev nD,
      r.2.mem ((c.tc : Thread nD τ).loc main_v55) = U12 m c main_v55
      ∧ r.2.mem ((c.tc : Thread nD τ).loc main_v57) = U12 m c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_main_of m ρ (body3 m) (body4 m)

end Cert.KernelIdeal.Hand

end
-- ==== Proof.KVal.lean ====
import proofs.«412556_j37890201485521_3_alg».proof.Proof.Fold
import proofs.«412556_j37890201485521_3_alg».proof.Proof.KSpec
import proofs.«412556_j37890201485521_3_alg».proof.Proof.KChain
import proofs.«412556_j37890201485521_3_alg».proof.Proof.Body3
import proofs.«412556_j37890201485521_3_alg».proof.Proof.Body4

/-! # The two results as terms of the seven arguments

The program's buffers are followed from the launch through the chain of boundary contents: a stretch of host
operations, then a call that replaces one array, five times over. At each boundary the buffers that matter later are
named by the specification's terms of the seven arguments: the node table and its hops, the running sums on the
relabelled tables, the mean table and its two row slices, the clipped ids, and finally the two gathered results. -/

noncomputable section

namespace Cert.KernelIdeal.Hand

open Cert.KernelIdeal Cert.KernelIdeal.Gen
open Idealize.ShloMosaic Idealize.ShloMosaic.TcCoe Idealize.ShloMosaic.StableHlo
open Idealize.SL.Sem
open Idealize.ShloMosaic.Pipeline (Dat)

variable {F : FTy → Type} [FloatOps F] [Cert.KernelIdeal.Facts]
variable (m : (ℓ : Loc nD τ sig) → Buf (Elt F) ℓ)

/-! ## The arguments and the tables built from them -/

/-- The seven arguments as the launch finds them on core `c`. -/
abbrev xU (c : Dev nD) : Vec F S100000x64 .f32 := m ((c.tc : Thread nD τ).loc main_arg0)
abbrev xI (c : Dev nD) : Vec F S50000x64 .f32 := m ((c.tc : Thread nD τ).loc main_arg1)
abbrev xVals (c : Dev nD) : Vec F S2400000 .f32 := m ((c.tc : Thread nD τ).loc main_arg2)
abbrev xRows (c : Dev nD) : Vec F S2400000 .i32 := m ((c.tc : Thread nD τ).loc main_arg3)
abbrev xCols (c : Dev nD) : Vec F S2400000 .i32 := m ((c.tc : Thread nD τ).loc main_arg4)
abbrev xUids (c : Dev nD) : Vec F S4096 .i32 := m ((c.tc : Thread nD τ).loc main_arg5)
abbrev xIids (c : Dev nD) : Vec F S4096 .i32 := m ((c.tc : Thread nD τ).loc main_arg6)

/-- The node table, its three hops, the two running sums and the mean table. -/
abbrev tAll (c : Dev nD) : Vec F S150000x64 .f32 := allEmb (xU m c) (xI m c)
abbrev tHop1 (c : Dev nD) : Vec F S150000x64 .f32 := hop1 (xU m c) (xI m c) (xVals m c) (xRows m c) (xCols m c)
abbrev tHop2 (c : Dev nD) : Vec F S150000x64 .f32 := hop2 (xU m c) (xI m c) (xVals m c) (xRows m c) (xCols m c)
abbrev tHop3 (c : Dev nD) : Vec F S150000x64 .f32 := hop3 (xU m c) (xI m c) (xVals m c) (xRows m c) (xCols m c)
abbrev tSum1 (c : Dev nD) : Vec F S150000x64 .f32 := accSum (tAll m c) (tHop1 m c)
abbrev tSum2 (c : Dev nD) : Vec F S150000x64 .f32 := accSum (tSum1 m c) (tHop2 m c)
abbrev tMean (c : Dev nD) : Vec F S150000x64 .f32 := light (xU m c) (xI m c) (xVals m c) (xRows m c) (xCols m c)

/-! ## A call replaces one array and nothing else -/

theorem U2_of_ne (c : Dev nD) (r : Ref sig .tc) (h : r ≠ main_v16) : U2 m c r = U1 m c r := by
  show Function.update (U1 m c) (Proc.devRef .tc main_v16) (o16 m c) (Proc.devRef .tc r) = _
  rw [Function.update_of_ne (StableHlo.devRef_ne_of_ne h)]
theorem U2_v16 (c : Dev nD) : U2 m c main_v16 = o16 m c := by
  show Function.update (U1 m c) (Proc.devRef .tc main_v16) (o16 m c) (Proc.devRef .tc main_v16) = _
  rw [Function.update_self]

theorem U4_of_ne (c : Dev nD) (r : Ref sig .tc) (h : r ≠ main_v33) : U4 m c r = U3 m c r := by
  show Function.update (U3 m c) (Proc.devRef .tc main_v33) (o33 m c) (Proc.devRef .tc r) = _
  rw [Function.update_of_ne (StableHlo.devRef_ne_of_ne h)]
theorem U4_v33 (c : Dev nD) : U4 m c main_v33 = o33 m c := by
  show Function.update (U3 m c) (Proc.devRef .tc main_v33) (o33 m c) (Proc.devRef .tc main_v33) = _
  rw [Function.update_self]

theorem U6_of_ne (c : Dev nD) (r : Ref sig .tc) (h : r ≠ main_v50) : U6 m c r = U5 m c r := by
  show Function.update (U5 m c) (Proc.devRef .tc main_v50) (o50 m c) (Proc.devRef .tc r) = _
  rw [Function.update_of_ne (StableHlo.devRef_ne_of_ne h)]
theorem U6_v50 (c : Dev nD) : U6 m c main_v50 = o50 m c := by
  show Function.update (U5 m c) (Proc.devRef .tc main_v50) (o50 m c) (Proc.devRef .tc main_v50) = _
  rw [Function.update_self]

theorem U9_of_ne (c : Dev nD) (r : Ref sig .tc) (h55 : r ≠ main_v55) (h52 : r ≠ main_v52) : U9 m c r = U8 m c r :=
  (Function.update_of_ne (StableHlo.devRef_ne_of_ne h52) _ _).trans
    (Function.update_of_ne (StableHlo.devRef_ne_of_ne h55) _ _)
theorem U9_v55 (c : Dev nD) : U9 m c main_v55 = o55 m c :=
  (Function.update_of_ne (StableHlo.devRef_ne_of_ne (by decide)) _ _).trans (Function.update_self _ _ _)

theorem U12_v55 (c : Dev nD) : U12 m c main_v55 = U11 m c main_v55 :=
  (Function.update_of_ne (StableHlo.devRef_ne_of_ne (by decide)) _ _).trans
    (Function.update_of_ne (StableHlo.devRef_ne_of_ne (by decide)) _ _)
theorem U12_v57 (c : Dev nD) : U12 m c main_v57 = o57 m c :=
  (Function.update_of_ne (StableHlo.devRef_ne_of_ne (by decide)) _ _).trans (Function.update_self _ _ _)

/-! ## After the first stretch -/

theorem U1_arg0 (c : Dev nD) : U1 m c main_arg0 = xU m c := by
  show StableHlo.after hostOps0 (Gen.V0 m c) (Proc.devRef .tc main_arg0) = _
  rw [st0_arg0]
theorem U1_arg1 (c : Dev nD) : U1 m c main_arg1 = xI m c := by
  show StableHlo.after hostOps0 (Gen.V0 m c) (Proc.devRef .tc main_arg1) = _
  rw [st0_arg1]
theorem U1_arg2 (c : Dev nD) : U1 m c main_arg2 = xVals m c := by
  show StableHlo.after hostOps0 (Gen.V0 m c) (Proc.devRef .tc main_arg2) = _
  rw [st0_arg2]
theorem U1_arg3 (c : Dev nD) : U1 m c main_arg3 = xRows m c := by
  show StableHlo.after hostOps0 (Gen.V0 m c) (Proc.devRef .tc main_arg3) = _
  rw [st0_arg3]
theorem U1_arg4 (c : Dev nD) : U1 m c main_arg4 = xCols m c := by
  show StableHlo.after hostOps0 (Gen.V0 m c) (Proc.devRef .tc main_arg4) = _
  rw [st0_arg4]
theorem U1_arg5 (c : Dev nD) : U1 m c main_arg5 = xUids m c := by
  show StableHlo.after hostOps0 (Gen.V0 m c) (Proc.devRef .tc main_arg5) = _
  rw [st0_arg5]
theorem U1_arg6 (c : Dev nD) : U1 m c main_arg6 = xIids m c := by
  show StableHlo.after hostOps0 (Gen.V0 m c) (Proc.devRef .tc main_arg6) = _
  rw [st0_arg6]

theorem U1_v13 (c : Dev nD) : (U1 m c main_v13 : Vec F S150000x64 .f32) = tHop1 m c := by
  show StableHlo.after hostOps0 (Gen.V0 m c) (Proc.devRef .tc main_v13) = _
  rw [st0_v13]
theorem U1_v14 (c : Dev nD) : (U1 m c main_v14 : Vec F S75000x128 .f32) = toLanes (tAll m c) := by
  show StableHlo.after hostOps0 (Gen.V0 m c) (Proc.devRef .tc main_v14) = _
  rw [st0_v14]
theorem U1_v15 (c : Dev nD) : (U1 m c main_v15 : Vec F S75000x128 .f32) = toLanes (tHop1 m c) := by
  show StableHlo.after hostOps0 (Gen.V0 m c) (Proc.devRef .tc main_v15) = _
  rw [st0_v15]

/-! ## The first call -/

/-- Its result: the node table plus its first hop, on the relabelled tables. -/
theorem o16_eq (c : Dev nD) : (o16 m c : Vec F S75000x128 .f32) = lanesSum (toLanes (tAll m c)) (toLanes (tHop1 m c)) := by
  show (dat0 (atRefs (U1 m)) c).arrAt 2 cfg0.N = _
  rw [final0]
  show addf (U1 m c main_v14) (U1 m c main_v15) = _
  rw [U1_v14, U1_v15]
  rfl

theorem U2_arg2 (c : Dev nD) : U2 m c main_arg2 = xVals m c :=
  (U2_of_ne m c main_arg2 (by decide)).trans (U1_arg2 m c)
theorem U2_arg3 (c : Dev nD) : U2 m c main_arg3 = xRows m c :=
  (U2_of_ne m c main_arg3 (by decide)).trans (U1_arg3 m c)
theorem U2_arg4 (c : Dev nD) : U2 m c main_arg4 = xCols m c :=
  (U2_of_ne m c main_arg4 (by decide)).trans (U1_arg4 m c)
theorem U2_arg5 (c : Dev nD) : U2 m c main_arg5 = xUids m c :=
  (U2_of_ne m c main_arg5 (by decide)).trans (U1_arg5 m c)
theorem U2_arg6 (c : Dev nD) : U2 m c main_arg6 = xIids m c :=
  (U2_of_ne m c main_arg6 (by decide)).trans (U1_arg6 m c)
theorem U2_v13 (c : Dev nD) : (U2 m c main_v13 : Vec F S150000x64 .f32) = tHop1 m c :=
  (U2_of_ne m c main_v13 (by decide)).trans (U1_v13 m c)

/-! ## After the second stretch -/

theorem U3_arg2 (c : Dev nD) : U3 m c main_arg2 = xVals m c := by
  show StableHlo.after hostOps1 (U2 m c) (Proc.devRef .tc main_arg2) = _
  rw [st1_arg2, U2_arg2]
theorem U3_arg3 (c : Dev nD) : U3 m c main_arg3 = xRows m c := by
  show StableHlo.after hostOps1 (U2 m c) (Proc.devRef .tc main_arg3) = _
  rw [st1_arg3, U2_arg3]
theorem U3_arg4 (c : Dev nD) : U3 m c main_arg4 = xCols m c := by
  show StableHlo.after hostOps1 (U2 m c) (Proc.devRef .tc main_arg4) = _
  rw [st1_arg4, U2_arg4]
theorem U3_arg5 (c : Dev nD) : U3 m c main_arg5 = xUids m c := by
  show StableHlo.after hostOps1 (U2 m c) (Proc.devRef .tc main_arg5) = _
  rw [st1_arg5, U2_arg5]
theorem U3_arg6 (c : Dev nD) : U3 m c main_arg6 = xIids m c := by
  show StableHlo.after hostOps1 (U2 m c) (Proc.devRef .tc main_arg6) = _
  rw [st1_arg6, U2_arg6]

theorem U3_v30 (c : Dev nD) : (U3 m c main_v30 : Vec F S150000x64 .f32) = tHop2 m c := by
  show StableHlo.after hostOps1 (U2 m c) (Proc.devRef .tc main_v30) = _
  rw [st1_v30, U2_arg2, U2_arg3, U2_arg4, U2_v13]
  rfl
theorem U3_v31 (c : Dev nD) : (U3 m c main_v31 : Vec F S75000x128 .f32) = toLanes (tSum1 m c) := by
  show StableHlo.after hostOps1 (U2 m c) (Proc.devRef .tc main_v31) = _
  rw [st1_v31, U2_v16, o16_eq]
  rfl
theorem U3_v32 (c : Dev nD) : (U3 m c main_v32 : Vec F S75000x128 .f32) = toLanes (tHop2 m c) := by
  show StableHlo.after hostOps1 (U2 m c) (Proc.devRef .tc main_v32) = _
  rw [st1_v32, U2_arg2, U2_arg3, U2_arg4, U2_v13]
  rfl

/-! ## The second call -/

/-- Its result: the first sum plus the second hop. -/
theorem o33_eq (c : Dev nD) : (o33 m c : Vec F S75000x128 .f32) = lanesSum (toLanes (tSum1 m c)) (toLanes (tHop2 m c)) := by
  show (dat1 (atRefs (U3 m)) c).arrAt 2 cfg1.N = _
  rw [final1]
  show addf (U3 m c main_v31) (U3 m c main_v32) = _
  rw [U3_v31, U3_v32]
  rfl

theorem U4_arg2 (c : Dev nD) : U4 m c main_arg2 = xVals m c :=
  (U4_of_ne m c main_arg2 (by decide)).trans (U3_arg2 m c)
theorem U4_arg3 (c : Dev nD) : U4 m c main_arg3 = xRows m c :=
  (U4_of_ne m c main_arg3 (by decide)).trans (U3_arg3 m c)
theorem U4_arg4 (c : Dev nD) : U4 m c main_arg4 = xCols m c :=
  (U4_of_ne m c main_arg4 (by decide)).trans (U3_arg4 m c)
theorem U4_arg5 (c : Dev nD) : U4 m c main_arg5 = xUids m c :=
  (U4_of_ne m c main_arg5 (by decide)).trans (U3_arg5 m c)
theorem U4_arg6 (c : Dev nD) : U4 m c main_arg6 = xIids m c :=
  (U4_of_ne m c main_arg6 (by decide)).trans (U3_arg6 m c)
theorem U4_v30 (c : Dev nD) : (U4 m c main_v30 : Vec F S150000x64 .f32) = tHop2 m c :=
  (U4_of_ne m c main_v30 (by decide)).trans (U3_v30 m c)

/-! ## After the third stretch -/

theorem U5_arg5 (c : Dev nD) : U5 m c main_arg5 = xUids m c := by
  show StableHlo.after hostOps2 (U4 m c) (Proc.devRef .tc main_arg5) = _
  rw [st2_arg5, U4_arg5]
theorem U5_arg6 (c : Dev nD) : U5 m c main_arg6 = xIids m c := by
  show StableHlo.after hostOps2 (U4 m c) (Proc.devRef .tc main_arg6) = _
  rw [st2_arg6, U4_arg6]

theorem U5_v48 (c : Dev nD) : (U5 m c main_v48 : Vec F S75000x128 .f32) = toLanes (tSum2 m c) := by
  show StableHlo.after hostOps2 (U4 m c) (Proc.devRef .tc main_v48) = _
  rw [st2_v48, U4_v33, o33_eq]
  rfl
theorem U5_v49 (c : Dev nD) : (U5 m c main_v49 : Vec F S75000x128 .f32) = toLanes (tHop3 m c) := by
  show StableHlo.after hostOps2 (U4 m c) (Proc.devRef .tc main_v49) = _
  rw [st2_v49, U4_arg2, U4_arg3, U4_arg4, U4_v30]
  rfl

/-! ## The third call -/

/-- Its result: the second sum plus the third hop, times one quarter. -/
theorem o50_eq (c : Dev nD) : (o50 m c : Vec F S75000x128 .f32) = lanesMean (toLanes (tSum2 m c)) (toLanes (tHop3 m c)) := by
  show (dat2 (atRefs (U5 m)) c).arrAt 2 cfg2.N = _
  rw [final2]
  show mulf (addf (U5 m c main_v48) (U5 m c main_v49)) (broadcast S75000x128 (Scalar.ofBits .f32 0x3E800000#32)) = _
  rw [U5_v48, U5_v49]
  rfl

theorem U6_arg5 (c : Dev nD) : U6 m c main_arg5 = xUids m c :=
  (U6_of_ne m c main_arg5 (by decide)).trans (U5_arg5 m c)
theorem U6_arg6 (c : Dev nD) : U6 m c main_arg6 = xIids m c :=
  (U6_of_ne m c main_arg6 (by decide)).trans (U5_arg6 m c)

/-! ## Up to the first gather -/

theorem U7_v52 (c : Dev nD) : (U7 m c main_v52 : Vec F S100000x64 .f32) = userRows (tMean m c) := by
  show StableHlo.after hostOps3 (U6 m c) (Proc.devRef .tc main_v52) = _
  rw [st3_v52, U6_v50, o50_eq]
  rfl
theorem U7_v53 (c : Dev nD) : (U7 m c main_v53 : Vec F S50000x64 .f32) = itemRows (tMean m c) := by
  show StableHlo.after hostOps3 (U6 m c) (Proc.devRef .tc main_v53) = _
  rw [st3_v53, U6_v50, o50_eq]
  rfl
theorem U7_arg6 (c : Dev nD) : U7 m c main_arg6 = xIids m c := by
  show StableHlo.after hostOps3 (U6 m c) (Proc.devRef .tc main_arg6) = _
  rw [st3_arg6, U6_arg6]

theorem U8_v54 (c : Dev nD) : (U8 m c main_v54 : Vec F S4096 .i32) = clipIds 99999#32 (xUids m c) := by
  show StableHlo.after hostOps3_1 (StableHlo.after hostOps3 (U6 m c)) (Proc.devRef .tc main_v54) = _
  rw [st3_v54, U6_arg5]
theorem U8_v52 (c : Dev nD) : (U8 m c main_v52 : Vec F S100000x64 .f32) = userRows (tMean m c) := by
  show StableHlo.after hostOps3_1 (U7 m c) (Proc.devRef .tc main_v52) = _
  rw [st31_v52, U7_v52]
theorem U8_v53 (c : Dev nD) : (U8 m c main_v53 : Vec F S50000x64 .f32) = itemRows (tMean m c) := by
  show StableHlo.after hostOps3_1 (U7 m c) (Proc.devRef .tc main_v53) = _
  rw [st31_v53, U7_v53]
theorem U8_arg6 (c : Dev nD) : U8 m c main_arg6 = xIids m c := by
  show StableHlo.after hostOps3_1 (U7 m c) (Proc.devRef .tc main_arg6) = _
  rw [st31_arg6, U7_arg6]

/-! ## The first gather -/

/-- Its result: row `r` is the row of the mean table's user rows that the clipped user id `r` names. -/
theorem o55_eq (c : Dev nD) :
    (o55 m c : Vec F S4096x64 .f32)
      = outUsers (xU m c) (xI m c) (xVals m c) (xRows m c) (xCols m c) (xUids m c) := by
  refine (final3 (atRefs (U8 m)) (a3 m) c).trans ?_
  show rowsOfUsers (U8 m c main_v52) (U8 m c main_v54) = _
  rw [U8_v52, U8_v54]
  rfl

theorem U9_v53 (c : Dev nD) : (U9 m c main_v53 : Vec F S50000x64 .f32) = itemRows (tMean m c) :=
  (U9_of_ne m c main_v53 (by decide) (by decide)).trans (U8_v53 m c)
theorem U9_arg6 (c : Dev nD) : U9 m c main_arg6 = xIids m c :=
  (U9_of_ne m c main_arg6 (by decide) (by decide)).trans (U8_arg6 m c)

/-! ## Up to the second gather -/

theorem U11_v56 (c : Dev nD) : (U11 m c main_v56 : Vec F S4096 .i32) = clipIds 49999#32 (xIids m c) := by
  show StableHlo.after hostOps4_1 (StableHlo.after hostOps4 (U9 m c)) (Proc.devRef .tc main_v56) = _
  rw [st4_v56, U9_arg6]
theorem U11_v53 (c : Dev nD) : (U11 m c main_v53 : Vec F S50000x64 .f32) = itemRows (tMean m c) := by
  show StableHlo.after hostOps4_1 (StableHlo.after hostOps4 (U9 m c)) (Proc.devRef .tc main_v53) = _
  rw [st4_v53, U9_v53]
theorem U11_v55 (c : Dev nD) : U11 m c main_v55 = o55 m c :=
  (st4_v55 (U9 m c)).trans (U9_v55 m c)

/-! ## The second gather -/

/-- Its result: row `r` is the row of the mean table's item rows that the clipped item id `r` names. -/
theorem o57_eq (c : Dev nD) :
    (o57 m c : Vec F S4096x64 .f32)
      = outItems (xU m c) (xI m c) (xVals m c) (xRows m c) (xCols m c) (xIids m c) := by
  refine (final4 (atRefs (U11 m)) (a4 m) c).trans ?_
  show rowsOfItems (U11 m c main_v53) (U11 m c main_v56) = _
  rw [U11_v53, U11_v56]
  rfl

/-! ## The two results -/

/-- The first result buffer after the whole program: the mean table's user rows at the clipped user ids. -/
theorem users_val (c : Dev nD) :
    U12 m c main_v55
      = outUsers (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  ((U12_v55 m c).trans (U11_v55 m c)).trans (o55_eq m c)

/-- The second result buffer after the whole program: the mean table's item rows at the clipped item ids. -/
theorem items_val (c : Dev nD) :
    U12 m c main_v57
      = outItems (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg6)) :=
  (U12_v57 m c).trans (o57_eq m c)

end Cert.KernelIdeal.Hand
-- ==== Proof.BAcc0.lean ====
import proofs.«412556_j37890201485521_3_alg».proof.Proof.Gen.Kernel.Launch
import proofs.«412556_j37890201485521_3_alg».proof.Proof.Gen.Kernel.Skeleton
import proofs.«412556_j37890201485521_3_alg».proof.Proof.Gen.Kernel.Points
import Idealize.ShloMosaic.Lib.Pipeline.FrameBody
import Idealize.ShloMosaic.Lib.Pipeline.Value
import Idealize.ShloMosaic.Lib.Tactic

/-! # The first accumulate call: the elementwise sum of two tables

The two operands and the result are the (75000, 128) relabellings of (150000, 64) tables. The grid has 25
points; point `t` works on rows `3000 t … 3000 t + 2999` of each array, all 128 columns. Everything here is
stated at arbitrary contents `V` of the core's buffers when the call is entered.

First half: what each staging buffer holds around the body, the body's triple, the proof data of the call
and its body obligation. Second half: the result array after the last point is the elementwise sum of the
two operand arrays, and the operand arrays are unchanged. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## Blocks of the arrays -/

/-- Rows `3000 t … 3000 t + 2999` of window `w`'s array as the call finds it: the block the window is on at
    point `t`. -/
def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

section InputBuffers

variable {c : Dev nD} (dat : Dat τ (Elt F) Unit ℕ (Pipeline.UD sig nD τ) ℕ cfg0 c)

/-- The first operand's staging buffer holds that operand's block whenever the body runs: the window is
    fetched afresh at every point and its blocks tile the array, so nothing of an earlier point survives. For
    any proof data over the entry contents whose body leaves the block where it found it. -/
theorem before0_0_of (hA : dat.A 0 = V c (Pipeline.arrRef spec0 0)) (hafter : ∀ t, dat.after 0 t = iblk0 V c 0 t)
    (t : Fin cfg0.N) (d) : dat.before 0 t d = iblk0 V c 0 t := by
  have hkeep : ∀ u : Fin cfg0.grid.N, (cfg0.win 0).cut (cfg0.grid.coords u) (dat.after 0 u) = dat.blockOf 0 u := by
    intro u; rw [hafter u]; unfold Dat.blockOf iblk0; rw [hA]; try rfl
  rw [dat.before_in_eq_fetched 0 rfl (fun _ => rfl) (fun _ _ _ => rfl) hkeep t d]
  unfold Dat.fetched Dat.blockOf iblk0; rw [hA]; try rfl

/-- The same for the second operand. -/
theorem before0_1_of (hA : dat.A 1 = V c (Pipeline.arrRef spec0 1)) (hafter : ∀ t, dat.after 1 t = iblk0 V c 1 t)
    (t : Fin cfg0.N) (d) : dat.before 1 t d = iblk0 V c 1 t := by
  have hkeep : ∀ u : Fin cfg0.grid.N, (cfg0.win 1).cut (cfg0.grid.coords u) (dat.after 1 u) = dat.blockOf 1 u := by
    intro u; rw [hafter u]; unfold Dat.blockOf iblk0; rw [hA]; try rfl
  rw [dat.before_in_eq_fetched 1 rfl (fun _ => rfl) (fun _ _ _ => rfl) hkeep t d]
  unfold Dat.fetched Dat.blockOf iblk0; rw [hA]; try rfl

end InputBuffers

/-! ## The body -/

/-- The one rectangle the body touches in each of its three buffers: all of the (3000, 128) block. -/
abbrev box0 : Rect S3000x128 := Rect.unit (s := S3000x128) ![0, 0] S3000x128.size inb_S3000x128_S3000x128_0_0

/-- What the body leaves in the result's staging buffer when the operand buffers hold `x0` and `x1`: its single
    store, of the sum of the two loaded blocks, over the whole block. -/
def out0_2 (x0 x1 : Vec F S3000x128 .f32) : Vec F S3000x128 .f32 :=
  View.canon [⟨box0, k0_pay1 (View.ld x0 box0) (View.ld x1 box0)⟩]

/-- That store reaches every element of the block. -/
theorem cover0_2 (p : Vec F S3000x128 .f32) (y : S3000x128.Idx) :
    ∃ pc ∈ ([⟨box0, p⟩] : List (View.Piece (Elt F) S3000x128 .f32)), y ∈ pc.1.set :=
  View.cover_of_tiled [⟨box0, p⟩] S3000x128.size (by rfl) y

set_option maxHeartbeats 1000000 in
/-- The body on three whole buffers, the operands' at `x0` and `x1` and the result's at anything: it returns
    with the operands' as they were and the result's at `out0_2 x0 x1`. -/
theorem sound_kernel0 (c : Dev nD) (E : Set ℕ) (i : grid0.Coords)
    (arg1 : Memref sig .tc .vmem S3000x128 .f32) (harg1 : arg1.IsWhole)
    (arg2 : Memref sig .tc .vmem S3000x128 .f32) (harg2 : arg2.IsWhole)
    (arg3 : Memref sig .tc .vmem S3000x128 .f32) (harg3 : arg3.IsWhole)
    (x0 x1 : Vec F S3000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__accum_kernel i arg1 harg1 arg2 harg2 arg3 harg3) K := by
  simp only [cc0__accum_kernel_eq_skeleton]; unfold cc0__accum_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_2 _)

/-! ## The proof data of the call -/

/-- On core `c`: the three arrays as the call finds them; after the body at point `t` each operand's buffer
    still at the operand's block and the result's at the body's store of the two blocks; between points
    only the core's remaining scoped buffers and its generator register, which the body never reads; every
    array held whole; nothing owed to another core. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- Its arrays are the entry contents. -/
theorem A_eq0 (c : Dev nD) (w : Fin cfg0.W) : (dat0 V c).A w = V c (Pipeline.arrRef spec0 w) := by
  dsimp only [dat0]

/-- What the body leaves, one window at a time. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

/-- What the body finds in each operand's buffer. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- The body as the call runs it at point `t`, from the three current buffers at what they then hold to the
    same buffers at what the proof data say it leaves; the invariant and the core's debts go through untouched. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  unfold bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- At every point of the grid. -/
theorem body_obligation0 (c : Dev nD) :
    BodyObligation (dat0 (F := F) V c) (defs₀ (F := F)) Variants.none () Set.univ := fun t => by
  rw [bigSep_W0, bigSep_W0]
  exact sound_body0 V c t

/-! ## The arrays after the last point -/

/-- An operand array is only ever read: after the call it is as the call found it. -/
theorem kept0 (c : Dev nD) (w : Fin cfg0.W) (hw : (cfg0.win w).isOut = false) :
    (dat0 V c).arrAt w cfg0.N = V c (Pipeline.arrRef spec0 w) :=
  ((dat0 V c).arrAt_in w hw _).trans (A_eq0 V c w)

theorem kept0_0 (c : Dev nD) : (dat0 V c).arrAt 0 cfg0.N = V c main_v14 := kept0 V c 0 rfl
theorem kept0_1 (c : Dev nD) : (dat0 V c).arrAt 1 cfg0.N = V c main_v15 := kept0 V c 1 rfl

/-- The body's payload is the elementwise sum of the two blocks it loaded: the two casts between equal shapes
    change nothing. -/
theorem pay0_eq (x0 x1 : Vec F S3000x128 .f32) : k0_pay1 x0 x1 = addf x0 x1 := by
  unfold k0_pay1
  simp only [shapeCast_self]

/-- The body's accesses start at the block's corner. -/
theorem corner0 : (![0, 0] : Fin 2 → Nat) = fun _ => 0 := funext fun a => by fin_cases a <;> rfl

/-- At point `t` each of the three windows is on block row `t`, block column 0, of its array. -/
theorem idx0 : ∀ t : Fin cfg0.N, win0_0.index t = ![t.val, 0] ∧ win0_1.index t = ![t.val, 0] ∧ win0_2.index t = ![t.val, 0] :=
  (by decide +kernel : ∀ t : Fin grid0.N,
    win0_0.index t = ![t.val, 0] ∧ win0_1.index t = ![t.val, 0] ∧ win0_2.index t = ![t.val, 0])

/-- What point `t` writes back to the result array is rows `3000 t … 3000 t + 2999` of the elementwise sum of
    the two operand arrays: the three windows sit on the same rows, so the sum of the operands' blocks is the block
    of the sum. -/
theorem flushed0_2 (c : Dev nD) (t : Fin cfg0.N) :
    (dat0 V c).flushed 2 t
      = ((cfg0.win 2).blk t).view.read (Elt F) (addf (s := S75000x128) (φ := .f32) (V c main_v14) (V c main_v15)) := by
  show (cfg0.win 2).cut (grid0.coords t) ((dat0 V c).after 2 t) = _
  rw [after0_2]
  unfold out0_2
  rw [View.canon_unit_zero corner0]
  simp only [View.ld_unit_zero (S := S3000x128) corner0]
  rw [pay0_eq]
  obtain ⟨h0, h1, h2⟩ := idx0 t
  funext j
  show FloatOps.addf (V c main_v14 (((cfg0.win 0).blk t).view.emb j)) (V c main_v15 (((cfg0.win 1).blk t).view.emb j))
    = FloatOps.addf (V c main_v14 (((cfg0.win 2).blk t).view.emb j)) (V c main_v15 (((cfg0.win 2).blk t).view.emb j))
  have e0 : ((cfg0.win 0).blk t).view.emb j = ((cfg0.win 2).blk t).view.emb j := by
    funext a; apply Fin.ext
    match a with
    | ⟨0, _⟩ =>
      show win0_0.index t (0 : Fin 2) * 3000 + 1 * (j 0).val = win0_2.index t (0 : Fin 2) * 3000 + 1 * (j 0).val
      rw [h0, h2]
    | ⟨1, _⟩ =>
      show win0_0.index t (1 : Fin 2) * 128 + 1 * (j 1).val = win0_2.index t (1 : Fin 2) * 128 + 1 * (j 1).val
      rw [h0, h2]
  have e1 : ((cfg0.win 1).blk t).view.emb j = ((cfg0.win 2).blk t).view.emb j := by
    funext a; apply Fin.ext
    match a with
    | ⟨0, _⟩ =>
      show win0_1.index t (0 : Fin 2) * 3000 + 1 * (j 0).val = win0_2.index t (0 : Fin 2) * 3000 + 1 * (j 0).val
      rw [h1, h2]
    | ⟨1, _⟩ =>
      show win0_1.index t (1 : Fin 2) * 128 + 1 * (j 1).val = win0_2.index t (1 : Fin 2) * 128 + 1 * (j 1).val
      rw [h1, h2]
  rw [e0, e1]

/-- An index of the result array is in point `t`'s block when, on each axis, it lies in the block's range. -/
theorem mem_blk0_2 (t : Fin cfg0.N) (i : S75000x128.Idx) :
    i ∈ ((cfg0.win 2).blk t).view.set
      ↔ ∀ a : Fin 2, win0_2.index t a * S3000x128.size a ≤ (i a).val
          ∧ (i a).val < win0_2.index t a * S3000x128.size a + S3000x128.size a := by
  show i ∈ ((View.whole main_v16).slice (win0_2.rect t)).set ↔ _
  rw [View.set_slice_whole, Rect.mem_set_unit]
  exact Iff.rfl

/-- The 25 blocks fill the result array: row `r` is in the block of point `r / 3000`. -/
theorem cover0 (i : S75000x128.Idx) :
    ∃ t : Fin cfg0.N, (cfg0.win 2).flush t = true ∧ i ∈ ((cfg0.win 2).blk t).view.set := by
  have hr : (i 0).val < 75000 := (i 0).isLt
  have hl : (i 1).val < 128 := (i 1).isLt
  have hN : cfg0.N = 25 := N_0
  let t : Fin cfg0.N := ⟨(i 0).val / 3000, by rw [hN]; omega⟩
  obtain ⟨-, -, h2⟩ := idx0 t
  have q0 : win0_2.index t (0 : Fin 2) = (i 0).val / 3000 := congrFun h2 0
  have q1 : win0_2.index t (1 : Fin 2) = 0 := congrFun h2 1
  refine ⟨t, flush0_2 t, (mem_blk0_2 t i).mpr fun a => ?_⟩
  match a with
  | ⟨0, _⟩ =>
    show win0_2.index t (0 : Fin 2) * 3000 ≤ (i 0).val ∧ (i 0).val < win0_2.index t (0 : Fin 2) * 3000 + 3000
    rw [q0]; omega
  | ⟨1, _⟩ =>
    show win0_2.index t (1 : Fin 2) * 128 ≤ (i 1).val ∧ (i 1).val < win0_2.index t (1 : Fin 2) * 128 + 128
    rw [q1]; omega

/-- THE VALUE OF THE CALL: after the last point the result array is the elementwise sum of the two operand
    arrays as the call found them. -/
theorem final0 (c : Dev nD) :
    (dat0 V c).arrAt 2 cfg0.N = addf (s := S75000x128) (φ := .f32) (V c main_v14) (V c main_v15) :=
  (dat0 V c).arrAt_eq_of_cover 2 _ (fun t _ => flushed0_2 V c t) cover0

end Cert.Kernel.Hand
-- ==== Proof.BAcc1.lean ====
import proofs.«412556_j37890201485521_3_alg».proof.Proof.Gen.Kernel.Launch
import proofs.«412556_j37890201485521_3_alg».proof.Proof.Gen.Kernel.Skeleton
import proofs.«412556_j37890201485521_3_alg».proof.Proof.Gen.Kernel.Points
import Idealize.ShloMosaic.Lib.Pipeline.FrameBody
import Idealize.ShloMosaic.Lib.Pipeline.Value
import Idealize.ShloMosaic.Lib.Tactic

/-! # The second accumulate call: the elementwise sum of two tables

The two operands and the result are the (75000, 128) relabellings of (150000, 64) tables. The grid has 25
points; point `t` works on rows `3000 t … 3000 t + 2999` of each array, all 128 columns. Everything here is
stated at arbitrary contents `V` of the core's buffers when the call is entered.

First half: what each staging buffer holds around the body, the body's triple, the proof data of the call
and its body obligation. Second half: the result array after the last point is the elementwise sum of the
two operand arrays, and the operand arrays are unchanged. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## Blocks of the arrays -/

/-- Rows `3000 t … 3000 t + 2999` of window `w`'s array as the call finds it: the block the window is on at
    point `t`. -/
def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

section InputBuffers

variable {c : Dev nD} (dat : Dat τ (Elt F) Unit ℕ (Pipeline.UD sig nD τ) ℕ cfg1 c)

/-- The first operand's staging buffer holds that operand's block whenever the body runs: the window is
    fetched afresh at every point and its blocks tile the array, so nothing of an earlier point survives. For
    any proof data over the entry contents whose body leaves the block where it found it. -/
theorem before1_0_of (hA : dat.A 0 = V c (Pipeline.arrRef spec1 0)) (hafter : ∀ t, dat.after 0 t = iblk1 V c 0 t)
    (t : Fin cfg1.N) (d) : dat.before 0 t d = iblk1 V c 0 t := by
  have hkeep : ∀ u : Fin cfg1.grid.N, (cfg1.win 0).cut (cfg1.grid.coords u) (dat.after 0 u) = dat.blockOf 0 u := by
    intro u; rw [hafter u]; unfold Dat.blockOf iblk1; rw [hA]; try rfl
  rw [dat.before_in_eq_fetched 0 rfl (fun _ => rfl) (fun _ _ _ => rfl) hkeep t d]
  unfold Dat.fetched Dat.blockOf iblk1; rw [hA]; try rfl

/-- The same for the second operand. -/
theorem before1_1_of (hA : dat.A 1 = V c (Pipeline.arrRef spec1 1)) (hafter : ∀ t, dat.after 1 t = iblk1 V c 1 t)
    (t : Fin cfg1.N) (d) : dat.before 1 t d = iblk1 V c 1 t := by
  have hkeep : ∀ u : Fin cfg1.grid.N, (cfg1.win 1).cut (cfg1.grid.coords u) (dat.after 1 u) = dat.blockOf 1 u := by
    intro u; rw [hafter u]; unfold Dat.blockOf iblk1; rw [hA]; try rfl
  rw [dat.before_in_eq_fetched 1 rfl (fun _ => rfl) (fun _ _ _ => rfl) hkeep t d]
  unfold Dat.fetched Dat.blockOf iblk1; rw [hA]; try rfl

end InputBuffers

/-! ## The body -/

/-- The one rectangle the body touches in each of its three buffers: all of the (3000, 128) block. -/
abbrev box1 : Rect S3000x128 := Rect.unit (s := S3000x128) ![0, 0] S3000x128.size inb_S3000x128_S3000x128_0_0

/-- What the body leaves in the result's staging buffer when the operand buffers hold `x0` and `x1`: its single
    store, of the sum of the two loaded blocks, over the whole block. -/
def out1_2 (x0 x1 : Vec F S3000x128 .f32) : Vec F S3000x128 .f32 :=
  View.canon [⟨box1, k1_pay1 (View.ld x0 box1) (View.ld x1 box1)⟩]

/-- That store reaches every element of the block. -/
theorem cover1_2 (p : Vec F S3000x128 .f32) (y : S3000x128.Idx) :
    ∃ pc ∈ ([⟨box1, p⟩] : List (View.Piece (Elt F) S3000x128 .f32)), y ∈ pc.1.set :=
  View.cover_of_tiled [⟨box1, p⟩] S3000x128.size (by rfl) y

set_option maxHeartbeats 1000000 in
/-- The body on three whole buffers, the operands' at `x0` and `x1` and the result's at anything: it returns
    with the operands' as they were and the result's at `out1_2 x0 x1`. -/
theorem sound_kernel1 (c : Dev nD) (E : Set ℕ) (i : grid1.Coords)
    (arg1 : Memref sig .tc .vmem S3000x128 .f32) (harg1 : arg1.IsWhole)
    (arg2 : Memref sig .tc .vmem S3000x128 .f32) (harg2 : arg2.IsWhole)
    (arg3 : Memref sig .tc .vmem S3000x128 .f32) (harg3 : arg3.IsWhole)
    (x0 x1 : Vec F S3000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__accum_kernel i arg1 harg1 arg2 harg2 arg3 harg3) K := by
  simp only [cc1__accum_kernel_eq_skeleton]; unfold cc1__accum_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_2 _)

/-! ## The proof data of the call -/

/-- On core `c`: the three arrays as the call finds them; after the body at point `t` each operand's buffer
    still at the operand's block and the result's at the body's store of the two blocks; between points
    only the core's remaining scoped buffers and its generator register, which the body never reads; every
    array held whole; nothing owed to another core. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- Its arrays are the entry contents. -/
theorem A_eq1 (c : Dev nD) (w : Fin cfg1.W) : (dat1 V c).A w = V c (Pipeline.arrRef spec1 w) := by
  dsimp only [dat1]

/-- What the body leaves, one window at a time. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

/-- What the body finds in each operand's buffer. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- The body as the call runs it at point `t`, from the three current buffers at what they then hold to the
    same buffers at what the proof data say it leaves; the invariant and the core's debts go through untouched. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t))) := by
  unfold bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- At every point of the grid. -/
theorem body_obligation1 (c : Dev nD) :
    BodyObligation (dat1 (F := F) V c) (defs₀ (F := F)) Variants.none () Set.univ := fun t => by
  rw [bigSep_W1, bigSep_W1]
  exact sound_body1 V c t

/-! ## The arrays after the last point -/

/-- An operand array is only ever read: after the call it is as the call found it. -/
theorem kept1 (c : Dev nD) (w : Fin cfg1.W) (hw : (cfg1.win w).isOut = false) :
    (dat1 V c).arrAt w cfg1.N = V c (Pipeline.arrRef spec1 w) :=
  ((dat1 V c).arrAt_in w hw _).trans (A_eq1 V c w)

theorem kept1_0 (c : Dev nD) : (dat1 V c).arrAt 0 cfg1.N = V c main_v31 := kept1 V c 0 rfl
theorem kept1_1 (c : Dev nD) : (dat1 V c).arrAt 1 cfg1.N = V c main_v32 := kept1 V c 1 rfl

/-- The body's payload is the elementwise sum of the two blocks it loaded: the two casts between equal shapes
    change nothing. -/
theorem pay1_eq (x0 x1 : Vec F S3000x128 .f32) : k1_pay1 x0 x1 = addf x0 x1 := by
  unfold k1_pay1
  simp only [shapeCast_self]

/-- The body's accesses start at the block's corner. -/
theorem corner1 : (![0, 0] : Fin 2 → Nat) = fun _ => 0 := funext fun a => by fin_cases a <;> rfl

/-- At point `t` each of the three windows is on block row `t`, block column 0, of its array. -/
theorem idx1 : ∀ t : Fin cfg1.N, win1_0.index t = ![t.val, 0] ∧ win1_1.index t = ![t.val, 0] ∧ win1_2.index t = ![t.val, 0] :=
  (by decide +kernel : ∀ t : Fin grid1.N,
    win1_0.index t = ![t.val, 0] ∧ win1_1.index t = ![t.val, 0] ∧ win1_2.index t = ![t.val, 0])

/-- What point `t` writes back to the result array is rows `3000 t … 3000 t + 2999` of the elementwise sum of
    the two operand arrays: the three windows sit on the same rows, so the sum of the operands' blocks is the block
    of the sum. -/
theorem flushed1_2 (c : Dev nD) (t : Fin cfg1.N) :
    (dat1 V c).flushed 2 t
      = ((cfg1.win 2).blk t).view.read (Elt F) (addf (s := S75000x128) (φ := .f32) (V c main_v31) (V c main_v32)) := by
  show (cfg1.win 2).cut (grid1.coords t) ((dat1 V c).after 2 t) = _
  rw [after1_2]
  unfold out1_2
  rw [View.canon_unit_zero corner1]
  simp only [View.ld_unit_zero (S := S3000x128) corner1]
  rw [pay1_eq]
  obtain ⟨h0, h1, h2⟩ := idx1 t
  funext j
  show FloatOps.addf (V c main_v31 (((cfg1.win 0).blk t).view.emb j)) (V c main_v32 (((cfg1.win 1).blk t).view.emb j))
    = FloatOps.addf (V c main_v31 (((cfg1.win 2).blk t).view.emb j)) (V c main_v32 (((cfg1.win 2).blk t).view.emb j))
  have e0 : ((cfg1.win 0).blk t).view.emb j = ((cfg1.win 2).blk t).view.emb j := by
    funext a; apply Fin.ext
    match a with
    | ⟨0, _⟩ =>
      show win1_0.index t (0 : Fin 2) * 3000 + 1 * (j 0).val = win1_2.index t (0 : Fin 2) * 3000 + 1 * (j 0).val
      rw [h0, h2]
    | ⟨1, _⟩ =>
      show win1_0.index t (1 : Fin 2) * 128 + 1 * (j 1).val = win1_2.index t (1 : Fin 2) * 128 + 1 * (j 1).val
      rw [h0, h2]
  have e1 : ((cfg1.win 1).blk t).view.emb j = ((cfg1.win 2).blk t).view.emb j := by
    funext a; apply Fin.ext
    match a with
    | ⟨0, _⟩ =>
      show win1_1.index t (0 : Fin 2) * 3000 + 1 * (j 0).val = win1_2.index t (0 : Fin 2) * 3000 + 1 * (j 0).val
      rw [h1, h2]
    | ⟨1, _⟩ =>
      show win1_1.index t (1 : Fin 2) * 128 + 1 * (j 1).val = win1_2.index t (1 : Fin 2) * 128 + 1 * (j 1).val
      rw [h1, h2]
  rw [e0, e1]

/-- An index of the result array is in point `t`'s block when, on each axis, it lies in the block's range. -/
theorem mem_blk1_2 (t : Fin cfg1.N) (i : S75000x128.Idx) :
    i ∈ ((cfg1.win 2).blk t).view.set
      ↔ ∀ a : Fin 2, win1_2.index t a * S3000x128.size a ≤ (i a).val
          ∧ (i a).val < win1_2.index t a * S3000x128.size a + S3000x128.size a := by
  show i ∈ ((View.whole main_v33).slice (win1_2.rect t)).set ↔ _
  rw [View.set_slice_whole, Rect.mem_set_unit]
  exact Iff.rfl

/-- The 25 blocks fill the result array: row `r` is in the block of point `r / 3000`. -/
theorem cover1 (i : S75000x128.Idx) :
    ∃ t : Fin cfg1.N, (cfg1.win 2).flush t = true ∧ i ∈ ((cfg1.win 2).blk t).view.set := by
  have hr : (i 0).val < 75000 := (i 0).isLt
  have hl : (i 1).val < 128 := (i 1).isLt
  have hN : cfg1.N = 25 := N_1
  let t : Fin cfg1.N := ⟨(i 0).val / 3000, by rw [hN]; omega⟩
  obtain ⟨-, -, h2⟩ := idx1 t
  have q0 : win1_2.index t (0 : Fin 2) = (i 0).val / 3000 := congrFun h2 0
  have q1 : win1_2.index t (1 : Fin 2) = 0 := congrFun h2 1
  refine ⟨t, flush1_2 t, (mem_blk1_2 t i).mpr fun a => ?_⟩
  match a with
  | ⟨0, _⟩ =>
    show win1_2.index t (0 : Fin 2) * 3000 ≤ (i 0).val ∧ (i 0).val < win1_2.index t (0 : Fin 2) * 3000 + 3000
    rw [q0]; omega
  | ⟨1, _⟩ =>
    show win1_2.index t (1 : Fin 2) * 128 ≤ (i 1).val ∧ (i 1).val < win1_2.index t (1 : Fin 2) * 128 + 128
    rw [q1]; omega

/-- THE VALUE OF THE CALL: after the last point the result array is the elementwise sum of the two operand
    arrays as the call found them. -/
theorem final1 (c : Dev nD) :
    (dat1 V c).arrAt 2 cfg1.N = addf (s := S75000x128) (φ := .f32) (V c main_v31) (V c main_v32) :=
  (dat1 V c).arrAt_eq_of_cover 2 _ (fun t _ => flushed1_2 V c t) cover1

end Cert.Kernel.Hand
-- ==== Proof.BAcc2.lean ====
import proofs.«412556_j37890201485521_3_alg».proof.Proof.Gen.Kernel.Launch
import proofs.«412556_j37890201485521_3_alg».proof.Proof.Gen.Kernel.Skeleton
import proofs.«412556_j37890201485521_3_alg».proof.Proof.Gen.Kernel.Points
import Idealize.ShloMosaic.Lib.Pipeline.FrameBody
import Idealize.ShloMosaic.Lib.Pipeline.Value
import Idealize.ShloMosaic.Lib.Tactic

/-! # The third accumulate call: a quarter of the elementwise sum of two tables

The two operands and the result are the (75000, 128) relabellings of (150000, 64) tables. The grid has 25
points; point `t` works on rows `3000 t … 3000 t + 2999` of each array, all 128 columns. Everything here is
stated at arbitrary contents `V` of the core's buffers when the call is entered.

First half: what each staging buffer holds around the body, the body's triple, the proof data of the call
and its body obligation. Second half: the result array after the last point is the elementwise sum of the
two operand arrays times the constant with bit pattern 0x3E800000 (one quarter), and the operand arrays are
unchanged. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! ## Blocks of the arrays -/

/-- Rows `3000 t … 3000 t + 2999` of window `w`'s array as the call finds it: the block the window is on at
    point `t`. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

section InputBuffers

variable {c : Dev nD} (dat : Dat τ (Elt F) Unit ℕ (Pipeline.UD sig nD τ) ℕ cfg2 c)

/-- The first operand's staging buffer holds that operand's block whenever the body runs: the window is
    fetched afresh at every point and its blocks tile the array, so nothing of an earlier point survives. For
    any proof data over the entry contents whose body leaves the block where it found it. -/
theorem before2_0_of (hA : dat.A 0 = V c (Pipeline.arrRef spec2 0)) (hafter : ∀ t, dat.after 0 t = iblk2 V c 0 t)
    (t : Fin cfg2.N) (d) : dat.before 0 t d = iblk2 V c 0 t := by
  have hkeep : ∀ u : Fin cfg2.grid.N, (cfg2.win 0).cut (cfg2.grid.coords u) (dat.after 0 u) = dat.blockOf 0 u := by
    intro u; rw [hafter u]; unfold Dat.blockOf iblk2; rw [hA]; try rfl
  rw [dat.before_in_eq_fetched 0 rfl (fun _ => rfl) (fun _ _ _ => rfl) hkeep t d]
  unfold Dat.fetched Dat.blockOf iblk2; rw [hA]; try rfl

/-- The same for the second operand. -/
theorem before2_1_of (hA : dat.A 1 = V c (Pipeline.arrRef spec2 1)) (hafter : ∀ t, dat.after 1 t = iblk2 V c 1 t)
    (t : Fin cfg2.N) (d) : dat.before 1 t d = iblk2 V c 1 t := by
  have hkeep : ∀ u : Fin cfg2.grid.N, (cfg2.win 1).cut (cfg2.grid.coords u) (dat.after 1 u) = dat.blockOf 1 u := by
    intro u; rw [hafter u]; unfold Dat.blockOf iblk2; rw [hA]; try rfl
  rw [dat.before_in_eq_fetched 1 rfl (fun _ => rfl) (fun _ _ _ => rfl) hkeep t d]
  unfold Dat.fetched Dat.blockOf iblk2; rw [hA]; try rfl

end InputBuffers

/-! ## The body -/

/-- The one rectangle the body touches in each of its three buffers: all of the (3000, 128) block. -/
abbrev box2 : Rect S3000x128 := Rect.unit (s := S3000x128) ![0, 0] S3000x128.size inb_S3000x128_S3000x128_0_0

/-- What the body leaves in the result's staging buffer when the operand buffers hold `x0` and `x1`: its single
    store, of the sum of the two loaded blocks times the constant, over the whole block. -/
def out2_2 (x0 x1 : Vec F S3000x128 .f32) : Vec F S3000x128 .f32 :=
  View.canon [⟨box2, k2_pay1 (View.ld x0 box2) (View.ld x1 box2)⟩]

/-- That store reaches every element of the block. -/
theorem cover2_2 (p : Vec F S3000x128 .f32) (y : S3000x128.Idx) :
    ∃ pc ∈ ([⟨box2, p⟩] : List (View.Piece (Elt F) S3000x128 .f32)), y ∈ pc.1.set :=
  View.cover_of_tiled [⟨box2, p⟩] S3000x128.size (by rfl) y

set_option maxHeartbeats 1000000 in
/-- The body on three whole buffers, the operands' at `x0` and `x1` and the result's at anything: it returns
    with the operands' as they were and the result's at `out2_2 x0 x1`. -/
theorem sound_kernel2 (c : Dev nD) (E : Set ℕ) (i : grid2.Coords)
    (arg1 : Memref sig .tc .vmem S3000x128 .f32) (harg1 : arg1.IsWhole)
    (arg2 : Memref sig .tc .vmem S3000x128 .f32) (harg2 : arg2.IsWhole)
    (arg3 : Memref sig .tc .vmem S3000x128 .f32) (harg3 : arg3.IsWhole)
    (x0 x1 : Vec F S3000x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__accum_kernel i arg1 harg1 arg2 harg2 arg3 harg3) K := by
  simp only [cc2__accum_kernel_eq_skeleton]; unfold cc2__accum_kernel_skel
  unfold owns
  iintro ⟨⟨%f1, %hf1, H1⟩, ⟨%f2, %hf2, H2⟩, ⟨%d3, %f3, -, H3⟩, Hk⟩
  subst hf1; subst hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_2 _)

/-! ## The proof data of the call -/

/-- On core `c`: the three arrays as the call finds them; after the body at point `t` each operand's buffer
    still at the operand's block and the result's at the body's store of the two blocks; between points
    only the core's remaining scoped buffers and its generator register, which the body never reads; every
    array held whole; nothing owed to another core. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

/-- Its arrays are the entry contents. -/
theorem A_eq2 (c : Dev nD) (w : Fin cfg2.W) : (dat2 V c).A w = V c (Pipeline.arrRef spec2 w) := by
  dsimp only [dat2]

/-- What the body leaves, one window at a time. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

/-- What the body finds in each operand's buffer. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- The body as the call runs it at point `t`, from the three current buffers at what they then hold to the
    same buffers at what the proof data say it leaves; the invariant and the core's debts go through untouched. -/
theorem sound_body2 (c : Dev nD) (t : Fin cfg2.N) :
    iprop((dat2 V c).Φ t.castSucc ∗ (dat2 V c).owesAt () t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d)))
      ⊢ wp frame (wpE (defs₀ (F := F)) Variants.none c none) Set.univ (bodyAt2 t) (fun _ =>
          iprop((dat2 V c).Φ t.succ ∗ (dat2 V c).owesAt () t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t))) := by
  unfold bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- At every point of the grid. -/
theorem body_obligation2 (c : Dev nD) :
    BodyObligation (dat2 (F := F) V c) (defs₀ (F := F)) Variants.none () Set.univ := fun t => by
  rw [bigSep_W2, bigSep_W2]
  exact sound_body2 V c t

/-! ## The arrays after the last point -/

/-- An operand array is only ever read: after the call it is as the call found it. -/
theorem kept2 (c : Dev nD) (w : Fin cfg2.W) (hw : (cfg2.win w).isOut = false) :
    (dat2 V c).arrAt w cfg2.N = V c (Pipeline.arrRef spec2 w) :=
  ((dat2 V c).arrAt_in w hw _).trans (A_eq2 V c w)

theorem kept2_0 (c : Dev nD) : (dat2 V c).arrAt 0 cfg2.N = V c main_v48 := kept2 V c 0 rfl
theorem kept2_1 (c : Dev nD) : (dat2 V c).arrAt 1 cfg2.N = V c main_v49 := kept2 V c 1 rfl

/-- The body's payload is the elementwise sum of the two blocks it loaded, times the constant in every position:
    the two casts between equal shapes change nothing. -/
theorem pay2_eq (x0 x1 : Vec F S3000x128 .f32) :
    k2_pay1 x0 x1 = mulf (addf x0 x1) (broadcast S3000x128 (Scalar.ofBits .f32 0x3E800000#32)) := by
  unfold k2_pay1
  simp only [shapeCast_self]

/-- The body's accesses start at the block's corner. -/
theorem corner2 : (![0, 0] : Fin 2 → Nat) = fun _ => 0 := funext fun a => by fin_cases a <;> rfl

/-- At point `t` each of the three windows is on block row `t`, block column 0, of its array. -/
theorem idx2 : ∀ t : Fin cfg2.N, win2_0.index t = ![t.val, 0] ∧ win2_1.index t = ![t.val, 0] ∧ win2_2.index t = ![t.val, 0] :=
  (by decide +kernel : ∀ t : Fin grid2.N,
    win2_0.index t = ![t.val, 0] ∧ win2_1.index t = ![t.val, 0] ∧ win2_2.index t = ![t.val, 0])

/-- What point `t` writes back to the result array is rows `3000 t … 3000 t + 2999` of the elementwise sum of
    the two operand arrays times the constant: the three windows sit on the same rows, and the constant is the
    same in every position, so the body's result on the operands' blocks is the block of the whole-array result. -/
theorem flushed2_2 (c : Dev nD) (t : Fin cfg2.N) :
    (dat2 V c).flushed 2 t
      = ((cfg2.win 2).blk t).view.read (Elt F)
          (mulf (s := S75000x128) (φ := .f32) (addf (V c main_v48) (V c main_v49))
            (broadcast S75000x128 (Scalar.ofBits .f32 0x3E800000#32))) := by
  show (cfg2.win 2).cut (grid2.coords t) ((dat2 V c).after 2 t) = _
  rw [after2_2]
  unfold out2_2
  rw [View.canon_unit_zero corner2]
  simp only [View.ld_unit_zero (S := S3000x128) corner2]
  rw [pay2_eq]
  obtain ⟨h0, h1, h2⟩ := idx2 t
  funext j
  show FloatOps.mulf (FloatOps.addf (V c main_v48 (((cfg2.win 0).blk t).view.emb j)) (V c main_v49 (((cfg2.win 1).blk t).view.emb j)))
      (Scalar.ofBits .f32 0x3E800000#32)
    = FloatOps.mulf (FloatOps.addf (V c main_v48 (((cfg2.win 2).blk t).view.emb j)) (V c main_v49 (((cfg2.win 2).blk t).view.emb j)))
      (Scalar.ofBits .f32 0x3E800000#32)
  have e0 : ((cfg2.win 0).blk t).view.emb j = ((cfg2.win 2).blk t).view.emb j := by
    funext a; apply Fin.ext
    match a with
    | ⟨0, _⟩ =>
      show win2_0.index t (0 : Fin 2) * 3000 + 1 * (j 0).val = win2_2.index t (0 : Fin 2) * 3000 + 1 * (j 0).val
      rw [h0, h2]
    | ⟨1, _⟩ =>
      show win2_0.index t (1 : Fin 2) * 128 + 1 * (j 1).val = win2_2.index t (1 : Fin 2) * 128 + 1 * (j 1).val
      rw [h0, h2]
  have e1 : ((cfg2.win 1).blk t).view.emb j = ((cfg2.win 2).blk t).view.emb j := by
    funext a; apply Fin.ext
    match a with
    | ⟨0, _⟩ =>
      show win2_1.index t (0 : Fin 2) * 3000 + 1 * (j 0).val = win2_2.index t (0 : Fin 2) * 3000 + 1 * (j 0).val
      rw [h1, h2]
    | ⟨1, _⟩ =>
      show win2_1.index t (1 : Fin 2) * 128 + 1 * (j 1).val = win2_2.index t (1 : Fin 2) * 128 + 1 * (j 1).val
      rw [h1, h2]
  rw [e0, e1]

/-- An index of the result array is in point `t`'s block when, on each axis, it lies in the block's range. -/
theorem mem_blk2_2 (t : Fin cfg2.N) (i : S75000x128.Idx) :
    i ∈ ((cfg2.win 2).blk t).view.set
      ↔ ∀ a : Fin 2, win2_2.index t a * S3000x128.size a ≤ (i a).val
          ∧ (i a).val < win2_2.index t a * S3000x128.size a + S3000x128.size a := by
  show i ∈ ((View.whole main_v50).slice (win2_2.rect t)).set ↔ _
  rw [View.set_slice_whole, Rect.mem_set_unit]
  exact Iff.rfl

/-- The 25 blocks fill the result array: row `r` is in the block of point `r / 3000`. -/
theorem cover2 (i : S75000x128.Idx) :
    ∃ t : Fin cfg2.N, (cfg2.win 2).flush t = true ∧ i ∈ ((cfg2.win 2).blk t).view.set := by
  have hr : (i 0).val < 75000 := (i 0).isLt
  have hl : (i 1).val < 128 := (i 1).isLt
  have hN : cfg2.N = 25 := N_2
  let t : Fin cfg2.N := ⟨(i 0).val / 3000, by rw [hN]; omega⟩
  obtain ⟨-, -, h2⟩ := idx2 t
  have q0 : win2_2.index t (0 : Fin 2) = (i 0).val / 3000 := congrFun h2 0
  have q1 : win2_2.index t (1 : Fin 2) = 0 := congrFun h2 1
  refine ⟨t, flush2_2 t, (mem_blk2_2 t i).mpr fun a => ?_⟩
  match a with
  | ⟨0, _⟩ =>
    show win2_2.index t (0 : Fin 2) * 3000 ≤ (i 0).val ∧ (i 0).val < win2_2.index t (0 : Fin 2) * 3000 + 3000
    rw [q0]; omega
  | ⟨1, _⟩ =>
    show win2_2.index t (1 : Fin 2) * 128 ≤ (i 1).val ∧ (i 1).val < win2_2.index t (1 : Fin 2) * 128 + 128
    rw [q1]; omega

/-- THE VALUE OF THE CALL: after the last point the result array is the elementwise sum of the two operand
    arrays as the call found them, times the constant in every position. -/
theorem final2 (c : Dev nD) :
    (dat2 V c).arrAt 2 cfg2.N
      = mulf (s := S75000x128) (φ := .f32) (addf (V c main_v48) (V c main_v49))
          (broadcast S75000x128 (Scalar.ofBits .f32 0x3E800000#32)) :=
  (dat2 V c).arrAt_eq_of_cover 2 _ (fun t _ => flushed2_2 V c t) cover2

end Cert.Kernel.Hand
-- ==== Proof.BGather3Defs.lean ====
/-
  The closed form of what one grid step of the row gather leaves in its output window.

  At grid point `i` the step copies, for each `y0 < 128`, the row of the HBM array `fh` whose number is entry
  `128 * i + y0` of the index table `tb` into row `y0` of the window. `gathered3 i tb fh` is that window as a function
  of its index: row `y0`, column `y1` holds `fh` at row `(tb (128 * i + y0)).toNat`, column `y1`. The table position is
  taken modulo 4096 and the row modulo 100000 so that the term is total; at a grid point the position is below 4096
  as it stands, and under the hypothesis that every table entry is below 100000 the row is the entry itself
  (`gathered3_row_of_lt`).
-/
import proofs.«412556_j37890201485521_3_alg».proof.Kernel
import Idealize.ShloMosaic.Lib.ValueIdx

noncomputable section

namespace Cert.Kernel.Hand

open Idealize.ShloMosaic Idealize.ShloMosaic.ValueIdx

variable {F : FTy → Type} [FloatOps F]

/-- The table position grid point `i` reads for window row `y0`: `128 * i + y0` (modulo the table's length). -/
def gathered3_pos (i : grid3.Coords) (y0 : Fin 128) : Fin 4096 :=
  ⟨(128 * (i 0).val + y0.val) % 4096, Nat.mod_lt _ (by norm_num)⟩

/-- The row of the HBM array a table entry names (modulo the array's row count). -/
def gathered3_row (v : BitVec 32) : Fin 100000 :=
  ⟨v.toNat % 100000, Nat.mod_lt _ (by norm_num)⟩

/-- What grid point `i` leaves in the output window: row `y0` is row `tb (128 * i + y0)` of `fh`. -/
def gathered3 (i : grid3.Coords) (tb : Vec F S4096 .i32) (fh : Vec F S100000x64 .f32) : Vec F S128x64 .f32 :=
  fun y => fh (ix2 (n0 := 100000) (n1 := 64) (gathered3_row (tb (ix1 (n := 4096) (gathered3_pos i (y 0))))) (y 1))

/-- At a grid point the table position is `128 * i + y0` itself. -/
theorem gathered3_pos_val (i : grid3.Coords) (y0 : Fin 128) : (gathered3_pos i y0).val = 128 * (i 0).val + y0.val := by
  have hi : (i 0).val < 32 := (i 0).isLt
  have hy : y0.val < 128 := y0.isLt
  show (128 * (i 0).val + y0.val) % 4096 = _
  exact Nat.mod_eq_of_lt (by omega)

/-- A table entry below the row count names its own row. -/
theorem gathered3_row_of_lt (v : BitVec 32) (h : v.toNat < 100000) : (gathered3_row v).val = v.toNat :=
  Nat.mod_eq_of_lt h

end Cert.Kernel.Hand
-- ==== Proof.BDat3.lean ====
/-
  The row gather over the clipped ids: the proof data of its pipeline.

  The region has one window, the output array (4096 rows of 64), written back block by block: grid point `i` of 32
  writes rows `128 i … 128 i + 127`. The body reads two operands the pipeline does not stage: the table of ids (4096
  words of scalar memory, prefetched) and the array of rows (100000 rows of 64, left in HBM), one row per window row
  by a transfer of its own, each on its own cell of 128. Between points nothing of the body's is in flight, so the
  invariant is the same at every point: the scratch no window stages, the 128 own cells at zero, the array of rows
  whole at its entry contents, the table whole at the admissible contents. After point `t` the window's buffer holds
  the gathered block of that point, as a closed term of the two operands' contents.
-/
import proofs.«412556_j37890201485521_3_alg».proof.Proof.Gen.Kernel.Launch
import proofs.«412556_j37890201485521_3_alg».proof.Proof.BGather3Defs
import Idealize.ShloMosaic.Lib.Pipeline.Frame
import Idealize.ShloMosaic.Lib.Tactic

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's own cells -/

/-- The gather's own transfer cells: cell `20 + j` of the pool for window row `j`, 128 of them. -/
abbrev cellAt3 : Fin 128 → SemLoc sig := fun j => SemLoc.dma (cc3_scratch0.ix (ix1 (n := 128) j))

/-- They are scoped, pairwise distinct, and none is a staging cell of the window (those are cells 18 and 19). -/
theorem ownSemFacts3 : Pipeline.OwnSemFacts spec3 cellAt3 := by decide

/-! ## The proof data, at entry contents `V` and admissible table contents `a3` -/

variable (V : (c : Dev nD) → (b : Ref sig .tc) → Buf (Elt F) ((c : Thread nD τ).loc b))
variable (a3 : (pcfg3 (F := F)).Adm)

/-- The invariant between points: the scoped buffers no window stages, the own cells at zero, the array of rows whole
    at its entry contents, the table of ids whole at the admissible contents. -/
def Φ3 (c : Dev nD) : sProp 𝕄 :=
  iprop(Pipeline.scopedRest (Ix := Unit) (Name := ℕ) (U := Pipeline.UD sig nD τ) (Lvl := ℕ) (Val := Elt F) spec3 c
    ∗ Pipeline.ownSems0 (Ix := Unit) (Name := ℕ) (U := Pipeline.UD sig nD τ) (Lvl := ℕ) (Val := Elt F) (τ := τ) cellAt3 c
    ∗ (((c : Thread nD τ).loc main_v52) ↦{fullShare} V c main_v52)
    ∗ Pipeline.prefHeld (Ix := Unit) (Name := ℕ) (U := Pipeline.UD sig nD τ) (Lvl := ℕ) pre3 c (fun _ => fullShare) a3.1)

/-- The proof data on core `c`: the output array as the region finds it; after point `t` the window's buffer at the
    gathered block of that point; the invariant; full shares; nothing owed. -/
def dat3 (c : Dev nD) : Dat τ (Elt F) Unit ℕ (Pipeline.UD sig nD τ) ℕ (cfg3 a3) c where
  A w := V c (Pipeline.arrRef spec3 w)
  after w t := match w with
    | ⟨0, _⟩ => gathered3 ((cfg3 a3).grid.coords t) (V c main_v54) (V c main_v52)
  Φ _ := Φ3 V a3 c
  q _ := fullShare
  owed _ := 0

/-! ## Its projections -/

theorem A3 (c : Dev nD) (w : Fin (cfg3 a3).W) : (dat3 V a3 c).A w = V c (Pipeline.arrRef spec3 w) := by
  dsimp only [dat3]

theorem after3 (c : Dev nD) (t : Fin (cfg3 a3).N) :
    (dat3 V a3 c).after 0 t = gathered3 ((cfg3 a3).grid.coords t) (V c main_v54) (V c main_v52) := by
  dsimp only [dat3]; rfl

theorem Φ3_at (c : Dev nD) (t : Fin ((cfg3 a3).N + 1)) : (dat3 V a3 c).Φ t = Φ3 V a3 c := rfl

theorem q3 (c : Dev nD) (w : Fin (cfg3 a3).W) : (dat3 V a3 c).q w = fullShare := rfl

theorem owed3 (c : Dev nD) (t : Fin ((cfg3 a3).N + 1)) : (dat3 V a3 c).owed t = 0 := rfl

/-- The one table, held whole: the buffer of ids at the admissible contents. -/
theorem prefHeld3_eq (c : Dev nD) :
    (Pipeline.prefHeld (Ix := Unit) (Name := ℕ) (U := Pipeline.UD sig nD τ) (Lvl := ℕ) pre3 c (fun _ => fullShare) a3.1 : sProp 𝕄)
      = iprop(((c : Thread nD τ).loc main_v54) ↦{fullShare} a3.1 0) := by
  unfold Pipeline.prefHeld
  rw [show (Finset.univ : Finset (Fin pre3.K)) = {(0 : Fin 1)} from rfl, bigSep_singleton]
  rfl

/-! ## What the body must do at a point -/

/-- The body's specification at the region's contents: on any whole window buffer, holding the table of ids and the
    array of rows whole, the 128 own cells at zero and the core's dues at nothing, the gather at grid point `i` runs to
    its return with the window's buffer at the gathered block, the table, the array and the cells as they were, and
    the core still owing nothing. -/
def Body3 (c : Dev nD) : Prop :=
  ∀ (i : grid3.Coords) (arg3 : Memref sig .tc .vmem S128x64 .f32) (harg3 : arg3.IsWhole) (W : Waits sig Unit) (K : PUnit → sProp 𝕄),
    iprop((∃ d, owns (c : Thread nD τ) arg3 fullShare d)
        ∗ (((c : Thread nD τ).loc main_v54) ↦{fullShare} a3.1 0)
        ∗ (((c : Thread nD τ).loc main_v52) ↦{fullShare} V c main_v52)
        ∗ Pipeline.ownSems0 (Ix := Unit) (Name := ℕ) (U := Pipeline.UD sig nD τ) (Lvl := ℕ) (Val := Elt F) (τ := τ) cellAt3 c
        ∗ owes (c : Thread nD τ) 0 W
        ∗ (iprop(owns (c : Thread nD τ) arg3 fullShare (gathered3 i (a3.1 0) (V c main_v52))
            ∗ (((c : Thread nD τ).loc main_v54) ↦{fullShare} a3.1 0)
            ∗ (((c : Thread nD τ).loc main_v52) ↦{fullShare} V c main_v52)
            ∗ Pipeline.ownSems0 (Ix := Unit) (Name := ℕ) (U := Pipeline.UD sig nD τ) (Lvl := ℕ) (Val := Elt F) (τ := τ) cellAt3 c
            ∗ (∃ W', owes (c : Thread nD τ) 0 W')) -∗ K ⟨⟩))
      ⊢ wp frame (wpE (defs₀ (F := F)) Variants.none c none) Set.univ
          (cc3__gather_kernel i (Memref.whole main_v54) (Memref.isWhole_whole _) (Memref.whole main_v52) (Memref.isWhole_whole _) arg3 harg3 cc3_scratch0) K

end Cert.Kernel.Hand

end
-- ==== Proof.BGather4Defs.lean ====
/-
  The closed form of what one grid step of the row gather leaves in its output window.

  At grid point `i` the step copies, for each `y0 < 128`, the row of the HBM array `fh` whose number is entry
  `128 * i + y0` of the index table `tb` into row `y0` of the window. `gathered4 i tb fh` is that window as a function
  of its index: row `y0`, column `y1` holds `fh` at row `(tb (128 * i + y0)).toNat`, column `y1`. The table position is
  taken modulo 4096 and the row modulo 50000 so that the term is total; at a grid point the position is below 4096
  as it stands, and under the hypothesis that every table entry is below 50000 the row is the entry itself
  (`gathered4_row_of_lt`).
-/
import proofs.«412556_j37890201485521_3_alg».proof.Kernel
import Idealize.ShloMosaic.Lib.ValueIdx

noncomputable section

namespace Cert.Kernel.Hand

open Idealize.ShloMosaic Idealize.ShloMosaic.ValueIdx

variable {F : FTy → Type} [FloatOps F]

/-- The table position grid point `i` reads for window row `y0`: `128 * i + y0` (modulo the table's length). -/
def gathered4_pos (i : grid4.Coords) (y0 : Fin 128) : Fin 4096 :=
  ⟨(128 * (i 0).val + y0.val) % 4096, Nat.mod_lt _ (by norm_num)⟩

/-- The row of the HBM array a table entry names (modulo the array's row count). -/
def gathered4_row (v : BitVec 32) : Fin 50000 :=
  ⟨v.toNat % 50000, Nat.mod_lt _ (by norm_num)⟩

/-- What grid point `i` leaves in the output window: row `y0` is row `tb (128 * i + y0)` of `fh`. -/
def gathered4 (i : grid4.Coords) (tb : Vec F S4096 .i32) (fh : Vec F S50000x64 .f32) : Vec F S128x64 .f32 :=
  fun y => fh (ix2 (n0 := 50000) (n1 := 64) (gathered4_row (tb (ix1 (n := 4096) (gathered4_pos i (y 0))))) (y 1))

/-- At a grid point the table position is `128 * i + y0` itself. -/
theorem gathered4_pos_val (i : grid4.Coords) (y0 : Fin 128) : (gathered4_pos i y0).val = 128 * (i 0).val + y0.val := by
  have hi : (i 0).val < 32 := (i 0).isLt
  have hy : y0.val < 128 := y0.isLt
  show (128 * (i 0).val + y0.val) % 4096 = _
  exact Nat.mod_eq_of_lt (by omega)

/-- A table entry below the row count names its own row. -/
theorem gathered4_row_of_lt (v : BitVec 32) (h : v.toNat < 50000) : (gathered4_row v).val = v.toNat :=
  Nat.mod_eq_of_lt h

end Cert.Kernel.Hand
-- ==== Proof.BDat4.lean ====
/-
  The row gather over the clipped ids: the proof data of its pipeline.

  The region has one window, the output array (4096 rows of 64), written back block by block: grid point `i` of 32
  writes rows `128 i … 128 i + 127`. The body reads two operands the pipeline does not stage: the table of ids (4096
  words of scalar memory, prefetched) and the array of rows (50000 rows of 64, left in HBM), one row per window row
  by a transfer of its own, each on its own cell of 128. Between points nothing of the body's is in flight, so the
  invariant is the same at every point: the scratch no window stages, the 128 own cells at zero, the array of rows
  whole at its entry contents, the table whole at the admissible contents. After point `t` the window's buffer holds
  the gathered block of that point, as a closed term of the two operands' contents.
-/
import proofs.«412556_j37890201485521_3_alg».proof.Proof.Gen.Kernel.Launch
import proofs.«412556_j37890201485521_3_alg».proof.Proof.BGather4Defs
import Idealize.ShloMosaic.Lib.Pipeline.Frame
import Idealize.ShloMosaic.Lib.Tactic

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's own cells -/

/-- The gather's own transfer cells: cell `20 + j` of the pool for window row `j`, 128 of them. -/
abbrev cellAt4 : Fin 128 → SemLoc sig := fun j => SemLoc.dma (cc4_scratch0.ix (ix1 (n := 128) j))

/-- They are scoped, pairwise distinct, and none is a staging cell of the window (those are cells 18 and 19). -/
theorem ownSemFacts4 : Pipeline.OwnSemFacts spec4 cellAt4 := by decide

/-! ## The proof data, at entry contents `V` and admissible table contents `a4` -/

variable (V : (c : Dev nD) → (b : Ref sig .tc) → Buf (Elt F) ((c : Thread nD τ).loc b))
variable (a4 : (pcfg4 (F := F)).Adm)

/-- The invariant between points: the scoped buffers no window stages, the own cells at zero, the array of rows whole
    at its entry contents, the table of ids whole at the admissible contents. -/
def Φ4 (c : Dev nD) : sProp 𝕄 :=
  iprop(Pipeline.scopedRest (Ix := Unit) (Name := ℕ) (U := Pipeline.UD sig nD τ) (Lvl := ℕ) (Val := Elt F) spec4 c
    ∗ Pipeline.ownSems0 (Ix := Unit) (Name := ℕ) (U := Pipeline.UD sig nD τ) (Lvl := ℕ) (Val := Elt F) (τ := τ) cellAt4 c
    ∗ (((c : Thread nD τ).loc main_v53) ↦{fullShare} V c main_v53)
    ∗ Pipeline.prefHeld (Ix := Unit) (Name := ℕ) (U := Pipeline.UD sig nD τ) (Lvl := ℕ) pre4 c (fun _ => fullShare) a4.1)

/-- The proof data on core `c`: the output array as the region finds it; after point `t` the window's buffer at the
    gathered block of that point; the invariant; full shares; nothing owed. -/
def dat4 (c : Dev nD) : Dat τ (Elt F) Unit ℕ (Pipeline.UD sig nD τ) ℕ (cfg4 a4) c where
  A w := V c (Pipeline.arrRef spec4 w)
  after w t := match w with
    | ⟨0, _⟩ => gathered4 ((cfg4 a4).grid.coords t) (V c main_v56) (V c main_v53)
  Φ _ := Φ4 V a4 c
  q _ := fullShare
  owed _ := 0

/-! ## Its projections -/

theorem A4 (c : Dev nD) (w : Fin (cfg4 a4).W) : (dat4 V a4 c).A w = V c (Pipeline.arrRef spec4 w) := by
  dsimp only [dat4]

theorem after4 (c : Dev nD) (t : Fin (cfg4 a4).N) :
    (dat4 V a4 c).after 0 t = gathered4 ((cfg4 a4).grid.coords t) (V c main_v56) (V c main_v53) := by
  dsimp only [dat4]; rfl

theorem Φ4_at (c : Dev nD) (t : Fin ((cfg4 a4).N + 1)) : (dat4 V a4 c).Φ t = Φ4 V a4 c := rfl

theorem q4 (c : Dev nD) (w : Fin (cfg4 a4).W) : (dat4 V a4 c).q w = fullShare := rfl

theorem owed4 (c : Dev nD) (t : Fin ((cfg4 a4).N + 1)) : (dat4 V a4 c).owed t = 0 := rfl

/-- The one table, held whole: the buffer of ids at the admissible contents. -/
theorem prefHeld4_eq (c : Dev nD) :
    (Pipeline.prefHeld (Ix := Unit) (Name := ℕ) (U := Pipeline.UD sig nD τ) (Lvl := ℕ) pre4 c (fun _ => fullShare) a4.1 : sProp 𝕄)
      = iprop(((c : Thread nD τ).loc main_v56) ↦{fullShare} a4.1 0) := by
  unfold Pipeline.prefHeld
  rw [show (Finset.univ : Finset (Fin pre4.K)) = {(0 : Fin 1)} from rfl, bigSep_singleton]
  rfl

/-! ## What the body must do at a point -/

/-- The body's specification at the region's contents: on any whole window buffer, holding the table of ids and the
    array of rows whole, the 128 own cells at zero and the core's dues at nothing, the gather at grid point `i` runs to
    its return with the window's buffer at the gathered block, the table, the array and the cells as they were, and
    the core still owing nothing. -/
def Body4 (c : Dev nD) : Prop :=
  ∀ (i : grid4.Coords) (arg3 : Memref sig .tc .vmem S128x64 .f32) (harg3 : arg3.IsWhole) (W : Waits sig Unit) (K : PUnit → sProp 𝕄),
    iprop((∃ d, owns (c : Thread nD τ) arg3 fullShare d)
        ∗ (((c : Thread nD τ).loc main_v56) ↦{fullShare} a4.1 0)
        ∗ (((c : Thread nD τ).loc main_v53) ↦{fullShare} V c main_v53)
        ∗ Pipeline.ownSems0 (Ix := Unit) (Name := ℕ) (U := Pipeline.UD sig nD τ) (Lvl := ℕ) (Val := Elt F) (τ := τ) cellAt4 c
        ∗ owes (c : Thread nD τ) 0 W
        ∗ (iprop(owns (c : Thread nD τ) arg3 fullShare (gathered4 i (a4.1 0) (V c main_v53))
            ∗ (((c : Thread nD τ).loc main_v56) ↦{fullShare} a4.1 0)
            ∗ (((c : Thread nD τ).loc main_v53) ↦{fullShare} V c main_v53)
            ∗ Pipeline.ownSems0 (Ix := Unit) (Name := ℕ) (U := Pipeline.UD sig nD τ) (Lvl := ℕ) (Val := Elt F) (τ := τ) cellAt4 c
            ∗ (∃ W', owes (c : Thread nD τ) 0 W')) -∗ K ⟨⟩))
      ⊢ wp frame (wpE (defs₀ (F := F)) Variants.none c none) Set.univ
          (cc4__gather_kernel i (Memref.whole main_v56) (Memref.isWhole_whole _) (Memref.whole main_v53) (Memref.isWhole_whole _) arg3 harg3 cc4_scratch0) K

end Cert.Kernel.Hand

end
-- ==== Proof.BFold.lean ====
/-
  The contents of core c's buffers at every boundary of @main, as one chain of definitions from the launch memory:
  after a stretch of host operations the stretch applied; after one of the three accumulating calls its output array
  replaced by what the call's write-backs leave; after a gathering call its result array likewise (the table operand
  it reads in place is put back as it was). From the chain: the contents the regions leave (`outs`), the admissible
  contents of the two prefetched tables, and every call's proof data at its own entry contents.
-/
import proofs.«412556_j37890201485521_3_alg».proof.Proof.Gen.Kernel.Regions
import proofs.«412556_j37890201485521_3_alg».proof.Proof.BAcc0
import proofs.«412556_j37890201485521_3_alg».proof.Proof.BAcc1
import proofs.«412556_j37890201485521_3_alg».proof.Proof.BAcc2
import proofs.«412556_j37890201485521_3_alg».proof.Proof.BDat3
import proofs.«412556_j37890201485521_3_alg».proof.Proof.BDat4

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

/-- No core owes another anything: no level is assigned. -/
abbrev noLevels : GSem nD τ sig → Finset Unit := fun _ => ∅
abbrev noLevel : GSem nD τ sig → Unit → ℕ := fun _ _ => 0
/-- What rides beside the buffers through every segment: the core's generator register at some state and its dues,
    at nothing. -/
abbrev riding (c : Dev nD) : sProp 𝕄 :=
  iprop((∃ r, prngReg c r) ∗ ∃ W, owes (c : Thread nD τ) (0 : CellTallies nD τ sig Unit) W)

variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) := fun c b => W c b

abbrev U1 : Dev nD → Valuation τ sig (Elt F) := fun c => Gen.V1 m c
abbrev o16 (c : Dev nD) := (dat0 (atRefs (U1 m)) c).arrAt 2 cfg0.N
abbrev U2 : Dev nD → Valuation τ sig (Elt F) := fun c => Function.update (U1 m c) main_v16 (o16 m c)
abbrev U3 : Dev nD → Valuation τ sig (Elt F) := fun c => StableHlo.after hostOps1 (U2 m c)
abbrev o33 (c : Dev nD) := (dat1 (atRefs (U3 m)) c).arrAt 2 cfg1.N
abbrev U4 : Dev nD → Valuation τ sig (Elt F) := fun c => Function.update (U3 m c) main_v33 (o33 m c)
abbrev U5 : Dev nD → Valuation τ sig (Elt F) := fun c => StableHlo.after hostOps2 (U4 m c)
abbrev o50 (c : Dev nD) := (dat2 (atRefs (U5 m)) c).arrAt 2 cfg2.N
abbrev U6 : Dev nD → Valuation τ sig (Elt F) := fun c => Function.update (U5 m c) main_v50 (o50 m c)
abbrev U7 : Dev nD → Valuation τ sig (Elt F) := fun c => StableHlo.after hostOps3 (U6 m c)
abbrev U8 : Dev nD → Valuation τ sig (Elt F) := fun c => StableHlo.after hostOps3_1 (U7 m c)

/-- The admissible contents of call 3's prefetched table: the clipped user ids as the call finds them. -/
def a3 : (pcfg3 (F := F)).Adm := ⟨fun k => U8 m 0 (pre3.ref k), trivial⟩
theorem ha3 (c : Dev nD) (k) : atRefs (U8 m) c (pre3.ref k) = (a3 m).1 k := by
  obtain rfl : c = 0 := Subsingleton.elim _ _
  rfl
abbrev o55 (c : Dev nD) := (dat3 (atRefs (U8 m)) (a3 m) c).arrAt 0 (cfg3 (a3 m)).N
abbrev U9 : Dev nD → Valuation τ sig (Elt F) := fun c =>
  Function.update (Function.update (U8 m c) main_v55 (o55 m c)) main_v52 (U8 m c main_v52)
abbrev U10 : Dev nD → Valuation τ sig (Elt F) := fun c => StableHlo.after hostOps4 (U9 m c)
abbrev U11 : Dev nD → Valuation τ sig (Elt F) := fun c => StableHlo.after hostOps4_1 (U10 m c)
/-- The admissible contents of call 4's prefetched table: the clipped item ids as the call finds them. -/
def a4 : (pcfg4 (F := F)).Adm := ⟨fun k => U11 m 0 (pre4.ref k), trivial⟩
theorem ha4 (c : Dev nD) (k) : atRefs (U11 m) c (pre4.ref k) = (a4 m).1 k := by
  obtain rfl : c = 0 := Subsingleton.elim _ _
  rfl
abbrev o57 (c : Dev nD) := (dat4 (atRefs (U11 m)) (a4 m) c).arrAt 0 (cfg4 (a4 m)).N
abbrev U12 : Dev nD → Valuation τ sig (Elt F) := fun c =>
  Function.update (Function.update (U11 m c) main_v57 (o57 m c)) main_v53 (U11 m c main_v53)

/-- What the regions leave, read off the chain at the boundary after each. -/
def outs : Gen.Outs (F := F) := fun j r c =>
  match j with
  | 2 => U2 m c r
  | 4 => U4 m c r
  | 6 => U6 m c r
  | 9 => U9 m c r
  | 12 => U12 m c r
  | _ => U1 m c r

/-- The tables' admissible contents, call by call (the first three calls have no table). -/
def adm : (p : Fin 5) → (pcfgs (F := F) p).Adm
  | ⟨0, _⟩ => cfg0.toPCfg_adm
  | ⟨1, _⟩ => cfg1.toPCfg_adm
  | ⟨2, _⟩ => cfg2.toPCfg_adm
  | ⟨3, _⟩ => a3 m
  | ⟨4, _⟩ => a4 m

/-- Every call's proof data at its own entry contents. -/
def pdats : (p : Fin 5) → (c : Dev nD) → Dat τ (Elt F) Unit ℕ (Pipeline.UD sig nD τ) ℕ (Pipeline.pin (pcfgs (F := F)) (adm m) p) c
  | ⟨0, _⟩ => fun c => dat0 (atRefs (U1 m)) c
  | ⟨1, _⟩ => fun c => dat1 (atRefs (U3 m)) c
  | ⟨2, _⟩ => fun c => dat2 (atRefs (U5 m)) c
  | ⟨3, _⟩ => fun c => dat3 (atRefs (U8 m)) (a3 m) c
  | ⟨4, _⟩ => fun c => dat4 (atRefs (U11 m)) (a4 m) c

theorem outs_16 (c : Dev nD) : outs m 2 main_v16 c = o16 m c := by
  show U2 m c main_v16 = _
  exact Function.update_self _ _ _
theorem outs_33 (c : Dev nD) : outs m 4 main_v33 c = o33 m c := by
  show U4 m c main_v33 = _
  exact Function.update_self _ _ _
theorem outs_50 (c : Dev nD) : outs m 6 main_v50 c = o50 m c := by
  show U6 m c main_v50 = _
  exact Function.update_self _ _ _
theorem outs_52 (c : Dev nD) : outs m 9 main_v52 c = U8 m c main_v52 := by
  show U9 m c main_v52 = _
  exact Function.update_self _ _ _
theorem outs_55 (c : Dev nD) : outs m 9 main_v55 c = o55 m c := by
  show U9 m c main_v55 = _
  exact (Function.update_of_ne (StableHlo.devRef_ne_of_ne (by decide) : (Proc.devRef .tc main_v55 : DevRef τ sig) ≠ Proc.devRef .tc main_v52) _ _).trans (Function.update_self _ _ _)
theorem outs_53 (c : Dev nD) : outs m 12 main_v53 c = U11 m c main_v53 := by
  show U12 m c main_v53 = _
  exact Function.update_self _ _ _
theorem outs_57 (c : Dev nD) : outs m 12 main_v57 c = o57 m c := by
  show U12 m c main_v57 = _
  exact (Function.update_of_ne (StableHlo.devRef_ne_of_ne (by decide) : (Proc.devRef .tc main_v57 : DevRef τ sig) ≠ Proc.devRef .tc main_v53) _ _).trans (Function.update_self _ _ _)

/-- The generated valuations at these `outs` are the chain. -/
theorem V2_eq (c : Dev nD) : Gen.V2 m (outs m) c = U2 m c := by
  unfold Gen.V2; rw [outs_16]
theorem V3_eq (c : Dev nD) : Gen.V3 m (outs m) c = U3 m c := by
  unfold Gen.V3; rw [V2_eq]
theorem V4_eq (c : Dev nD) : Gen.V4 m (outs m) c = U4 m c := by
  unfold Gen.V4; rw [outs_33, V3_eq]
theorem V5_eq (c : Dev nD) : Gen.V5 m (outs m) c = U5 m c := by
  unfold Gen.V5; rw [V4_eq]
theorem V6_eq (c : Dev nD) : Gen.V6 m (outs m) c = U6 m c := by
  unfold Gen.V6; rw [outs_50, V5_eq]
theorem V8_eq (c : Dev nD) : Gen.V8 m (outs m) c = U8 m c := by
  unfold Gen.V8 Gen.V7; rw [V6_eq]
theorem V9_eq (c : Dev nD) : Gen.V9 m (outs m) c = U9 m c := by
  unfold Gen.V9; rw [outs_55, outs_52, V8_eq]
theorem V11_eq (c : Dev nD) : Gen.V11 m (outs m) c = U11 m c := by
  unfold Gen.V11 Gen.V10; rw [V9_eq]
theorem V12_eq (c : Dev nD) : Gen.V12 m (outs m) c = U12 m c := by
  unfold Gen.V12; rw [outs_57, outs_53, V11_eq]

end Cert.Kernel.Hand

end
-- ==== Proof.BFoldEq.lean ====
/-
  The chain of boundary contents against the generated valuations, buffer by buffer: what a call finds in a buffer
  when it is entered, and what it leaves in its output array.
-/
import proofs.«412556_j37890201485521_3_alg».proof.Proof.BFold

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

theorem entry1 (c : Dev nD) (r : Ref sig .tc) : Gen.V1 m c r = U1 m c r := rfl
theorem entry3 (c : Dev nD) (r : Ref sig .tc) : Gen.V3 m (outs m) c r = U3 m c r := congrFun (V3_eq m c) _
theorem entry5 (c : Dev nD) (r : Ref sig .tc) : Gen.V5 m (outs m) c r = U5 m c r := congrFun (V5_eq m c) _
theorem entry8 (c : Dev nD) (r : Ref sig .tc) : Gen.V8 m (outs m) c r = U8 m c r := congrFun (V8_eq m c) _
theorem entry11 (c : Dev nD) (r : Ref sig .tc) : Gen.V11 m (outs m) c r = U11 m c r := congrFun (V11_eq m c) _

theorem exit2 (c : Dev nD) : Gen.V2 m (outs m) c main_v16 = o16 m c :=
  (congrFun (V2_eq m c) _).trans (Function.update_self _ _ _)
theorem exit4 (c : Dev nD) : Gen.V4 m (outs m) c main_v33 = o33 m c :=
  (congrFun (V4_eq m c) _).trans (Function.update_self _ _ _)
theorem exit6 (c : Dev nD) : Gen.V6 m (outs m) c main_v50 = o50 m c :=
  (congrFun (V6_eq m c) _).trans (Function.update_self _ _ _)
theorem exit9 (c : Dev nD) : Gen.V9 m (outs m) c main_v55 = o55 m c :=
  (congrFun (V9_eq m c) _).trans
    ((Function.update_of_ne (StableHlo.devRef_ne_of_ne (by decide) : (Proc.devRef .tc main_v55 : DevRef τ sig) ≠ Proc.devRef .tc main_v52) _ _).trans (Function.update_self _ _ _))
theorem exit12 (c : Dev nD) : Gen.V12 m (outs m) c main_v57 = o57 m c :=
  (congrFun (V12_eq m c) _).trans
    ((Function.update_of_ne (StableHlo.devRef_ne_of_ne (by decide) : (Proc.devRef .tc main_v57 : DevRef τ sig) ≠ Proc.devRef .tc main_v53) _ _).trans (Function.update_self _ _ _))

end Cert.Kernel.Hand

end
-- ==== Proof.BReg0.lean ====
/-
  The first accumulating call as a segment of @main: entered with every unscoped buffer of the core at the contents
  the host operations before it leave, left with the same buffers except the call's output array, which holds what the
  write-backs of its twenty-five grid points leave. The call's three arrays are split out of the core's buffers at entry
  and put back at exit; the generator register rides through the call's invariant; nothing is owed to another core and
  the kernel has no semaphore of its own.
-/
import proofs.«412556_j37890201485521_3_alg».proof.Proof.BFoldEq
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Call 0 over the thread state "every unscoped buffer at the boundary's contents, beside the register and the
    core's dues". -/
def reg0 : Pipeline.RegionSeg (pcfgs (F := F)) (adm m) (pdats m) () defs₀ Variants.none noLevels noLevel 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (atRefs (U1 m)) c).loose
  hwaits := Pipeline.hwaits_of_owed_zero _ _ _ _ noLevels noLevel 0 fun _ _ => rfl
  pre c := iprop(StableHlo.held (c : Thread nD τ) (Pipeline.ucRefs τ sig) (U1 m c) ∗ riding c)
  post c := iprop(StableHlo.held (c : Thread nD τ) (Pipeline.ucRefs τ sig) (Gen.V2 m (outs m) c) ∗ riding c)
  X c := iprop(∃ r, prngReg c r)
  Y c := iprop(∃ r, prngReg c r)
  Z c := Pipeline.unscopedRest (Ix := Unit) (Name := ℕ) (U := Pipeline.UD sig nD τ) (Lvl := ℕ) spec0 c (atRefs (U1 m) c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (atRefs (U1 m) c) fun _ => rfl
    rw [Pipeline.unscopedBufs_held] at hsplit
    iintro ⟨⟨Hbufs, Hreg, Hdues⟩, -, -⟩
    ihave Hparts := hsplit $$ Hbufs
    icases Hparts with ⟨Harr, Hrest⟩
    imodintro
    isplitl [Harr]; · iexact Harr
    isplitr; · unfold Pipeline.prefHeld; rw [show (Finset.univ : Finset (Fin 0)) = ∅ from rfl, BI.bigSep_empty]; iempintro
    isplitl [Hdues]
    · unfold Pipeline.Dat.owesAt Pipeline.owesWithin
      icases Hdues with ⟨%W, Hdues⟩; iexists W; isplitr; · ipureintro; exact fun _ _ => Or.inl trivial
      iexact Hdues
    isplitl [Hreg]; · iexact Hreg
    iexact Hrest
  hin c := by
    rw [show (pdats m 0 c).Φ 0 = Pipeline.ΦA spec0 c from rfl]; unfold Pipeline.ΦA
    iintro ⟨Hreg, -, Hscoped⟩
    isplitl [Hscoped]; · iexact Hscoped
    iexact Hreg
  hout c := by
    rw [Pipeline.ownSems0_none, show (pdats m 0 c).Φ (Fin.last _) = Pipeline.ΦA spec0 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) (adm m) (Ix := Unit) (Name := ℕ) (U := Pipeline.UD sig nD τ) (Lvl := ℕ)
      (launch0 (F := F)).win (launch0 (F := F)).arr_whole c (pdats m) ((pdats m 0 c).share_full fun _ => rfl)
      (atRefs (U1 m) c) (atRefs (Gen.V2 m (outs m)) c) ((pdats m 0 c).arrAt · cfg0.N)
      (fun w => by
        fin_cases w
        · exact (kept0_0 (atRefs (U1 m)) c).trans ((entry1 m c main_v14).symm.trans (Gen.V2_of m (outs m) c main_v14 (by decide)).symm)
        · exact (kept0_1 (atRefs (U1 m)) c).trans ((entry1 m c main_v15).symm.trans (Gen.V2_of m (outs m) c main_v15 (by decide)).symm)
        · exact (exit2 m c).symm)
      (fun b hb => Gen.V2_of m (outs m) c b (fun h => hb (by
        rw [List.mem_singleton] at h; subst h
        exact Finset.mem_image.mpr ⟨2, Finset.mem_univ _, rfl⟩)))
    rw [Pipeline.unscopedBufs_held] at hjoin
    iintro ⟨Harr, Hdues, Hreg, Hrest⟩
    imodintro
    isplitl [Harr Hrest]
    · iapply hjoin; isplitl [Harr] <;> iassumption
    isplitl [Hreg]; · iexact Hreg
    unfold Pipeline.Dat.owesAt Pipeline.owesWithin
    icases Hdues with ⟨%W, -, Hdues⟩; iexists W; iexact Hdues

end Cert.Kernel.Hand

end
-- ==== Proof.BReg1.lean ====
/-
  The second accumulating call as a segment of @main: entered with every unscoped buffer of the core at the contents
  the host operations before it leave, left with the same buffers except the call's output array, which holds what the
  write-backs of its twenty-five grid points leave. The call's three arrays are split out of the core's buffers at entry
  and put back at exit; the generator register rides through the call's invariant; nothing is owed to another core and
  the kernel has no semaphore of its own.
-/
import proofs.«412556_j37890201485521_3_alg».proof.Proof.BFoldEq
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Call 1 over the thread state "every unscoped buffer at the boundary's contents, beside the register and the
    core's dues". -/
def reg1 : Pipeline.RegionSeg (pcfgs (F := F)) (adm m) (pdats m) () defs₀ Variants.none noLevels noLevel 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (atRefs (U3 m)) c).loose
  hwaits := Pipeline.hwaits_of_owed_zero _ _ _ _ noLevels noLevel 1 fun _ _ => rfl
  pre c := iprop(StableHlo.held (c : Thread nD τ) (Pipeline.ucRefs τ sig) (U3 m c) ∗ riding c)
  post c := iprop(StableHlo.held (c : Thread nD τ) (Pipeline.ucRefs τ sig) (Gen.V4 m (outs m) c) ∗ riding c)
  X c := iprop(∃ r, prngReg c r)
  Y c := iprop(∃ r, prngReg c r)
  Z c := Pipeline.unscopedRest (Ix := Unit) (Name := ℕ) (U := Pipeline.UD sig nD τ) (Lvl := ℕ) spec1 c (atRefs (U3 m) c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (atRefs (U3 m) c) fun _ => rfl
    rw [Pipeline.unscopedBufs_held] at hsplit
    iintro ⟨⟨Hbufs, Hreg, Hdues⟩, -, -⟩
    ihave Hparts := hsplit $$ Hbufs
    icases Hparts with ⟨Harr, Hrest⟩
    imodintro
    isplitl [Harr]; · iexact Harr
    isplitr; · unfold Pipeline.prefHeld; rw [show (Finset.univ : Finset (Fin 0)) = ∅ from rfl, BI.bigSep_empty]; iempintro
    isplitl [Hdues]
    · unfold Pipeline.Dat.owesAt Pipeline.owesWithin
      icases Hdues with ⟨%W, Hdues⟩; iexists W; isplitr; · ipureintro; exact fun _ _ => Or.inl trivial
      iexact Hdues
    isplitl [Hreg]; · iexact Hreg
    iexact Hrest
  hin c := by
    rw [show (pdats m 1 c).Φ 0 = Pipeline.ΦA spec1 c from rfl]; unfold Pipeline.ΦA
    iintro ⟨Hreg, -, Hscoped⟩
    isplitl [Hscoped]; · iexact Hscoped
    iexact Hreg
  hout c := by
    rw [Pipeline.ownSems0_none, show (pdats m 1 c).Φ (Fin.last _) = Pipeline.ΦA spec1 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) (adm m) (Ix := Unit) (Name := ℕ) (U := Pipeline.UD sig nD τ) (Lvl := ℕ)
      (launch1 (F := F)).win (launch1 (F := F)).arr_whole c (pdats m) ((pdats m 1 c).share_full fun _ => rfl)
      (atRefs (U3 m) c) (atRefs (Gen.V4 m (outs m)) c) ((pdats m 1 c).arrAt · cfg1.N)
      (fun w => by
        fin_cases w
        · exact (kept1_0 (atRefs (U3 m)) c).trans ((entry3 m c main_v31).symm.trans (Gen.V4_of m (outs m) c main_v31 (by decide)).symm)
        · exact (kept1_1 (atRefs (U3 m)) c).trans ((entry3 m c main_v32).symm.trans (Gen.V4_of m (outs m) c main_v32 (by decide)).symm)
        · exact (exit4 m c).symm)
      (fun b hb => Gen.V4_of m (outs m) c b (fun h => hb (by
        rw [List.mem_singleton] at h; subst h
        exact Finset.mem_image.mpr ⟨2, Finset.mem_univ _, rfl⟩)))
    rw [Pipeline.unscopedBufs_held] at hjoin
    iintro ⟨Harr, Hdues, Hreg, Hrest⟩
    imodintro
    isplitl [Harr Hrest]
    · iapply hjoin; isplitl [Harr] <;> iassumption
    isplitl [Hreg]; · iexact Hreg
    unfold Pipeline.Dat.owesAt Pipeline.owesWithin
    icases Hdues with ⟨%W, -, Hdues⟩; iexists W; iexact Hdues

end Cert.Kernel.Hand

end
-- ==== Proof.BReg2.lean ====
/-
  The third accumulating call as a segment of @main: entered with every unscoped buffer of the core at the contents
  the host operations before it leave, left with the same buffers except the call's output array, which holds what the
  write-backs of its twenty-five grid points leave. The call's three arrays are split out of the core's buffers at entry
  and put back at exit; the generator register rides through the call's invariant; nothing is owed to another core and
  the kernel has no semaphore of its own.
-/
import proofs.«412556_j37890201485521_3_alg».proof.Proof.BFoldEq
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Call 2 over the thread state "every unscoped buffer at the boundary's contents, beside the register and the
    core's dues". -/
def reg2 : Pipeline.RegionSeg (pcfgs (F := F)) (adm m) (pdats m) () defs₀ Variants.none noLevels noLevel 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (atRefs (U5 m)) c).loose
  hwaits := Pipeline.hwaits_of_owed_zero _ _ _ _ noLevels noLevel 2 fun _ _ => rfl
  pre c := iprop(StableHlo.held (c : Thread nD τ) (Pipeline.ucRefs τ sig) (U5 m c) ∗ riding c)
  post c := iprop(StableHlo.held (c : Thread nD τ) (Pipeline.ucRefs τ sig) (Gen.V6 m (outs m) c) ∗ riding c)
  X c := iprop(∃ r, prngReg c r)
  Y c := iprop(∃ r, prngReg c r)
  Z c := Pipeline.unscopedRest (Ix := Unit) (Name := ℕ) (U := Pipeline.UD sig nD τ) (Lvl := ℕ) spec2 c (atRefs (U5 m) c)
  hentry c := by
    rw [Pipeline.ownSems0_none]
    have hsplit := Pipeline.arrays_of_unscopedBufs (p := 2) (pcfgs (F := F)) (adm m) (pdats m) (launch2 (F := F)).win (launch2 (F := F)).arr_whole c
      ((pdats m 2 c).share_full fun _ => rfl) (atRefs (U5 m) c) fun _ => rfl
    rw [Pipeline.unscopedBufs_held] at hsplit
    iintro ⟨⟨Hbufs, Hreg, Hdues⟩, -, -⟩
    ihave Hparts := hsplit $$ Hbufs
    icases Hparts with ⟨Harr, Hrest⟩
    imodintro
    isplitl [Harr]; · iexact Harr
    isplitr; · unfold Pipeline.prefHeld; rw [show (Finset.univ : Finset (Fin 0)) = ∅ from rfl, BI.bigSep_empty]; iempintro
    isplitl [Hdues]
    · unfold Pipeline.Dat.owesAt Pipeline.owesWithin
      icases Hdues with ⟨%W, Hdues⟩; iexists W; isplitr; · ipureintro; exact fun _ _ => Or.inl trivial
      iexact Hdues
    isplitl [Hreg]; · iexact Hreg
    iexact Hrest
  hin c := by
    rw [show (pdats m 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) (adm m) (Ix := Unit) (Name := ℕ) (U := Pipeline.UD sig nD τ) (Lvl := ℕ)
      (launch2 (F := F)).win (launch2 (F := F)).arr_whole c (pdats m) ((pdats m 2 c).share_full fun _ => rfl)
      (atRefs (U5 m) c) (atRefs (Gen.V6 m (outs m)) c) ((pdats m 2 c).arrAt · cfg2.N)
      (fun w => by
        fin_cases w
        · exact (kept2_0 (atRefs (U5 m)) c).trans ((entry5 m c main_v48).symm.trans (Gen.V6_of m (outs m) c main_v48 (by decide)).symm)
        · exact (kept2_1 (atRefs (U5 m)) c).trans ((entry5 m c main_v49).symm.trans (Gen.V6_of m (outs m) c main_v49 (by decide)).symm)
        · exact (exit6 m c).symm)
      (fun b hb => Gen.V6_of m (outs m) c b (fun h => hb (by
        rw [List.mem_singleton] at h; subst h
        exact Finset.mem_image.mpr ⟨2, Finset.mem_univ _, rfl⟩)))
    rw [Pipeline.unscopedBufs_held] at hjoin
    iintro ⟨Harr, Hdues, Hreg, Hrest⟩
    imodintro
    isplitl [Harr Hrest]
    · iapply hjoin; isplitl [Harr] <;> iassumption
    isplitl [Hreg]; · iexact Hreg
    unfold Pipeline.Dat.owesAt Pipeline.owesWithin
    icases Hdues with ⟨%W, -, Hdues⟩; iexists W; iexact Hdues

end Cert.Kernel.Hand

end
-- ==== Proof.BBody3.lean ====
/-
  The row gather over the clipped ids: its body obligation from the body's specification, and the value its output
  array ends at.

  The obligation. At a point the pipeline calls the gather on the window's current buffer. The invariant holds exactly
  what the body's specification asks beside that buffer (the table of ids, the array of rows, the 128 own cells at
  zero), so the obligation is the specification framed by the scratch no window stages; the table's contents are the
  entry contents of its buffer.

  The value. Block `t` of the output array is rows `128 t … 128 t + 127`, all 64 columns; the block index moves at every
  step, so every point writes its block back, and the 32 blocks cover the 4096 rows. What point `t` writes is the
  gathered block, which is the whole-array term "row `y0` is the row of the array of rows named by entry `y0` of the
  table" read through block `t`: the block's row `y0` sits at array row `128 t + y0`, the table position the gather
  reads for it. Hence the array ends at that term.
-/
import proofs.«412556_j37890201485521_3_alg».proof.Proof.BDat3
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a3 : (pcfg3 (F := F)).Adm)

/-! ## The body obligation -/

/-- The program the pipeline runs at point `t` is the gather at the point's coordinates, on the window's current
    buffer. -/
theorem prog3 (t : Fin (cfg3 a3).N) : (defs₀ (F := F) Proc.tc (cfg3 a3).body ((cfg3 a3).bodyArgs t ((cfg3 a3).slots t)))
    = cc3__gather_kernel ((cfg3 a3).grid.coords t) (Memref.whole main_v54) (Memref.isWhole_whole _) (Memref.whole main_v52) (Memref.isWhole_whole _)
        (spec3_0.stage ((cfg3 a3).slots t 0)) (hstage3_0 (((cfg3 a3).slots t 0).cast nbuf3_0)) cc3_scratch0 := rfl

/-- The library's body obligation from the body's specification: the invariant is taken apart into what the
    specification asks, the table's contents being the entry contents of its buffer (`ha3`); the window's buffer goes
    in at whatever it held; everything comes back as it was, the window's buffer at the gathered block. -/
theorem body_obligation3 (ha3 : ∀ c k, V c (pre3.ref k) = a3.1 k) (c : Dev nD) (hb : Body3 V a3 c) :
    BodyObligation (dat3 V a3 c) (defs₀ (F := F)) Variants.none () Set.univ := fun t => by
  rw [bigSep_W3, bigSep_W3, prog3]
  simp only []
  rw [Φ3_at, Φ3_at, after3]
  unfold Dat.owesAt Pipeline.owesWithin
  rw [owed3, owed3]
  unfold Φ3
  rw [prefHeld3_eq, show V c main_v54 = a3.1 0 from ha3 c 0]
  iintro ⟨⟨HS, Ho, Hh, Ht⟩, ⟨%W, -, HW⟩, ⟨%d, H0⟩⟩
  iapply (hb _ _ _ W _)
  isplitl [H0]; · iexists _; iexact H0
  isplitl [Ht]; · iexact Ht
  isplitl [Hh]; · iexact Hh
  isplitl [Ho]; · iexact Ho
  isplitl [HW]; · iexact HW
  iintro ⟨H0, Ht, Hh, Ho, ⟨%W', HW'⟩⟩
  isplitl [HS Ho Hh Ht]
  · isplitl [HS]; · iexact HS
    isplitl [Ho]; · iexact Ho
    isplitl [Hh]; · iexact Hh
    iexact Ht
  isplitl [HW']
  · iexists W'; isplitr; · ipureintro; exact fun _ _ => Or.inl trivial
    iexact HW'
  iexact H0

/-! ## The value: what the output array holds after the region -/

theorem N3 : (cfg3 a3).N = 32 := N_3

theorem isOut3 : ((cfg3 a3).win 0).isOut = true := rfl

/-- The window's block index at point `t` is the point's coordinate on the row axis, zero on the column axis. -/
theorem index3_row (t : Fin (cfg3 a3).N) : ((cfg3 a3).win 0).index t (0 : Fin 2) = (((cfg3 a3).grid.coords t) 0).val := by
  have h : (((cfg3 a3).grid.coords t) 0).val < 32 := (((cfg3 a3).grid.coords t) 0).isLt
  show (BitVec.ofNat 32 (((cfg3 a3).grid.coords t) 0).val).toNat = _
  rw [BitVec.toNat_ofNat]; exact Nat.mod_eq_of_lt (by omega)

theorem index3_col (t : Fin (cfg3 a3).N) : ((cfg3 a3).win 0).index t (1 : Fin 2) = 0 := rfl

/-- On the one-axis grid of 32 points the coordinate of point `t` is `t`. -/
theorem coords3_val (t : Fin (cfg3 a3).N) : (((cfg3 a3).grid.coords t) 0).val = t.val := by
  have ht : t.val < 32 := (N3 a3) ▸ t.isLt
  have hs : (cfg3 a3).grid.stride 0 = 1 := (by decide : grid3.stride 0 = 1)
  show t.val / (cfg3 a3).grid.stride 0 % 32 = t.val
  rw [hs, Nat.div_one]; exact Nat.mod_eq_of_lt ht

/-- Every point writes its block back: the block index moves at every step. -/
theorem flush3 (t : Fin (cfg3 a3).N) : ((cfg3 a3).win 0).flush t = true := by
  unfold Window.flush
  rw [isOut3, Bool.true_and, Bool.or_eq_true, decide_eq_true_eq, decide_eq_true_eq]
  by_cases h : t.val + 1 = (cfg3 a3).N
  · exact Or.inl h
  · have hlt : t.val + 1 < (cfg3 a3).N := by have := t.isLt; omega
    refine Or.inr ⟨hlt, fun he => ?_⟩
    have h0 := congrFun he (0 : Fin 2)
    rw [index3_row, index3_row, coords3_val, coords3_val] at h0
    exact absurd h0 (by show t.val + 1 ≠ t.val; omega)

/-- An element of block `t` sits in the array at row `128 · (the point's coordinate) + its row`, at its own column. -/
theorem size3_row : ((cfg3 a3).win 0).size (0 : Fin 2) = 128 := rfl
theorem size3_col : ((cfg3 a3).win 0).size (1 : Fin 2) = 64 := rfl

theorem emb3_row (t : Fin (cfg3 a3).N) (y : (((cfg3 a3).win 0).xblock ((cfg3 a3).grid.coords t)).Idx) :
    (((((cfg3 a3).win 0).blk t).view.emb y) (0 : Fin 2)).val = 128 * (((cfg3 a3).grid.coords t) 0).val + (y (0 : Fin 2)).val := by
  show ((((cfg3 a3).win 0).rect t).emb y (0 : Fin 2) : Nat) = _
  have h := Window.rect_emb_val ((cfg3 a3).win 0) t y (0 : Fin 2)
  rw [index3_row, size3_row] at h
  exact h.trans (by omega)

theorem emb3_col (t : Fin (cfg3 a3).N) (y : (((cfg3 a3).win 0).xblock ((cfg3 a3).grid.coords t)).Idx) :
    (((((cfg3 a3).win 0).blk t).view.emb y) (1 : Fin 2)).val = (y (1 : Fin 2)).val := by
  show ((((cfg3 a3).win 0).rect t).emb y (1 : Fin 2) : Nat) = _
  have h := Window.rect_emb_val ((cfg3 a3).win 0) t y (1 : Fin 2)
  rw [index3_col, size3_col] at h
  exact h.trans (by omega)

/-- What the output array holds after the region: row `y0` is the row of the array of rows that entry `y0` of the
    table of ids names. -/
def final3val (c : Dev nD) : Buf (Elt F) ((c : Thread nD τ).loc main_v55) :=
  fun y => V c main_v52 (ix2 (n0 := 100000) (n1 := 64) (gathered3_row (V c main_v54 (ix1 (n := 4096) (y 0)))) (y 1))

/-- The block point `t` writes back is that array read through the window's block at `t`. -/
theorem flushed3_eq (c : Dev nD) (t : Fin (cfg3 a3).N) :
    (dat3 V a3 c).flushed 0 t = (((cfg3 a3).win 0).blk t).view.read (Elt F) (final3val V c) := by
  show ((cfg3 a3).win 0).cut ((cfg3 a3).grid.coords t) ((dat3 V a3 c).after 0 t) = _
  rw [after3]
  funext y
  show gathered3 ((cfg3 a3).grid.coords t) (V c main_v54) (V c main_v52) (((cfg3 a3).win 0).xinj ((cfg3 a3).grid.coords t) y)
    = final3val V c ((((cfg3 a3).win 0).blk t).view.emb y)
  unfold gathered3 final3val
  have hrow : gathered3_pos ((cfg3 a3).grid.coords t) ((((cfg3 a3).win 0).xinj ((cfg3 a3).grid.coords t) y) (0 : Fin 2))
      = ((((cfg3 a3).win 0).blk t).view.emb y) (0 : Fin 2) := by
    apply Fin.ext
    have h1 := gathered3_pos_val ((cfg3 a3).grid.coords t) ((((cfg3 a3).win 0).xinj ((cfg3 a3).grid.coords t) y) (0 : Fin 2))
    have h2 := emb3_row a3 t y
    exact h1.trans h2.symm
  have hcol : (((cfg3 a3).win 0).xinj ((cfg3 a3).grid.coords t) y) (1 : Fin 2) = ((((cfg3 a3).win 0).blk t).view.emb y) (1 : Fin 2) := by
    apply Fin.ext
    exact (emb3_col a3 t y).symm
  rw [hrow, hcol]

/-- An index of the array is in block `t` exactly when its row is one of the block's 128. -/
theorem mem_blk3 (t : Fin (cfg3 a3).N) (i : S4096x64.Idx) :
    i ∈ (((cfg3 a3).win 0).blk t).view.set ↔ 128 * t.val ≤ (i 0).val ∧ (i 0).val < 128 * t.val + 128 := by
  have hset : (((cfg3 a3).win 0).blk t).view.set = (((cfg3 a3).win 0).rect t).set := View.set_slice_whole main_v55 _
  have hmem : i ∈ (((cfg3 a3).win 0).blk t).view.set
      ↔ ∀ a : Fin 2, ((cfg3 a3).win 0).index t a * ((cfg3 a3).win 0).size a ≤ (i a : Nat)
          ∧ (i a : Nat) < ((cfg3 a3).win 0).index t a * ((cfg3 a3).win 0).size a + ((cfg3 a3).win 0).xsize ((cfg3 a3).grid.coords t) a := by
    rw [hset]; exact Rect.mem_set_unit
  refine hmem.trans ?_
  have h1 : (i 1 : Nat) < 64 := (i 1).isLt
  have er : ((cfg3 a3).win 0).index t (0 : Fin 2) * ((cfg3 a3).win 0).size (0 : Fin 2) = 128 * t.val := by
    rw [index3_row, coords3_val]; show t.val * 128 = _; omega
  have ec : ((cfg3 a3).win 0).index t (1 : Fin 2) * ((cfg3 a3).win 0).size (1 : Fin 2) = 0 := by
    rw [index3_col]; omega
  have xr : ((cfg3 a3).win 0).xsize ((cfg3 a3).grid.coords t) (0 : Fin 2) = 128 := rfl
  have xc : ((cfg3 a3).win 0).xsize ((cfg3 a3).grid.coords t) (1 : Fin 2) = 64 := rfl
  refine ⟨fun h => ?_, fun h a => ?_⟩
  · have h0 := h (0 : Fin 2)
    rw [er, xr] at h0
    exact h0
  · match a with
    | ⟨0, _⟩ =>
      show ((cfg3 a3).win 0).index t (0 : Fin 2) * ((cfg3 a3).win 0).size (0 : Fin 2) ≤ (i 0 : Nat)
        ∧ (i 0 : Nat) < ((cfg3 a3).win 0).index t (0 : Fin 2) * ((cfg3 a3).win 0).size (0 : Fin 2) + ((cfg3 a3).win 0).xsize ((cfg3 a3).grid.coords t) (0 : Fin 2)
      rw [er, xr]; exact h
    | ⟨1, _⟩ =>
      show ((cfg3 a3).win 0).index t (1 : Fin 2) * ((cfg3 a3).win 0).size (1 : Fin 2) ≤ (i 1 : Nat)
        ∧ (i 1 : Nat) < ((cfg3 a3).win 0).index t (1 : Fin 2) * ((cfg3 a3).win 0).size (1 : Fin 2) + ((cfg3 a3).win 0).xsize ((cfg3 a3).grid.coords t) (1 : Fin 2)
      rw [ec, xc]; omega

/-- The 32 blocks cover the array: row `r` is in block `r / 128`. -/
theorem cover3 (i : S4096x64.Idx) :
    ∃ t : Fin (cfg3 a3).N, ((cfg3 a3).win 0).flush t = true ∧ i ∈ (((cfg3 a3).win 0).blk t).view.set := by
  have h0 : (i 0 : Nat) < 4096 := (i 0).isLt
  have hN : (cfg3 a3).N = 32 := N3 a3
  refine ⟨⟨(i 0).val / 128, by omega⟩, flush3 a3 _, ?_⟩
  rw [mem_blk3]
  show 128 * ((i 0).val / 128) ≤ (i 0).val ∧ (i 0).val < 128 * ((i 0).val / 128) + 128
  omega

/-- THE VALUE: after the region the output array holds, row by row, the rows the table of ids names. -/
theorem final3 (c : Dev nD) : (dat3 V a3 c).arrAt 0 (cfg3 a3).N = final3val V c :=
  (dat3 V a3 c).arrAt_eq_of_cover 0 (final3val V c) (fun t _ => flushed3_eq V a3 c t) (cover3 a3)

end Cert.Kernel.Hand

end
-- ==== Proof.BReg3.lean ====
/-
  The row gather over the clipped ids as a segment of @main: entered with every unscoped buffer of the core at the
  contents the host operations before it leave, left with the same buffers except the call's output array, which holds
  what the write-backs of its thirty-two grid points leave.

  At entry the output array is split out of the core's buffers; of the others, the table of ids goes to the pipeline
  whole at the admissible contents (they are its entry contents), the array of rows enters the invariant beside the
  128 cells of the kernel's own, at zero, and the rest bypass the call together with the generator register. At exit
  the invariant gives the array of rows and the table back unchanged and the cells back at zero; the buffers are put
  together again at the valuation that differs from the entry one at the output array only. Nothing is owed to another
  core. The body's specification is a hypothesis.
-/
import proofs.«412556_j37890201485521_3_alg».proof.Proof.BFoldEq
import proofs.«412556_j37890201485521_3_alg».proof.Proof.BBody3
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ)

/-- The one operand the gather reads where it lies: the array of rows. -/
def H3 : Finset (Ref sig .tc) := {main_v52}
theorem H3_sub : H3 ⊆ Pipeline.restRefsP sig pre3 spec3 := by decide

/-- The table's contents under the entry valuation are the admissible contents. -/
theorem tab3 (c : Dev nD) : (fun k => atRefs (U8 m) c (pre3.ref k)) = (a3 m).1 := funext fun k => ha3 m c k

/-- The unscoped buffers that are no window's array: the table of ids at the admissible contents, the array of rows, and
    the others, each whole at the entry contents. -/
theorem rest3_split (c : Dev nD) :
    (Pipeline.unscopedRest (Ix := Unit) (Name := ℕ) (U := Pipeline.UD sig nD τ) (Lvl := ℕ) spec3 c (atRefs (U8 m) c) : sProp 𝕄)
      = iprop(Pipeline.prefHeld (Ix := Unit) (Name := ℕ) (U := Pipeline.UD sig nD τ) (Lvl := ℕ) pre3 c (fun _ => fullShare) (a3 m).1
          ∗ (((c : Thread nD τ).loc main_v52) ↦{fullShare} atRefs (U8 m) c main_v52)
          ∗ bigSep (Pipeline.restRefsP sig pre3 spec3 \ H3) fun b => ((c : Thread nD τ).loc b) ↦{fullShare} atRefs (U8 m) c b) := by
  rw [Pipeline.unscopedRest_split preFacts3 c, tab3, Pipeline.unscopedRestP_sdiff pre3 spec3 H3 H3_sub c]
  unfold H3; rw [bigSep_singleton]

/-- After the region every buffer but the output array holds what it held at entry. -/
theorem off_out3 (c : Dev nD) (b : Ref sig .tc) (h : b ≠ main_v55) : atRefs (Gen.V9 m (outs m)) c b = atRefs (U8 m) c b := by
  by_cases h52 : b = main_v52
  · subst h52
    show Gen.V9 m (outs m) c main_v52 = U8 m c main_v52
    unfold Gen.V9
    rw [Function.update_self, outs_52]
  · exact (Gen.V9_of m (outs m) c b (by simp [h, h52])).trans (entry8 m c b)

set_option backward.isDefEq.respectTransparency.types false in
/-- Call 3 over the thread state "every unscoped buffer at the boundary's contents, beside the register and the
    core's dues", given the body's specification at the call's contents. -/
def reg3 (hb : ∀ c, Body3 (atRefs (U8 m)) (a3 m) c) :
    Pipeline.RegionSeg (pcfgs (F := F)) (adm m) (pdats m) () defs₀ Variants.none noLevels noLevel 3 where
  win := (launch3 (F := F)).win.to₀
  block_pos := (launch3 (F := F)).block_pos
  stage_whole := (launch3 (F := F)).stage_whole
  K := Fin 128
  osem := cellAt3
  ho := ownSemFacts3
  hbody c := (body_obligation3 (atRefs (U8 m)) (a3 m) (ha3 m) c (hb c)).loose
  hwaits := Pipeline.hwaits_of_owed_zero _ _ _ _ noLevels noLevel 3 fun _ _ => rfl
  pre c := iprop(StableHlo.held (c : Thread nD τ) (Pipeline.ucRefs τ sig) (U8 m c) ∗ riding c)
  post c := iprop(StableHlo.held (c : Thread nD τ) (Pipeline.ucRefs τ sig) (Gen.V9 m (outs m) c) ∗ riding c)
  X c := iprop(Pipeline.ownSems0 (Ix := Unit) (Name := ℕ) (U := Pipeline.UD sig nD τ) (Lvl := ℕ) (Val := Elt F) (τ := τ) cellAt3 c
    ∗ (((c : Thread nD τ).loc main_v52) ↦{fullShare} atRefs (U8 m) c main_v52))
  Y c := iprop((((c : Thread nD τ).loc main_v52) ↦{fullShare} atRefs (U8 m) c main_v52)
    ∗ Pipeline.prefHeld (Ix := Unit) (Name := ℕ) (U := Pipeline.UD sig nD τ) (Lvl := ℕ) pre3 c (fun _ => fullShare) (a3 m).1)
  Z c := iprop((bigSep (Pipeline.restRefsP sig pre3 spec3 \ H3) fun b => ((c : Thread nD τ).loc b) ↦{fullShare} atRefs (U8 m) c b)
    ∗ ∃ r, prngReg c r)
  hentry c := by
    have hsplit := Pipeline.arrays_of_unscopedBufs (p := 3) (pcfgs (F := F)) (adm m) (pdats m) (launch3 (F := F)).win (launch3 (F := F)).arr_whole c
      ((pdats m 3 c).share_full fun _ => rfl) (atRefs (U8 m) c) fun _ => rfl
    rw [Pipeline.unscopedBufs_held] at hsplit
    iintro ⟨⟨Hbufs, Hreg, Hdues⟩, Hsem, -⟩
    ihave Hparts := hsplit $$ Hbufs
    icases Hparts with ⟨Harr, Hrest⟩
    ihave Hrest' := (Entails.of_eq (rest3_split m c)) $$ Hrest
    icases Hrest' with ⟨Htab, HH, HZ⟩
    imodintro
    isplitl [Harr]; · iexact Harr
    isplitl [Htab]; · iexact Htab
    isplitl [Hdues]
    · unfold Pipeline.Dat.owesAt Pipeline.owesWithin
      icases Hdues with ⟨%W, Hdues⟩; iexists W; isplitr; · ipureintro; exact fun _ _ => Or.inl trivial
      iexact Hdues
    isplitl [Hsem HH]
    · isplitl [Hsem]; · iexact Hsem
      iexact HH
    isplitl [HZ]; · iexact HZ
    iexact Hreg
  hin c := by
    rw [show (pdats m 3 c).Φ 0 = Φ3 (atRefs (U8 m)) (a3 m) c from rfl]; unfold Φ3
    iintro ⟨⟨Hsem, HH⟩, Htab, Hscoped⟩
    isplitl [Hscoped]; · iexact Hscoped
    isplitl [Hsem]; · iexact Hsem
    isplitl [HH]; · iexact HH
    iexact Htab
  hout c := by
    rw [show (pdats m 3 c).Φ (Fin.last _) = Φ3 (atRefs (U8 m)) (a3 m) c from rfl]; unfold Φ3
    iintro ⟨Hscoped, Hsem, HH, Htab⟩
    isplitl [HH Htab]
    · isplitl [HH]; · iexact HH
      iexact Htab
    isplitl [Hsem]; · iexact Hsem
    iexact Hscoped
  hexit c := by
    have hjoin := Pipeline.unscopedBufs_of_arrays (p := 3) (pcfgs (F := F)) (adm m) (Ix := Unit) (Name := ℕ) (U := Pipeline.UD sig nD τ) (Lvl := ℕ)
      (launch3 (F := F)).win (launch3 (F := F)).arr_whole c (pdats m) ((pdats m 3 c).share_full fun _ => rfl)
      (atRefs (U8 m) c) (atRefs (Gen.V9 m (outs m)) c) ((pdats m 3 c).arrAt · (cfg3 (a3 m)).N)
      (fun w => by
        fin_cases w
        exact (exit9 m c).symm)
      (fun b hb => off_out3 m c b (fun h => hb (h ▸ Finset.mem_image.mpr ⟨0, Finset.mem_univ _, rfl⟩)))
    rw [Pipeline.unscopedBufs_held] at hjoin
    iintro ⟨Harr, Hdues, ⟨HH, Htab⟩, HZ, Hreg⟩
    ihave Hrest := (Entails.of_eq (rest3_split m c).symm) $$ [Htab HH HZ]
    · isplitl [Htab]; · iexact Htab
      isplitl [HH]; · iexact HH
      iexact HZ
    imodintro
    isplitl [Harr Hrest]
    · iapply hjoin; isplitl [Harr] <;> iassumption
    isplitl [Hreg]; · iexact Hreg
    unfold Pipeline.Dat.owesAt Pipeline.owesWithin
    icases Hdues with ⟨%W, -, Hdues⟩; iexists W; iexact Hdues

end Cert.Kernel.Hand

end
-- ==== Proof.BBody4.lean ====
/-
  The row gather over the clipped ids: its body obligation from the body's specification, and the value its output
  array ends at.

  The obligation. At a point the pipeline calls the gather on the window's current buffer. The invariant holds exactly
  what the body's specification asks beside that buffer (the table of ids, the array of rows, the 128 own cells at
  zero), so the obligation is the specification framed by the scratch no window stages; the table's contents are the
  entry contents of its buffer.

  The value. Block `t` of the output array is rows `128 t … 128 t + 127`, all 64 columns; the block index moves at every
  step, so every point writes its block back, and the 32 blocks cover the 4096 rows. What point `t` writes is the
  gathered block, which is the whole-array term "row `y0` is the row of the array of rows named by entry `y0` of the
  table" read through block `t`: the block's row `y0` sits at array row `128 t + y0`, the table position the gather
  reads for it. Hence the array ends at that term.
-/
import proofs.«412556_j37890201485521_3_alg».proof.Proof.BDat4
import Idealize.ShloMosaic.Lib.Pipeline.Value
import Idealize.ShloMosaic.Lib.Tactic

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))
variable (a4 : (pcfg4 (F := F)).Adm)

/-! ## The body obligation -/

/-- The program the pipeline runs at point `t` is the gather at the point's coordinates, on the window's current
    buffer. -/
theorem prog4 (t : Fin (cfg4 a4).N) : (defs₀ (F := F) Proc.tc (cfg4 a4).body ((cfg4 a4).bodyArgs t ((cfg4 a4).slots t)))
    = cc4__gather_kernel ((cfg4 a4).grid.coords t) (Memref.whole main_v56) (Memref.isWhole_whole _) (Memref.whole main_v53) (Memref.isWhole_whole _)
        (spec4_0.stage ((cfg4 a4).slots t 0)) (hstage4_0 (((cfg4 a4).slots t 0).cast nbuf4_0)) cc4_scratch0 := rfl

/-- The library's body obligation from the body's specification: the invariant is taken apart into what the
    specification asks, the table's contents being the entry contents of its buffer (`ha4`); the window's buffer goes
    in at whatever it held; everything comes back as it was, the window's buffer at the gathered block. -/
theorem body_obligation4 (ha4 : ∀ c k, V c (pre4.ref k) = a4.1 k) (c : Dev nD) (hb : Body4 V a4 c) :
    BodyObligation (dat4 V a4 c) (defs₀ (F := F)) Variants.none () Set.univ := fun t => by
  rw [bigSep_W4, bigSep_W4, prog4]
  simp only []
  rw [Φ4_at, Φ4_at, after4]
  unfold Dat.owesAt Pipeline.owesWithin
  rw [owed4, owed4]
  unfold Φ4
  rw [prefHeld4_eq, show V c main_v56 = a4.1 0 from ha4 c 0]
  iintro ⟨⟨HS, Ho, Hh, Ht⟩, ⟨%W, -, HW⟩, ⟨%d, H0⟩⟩
  iapply (hb _ _ _ W _)
  isplitl [H0]; · iexists _; iexact H0
  isplitl [Ht]; · iexact Ht
  isplitl [Hh]; · iexact Hh
  isplitl [Ho]; · iexact Ho
  isplitl [HW]; · iexact HW
  iintro ⟨H0, Ht, Hh, Ho, ⟨%W', HW'⟩⟩
  isplitl [HS Ho Hh Ht]
  · isplitl [HS]; · iexact HS
    isplitl [Ho]; · iexact Ho
    isplitl [Hh]; · iexact Hh
    iexact Ht
  isplitl [HW']
  · iexists W'; isplitr; · ipureintro; exact fun _ _ => Or.inl trivial
    iexact HW'
  iexact H0

/-! ## The value: what the output array holds after the region -/

theorem N4 : (cfg4 a4).N = 32 := N_4

theorem isOut4 : ((cfg4 a4).win 0).isOut = true := rfl

/-- The window's block index at point `t` is the point's coordinate on the row axis, zero on the column axis. -/
theorem index4_row (t : Fin (cfg4 a4).N) : ((cfg4 a4).win 0).index t (0 : Fin 2) = (((cfg4 a4).grid.coords t) 0).val := by
  have h : (((cfg4 a4).grid.coords t) 0).val < 32 := (((cfg4 a4).grid.coords t) 0).isLt
  show (BitVec.ofNat 32 (((cfg4 a4).grid.coords t) 0).val).toNat = _
  rw [BitVec.toNat_ofNat]; exact Nat.mod_eq_of_lt (by omega)

theorem index4_col (t : Fin (cfg4 a4).N) : ((cfg4 a4).win 0).index t (1 : Fin 2) = 0 := rfl

/-- On the one-axis grid of 32 points the coordinate of point `t` is `t`. -/
theorem coords4_val (t : Fin (cfg4 a4).N) : (((cfg4 a4).grid.coords t) 0).val = t.val := by
  have ht : t.val < 32 := (N4 a4) ▸ t.isLt
  have hs : (cfg4 a4).grid.stride 0 = 1 := (by decide : grid4.stride 0 = 1)
  show t.val / (cfg4 a4).grid.stride 0 % 32 = t.val
  rw [hs, Nat.div_one]; exact Nat.mod_eq_of_lt ht

/-- Every point writes its block back: the block index moves at every step. -/
theorem flush4 (t : Fin (cfg4 a4).N) : ((cfg4 a4).win 0).flush t = true := by
  unfold Window.flush
  rw [isOut4, Bool.true_and, Bool.or_eq_true, decide_eq_true_eq, decide_eq_true_eq]
  by_cases h : t.val + 1 = (cfg4 a4).N
  · exact Or.inl h
  · have hlt : t.val + 1 < (cfg4 a4).N := by have := t.isLt; omega
    refine Or.inr ⟨hlt, fun he => ?_⟩
    have h0 := congrFun he (0 : Fin 2)
    rw [index4_row, index4_row, coords4_val, coords4_val] at h0
    exact absurd h0 (by show t.val + 1 ≠ t.val; omega)

/-- An element of block `t` sits in the array at row `128 · (the point's coordinate) + its row`, at its own column. -/
theorem size4_row : ((cfg4 a4).win 0).size (0 : Fin 2) = 128 := rfl
theorem size4_col : ((cfg4 a4).win 0).size (1 : Fin 2) = 64 := rfl

theorem emb4_row (t : Fin (cfg4 a4).N) (y : (((cfg4 a4).win 0).xblock ((cfg4 a4).grid.coords t)).Idx) :
    (((((cfg4 a4).win 0).blk t).view.emb y) (0 : Fin 2)).val = 128 * (((cfg4 a4).grid.coords t) 0).val + (y (0 : Fin 2)).val := by
  show ((((cfg4 a4).win 0).rect t).emb y (0 : Fin 2) : Nat) = _
  have h := Window.rect_emb_val ((cfg4 a4).win 0) t y (0 : Fin 2)
  rw [index4_row, size4_row] at h
  exact h.trans (by omega)

theorem emb4_col (t : Fin (cfg4 a4).N) (y : (((cfg4 a4).win 0).xblock ((cfg4 a4).grid.coords t)).Idx) :
    (((((cfg4 a4).win 0).blk t).view.emb y) (1 : Fin 2)).val = (y (1 : Fin 2)).val := by
  show ((((cfg4 a4).win 0).rect t).emb y (1 : Fin 2) : Nat) = _
  have h := Window.rect_emb_val ((cfg4 a4).win 0) t y (1 : Fin 2)
  rw [index4_col, size4_col] at h
  exact h.trans (by omega)

/-- What the output array holds after the region: row `y0` is the row of the array of rows that entry `y0` of the
    table of ids names. -/
def final4val (c : Dev nD) : Buf (Elt F) ((c : Thread nD τ).loc main_v57) :=
  fun y => V c main_v53 (ix2 (n0 := 50000) (n1 := 64) (gathered4_row (V c main_v56 (ix1 (n := 4096) (y 0)))) (y 1))

/-- The block point `t` writes back is that array read through the window's block at `t`. -/
theorem flushed4_eq (c : Dev nD) (t : Fin (cfg4 a4).N) :
    (dat4 V a4 c).flushed 0 t = (((cfg4 a4).win 0).blk t).view.read (Elt F) (final4val V c) := by
  show ((cfg4 a4).win 0).cut ((cfg4 a4).grid.coords t) ((dat4 V a4 c).after 0 t) = _
  rw [after4]
  funext y
  show gathered4 ((cfg4 a4).grid.coords t) (V c main_v56) (V c main_v53) (((cfg4 a4).win 0).xinj ((cfg4 a4).grid.coords t) y)
    = final4val V c ((((cfg4 a4).win 0).blk t).view.emb y)
  unfold gathered4 final4val
  have hrow : gathered4_pos ((cfg4 a4).grid.coords t) ((((cfg4 a4).win 0).xinj ((cfg4 a4).grid.coords t) y) (0 : Fin 2))
      = ((((cfg4 a4).win 0).blk t).view.emb y) (0 : Fin 2) := by
    apply Fin.ext
    have h1 := gathered4_pos_val ((cfg4 a4).grid.coords t) ((((cfg4 a4).win 0).xinj ((cfg4 a4).grid.coords t) y) (0 : Fin 2))
    have h2 := emb4_row a4 t y
    exact h1.trans h2.symm
  have hcol : (((cfg4 a4).win 0).xinj ((cfg4 a4).grid.coords t) y) (1 : Fin 2) = ((((cfg4 a4).win 0).blk t).view.emb y) (1 : Fin 2) := by
    apply Fin.ext
    exact (emb4_col a4 t y).symm
  rw [hrow, hcol]

/-- An index of the array is in block `t` exactly when its row is one of the block's 128. -/
theorem mem_blk4 (t : Fin (cfg4 a4).N) (i : S4096x64.Idx) :
    i ∈ (((cfg4 a4).win 0).blk t).view.set ↔ 128 * t.val ≤ (i 0).val ∧ (i 0).val < 128 * t.val + 128 := by
  have hset : (((cfg4 a4).win 0).blk t).view.set = (((cfg4 a4).win 0).rect t).set := View.set_slice_whole main_v57 _
  have hmem : i ∈ (((cfg4 a4).win 0).blk t).view.set
      ↔ ∀ a : Fin 2, ((cfg4 a4).win 0).index t a * ((cfg4 a4).win 0).size a ≤ (i a : Nat)
          ∧ (i a : Nat) < ((cfg4 a4).win 0).index t a * ((cfg4 a4).win 0).size a + ((cfg4 a4).win 0).xsize ((cfg4 a4).grid.coords t) a := by
    rw [hset]; exact Rect.mem_set_unit
  refine hmem.trans ?_
  have h1 : (i 1 : Nat) < 64 := (i 1).isLt
  have er : ((cfg4 a4).win 0).index t (0 : Fin 2) * ((cfg4 a4).win 0).size (0 : Fin 2) = 128 * t.val := by
    rw [index4_row, coords4_val]; show t.val * 128 = _; omega
  have ec : ((cfg4 a4).win 0).index t (1 : Fin 2) * ((cfg4 a4).win 0).size (1 : Fin 2) = 0 := by
    rw [index4_col]; omega
  have xr : ((cfg4 a4).win 0).xsize ((cfg4 a4).grid.coords t) (0 : Fin 2) = 128 := rfl
  have xc : ((cfg4 a4).win 0).xsize ((cfg4 a4).grid.coords t) (1 : Fin 2) = 64 := rfl
  refine ⟨fun h => ?_, fun h a => ?_⟩
  · have h0 := h (0 : Fin 2)
    rw [er, xr] at h0
    exact h0
  · match a with
    | ⟨0, _⟩ =>
      show ((cfg4 a4).win 0).index t (0 : Fin 2) * ((cfg4 a4).win 0).size (0 : Fin 2) ≤ (i 0 : Nat)
        ∧ (i 0 : Nat) < ((cfg4 a4).win 0).index t (0 : Fin 2) * ((cfg4 a4).win 0).size (0 : Fin 2) + ((cfg4 a4).win 0).xsize ((cfg4 a4).grid.coords t) (0 : Fin 2)
      rw [er, xr]; exact h
    | ⟨1, _⟩ =>
      show ((cfg4 a4).win 0).index t (1 : Fin 2) * ((cfg4 a4).win 0).size (1 : Fin 2) ≤ (i 1 : Nat)
        ∧ (i 1 : Nat) < ((cfg4 a4).win 0).index t (1 : Fin 2) * ((cfg4 a4).win 0).size (1 : Fin 2) + ((cfg4 a4).win 0).xsize ((cfg4 a4).grid.coords t) (1 : Fin 2)
      rw [ec, xc]; omega

/-- The 32 blocks cover the array: row `r` is in block `r / 128`. -/
theorem cover4 (i : S4096x64.Idx) :
    ∃ t : Fin (cfg4 a4).N, ((cfg4 a4).win 0).flush t = true ∧ i ∈ (((cfg4 a4).win 0).blk t).view.set := by
  have h0 : (i 0 : Nat) < 4096 := (i 0).isLt
  have hN : (cfg4 a4).N = 32 := N4 a4
  refine ⟨⟨(i 0).val / 128, by omega⟩, flush4 a4 _, ?_⟩
  rw [mem_blk4]
  show 128 * ((i 0).val / 128) ≤ (i 0).val ∧ (i 0).val < 128 * ((i 0).val / 128) + 128
  omega

/-- THE VALUE: after the region the output array holds, row by row, the rows the table of ids names. -/
theorem final4 (c : Dev nD) : (dat4 V a4 c).arrAt 0 (cfg4 a4).N = final4val V c :=
  (dat4 V a4 c).arrAt_eq_of_cover 0 (final4val V c) (fun t _ => flushed4_eq V a4 c t) (cover4 a4)

end Cert.Kernel.Hand

end
-- ==== Proof.BReg4.lean ====
/-
  The row gather over the clipped ids as a segment of @main: entered with every unscoped buffer of the core at the
  contents the host operations before it leave, left with the same buffers except the call's output array, which holds
  what the write-backs of its thirty-two grid points leave.

  At entry the output array is split out of the core's buffers; of the others, the table of ids goes to the pipeline
  whole at the admissible contents (they are its entry contents), the array of rows enters the invariant beside the
  128 cells of the kernel's own, at zero, and the rest bypass the call together with the generator register. At exit
  the invariant gives the array of rows and the table back unchanged and the cells back at zero; the buffers are put
  together again at the valuation that differs from the entry one at the output array only. Nothing is owed to another
  core. The body's specification is a hypothesis.
-/
import proofs.«412556_j37890201485521_3_alg».proof.Proof.BFoldEq
import proofs.«412556_j37890201485521_3_alg».proof.Proof.BBody4
import Idealize.ShloMosaic.Lib.Pipeline.RegionsLoop
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (Pipeline.UD sig nD τ) ℕ

variable (m : (ℓ : Loc nD τ sig) → Buf (Elt F) ℓ)

/-- The one operand the gather reads where it lies: the array of rows. -/
def H4 : Finset (Ref sig .tc) := {main_v53}
theorem H4_sub : H4 ⊆ Pipeline.restRefsP sig pre4 spec4 := by decide

/-- The table's contents under the entry valuation are the admissible contents. -/
theorem tab4 (c : Dev nD) : (fun k => atRefs (U11 m) c (pre4.ref k)) = (a4 m).1 := funext fun k => ha4 m c k

/-- The unscoped buffers that are no window's array: the table of ids at the admissible contents, the array of rows, and
    the others, each whole at the entry contents. -/
theorem rest4_split (c : Dev nD) :
    (Pipeline.unscopedRest (Ix := Unit) (Name := ℕ) (U := Pipeline.UD sig nD τ) (Lvl := ℕ) spec4 c (atRefs (U11 m) c) : sProp 𝕄)
      = iprop(Pipeline.prefHeld (Ix := Unit) (Name := ℕ) (U := Pipeline.UD sig nD τ) (Lvl := ℕ) pre4 c (fun _ => fullShare) (a4 m).1
          ∗ (((c : Thread nD τ).loc main_v53) ↦{fullShare} atRefs (U11 m) c main_v53)
          ∗ bigSep (Pipeline.restRefsP sig pre4 spec4 \ H4) fun b => ((c : Thread nD τ).loc b) ↦{fullShare} atRefs (U11 m) c b) := by
  rw [Pipeline.unscopedRest_split preFacts4 c, tab4, Pipeline.unscopedRestP_sdiff pre4 spec4 H4 H4_sub c]
  unfold H4; rw [bigSep_singleton]

/-- After the region every buffer but the output array holds what it held at entry. -/
theorem off_out4 (c : Dev nD) (b : Ref sig .tc) (h : b ≠ main_v57) : atRefs (Gen.V12 m (outs m)) c b = atRefs (U11 m) c b := by
  by_cases h52 : b = main_v53
  · subst h52
    show Gen.V12 m (outs m) c main_v53 = U11 m c main_v53
    unfold Gen.V12
    rw [Function.update_self, outs_53]
  · exact (Gen.V12_of m (outs m) c b (by simp [h, h52])).trans (entry11 m c b)

set_option backward.isDefEq.respectTransparency.types false in
/-- Call 4 over the thread state "every unscoped buffer at the boundary's contents, beside the register and the
    core's dues", given the body's specification at the call's contents. -/
def reg4 (hb : ∀ c, Body4 (atRefs (U11 m)) (a4 m) c) :
    Pipeline.RegionSeg (pcfgs (F := F)) (adm m) (pdats m) () defs₀ Variants.none noLevels noLevel 4 where
  win := (launch4 (F := F)).win.to₀
  block_pos := (launch4 (F := F)).block_pos
  stage_whole := (launch4 (F := F)).stage_whole
  K := Fin 128
  osem := cellAt4
  ho := ownSemFacts4
  hbody c := (body_obligation4 (atRefs (U11 m)) (a4 m) (ha4 m) c (hb c)).loose
  hwaits := Pipeline.hwaits_of_owed_zero _ _ _ _ noLevels noLevel 4 fun _ _ => rfl
  pre c := iprop(StableHlo.held (c : Thread nD τ) (Pipeline.ucRefs τ sig) (U11 m c) ∗ riding c)
  post c := iprop(StableHlo.held (c : Thread nD τ) (Pipeline.ucRefs τ sig) (Gen.V12 m (outs m) c) ∗ riding c)
  X c := iprop(Pipeline.ownSems0 (Ix := Unit) (Name := ℕ) (U := Pipeline.UD sig nD τ) (Lvl := ℕ) (Val := Elt F) (τ := τ) cellAt4 c
    ∗ (((c : Thread nD τ).loc main_v53) ↦{fullShare} atRefs (U11 m) c main_v53))
  Y c := iprop((((c : Thread nD τ).loc main_v53) ↦{fullShare} atRefs (U11 m) c main_v53)
    ∗ Pipeline.prefHeld (Ix := Unit) (Name := ℕ) (U := Pipeline.UD sig nD τ) (Lvl := ℕ) pre4 c (fun _ => fullShare) (a4 m).1)
  Z c := iprop((bigSep (Pipeline.restRefsP sig pre4 spec4 \ H4) fun b => ((c : Thread nD τ).loc b) ↦{fullShare} atRefs (U11 m) c b)
    ∗ ∃ r, prngReg c r)
  hentry c := by
    have hsplit := Pipeline.arrays_of_unscopedBufs (p := 4) (pcfgs (F := F)) (adm m) (pdats m) (launch4 (F := F)).win (launch4 (F := F)).arr_whole c
      ((pdats m 4 c).share_full fun _ => rfl) (atRefs (U11 m) c) fun _ => rfl
    rw [Pipeline.unscopedBufs_held] at hsplit
    iintro ⟨⟨Hbufs, Hreg, Hdues⟩, Hsem, -⟩
    ihave Hparts := hsplit $$ Hbufs
    icases Hparts with ⟨Harr, Hrest⟩
    ihave Hrest' := (Entails.of_eq (rest4_split m c)) $$ Hrest
    icases Hrest' with ⟨Htab, HH, HZ⟩
    imodintro
    isplitl [Harr]; · iexact Harr
    isplitl [Htab]; · iexact Htab
    isplitl [Hdues]
    · unfold Pipeline.Dat.owesAt Pipeline.owesWithin
      icases Hdues with ⟨%W, Hdues⟩; iexists W; isplitr; · ipureintro; exact fun _ _ => Or.inl trivial
      iexact Hdues
    isplitl [Hsem HH]
    · isplitl [Hsem]; · iexact Hsem
      iexact HH
    isplitl [HZ]; · iexact HZ
    iexact Hreg
  hin c := by
    rw [show (pdats m 4 c).Φ 0 = Φ4 (atRefs (U11 m)) (a4 m) c from rfl]; unfold Φ4
    iintro ⟨⟨Hsem, HH⟩, Htab, Hscoped⟩
    isplitl [Hscoped]; · iexact Hscoped
    isplitl [Hsem]; · iexact Hsem
    isplitl [HH]; · iexact HH
    iexact Htab
  hout c := by
    rw [show (pdats m 4 c).Φ (Fin.last _) = Φ4 (atRefs (U11 m)) (a4 m) c from rfl]; unfold Φ4
    iintro ⟨Hscoped, Hsem, HH, Htab⟩
    isplitl [HH Htab]
    · isplitl [HH]; · iexact HH
      iexact Htab
    isplitl [Hsem]; · iexact Hsem
    iexact Hscoped
  hexit c := by
    have hjoin := Pipeline.unscopedBufs_of_arrays (p := 4) (pcfgs (F := F)) (adm m) (Ix := Unit) (Name := ℕ) (U := Pipeline.UD sig nD τ) (Lvl := ℕ)
      (launch4 (F := F)).win (launch4 (F := F)).arr_whole c (pdats m) ((pdats m 4 c).share_full fun _ => rfl)
      (atRefs (U11 m) c) (atRefs (Gen.V12 m (outs m)) c) ((pdats m 4 c).arrAt · (cfg4 (a4 m)).N)
      (fun w => by
        fin_cases w
        exact (exit12 m c).symm)
      (fun b hb => off_out4 m c b (fun h => hb (h ▸ Finset.mem_image.mpr ⟨0, Finset.mem_univ _, rfl⟩)))
    rw [Pipeline.unscopedBufs_held] at hjoin
    iintro ⟨Harr, Hdues, ⟨HH, Htab⟩, HZ, Hreg⟩
    ihave Hrest := (Entails.of_eq (rest4_split m c).symm) $$ [Htab HH HZ]
    · isplitl [Htab]; · iexact Htab
      isplitl [HH]; · iexact HH
      iexact HZ
    imodintro
    isplitl [Harr Hrest]
    · iapply hjoin; isplitl [Harr] <;> iassumption
    isplitl [Hreg]; · iexact Hreg
    unfold Pipeline.Dat.owesAt Pipeline.owesWithin
    icases Hdues with ⟨%W, -, Hdues⟩; iexists W; iexact Hdues

end Cert.Kernel.Hand

end
-- ==== Proof.BRun.lean ====
/-
  The whole run of @main: the five calls as segments between the stretches of host operations, launched from any
  memory. Every weakly fair execution ends, nothing faulting, with the two result buffers at the last valuation of the
  chain of boundary contents and the seven argument buffers as launched. Nothing is owed between cores, no level is
  assigned; beside the buffers each core carries its generator register and its dues, at nothing.
-/
import proofs.«412556_j37890201485521_3_alg».proof.Proof.RunCondB
import proofs.«412556_j37890201485521_3_alg».proof.Proof.BReg0
import proofs.«412556_j37890201485521_3_alg».proof.Proof.BReg1
import proofs.«412556_j37890201485521_3_alg».proof.Proof.BReg2
import proofs.«412556_j37890201485521_3_alg».proof.Proof.BReg3
import proofs.«412556_j37890201485521_3_alg».proof.Proof.BReg4

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option backward.isDefEq.respectTransparency.types false in
/-- The run, with the results named at the chain's last valuation. -/
theorem run_main_of (hb3 : ∀ c, Body3 (atRefs (U8 m)) (a3 m) c) (hb4 : ∀ c, Body4 (atRefs (U11 m)) (a4 m) c) :
    θ_run defs (onTc (τ := τ) (main (F := F))) ⟨m, fun _ => 0, ρ⟩ (fun r => ∀ c : Dev nD,
      r.2.mem ((c.tc : Thread nD τ).loc main_v55) = U12 m c main_v55
      ∧ r.2.mem ((c.tc : Thread nD τ).loc main_v57) = U12 m c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h c => ?_)
    (Gen.run_cond m (embL : Emb (URounds (GSem nD τ sig) Unit) 𝕄) () Variants.none noLevels noLevel (fun _ _ => rfl) ρ (outs m) (adm m) (pdats m)
      (O₀ := 0) (G := fun _ => iprop(emp))
      (u₀ := (initOf (Pipeline.cells (Pipeline.pin (pcfgs (F := F)) (adm m)) (cellOf_inj (adm m))) (Pipeline.launchToks (Pipeline.pin (pcfgs (F := F)) (adm m)) (cellOf_inj (adm m))), 1))
      (hu₀ := ?hu) (E := fun _ c => riding c) (hE0 := ?hE0) (hE5 := fun c => ?hE5)
      (reg0 m) (fun c => .rfl) (fun c => .rfl)
      (reg1 m) (fun c => by rw [V3_eq m c]; exact .rfl) (fun c => .rfl)
      (reg2 m) (fun c => by rw [V5_eq m c]; exact .rfl) (fun c => .rfl)
      (reg3 m hb3) (fun c => by rw [V8_eq m c]; exact .rfl) (fun c => .rfl)
      (reg4 m hb4) (fun c => by rw [V11_eq m c]; exact .rfl) (fun c => .rfl))
  case hu =>
    iintro Hu
    ihave Hpair := (ownU_pair _ _) $$ Hu
    icases Hpair with ⟨Hcells, -⟩
    imodintro
    isplitl [Hcells]; · iexact Hcells
    iapply (show (BI.emp : sProp 𝕄) ⊢ bigSep Finset.univ (fun _ : Dev nD => (BI.emp : sProp 𝕄)) from by rw [BI.bigSep_emp_const])
    iempintro
  case hE0 =>
    refine Pipeline.initEach noLevels noLevel fun c => ?_
    iintro ⟨⟨-, Hdues, -, Hreg, -⟩, -⟩
    imodintro
    isplitl [Hreg]; · iexists _; iexact Hreg
    iexists ∅; iexact Hdues
  case hE5 =>
    iintro ⟨-, Hdues⟩; iexact Hdues
  · have hc := h c
    rw [V12_eq] at hc
    exact hc

end Cert.Kernel.Hand

end
-- ==== Proof.BKSpec.lean ====
/-
  The kernel's two results as explicit pure terms of its seven argument arrays, for any float
  values. Every operation is spelled as the printed program spells it, so that "this buffer ends
  at this term" can be shown of the program's run by rewriting each host operation's result.

  The mathematics. The node table is the user rows followed by the item rows. One hop of the
  sparse product reads the table's rows at the edges' column ids (a negative id counted from the
  end), scales each row by the edge's value, and adds it into the row named by the edge's row id,
  starting from zeros. The three accumulation regions add two tables entry by entry on their
  row-major relabelling as 75000 rows of 128 lanes; the last one also multiplies by one quarter.
  The results are rows of the two slices of the mean table, taken at the clipped ids.
-/
import proofs.«412556_j37890201485521_3_alg».proof.Kernel
import Idealize.ShloMosaic.Lib.ValueIdx

noncomputable section

namespace Cert.Kernel.Hand

open Idealize.ShloMosaic Cert.Kernel
open Cert.Kernel.Facts₀ Cert.Kernel.Facts

variable {F : FTy → Type} [FloatOps F] [Cert.Kernel.Facts]

/-- The node table: the user rows, then the item rows. -/
def allEmb (u : Vec F S100000x64 .f32) (it : Vec F S50000x64 .f32) : Vec F S150000x64 .f32 :=
  concatenate S150000x64 0 [⟨S100000x64, u⟩, ⟨S50000x64, it⟩] concatenates_S100000x64_S50000x64_S150000x64_d0

/-- The column ids with a negative id counted from the end of the table. -/
def wrapCols (cols : Vec F S2400000 .i32) : Vec F S2400000 .i32 :=
  select (cmpi .slt cols (broadcastInDim S2400000 ![] bcast_S_S2400000 (constantI S_ 32 0#32)))
    (addi cols (broadcastInDim S2400000 ![] bcast_S_S2400000 (constantI S_ 32 150000#32))) cols

/-- One hop of the sparse product: the table's rows at the wrapped column ids, each scaled by
    its edge's value, added into zeros at the edges' row ids. -/
def spmm (vals : Vec F S2400000 .f32) (rows cols : Vec F S2400000 .i32) (x : Vec F S150000x64 .f32) :
    Vec F S150000x64 .f32 :=
  Host.scatterAdd scatter_S150000x64_S2400000x1_S2400000x64_1_0_0_1
    (broadcastInDim S150000x64 ![] bcast_S_S150000x64 (constant S_ .f32 0x00000000#32))
    (broadcastInDim S2400000x1 ![0] bcast_S2400000_S2400000x1_0 rows)
    (mulf
      (Host.gather gather_S150000x64_S2400000x1_S2400000x64_1_0_n_n_0_1_164 x
        (broadcastInDim S2400000x1 ![0] bcast_S2400000_S2400000x1_0 (wrapCols cols)))
      (broadcastInDim S2400000x64 ![0, 1] bcast_S2400000x1_S2400000x64_0_1
        (broadcastInDim S2400000x1 ![0] bcast_S2400000_S2400000x1_0 vals)))

/-- A table relabelled row-major as 75000 rows of 128 lanes. -/
def toLanes (a : Vec F S150000x64 .f32) : Vec F S75000x128 .f32 :=
  shapeCast S75000x128 a shapeCasts_S150000x64_S75000x128

/-- The relabelling undone. -/
def ofLanes (a : Vec F S75000x128 .f32) : Vec F S150000x64 .f32 :=
  shapeCast S150000x64 a shapeCasts_S75000x128_S150000x64

/-- What the first two accumulation regions write, on the relabelled tables: the entrywise sum. -/
def lanesSum (a b : Vec F S75000x128 .f32) : Vec F S75000x128 .f32 := addf a b

/-- What the last accumulation region writes: the entrywise sum times one quarter. -/
def lanesMean (a b : Vec F S75000x128 .f32) : Vec F S75000x128 .f32 :=
  mulf (addf a b) (broadcast S75000x128 (Scalar.ofBits .f32 0x3E800000#32))

/-- Two tables added entry by entry, through the relabelling. -/
def accSum (a b : Vec F S150000x64 .f32) : Vec F S150000x64 .f32 :=
  ofLanes (lanesSum (toLanes a) (toLanes b))

/-- Two tables added entry by entry and multiplied by one quarter, through the relabelling. -/
def accMean (a b : Vec F S150000x64 .f32) : Vec F S150000x64 .f32 :=
  ofLanes (lanesMean (toLanes a) (toLanes b))

/-- The table after one, two and three hops. -/
def hop1 (u : Vec F S100000x64 .f32) (it : Vec F S50000x64 .f32) (vals : Vec F S2400000 .f32)
    (rows cols : Vec F S2400000 .i32) : Vec F S150000x64 .f32 := spmm vals rows cols (allEmb u it)
def hop2 (u : Vec F S100000x64 .f32) (it : Vec F S50000x64 .f32) (vals : Vec F S2400000 .f32)
    (rows cols : Vec F S2400000 .i32) : Vec F S150000x64 .f32 := spmm vals rows cols (hop1 u it vals rows cols)
def hop3 (u : Vec F S100000x64 .f32) (it : Vec F S50000x64 .f32) (vals : Vec F S2400000 .f32)
    (rows cols : Vec F S2400000 .i32) : Vec F S150000x64 .f32 := spmm vals rows cols (hop2 u it vals rows cols)

/-- The mean of the table and its three hops: ((all + x1) + x2 + x3) · ¼, in this order. -/
def light (u : Vec F S100000x64 .f32) (it : Vec F S50000x64 .f32) (vals : Vec F S2400000 .f32)
    (rows cols : Vec F S2400000 .i32) : Vec F S150000x64 .f32 :=
  accMean (accSum (accSum (allEmb u it) (hop1 u it vals rows cols)) (hop2 u it vals rows cols)) (hop3 u it vals rows cols)

/-- The user rows and the item rows of a table. -/
def userRows (t : Vec F S150000x64 .f32) : Vec F S100000x64 .f32 :=
  extractStridedSlice S100000x64 ![0, 0] t slices_S150000x64_S100000x64_0_0
def itemRows (t : Vec F S150000x64 .f32) : Vec F S50000x64 .f32 :=
  extractStridedSlice S50000x64 ![100000, 0] t slices_S150000x64_S50000x64_100000_0

/-- Ids clipped into [0, hi]: min (hi, max (0, id)), signed. -/
def clipIds (hi : BitVec 32) (ids : Vec F S4096 .i32) : Vec F S4096 .i32 :=
  minsi (broadcastInDim S4096 ![] bcast_S_S4096 (constantI S_ 32 hi))
    (maxsi (broadcastInDim S4096 ![] bcast_S_S4096 (constantI S_ 32 0#32)) ids)

/-- Row r of the result is row ids[r] of the user table (the row taken modulo the table's height, so
    that the term is total). -/
def rowsOfUsers (tbl : Vec F S100000x64 .f32) (ids : Vec F S4096 .i32) : Vec F S4096x64 .f32 :=
  fun y => tbl (ValueIdx.ix2 (⟨(ids (ValueIdx.ix1 (y 0))).toNat % 100000, Nat.mod_lt _ (by decide)⟩ : Fin 100000) (y 1))

/-- Row r of the result is row ids[r] of the item table (modulo its height). -/
def rowsOfItems (tbl : Vec F S50000x64 .f32) (ids : Vec F S4096 .i32) : Vec F S4096x64 .f32 :=
  fun y => tbl (ValueIdx.ix2 (⟨(ids (ValueIdx.ix1 (y 0))).toNat % 50000, Nat.mod_lt _ (by decide)⟩ : Fin 50000) (y 1))

/-- The kernel's first result: the mean table's user rows at the clipped user ids. -/
def outUsers (u : Vec F S100000x64 .f32) (it : Vec F S50000x64 .f32) (vals : Vec F S2400000 .f32)
    (rows cols : Vec F S2400000 .i32) (uids : Vec F S4096 .i32) : Vec F S4096x64 .f32 :=
  rowsOfUsers (userRows (light u it vals rows cols)) (clipIds 99999#32 uids)

/-- The kernel's second result: the mean table's item rows at the clipped item ids. -/
def outItems (u : Vec F S100000x64 .f32) (it : Vec F S50000x64 .f32) (vals : Vec F S2400000 .f32)
    (rows cols : Vec F S2400000 .i32) (iids : Vec F S4096 .i32) : Vec F S4096x64 .f32 :=
  rowsOfItems (itemRows (light u it vals rows cols)) (clipIds 49999#32 iids)

end Cert.Kernel.Hand

end
-- ==== Proof.BKChain.lean ====
import proofs.«412556_j37890201485521_3_alg».proof.Proof.Gen.Kernel.Launch
import proofs.«412556_j37890201485521_3_alg».proof.Proof.BKSpec
import Idealize.ShloMosaic.Lib.StableHlo.Run

/-! # The host stretches, read

Between two calls the program runs a stretch of host operations. Each lemma here says what ONE buffer holds after
ONE stretch, started from arbitrary contents `W` of the core's buffers, as a term of the buffers' contents before
the stretch: the stretch's operations composed in program order. The terms are the ones the specification is
written in (the node table, one hop of the sparse product, the relabelling as 75000 rows of 128 lanes and back, the
two row slices, the clipped ids), so the chain of boundary contents can be rewritten stretch by stretch. A buffer
no operation of a stretch writes keeps its contents. -/

noncomputable section

namespace Cert.Kernel.Hand

open Cert.Kernel Cert.Kernel.Gen
open Idealize.ShloMosaic Idealize.ShloMosaic.TcCoe Idealize.ShloMosaic.StableHlo
open Idealize.SL.Sem

variable {F : FTy → Type} [FloatOps F] [Cert.Kernel.Facts]

/-! ## Before the first call -/

/-- The first hop of the node table. -/
theorem st0_v13 (W : Valuation τ sig (Elt F)) :
    (StableHlo.after hostOps0 W (Proc.devRef .tc main_v13) : Vec F S150000x64 .f32) = hop1 (W (Proc.devRef .tc main_arg0)) (W (Proc.devRef .tc main_arg1)) (W (Proc.devRef .tc main_arg2)) (W (Proc.devRef .tc main_arg3)) (W (Proc.devRef .tc main_arg4)) := by
  show StableHlo.after hostOps0 _ (Proc.devRef .tc main_v13) = _
  after_results_simp
  rfl

/-- The first call's first operand: the node table, relabelled. -/
theorem st0_v14 (W : Valuation τ sig (Elt F)) :
    (StableHlo.after hostOps0 W (Proc.devRef .tc main_v14) : Vec F S75000x128 .f32) = toLanes (allEmb (W (Proc.devRef .tc main_arg0)) (W (Proc.devRef .tc main_arg1))) := by
  show StableHlo.after hostOps0 _ (Proc.devRef .tc main_v14) = _
  after_results_simp
  rfl

/-- The first call's second operand: the first hop, relabelled. -/
theorem st0_v15 (W : Valuation τ sig (Elt F)) :
    (StableHlo.after hostOps0 W (Proc.devRef .tc main_v15) : Vec F S75000x128 .f32) = toLanes (hop1 (W (Proc.devRef .tc main_arg0)) (W (Proc.devRef .tc main_arg1)) (W (Proc.devRef .tc main_arg2)) (W (Proc.devRef .tc main_arg3)) (W (Proc.devRef .tc main_arg4))) := by
  show StableHlo.after hostOps0 _ (Proc.devRef .tc main_v15) = _
  after_results_simp
  rfl

/-- The user table is not written. -/
theorem st0_arg0 (W : Valuation τ sig (Elt F)) :
    (StableHlo.after hostOps0 W (Proc.devRef .tc main_arg0) : Vec F S100000x64 .f32) = (W (Proc.devRef .tc main_arg0)) := by
  show StableHlo.after hostOps0 _ (Proc.devRef .tc main_arg0) = _
  after_results_simp

/-- The item table is not written. -/
theorem st0_arg1 (W : Valuation τ sig (Elt F)) :
    (StableHlo.after hostOps0 W (Proc.devRef .tc main_arg1) : Vec F S50000x64 .f32) = (W (Proc.devRef .tc main_arg1)) := by
  show StableHlo.after hostOps0 _ (Proc.devRef .tc main_arg1) = _
  after_results_simp

/-- The edge values are not written. -/
theorem st0_arg2 (W : Valuation τ sig (Elt F)) :
    (StableHlo.after hostOps0 W (Proc.devRef .tc main_arg2) : Vec F S2400000 .f32) = (W (Proc.devRef .tc main_arg2)) := by
  show StableHlo.after hostOps0 _ (Proc.devRef .tc main_arg2) = _
  after_results_simp

/-- The edge row ids are not written. -/
theorem st0_arg3 (W : Valuation τ sig (Elt F)) :
    (StableHlo.after hostOps0 W (Proc.devRef .tc main_arg3) : Vec F S2400000 .i32) = (W (Proc.devRef .tc main_arg3)) := by
  show StableHlo.after hostOps0 _ (Proc.devRef .tc main_arg3) = _
  after_results_simp

/-- The edge column ids are not written. -/
theorem st0_arg4 (W : Valuation τ sig (Elt F)) :
    (StableHlo.after hostOps0 W (Proc.devRef .tc main_arg4) : Vec F S2400000 .i32) = (W (Proc.devRef .tc main_arg4)) := by
  show StableHlo.after hostOps0 _ (Proc.devRef .tc main_arg4) = _
  after_results_simp

/-- The user ids are not written. -/
theorem st0_arg5 (W : Valuation τ sig (Elt F)) :
    (StableHlo.after hostOps0 W (Proc.devRef .tc main_arg5) : Vec F S4096 .i32) = (W (Proc.devRef .tc main_arg5)) := by
  show StableHlo.after hostOps0 _ (Proc.devRef .tc main_arg5) = _
  after_results_simp

/-- The item ids are not written. -/
theorem st0_arg6 (W : Valuation τ sig (Elt F)) :
    (StableHlo.after hostOps0 W (Proc.devRef .tc main_arg6) : Vec F S4096 .i32) = (W (Proc.devRef .tc main_arg6)) := by
  show StableHlo.after hostOps0 _ (Proc.devRef .tc main_arg6) = _
  after_results_simp

/-! ## Between the first and the second call -/

/-- The next hop: one hop of the previous one. -/
theorem st1_v30 (W : Valuation τ sig (Elt F)) :
    (StableHlo.after hostOps1 W (Proc.devRef .tc main_v30) : Vec F S150000x64 .f32) = spmm (W (Proc.devRef .tc main_arg2)) (W (Proc.devRef .tc main_arg3)) (W (Proc.devRef .tc main_arg4)) (W (Proc.devRef .tc main_v13)) := by
  show StableHlo.after hostOps1 _ (Proc.devRef .tc main_v30) = _
  after_results_simp
  rfl

/-- The second call's first operand: the first call's result, relabelled back and forth. -/
theorem st1_v31 (W : Valuation τ sig (Elt F)) :
    (StableHlo.after hostOps1 W (Proc.devRef .tc main_v31) : Vec F S75000x128 .f32) = toLanes (ofLanes (W (Proc.devRef .tc main_v16))) := by
  show StableHlo.after hostOps1 _ (Proc.devRef .tc main_v31) = _
  after_results_simp
  rfl

/-- The second call's second operand: the next hop, relabelled. -/
theorem st1_v32 (W : Valuation τ sig (Elt F)) :
    (StableHlo.after hostOps1 W (Proc.devRef .tc main_v32) : Vec F S75000x128 .f32) = toLanes (spmm (W (Proc.devRef .tc main_arg2)) (W (Proc.devRef .tc main_arg3)) (W (Proc.devRef .tc main_arg4)) (W (Proc.devRef .tc main_v13))) := by
  show StableHlo.after hostOps1 _ (Proc.devRef .tc main_v32) = _
  after_results_simp
  rfl

/-- The edge values are not written. -/
theorem st1_arg2 (W : Valuation τ sig (Elt F)) :
    (StableHlo.after hostOps1 W (Proc.devRef .tc main_arg2) : Vec F S2400000 .f32) = (W (Proc.devRef .tc main_arg2)) := by
  show StableHlo.after hostOps1 _ (Proc.devRef .tc main_arg2) = _
  after_results_simp

/-- The edge row ids are not written. -/
theorem st1_arg3 (W : Valuation τ sig (Elt F)) :
    (StableHlo.after hostOps1 W (Proc.devRef .tc main_arg3) : Vec F S2400000 .i32) = (W (Proc.devRef .tc main_arg3)) := by
  show StableHlo.after hostOps1 _ (Proc.devRef .tc main_arg3) = _
  after_results_simp

/-- The edge column ids are not written. -/
theorem st1_arg4 (W : Valuation τ sig (Elt F)) :
    (StableHlo.after hostOps1 W (Proc.devRef .tc main_arg4) : Vec F S2400000 .i32) = (W (Proc.devRef .tc main_arg4)) := by
  show StableHlo.after hostOps1 _ (Proc.devRef .tc main_arg4) = _
  after_results_simp

/-- The user ids are not written. -/
theorem st1_arg5 (W : Valuation τ sig (Elt F)) :
    (StableHlo.after hostOps1 W (Proc.devRef .tc main_arg5) : Vec F S4096 .i32) = (W (Proc.devRef .tc main_arg5)) := by
  show StableHlo.after hostOps1 _ (Proc.devRef .tc main_arg5) = _
  after_results_simp

/-- The item ids are not written. -/
theorem st1_arg6 (W : Valuation τ sig (Elt F)) :
    (StableHlo.after hostOps1 W (Proc.devRef .tc main_arg6) : Vec F S4096 .i32) = (W (Proc.devRef .tc main_arg6)) := by
  show StableHlo.after hostOps1 _ (Proc.devRef .tc main_arg6) = _
  after_results_simp

/-! ## Between the second and the third call -/

/-- The third call's first operand: the second call's result, relabelled back and forth. -/
theorem st2_v48 (W : Valuation τ sig (Elt F)) :
    (StableHlo.after hostOps2 W (Proc.devRef .tc main_v48) : Vec F S75000x128 .f32) = toLanes (ofLanes (W (Proc.devRef .tc main_v33))) := by
  show StableHlo.after hostOps2 _ (Proc.devRef .tc main_v48) = _
  after_results_simp
  rfl

/-- The third call's second operand: one more hop, relabelled. -/
theorem st2_v49 (W : Valuation τ sig (Elt F)) :
    (StableHlo.after hostOps2 W (Proc.devRef .tc main_v49) : Vec F S75000x128 .f32) = toLanes (spmm (W (Proc.devRef .tc main_arg2)) (W (Proc.devRef .tc main_arg3)) (W (Proc.devRef .tc main_arg4)) (W (Proc.devRef .tc main_v30))) := by
  show StableHlo.after hostOps2 _ (Proc.devRef .tc main_v49) = _
  after_results_simp
  rfl

/-- The user ids are not written. -/
theorem st2_arg5 (W : Valuation τ sig (Elt F)) :
    (StableHlo.after hostOps2 W (Proc.devRef .tc main_arg5) : Vec F S4096 .i32) = (W (Proc.devRef .tc main_arg5)) := by
  show StableHlo.after hostOps2 _ (Proc.devRef .tc main_arg5) = _
  after_results_simp

/-- The item ids are not written. -/
theorem st2_arg6 (W : Valuation τ sig (Elt F)) :
    (StableHlo.after hostOps2 W (Proc.devRef .tc main_arg6) : Vec F S4096 .i32) = (W (Proc.devRef .tc main_arg6)) := by
  show StableHlo.after hostOps2 _ (Proc.devRef .tc main_arg6) = _
  after_results_simp

/-! ## Between the third call and the first gather -/

/-- The user rows of the third call's result, relabelled back. -/
theorem st3_v52 (W : Valuation τ sig (Elt F)) :
    (StableHlo.after hostOps3 W (Proc.devRef .tc main_v52) : Vec F S100000x64 .f32) = userRows (ofLanes (W (Proc.devRef .tc main_v50))) := by
  show StableHlo.after hostOps3 _ (Proc.devRef .tc main_v52) = _
  after_results_simp
  rfl

/-- The item rows of the third call's result, relabelled back. -/
theorem st3_v53 (W : Valuation τ sig (Elt F)) :
    (StableHlo.after hostOps3 W (Proc.devRef .tc main_v53) : Vec F S50000x64 .f32) = itemRows (ofLanes (W (Proc.devRef .tc main_v50))) := by
  show StableHlo.after hostOps3 _ (Proc.devRef .tc main_v53) = _
  after_results_simp
  rfl

/-- The user ids are not written. -/
theorem st3_arg5 (W : Valuation τ sig (Elt F)) :
    (StableHlo.after hostOps3 W (Proc.devRef .tc main_arg5) : Vec F S4096 .i32) = (W (Proc.devRef .tc main_arg5)) := by
  show StableHlo.after hostOps3 _ (Proc.devRef .tc main_arg5) = _
  after_results_simp

/-- The item ids are not written. -/
theorem st3_arg6 (W : Valuation τ sig (Elt F)) :
    (StableHlo.after hostOps3 W (Proc.devRef .tc main_arg6) : Vec F S4096 .i32) = (W (Proc.devRef .tc main_arg6)) := by
  show StableHlo.after hostOps3 _ (Proc.devRef .tc main_arg6) = _
  after_results_simp

/-- The first gather's ids: the user ids clipped into [0, 99999], the two bounds being the constants the stretch before sets. -/
theorem st3_v54 (W : Valuation τ sig (Elt F)) :
    (StableHlo.after hostOps3_1 (StableHlo.after hostOps3 W) (Proc.devRef .tc main_v54) : Vec F S4096 .i32) = clipIds 99999#32 (W (Proc.devRef .tc main_arg5)) := by
  show StableHlo.after hostOps3_1 (StableHlo.after hostOps3 _) (Proc.devRef .tc main_v54) = _
  after_results_simp
  rfl

/-- The clipping writes neither row slice -/
theorem st31_v52 (W : Valuation τ sig (Elt F)) :
    (StableHlo.after hostOps3_1 W (Proc.devRef .tc main_v52) : Vec F S100000x64 .f32) = (W (Proc.devRef .tc main_v52)) := by
  show StableHlo.after hostOps3_1 _ (Proc.devRef .tc main_v52) = _
  after_results_simp

/-- nor the other, -/
theorem st31_v53 (W : Valuation τ sig (Elt F)) :
    (StableHlo.after hostOps3_1 W (Proc.devRef .tc main_v53) : Vec F S50000x64 .f32) = (W (Proc.devRef .tc main_v53)) := by
  show StableHlo.after hostOps3_1 _ (Proc.devRef .tc main_v53) = _
  after_results_simp

/-- nor the item ids. -/
theorem st31_arg6 (W : Valuation τ sig (Elt F)) :
    (StableHlo.after hostOps3_1 W (Proc.devRef .tc main_arg6) : Vec F S4096 .i32) = (W (Proc.devRef .tc main_arg6)) := by
  show StableHlo.after hostOps3_1 _ (Proc.devRef .tc main_arg6) = _
  after_results_simp

/-! ## Between the two gathers -/

/-- The second gather's ids: the item ids clipped into [0, 49999]. -/
theorem st4_v56 (W : Valuation τ sig (Elt F)) :
    (StableHlo.after hostOps4_1 (StableHlo.after hostOps4 W) (Proc.devRef .tc main_v56) : Vec F S4096 .i32) = clipIds 49999#32 (W (Proc.devRef .tc main_arg6)) := by
  show StableHlo.after hostOps4_1 (StableHlo.after hostOps4 _) (Proc.devRef .tc main_v56) = _
  after_results_simp
  rfl

/-- The item rows are not written, -/
theorem st4_v53 (W : Valuation τ sig (Elt F)) :
    (StableHlo.after hostOps4_1 (StableHlo.after hostOps4 W) (Proc.devRef .tc main_v53) : Vec F S50000x64 .f32) = (W (Proc.devRef .tc main_v53)) := by
  show StableHlo.after hostOps4_1 (StableHlo.after hostOps4 _) (Proc.devRef .tc main_v53) = _
  after_results_simp

/-- nor is the first gather's result. -/
theorem st4_v55 (W : Valuation τ sig (Elt F)) :
    (StableHlo.after hostOps4_1 (StableHlo.after hostOps4 W) (Proc.devRef .tc main_v55) : Vec F S4096x64 .f32) = (W (Proc.devRef .tc main_v55)) := by
  show StableHlo.after hostOps4_1 (StableHlo.after hostOps4 _) (Proc.devRef .tc main_v55) = _
  after_results_simp

end Cert.Kernel.Hand
-- ==== Proof.BClipRange.lean ====
/-
  Clipped ids are rows of their table, for any ids: min (hi, max (0, id)) as signed words lies in
  [0, hi] whenever hi is nonnegative, and a nonnegative signed word is its own natural number.
-/
import proofs.«412556_j37890201485521_3_alg».proof.Proof.BKSpec

noncomputable section

namespace Cert.Kernel.Hand

open Idealize.ShloMosaic Cert.Kernel

/-- A word clipped into [0, hi], hi nonnegative as a signed word, is at most hi as a natural number. -/
theorem clipWord_toNat_le (hi x : BitVec 32) (hhi : 0 ≤ hi.toInt) :
    (IntOp.minsi hi (IntOp.maxsi 0#32 x)).toNat ≤ hi.toNat := by
  have hx := x.isLt
  have hh := hi.isLt
  have ex := BitVec.toInt_eq_toNat_cond x
  have eh := BitVec.toInt_eq_toNat_cond hi
  by_cases h1 : x.slt 0#32 = true
  · have e1 : IntOp.maxsi 0#32 x = 0#32 := by simp [IntOp.maxsi, h1]
    rw [e1]
    by_cases h2 : hi.slt 0#32 = true
    · exfalso
      rw [BitVec.slt, decide_eq_true_eq] at h2
      simp only [BitVec.toInt_zero] at h2
      omega
    · have e2 : IntOp.minsi hi 0#32 = 0#32 := by simp [IntOp.minsi, h2]
      rw [e2]; simp
  · have e1 : IntOp.maxsi 0#32 x = x := by simp [IntOp.maxsi, h1]
    rw [e1]
    rw [BitVec.slt, decide_eq_true_eq] at h1
    simp only [BitVec.toInt_zero] at h1
    by_cases h2 : hi.slt x = true
    · have e2 : IntOp.minsi hi x = hi := by simp [IntOp.minsi, h2]
      rw [e2]
    · have e2 : IntOp.minsi hi x = x := by simp [IntOp.minsi, h2]
      rw [e2]
      rw [BitVec.slt, decide_eq_true_eq] at h2
      split at ex <;> split at eh <;> omega

variable {F : FTy → Type} [FloatOps F] [Cert.Kernel.Facts]

/-- The clipped ids entry by entry: the signed min and max of the words. -/
theorem clipIds_apply (hi : BitVec 32) (ids : Vec F S4096 .i32) (i : S4096.Idx) :
    clipIds (F := F) hi ids i = IntOp.minsi hi (IntOp.maxsi 0#32 (ids i)) := rfl

/-- Every clipped user id is a row of the user table. -/
theorem clipIds_users_lt (ids : Vec F S4096 .i32) (j : Fin 4096) :
    (clipIds (F := F) 99999#32 ids (ValueIdx.ix1 j)).toNat < 100000 := by
  rw [clipIds_apply]
  exact Nat.lt_of_le_of_lt (clipWord_toNat_le 99999#32 _ (by decide)) (by decide)

/-- Every clipped item id is a row of the item table. -/
theorem clipIds_items_lt (ids : Vec F S4096 .i32) (j : Fin 4096) :
    (clipIds (F := F) 49999#32 ids (ValueIdx.ix1 j)).toNat < 50000 := by
  rw [clipIds_apply]
  exact Nat.lt_of_le_of_lt (clipWord_toNat_le 49999#32 _ (by decide)) (by decide)

end Cert.Kernel.Hand

end
-- ==== Proof.BTableRange.lean ====
import proofs.«412556_j37890201485521_3_alg».proof.Proof.BFold
import proofs.«412556_j37890201485521_3_alg».proof.Proof.BKChain
import proofs.«412556_j37890201485521_3_alg».proof.Proof.BClipRange

noncomputable section

namespace Cert.Kernel.Hand

open Cert.Kernel Cert.Kernel.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-- The first gather's table is the buffer of clipped user ids as that call finds it: the user ids, whatever the
    launch put there, clipped into [0, 99999] by the two stretches before the call. -/
theorem table3_eq : ((a3 m).1 0 : Vec F S4096 .i32) = clipIds 99999#32 (U6 m 0 (Proc.devRef .tc main_arg5)) := by
  have hb : ((a3 m).1 0 : Vec F S4096 .i32) = atRefs (U8 m) 0 (pre3.ref 0) := (ha3 m 0 0).symm
  have hc : (atRefs (U8 m) 0 (pre3.ref 0) : Vec F S4096 .i32) = U8 m 0 (Proc.devRef .tc main_v54) := rfl
  have hd : (U8 m 0 (Proc.devRef .tc main_v54) : Vec F S4096 .i32)
      = clipIds 99999#32 (U6 m 0 (Proc.devRef .tc main_arg5)) := by
    show StableHlo.after hostOps3_1 (StableHlo.after hostOps3 (U6 m 0)) (Proc.devRef .tc main_v54) = _
    rw [st3_v54]
  exact (hb.trans hc).trans hd

/-- So each of its entries names a row of the user rows. -/
theorem table3_lt (j : Fin 4096) : (((a3 m).1 0 : Vec F S4096 .i32) (ix1 j)).toNat < 100000 := by
  rw [table3_eq]; exact clipIds_users_lt _ j

/-- The second gather's table is the item ids clipped into [0, 49999]. -/
theorem table4_eq : ((a4 m).1 0 : Vec F S4096 .i32) = clipIds 49999#32 (U9 m 0 (Proc.devRef .tc main_arg6)) := by
  have hb : ((a4 m).1 0 : Vec F S4096 .i32) = atRefs (U11 m) 0 (pre4.ref 0) := (ha4 m 0 0).symm
  have hc : (atRefs (U11 m) 0 (pre4.ref 0) : Vec F S4096 .i32) = U11 m 0 (Proc.devRef .tc main_v56) := rfl
  have hd : (U11 m 0 (Proc.devRef .tc main_v56) : Vec F S4096 .i32)
      = clipIds 49999#32 (U9 m 0 (Proc.devRef .tc main_arg6)) := by
    show StableHlo.after hostOps4_1 (StableHlo.after hostOps4 (U9 m 0)) (Proc.devRef .tc main_v56) = _
    rw [st4_v56]
  exact (hb.trans hc).trans hd

/-- So each of its entries names a row of the item rows. -/
theorem table4_lt (j : Fin 4096) : (((a4 m).1 0 : Vec F S4096 .i32) (ix1 j)).toNat < 50000 := by
  rw [table4_eq]; exact clipIds_items_lt _ j

end Cert.Kernel.Hand

end
-- ==== Proof.BGatherLemmas3.lean ====
/-
  The lemmas of the row gather (custom call 3): what its table reads give, what each row transfer moves and leaves, the
  output window held row by row, and the HBM array held as one read share per transfer in flight.

  At grid point `i` the kernel reads, for each `t < 128`, the word at position `128 * i + t` of the index table, and starts a
  transfer of that row of the HBM array into row `t` of its output window, each on a semaphore of its own; then it waits
  for all 128. The statements here are about ONE row: the word read is the table's entry (`tb_word3`), below 100000 under
  the range hypothesis (`tb_lt3`: the side condition the kernel assumes of it, `chk3_of_lt`); the transfer moves row
  `gathered3_row v` of the array (`pay3`), which is row `t` of `gathered3` (`pay_gathered3`); landed in the window's row `t`, it
  leaves there what the window holds when `gathered3` is written through it whole (`row_writes3`, `row_land3`). The window's
  buffer is its 128 rows (`pointsTo_rows3`), so 128 transfers may be in flight into it at once; the array is split into read
  shares, one per transfer in flight (`toks3`), so 128 transfers may read it at once, two of them the same row.
-/
import proofs.«412556_j37890201485521_3_alg».proof.Proof.Gen.Kernel
import proofs.«412556_j37890201485521_3_alg».proof.Proof.BGather3Defs
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands -/

/-- The index table and the HBM array as the kernel is handed them: whole buffers. -/
abbrev tbM3 : Memref sig .tc .smem S4096 .i32 := Memref.whole main_v54
abbrev hbM3 : Memref sig .tc .hbm S100000x64 .f32 := Memref.whole main_v52

/-- A memref's buffer on core `c`: its contents type, and it held whole at share `q` at contents `f`. -/
abbrev MBuf3 (c : Dev nD) {sp : Space} {S : Shape} {e : EltTy} (M : Memref sig .tc sp S e) : Type := Buf (Elt F) (M.view.loc (c : Thread nD τ))
abbrev mPt3 (c : Dev nD) {sp : Space} {S : Shape} {e : EltTy} (M : Memref sig .tc sp S e) (q : PosShare TreeShare) (f : MBuf3 (F := F) c M) : sProp 𝕄 :=
  M.view.loc (c : Thread nD τ) ↦{q} f

/-- Row `j` of the output window as the kernel names it: the window's slice at row `j`, its unit axis dropped. -/
abbrev row3 (arg3 : Memref sig .tc .vmem S128x64 .f32) (j : ℕ) (h : ∀ a, (![j, 0] : Fin 2 → ℕ) a + S1x64.size a ≤ S128x64.size a) : Memref sig .tc .vmem S64 .f32 :=
  (arg3.slice (Rect.unit (s := S128x64) ![j, 0] S1x64.size h) (fun _ => rfl)).squeeze S64 squeezes_S1x64_S64
/-- A row's own elements held at the full share. -/
abbrev rowPt3 (c : Dev nD) (M : Memref sig .tc .vmem S64 .f32) (f : MBuf3 (F := F) c M) : sProp 𝕄 :=
  M.view.loc (c : Thread nD τ) ↦[M.view.set]{fullShare} f

/-- The kernel's own DMA semaphores, cell by cell. -/
abbrev osem3 : Fin 128 → SemLoc sig := fun j => SemLoc.dma (cc3_scratch0.ix (ix1 (n := 128) j))

/-! ## The table -/

/-- A load through the whole table reads the table's entry at the load's index. -/
theorem tb_readAt3 (tb : Vec F S4096 .i32) (B : LoadRect S4096) (x : B.shape.Idx) :
    tbM3.view.readAt (Elt F) B tb x = tb (B.idx x) := rfl

/-- Every word a load reads off a table whose entries are below 100000 is below 100000. -/
theorem tb_lt3 (tb : Vec F S4096 .i32) (htb : ∀ j : Fin 4096, BitVec.toNat (tb (ix1 j)) < 100000)
    (B : LoadRect S4096) (x : B.shape.Idx) : BitVec.toNat (tbM3.view.readAt (Elt F) B tb x) < 100000 := by
  rw [tb_readAt3]
  have h := htb ((B.idx x) 0)
  have e : B.idx x = ix1 (n := 4096) ((B.idx x) 0) := eq_ix1 (n := 4096) (B.idx x)
  rw [e]; exact h

/-- The word a scalar load reads at position `p`. -/
theorem tb_word3 (tb : Vec F S4096 .i32) (off : Fin 1 → ℕ) (h : ∀ a, off a + S1.size a ≤ S4096.size a)
    (x : (Rect.unit (s := S4096) off S1.size h).toLoadRect.shape.Idx) (p : Fin 4096) (hp : off 0 = p.val) :
    tbM3.view.readAt (Elt F) (Rect.unit (s := S4096) off S1.size h).toLoadRect tb x = tb (ix1 p) := by
  rw [tb_readAt3]
  congr 1
  funext a
  match a with
  | ⟨0, _⟩ =>
    apply Fin.ext
    show off 0 + 1 * (x 0).val = p.val
    have hx : (x 0).val < 1 := (x 0).isLt
    omega

/-! ## A row of the HBM array -/

/-- The index a row view of a two-axis array reads for its own index `y`: row `r`, column `y`. -/
theorem row_emb3 {n0 : ℕ} (r : ℕ) (h : ∀ a, (![r, 0] : Fin 2 → ℕ) a + S1x64.size a ≤ (⟨2, ![n0, 64]⟩ : Shape).size a)
    (y : S64.Idx) (hr : r < n0) :
    (Rect.unit (s := (⟨2, ![n0, 64]⟩ : Shape)) ![r, 0] S1x64.size h).emb (Shape.reshapeEquiv squeezes_S1x64_S64.numel_eq y)
      = ix2 (n0 := n0) (n1 := 64) ⟨r, hr⟩ (y 0) := by
  have e : Shape.reshapeEquiv squeezes_S1x64_S64.numel_eq y = Fin.cons ⟨0, Nat.one_pos⟩ y :=
    Shape.reshapeEquiv_cons_one (n := 1) (d := ![64]) squeezes_S1x64_S64.numel_eq y
  rw [e]
  funext a
  match a with
  | ⟨0, _⟩ => exact Fin.ext (by show r + 1 * 0 = r; omega)
  | ⟨1, _⟩ => exact Fin.ext (by show 0 + 1 * (y 0).val = (y 0).val; omega)

/-- The side condition the kernel assumes of a table word `v` — row `v` of the array is in range, stated once for the
    transfer's start and once for its wait — holds of a word below 100000. -/
theorem chk3_of_lt (v : BitVec 32) (h : v.toNat < 100000) :
    (∀ a, (![v.toNat, 0] : Fin 2 → ℕ) a + S1x64.size a ≤ S100000x64.size a)
      ∧ (∀ a, (![v.toNat, 0] : Fin 2 → ℕ) a + S1x64.size a ≤ S100000x64.size a) := by
  have key : ∀ a, (![v.toNat, 0] : Fin 2 → ℕ) a + S1x64.size a ≤ S100000x64.size a := by
    intro a
    match a with
    | ⟨0, _⟩ => show v.toNat + 1 ≤ 100000; omega
    | ⟨1, _⟩ => show 0 + 64 ≤ 64; omega
  exact ⟨key, key⟩

/-! ## What a transfer of one row moves, and what it leaves -/

/-- Row `off 0` of the HBM array as a memref: the array's slice at offsets `off`, its unit axis dropped. -/
abbrev src3 (off : Fin 2 → ℕ) (h : ∀ a, off a + S1x64.size a ≤ S100000x64.size a) : Memref sig .tc .hbm S64 .f32 :=
  (hbM3.slice (Rect.unit (s := S100000x64) off S1x64.size h) (fun _ => rfl)).squeeze S64 squeezes_S1x64_S64

/-- What the row view reads of the array: the array at row `r`. -/
theorem src_read3 (fh : Vec F S100000x64 .f32) (r : ℕ) (h : ∀ a, (![r, 0] : Fin 2 → ℕ) a + S1x64.size a ≤ S100000x64.size a)
    (hr : r < 100000) (y : S64.Idx) :
    (src3 ![r, 0] h).view.read (Elt F) fh y = fh (ix2 (n0 := 100000) (n1 := 64) ⟨r, hr⟩ (y 0)) := by
  show fh ((Rect.unit (s := S100000x64) ![r, 0] S1x64.size h).emb (Shape.reshapeEquiv squeezes_S1x64_S64.numel_eq y)) = _
  rw [row_emb3 (n0 := 100000) r h y hr]

/-- The payload of the transfer for a table word `v` below 100000 is the row of `fh` that `gathered3` names. -/
theorem pay3 (fh : Vec F S100000x64 .f32) (v : BitVec 32) (h : ∀ a, (![v.toNat, 0] : Fin 2 → ℕ) a + S1x64.size a ≤ S100000x64.size a)
    (hv : v.toNat < 100000) (y : S64.Idx) :
    ReadAs.same.apply ((src3 ![v.toNat, 0] h).view.read (Elt F) fh) y
      = fh (ix2 (n0 := 100000) (n1 := 64) (gathered3_row v) (y 0)) := by
  show (src3 ![v.toNat, 0] h).view.read (Elt F) fh y = _
  rw [src_read3 fh v.toNat h hv y]
  congr 2
  exact Fin.ext (gathered3_row_of_lt v hv).symm

/-- Row `t` of the output window, landed: on the row's elements, the row's buffer with the payload `w` written whole
    is the window's buffer with `X` written whole, when `w` is row `t` of `X`. -/
theorem row_writes3 (c : Dev nD) (arg3 : Memref sig .tc .vmem S128x64 .f32) (t : ℕ) (ht : t < 128)
    (h : ∀ a, (![t, 0] : Fin 2 → ℕ) a + S1x64.size a ≤ S128x64.size a)
    (f : Buf (Elt F) (arg3.view.loc (c : Thread nD τ))) (w : S64.Idx → Elt F .f32) (X : Vec F S128x64 .f32)
    (hw : ∀ y : S64.Idx, w y = X (ix2 (n0 := 128) (n1 := 64) ⟨t, ht⟩ (y 0))) :
    ∀ x ∈ (row3 arg3 t h).view.set,
      (row3 arg3 t h).view.writes (Elt F) f [⟨Rect.whole S64, w⟩] x = arg3.view.write (Elt F) f X Finset.univ x := by
  intro x hx
  obtain ⟨y, -, rfl⟩ := Finset.mem_map.mp hx
  rw [← View.write_univ_eq_writes_whole, View.writes_nil, View.write_emb_of_mem _ _ (Finset.mem_univ _)]
  have e : (row3 arg3 t h).view.emb y = arg3.view.emb (ix2 (n0 := 128) (n1 := 64) ⟨t, ht⟩ (y 0)) := by
    show arg3.view.emb ((Rect.unit (s := S128x64) ![t, 0] S1x64.size h).emb (Shape.reshapeEquiv squeezes_S1x64_S64.numel_eq y)) = _
    rw [row_emb3 (n0 := 128) t h y ht]
  rw [e, View.write_emb_of_mem _ _ (Finset.mem_univ _), hw]

/-! ## The window row by row -/

/-- Row `t` of the window, as a rectangle. -/
theorem rowInb3 (t : Fin 128) : ∀ a, (![t.val, 0] : Fin 2 → ℕ) a + S1x64.size a ≤ S128x64.size a :=
  Rect.inb₂ (by show t.val + 1 ≤ 128; omega) (by show 0 + 64 ≤ 64; omega)
def rowRect3 (t : Fin 128) : Rect S128x64 := Rect.unit (s := S128x64) ![t.val, 0] S1x64.size (rowInb3 t)

theorem rowRect3_disj (t t' : Fin 128) (h : t ≠ t') : Disjoint (rowRect3 t).set (rowRect3 t').set :=
  Rect.unit_disjoint 0 (by show t.val + 1 ≤ t'.val ∨ t'.val + 1 ≤ t.val; have := Fin.val_ne_of_ne h; omega)

theorem rowRect3_cov : (Finset.univ : Finset (Fin 128)).biUnion (fun t => (rowRect3 t).set) = Finset.univ := by
  ext x
  simp only [Finset.mem_biUnion, Finset.mem_univ, true_and, iff_true]
  refine ⟨x 0, Rect.mem_set_unit.mpr fun a => ?_⟩
  match a with
  | ⟨0, _⟩ => exact ⟨Nat.le_refl _, Nat.lt_succ_self _⟩
  | ⟨1, _⟩ =>
    have h1 : (x 1).val < 64 := (x 1).isLt
    exact ⟨Nat.zero_le _, by show (x 1).val < 0 + 64; omega⟩

/-- The window's buffer at contents `g` is its 128 rows at `g`. -/
theorem pointsTo_rows3 (c : Dev nD) (arg3 : Memref sig .tc .vmem S128x64 .f32) (q : PosShare TreeShare)
    (g : Buf (Elt F) (arg3.view.loc (c : Thread nD τ))) :
    (arg3.view.loc (c : Thread nD τ) ↦[arg3.view.set]{q} g : sProp 𝕄)
      = bigSep Finset.univ fun t : Fin 128 => (arg3.view.loc (c : Thread nD τ) ↦[(row3 arg3 t.val (rowInb3 t)).view.set]{q} g : sProp 𝕄) := by
  rw [pointsTo_rects (c : Thread nD τ) arg3 q rowRect3 (fun _ _ => rfl) rowRect3_disj rowRect3_cov g]
  refine BI.bigSep_congr fun t _ => ?_
  rw [owns_slice_read (c : Thread nD τ) arg3 q (rowRect3 t) (fun _ => rfl) g]
  exact congrArg (fun S => (arg3.view.loc (c : Thread nD τ) ↦[S]{q} g : sProp 𝕄))
    (View.set_reshape (v := arg3.view.slice (rowRect3 t)) squeezes_S1x64_S64.numel_eq).symm

/-! ## The HBM array as read tokens, the cells listed -/

/-- Halving `a` times and then `i` times is halving `a + i` times. -/
theorem shareDrop_add3 (q : PosShare TreeShare) (a : ℕ) : ∀ i, Transfers.shareDrop (Transfers.shareDrop q a) i = Transfers.shareDrop q (a + i)
  | 0 => rfl
  | i + 1 => by
    show (Transfers.shareDrop (Transfers.shareDrop q a) i).left = (Transfers.shareDrop q (a + i)).left
    rw [shareDrop_add3 q a i]

/-- A read token of what remains after `a` tokens is a later token of the whole. -/
theorem shareTokN_add3 (q : PosShare TreeShare) (a i : ℕ) : Transfers.shareTokN (Transfers.shareDrop q a) i = Transfers.shareTokN q (a + i) := by
  unfold Transfers.shareTokN; rw [shareDrop_add3]

/-- The array whole is: what remains after `a + 128` tokens, the first `a` tokens (never lent), and tokens `a` … `a + 127`, one for
    each transfer in flight. -/
theorem toks3 (c : Dev nD) (fh : MBuf3 (F := F) c hbM3) (a : ℕ) :
    (mPt3 c hbM3 fullShare fh : sProp 𝕄)
      ⊣⊢ iprop(mPt3 c hbM3 (Transfers.shareDrop fullShare (a + 128)) fh
          ∗ BI.bigSep (Finset.range a) (fun k => mPt3 c hbM3 (Transfers.shareTokN fullShare k) fh)
          ∗ BI.bigSep (Finset.range 128) (fun k => mPt3 c hbM3 (Transfers.shareTokN fullShare (a + k)) fh)) := by
  have h1 := Transfers.pointsTo_toks_range (Ix := Unit) (Name := ℕ) (U := Pipeline.UD sig nD τ) (Lvl := ℕ) (Val := Elt F)
    (ℓ := hbM3.view.loc (c : Thread nD τ)) (S := Finset.univ) (f := fh) fullShare a
  have h2 := Transfers.pointsTo_toks_range (Ix := Unit) (Name := ℕ) (U := Pipeline.UD sig nD τ) (Lvl := ℕ) (Val := Elt F)
    (ℓ := hbM3.view.loc (c : Thread nD τ)) (S := Finset.univ) (f := fh) (Transfers.shareDrop fullShare a) 128
  simp only [shareTokN_add3, shareDrop_add3] at h2
  constructor
  · refine h1.1.trans ((sep_mono_left h2.1).trans ?_)
    iintro ⟨⟨Hd, Ht⟩, Hx⟩
    isplitl [Hd]; · iexact Hd
    isplitl [Hx]; · iexact Hx
    iexact Ht
  · refine BIBase.Entails.trans ?_ ((sep_mono_left h2.2).trans h1.2)
    iintro ⟨Hd, Hx, Ht⟩
    isplitl [Hd Ht]; · isplitl [Hd] <;> iassumption
    iexact Hx

/-! ## A row landed, in closed form -/

/-- The payload of the transfer whose table word was read at position `128 * i + t` is row `t` of `gathered3`. -/
theorem pay_gathered3 (i : grid3.Coords) (tb : Vec F S4096 .i32) (fh : Vec F S100000x64 .f32)
    (htb : ∀ j : Fin 4096, BitVec.toNat (tb (ix1 j)) < 100000) (t : Fin 128)
    (offA : Fin 1 → ℕ) (hA : ∀ a, offA a + S1.size a ≤ S4096.size a) (hoffA : offA = ![128 * (i 0).val + t.val])
    (x : (Rect.unit (s := S4096) offA S1.size hA).toLoadRect.shape.Idx)
    (hB : ∀ a, (![BitVec.toNat (tbM3.view.readAt (Elt F) (Rect.unit (s := S4096) offA S1.size hA).toLoadRect tb x), 0] : Fin 2 → ℕ) a
      + S1x64.size a ≤ S100000x64.size a)
    (y : S64.Idx) :
    ReadAs.same.apply ((src3 ![BitVec.toNat (tbM3.view.readAt (Elt F) (Rect.unit (s := S4096) offA S1.size hA).toLoadRect tb x), 0] hB).view.read (Elt F) fh) y
      = gathered3 i tb fh (ix2 (n0 := 128) (n1 := 64) t (y 0)) := by
  have hv : tbM3.view.readAt (Elt F) (Rect.unit (s := S4096) offA S1.size hA).toLoadRect tb x = tb (ix1 (gathered3_pos i t)) :=
    tb_word3 tb offA hA x (gathered3_pos i t) (by rw [hoffA, gathered3_pos_val]; rfl)
  rw [pay3 fh _ hB (tb_lt3 tb htb _ _) y, hv]
  rfl

/-- Row `t` landed, restated over the window's buffer with `gathered3` written whole. -/
theorem row_land3 (c : Dev nD) (i : grid3.Coords) (arg3 : Memref sig .tc .vmem S128x64 .f32) (t : ℕ) (ht : t < 128)
    (h : ∀ a, (![t, 0] : Fin 2 → ℕ) a + S1x64.size a ≤ S128x64.size a)
    (f : Buf (Elt F) (arg3.view.loc (c : Thread nD τ))) (tb : Vec F S4096 .i32) (fh : Vec F S100000x64 .f32)
    (w : S64.Idx → Elt F .f32)
    (hw : ∀ y : S64.Idx, w y = gathered3 i tb fh (ix2 (n0 := 128) (n1 := 64) ⟨t, ht⟩ (y 0))) :
    (rowPt3 c (row3 arg3 t h) ((row3 arg3 t h).view.writes (Elt F) f [⟨Rect.whole S64, w⟩]) : sProp 𝕄)
      ⊢ rowPt3 c (row3 arg3 t h) (arg3.view.write (Elt F) f (gathered3 i tb fh) Finset.univ) :=
  Entails.of_eq (pointsTo_congr (row_writes3 c arg3 t ht h f w (gathered3 i tb fh) hw))

/-! ## The window whole again -/

/-- The window's buffer with `X` written through it whole is the window owned at `X`. -/
theorem owns_of_write3 (c : Dev nD) (arg3 : Memref sig .tc .vmem S128x64 .f32) (f : Buf (Elt F) (arg3.view.loc (c : Thread nD τ)))
    (X : Vec F S128x64 .f32) :
    (arg3.view.loc (c : Thread nD τ) ↦[arg3.view.set]{fullShare} arg3.view.write (Elt F) f X Finset.univ : sProp 𝕄)
      ⊢ owns (c : Thread nD τ) arg3 fullShare X := by
  unfold owns
  iintro H
  iexists (arg3.view.write (Elt F) f X Finset.univ)
  isplitr
  · ipureintro; exact View.read_write_univ _ _
  iexact H

end Cert.Kernel.Hand
-- ==== Proof.BGatherBody3.lean ====
/-
  The body of the row gather (custom call 3) on whole operands: the triple the region's proof data consume.

  At grid point `i` the kernel is handed its output window's staging memref `arg3`, the index table (scalar memory) and the
  HBM array whole, and its 128 DMA semaphores at zero. `gatherBody3`: if every table entry is below 100000, the body runs to a
  continuation that holds the window at `gathered3 i tb fh` — row `y0` of the window is row `tb (128 * i + y0)` of the array —
  and everything else as it was. The proof restates the three whole holdings as the lists the run is stated over — the
  window row by row (`rows_list3`), the array as read shares (`toks3`, `toks_list3`: the shares below the cells' numbers and
  what remains after them are never lent, and wait here), the cells one by one (`cells_list3`) —, runs the body
  (`gatherRun3`), and puts each list back: the rows, each at `gathered3` written through the window, are the window owned
  at `gathered3` (`owns_of_write3`).
-/
import proofs.«412556_j37890201485521_3_alg».proof.Proof.BGatherRun3

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- THE BODY'S TRIPLE: on the window owned at anything, the table and the array whole, the kernel's cells at zero and the
    core's `owes`, the body of custom call 3 at grid point `i` runs to the continuation holding the window at `gathered3 i tb fh`,
    the table, the array and the cells as they were, and some `owes`. -/
theorem gatherBody3 (tb : Vec F S4096 .i32) (fh : Vec F S100000x64 .f32)
    (htb : ∀ j : Fin 4096, BitVec.toNat (tb (ix1 j)) < 100000)
    (c : Dev nD) (i : grid3.Coords) (arg3 : Memref sig .tc .vmem S128x64 .f32) (harg3 : arg3.IsWhole)
    (W : Waits sig Unit) (K : PUnit → sProp 𝕄) :
    iprop((∃ d, owns (c : Thread nD τ) arg3 fullShare d)
        ∗ (((c : Thread nD τ).loc main_v54) ↦{fullShare} tb)
        ∗ (((c : Thread nD τ).loc main_v52) ↦{fullShare} fh)
        ∗ Pipeline.ownSems0 (Ix := Unit) (Name := ℕ) (U := Pipeline.UD sig nD τ) (Lvl := ℕ) (Val := Elt F) (τ := τ) osem3 c
        ∗ owes (c : Thread nD τ) 0 W
        ∗ (iprop(owns (c : Thread nD τ) arg3 fullShare (gathered3 i tb fh)
            ∗ (((c : Thread nD τ).loc main_v54) ↦{fullShare} tb)
            ∗ (((c : Thread nD τ).loc main_v52) ↦{fullShare} fh)
            ∗ Pipeline.ownSems0 (Ix := Unit) (Name := ℕ) (U := Pipeline.UD sig nD τ) (Lvl := ℕ) (Val := Elt F) (τ := τ) osem3 c
            ∗ (∃ W', owes (c : Thread nD τ) 0 W')) -∗ K ⟨⟩))
      ⊢ wp frame (wpE (defs₀ (F := F)) Variants.none c none) Set.univ
          (cc3__gather_kernel i (Memref.whole main_v54) (Memref.isWhole_whole _) (Memref.whole main_v52) (Memref.isWhole_whole _) arg3 harg3 cc3_scratch0) K := by
  iintro ⟨⟨%d, Hown⟩, HT, HH, HS, HW, Hk⟩
  -- the window's buffer at its contents, row by row
  icases (show owns (c : Thread nD τ) arg3 fullShare d
      ⊢ iprop(∃ f, ⌜arg3.view.read (Elt F) f = d⌝ ∗ arg3.view.loc (c : Thread nD τ) ↦[arg3.view.set]{fullShare} f) from .rfl) $$ Hown with ⟨%f, -, H1⟩
  icases (Entails.of_eq (rows_list3 c arg3 f)) $$ H1 with H1
  -- the array as read shares: what remains, the shares below the cells' numbers, the cells' shares
  icases ((toks3 c fh semBase3).1) $$ HH with ⟨Hd, Hx, HH⟩
  icases (Entails.of_eq (toks_list3 c fh)) $$ HH with HH
  -- the cells one by one
  icases (Entails.of_eq (cells_list3 (F := F) c)) $$ HS with HS
  iapply (gatherRun3 c i arg3 harg3 tb fh f htb W K)
  isplitl [H1]; · iexact H1
  isplitl [HT]; · iexact HT
  isplitl [HH]; · iexact HH
  isplitl [HS]; · iexact HS
  isplitl [HW]; · iexact HW
  iintro ⟨H1, HT, HH, HS, HW⟩
  iapply Hk
  isplitl [H1]
  · icases (Entails.of_eq (rows_list3 c arg3 (arg3.view.write (Elt F) f (gathered3 i tb fh) Finset.univ)).symm) $$ H1 with H1
    iapply (owns_of_write3 c arg3 f (gathered3 i tb fh))
    iexact H1
  isplitl [HT]; · iexact HT
  isplitl [Hd Hx HH]
  · icases (Entails.of_eq (toks_list3 c fh).symm) $$ HH with HH
    iapply ((toks3 c fh semBase3).2)
    isplitl [Hd]; · iexact Hd
    isplitl [Hx]; · iexact Hx
    iexact HH
  isplitl [HS]
  · icases (Entails.of_eq (cells_list3 (F := F) c).symm) $$ HS with HS
    iexact HS
  iexact HW

end Cert.Kernel.Hand

end
-- ==== Proof.BGatherLemmas4.lean ====
/-
  The lemmas of the row gather (custom call 3): what its table reads give, what each row transfer moves and leaves, the
  output window held row by row, and the HBM array held as one read share per transfer in flight.

  At grid point `i` the kernel reads, for each `t < 128`, the word at position `128 * i + t` of the index table, and starts a
  transfer of that row of the HBM array into row `t` of its output window, each on a semaphore of its own; then it waits
  for all 128. The statements here are about ONE row: the word read is the table's entry (`tb_word4`), below 50000 under
  the range hypothesis (`tb_lt4`: the side condition the kernel assumes of it, `chk4_of_lt`); the transfer moves row
  `gathered4_row v` of the array (`pay4`), which is row `t` of `gathered4` (`pay_gathered4`); landed in the window's row `t`, it
  leaves there what the window holds when `gathered4` is written through it whole (`row_writes4`, `row_land4`). The window's
  buffer is its 128 rows (`pointsTo_rows4`), so 128 transfers may be in flight into it at once; the array is split into read
  shares, one per transfer in flight (`toks4`), so 128 transfers may read it at once, two of them the same row.
-/
import proofs.«412556_j37890201485521_3_alg».proof.Proof.Gen.Kernel
import proofs.«412556_j37890201485521_3_alg».proof.Proof.BGather4Defs
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The operands -/

/-- The index table and the HBM array as the kernel is handed them: whole buffers. -/
abbrev tbM4 : Memref sig .tc .smem S4096 .i32 := Memref.whole main_v56
abbrev hbM4 : Memref sig .tc .hbm S50000x64 .f32 := Memref.whole main_v53

/-- A memref's buffer on core `c`: its contents type, and it held whole at share `q` at contents `f`. -/
abbrev MBuf4 (c : Dev nD) {sp : Space} {S : Shape} {e : EltTy} (M : Memref sig .tc sp S e) : Type := Buf (Elt F) (M.view.loc (c : Thread nD τ))
abbrev mPt4 (c : Dev nD) {sp : Space} {S : Shape} {e : EltTy} (M : Memref sig .tc sp S e) (q : PosShare TreeShare) (f : MBuf4 (F := F) c M) : sProp 𝕄 :=
  M.view.loc (c : Thread nD τ) ↦{q} f

/-- Row `j` of the output window as the kernel names it: the window's slice at row `j`, its unit axis dropped. -/
abbrev row4 (arg3 : Memref sig .tc .vmem S128x64 .f32) (j : ℕ) (h : ∀ a, (![j, 0] : Fin 2 → ℕ) a + S1x64.size a ≤ S128x64.size a) : Memref sig .tc .vmem S64 .f32 :=
  (arg3.slice (Rect.unit (s := S128x64) ![j, 0] S1x64.size h) (fun _ => rfl)).squeeze S64 squeezes_S1x64_S64
/-- A row's own elements held at the full share. -/
abbrev rowPt4 (c : Dev nD) (M : Memref sig .tc .vmem S64 .f32) (f : MBuf4 (F := F) c M) : sProp 𝕄 :=
  M.view.loc (c : Thread nD τ) ↦[M.view.set]{fullShare} f

/-- The kernel's own DMA semaphores, cell by cell. -/
abbrev osem4 : Fin 128 → SemLoc sig := fun j => SemLoc.dma (cc4_scratch0.ix (ix1 (n := 128) j))

/-! ## The table -/

/-- A load through the whole table reads the table's entry at the load's index. -/
theorem tb_readAt4 (tb : Vec F S4096 .i32) (B : LoadRect S4096) (x : B.shape.Idx) :
    tbM4.view.readAt (Elt F) B tb x = tb (B.idx x) := rfl

/-- Every word a load reads off a table whose entries are below 50000 is below 50000. -/
theorem tb_lt4 (tb : Vec F S4096 .i32) (htb : ∀ j : Fin 4096, BitVec.toNat (tb (ix1 j)) < 50000)
    (B : LoadRect S4096) (x : B.shape.Idx) : BitVec.toNat (tbM4.view.readAt (Elt F) B tb x) < 50000 := by
  rw [tb_readAt4]
  have h := htb ((B.idx x) 0)
  have e : B.idx x = ix1 (n := 4096) ((B.idx x) 0) := eq_ix1 (n := 4096) (B.idx x)
  rw [e]; exact h

/-- The word a scalar load reads at position `p`. -/
theorem tb_word4 (tb : Vec F S4096 .i32) (off : Fin 1 → ℕ) (h : ∀ a, off a + S1.size a ≤ S4096.size a)
    (x : (Rect.unit (s := S4096) off S1.size h).toLoadRect.shape.Idx) (p : Fin 4096) (hp : off 0 = p.val) :
    tbM4.view.readAt (Elt F) (Rect.unit (s := S4096) off S1.size h).toLoadRect tb x = tb (ix1 p) := by
  rw [tb_readAt4]
  congr 1
  funext a
  match a with
  | ⟨0, _⟩ =>
    apply Fin.ext
    show off 0 + 1 * (x 0).val = p.val
    have hx : (x 0).val < 1 := (x 0).isLt
    omega

/-! ## A row of the HBM array -/

/-- The index a row view of a two-axis array reads for its own index `y`: row `r`, column `y`. -/
theorem row_emb4 {n0 : ℕ} (r : ℕ) (h : ∀ a, (![r, 0] : Fin 2 → ℕ) a + S1x64.size a ≤ (⟨2, ![n0, 64]⟩ : Shape).size a)
    (y : S64.Idx) (hr : r < n0) :
    (Rect.unit (s := (⟨2, ![n0, 64]⟩ : Shape)) ![r, 0] S1x64.size h).emb (Shape.reshapeEquiv squeezes_S1x64_S64.numel_eq y)
      = ix2 (n0 := n0) (n1 := 64) ⟨r, hr⟩ (y 0) := by
  have e : Shape.reshapeEquiv squeezes_S1x64_S64.numel_eq y = Fin.cons ⟨0, Nat.one_pos⟩ y :=
    Shape.reshapeEquiv_cons_one (n := 1) (d := ![64]) squeezes_S1x64_S64.numel_eq y
  rw [e]
  funext a
  match a with
  | ⟨0, _⟩ => exact Fin.ext (by show r + 1 * 0 = r; omega)
  | ⟨1, _⟩ => exact Fin.ext (by show 0 + 1 * (y 0).val = (y 0).val; omega)

/-- The side condition the kernel assumes of a table word `v` — row `v` of the array is in range, stated once for the
    transfer's start and once for its wait — holds of a word below 50000. -/
theorem chk4_of_lt (v : BitVec 32) (h : v.toNat < 50000) :
    (∀ a, (![v.toNat, 0] : Fin 2 → ℕ) a + S1x64.size a ≤ S50000x64.size a)
      ∧ (∀ a, (![v.toNat, 0] : Fin 2 → ℕ) a + S1x64.size a ≤ S50000x64.size a) := by
  have key : ∀ a, (![v.toNat, 0] : Fin 2 → ℕ) a + S1x64.size a ≤ S50000x64.size a := by
    intro a
    match a with
    | ⟨0, _⟩ => show v.toNat + 1 ≤ 50000; omega
    | ⟨1, _⟩ => show 0 + 64 ≤ 64; omega
  exact ⟨key, key⟩

/-! ## What a transfer of one row moves, and what it leaves -/

/-- Row `off 0` of the HBM array as a memref: the array's slice at offsets `off`, its unit axis dropped. -/
abbrev src4 (off : Fin 2 → ℕ) (h : ∀ a, off a + S1x64.size a ≤ S50000x64.size a) : Memref sig .tc .hbm S64 .f32 :=
  (hbM4.slice (Rect.unit (s := S50000x64) off S1x64.size h) (fun _ => rfl)).squeeze S64 squeezes_S1x64_S64

/-- What the row view reads of the array: the array at row `r`. -/
theorem src_read4 (fh : Vec F S50000x64 .f32) (r : ℕ) (h : ∀ a, (![r, 0] : Fin 2 → ℕ) a + S1x64.size a ≤ S50000x64.size a)
    (hr : r < 50000) (y : S64.Idx) :
    (src4 ![r, 0] h).view.read (Elt F) fh y = fh (ix2 (n0 := 50000) (n1 := 64) ⟨r, hr⟩ (y 0)) := by
  show fh ((Rect.unit (s := S50000x64) ![r, 0] S1x64.size h).emb (Shape.reshapeEquiv squeezes_S1x64_S64.numel_eq y)) = _
  rw [row_emb4 (n0 := 50000) r h y hr]

/-- The payload of the transfer for a table word `v` below 50000 is the row of `fh` that `gathered4` names. -/
theorem pay4 (fh : Vec F S50000x64 .f32) (v : BitVec 32) (h : ∀ a, (![v.toNat, 0] : Fin 2 → ℕ) a + S1x64.size a ≤ S50000x64.size a)
    (hv : v.toNat < 50000) (y : S64.Idx) :
    ReadAs.same.apply ((src4 ![v.toNat, 0] h).view.read (Elt F) fh) y
      = fh (ix2 (n0 := 50000) (n1 := 64) (gathered4_row v) (y 0)) := by
  show (src4 ![v.toNat, 0] h).view.read (Elt F) fh y = _
  rw [src_read4 fh v.toNat h hv y]
  congr 2
  exact Fin.ext (gathered4_row_of_lt v hv).symm

/-- Row `t` of the output window, landed: on the row's elements, the row's buffer with the payload `w` written whole
    is the window's buffer with `X` written whole, when `w` is row `t` of `X`. -/
theorem row_writes4 (c : Dev nD) (arg3 : Memref sig .tc .vmem S128x64 .f32) (t : ℕ) (ht : t < 128)
    (h : ∀ a, (![t, 0] : Fin 2 → ℕ) a + S1x64.size a ≤ S128x64.size a)
    (f : Buf (Elt F) (arg3.view.loc (c : Thread nD τ))) (w : S64.Idx → Elt F .f32) (X : Vec F S128x64 .f32)
    (hw : ∀ y : S64.Idx, w y = X (ix2 (n0 := 128) (n1 := 64) ⟨t, ht⟩ (y 0))) :
    ∀ x ∈ (row4 arg3 t h).view.set,
      (row4 arg3 t h).view.writes (Elt F) f [⟨Rect.whole S64, w⟩] x = arg3.view.write (Elt F) f X Finset.univ x := by
  intro x hx
  obtain ⟨y, -, rfl⟩ := Finset.mem_map.mp hx
  rw [← View.write_univ_eq_writes_whole, View.writes_nil, View.write_emb_of_mem _ _ (Finset.mem_univ _)]
  have e : (row4 arg3 t h).view.emb y = arg3.view.emb (ix2 (n0 := 128) (n1 := 64) ⟨t, ht⟩ (y 0)) := by
    show arg3.view.emb ((Rect.unit (s := S128x64) ![t, 0] S1x64.size h).emb (Shape.reshapeEquiv squeezes_S1x64_S64.numel_eq y)) = _
    rw [row_emb4 (n0 := 128) t h y ht]
  rw [e, View.write_emb_of_mem _ _ (Finset.mem_univ _), hw]

/-! ## The window row by row -/

/-- Row `t` of the window, as a rectangle. -/
theorem rowInb4 (t : Fin 128) : ∀ a, (![t.val, 0] : Fin 2 → ℕ) a + S1x64.size a ≤ S128x64.size a :=
  Rect.inb₂ (by show t.val + 1 ≤ 128; omega) (by show 0 + 64 ≤ 64; omega)
def rowRect4 (t : Fin 128) : Rect S128x64 := Rect.unit (s := S128x64) ![t.val, 0] S1x64.size (rowInb4 t)

theorem rowRect4_disj (t t' : Fin 128) (h : t ≠ t') : Disjoint (rowRect4 t).set (rowRect4 t').set :=
  Rect.unit_disjoint 0 (by show t.val + 1 ≤ t'.val ∨ t'.val + 1 ≤ t.val; have := Fin.val_ne_of_ne h; omega)

theorem rowRect4_cov : (Finset.univ : Finset (Fin 128)).biUnion (fun t => (rowRect4 t).set) = Finset.univ := by
  ext x
  simp only [Finset.mem_biUnion, Finset.mem_univ, true_and, iff_true]
  refine ⟨x 0, Rect.mem_set_unit.mpr fun a => ?_⟩
  match a with
  | ⟨0, _⟩ => exact ⟨Nat.le_refl _, Nat.lt_succ_self _⟩
  | ⟨1, _⟩ =>
    have h1 : (x 1).val < 64 := (x 1).isLt
    exact ⟨Nat.zero_le _, by show (x 1).val < 0 + 64; omega⟩

/-- The window's buffer at contents `g` is its 128 rows at `g`. -/
theorem pointsTo_rows4 (c : Dev nD) (arg3 : Memref sig .tc .vmem S128x64 .f32) (q : PosShare TreeShare)
    (g : Buf (Elt F) (arg3.view.loc (c : Thread nD τ))) :
    (arg3.view.loc (c : Thread nD τ) ↦[arg3.view.set]{q} g : sProp 𝕄)
      = bigSep Finset.univ fun t : Fin 128 => (arg3.view.loc (c : Thread nD τ) ↦[(row4 arg3 t.val (rowInb4 t)).view.set]{q} g : sProp 𝕄) := by
  rw [pointsTo_rects (c : Thread nD τ) arg3 q rowRect4 (fun _ _ => rfl) rowRect4_disj rowRect4_cov g]
  refine BI.bigSep_congr fun t _ => ?_
  rw [owns_slice_read (c : Thread nD τ) arg3 q (rowRect4 t) (fun _ => rfl) g]
  exact congrArg (fun S => (arg3.view.loc (c : Thread nD τ) ↦[S]{q} g : sProp 𝕄))
    (View.set_reshape (v := arg3.view.slice (rowRect4 t)) squeezes_S1x64_S64.numel_eq).symm

/-! ## The HBM array as read tokens, the cells listed -/

/-- Halving `a` times and then `i` times is halving `a + i` times. -/
theorem shareDrop_add4 (q : PosShare TreeShare) (a : ℕ) : ∀ i, Transfers.shareDrop (Transfers.shareDrop q a) i = Transfers.shareDrop q (a + i)
  | 0 => rfl
  | i + 1 => by
    show (Transfers.shareDrop (Transfers.shareDrop q a) i).left = (Transfers.shareDrop q (a + i)).left
    rw [shareDrop_add4 q a i]

/-- A read token of what remains after `a` tokens is a later token of the whole. -/
theorem shareTokN_add4 (q : PosShare TreeShare) (a i : ℕ) : Transfers.shareTokN (Transfers.shareDrop q a) i = Transfers.shareTokN q (a + i) := by
  unfold Transfers.shareTokN; rw [shareDrop_add4]

/-- The array whole is: what remains after `a + 128` tokens, the first `a` tokens (never lent), and tokens `a` … `a + 127`, one for
    each transfer in flight. -/
theorem toks4 (c : Dev nD) (fh : MBuf4 (F := F) c hbM4) (a : ℕ) :
    (mPt4 c hbM4 fullShare fh : sProp 𝕄)
      ⊣⊢ iprop(mPt4 c hbM4 (Transfers.shareDrop fullShare (a + 128)) fh
          ∗ BI.bigSep (Finset.range a) (fun k => mPt4 c hbM4 (Transfers.shareTokN fullShare k) fh)
          ∗ BI.bigSep (Finset.range 128) (fun k => mPt4 c hbM4 (Transfers.shareTokN fullShare (a + k)) fh)) := by
  have h1 := Transfers.pointsTo_toks_range (Ix := Unit) (Name := ℕ) (U := Pipeline.UD sig nD τ) (Lvl := ℕ) (Val := Elt F)
    (ℓ := hbM4.view.loc (c : Thread nD τ)) (S := Finset.univ) (f := fh) fullShare a
  have h2 := Transfers.pointsTo_toks_range (Ix := Unit) (Name := ℕ) (U := Pipeline.UD sig nD τ) (Lvl := ℕ) (Val := Elt F)
    (ℓ := hbM4.view.loc (c : Thread nD τ)) (S := Finset.univ) (f := fh) (Transfers.shareDrop fullShare a) 128
  simp only [shareTokN_add4, shareDrop_add4] at h2
  constructor
  · refine h1.1.trans ((sep_mono_left h2.1).trans ?_)
    iintro ⟨⟨Hd, Ht⟩, Hx⟩
    isplitl [Hd]; · iexact Hd
    isplitl [Hx]; · iexact Hx
    iexact Ht
  · refine BIBase.Entails.trans ?_ ((sep_mono_left h2.2).trans h1.2)
    iintro ⟨Hd, Hx, Ht⟩
    isplitl [Hd Ht]; · isplitl [Hd] <;> iassumption
    iexact Hx

/-! ## A row landed, in closed form -/

/-- The payload of the transfer whose table word was read at position `128 * i + t` is row `t` of `gathered4`. -/
theorem pay_gathered4 (i : grid4.Coords) (tb : Vec F S4096 .i32) (fh : Vec F S50000x64 .f32)
    (htb : ∀ j : Fin 4096, BitVec.toNat (tb (ix1 j)) < 50000) (t : Fin 128)
    (offA : Fin 1 → ℕ) (hA : ∀ a, offA a + S1.size a ≤ S4096.size a) (hoffA : offA = ![128 * (i 0).val + t.val])
    (x : (Rect.unit (s := S4096) offA S1.size hA).toLoadRect.shape.Idx)
    (hB : ∀ a, (![BitVec.toNat (tbM4.view.readAt (Elt F) (Rect.unit (s := S4096) offA S1.size hA).toLoadRect tb x), 0] : Fin 2 → ℕ) a
      + S1x64.size a ≤ S50000x64.size a)
    (y : S64.Idx) :
    ReadAs.same.apply ((src4 ![BitVec.toNat (tbM4.view.readAt (Elt F) (Rect.unit (s := S4096) offA S1.size hA).toLoadRect tb x), 0] hB).view.read (Elt F) fh) y
      = gathered4 i tb fh (ix2 (n0 := 128) (n1 := 64) t (y 0)) := by
  have hv : tbM4.view.readAt (Elt F) (Rect.unit (s := S4096) offA S1.size hA).toLoadRect tb x = tb (ix1 (gathered4_pos i t)) :=
    tb_word4 tb offA hA x (gathered4_pos i t) (by rw [hoffA, gathered4_pos_val]; rfl)
  rw [pay4 fh _ hB (tb_lt4 tb htb _ _) y, hv]
  rfl

/-- Row `t` landed, restated over the window's buffer with `gathered4` written whole. -/
theorem row_land4 (c : Dev nD) (i : grid4.Coords) (arg3 : Memref sig .tc .vmem S128x64 .f32) (t : ℕ) (ht : t < 128)
    (h : ∀ a, (![t, 0] : Fin 2 → ℕ) a + S1x64.size a ≤ S128x64.size a)
    (f : Buf (Elt F) (arg3.view.loc (c : Thread nD τ))) (tb : Vec F S4096 .i32) (fh : Vec F S50000x64 .f32)
    (w : S64.Idx → Elt F .f32)
    (hw : ∀ y : S64.Idx, w y = gathered4 i tb fh (ix2 (n0 := 128) (n1 := 64) ⟨t, ht⟩ (y 0))) :
    (rowPt4 c (row4 arg3 t h) ((row4 arg3 t h).view.writes (Elt F) f [⟨Rect.whole S64, w⟩]) : sProp 𝕄)
      ⊢ rowPt4 c (row4 arg3 t h) (arg3.view.write (Elt F) f (gathered4 i tb fh) Finset.univ) :=
  Entails.of_eq (pointsTo_congr (row_writes4 c arg3 t ht h f w (gathered4 i tb fh) hw))

/-! ## The window whole again -/

/-- The window's buffer with `X` written through it whole is the window owned at `X`. -/
theorem owns_of_write4 (c : Dev nD) (arg3 : Memref sig .tc .vmem S128x64 .f32) (f : Buf (Elt F) (arg3.view.loc (c : Thread nD τ)))
    (X : Vec F S128x64 .f32) :
    (arg3.view.loc (c : Thread nD τ) ↦[arg3.view.set]{fullShare} arg3.view.write (Elt F) f X Finset.univ : sProp 𝕄)
      ⊢ owns (c : Thread nD τ) arg3 fullShare X := by
  unfold owns
  iintro H
  iexists (arg3.view.write (Elt F) f X Finset.univ)
  isplitr
  · ipureintro; exact View.read_write_univ _ _
  iexact H

end Cert.Kernel.Hand
-- ==== Proof.BGatherBody4.lean ====
/-
  The body of the row gather (custom call 4) on whole operands: the triple the region's proof data consume.

  At grid point `i` the kernel is handed its output window's staging memref `arg3`, the index table (scalar memory) and the
  HBM array whole, and its 128 DMA semaphores at zero. `gatherBody4`: if every table entry is below 50000, the body runs to a
  continuation that holds the window at `gathered4 i tb fh` — row `y0` of the window is row `tb (128 * i + y0)` of the array —
  and everything else as it was. The proof restates the three whole holdings as the lists the run is stated over — the
  window row by row (`rows_list4`), the array as read shares (`toks4`, `toks_list4`: the shares below the cells' numbers and
  what remains after them are never lent, and wait here), the cells one by one (`cells_list4`) —, runs the body
  (`gatherRun4`), and puts each list back: the rows, each at `gathered4` written through the window, are the window owned
  at `gathered4` (`owns_of_write4`).
-/
import proofs.«412556_j37890201485521_3_alg».proof.Proof.BGatherRun4

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

set_option maxHeartbeats 4000000 in
/-- THE BODY'S TRIPLE: on the window owned at anything, the table and the array whole, the kernel's cells at zero and the
    core's `owes`, the body of custom call 4 at grid point `i` runs to the continuation holding the window at `gathered4 i tb fh`,
    the table, the array and the cells as they were, and some `owes`. -/
theorem gatherBody4 (tb : Vec F S4096 .i32) (fh : Vec F S50000x64 .f32)
    (htb : ∀ j : Fin 4096, BitVec.toNat (tb (ix1 j)) < 50000)
    (c : Dev nD) (i : grid4.Coords) (arg3 : Memref sig .tc .vmem S128x64 .f32) (harg3 : arg3.IsWhole)
    (W : Waits sig Unit) (K : PUnit → sProp 𝕄) :
    iprop((∃ d, owns (c : Thread nD τ) arg3 fullShare d)
        ∗ (((c : Thread nD τ).loc main_v56) ↦{fullShare} tb)
        ∗ (((c : Thread nD τ).loc main_v53) ↦{fullShare} fh)
        ∗ Pipeline.ownSems0 (Ix := Unit) (Name := ℕ) (U := Pipeline.UD sig nD τ) (Lvl := ℕ) (Val := Elt F) (τ := τ) osem4 c
        ∗ owes (c : Thread nD τ) 0 W
        ∗ (iprop(owns (c : Thread nD τ) arg3 fullShare (gathered4 i tb fh)
            ∗ (((c : Thread nD τ).loc main_v56) ↦{fullShare} tb)
            ∗ (((c : Thread nD τ).loc main_v53) ↦{fullShare} fh)
            ∗ Pipeline.ownSems0 (Ix := Unit) (Name := ℕ) (U := Pipeline.UD sig nD τ) (Lvl := ℕ) (Val := Elt F) (τ := τ) osem4 c
            ∗ (∃ W', owes (c : Thread nD τ) 0 W')) -∗ K ⟨⟩))
      ⊢ wp frame (wpE (defs₀ (F := F)) Variants.none c none) Set.univ
          (cc4__gather_kernel i (Memref.whole main_v56) (Memref.isWhole_whole _) (Memref.whole main_v53) (Memref.isWhole_whole _) arg3 harg3 cc4_scratch0) K := by
  iintro ⟨⟨%d, Hown⟩, HT, HH, HS, HW, Hk⟩
  -- the window's buffer at its contents, row by row
  icases (show owns (c : Thread nD τ) arg3 fullShare d
      ⊢ iprop(∃ f, ⌜arg3.view.read (Elt F) f = d⌝ ∗ arg3.view.loc (c : Thread nD τ) ↦[arg3.view.set]{fullShare} f) from .rfl) $$ Hown with ⟨%f, -, H1⟩
  icases (Entails.of_eq (rows_list4 c arg3 f)) $$ H1 with H1
  -- the array as read shares: what remains, the shares below the cells' numbers, the cells' shares
  icases ((toks4 c fh semBase4).1) $$ HH with ⟨Hd, Hx, HH⟩
  icases (Entails.of_eq (toks_list4 c fh)) $$ HH with HH
  -- the cells one by one
  icases (Entails.of_eq (cells_list4 (F := F) c)) $$ HS with HS
  iapply (gatherRun4 c i arg3 harg3 tb fh f htb W K)
  isplitl [H1]; · iexact H1
  isplitl [HT]; · iexact HT
  isplitl [HH]; · iexact HH
  isplitl [HS]; · iexact HS
  isplitl [HW]; · iexact HW
  iintro ⟨H1, HT, HH, HS, HW⟩
  iapply Hk
  isplitl [H1]
  · icases (Entails.of_eq (rows_list4 c arg3 (arg3.view.write (Elt F) f (gathered4 i tb fh) Finset.univ)).symm) $$ H1 with H1
    iapply (owns_of_write4 c arg3 f (gathered4 i tb fh))
    iexact H1
  isplitl [HT]; · iexact HT
  isplitl [Hd Hx HH]
  · icases (Entails.of_eq (toks_list4 c fh).symm) $$ HH with HH
    iapply ((toks4 c fh semBase4).2)
    isplitl [Hd]; · iexact Hd
    isplitl [Hx]; · iexact Hx
    iexact HH
  isplitl [HS]
  · icases (Entails.of_eq (cells_list4 (F := F) c).symm) $$ HS with HS
    iexact HS
  iexact HW

end Cert.Kernel.Hand

end
-- ==== Proof.BRunMain.lean ====
/-
  The run of @main with nothing left to assume: each gathering call's body is the row-by-row copy proved for it, at
  the call's own table (the clipped ids, every entry a row of the array) and at the array the call finds.
-/
import proofs.«412556_j37890201485521_3_alg».proof.Proof.BRun
import proofs.«412556_j37890201485521_3_alg».proof.Proof.BTableRange
import proofs.«412556_j37890201485521_3_alg».proof.Proof.BGatherBody3
import proofs.«412556_j37890201485521_3_alg».proof.Proof.BGatherBody4

noncomputable section

namespace Cert.Kernel.Hand

open Cert.Kernel Cert.Kernel.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ) (ρ : Dev nD → PrngReg)

/-- The first gathering call's body at the call's own table and array. -/
theorem body3 (c : Dev nD) : Body3 (atRefs (U8 m)) (a3 m) c :=
  fun i arg3 harg3 W K => gatherBody3 ((a3 m).1 0) (atRefs (U8 m) c main_v52) (table3_lt m) c i arg3 harg3 W K

/-- The second gathering call's body at the call's own table and array. -/
theorem body4 (c : Dev nD) : Body4 (atRefs (U11 m)) (a4 m) c :=
  fun i arg3 harg3 W K => gatherBody4 ((a4 m).1 0) (atRefs (U11 m) c main_v53) (table4_lt m) c i arg3 harg3 W K

/-- Every weakly fair execution of @main ends, nothing faulting, with the two results at the chain's last
    valuation and the seven arguments as launched. -/
theorem run_main : θ_run defs (onTc (τ := τ) (main (F := F))) ⟨m, fun _ => 0, ρ⟩ (fun r => ∀ c : Dev nD,
      r.2.mem ((c.tc : Thread nD τ).loc main_v55) = U12 m c main_v55
      ∧ r.2.mem ((c.tc : Thread nD τ).loc main_v57) = U12 m c main_v57
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  run_main_of m ρ (body3 m) (body4 m)

end Cert.Kernel.Hand

end
-- ==== Proof.PreDecode.lean ====
/-
  The statement's precondition is a conjunction, printed as one scalar bit: the three float tables are finite, and the two
  index vectors of 4096 signed 32-bit words lie in range, 0 ≤ user_ids[j] < 100000 and 0 ≤ item_ids[j] < 50000 for every j. Each
  range test is an elementwise signed comparison against a scalar constant broadcast to the vector's shape, folded by
  `and` over the one axis into the scalar. This module reads the two range facts back out of "the bit is 1": a
  conjunction bit that is 1 has both operands 1; an `and`-fold into the one scalar index that is 1 met a 1 at every
  element; a comparison bit that is 1 orders its operands as signed integers; and the broadcast constant reads the
  literal at every position. The float type plays no part, so the facts are stated over any float instance.
-/
import proofs.«412556_j37890201485521_3_alg».proof.Pre_finite_inputs
import proofs.«412556_j37890201485521_3_alg».proof.Proof.Gen.Pre_finite_inputs
import Idealize.ShloMosaic.Lib.ReduceAll
import Idealize.ShloMosaic.Lib.IdealHost
import Idealize.ShloMosaic.Lib.ValueLayout

noncomputable section

namespace Cert.Hand.Pre

open Idealize.ShloMosaic Idealize.ShloMosaic.ValueIdx
open Cert.Pre_finite_inputs

/-- The scalar shape has one index. -/
instance : Subsingleton S_.Idx := ⟨fun a b => funext fun d => d.elim0⟩

variable [Cert.Pre_finite_inputs.Facts]

/-- One range test read back: if the `and`-fold over the vector of the comparison bits of `v` against the scalar literal
    `c` broadcast along it is 1 at the scalar index, the comparison bit is 1 at every position, with the literal in
    place of the broadcast. -/
theorem all_cmp (p : CmpIPredicate) (v : IVec S4096 32) (c : BitVec 32)
    (e : Host.reduce IntOp.andi (cmpi p v (broadcastInDim S4096 ![] Facts.bcast_S_S4096 (constantI S_ 32 c)))
        (constantI S_ 1 1#1) Facts.reducesTo_S4096_S_d0 Facts.h_S_ ix0 = 1#1) (j : Fin 4096) :
    IntOp.cmpi p (v (ix1 j)) c = 1#1 := by
  have q := Host.reduce_andi_all _ _ _ _ ix0 e (ix1 j)
  rw [cmpi, broadcastInDim_scalar_apply, constantI_apply] at q
  exact q

variable {F : FTy → Type} [FloatOps F]
  (a0 : FVec F S100000x64 .f32) (a1 : FVec F S50000x64 .f32) (a2 : FVec F S2400000 .f32)
  (a3 a4 : IVec S2400000 32) (a5 a6 : IVec S4096 32)

/-- The four range tests, as comparison bits at position j. -/
theorem range_bits (h : fn (F := F) a0 a1 a2 a3 a4 a5 a6 = fun _ => 1#1) (j : Fin 4096) :
    (IntOp.cmpi .sge (a5 (ix1 j)) 0#32 = 1#1 ∧ IntOp.cmpi .slt (a5 (ix1 j)) 100000#32 = 1#1)
      ∧ IntOp.cmpi .sge (a6 (ix1 j)) 0#32 = 1#1 ∧ IntOp.cmpi .slt (a6 (ix1 j)) 50000#32 = 1#1 := by
  have e := congrFun h ix0
  dsimp only [fn, fn_part1] at e
  simp only [andi, IntOp.andi_eq_one] at e
  obtain ⟨⟨⟨⟨-, u0⟩, u1⟩, i0⟩, i1⟩ := e
  exact ⟨⟨all_cmp _ _ _ u0 j, all_cmp _ _ _ u1 j⟩, all_cmp _ _ _ i0 j, all_cmp _ _ _ i1 j⟩

/-- Every user id is a signed word in [0, 100000). -/
theorem user_ids_range (h : fn (F := F) a0 a1 a2 a3 a4 a5 a6 = fun _ => 1#1) (j : Fin 4096) :
    0 ≤ (a5 (ix1 j)).toInt ∧ (a5 (ix1 j)).toInt < 100000 := by
  obtain ⟨⟨lo, hi⟩, -⟩ := range_bits a0 a1 a2 a3 a4 a5 a6 h j
  rw [IntOp.cmpi_sge] at lo
  rw [IntOp.cmpi_slt] at hi
  exact ⟨lo, hi⟩

/-- Every item id is a signed word in [0, 50000). -/
theorem item_ids_range (h : fn (F := F) a0 a1 a2 a3 a4 a5 a6 = fun _ => 1#1) (j : Fin 4096) :
    0 ≤ (a6 (ix1 j)).toInt ∧ (a6 (ix1 j)).toInt < 50000 := by
  obtain ⟨-, lo, hi⟩ := range_bits a0 a1 a2 a3 a4 a5 a6 h j
  rw [IntOp.cmpi_sge] at lo
  rw [IntOp.cmpi_slt] at hi
  exact ⟨lo, hi⟩

end Cert.Hand.Pre

end
-- ==== Proof.Bridge.lean ====
/-
  The value side of the algebraic claim, at the extended reals: under the range hypotheses on
  the ids, the kernel's two results (KSpec's terms) and the reference's two results are the same
  function of the seven arguments.

  The mathematics. (1) The relabelling of a table as 75000 rows of 128 lanes and back is the
  identity, so the three accumulation regions add tables entry by entry, the last one times one
  quarter. (2) The reference's three scatter stages are the same sparse product, applied to the
  same tables: the product is carried as one function and never opened. (3) The word 0x3E800000
  is 1/4 and the word 0x40800000 is 4, and x / 4 = x · (1/4) for every extended real x: no
  finiteness is used, the sums are in the same order on both sides. (4) A row gather reads its
  table at the start index read signed and clamped into the table. For 0 ≤ id < height the
  reference's wrap (a negative id counted from the end), the gather's clamp, the kernel's clip
  into [0, height − 1] and the reduction modulo the height are all the identity, so both sides
  read row id, column k of the same slice of the mean table.
-/
import proofs.«412556_j37890201485521_3_alg».proof.Proof.KSpec
import proofs.«412556_j37890201485521_3_alg».proof.Proof.Gen.ReferenceIdeal.Read
import Idealize.ShloMosaic.PureOps.Ideal
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Read

/-! ## The two literals -/

/-- The word 0x3E800000 is one quarter. -/
theorem quarter_word : Ideal.ofBits .f32 0x3E800000#32 = (((1 / 4 : ℝ)) : EReal) := by
  simp [Ideal.ofBits, Ideal.ieee, -EReal.coe_mul]; norm_num

/-- The word 0x40800000 is four. -/
theorem four_word : Ideal.ofBits .f32 0x40800000#32 = ((4 : ℝ) : EReal) := by
  simp [Ideal.ofBits, Ideal.ieee, -EReal.coe_mul]; norm_num

/-- Dividing by four is multiplying by one quarter, on every extended real. -/
theorem div_four (x : EReal) :
    Ideal.div x (Ideal.ofBits .f32 0x40800000#32) = x * Ideal.ofBits .f32 0x3E800000#32 := by
  rw [four_word, quarter_word, Ideal.div_coe (by norm_num : (4 : ℝ) ≠ 0)]

/-! ## Ids in range: wrap, clip, clamp and remainder are the identity -/

/-- A nonnegative id is not counted from the end. -/
theorem wrap_id (n x : BitVec 32) (h0 : 0 ≤ x.toInt) :
    Scalar.select (IntOp.cmpi .slt x 0#32) (IntOp.addi x n) x = x := by
  have : x.slt 0#32 = false := by
    rw [BitVec.slt]; simpa using h0
  simp [IntOp.cmpi, this, Scalar.select]

/-- An id in [0, hi] is its own clip. -/
theorem clip_id (hi x : BitVec 32) (h0 : 0 ≤ x.toInt) (h1 : x.toInt ≤ hi.toInt) :
    IntOp.minsi hi (IntOp.maxsi 0#32 x) = x := by
  have a : x.slt 0#32 = false := by rw [BitVec.slt]; simpa using h0
  have b : hi.slt x = false := by rw [BitVec.slt]; simpa using h1
  simp [IntOp.minsi, IntOp.maxsi, a, b]

/-- For 0 ≤ id < n ≤ 2^31 the id read signed, clamped to n − 1, is the id read unsigned, and the
    latter is its own remainder modulo n. -/
theorem row_of_range (x : BitVec 32) (n : Nat) (hn : 0 < n) (h0 : 0 ≤ x.toInt) (h1 : x.toInt < n) :
    min x.toInt.toNat (n - 1) = x.toNat % n := by
  have ex := BitVec.toInt_eq_toNat_cond x
  have hx := x.isLt
  have e : x.toInt.toNat = x.toNat := by split at ex <;> omega
  have hlt : x.toNat < n := by omega
  rw [e, Nat.mod_eq_of_lt hlt]
  omega

variable [Cert.ReferenceIdeal.Facts]

/-! ## The row gathers read at an index -/

/-- The row gather of the user slice read at (r, k): the slice's row at the start index of r, read signed and clamped into the slice, column k. -/
theorem gatherUsers_apply {α : Type} (x : S100000x64.Idx → α) (idx : IVec S4096x1 32) (y : S4096x64.Idx) :
    Host.gather gather_S100000x64_S4096x1_S4096x64_1_0_n_n_0_1_164 x idx y
      = x (ix2 (⟨min (idx (ix2 (y 0) (0 : Fin 1))).toInt.toNat 99999, by omega⟩ : Fin 100000) (y 1)) := by
  unfold Host.gather
  congr 1
  funext a
  refine Fin.ext ?_
  match a with
  | ⟨0, _⟩ =>
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S4096x1_S4096x64_1_0_n_n_0_1_164.startIndexMap from List.mem_singleton.mpr rfl)]
    have hsi : GatherDims.siIdx gather_S100000x64_S4096x1_S4096x64_1_0_n_n_0_1_164 y
        ⟨List.idxOf (0 : Fin 2) gather_S100000x64_S4096x1_S4096x64_1_0_n_n_0_1_164.startIndexMap, List.idxOf_lt_length_iff.2 (List.mem_singleton.mpr rfl)⟩
        = ix2 (y 0) (0 : Fin 1) := by
      funext b; refine Fin.ext ?_
      match b with
      | ⟨0, _⟩ => rfl
      | ⟨1, _⟩ => rfl
    rw [hsi]
    rfl
  | ⟨1, _⟩ =>
    show GatherDims.start _ y idx 1 + GatherDims.batchCoord _ y 1 + GatherDims.offCoord _ y 1 = (y 1).val
    rw [GatherDims.batchCoord_eq_zero _ _ _ List.not_mem_nil]
    unfold GatherDims.start
    rw [dif_neg (show ¬ (1 : Fin 2) ∈ gather_S100000x64_S4096x1_S4096x64_1_0_n_n_0_1_164.startIndexMap from by show ¬ (1 : Fin 2) ∈ [(0 : Fin 2)]; decide)]
    simp only [Nat.add_zero, Nat.zero_add]
    rfl

/-- The row gather of the item slice read at (r, k). -/
theorem gatherItems_apply {α : Type} (x : S50000x64.Idx → α) (idx : IVec S4096x1 32) (y : S4096x64.Idx) :
    Host.gather gather_S50000x64_S4096x1_S4096x64_1_0_n_n_0_1_164 x idx y
      = x (ix2 (⟨min (idx (ix2 (y 0) (0 : Fin 1))).toInt.toNat 49999, by omega⟩ : Fin 50000) (y 1)) := by
  unfold Host.gather
  congr 1
  funext a
  refine Fin.ext ?_
  match a with
  | ⟨0, _⟩ =>
    show GatherDims.start _ y idx 0 + GatherDims.batchCoord _ y 0 + GatherDims.offCoord _ y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S50000x64_S4096x1_S4096x64_1_0_n_n_0_1_164.startIndexMap from List.mem_singleton.mpr rfl)]
    have hsi : GatherDims.siIdx gather_S50000x64_S4096x1_S4096x64_1_0_n_n_0_1_164 y
        ⟨List.idxOf (0 : Fin 2) gather_S50000x64_S4096x1_S4096x64_1_0_n_n_0_1_164.startIndexMap, List.idxOf_lt_length_iff.2 (List.mem_singleton.mpr rfl)⟩
        = ix2 (y 0) (0 : Fin 1) := by
      funext b; refine Fin.ext ?_
      match b with
      | ⟨0, _⟩ => rfl
      | ⟨1, _⟩ => rfl
    rw [hsi]
    rfl
  | ⟨1, _⟩ =>
    show GatherDims.start _ y idx 1 + GatherDims.batchCoord _ y 1 + GatherDims.offCoord _ y 1 = (y 1).val
    rw [GatherDims.batchCoord_eq_zero _ _ _ List.not_mem_nil]
    unfold GatherDims.start
    rw [dif_neg (show ¬ (1 : Fin 2) ∈ gather_S50000x64_S4096x1_S4096x64_1_0_n_n_0_1_164.startIndexMap from by show ¬ (1 : Fin 2) ∈ [(0 : Fin 2)]; decide)]
    simp only [Nat.add_zero, Nat.zero_add]
    rfl

variable [Cert.KernelIdeal.Facts]

section AnyFloat
variable {F : FTy → Type} [FloatOps F]

/-! ## The accumulation regions through the relabelling -/

/-- Adding through the relabelling is adding: the relabelling there and back is the identity. -/
theorem accSum_eq (a b : Vec F S150000x64 .f32) : Cert.KernelIdeal.Hand.accSum a b = addf a b := by
  have e : Cert.KernelIdeal.Hand.accSum a b
      = addf (Cert.KernelIdeal.Hand.ofLanes (Cert.KernelIdeal.Hand.toLanes a)) (Cert.KernelIdeal.Hand.ofLanes (Cert.KernelIdeal.Hand.toLanes b)) := rfl
  rw [e]
  unfold Cert.KernelIdeal.Hand.ofLanes Cert.KernelIdeal.Hand.toLanes
  rw [shapeCast_shapeCast, shapeCast_shapeCast]

/-- The last region through the relabelling: the sum times the quarter word. -/
theorem accMean_eq (a b : Vec F S150000x64 .f32) :
    Cert.KernelIdeal.Hand.accMean a b = mulf (addf a b) (broadcast S150000x64 (Scalar.ofBits .f32 0x3E800000#32)) := by
  have e : Cert.KernelIdeal.Hand.accMean a b
      = mulf (addf (Cert.KernelIdeal.Hand.ofLanes (Cert.KernelIdeal.Hand.toLanes a)) (Cert.KernelIdeal.Hand.ofLanes (Cert.KernelIdeal.Hand.toLanes b)))
          (broadcast S150000x64 (Scalar.ofBits .f32 0x3E800000#32)) := rfl
  rw [e]
  unfold Cert.KernelIdeal.Hand.ofLanes Cert.KernelIdeal.Hand.toLanes
  rw [shapeCast_shapeCast, shapeCast_shapeCast]

/-! ## The reference's stages are the same tables -/

/-- The reference's concatenation is the node table. -/
theorem all_eq (x0 : Vec F S100000x64 .f32) (x1 : Vec F S50000x64 .f32) :
    val_main_v0 (F := F) x0 x1 = Cert.KernelIdeal.Hand.allEmb x0 x1 := rfl

/-- The reference's three scatter stages are one, two and three hops of the node table: the same
    sixteen operations applied to the same table. -/
theorem hop1_eq (x0 : Vec F S100000x64 .f32) (x1 : Vec F S50000x64 .f32) (x2 : Vec F S2400000 .f32) (x3 x4 : Vec F S2400000 .i32) :
    val_main_v13 (F := F) x0 x1 x2 x3 x4 = Cert.KernelIdeal.Hand.hop1 x0 x1 x2 x3 x4 := rfl

theorem hop2_eq (x0 : Vec F S100000x64 .f32) (x1 : Vec F S50000x64 .f32) (x2 : Vec F S2400000 .f32) (x3 x4 : Vec F S2400000 .i32) :
    val_main_v27 (F := F) x0 x1 x2 x3 x4 = Cert.KernelIdeal.Hand.hop2 x0 x1 x2 x3 x4 := rfl

theorem hop3_eq (x0 : Vec F S100000x64 .f32) (x1 : Vec F S50000x64 .f32) (x2 : Vec F S2400000 .f32) (x3 x4 : Vec F S2400000 .i32) :
    val_main_v41 (F := F) x0 x1 x2 x3 x4 = Cert.KernelIdeal.Hand.hop3 x0 x1 x2 x3 x4 := rfl

/-- The reference's running sum: ((all + x1) + x2) + x3 over the same tables. -/
theorem acc_eq (x0 : Vec F S100000x64 .f32) (x1 : Vec F S50000x64 .f32) (x2 : Vec F S2400000 .f32) (x3 x4 : Vec F S2400000 .i32) :
    val_main_v42 (F := F) x0 x1 x2 x3 x4
      = addf (addf (addf (Cert.KernelIdeal.Hand.allEmb x0 x1) (Cert.KernelIdeal.Hand.hop1 x0 x1 x2 x3 x4)) (Cert.KernelIdeal.Hand.hop2 x0 x1 x2 x3 x4))
          (Cert.KernelIdeal.Hand.hop3 x0 x1 x2 x3 x4) := by
  unfold val_main_v42 val_main_v28 val_main_v14
  rw [hop1_eq, hop2_eq, hop3_eq, all_eq]

end AnyFloat

/-! ## The mean table: x · (1/4) = x / 4 -/

/-- The kernel's mean table is the reference's, entry by entry. -/
theorem light_apply (x0 : Vec Ideal S100000x64 .f32) (x1 : Vec Ideal S50000x64 .f32) (x2 : Vec Ideal S2400000 .f32) (x3 x4 : Vec Ideal S2400000 .i32) (i : S150000x64.Idx) :
    Cert.KernelIdeal.Hand.light (F := Ideal) x0 x1 x2 x3 x4 i = val_main_v44 (F := Ideal) x0 x1 x2 x3 x4 i := by
  unfold Cert.KernelIdeal.Hand.light
  rw [accMean_eq, accSum_eq, accSum_eq, val_main_v44_apply, acc_eq]
  generalize addf (addf (addf (Cert.KernelIdeal.Hand.allEmb (F := Ideal) x0 x1) (Cert.KernelIdeal.Hand.hop1 x0 x1 x2 x3 x4)) (Cert.KernelIdeal.Hand.hop2 x0 x1 x2 x3 x4))
    (Cert.KernelIdeal.Hand.hop3 x0 x1 x2 x3 x4) = s
  show s i * Ideal.ofBits .f32 0x3E800000#32 = Ideal.div (s i) (Ideal.ofBits .f32 0x40800000#32)
  rw [div_four]

/-! ## The two results -/

/-- The start index of row r of the user gather is the id of r: a nonnegative id is not counted from the end. -/
theorem userStart (x5 : Vec Ideal S4096 .i32) (r : Fin 4096) (h0 : 0 ≤ (x5 (ix1 r)).toInt) :
    val_main_v52 (F := Ideal) x5 (ix2 r (0 : Fin 1)) = x5 (ix1 r) := by
  have e : idx_main_v52 (ix2 r (0 : Fin 1)) = ix1 r := by
    funext a; refine Fin.ext ?_
    match a with
    | ⟨0, _⟩ => rfl
  rw [val_main_v52_apply, e, val_main_v51_apply, val_main_v48_apply, val_main_v50_apply]
  exact wrap_id 100000#32 _ h0

/-- The start index of row r of the item gather is the id of r: a nonnegative id is not counted from the end. -/
theorem itemStart (x6 : Vec Ideal S4096 .i32) (r : Fin 4096) (h0 : 0 ≤ (x6 (ix1 r)).toInt) :
    val_main_v59 (F := Ideal) x6 (ix2 r (0 : Fin 1)) = x6 (ix1 r) := by
  have e : idx_main_v59 (ix2 r (0 : Fin 1)) = ix1 r := by
    funext a; refine Fin.ext ?_
    match a with
    | ⟨0, _⟩ => rfl
  rw [val_main_v59_apply, e, val_main_v58_apply, val_main_v55_apply, val_main_v57_apply]
  exact wrap_id 50000#32 _ h0

/-- THE USER RESULT. For user ids in [0, 100000) the kernel's first result is the reference's. -/
theorem outUsers_eq (x0 : Vec Ideal S100000x64 .f32) (x1 : Vec Ideal S50000x64 .f32) (x2 : Vec Ideal S2400000 .f32) (x3 x4 : Vec Ideal S2400000 .i32) (x5 : Vec Ideal S4096 .i32)
    (h : ∀ j : Fin 4096, 0 ≤ (x5 (ix1 j)).toInt ∧ (x5 (ix1 j)).toInt < 100000) :
    Cert.KernelIdeal.Hand.outUsers (F := Ideal) x0 x1 x2 x3 x4 x5 = val_main_v53 (F := Ideal) x0 x1 x2 x3 x4 x5 := by
  funext y
  obtain ⟨r, k, rfl⟩ : ∃ (r : Fin 4096) (k : Fin 64), y = ix2 r k := ⟨y 0, y 1, eq_ix2 y⟩
  obtain ⟨h0, h1⟩ := h r
  have hhi : (x5 (ix1 r)).toInt ≤ (99999#32 : BitVec 32).toInt := by
    have e : (99999#32 : BitVec 32).toInt = 99999 := by decide
    omega
  unfold val_main_v53
  rw [gatherUsers_apply, val_main_v45_apply, ← light_apply]
  show Cert.KernelIdeal.Hand.light (F := Ideal) x0 x1 x2 x3 x4 _ = Cert.KernelIdeal.Hand.light (F := Ideal) x0 x1 x2 x3 x4 _
  refine congrArg (Cert.KernelIdeal.Hand.light (F := Ideal) x0 x1 x2 x3 x4) (Shape.idx_ext₂ ?_ ?_)
  · show 0 + (IntOp.minsi 99999#32 (IntOp.maxsi 0#32 (x5 (ix1 r)))).toNat % 100000
      = min (val_main_v52 (F := Ideal) x5 (ix2 r (0 : Fin 1))).toInt.toNat 99999
    rw [userStart x5 r h0, clip_id 99999#32 _ h0 hhi, row_of_range _ 100000 (by decide) h0 h1, Nat.zero_add]
  · show 0 + k.val = k.val
    exact Nat.zero_add _

/-- THE ITEM RESULT. For item ids in [0, 50000) the kernel's second result is the reference's. -/
theorem outItems_eq (x0 : Vec Ideal S100000x64 .f32) (x1 : Vec Ideal S50000x64 .f32) (x2 : Vec Ideal S2400000 .f32) (x3 x4 : Vec Ideal S2400000 .i32) (x6 : Vec Ideal S4096 .i32)
    (h : ∀ j : Fin 4096, 0 ≤ (x6 (ix1 j)).toInt ∧ (x6 (ix1 j)).toInt < 50000) :
    Cert.KernelIdeal.Hand.outItems (F := Ideal) x0 x1 x2 x3 x4 x6 = val_main_v60 (F := Ideal) x0 x1 x2 x3 x4 x6 := by
  funext y
  obtain ⟨r, k, rfl⟩ : ∃ (r : Fin 4096) (k : Fin 64), y = ix2 r k := ⟨y 0, y 1, eq_ix2 y⟩
  obtain ⟨h0, h1⟩ := h r
  have hhi : (x6 (ix1 r)).toInt ≤ (49999#32 : BitVec 32).toInt := by
    have e : (49999#32 : BitVec 32).toInt = 49999 := by decide
    omega
  unfold val_main_v60
  rw [gatherItems_apply, val_main_v46_apply, ← light_apply]
  show Cert.KernelIdeal.Hand.light (F := Ideal) x0 x1 x2 x3 x4 _ = Cert.KernelIdeal.Hand.light (F := Ideal) x0 x1 x2 x3 x4 _
  refine congrArg (Cert.KernelIdeal.Hand.light (F := Ideal) x0 x1 x2 x3 x4) (Shape.idx_ext₂ ?_ ?_)
  · show 100000 + (IntOp.minsi 49999#32 (IntOp.maxsi 0#32 (x6 (ix1 r)))).toNat % 50000
      = 100000 + min (val_main_v59 (F := Ideal) x6 (ix2 r (0 : Fin 1))).toInt.toNat 49999
    rw [itemStart x6 r h0, clip_id 49999#32 _ h0 hhi, row_of_range _ 50000 (by decide) h0 h1]
  · show 0 + k.val = k.val
    exact Nat.zero_add _

/-! ## On the reference's run -/

open Idealize.SL.Sem Idealize.ShloMosaic.TcCoe in
/-- The reference run's first result, from a memory whose arguments are the given arrays, is the kernel's first result of those arrays, for user ids in [0, 100000). -/
theorem users_run_eq (m' : (ℓ : Loc nD τ sig) → Buf (Elt Ideal) ℓ) (c : Dev nD)
    (x0 : Vec Ideal S100000x64 .f32) (x1 : Vec Ideal S50000x64 .f32) (x2 : Vec Ideal S2400000 .f32) (x3 x4 : Vec Ideal S2400000 .i32) (x5 : Vec Ideal S4096 .i32)
    (e0 : m' ((c.tc : Thread nD τ).loc main_arg0) = x0) (e1 : m' ((c.tc : Thread nD τ).loc main_arg1) = x1) (e2 : m' ((c.tc : Thread nD τ).loc main_arg2) = x2)
    (e3 : m' ((c.tc : Thread nD τ).loc main_arg3) = x3) (e4 : m' ((c.tc : Thread nD τ).loc main_arg4) = x4) (e5 : m' ((c.tc : Thread nD τ).loc main_arg5) = x5)
    (h : ∀ j : Fin 4096, 0 ≤ (x5 (ix1 j)).toInt ∧ (x5 (ix1 j)).toInt < 100000) :
    Cert.ReferenceIdeal.Value.res_out0 m' c = Cert.KernelIdeal.Hand.outUsers (F := Ideal) x0 x1 x2 x3 x4 x5 := by
  rw [outUsers_eq x0 x1 x2 x3 x4 x5 h]
  subst e0 e1 e2 e3 e4 e5
  exact val_main_v53_eq m' c

open Idealize.SL.Sem Idealize.ShloMosaic.TcCoe in
/-- The reference run's second result likewise, for item ids in [0, 50000). -/
theorem items_run_eq (m' : (ℓ : Loc nD τ sig) → Buf (Elt Ideal) ℓ) (c : Dev nD)
    (x0 : Vec Ideal S100000x64 .f32) (x1 : Vec Ideal S50000x64 .f32) (x2 : Vec Ideal S2400000 .f32) (x3 x4 : Vec Ideal S2400000 .i32) (x6 : Vec Ideal S4096 .i32)
    (e0 : m' ((c.tc : Thread nD τ).loc main_arg0) = x0) (e1 : m' ((c.tc : Thread nD τ).loc main_arg1) = x1) (e2 : m' ((c.tc : Thread nD τ).loc main_arg2) = x2)
    (e3 : m' ((c.tc : Thread nD τ).loc main_arg3) = x3) (e4 : m' ((c.tc : Thread nD τ).loc main_arg4) = x4) (e6 : m' ((c.tc : Thread nD τ).loc main_arg6) = x6)
    (h : ∀ j : Fin 4096, 0 ≤ (x6 (ix1 j)).toInt ∧ (x6 (ix1 j)).toInt < 50000) :
    Cert.ReferenceIdeal.Value.res_out1 m' c = Cert.KernelIdeal.Hand.outItems (F := Ideal) x0 x1 x2 x3 x4 x6 := by
  rw [outItems_eq x0 x1 x2 x3 x4 x6 h]
  subst e0 e1 e2 e3 e4 e6
  exact val_main_v60_eq m' c

end Cert.ReferenceIdeal.RefValue

end
-- ==== Proof.lean ====
/-
  The proof of this certificate's claim: the three programs run and leave their arguments as they
  were, the idealized kernel is the kernel's own text read at the extended reals, and the idealized
  kernel and the idealized reference, from memories agreeing on the seven arguments, end with equal
  results.

  The mathematics. Both programs build the node table (user rows, then item rows), apply the same
  sparse product to it three times, and take the mean of the table and its three hops: the reference
  as ((all + x1) + x2 + x3) / 4, the kernel in three accumulation regions on the table relabelled
  row-major as 75000 rows of 128 lanes, the last one multiplying by the word for 1/4. The
  relabelling there and back is the identity, x / 4 = x · (1/4) on every extended real, and the
  sums are taken in the same order, so the two mean tables are equal entry by entry with no
  finiteness used. Each result is rows of a slice of the mean table: the reference reads row
  wrap(id) through a gather that clamps, the kernel copies row clip(id). The precondition puts
  every user id in [0, 100000) and every item id in [0, 50000), where wrap, clamp and clip are the
  identity. The kernel's frame needs no precondition: a clipped id is always a row of its table.
-/
import proofs.«412556_j37890201485521_3_alg».proof.Defs
import proofs.«412556_j37890201485521_3_alg».proof.Proof.Gen.Kernel
import proofs.«412556_j37890201485521_3_alg».proof.Proof.Gen.Kernel.Skeleton
import proofs.«412556_j37890201485521_3_alg».proof.Proof.Gen.Kernel.Launch
import proofs.«412556_j37890201485521_3_alg».proof.Proof.Gen.Kernel.Regions
import proofs.«412556_j37890201485521_3_alg».proof.Proof.Gen.Kernel.Points
import proofs.«412556_j37890201485521_3_alg».proof.Proof.Gen.KernelIdeal
import proofs.«412556_j37890201485521_3_alg».proof.Proof.Gen.KernelIdeal.Skeleton
import proofs.«412556_j37890201485521_3_alg».proof.Proof.Gen.KernelIdeal.Launch
import proofs.«412556_j37890201485521_3_alg».proof.Proof.Gen.KernelIdeal.Regions
import proofs.«412556_j37890201485521_3_alg».proof.Proof.Gen.KernelIdeal.Points
import proofs.«412556_j37890201485521_3_alg».proof.Proof.Gen.ReferenceIdeal
import proofs.«412556_j37890201485521_3_alg».proof.Proof.Gen.Pre_finite_inputs
import proofs.«412556_j37890201485521_3_alg».proof.Proof.Gen.ReferenceIdeal.Run
import proofs.«412556_j37890201485521_3_alg».proof.Proof.Gen.ReferenceIdeal.Read
import proofs.«412556_j37890201485521_3_alg».proof.Proof.KSpec
import proofs.«412556_j37890201485521_3_alg».proof.Proof.RunMain
import proofs.«412556_j37890201485521_3_alg».proof.Proof.KVal
import proofs.«412556_j37890201485521_3_alg».proof.Proof.BRunMain
import proofs.«412556_j37890201485521_3_alg».proof.Proof.PreDecode
import proofs.«412556_j37890201485521_3_alg».proof.Proof.Bridge
import Idealize.ShloMosaic.Adequacy
import Idealize.ShloMosaic.Init

noncomputable section

namespace Cert.Proof

open Idealize.ShloMosaic Idealize.SL.Sem

/-- The word-level kernel runs and leaves its arguments as they were: its run with the two results dropped. -/
theorem frame_kernel : Cert.frame_Kernel := fun m ρ _ =>
  (θ_run Cert.Kernel.defs _ _).mono (fun _ h c => (h c).2.2) (Cert.Kernel.Hand.run_main (F := Bits) m ρ)

/-- The idealized kernel likewise. -/
theorem frame_kernelIdeal : Cert.frame_KernelIdeal := fun m ρ _ =>
  (θ_run Cert.KernelIdeal.defs _ _).mono (fun _ h c => (h c).2.2) (Cert.KernelIdeal.Hand.run_main (F := Ideal) m ρ)

/-- The idealized reference likewise: it is host operations only. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- At the extended reals, from memories agreeing on the seven arguments, both programs end with the
    mean table's user rows at the user ids and its item rows at the item ids. The precondition gives the
    ids in range; nothing else of it is used. -/
theorem algebraic : Cert.algebraic_KernelIdeal_ReferenceIdeal := fun m ρ m' ρ' hpre hagree =>
  ⟨fun c => Cert.KernelIdeal.Hand.outUsers (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
   fun c => Cert.KernelIdeal.Hand.outItems (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)),
   (θ_run Cert.KernelIdeal.defs _ _).mono
     (fun _ h c => ⟨(h c).1.trans (Cert.KernelIdeal.Hand.users_val m c),
       (h c).2.1.trans (Cert.KernelIdeal.Hand.items_val m c), (h c).2.2⟩)
     (Cert.KernelIdeal.Hand.run_main (F := Ideal) m ρ),
   (θ_run Cert.ReferenceIdeal.defs _ _).mono
     (fun _ h c => ⟨(h c).1.trans (Cert.ReferenceIdeal.RefValue.users_run_eq m' c _ _ _ _ _ _
         (hagree c).1 (hagree c).2.1 (hagree c).2.2.1 (hagree c).2.2.2.1 (hagree c).2.2.2.2.1 (hagree c).2.2.2.2.2.1
         (fun j => Cert.Hand.Pre.user_ids_range _ _ _ _ _ _ _ (hpre c) j)),
       (h c).2.1.trans (Cert.ReferenceIdeal.RefValue.items_run_eq m' c _ _ _ _ _ _
         (hagree c).1 (hagree c).2.1 (hagree c).2.2.1 (hagree c).2.2.2.1 (hagree c).2.2.2.2.1 (hagree c).2.2.2.2.2.2
         (fun j => Cert.Hand.Pre.item_ids_range _ _ _ _ _ _ _ (hpre c) j)),
       (h c).2.2⟩)
     (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
